-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x512 : Shape := ⟨2, ![4096, 512]⟩
abbrev S4096x8192 : Shape := ⟨2, ![4096, 8192]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_

variable [Facts]

def fn {F : FTy → Type} [FloatOps F] (main_arg0 : FVec F S4096x512 .f32) (main_arg1 : FVec F S4096x8192 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Pre_finite_inputs_ReferenceIdeal.lean ====
abbrev S4096x4096 : Shape := ⟨2, ![4096, 4096]⟩
abbrev S4096x8192 : Shape := ⟨2, ![4096, 8192]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_

variable [Facts]

def fn {F : FTy → Type} [FloatOps F] (main_arg0 : FVec F S4096x4096 .f32) (main_arg1 : FVec F S4096x8192 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Kernel.lean ====
abbrev S4096x512 : Shape := ⟨2, ![4096, 512]⟩
abbrev S4096x8192 : Shape := ⟨2, ![4096, 8192]⟩
abbrev S512x8192 : Shape := ⟨2, ![512, 8192]⟩
abbrev S8x512x512 : Shape := ⟨3, ![8, 512, 512]⟩
abbrev S512x512 : Shape := ⟨2, ![512, 512]⟩
abbrev S2x512x4096 : Shape := ⟨3, ![2, 512, 4096]⟩
abbrev S7 : Shape := ⟨1, ![7]⟩
abbrev S8 : Shape := ⟨1, ![8]⟩
abbrev S2 : Shape := ⟨1, ![2]⟩
abbrev S1 : Shape := ⟨1, ![1]⟩
abbrev S_ : Shape := ⟨0, ![]⟩
abbrev S1x512x4096 : Shape := ⟨3, ![1, 512, 4096]⟩
abbrev S512x4096 : Shape := ⟨2, ![512, 4096]⟩
abbrev S1x512x512 : Shape := ⟨3, ![1, 512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S4096x8192, .f32⟩
  | .hbm, ⟨2, _⟩ => ⟨S512x8192, .f32⟩
  | .local _ .vmem, ⟨0, _⟩ => ⟨S4096x512, .f32⟩
  | .local _ .vmem, ⟨1, _⟩ => ⟨S512x8192, .f32⟩
  | .local _ .vmem, ⟨2, _⟩ => ⟨S4096x512, .bf16⟩
  | .local _ .vmem, ⟨3, _⟩ => ⟨S8x512x512, .bf16⟩
  | .local _ .vmem, ⟨4, _⟩ => ⟨S512x512, .f32⟩
  | .local _ .vmem, ⟨5, _⟩ => ⟨S2x512x4096, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v92 : BitVec 32 := Scalar.muli v2 c512_i32
  let c0_i32_52 : BitVec 32 := 0#32
  ![v92.toNat, 0]
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_56 : BitVec 32 := 0#32
  let v105 : BitVec 1 := Scalar.cmpi .ne v2 c0_i32_56
  let v106 : BitVec 32 := Scalar.extui v105
  let c0_i32_57 : BitVec 32 := 0#32
  let v107 : BitVec 1 := Scalar.cmpi .ne v106 c0_i32_57
  v107

def k0_dev1 : Nat :=
  let c0_i32_591 : BitVec 32 := 0#32
  let c0_i32_589 : BitVec 32 := 0#32
  let c1_i32_590 : BitVec 32 := 1#32
  let v686 : BitVec 32 := Scalar.muli c0_i32_589 c1_i32_590
  let v687 : BitVec 32 := Scalar.addi c0_i32_591 v686
  v687.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_58 : BitVec 32 := 1#32
  let v108 : BitVec 1 := Scalar.cmpi .ne v2 c1_i32_58
  let v109 : BitVec 32 := Scalar.extui v108
  let c0_i32_59 : BitVec 32 := 0#32
  let v110 : BitVec 1 := Scalar.cmpi .ne v109 c0_i32_59
  v110

def k0_dev2 : Nat :=
  let c0_i32_591 : BitVec 32 := 0#32
  let c1_i32_589 : BitVec 32 := 1#32
  let c1_i32_590 : BitVec 32 := 1#32
  let v686 : BitVec 32 := Scalar.muli c1_i32_589 c1_i32_590
  let v687 : BitVec 32 := Scalar.addi c0_i32_591 v686
  v687.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_60 : BitVec 32 := 2#32
  let v111 : BitVec 1 := Scalar.cmpi .ne v2 c2_i32_60
  let v112 : BitVec 32 := Scalar.extui v111
  let c0_i32_61 : BitVec 32 := 0#32
  let v113 : BitVec 1 := Scalar.cmpi .ne v112 c0_i32_61
  v113

def k0_dev3 : Nat :=
  let c0_i32_591 : BitVec 32 := 0#32
  let c2_i32_589 : BitVec 32 := 2#32
  let c1_i32_590 : BitVec 32 := 1#32
  let v686 : BitVec 32 := Scalar.muli c2_i32_589 c1_i32_590
  let v687 : BitVec 32 := Scalar.addi c0_i32_591 v686
  v687.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v114 : BitVec 1 := Scalar.cmpi .ne v2 c3_i32
  let v115 : BitVec 32 := Scalar.extui v114
  let c0_i32_62 : BitVec 32 := 0#32
  let v116 : BitVec 1 := Scalar.cmpi .ne v115 c0_i32_62
  v116

def k0_dev4 : Nat :=
  let c0_i32_591 : BitVec 32 := 0#32
  let c3_i32_589 : BitVec 32 := 3#32
  let c1_i32_590 : BitVec 32 := 1#32
  let v686 : BitVec 32 := Scalar.muli c3_i32_589 c1_i32_590
  let v687 : BitVec 32 := Scalar.addi c0_i32_591 v686
  v687.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_63 : BitVec 32 := 4#32
  let v117 : BitVec 1 := Scalar.cmpi .ne v2 c4_i32_63
  let v118 : BitVec 32 := Scalar.extui v117
  let c0_i32_64 : BitVec 32 := 0#32
  let v119 : BitVec 1 := Scalar.cmpi .ne v118 c0_i32_64
  v119

def k0_dev5 : Nat :=
  let c0_i32_591 : BitVec 32 := 0#32
  let c4_i32_589 : BitVec 32 := 4#32
  let c1_i32_590 : BitVec 32 := 1#32
  let v686 : BitVec 32 := Scalar.muli c4_i32_589 c1_i32_590
  let v687 : BitVec 32 := Scalar.addi c0_i32_591 v686
  v687.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v120 : BitVec 1 := Scalar.cmpi .ne v2 c5_i32
  let v121 : BitVec 32 := Scalar.extui v120
  let c0_i32_65 : BitVec 32 := 0#32
  let v122 : BitVec 1 := Scalar.cmpi .ne v121 c0_i32_65
  v122

def k0_dev6 : Nat :=
  let c0_i32_591 : BitVec 32 := 0#32
  let c5_i32_589 : BitVec 32 := 5#32
  let c1_i32_590 : BitVec 32 := 1#32
  let v686 : BitVec 32 := Scalar.muli c5_i32_589 c1_i32_590
  let v687 : BitVec 32 := Scalar.addi c0_i32_591 v686
  v687.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v123 : BitVec 1 := Scalar.cmpi .ne v2 c6_i32
  let v124 : BitVec 32 := Scalar.extui v123
  let c0_i32_66 : BitVec 32 := 0#32
  let v125 : BitVec 1 := Scalar.cmpi .ne v124 c0_i32_66
  v125

def k0_dev7 : Nat :=
  let c0_i32_591 : BitVec 32 := 0#32
  let c6_i32_589 : BitVec 32 := 6#32
  let c1_i32_590 : BitVec 32 := 1#32
  let v686 : BitVec 32 := Scalar.muli c6_i32_589 c1_i32_590
  let v687 : BitVec 32 := Scalar.addi c0_i32_591 v686
  v687.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v126 : BitVec 1 := Scalar.cmpi .ne v2 c7_i32
  let v127 : BitVec 32 := Scalar.extui v126
  let c0_i32_67 : BitVec 32 := 0#32
  let v128 : BitVec 1 := Scalar.cmpi .ne v127 c0_i32_67
  v128

def k0_dev8 : Nat :=
  let c0_i32_591 : BitVec 32 := 0#32
  let c7_i32_589 : BitVec 32 := 7#32
  let c1_i32_590 : BitVec 32 := 1#32
  let v686 : BitVec 32 := Scalar.muli c7_i32_589 c1_i32_590
  let v687 : BitVec 32 := Scalar.addi c0_i32_591 v686
  v687.toNat
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_73 : BitVec 32 := 0#32
  let c0_i32_74 : BitVec 32 := 0#32
  ![v2.toNat, 0, 0]
def k0_off4 (d0 : Dev nD) (c0_i32_15 : BitVec 32) (c0_i32_14 : BitVec 32) (c1_i32_13 : BitVec 32) : Fin 2 → Nat :=
  let c4_i32_16 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v38 : BitVec 32 := Scalar.xori v29 c0_i32_15
  let v39 : BitVec 32 := Scalar.muli c4_i32_16 v38
  let c2_i32_17 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_12 : BitVec 32 := 2#32
  let v34 : BitVec 1 := Scalar.cmpi .sge v12 c2_i32_12
  let v35 : BitVec 32 := Scalar.extui v34
  let v37 : BitVec 32 := Scalar.xori v35 c0_i32_14
  let v40 : BitVec 32 := Scalar.muli c2_i32_17 v37
  let v41 : BitVec 32 := Scalar.addi v39 v40
  let c1_i32_11 : BitVec 32 := 1#32
  let v30 : BitVec 1 := Scalar.cmpi .eq v12 c1_i32_11
  let c2_i32 : BitVec 32 := 2#32
  let v31 : BitVec 1 := Scalar.cmpi .eq v12 c2_i32
  let v32 : BitVec 1 := Scalar.ori v30 v31
  let v33 : BitVec 32 := Scalar.extui v32
  let v36 : BitVec 32 := Scalar.xori v33 c1_i32_13
  let v42 : BitVec 32 := Scalar.xori v36 v37
  let v43 : BitVec 32 := Scalar.addi v41 v42
  let c512_i32_69 : BitVec 32 := 512#32
  let v129 : BitVec 32 := Scalar.muli v43 c512_i32_69
  let c0_i32_75 : BitVec 32 := 0#32
  ![v129.toNat, 0]
def k0_off4_at (r : Fin 7) : BitVec 32 × BitVec 32 × BitVec 32 :=
  if r.val < 3 then
    if r.val < 1 then
      (0#32, 0#32, 1#32)
    else
      if r.val < 2 then
        (0#32, 1#32, 0#32)
      else
        (1#32, 0#32, 0#32)
  else
    if r.val < 5 then
      if r.val < 4 then
        (0#32, 1#32, 1#32)
      else
        (1#32, 0#32, 1#32)
    else
      if r.val < 6 then
        (1#32, 1#32, 0#32)
      else
        (1#32, 1#32, 1#32)
def k0_dev9 (d0 : Dev nD) : Nat :=
  let c0_i32_72 : BitVec 32 := 0#32
  let c4_i32_16 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c0_i32_15 : BitVec 32 := 0#32
  let v38 : BitVec 32 := Scalar.xori v29 c0_i32_15
  let v39 : BitVec 32 := Scalar.muli c4_i32_16 v38
  let c2_i32_17 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_12 : BitVec 32 := 2#32
  let v34 : BitVec 1 := Scalar.cmpi .sge v12 c2_i32_12
  let v35 : BitVec 32 := Scalar.extui v34
  let c0_i32_14 : BitVec 32 := 0#32
  let v37 : BitVec 32 := Scalar.xori v35 c0_i32_14
  let v40 : BitVec 32 := Scalar.muli c2_i32_17 v37
  let v41 : BitVec 32 := Scalar.addi v39 v40
  let c1_i32_11 : BitVec 32 := 1#32
  let v30 : BitVec 1 := Scalar.cmpi .eq v12 c1_i32_11
  let c2_i32 : BitVec 32 := 2#32
  let v31 : BitVec 1 := Scalar.cmpi .eq v12 c2_i32
  let v32 : BitVec 1 := Scalar.ori v30 v31
  let v33 : BitVec 32 := Scalar.extui v32
  let c1_i32_13 : BitVec 32 := 1#32
  let v36 : BitVec 32 := Scalar.xori v33 c1_i32_13
  let v42 : BitVec 32 := Scalar.xori v36 v37
  let v43 : BitVec 32 := Scalar.addi v41 v42
  let c1_i32_71 : BitVec 32 := 1#32
  let v130 : BitVec 32 := Scalar.muli v43 c1_i32_71
  let v131 : BitVec 32 := Scalar.addi c0_i32_72 v130
  v131.toNat
def k0_dev10 (d0 : Dev nD) : Nat :=
  let c0_i32_79 : BitVec 32 := 0#32
  let c4_i32_21 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c0_i32_20 : BitVec 32 := 0#32
  let v46 : BitVec 32 := Scalar.xori v29 c0_i32_20
  let v47 : BitVec 32 := Scalar.muli c4_i32_21 v46
  let c2_i32_22 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_12 : BitVec 32 := 2#32
  let v34 : BitVec 1 := Scalar.cmpi .sge v12 c2_i32_12
  let v35 : BitVec 32 := Scalar.extui v34
  let c1_i32_19 : BitVec 32 := 1#32
  let v45 : BitVec 32 := Scalar.xori v35 c1_i32_19
  let v48 : BitVec 32 := Scalar.muli c2_i32_22 v45
  let v49 : BitVec 32 := Scalar.addi v47 v48
  let c1_i32_11 : BitVec 32 := 1#32
  let v30 : BitVec 1 := Scalar.cmpi .eq v12 c1_i32_11
  let c2_i32 : BitVec 32 := 2#32
  let v31 : BitVec 1 := Scalar.cmpi .eq v12 c2_i32
  let v32 : BitVec 1 := Scalar.ori v30 v31
  let v33 : BitVec 32 := Scalar.extui v32
  let c0_i32_18 : BitVec 32 := 0#32
  let v44 : BitVec 32 := Scalar.xori v33 c0_i32_18
  let v50 : BitVec 32 := Scalar.xori v44 v45
  let v51 : BitVec 32 := Scalar.addi v49 v50
  let c1_i32_78 : BitVec 32 := 1#32
  let v140 : BitVec 32 := Scalar.muli v51 c1_i32_78
  let v141 : BitVec 32 := Scalar.addi c0_i32_79 v140
  v141.toNat
def k0_dev11 (d0 : Dev nD) : Nat :=
  let c0_i32_86 : BitVec 32 := 0#32
  let c4_i32_26 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_25 : BitVec 32 := 1#32
  let v54 : BitVec 32 := Scalar.xori v29 c1_i32_25
  let v55 : BitVec 32 := Scalar.muli c4_i32_26 v54
  let c2_i32_27 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_12 : BitVec 32 := 2#32
  let v34 : BitVec 1 := Scalar.cmpi .sge v12 c2_i32_12
  let v35 : BitVec 32 := Scalar.extui v34
  let c0_i32_24 : BitVec 32 := 0#32
  let v53 : BitVec 32 := Scalar.xori v35 c0_i32_24
  let v56 : BitVec 32 := Scalar.muli c2_i32_27 v53
  let v57 : BitVec 32 := Scalar.addi v55 v56
  let c1_i32_11 : BitVec 32 := 1#32
  let v30 : BitVec 1 := Scalar.cmpi .eq v12 c1_i32_11
  let c2_i32 : BitVec 32 := 2#32
  let v31 : BitVec 1 := Scalar.cmpi .eq v12 c2_i32
  let v32 : BitVec 1 := Scalar.ori v30 v31
  let v33 : BitVec 32 := Scalar.extui v32
  let c0_i32_23 : BitVec 32 := 0#32
  let v52 : BitVec 32 := Scalar.xori v33 c0_i32_23
  let v58 : BitVec 32 := Scalar.xori v52 v53
  let v59 : BitVec 32 := Scalar.addi v57 v58
  let c1_i32_85 : BitVec 32 := 1#32
  let v150 : BitVec 32 := Scalar.muli v59 c1_i32_85
  let v151 : BitVec 32 := Scalar.addi c0_i32_86 v150
  v151.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_90 : BitVec 32 := 512#32
  let v159 : BitVec 32 := Scalar.muli v2 c512_i32_90
  let c4096_i32 : BitVec 32 := 4096#32
  ![v159.toNat, 4096]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_101 : BitVec 32 := 512#32
  let v171 : BitVec 32 := Scalar.muli v2 c512_i32_101
  let v172 : Index := Scalar.indexCast v171
  let c0_102 : Index := 0#32
  ![v172.toNat, 0]
def k0_off7 (d0 : Dev nD) (c0_i32_15 : BitVec 32) (c0_i32_14 : BitVec 32) (c1_i32_13 : BitVec 32) : Fin 2 → Nat :=
  let c4_i32_16 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v38 : BitVec 32 := Scalar.xori v29 c0_i32_15
  let v39 : BitVec 32 := Scalar.muli c4_i32_16 v38
  let c2_i32_17 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_12 : BitVec 32 := 2#32
  let v34 : BitVec 1 := Scalar.cmpi .sge v12 c2_i32_12
  let v35 : BitVec 32 := Scalar.extui v34
  let v37 : BitVec 32 := Scalar.xori v35 c0_i32_14
  let v40 : BitVec 32 := Scalar.muli c2_i32_17 v37
  let v41 : BitVec 32 := Scalar.addi v39 v40
  let c1_i32_11 : BitVec 32 := 1#32
  let v30 : BitVec 1 := Scalar.cmpi .eq v12 c1_i32_11
  let c2_i32 : BitVec 32 := 2#32
  let v31 : BitVec 1 := Scalar.cmpi .eq v12 c2_i32
  let v32 : BitVec 1 := Scalar.ori v30 v31
  let v33 : BitVec 32 := Scalar.extui v32
  let v36 : BitVec 32 := Scalar.xori v33 c1_i32_13
  let v42 : BitVec 32 := Scalar.xori v36 v37
  let v43 : BitVec 32 := Scalar.addi v41 v42
  let c512_i32_112 : BitVec 32 := 512#32
  let v183 : BitVec 32 := Scalar.muli v43 c512_i32_112
  let c0_i32_117 : BitVec 32 := 0#32
  ![v183.toNat, 0]
def k0_off7_at (r : Fin 7) : BitVec 32 × BitVec 32 × BitVec 32 :=
  if r.val < 3 then
    if r.val < 1 then
      (0#32, 0#32, 1#32)
    else
      if r.val < 2 then
        (0#32, 1#32, 0#32)
      else
        (1#32, 0#32, 0#32)
  else
    if r.val < 5 then
      if r.val < 4 then
        (0#32, 1#32, 1#32)
      else
        (1#32, 0#32, 1#32)
    else
      if r.val < 6 then
        (1#32, 1#32, 0#32)
      else
        (1#32, 1#32, 1#32)
def k0_dev12 (d0 : Dev nD) : Nat :=
  let c0_i32_133 : BitVec 32 := 0#32
  let c4_i32_31 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c0_i32_30 : BitVec 32 := 0#32
  let v62 : BitVec 32 := Scalar.xori v29 c0_i32_30
  let v63 : BitVec 32 := Scalar.muli c4_i32_31 v62
  let c2_i32_32 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_12 : BitVec 32 := 2#32
  let v34 : BitVec 1 := Scalar.cmpi .sge v12 c2_i32_12
  let v35 : BitVec 32 := Scalar.extui v34
  let c1_i32_29 : BitVec 32 := 1#32
  let v61 : BitVec 32 := Scalar.xori v35 c1_i32_29
  let v64 : BitVec 32 := Scalar.muli c2_i32_32 v61
  let v65 : BitVec 32 := Scalar.addi v63 v64
  let c1_i32_11 : BitVec 32 := 1#32
  let v30 : BitVec 1 := Scalar.cmpi .eq v12 c1_i32_11
  let c2_i32 : BitVec 32 := 2#32
  let v31 : BitVec 1 := Scalar.cmpi .eq v12 c2_i32
  let v32 : BitVec 1 := Scalar.ori v30 v31
  let v33 : BitVec 32 := Scalar.extui v32
  let c1_i32_28 : BitVec 32 := 1#32
  let v60 : BitVec 32 := Scalar.xori v33 c1_i32_28
  let v66 : BitVec 32 := Scalar.xori v60 v61
  let v67 : BitVec 32 := Scalar.addi v65 v66
  let c1_i32_132 : BitVec 32 := 1#32
  let v201 : BitVec 32 := Scalar.muli v67 c1_i32_132
  let v202 : BitVec 32 := Scalar.addi c0_i32_133 v201
  v202.toNat
def k0_dev13 (d0 : Dev nD) : Nat :=
  let c0_i32_140 : BitVec 32 := 0#32
  let c4_i32_36 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_35 : BitVec 32 := 1#32
  let v70 : BitVec 32 := Scalar.xori v29 c1_i32_35
  let v71 : BitVec 32 := Scalar.muli c4_i32_36 v70
  let c2_i32_37 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_12 : BitVec 32 := 2#32
  let v34 : BitVec 1 := Scalar.cmpi .sge v12 c2_i32_12
  let v35 : BitVec 32 := Scalar.extui v34
  let c0_i32_34 : BitVec 32 := 0#32
  let v69 : BitVec 32 := Scalar.xori v35 c0_i32_34
  let v72 : BitVec 32 := Scalar.muli c2_i32_37 v69
  let v73 : BitVec 32 := Scalar.addi v71 v72
  let c1_i32_11 : BitVec 32 := 1#32
  let v30 : BitVec 1 := Scalar.cmpi .eq v12 c1_i32_11
  let c2_i32 : BitVec 32 := 2#32
  let v31 : BitVec 1 := Scalar.cmpi .eq v12 c2_i32
  let v32 : BitVec 1 := Scalar.ori v30 v31
  let v33 : BitVec 32 := Scalar.extui v32
  let c1_i32_33 : BitVec 32 := 1#32
  let v68 : BitVec 32 := Scalar.xori v33 c1_i32_33
  let v74 : BitVec 32 := Scalar.xori v68 v69
  let v75 : BitVec 32 := Scalar.addi v73 v74
  let c1_i32_139 : BitVec 32 := 1#32
  let v211 : BitVec 32 := Scalar.muli v75 c1_i32_139
  let v212 : BitVec 32 := Scalar.addi c0_i32_140 v211
  v212.toNat
def k0_dev14 (d0 : Dev nD) : Nat :=
  let c0_i32_147 : BitVec 32 := 0#32
  let c4_i32_41 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_40 : BitVec 32 := 1#32
  let v78 : BitVec 32 := Scalar.xori v29 c1_i32_40
  let v79 : BitVec 32 := Scalar.muli c4_i32_41 v78
  let c2_i32_42 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_12 : BitVec 32 := 2#32
  let v34 : BitVec 1 := Scalar.cmpi .sge v12 c2_i32_12
  let v35 : BitVec 32 := Scalar.extui v34
  let c1_i32_39 : BitVec 32 := 1#32
  let v77 : BitVec 32 := Scalar.xori v35 c1_i32_39
  let v80 : BitVec 32 := Scalar.muli c2_i32_42 v77
  let v81 : BitVec 32 := Scalar.addi v79 v80
  let c1_i32_11 : BitVec 32 := 1#32
  let v30 : BitVec 1 := Scalar.cmpi .eq v12 c1_i32_11
  let c2_i32 : BitVec 32 := 2#32
  let v31 : BitVec 1 := Scalar.cmpi .eq v12 c2_i32
  let v32 : BitVec 1 := Scalar.ori v30 v31
  let v33 : BitVec 32 := Scalar.extui v32
  let c0_i32_38 : BitVec 32 := 0#32
  let v76 : BitVec 32 := Scalar.xori v33 c0_i32_38
  let v82 : BitVec 32 := Scalar.xori v76 v77
  let v83 : BitVec 32 := Scalar.addi v81 v82
  let c1_i32_146 : BitVec 32 := 1#32
  let v221 : BitVec 32 := Scalar.muli v83 c1_i32_146
  let v222 : BitVec 32 := Scalar.addi c0_i32_147 v221
  v222.toNat
def k0_off8 (d0 : Dev nD) (c0_i32_15 : BitVec 32) (c0_i32_14 : BitVec 32) (c1_i32_13 : BitVec 32) : Fin 2 → Nat :=
  let c4_i32_16 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v38 : BitVec 32 := Scalar.xori v29 c0_i32_15
  let v39 : BitVec 32 := Scalar.muli c4_i32_16 v38
  let c2_i32_17 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_12 : BitVec 32 := 2#32
  let v34 : BitVec 1 := Scalar.cmpi .sge v12 c2_i32_12
  let v35 : BitVec 32 := Scalar.extui v34
  let v37 : BitVec 32 := Scalar.xori v35 c0_i32_14
  let v40 : BitVec 32 := Scalar.muli c2_i32_17 v37
  let v41 : BitVec 32 := Scalar.addi v39 v40
  let c1_i32_11 : BitVec 32 := 1#32
  let v30 : BitVec 1 := Scalar.cmpi .eq v12 c1_i32_11
  let c2_i32 : BitVec 32 := 2#32
  let v31 : BitVec 1 := Scalar.cmpi .eq v12 c2_i32
  let v32 : BitVec 1 := Scalar.ori v30 v31
  let v33 : BitVec 32 := Scalar.extui v32
  let v36 : BitVec 32 := Scalar.xori v33 c1_i32_13
  let v42 : BitVec 32 := Scalar.xori v36 v37
  let v43 : BitVec 32 := Scalar.addi v41 v42
  let c512_i32_151 : BitVec 32 := 512#32
  let v230 : BitVec 32 := Scalar.muli v43 c512_i32_151
  let c4096_i32_156 : BitVec 32 := 4096#32
  ![v230.toNat, 4096]
def k0_off8_at (r : Fin 7) : BitVec 32 × BitVec 32 × BitVec 32 :=
  if r.val < 3 then
    if r.val < 1 then
      (0#32, 0#32, 1#32)
    else
      if r.val < 2 then
        (0#32, 1#32, 0#32)
      else
        (1#32, 0#32, 0#32)
  else
    if r.val < 5 then
      if r.val < 4 then
        (0#32, 1#32, 1#32)
      else
        (1#32, 0#32, 1#32)
    else
      if r.val < 6 then
        (1#32, 1#32, 0#32)
      else
        (1#32, 1#32, 1#32)
def k0_off9 (d0 : Dev nD) (c0_i32_15 : BitVec 32) (c0_i32_14 : BitVec 32) (c1_i32_13 : BitVec 32) : Fin 1 → Nat :=
  let c4_i32_16 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v38 : BitVec 32 := Scalar.xori v29 c0_i32_15
  let v39 : BitVec 32 := Scalar.muli c4_i32_16 v38
  let c2_i32_17 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_12 : BitVec 32 := 2#32
  let v34 : BitVec 1 := Scalar.cmpi .sge v12 c2_i32_12
  let v35 : BitVec 32 := Scalar.extui v34
  let v37 : BitVec 32 := Scalar.xori v35 c0_i32_14
  let v40 : BitVec 32 := Scalar.muli c2_i32_17 v37
  let v41 : BitVec 32 := Scalar.addi v39 v40
  let c1_i32_11 : BitVec 32 := 1#32
  let v30 : BitVec 1 := Scalar.cmpi .eq v12 c1_i32_11
  let c2_i32 : BitVec 32 := 2#32
  let v31 : BitVec 1 := Scalar.cmpi .eq v12 c2_i32
  let v32 : BitVec 1 := Scalar.ori v30 v31
  let v33 : BitVec 32 := Scalar.extui v32
  let v36 : BitVec 32 := Scalar.xori v33 c1_i32_13
  let v42 : BitVec 32 := Scalar.xori v36 v37
  let v43 : BitVec 32 := Scalar.addi v41 v42
  ![v43.toNat]
def k0_off9_at (r : Fin 7) : BitVec 32 × BitVec 32 × BitVec 32 :=
  if r.val < 3 then
    if r.val < 1 then
      (0#32, 0#32, 1#32)
    else
      if r.val < 2 then
        (0#32, 1#32, 0#32)
      else
        (1#32, 0#32, 0#32)
  else
    if r.val < 5 then
      if r.val < 4 then
        (0#32, 1#32, 1#32)
      else
        (1#32, 0#32, 1#32)
    else
      if r.val < 6 then
        (1#32, 1#32, 0#32)
      else
        (1#32, 1#32, 1#32)
def k0_off10 (d0 : Dev nD) (c0_i32_15 : BitVec 32) (c0_i32_14 : BitVec 32) (c1_i32_13 : BitVec 32) : Fin 3 → Nat :=
  let c4_i32_16 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v38 : BitVec 32 := Scalar.xori v29 c0_i32_15
  let v39 : BitVec 32 := Scalar.muli c4_i32_16 v38
  let c2_i32_17 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_12 : BitVec 32 := 2#32
  let v34 : BitVec 1 := Scalar.cmpi .sge v12 c2_i32_12
  let v35 : BitVec 32 := Scalar.extui v34
  let v37 : BitVec 32 := Scalar.xori v35 c0_i32_14
  let v40 : BitVec 32 := Scalar.muli c2_i32_17 v37
  let v41 : BitVec 32 := Scalar.addi v39 v40
  let c1_i32_11 : BitVec 32 := 1#32
  let v30 : BitVec 1 := Scalar.cmpi .eq v12 c1_i32_11
  let c2_i32 : BitVec 32 := 2#32
  let v31 : BitVec 1 := Scalar.cmpi .eq v12 c2_i32
  let v32 : BitVec 1 := Scalar.ori v30 v31
  let v33 : BitVec 32 := Scalar.extui v32
  let v36 : BitVec 32 := Scalar.xori v33 c1_i32_13
  let v42 : BitVec 32 := Scalar.xori v36 v37
  let v43 : BitVec 32 := Scalar.addi v41 v42
  let c0_i32_166 : BitVec 32 := 0#32
  let c0_i32_167 : BitVec 32 := 0#32
  ![v43.toNat, 0, 0]
def k0_off10_at (r : Fin 7) : BitVec 32 × BitVec 32 × BitVec 32 :=
  if r.val < 3 then
    if r.val < 1 then
      (0#32, 0#32, 1#32)
    else
      if r.val < 2 then
        (0#32, 1#32, 0#32)
      else
        (1#32, 0#32, 0#32)
  else
    if r.val < 5 then
      if r.val < 4 then
        (0#32, 1#32, 1#32)
      else
        (1#32, 0#32, 1#32)
    else
      if r.val < 6 then
        (1#32, 1#32, 0#32)
      else
        (1#32, 1#32, 1#32)
def k0_off11 (d0 : Dev nD) (c0_i32_15 : BitVec 32) (c0_i32_14 : BitVec 32) (c1_i32_13 : BitVec 32) : Fin 3 → Nat :=
  let c4_i32_16 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v38 : BitVec 32 := Scalar.xori v29 c0_i32_15
  let v39 : BitVec 32 := Scalar.muli c4_i32_16 v38
  let c2_i32_17 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_12 : BitVec 32 := 2#32
  let v34 : BitVec 1 := Scalar.cmpi .sge v12 c2_i32_12
  let v35 : BitVec 32 := Scalar.extui v34
  let v37 : BitVec 32 := Scalar.xori v35 c0_i32_14
  let v40 : BitVec 32 := Scalar.muli c2_i32_17 v37
  let v41 : BitVec 32 := Scalar.addi v39 v40
  let c1_i32_11 : BitVec 32 := 1#32
  let v30 : BitVec 1 := Scalar.cmpi .eq v12 c1_i32_11
  let c2_i32 : BitVec 32 := 2#32
  let v31 : BitVec 1 := Scalar.cmpi .eq v12 c2_i32
  let v32 : BitVec 1 := Scalar.ori v30 v31
  let v33 : BitVec 32 := Scalar.extui v32
  let v36 : BitVec 32 := Scalar.xori v33 c1_i32_13
  let v42 : BitVec 32 := Scalar.xori v36 v37
  let v43 : BitVec 32 := Scalar.addi v41 v42
  let v250 : Index := Scalar.indexCast v43
  let c0_170 : Index := 0#32
  let c0_171 : Index := 0#32
  ![v250.toNat, 0, 0]
def k0_off11_at (r : Fin 7) : BitVec 32 × BitVec 32 × BitVec 32 :=
  if r.val < 3 then
    if r.val < 1 then
      (0#32, 0#32, 1#32)
    else
      if r.val < 2 then
        (0#32, 1#32, 0#32)
      else
        (1#32, 0#32, 0#32)
  else
    if r.val < 5 then
      if r.val < 4 then
        (0#32, 1#32, 1#32)
      else
        (1#32, 0#32, 1#32)
    else
      if r.val < 6 then
        (1#32, 1#32, 0#32)
      else
        (1#32, 1#32, 1#32)
def k0_dev15 (d0 : Dev nD) : Nat :=
  let c0_i32_209 : BitVec 32 := 0#32
  let c4_i32_46 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_45 : BitVec 32 := 1#32
  let v86 : BitVec 32 := Scalar.xori v29 c1_i32_45
  let v87 : BitVec 32 := Scalar.muli c4_i32_46 v86
  let c2_i32_47 : BitVec 32 := 2#32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_12 : BitVec 32 := 2#32
  let v34 : BitVec 1 := Scalar.cmpi .sge v12 c2_i32_12
  let v35 : BitVec 32 := Scalar.extui v34
  let c1_i32_44 : BitVec 32 := 1#32
  let v85 : BitVec 32 := Scalar.xori v35 c1_i32_44
  let v88 : BitVec 32 := Scalar.muli c2_i32_47 v85
  let v89 : BitVec 32 := Scalar.addi v87 v88
  let c1_i32_11 : BitVec 32 := 1#32
  let v30 : BitVec 1 := Scalar.cmpi .eq v12 c1_i32_11
  let c2_i32 : BitVec 32 := 2#32
  let v31 : BitVec 1 := Scalar.cmpi .eq v12 c2_i32
  let v32 : BitVec 1 := Scalar.ori v30 v31
  let v33 : BitVec 32 := Scalar.extui v32
  let c1_i32_43 : BitVec 32 := 1#32
  let v84 : BitVec 32 := Scalar.xori v33 c1_i32_43
  let v90 : BitVec 32 := Scalar.xori v84 v85
  let v91 : BitVec 32 := Scalar.addi v89 v90
  let c1_i32_208 : BitVec 32 := 1#32
  let v286 : BitVec 32 := Scalar.muli v91 c1_i32_208
  let v287 : BitVec 32 := Scalar.addi c0_i32_209 v286
  v287.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  inb_S2_S1_0 : ∀ a, (![0] : Fin 1 → Nat) a + S1.size a ≤ S2.size a
  squeezes_S1_S_ : S1.Squeezes S_
  inb_S2x512x4096_S1x512x4096_0_0_0 : ∀ a, (![0, 0, 0] : Fin 3 → Nat) a + S1x512x4096.size a ≤ S2x512x4096.size a
  squeezes_S1x512x4096_S512x4096 : S1x512x4096.Squeezes S512x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  bitsLt_bf16_f32 : FTy.bits .bf16 < FTy.bits .f32
  packedbf16_S4096x512_S4096x512_0_0 : (Rect.unit (s := S4096x512) ![0, 0] S4096x512.size inb_S4096x512_S4096x512_0_0).PackedRows (EltTy.packing .bf16)
  hamt_1 : (1#32 : BitVec 32).msb = false
  hamt_7 : (7#32 : BitVec 32).msb = false
  inb_S7_S1_0 : ∀ a, (![0] : Fin 1 → Nat) a + S1.size a ≤ S7.size a
  squeezes_S1x512x512_S512x512 : S1x512x512.Squeezes S512x512
  inb_S7_S1_1 : ∀ a, (![1] : Fin 1 → Nat) a + S1.size a ≤ S7.size a
  inb_S7_S1_2 : ∀ a, (![2] : Fin 1 → Nat) a + S1.size a ≤ S7.size a
  inb_S2_S1_1 : ∀ a, (![1] : Fin 1 → Nat) a + S1.size a ≤ S2.size a
  inb_S2x512x4096_S1x512x4096_1_0_0 : ∀ a, (![1, 0, 0] : Fin 3 → Nat) a + S1x512x4096.size a ≤ S2x512x4096.size a
  h_S512x512 : 0 < S512x512.numel
  inb_S512x512_S512x512_0_0 : ∀ a, (![0, 0] : Fin 2 → Nat) a + S512x512.size a ≤ S512x512.size a
  shapeCasts_S512x512_S512x512 : S512x512.ShapeCasts S512x512
  h_S1x512x4096 : 0 < S1x512x4096.numel
  shapeCasts_S1x512x4096_S512x4096 : S1x512x4096.ShapeCasts S512x4096
  inb_S512x8192_S512x4096_0_0 : ∀ a, (![0, 0] : Fin 2 → Nat) a + S512x4096.size a ≤ S512x8192.size a
  h_S512x4096 : 0 < S512x4096.numel
  inb_S512x8192_S512x4096_0_4096 : ∀ a, (![0, 4096] : Fin 2 → Nat) a + S512x4096.size a ≤ S512x8192.size a
  inb_S7_S1_3 : ∀ a, (![3] : Fin 1 → Nat) a + S1.size a ≤ S7.size a
  inb_S7_S1_4 : ∀ a, (![4] : Fin 1 → Nat) a + S1.size a ≤ S7.size a
  inb_S7_S1_5 : ∀ a, (![5] : Fin 1 → Nat) a + S1.size a ≤ S7.size a
  h_S1x512x512 : 0 < S1x512x512.numel
  shapeCasts_S1x512x512_S512x512 : S1x512x512.ShapeCasts S512x512
  shapeCasts_S512x4096_S512x4096 : S512x4096.ShapeCasts S512x4096
  inb_S7_S1_6 : ∀ a, (![6] : Fin 1 → Nat) a + S1.size a ≤ S7.size a
  dot_S512x512_S512x4096_S512x4096_1_0_0_1_n_n_wf : DotDims.WF S512x512 S512x4096 S512x4096 [1] [0] [0] [1] [] []
  hcc0_scratch4 : 2 + S7.numel ≤ 19
  hcc0_scratch5 : 9 + S8.numel ≤ 19
  hcc0_scratch6 : 17 + S2.numel ≤ 19
  k0_off1_inb : ∀ d0 : Dev nD, ∀ a, (k0_off1 d0) a + S512x4096.size a ≤ S4096x8192.size a
  k0_dev1_lt : ∀ d0 : Dev nD, ∀ (k0_h1 : k0_cond1 d0 = 1#1), k0_dev1 < nD
  k0_dev2_lt : ∀ d0 : Dev nD, ∀ (k0_h2 : k0_cond2 d0 = 1#1), k0_dev2 < nD
  k0_dev3_lt : ∀ d0 : Dev nD, ∀ (k0_h3 : k0_cond3 d0 = 1#1), k0_dev3 < nD
  k0_dev4_lt : ∀ d0 : Dev nD, ∀ (k0_h4 : k0_cond4 d0 = 1#1), k0_dev4 < nD
  k0_dev5_lt : ∀ d0 : Dev nD, ∀ (k0_h5 : k0_cond5 d0 = 1#1), k0_dev5 < nD
  k0_dev6_lt : ∀ d0 : Dev nD, ∀ (k0_h6 : k0_cond6 d0 = 1#1), k0_dev6 < nD
  k0_dev7_lt : ∀ d0 : Dev nD, ∀ (k0_h7 : k0_cond7 d0 = 1#1), k0_dev7 < nD
  k0_dev8_lt : ∀ d0 : Dev nD, ∀ (k0_h8 : k0_cond8 d0 = 1#1), k0_dev8 < nD
  k0_off2_inb : ∀ d0 : Dev nD, ∀ a, (k0_off2 d0) a + S1.size a ≤ S8.size a
  k0_off3_inb : ∀ d0 : Dev nD, ∀ a, (k0_off3 d0) a + S1x512x512.size a ≤ S8x512x512.size a
  k0_off4_inb : ∀ d0 : Dev nD, ∀ (r : Fin 7), ∀ a, (k0_off4 d0 (k0_off4_at r).1 (k0_off4_at r).2.1 (k0_off4_at r).2.2) a + S512x512.size a ≤ S4096x512.size a
  k0_off4_wordsbf16 : ∀ d0 : Dev nD, ∀ (r : Fin 7), (Rect.unit (s := S4096x512) (k0_off4 d0 (k0_off4_at r).1 (k0_off4_at r).2.1 (k0_off4_at r).2.2) S512x512.size (k0_off4_inb d0 r)).WholeWords (EltTy.packing .bf16)
  k0_off3_wordsbf16 : ∀ d0 : Dev nD, (Rect.unit (s := S8x512x512) (k0_off3 d0) S1x512x512.size (k0_off3_inb d0)).WholeWords (EltTy.packing .bf16)
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off5_inb : ∀ d0 : Dev nD, ∀ a, (k0_off5 d0) a + S512x4096.size a ≤ S4096x8192.size a
  k0_off6_inb : ∀ d0 : Dev nD, ∀ a, (k0_off6 d0) a + S512x512.size a ≤ S4096x512.size a
  k0_off7_inb : ∀ d0 : Dev nD, ∀ (r : Fin 7), ∀ a, (k0_off7 d0 (k0_off7_at r).1 (k0_off7_at r).2.1 (k0_off7_at r).2.2) a + S512x4096.size a ≤ S4096x8192.size a
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off8_inb : ∀ d0 : Dev nD, ∀ (r : Fin 7), ∀ a, (k0_off8 d0 (k0_off8_at r).1 (k0_off8_at r).2.1 (k0_off8_at r).2.2) a + S512x4096.size a ≤ S4096x8192.size a
  k0_off9_inb : ∀ d0 : Dev nD, ∀ (r : Fin 7), ∀ a, (k0_off9 d0 (k0_off9_at r).1 (k0_off9_at r).2.1 (k0_off9_at r).2.2) a + S1.size a ≤ S8.size a
  k0_off10_inb : ∀ d0 : Dev nD, ∀ (r : Fin 7), ∀ a, (k0_off10 d0 (k0_off10_at r).1 (k0_off10_at r).2.1 (k0_off10_at r).2.2) a + S1x512x512.size a ≤ S8x512x512.size a
  k0_off10_wordsbf16 : ∀ d0 : Dev nD, ∀ (r : Fin 7), (Rect.unit (s := S8x512x512) (k0_off10 d0 (k0_off10_at r).1 (k0_off10_at r).2.1 (k0_off10_at r).2.2) S1x512x512.size (k0_off10_inb d0 r)).WholeWords (EltTy.packing .bf16)
  k0_off11_inb : ∀ d0 : Dev nD, ∀ (r : Fin 7), ∀ a, (k0_off11 d0 (k0_off11_at r).1 (k0_off11_at r).2.1 (k0_off11_at r).2.2) a + S1x512x512.size a ≤ S8x512x512.size a
  k0_dev15_lt : ∀ d0 : Dev nD, (k0_dev15 d0) < nD
  hstage0_0 : ∀ j, (stage0_0 j).IsWhole
  hstage0_1 : ∀ j, (stage0_1 j).IsWhole

variable [Facts₀]

abbrev cc0_scratch4 : DmaSems sig S7 := SemArray.consecutive 2 S7 hcc0_scratch4
abbrev cc0_scratch5 : DmaSems sig S8 := SemArray.consecutive 9 S8 hcc0_scratch5
abbrev cc0_scratch6 : DmaSems sig S2 := SemArray.consecutive 17 S2 hcc0_scratch6
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.Devs.lean ====
/- The mesh's peer function: device c's k-th partner in the kernel's traversal order of the 3-cube
   (k = 0 the device itself, k = 1..7 the seven nonzero offsets in Gray-coded coordinates), the closed forms
   of the printed device and offset chains through it, and the facts the protocol needs of it
   (an involution in each k, injective in k, onto the mesh). -/
import proofs.«900487_g7700000000000488_dist_a2a_gemm_m4096_k4096_n8192_f32_gelu_v7x_i8_1_alg».proof.Proof.Gen.KernelIdeal
import Idealize.ShloMosaic.Lib.Decide

set_option Elab.async false

namespace Cert.KernelIdeal.Devs

open Idealize.ShloMosaic Idealize.SL.Sem Cert.KernelIdeal Cert.KernelIdeal.Gen

/-- Row c: the devices at offsets 000, 100, 010, 001, 110, 101, 011, 111 from c in the coordinates
    (x, y, z) with c = 4 z + 2 y + (x xor y). -/
def peerTab : List (List Nat) := [[0, 1, 3, 4, 2, 5, 7, 6], [1, 0, 2, 5, 3, 4, 6, 7], [2, 3, 1, 6, 0, 7, 5, 4], [3, 2, 0, 7, 1, 6, 4, 5], [4, 5, 7, 0, 6, 1, 3, 2], [5, 4, 6, 1, 7, 0, 2, 3], [6, 7, 5, 2, 4, 3, 1, 0], [7, 6, 4, 3, 5, 2, 0, 1]]

def peerNat (c k : Nat) : Nat := (peerTab.getD c []).getD k 0

/-- Device c's k-th partner. -/
def peer (c : Dev nD) (k : Nat) : Dev nD := ⟨peerNat c.val k % 8, Nat.mod_lt _ (by decide)⟩

theorem peer_zero : ∀ c : Dev nD, peer c 0 = c := by decide
theorem peer_invol : ∀ c : Dev nD, ∀ k : Fin 8, peer (peer c k.val) k.val = c := by decide
theorem peer_ne_self : ∀ c : Dev nD, ∀ k : Fin 8, k.val ≠ 0 → peer c k.val ≠ c := by decide
theorem peer_inj : ∀ c : Dev nD, ∀ k k' : Fin 8, peer c k.val = peer c k'.val → k = k' := by decide
theorem peer_surj : ∀ c j : Dev nD, ∃ k : Fin 8, peer c k.val = j := by decide

/-! ## The printed device chains -/
theorem dev9_eq : ∀ c : Dev nD, (⟨k0_dev9 c, k0_dev9_lt c⟩ : Dev nD) = peer c 1 := by decide +kernel
theorem dev10_eq : ∀ c : Dev nD, (⟨k0_dev10 c, k0_dev10_lt c⟩ : Dev nD) = peer c 2 := by decide +kernel
theorem dev11_eq : ∀ c : Dev nD, (⟨k0_dev11 c, k0_dev11_lt c⟩ : Dev nD) = peer c 3 := by decide +kernel
theorem dev12_eq : ∀ c : Dev nD, (⟨k0_dev12 c, k0_dev12_lt c⟩ : Dev nD) = peer c 4 := by decide +kernel
theorem dev13_eq : ∀ c : Dev nD, (⟨k0_dev13 c, k0_dev13_lt c⟩ : Dev nD) = peer c 5 := by decide +kernel
theorem dev14_eq : ∀ c : Dev nD, (⟨k0_dev14 c, k0_dev14_lt c⟩ : Dev nD) = peer c 6 := by decide +kernel
theorem dev15_eq : ∀ c : Dev nD, (⟨k0_dev15 c, k0_dev15_lt c⟩ : Dev nD) = peer c 7 := by decide +kernel

/-! ## The barrier signals' guards: the j-th is taken by every device but j -/
theorem cond1_iff : ∀ c : Dev nD, (k0_cond1 c = 1#1) ↔ c.val ≠ 0 := by decide +kernel
theorem cond2_iff : ∀ c : Dev nD, (k0_cond2 c = 1#1) ↔ c.val ≠ 1 := by decide +kernel
theorem cond3_iff : ∀ c : Dev nD, (k0_cond3 c = 1#1) ↔ c.val ≠ 2 := by decide +kernel
theorem cond4_iff : ∀ c : Dev nD, (k0_cond4 c = 1#1) ↔ c.val ≠ 3 := by decide +kernel
theorem cond5_iff : ∀ c : Dev nD, (k0_cond5 c = 1#1) ↔ c.val ≠ 4 := by decide +kernel
theorem cond6_iff : ∀ c : Dev nD, (k0_cond6 c = 1#1) ↔ c.val ≠ 5 := by decide +kernel
theorem cond7_iff : ∀ c : Dev nD, (k0_cond7 c = 1#1) ↔ c.val ≠ 6 := by decide +kernel
theorem cond8_iff : ∀ c : Dev nD, (k0_cond8 c = 1#1) ↔ c.val ≠ 7 := by decide +kernel

/-! ## The printed offset chains at the seven offsets' words -/
theorem off4_1_eq : ∀ c : Dev nD, k0_off4 c 0#32 0#32 1#32 = ![512 * (peer c 1).val, 0] := by decide +kernel
theorem off4_2_eq : ∀ c : Dev nD, k0_off4 c 0#32 1#32 0#32 = ![512 * (peer c 2).val, 0] := by decide +kernel
theorem off4_3_eq : ∀ c : Dev nD, k0_off4 c 1#32 0#32 0#32 = ![512 * (peer c 3).val, 0] := by decide +kernel
theorem off4_4_eq : ∀ c : Dev nD, k0_off4 c 0#32 1#32 1#32 = ![512 * (peer c 4).val, 0] := by decide +kernel
theorem off4_5_eq : ∀ c : Dev nD, k0_off4 c 1#32 0#32 1#32 = ![512 * (peer c 5).val, 0] := by decide +kernel
theorem off4_6_eq : ∀ c : Dev nD, k0_off4 c 1#32 1#32 0#32 = ![512 * (peer c 6).val, 0] := by decide +kernel
theorem off4_7_eq : ∀ c : Dev nD, k0_off4 c 1#32 1#32 1#32 = ![512 * (peer c 7).val, 0] := by decide +kernel
theorem off7_1_eq : ∀ c : Dev nD, k0_off7 c 0#32 0#32 1#32 = ![512 * (peer c 1).val, 0] := by decide +kernel
theorem off7_2_eq : ∀ c : Dev nD, k0_off7 c 0#32 1#32 0#32 = ![512 * (peer c 2).val, 0] := by decide +kernel
theorem off7_3_eq : ∀ c : Dev nD, k0_off7 c 1#32 0#32 0#32 = ![512 * (peer c 3).val, 0] := by decide +kernel
theorem off7_4_eq : ∀ c : Dev nD, k0_off7 c 0#32 1#32 1#32 = ![512 * (peer c 4).val, 0] := by decide +kernel
theorem off7_5_eq : ∀ c : Dev nD, k0_off7 c 1#32 0#32 1#32 = ![512 * (peer c 5).val, 0] := by decide +kernel
theorem off7_6_eq : ∀ c : Dev nD, k0_off7 c 1#32 1#32 0#32 = ![512 * (peer c 6).val, 0] := by decide +kernel
theorem off7_7_eq : ∀ c : Dev nD, k0_off7 c 1#32 1#32 1#32 = ![512 * (peer c 7).val, 0] := by decide +kernel
theorem off8_1_eq : ∀ c : Dev nD, k0_off8 c 0#32 0#32 1#32 = ![512 * (peer c 1).val, 4096] := by decide +kernel
theorem off8_2_eq : ∀ c : Dev nD, k0_off8 c 0#32 1#32 0#32 = ![512 * (peer c 2).val, 4096] := by decide +kernel
theorem off8_3_eq : ∀ c : Dev nD, k0_off8 c 1#32 0#32 0#32 = ![512 * (peer c 3).val, 4096] := by decide +kernel
theorem off8_4_eq : ∀ c : Dev nD, k0_off8 c 0#32 1#32 1#32 = ![512 * (peer c 4).val, 4096] := by decide +kernel
theorem off8_5_eq : ∀ c : Dev nD, k0_off8 c 1#32 0#32 1#32 = ![512 * (peer c 5).val, 4096] := by decide +kernel
theorem off8_6_eq : ∀ c : Dev nD, k0_off8 c 1#32 1#32 0#32 = ![512 * (peer c 6).val, 4096] := by decide +kernel
theorem off8_7_eq : ∀ c : Dev nD, k0_off8 c 1#32 1#32 1#32 = ![512 * (peer c 7).val, 4096] := by decide +kernel
theorem off9_1_eq : ∀ c : Dev nD, k0_off9 c 0#32 0#32 1#32 = ![(peer c 1).val] := by decide +kernel
theorem off9_2_eq : ∀ c : Dev nD, k0_off9 c 0#32 1#32 0#32 = ![(peer c 2).val] := by decide +kernel
theorem off9_3_eq : ∀ c : Dev nD, k0_off9 c 1#32 0#32 0#32 = ![(peer c 3).val] := by decide +kernel
theorem off9_4_eq : ∀ c : Dev nD, k0_off9 c 0#32 1#32 1#32 = ![(peer c 4).val] := by decide +kernel
theorem off9_5_eq : ∀ c : Dev nD, k0_off9 c 1#32 0#32 1#32 = ![(peer c 5).val] := by decide +kernel
theorem off9_6_eq : ∀ c : Dev nD, k0_off9 c 1#32 1#32 0#32 = ![(peer c 6).val] := by decide +kernel
theorem off9_7_eq : ∀ c : Dev nD, k0_off9 c 1#32 1#32 1#32 = ![(peer c 7).val] := by decide +kernel
theorem off10_1_eq : ∀ c : Dev nD, k0_off10 c 0#32 0#32 1#32 = ![(peer c 1).val, 0, 0] := by decide +kernel
theorem off10_2_eq : ∀ c : Dev nD, k0_off10 c 0#32 1#32 0#32 = ![(peer c 2).val, 0, 0] := by decide +kernel
theorem off10_3_eq : ∀ c : Dev nD, k0_off10 c 1#32 0#32 0#32 = ![(peer c 3).val, 0, 0] := by decide +kernel
theorem off10_4_eq : ∀ c : Dev nD, k0_off10 c 0#32 1#32 1#32 = ![(peer c 4).val, 0, 0] := by decide +kernel
theorem off10_5_eq : ∀ c : Dev nD, k0_off10 c 1#32 0#32 1#32 = ![(peer c 5).val, 0, 0] := by decide +kernel
theorem off10_6_eq : ∀ c : Dev nD, k0_off10 c 1#32 1#32 0#32 = ![(peer c 6).val, 0, 0] := by decide +kernel
theorem off10_7_eq : ∀ c : Dev nD, k0_off10 c 1#32 1#32 1#32 = ![(peer c 7).val, 0, 0] := by decide +kernel
theorem off11_1_eq : ∀ c : Dev nD, k0_off11 c 0#32 0#32 1#32 = ![(peer c 1).val, 0, 0] := by decide +kernel
theorem off11_2_eq : ∀ c : Dev nD, k0_off11 c 0#32 1#32 0#32 = ![(peer c 2).val, 0, 0] := by decide +kernel
theorem off11_3_eq : ∀ c : Dev nD, k0_off11 c 1#32 0#32 0#32 = ![(peer c 3).val, 0, 0] := by decide +kernel
theorem off11_4_eq : ∀ c : Dev nD, k0_off11 c 0#32 1#32 1#32 = ![(peer c 4).val, 0, 0] := by decide +kernel
theorem off11_5_eq : ∀ c : Dev nD, k0_off11 c 1#32 0#32 1#32 = ![(peer c 5).val, 0, 0] := by decide +kernel
theorem off11_6_eq : ∀ c : Dev nD, k0_off11 c 1#32 1#32 0#32 = ![(peer c 6).val, 0, 0] := by decide +kernel
theorem off11_7_eq : ∀ c : Dev nD, k0_off11 c 1#32 1#32 1#32 = ![(peer c 7).val, 0, 0] := by decide +kernel

end Cert.KernelIdeal.Devs
-- ==== Proof.Sched.lean ====
/- The cross-device protocol of the kernel: the semaphore cells of one device, their rounds, what each
   landing hands its waiter, and the levels that order the waits.

   Every device c enters by signalling each other device's barrier semaphore once and waiting its own for
   seven units; the unit device j = peer c k pays on c's barrier hands c the slot of j's receive buffer that
   c writes (slot c) and the fact that j is at round 0 of the receive cell c credits. Device c then sends, for
   k = 1..7, the 512 rows of its half-precision copy of x that belong to its k-th partner into that partner's
   slot c, crediting the partner's receive semaphore c and its own send semaphore k-1; it waits the receive
   semaphore of partner k before it reads slot (peer c k), and its seven send semaphores at the end. -/
import proofs.«900487_g7700000000000488_dist_a2a_gemm_m4096_k4096_n8192_f32_gelu_v7x_i8_1_alg».proof.Proof.Gen.KernelIdeal
import proofs.«900487_g7700000000000488_dist_a2a_gemm_m4096_k4096_n8192_f32_gelu_v7x_i8_1_alg».proof.Proof.Gen.KernelIdeal.Skeleton
import proofs.«900487_g7700000000000488_dist_a2a_gemm_m4096_k4096_n8192_f32_gelu_v7x_i8_1_alg».proof.Proof.Gen.KernelIdeal.Launch
import proofs.«900487_g7700000000000488_dist_a2a_gemm_m4096_k4096_n8192_f32_gelu_v7x_i8_1_alg».proof.Proof.Devs
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Devs

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by partner index) -/

abbrev UB : Type := URounds (GSem nD τ sig) (Fin 8)
/-- The third component counts the local copies in flight. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

abbrev 𝒱₀ : Variants := Variants.none

/-! ## Buffers -/

abbrev xM : Memref sig .tc .vmem S4096x512 .f32 := Memref.whole cc0_stg0_0
abbrev oM : Memref sig .tc .vmem S512x8192 .f32 := Memref.whole cc0_stg1_0
/-- the half-precision copy of x -/
abbrev bM : Memref sig .tc .vmem S4096x512 .bf16 := Memref.whole cc0_scratch0
/-- the receive buffer: eight slots of 512 × 512 -/
abbrev rM : Memref sig .tc .vmem S8x512x512 .bf16 := Memref.whole cc0_scratch1
abbrev aM : Memref sig .tc .vmem S512x512 .f32 := Memref.whole cc0_scratch2
abbrev wM : Memref sig .tc .vmem S2x512x4096 .f32 := Memref.whole cc0_scratch3
abbrev hM : Memref sig .tc .hbm S4096x8192 .f32 := Memref.whole main_arg1

/-- Slot o of a receive buffer, as sender o's transfer names its target. -/
abbrev slotM (o : Dev nD) : Memref sig .tc .vmem S512x512 .bf16 :=
  (rM.slice (Rect.unit (s := S8x512x512) (k0_off3 o) S1x512x512.size (k0_off3_inb o)) (fun _ => rfl)).squeeze S512x512 squeezes_S1x512x512_S512x512

/-! ## Semaphores and cells -/

abbrev barS : Sem sig := (SemArray.scalar (sig.barrier 0 rfl) : Sems sig S_).sem

/-- The send semaphore of the transfer to partner i+1. -/
abbrev sendSem : Fin 7 → DmaSem sig
  | 0 => ((cc0_scratch4.slice (Rect.unit (s := S7) ![0] S1.size inb_S7_S1_0)).squeeze S_ squeezes_S1_S_).sem
  | 1 => ((cc0_scratch4.slice (Rect.unit (s := S7) ![1] S1.size inb_S7_S1_1)).squeeze S_ squeezes_S1_S_).sem
  | 2 => ((cc0_scratch4.slice (Rect.unit (s := S7) ![2] S1.size inb_S7_S1_2)).squeeze S_ squeezes_S1_S_).sem
  | 3 => ((cc0_scratch4.slice (Rect.unit (s := S7) ![3] S1.size inb_S7_S1_3)).squeeze S_ squeezes_S1_S_).sem
  | 4 => ((cc0_scratch4.slice (Rect.unit (s := S7) ![4] S1.size inb_S7_S1_4)).squeeze S_ squeezes_S1_S_).sem
  | 5 => ((cc0_scratch4.slice (Rect.unit (s := S7) ![5] S1.size inb_S7_S1_5)).squeeze S_ squeezes_S1_S_).sem
  | 6 => ((cc0_scratch4.slice (Rect.unit (s := S7) ![6] S1.size inb_S7_S1_6)).squeeze S_ squeezes_S1_S_).sem

/-- The receive semaphore that sender o credits (on whichever device it sends to), as o's transfer names it. -/
abbrev recvSem (o : Dev nD) : DmaSem sig :=
  ((cc0_scratch5.slice (Rect.unit (s := S8) (k0_off2 o) S1.size (k0_off2_inb o))).squeeze S_ squeezes_S1_S_).sem

/-- The two semaphores of the local copies of w's blocks. -/
abbrev wSem : Fin 2 → DmaSem sig
  | 0 => ((cc0_scratch6.slice (Rect.unit (s := S2) ![0] S1.size inb_S2_S1_0)).squeeze S_ squeezes_S1_S_).sem
  | 1 => ((cc0_scratch6.slice (Rect.unit (s := S2) ![1] S1.size inb_S2_S1_1)).squeeze S_ squeezes_S1_S_).sem

abbrev barCell (c : Dev nD) : GSem nD τ sig := ((c : Thread nD τ), .reg barS)
abbrev sendCell (c : Dev nD) (i : Fin 7) : GSem nD τ sig := ((c : Thread nD τ), .dma (sendSem i))
/-- On device c, the cell sender o credits. -/
abbrev recvCell (c o : Dev nD) : GSem nD τ sig := ((c : Thread nD τ), .dma (recvSem o))

theorem sendSem_val : ∀ i : Fin 7, (sendSem i).val = 2 + i.val := by decide
theorem recvSem_val : ∀ o : Dev nD, (recvSem o).val = 9 + o.val := by decide
theorem wSem_val : ∀ i : Fin 2, (wSem i).val = 17 + i.val := by decide

/-- The units of one 512 × 512 half-precision block. -/
abbrev N : ℕ := (slotM (0 : Dev nD)).view.dmaCredit

/-! ## Contents -/

section Contents
variable (m : (ℓ : Loc nD τ sig) → Buf (Elt F) ℓ)

/-- Device c's block of x, as staged. -/
def xstg (c : Dev nD) : (cc0_stg0_0 : Ref sig .tc).ty.Contents (Elt F) :=
  (win0_0.blk (0 : Fin 1)).view.read (Elt F) (m ((c : Thread nD τ).loc main_arg0))

/-- Device c's copy of w. -/
def warr (c : Dev nD) : Buf (Elt F) ((c : Thread nD τ).loc main_arg1) := m ((c : Thread nD τ).loc main_arg1)

end Contents

/-! ## Reading a cell's semaphore back -/

/-- Which sender's receive semaphore a DMA semaphore is, if any. -/
def recvIdx (s : DmaSem sig) : Option (Dev nD) :=
  if h : 9 ≤ s.val ∧ s.val < 17 then some ⟨s.val - 9, by have := h.1; have := h.2; show s.val - 9 < 8; omega⟩ else none
/-- Which send semaphore a DMA semaphore is, if any. -/
def sendIdx (s : DmaSem sig) : Option (Fin 7) :=
  if h : 2 ≤ s.val ∧ s.val < 9 then some ⟨s.val - 2, by have := h.1; have := h.2; omega⟩ else none

theorem recvIdx_recvSem : ∀ o : Dev nD, recvIdx (recvSem o) = some o := by decide
theorem sendIdx_sendSem : ∀ i : Fin 7, sendIdx (sendSem i) = some i := by decide
theorem recvIdx_sendSem : ∀ i : Fin 7, recvIdx (sendSem i) = none := by decide
theorem sendIdx_recvSem : ∀ o : Dev nD, sendIdx (recvSem o) = none := by decide
theorem recvIdx_wSem : ∀ i : Fin 2, recvIdx (wSem i) = none := by decide
theorem sendIdx_wSem : ∀ i : Fin 2, sendIdx (wSem i) = none := by decide

/-- The partner index of o seen from d: the k with peer d k = o (0 for d itself). -/
def kOf (d o : Dev nD) : Nat := ((List.range 8).find? (fun k => decide (peer d k = o))).getD 0
theorem peer_kOf : ∀ d o : Dev nD, peer d (kOf d o) = o := by decide
theorem kOf_peer : ∀ d : Dev nD, ∀ k : Fin 8, kOf d (peer d k.val) = k.val := by decide
theorem kOf_lt : ∀ d o : Dev nD, kOf d o < 8 := by decide
theorem kOf_symm : ∀ d o : Dev nD, kOf o d = kOf d o := by decide

/-! ## The schedule -/

section Sched
variable (m : (ℓ : Loc nD τ sig) → Buf (Elt F) ℓ)

/-- The rows of device c's half-precision copy that go to its (i+1)-th partner, as its transfer names its source. -/
abbrev rowsM (c : Dev nD) (i : Fin 7) : Memref sig .tc .vmem S512x512 .bf16 :=
  bM.slice (Rect.unit (s := S4096x512) (k0_off4 c (k0_off4_at i).1 (k0_off4_at i).2.1 (k0_off4_at i).2.2) S512x512.size (k0_off4_inb c i)) (fun _ => rfl)

/-- What device c's half-precision copy holds once the cast is stored: the payload of that store over its block of x. -/
def xbC (c : Dev nD) : Buf (Elt F) ((bM : Memref sig .tc .vmem S4096x512 .bf16).view.loc (c : Thread nD τ)) :=
  k0_pay1 (xstg m c)

/-- What slot o of device c's receive buffer holds once o's transfer has landed: o's rows for c, written into the
    slot over contents that do not matter. -/
def landed (c o : Dev nD) : Buf (Elt F) ((slotM o).view.loc (c : Thread nD τ)) :=
  (slotM o).view.write (Elt F) (fun _ => Classical.arbitrary _)
    ((rowsM o ⟨kOf o c - 1, by have := kOf_lt o c; omega⟩).view.read (Elt F) (xbC m o)) Finset.univ

/-- Duty k of device o's barrier cell, paid by its k-th partner: that partner's slot o. -/
def barPay (o : Dev nD) (k : Fin 8) : sProp 𝕄 :=
  iprop(∃ f, (slotM o).view.loc (peer o k.val : Thread nD τ) ↦[(slotM o).view.set]{fullShare} f)
def recvPay (c o : Dev nD) : sProp 𝕄 :=
  (slotM o).view.loc (c : Thread nD τ) ↦[(slotM o).view.set]{fullShare} landed m c o
def sendPay (c : Dev nD) (i : Fin 7) : sProp 𝕄 :=
  (rowsM c i).view.loc (c : Thread nD τ) ↦[(rowsM c i).view.set]{fullShare} xbC m c

/-- One round, round 0. A barrier cell: the seven duties k = 1..7 of one unit each. A receive cell of another
    sender, a send cell: one duty of a block's credit. -/
def Rd : Rounds.Schedule (GSem nD τ sig) (Fin 8) 𝕄 where
  duties g r :=
    if r = 0 ∧ g.1.2 = .tc then
      match g.2 with
      | .reg s => if s = barS then Finset.univ.erase 0 else ∅
      | .dma s =>
        match recvIdx s with
        | some o => if o = g.1.1 then ∅ else {0}
        | none => match sendIdx s with
          | some _ => {0}
          | none => ∅
    else ∅
  unitless _ := False
  amount g _ _ := match g.2 with | .reg _ => 1 | .dma _ => N
  payload g _ d :=
    match g.2 with
    | .reg _ => barPay g.1.1 d
    | .dma s =>
      match recvIdx s with
      | some o => recvPay m g.1.1 o
      | none => match sendIdx s with
        | some i => sendPay m g.1.1 i
        | none => iprop(emp)
  amount_pos g _ _ _ := by
    cases g.2
    · exact Nat.one_pos
    · exact View.dmaCredit_pos _ (by decide)

end Sched

/-! ## What each device owes at launch; the levels -/

/-- Device c owes each partner's receive cell c a block's credit and each partner's barrier cell one unit. -/
def O₀ (c : Dev nD) : CellTallies nD τ sig Unit :=
  tallyAt (recvCell (peer c 7) c) () N + tallyAt (recvCell (peer c 6) c) () N + tallyAt (recvCell (peer c 5) c) () N
    + tallyAt (recvCell (peer c 4) c) () N + tallyAt (recvCell (peer c 3) c) () N + tallyAt (recvCell (peer c 2) c) () N
    + tallyAt (recvCell (peer c 1) c) () N
    + tallyAt (barCell (peer c 7)) () 1 + tallyAt (barCell (peer c 6)) () 1 + tallyAt (barCell (peer c 5)) () 1
    + tallyAt (barCell (peer c 4)) () 1 + tallyAt (barCell (peer c 3)) () 1 + tallyAt (barCell (peer c 2)) () 1
    + tallyAt (barCell (peer c 1)) () 1

def L (g : GSem nD τ sig) : Finset Unit := if g.1.2 = .tc then {()} else ∅
/-- Barrier cells at 1; the receive cell device d keeps for its k-th partner at 2 + k; everything else (the
    staging cells, the send cells, the local copies' cells) at 0. A device waits its k-th receive cell while it may
    still owe its 7th partner, whose receive cell for it stands at 2 + 7. -/
def lv (g : GSem nD τ sig) (_ : Unit) : ℕ :=
  match g.2 with
  | .reg _ => 1
  | .dma s => match recvIdx s with
    | some o => 2 + kOf g.1.1 o
    | none => 0

theorem L_of_ne (g : GSem nD τ sig) (h : g.1.2 ≠ .tc) : L g = ∅ := if_neg h
theorem L_tc (c : Dev nD) (sm : SemLoc sig) : L ((c : Thread nD τ), sm) = {()} := if_pos rfl

/-! ## The cells of one device, indexed: 0 the barrier, 1..7 the send cells, 8..14 the receive cells of partners 1..7 -/

abbrev csem (c : Dev nD) : Fin 15 → SemLoc sig
  | 0 => .reg barS
  | 1 => .dma (sendSem 0) | 2 => .dma (sendSem 1) | 3 => .dma (sendSem 2) | 4 => .dma (sendSem 3)
  | 5 => .dma (sendSem 4) | 6 => .dma (sendSem 5) | 7 => .dma (sendSem 6)
  | 8 => .dma (recvSem (peer c 1)) | 9 => .dma (recvSem (peer c 2)) | 10 => .dma (recvSem (peer c 3))
  | 11 => .dma (recvSem (peer c 4)) | 12 => .dma (recvSem (peer c 5)) | 13 => .dma (recvSem (peer c 6))
  | 14 => .dma (recvSem (peer c 7))
abbrev kcell (ck : Dev nD × Fin 15) : GSem nD τ sig := ((ck.1 : Thread nD τ), csem ck.1 ck.2)

/-! ## What the body starts from, and what it leaves -/

section Ghost
variable (m : (ℓ : Loc nD τ sig) → Buf (Elt F) ℓ)
variable (K : Dev nD × Fin 15 → ℕ)

/-- The cells' invariants device c's body opens, under the names the launch allocated them at: its own fifteen, and
    of each partner the barrier cell and the receive cell c credits (cell 7 + k of partner peer c k: c is its k-th). -/
def invs (c : Dev nD) : sProp 𝕄 :=
  iprop((bigSep Finset.univ fun n : Fin 15 => cellInv ER (Rd m) (K (c, n)) (kcell (c, n)))
    ∗ (bigSep (Finset.univ.erase (0 : Fin 8)) fun k : Fin 8 => cellInv ER (Rd m) (K (peer c k.val, 0)) (barCell (peer c k.val)))
    ∗ (bigSep (Finset.univ.erase (0 : Fin 8)) fun k : Fin 8 => cellInv ER (Rd m) (K (peer c k.val, ⟨7 + k.val, by have := k.isLt; omega⟩)) (recvCell (peer c k.val) c)))

/-- The protocol's ghost state device c starts from: the invariants; its positions at round 0 of its fifteen cells; round 0
    reached of every cell it waits or pays; the tokens it pays with — duty k of its k-th partner's barrier cell, the duty
    of that partner's receive cell c, the duty of each of its send cells. -/
def ghost (c : Dev nD) : sProp 𝕄 :=
  iprop(invs m K c
    ∗ (bigSep Finset.univ fun n : Fin 15 => atPos ER (kcell (c, n)) 0 ∅ 0)
    ∗ (bigSep Finset.univ fun n : Fin 15 => reached ER (kcell (c, n)) 0)
    ∗ (bigSep (Finset.univ.erase (0 : Fin 8)) fun k : Fin 8 => reached ER (barCell (peer c k.val)) 0)
    ∗ (bigSep (Finset.univ.erase (0 : Fin 8)) fun k : Fin 8 => reached ER (recvCell (peer c k.val) c) 0)
    ∗ (bigSep (Finset.univ.erase (0 : Fin 8)) fun k : Fin 8 => dutyTok ER (barCell (peer c k.val)) 0 k)
    ∗ (bigSep (Finset.univ.erase (0 : Fin 8)) fun k : Fin 8 => dutyTok ER (recvCell (peer c k.val) c) 0 (0 : Fin 8))
    ∗ (bigSep Finset.univ fun i : Fin 7 => dutyTok ER (sendCell c i) 0 (0 : Fin 8)))

/-- The credit the launch deals device c for the units others owe its cells: seven on its barrier, a block on each
    partner's receive cell. -/
def creds (c : Dev nD) : sProp 𝕄 :=
  iprop(cred (tallyAt (barCell c) () 7)
    ∗ bigSep (Finset.univ.erase (0 : Fin 8)) fun k : Fin 8 => cred (tallyAt (recvCell c (peer c k.val)) () N))

/-- The three own semaphores that are no cell of the protocol: the receive semaphore of the device's own index, and the
    two of the local copies; held at zero. -/
def idleSems (c : Dev nD) : sProp 𝕄 :=
  iprop(semVal ((c : Thread nD τ), .dma (recvSem c)) 0 ∗ semVal ((c : Thread nD τ), .dma (wSem 0)) 0 ∗ semVal ((c : Thread nD τ), .dma (wSem 1)) 0)

def start (c : Dev nD) : sProp 𝕄 :=
  iprop((∃ K, ghost m K c) ∗ creds c ∗ idleSems c ∗ levAts L lv
    ∗ (((c : Thread nD τ).loc main_arg1) ↦{fullShare} warr m c))

/-- The four scratch buffers, each whole at some contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f))

def Φ₀ (c : Dev nD) : sProp 𝕄 := iprop(start m c ∗ scratch c)

/-- The seventeen own semaphores at zero, as the launch takes them back. -/
def ownZero (c : Dev nD) : sProp 𝕄 :=
  iprop((bigSep Finset.univ fun i : Fin 7 => semVal (sendCell c i) 0)
    ∗ (bigSep Finset.univ fun o : Dev nD => semVal (recvCell c o) 0)
    ∗ semVal ((c : Thread nD τ), .dma (wSem 0)) 0 ∗ semVal ((c : Thread nD τ), .dma (wSem 1)) 0)

/-- After the point: the scratch buffers at some contents, the own semaphores at zero, w as it was. -/
def Φ₁ (c : Dev nD) : sProp 𝕄 :=
  iprop(scratch c ∗ ownZero c ∗ (((c : Thread nD τ).loc main_arg1) ↦{fullShare} warr m c))

end Ghost

end Cert.KernelIdeal.Proto

end
-- ==== Proof.LaunchPre.lean ====
/- The launch of the kernel on eight devices, first part: what does not depend on the body. The kernel's own
   semaphores listed; the fifteen protocol cells of every device and the duty tokens as the launch mints them;
   the launch element; the cells' invariants allocated from their counters at zero and the tokens dealt to the
   devices that pay with them; the credit the launch deals each device for what the others owe its cells. -/
import proofs.«900487_g7700000000000488_dist_a2a_gemm_m4096_k4096_n8192_f32_gelu_v7x_i8_1_alg».proof.Proof.Sched

noncomputable section

namespace Cert.KernelIdeal.LaunchPre

open Cert.KernelIdeal Cert.KernelIdeal.Gen Cert.KernelIdeal.Devs Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Partners, as equivalences -/

/-- The partner indices 1..7. -/
abbrev E7 : Finset (Fin 8) := Finset.univ.erase 0

/-- For a fixed index k, taking the k-th partner is an involution of the mesh. -/
def peerE (k : Fin 8) : Dev nD ≃ Dev nD := ⟨fun c => peer c k.val, fun c => peer c k.val, fun c => peer_invol c k, fun c => peer_invol c k⟩
/-- For a fixed device, its partners in order enumerate the mesh. -/
def peerF (c : Dev nD) : Fin 8 ≃ Dev nD :=
  ⟨fun k => peer c k.val, fun o => ⟨kOf c o, kOf_lt c o⟩, fun k => Fin.ext (kOf_peer c k), fun o => peer_kOf c o⟩

/-! ## The kernel's own semaphores -/

/-- The seventeen scoped DMA semaphores the kernel declares: seven send, eight receive, two for the local copies. -/
abbrev osem : Fin 17 → SemLoc sig
  | 0 => .dma (sendSem 0) | 1 => .dma (sendSem 1) | 2 => .dma (sendSem 2) | 3 => .dma (sendSem 3)
  | 4 => .dma (sendSem 4) | 5 => .dma (sendSem 5) | 6 => .dma (sendSem 6)
  | 7 => .dma (recvSem 0) | 8 => .dma (recvSem 1) | 9 => .dma (recvSem 2) | 10 => .dma (recvSem 3)
  | 11 => .dma (recvSem 4) | 12 => .dma (recvSem 5) | 13 => .dma (recvSem 6) | 14 => .dma (recvSem 7)
  | 15 => .dma (wSem 0) | 16 => .dma (wSem 1)
  | ⟨_ + 17, h⟩ => absurd h (Nat.not_lt.2 (Nat.le_add_left _ _))

theorem ownSemFacts : Pipeline.OwnSemFacts cfg0.spec osem := by decide

omit [FloatOps F] in
/-- The own semaphores at zero, one by one. -/
theorem ownSems0_eq (c : Dev nD) :
    (Pipeline.ownSems0 (Ix := Unit) (Name := ℕ) (U := UU) (Lvl := ℕ) (Val := Elt F) (τ := τ) osem c : sProp 𝕄)
      = iprop(semVal (sendCell c 0) 0 ∗ semVal (sendCell c 1) 0 ∗ semVal (sendCell c 2) 0 ∗ semVal (sendCell c 3) 0
          ∗ semVal (sendCell c 4) 0 ∗ semVal (sendCell c 5) 0 ∗ semVal (sendCell c 6) 0
          ∗ semVal (recvCell c 0) 0 ∗ semVal (recvCell c 1) 0 ∗ semVal (recvCell c 2) 0 ∗ semVal (recvCell c 3) 0
          ∗ semVal (recvCell c 4) 0 ∗ semVal (recvCell c 5) 0 ∗ semVal (recvCell c 6) 0 ∗ semVal (recvCell c 7) 0
          ∗ semVal ((c : Thread nD τ), .dma (wSem 0)) 0 ∗ semVal ((c : Thread nD τ), .dma (wSem 1)) 0) := by
  rw [Pipeline.ownSems0_eq_of_list c osem [0, 1, 2, 3, 4, 5, 6, 7, 8, 9, 10, 11, 12, 13, 14, 15, 16] (by decide) (by decide)]; rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_E7 (Φ : Fin 8 → sProp 𝕄) : bigSep E7 Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ
omit [FloatOps F] in
theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

omit [FloatOps F] in
/-- The same in the grouping the body hands them back in: the send semaphores, the receive semaphores by sender,
    the two of the local copies. -/
theorem ownSems0_eq_groups (c : Dev nD) :
    (Pipeline.ownSems0 (Ix := Unit) (Name := ℕ) (U := UU) (Lvl := ℕ) (Val := Elt F) (τ := τ) osem c : sProp 𝕄)
      = iprop((bigSep Finset.univ fun i : Fin 7 => semVal (sendCell c i) 0)
          ∗ (bigSep Finset.univ fun o : Dev nD => semVal (recvCell c o) 0)
          ∗ semVal ((c : Thread nD τ), .dma (wSem 0)) 0 ∗ semVal ((c : Thread nD τ), .dma (wSem 1)) 0) := by
  rw [ownSems0_eq, bigSep_fin7, bigSep_fin8]
  refine BI.Entails.antisymm (show _ ⊢ (_ : sProp 𝕄) from ?_) (show _ ⊢ (_ : sProp 𝕄) from ?_)
  · iintro ⟨H0, H1, H2, H3, H4, H5, H6, R0, R1, R2, R3, R4, R5, R6, R7, W0, W1⟩
    iframe
  · iintro ⟨⟨H0, H1, H2, H3, H4, H5, H6⟩, ⟨R0, R1, R2, R3, R4, R5, R6, R7⟩, W0, W1⟩
    iframe

/-! ## The protocol's cells and the duty tokens, as minted -/

theorem csem_inj : ∀ c : Dev nD, ∀ k k' : Fin 15, csem c k = csem c k' → k = k' := by decide

theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem c k = csem c k' := congrArg Prod.snd h
  rw [csem_inj c k k' h2]

def ringCells : Finset (GSem nD τ sig) := Finset.univ.map ⟨kcell, kcell_injective⟩

/-- What names a duty token among one device's cells: a duty k = 1..7 of its barrier cell, one of its seven send
    cells, or its receive cell of partner k = 1..7. -/
abbrev TokIx : Type := {k : Fin 8 // k ≠ 0} ⊕ Fin 7 ⊕ {k : Fin 8 // k ≠ 0}

/-- The duty tokens as the launch mints them, by the cell they belong to. -/
def tokOf (cj : Dev nD × TokIx) : GSem nD τ sig × ℕ × Fin 8 :=
  match cj.2 with
  | .inl k => (barCell cj.1, 0, k.1)
  | .inr (.inl i) => (sendCell cj.1 i, 0, 0)
  | .inr (.inr k) => (recvCell cj.1 (peer cj.1 k.1.val), 0, 0)

theorem sendSem_inj : ∀ i i' : Fin 7, sendSem i = sendSem i' → i = i' := by decide
theorem recvSem_inj : ∀ o o' : Dev nD, recvSem o = recvSem o' → o = o' := by decide
theorem sendSem_ne_recvSem : ∀ (i : Fin 7) (o : Dev nD), sendSem i ≠ recvSem o := by decide

theorem tokOf_injective : Function.Injective (tokOf : Dev nD × TokIx → GSem nD τ sig × ℕ × Fin 8) := by
  rintro ⟨c, j⟩ ⟨c', j'⟩ h
  have h1 : c = c' := by
    have := congrArg (fun x : GSem nD τ sig × ℕ × Fin 8 => x.1.1.1) h
    rcases j with k | i | k <;> rcases j' with k' | i' | k' <;> exact this
  subst h1
  have hs : (tokOf (c, j)).1.2 = (tokOf (c, j')).1.2 := congrArg (fun x : GSem nD τ sig × ℕ × Fin 8 => x.1.2) h
  have hd : (tokOf (c, j)).2.2 = (tokOf (c, j')).2.2 := congrArg (fun x : GSem nD τ sig × ℕ × Fin 8 => x.2.2) h
  rcases j with k | i | k <;> rcases j' with k' | i' | k'
  · have hk : k = k' := Subtype.ext hd
    rw [hk]
  · exact absurd (show (SemLoc.reg barS : SemLoc sig) = .dma (sendSem i') from hs) (fun h => by cases h)
  · exact absurd (show (SemLoc.reg barS : SemLoc sig) = .dma (recvSem (peer c k'.1.val)) from hs) (fun h => by cases h)
  · exact absurd (show (SemLoc.dma (sendSem i) : SemLoc sig) = .reg barS from hs) (fun h => by cases h)
  · have hi : i = i' := sendSem_inj i i' (SemLoc.dma.inj (show (SemLoc.dma (sendSem i) : SemLoc sig) = .dma (sendSem i') from hs))
    rw [hi]
  · exact absurd (SemLoc.dma.inj (show (SemLoc.dma (sendSem i) : SemLoc sig) = .dma (recvSem (peer c k'.1.val)) from hs)) (sendSem_ne_recvSem i _)
  · exact absurd (show (SemLoc.dma (recvSem (peer c k.1.val)) : SemLoc sig) = .reg barS from hs) (fun h => by cases h)
  · exact absurd (SemLoc.dma.inj (show (SemLoc.dma (recvSem (peer c k.1.val)) : SemLoc sig) = .dma (sendSem i') from hs)).symm (sendSem_ne_recvSem i' _)
  · have hp : peer c k.1.val = peer c k'.1.val :=
      recvSem_inj _ _ (SemLoc.dma.inj (show (SemLoc.dma (recvSem (peer c k.1.val)) : SemLoc sig) = .dma (recvSem (peer c k'.1.val)) from hs))
    have hk : k = k' := Subtype.ext (peer_inj c k.1 k'.1 hp)
    rw [hk]

def ringToks : Finset (GSem nD τ sig × ℕ × Fin 8) := Finset.univ.map ⟨tokOf, tokOf_injective⟩

/-- The launch element: the pipeline's staging cells and their tokens; the protocol's cells and tokens; no counter
    of a local copy (each is made when its copy is issued). -/
def u₀ : UU :=
  (initOf (Pipeline.cells cfgs cellOf_inj) (Pipeline.launchToks cfgs cellOf_inj), (initOf ringCells ringToks, 1))

/-! ## What the launch element deals each device, and the global step -/

section Fund
variable (m : (ℓ : Loc nD τ sig) → Buf (Elt F) ℓ)

/-- Every payload of the schedule can be kept in an invariant. -/
instance Rd_payload_storable (g : GSem nD τ sig) (r : ℕ) (d : Fin 8) :
    BI.Storable (upEmb : UEmb _ 𝕄) ((Rd (F := F) m).payload g r d) := by
  show BI.Storable upEmb (match g.2 with
    | .reg _ => barPay g.1.1 d
    | .dma s => match recvIdx s with
      | some o => recvPay m g.1.1 o
      | none => match sendIdx s with
        | some i => sendPay m g.1.1 i
        | none => iprop(emp))
  unfold barPay recvPay sendPay
  (repeat' split) <;> infer_instance

/-- The duty tokens of device c's own cells. -/
def toks (c : Dev nD) : sProp 𝕄 :=
  iprop((bigSep E7 fun k : Fin 8 => dutyTok ER (barCell c) 0 k)
    ∗ (bigSep Finset.univ fun i : Fin 7 => dutyTok ER (sendCell c i) 0 (0 : Fin 8))
    ∗ (bigSep E7 fun k : Fin 8 => dutyTok ER (recvCell c (peer c k.val)) 0 (0 : Fin 8)))

/-- The tokens device c pays with: duty k of its k-th partner's barrier cell, the duty of that partner's receive cell
    for c, the duty of each of its own send cells. -/
def payToks (c : Dev nD) : sProp 𝕄 :=
  iprop((bigSep E7 fun k : Fin 8 => dutyTok ER (barCell (peer c k.val)) 0 k)
    ∗ (bigSep E7 fun k : Fin 8 => dutyTok ER (recvCell (peer c k.val) c) 0 (0 : Fin 8))
    ∗ (bigSep Finset.univ fun i : Fin 7 => dutyTok ER (sendCell c i) 0 (0 : Fin 8)))

/-- What the launch element deals device c (the launch theorem's G). -/
def G (c : Dev nD) : sProp 𝕄 :=
  iprop((bigSep Finset.univ fun n : Fin 15 => roundState ER (Rd m) (kcell (c, n)) 0)
    ∗ (bigSep Finset.univ fun n : Fin 15 => iprop(atPos ER (kcell (c, n)) 0 ∅ 0 ∗ reached ER (kcell (c, n)) 0)) ∗ toks c)

/-- What the global step makes of it (G'): the ghost state the body starts from, at some names, and the three own
    semaphores that are no cell of the protocol. -/
def G' (c : Dev nD) : sProp 𝕄 := iprop((∃ K, ghost m K c) ∗ idleSems c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun n : Fin 15 => Φ (kcell (c, n)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_sum, bigSep_univ_sum, ← bigSep_subtype_ne (0 : Fin 8), ← bigSep_subtype_ne (0 : Fin 8)]
      rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- Something said of each of device c's fifteen cells: of the barrier cell, of the send cells, of the receive cells by
    partner. -/
theorem cells_eq (c : Dev nD) (Φ : GSem nD τ sig → sProp 𝕄) :
    (bigSep Finset.univ fun n : Fin 15 => Φ (kcell (c, n)))
      = iprop(Φ (barCell c) ∗ (bigSep Finset.univ fun i : Fin 7 => Φ (sendCell c i)) ∗ (bigSep E7 fun k : Fin 8 => Φ (recvCell c (peer c k.val)))) := by
  rw [bigSep_fin15, bigSep_fin7, bigSep_E7]
  show iprop(Φ (barCell c) ∗ Φ (sendCell c 0) ∗ Φ (sendCell c 1) ∗ Φ (sendCell c 2) ∗ Φ (sendCell c 3) ∗ Φ (sendCell c 4)
      ∗ Φ (sendCell c 5) ∗ Φ (sendCell c 6) ∗ Φ (recvCell c (peer c 1)) ∗ Φ (recvCell c (peer c 2)) ∗ Φ (recvCell c (peer c 3))
      ∗ Φ (recvCell c (peer c 4)) ∗ Φ (recvCell c (peer c 5)) ∗ Φ (recvCell c (peer c 6)) ∗ Φ (recvCell c (peer c 7)))
    = iprop(Φ (barCell c) ∗ (Φ (sendCell c 0) ∗ Φ (sendCell c 1) ∗ Φ (sendCell c 2) ∗ Φ (sendCell c 3) ∗ Φ (sendCell c 4)
      ∗ Φ (sendCell c 5) ∗ Φ (sendCell c 6)) ∗ (Φ (recvCell c (peer c 1)) ∗ Φ (recvCell c (peer c 2)) ∗ Φ (recvCell c (peer c 3))
      ∗ Φ (recvCell c (peer c 4)) ∗ Φ (recvCell c (peer c 5)) ∗ Φ (recvCell c (peer c 6)) ∗ Φ (recvCell c (peer c 7))))
  refine BI.Entails.antisymm (show _ ⊢ (_ : sProp 𝕄) from ?_) (show _ ⊢ (_ : sProp 𝕄) from ?_)
  · iintro ⟨B, S0, S1, S2, S3, S4, S5, S6, R1, R2, R3, R4, R5, R6, R7⟩
    iframe
  · iintro ⟨B, ⟨S0, S1, S2, S3, S4, S5, S6⟩, R1, R2, R3, R4, R5, R6, R7⟩
    iframe

omit [FloatOps F] in
/-- Something said of every device, from device c's point of view: of c itself and of its seven partners. -/
theorem by_partner (c : Dev nD) (Ψ : Dev nD → sProp 𝕄) :
    bigSep Finset.univ Ψ = iprop(Ψ c ∗ bigSep E7 fun k : Fin 8 => Ψ (peer c k.val)) := by
  rw [bigSep_univ_equiv (peerF c) Ψ, bigSep_univ_at _ (0 : Fin 8)]
  show iprop(Ψ (peer c (0 : Fin 8).val) ∗ bigSep E7 fun k : Fin 8 => Ψ (peer c k.val)) = _
  rw [show peer c (0 : Fin 8).val = c from peer_zero c]

omit [FloatOps F] in
/-- Device c's own and unscoped semaphores at zero: its fifteen cells' counters, and the three that are no cell. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun n : Fin 15 => semVal (kcell (c, n)) 0) ∗ idleSems c) : sProp 𝕄) := by
  rw [ownSems0_eq_groups, unscopedSems0_eq, cells_eq c (fun g => semVal g 0), by_partner c (fun o => semVal (recvCell c o) 0)]
  unfold idleSems
  iintro ⟨⟨HS, ⟨R0, HR⟩, W0, W1⟩, HB⟩
  iframe

/-- The fifteen cells' invariants allocated from their counters at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun n : Fin 15 => iprop(∃ κ : ℕ, cellInv ER (Rd m) κ (kcell (c, n))))
          ∗ (bigSep Finset.univ fun n : Fin 15 => iprop(atPos ER (kcell (c, n)) 0 ∅ 0 ∗ reached ER (kcell (c, n)) 0))
          ∗ toks c ∗ idleSems c) := by
  unfold G
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun n : Fin 15 => semVal (kcell (c, n)) 0) ∗ bigSep Finset.univ fun n : Fin 15 => roundState ER (Rd m) (kcell (c, n)) 0)
      ⊢ (|={Set.univ}=> bigSep Finset.univ fun n : Fin 15 => iprop(∃ κ : ℕ, cellInv ER (Rd m) κ (kcell (c, n))) : sProp 𝕄) from by
        rw [← bigSep_sep']
        exact (bigSep_mono fun n _ => (Rounds.body_intro ER (Rd m) (kcell (c, n))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

/-! ### The tokens dealt to the devices that pay with them -/

omit [FloatOps F] in
theorem bigSep_swap {α β : Type} [DecidableEq α] (s : Finset α) (t : Finset β) (Φ : α → β → sProp 𝕄) :
    (bigSep s fun a => bigSep t fun b => Φ a b) = bigSep t fun b => bigSep s fun a => Φ a b := by
  induction s using Finset.induction_on with
  | empty => simp only [bigSep_empty, bigSep_emp_const]
  | insert a s ha ih => simp only [bigSep_insert ha]; rw [ih]; exact (bigSep_sep t _ _).symm

omit [FloatOps F] in
/-- What is said of (device, partner index), said instead of (its partner of that index, the index): for each index,
    taking the partner is an involution of the mesh. -/
theorem around (Φ : Dev nD → Fin 8 → sProp 𝕄) :
    (bigSep Finset.univ fun c : Dev nD => bigSep E7 fun k : Fin 8 => Φ c k)
      = bigSep Finset.univ fun c : Dev nD => bigSep E7 fun k : Fin 8 => Φ (peer c k.val) k := by
  rw [bigSep_swap, bigSep_swap (Φ := fun c k => Φ (peer c k.val) k)]
  exact bigSep_congr fun k _ => bigSep_univ_equiv (peerE k) (fun c => Φ c k)

omit [FloatOps F] in
/-- The same for what is said of (device, its partner): said of (the partner, the device). -/
theorem around_pair (Ψ : Dev nD → Dev nD → sProp 𝕄) :
    (bigSep Finset.univ fun c : Dev nD => bigSep E7 fun k : Fin 8 => Ψ c (peer c k.val))
      = bigSep Finset.univ fun c : Dev nD => bigSep E7 fun k : Fin 8 => Ψ (peer c k.val) c := by
  rw [around (fun c k => Ψ c (peer c k.val))]
  exact bigSep_congr fun c _ => bigSep_congr fun k _ => by
    show Ψ (peer c k.val) (peer (peer c k.val) k.val) = _
    rw [peer_invol c k]

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    around (fun c k => (dutyTok ER (barCell c) 0 k : sProp 𝕄)),
    around_pair (fun c o => (dutyTok ER (recvCell c o) 0 (0 : Fin 8) : sProp 𝕄))]
  iintro ⟨H1, H2, H3⟩
  iframe

/-! ### The invariants and the reached-marks, persistent, handed to every device that needs them -/

theorem kcell_recv_partner : ∀ c : Dev nD, ∀ k : Fin 8, k ≠ 0 →
    kcell (peer c k.val, ⟨7 + k.val, by have := k.isLt; omega⟩) = recvCell (peer c k.val) c := by decide

def records (K : Dev nD × Fin 15 → ℕ) : sProp 𝕄 :=
  iprop((bigSep Finset.univ fun ck : Dev nD × Fin 15 => cellInv ER (Rd m) (K ck) (kcell ck))
    ∗ bigSep Finset.univ fun ck : Dev nD × Fin 15 => reached ER (kcell ck) 0)

instance records_persistent (K : Dev nD × Fin 15 → ℕ) : BI.Persistent (records m K) := by unfold records; infer_instance

theorem inv_at (K : Dev nD × Fin 15 → ℕ) (ck : Dev nD × Fin 15) :
    (bigSep Finset.univ fun ck : Dev nD × Fin 15 => (cellInv ER (Rd m) (K ck) (kcell ck) : sProp 𝕄)) ⊢ cellInv ER (Rd m) (K ck) (kcell ck) :=
  bigSep_elim (Finset.mem_univ ck)
omit [FloatOps F] in
theorem reached_at (ck : Dev nD × Fin 15) :
    (bigSep Finset.univ fun ck : Dev nD × Fin 15 => (reached ER (kcell ck) 0 : sProp 𝕄)) ⊢ reached ER (kcell ck) 0 :=
  bigSep_elim (Finset.mem_univ ck)

theorem invs_intro (K : Dev nD × Fin 15 → ℕ) (c : Dev nD) :
    (bigSep Finset.univ fun ck : Dev nD × Fin 15 => (cellInv ER (Rd m) (K ck) (kcell ck) : sProp 𝕄)) ⊢ Proto.invs m K c := by
  unfold Proto.invs
  iintro #HI
  isplitr
  · iapply (show (bigSep Finset.univ fun ck : Dev nD × Fin 15 => (cellInv ER (Rd m) (K ck) (kcell ck) : sProp 𝕄))
        ⊢ bigSep Finset.univ fun n : Fin 15 => cellInv ER (Rd m) (K (c, n)) (kcell (c, n)) from
      bigSep_intro_persistent fun n _ => inv_at m K (c, n))
    iexact HI
  isplitr
  · iapply (show (bigSep Finset.univ fun ck : Dev nD × Fin 15 => (cellInv ER (Rd m) (K ck) (kcell ck) : sProp 𝕄))
        ⊢ bigSep E7 fun k : Fin 8 => cellInv ER (Rd m) (K (peer c k.val, 0)) (barCell (peer c k.val)) from
      bigSep_intro_persistent fun k _ => inv_at m K (peer c k.val, 0))
    iexact HI
  · iapply (show (bigSep Finset.univ fun ck : Dev nD × Fin 15 => (cellInv ER (Rd m) (K ck) (kcell ck) : sProp 𝕄))
        ⊢ bigSep E7 fun k : Fin 8 => cellInv ER (Rd m) (K (peer c k.val, ⟨7 + k.val, by have := k.isLt; omega⟩)) (recvCell (peer c k.val) c) from
      bigSep_intro_persistent fun k hk => by
        rw [← kcell_recv_partner c k (Finset.ne_of_mem_erase hk)]; exact inv_at m K _)
    iexact HI

/-- From the records and what stays with device c — its positions, the tokens it pays with — the ghost state its body
    starts from. -/
theorem ghost_intro (K : Dev nD × Fin 15 → ℕ) (c : Dev nD) :
    iprop(records m K ∗ (bigSep Finset.univ fun n : Fin 15 => atPos ER (kcell (c, n)) 0 ∅ 0) ∗ payToks c) ⊢ ghost m K c := by
  unfold records payToks ghost
  iintro ⟨⟨#HI, #HR⟩, Hat, HtB, HtR, HtS⟩
  isplitr
  · iapply (invs_intro m K c); iexact HI
  isplitl [Hat]; · iexact Hat
  isplitr
  · iapply (show (bigSep Finset.univ fun ck : Dev nD × Fin 15 => (reached ER (kcell ck) 0 : sProp 𝕄))
        ⊢ bigSep Finset.univ fun n : Fin 15 => reached ER (kcell (c, n)) 0 from
      bigSep_intro_persistent fun n _ => reached_at (F := F) (c, n))
    iexact HR
  isplitr
  · iapply (show (bigSep Finset.univ fun ck : Dev nD × Fin 15 => (reached ER (kcell ck) 0 : sProp 𝕄))
        ⊢ bigSep E7 fun k : Fin 8 => reached ER (barCell (peer c k.val)) 0 from
      bigSep_intro_persistent fun k _ => reached_at (F := F) (peer c k.val, 0))
    iexact HR
  isplitr
  · iapply (show (bigSep Finset.univ fun ck : Dev nD × Fin 15 => (reached ER (kcell ck) 0 : sProp 𝕄))
        ⊢ bigSep E7 fun k : Fin 8 => reached ER (recvCell (peer c k.val) c) 0 from
      bigSep_intro_persistent fun k hk => by
        rw [← kcell_recv_partner c k (Finset.ne_of_mem_erase hk)]; exact reached_at (F := F) _)
    iexact HR
  isplitl [HtB]; · iexact HtB
  isplitl [HtR]; · iexact HtR
  iexact HtS

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun n : Fin 15 => iprop(∃ κ : ℕ, cellInv ER (Rd m) κ (kcell (c, n))))
          ∗ (bigSep Finset.univ fun n : Fin 15 => iprop(atPos ER (kcell (c, n)) 0 ∅ 0 ∗ reached ER (kcell (c, n)) 0))
          ∗ toks c ∗ idleSems c) : sProp 𝕄)
      ⊢ bigSep Finset.univ (G' m) := by
  rw [bigSep_sep', bigSep_sep', bigSep_sep', ← bigSep_univ_prod (fun ck : Dev nD × Fin 15 => iprop(∃ κ : ℕ, cellInv ER (Rd m) κ (kcell ck))),
    bigSep_congr (s := Finset.univ) (fun (c : Dev nD) _ => bigSep_sep' Finset.univ (fun n : Fin 15 => (atPos ER (kcell (c, n)) 0 ∅ 0 : sProp 𝕄)) (fun n => reached ER (kcell (c, n)) 0)),
    bigSep_sep', ← bigSep_univ_prod (fun ck : Dev nD × Fin 15 => (reached ER (kcell ck) 0 : sProp 𝕄))]
  iintro ⟨HI, ⟨Hat, #HR⟩, Htok, Hidle⟩
  ihave HK := (BI.bigSep_exists_pi Finset.univ (fun (ck : Dev nD × Fin 15) (κ : ℕ) => (cellInv ER (Rd m) κ (kcell ck) : sProp 𝕄))) $$ HI
  icases HK with ⟨%K, #HI⟩
  ihave Htk := (toks_around (F := F)) $$ Htok
  iapply (bigSep_with_persistent (R := records m K)
    (Φ := fun c : Dev nD => iprop(((bigSep Finset.univ fun n : Fin 15 => atPos ER (kcell (c, n)) 0 ∅ 0) ∗ payToks c) ∗ idleSems c))
    fun c _ => show iprop(records m K ∗ ((bigSep Finset.univ fun n : Fin 15 => atPos ER (kcell (c, n)) 0 ∅ 0) ∗ payToks c) ∗ idleSems c) ⊢ G' m c from by
      unfold G'
      iintro ⟨#HR, HL, Hidle⟩
      isplitl [HL]
      · iexists K
        iapply (ghost_intro m K c)
        isplitr; · iexact HR
        iexact HL
      · iexact Hidle)
  isplitr
  · unfold records; isplitl; · iexact HI
    iexact HR
  · rw [bigSep_sep', bigSep_sep']
    isplitl [Hat Htk]
    · isplitl [Hat]; · iexact Hat
      iexact Htk
    · iexact Hidle

/-- The global step (the launch theorem's hglob): the own AND the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Fund

/-! ## The launch credit

Summed over the devices, what each owes — a unit to every partner's barrier cell, a block's credit to every partner's
receive cell for it — is what each is owed on its own cells: seven units on its barrier cell and a block's credit on the
receive cell of each partner. -/

section Credit

theorem sum_E7 {A : Type} [AddCommMonoid A] (f : ℕ → A) : ∑ k ∈ E7, f k.val = f 7 + f 6 + f 5 + f 4 + f 3 + f 2 + f 1 := by
  rw [show E7 = {7, 6, 5, 4, 3, 2, 1} from by decide, Finset.sum_insert (by decide), Finset.sum_insert (by decide),
    Finset.sum_insert (by decide), Finset.sum_insert (by decide), Finset.sum_insert (by decide), Finset.sum_insert (by decide),
    Finset.sum_singleton]
  show f 7 + (f 6 + (f 5 + (f 4 + (f 3 + (f 2 + f 1))))) = _
  simp only [add_assoc]

/-- What a device owes, by kind: the receive credits, the barrier units. -/
theorem O₀_eq (d : Dev nD) :
    O₀ d = (∑ k ∈ E7, (tallyAt (recvCell (peer d k.val) d) () N : CellTallies nD τ sig Unit))
      + ∑ k ∈ E7, (tallyAt (barCell (peer d k.val)) () 1 : CellTallies nD τ sig Unit) := by
  rw [sum_E7 (fun k => (tallyAt (recvCell (peer d k) d) () N : CellTallies nD τ sig Unit)),
    sum_E7 (fun k => (tallyAt (barCell (peer d k)) () 1 : CellTallies nD τ sig Unit))]
  unfold O₀
  simp only [add_assoc]

/-- A sum over (device, partner index) may be taken at (the partner of that index, the index) instead. -/
theorem sum_around {A : Type} [AddCommMonoid A] (g : Dev nD → Fin 8 → A) :
    ∑ d : Dev nD, ∑ k ∈ E7, g (peer d k.val) k = ∑ d : Dev nD, ∑ k ∈ E7, g d k := by
  rw [Finset.sum_comm, Finset.sum_comm (f := fun d k => g d k)]
  exact Finset.sum_congr rfl fun k _ => Equiv.sum_comp (peerE k) (fun d => g d k)

/-- The units the other devices owe device c's cells. -/
def T (c : Dev nD) : CellTallies nD τ sig Unit :=
  tallyAt (barCell c) () 7 + ∑ k ∈ E7, tallyAt (recvCell c (peer c k.val)) () N

theorem bar_seven (d : Dev nD) : ∑ _k ∈ E7, (tallyAt (barCell d) () 1 : CellTallies nD τ sig Unit) = tallyAt (barCell d) () 7 := by
  rw [sum_E7 (fun _ => (tallyAt (barCell d) () 1 : CellTallies nD τ sig Unit))]
  simp only [tallyAt_add]

theorem owed_sum : (∑ d : Dev nD, O₀ d) = ∑ d : Dev nD, T d := by
  have hB : (∑ d : Dev nD, ∑ k ∈ E7, (tallyAt (barCell (peer d k.val)) () 1 : CellTallies nD τ sig Unit))
      = ∑ d : Dev nD, (tallyAt (barCell d) () 7 : CellTallies nD τ sig Unit) := by
    rw [sum_around (fun d _ => (tallyAt (barCell d) () 1 : CellTallies nD τ sig Unit))]
    exact Finset.sum_congr rfl fun d _ => bar_seven d
  have hR : (∑ d : Dev nD, ∑ k ∈ E7, (tallyAt (recvCell (peer d k.val) d) () N : CellTallies nD τ sig Unit))
      = ∑ d : Dev nD, ∑ k ∈ E7, (tallyAt (recvCell d (peer d k.val)) () N : CellTallies nD τ sig Unit) := by
    rw [← sum_around (fun d k => (tallyAt (recvCell d (peer d k.val)) () N : CellTallies nD τ sig Unit))]
    exact Finset.sum_congr rfl fun d _ => Finset.sum_congr rfl fun k _ => by
      show _ = (tallyAt (recvCell (peer d k.val) (peer (peer d k.val) k.val)) () N : CellTallies nD τ sig Unit)
      rw [peer_invol d k]
  simp only [O₀_eq, T]
  rw [Finset.sum_add_distrib, Finset.sum_add_distrib, hB, hR, add_comm]

theorem T_own (d : Dev nD) (g : GSem nD τ sig) (h : T d g ≠ 0) : g.1 = (d : Thread nD τ) := by
  by_contra hne
  apply h
  unfold T
  rw [Pi.add_apply, Finset.sum_apply, tallyAt_ne_cell (fun e => hne (by rw [e])), zero_add]
  exact Finset.sum_eq_zero fun k _ => tallyAt_ne_cell (fun e => hne (by rw [e])) () N

/-- The launch deals device c the credit for what the others owe its cells. -/
theorem creds_intro (c : Dev nD) : (Pipeline.launchCred O₀ c : sProp 𝕄) ⊢ Proto.creds c := by
  rw [Pipeline.launchCred_of_sum O₀ T owed_sum T_own c]
  unfold T Proto.creds
  exact (cred_add _ _).1.trans (sep_mono_right (Entails.of_eq (Pipeline.cred_finsetSum E7 _)))

end Credit

/-- info: 'Cert.KernelIdeal.LaunchPre.fund_ring' depends on axioms: [propext, Classical.choice, Quot.sound] -/
#guard_msgs in #print axioms fund_ring
/-- info: 'Cert.KernelIdeal.LaunchPre.glob' depends on axioms: [propext, Classical.choice, Quot.sound] -/
#guard_msgs in #print axioms glob
/-- info: 'Cert.KernelIdeal.LaunchPre.creds_intro' depends on axioms: [propext, Classical.choice, Quot.sound] -/
#guard_msgs in #print axioms creds_intro

end Cert.KernelIdeal.LaunchPre

end
-- ==== Proof.Levels.lean ====
/-
  The order of the waits. Every semaphore cell has a level: the barrier cells stand at 1, the receive cell
  a device keeps for its k-th partner at 2 + k, every other cell (the staging cells, the send cells, the
  cells of the local copies) at 0. A device may wait on a cell only while everything it still owes lies on
  cells of strictly higher level; since levels strictly rise along every chain "waits for a unit that is
  still owed", no cycle of devices waiting for one another can form.

  What a device owes, in the order it pays: one unit on each partner's barrier cell, then to its k-th
  partner, k = 1, …, 7, a block's credit on the receive cell that partner keeps for it. Partnership is
  symmetric (the k-th partner of c has c as its k-th partner), so that cell stands at 2 + k as well.
  Hence the barrier wait, at level 1, is below every receive cell; a wait on a cell of level 0 is below
  everything ever owed; and the wait for the first partner's block, at level 3, is below the receive cell
  of the seventh partner, at level 9, the only one still owed at that moment.
-/
import proofs.«900487_g7700000000000488_dist_a2a_gemm_m4096_k4096_n8192_f32_gelu_v7x_i8_1_alg».proof.Proof.Sched

noncomputable section

namespace Cert.KernelIdeal.Levels

open Cert.KernelIdeal Cert.KernelIdeal.Gen Cert.KernelIdeal.Devs Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ Cert.KernelIdeal.Proto.UU ℕ

/-! ## Tallies that charge only cells above a level -/

/-- Every cell the tallies charge belongs to a TensorCore thread and stands strictly above level `n`. -/
def Above (n : ℕ) (O : CellTallies nD τ sig Unit) : Prop :=
  ∀ (g : GSem nD τ sig) (u : Unit), 0 < O g u → g.1.2 = .tc ∧ n < lv g u

theorem Above.zero (n : ℕ) : Above n (0 : CellTallies nD τ sig Unit) :=
  fun _ _ h => absurd h (Nat.lt_irrefl 0)

theorem Above.add {n : ℕ} {D₁ D₂ : CellTallies nD τ sig Unit} (h₁ : Above n D₁) (h₂ : Above n D₂) : Above n (D₁ + D₂) :=
  fun g u h => (Pipeline.add_pos_cases h).elim (h₁ g u) (h₂ g u)

/-- Tallies at one cell charge that cell only. -/
theorem Above.cell {n : ℕ} {g₀ : GSem nD τ sig} (k : ℕ) (htc : g₀.1.2 = .tc) (hlv : n < lv g₀ ()) :
    Above n (tallyAt g₀ () k) :=
  fun g u h => by
    obtain ⟨rfl, rfl⟩ := Pipeline.tallyAt_pos h
    exact ⟨htc, hlv⟩

theorem Above.mono {n n' : ℕ} (hn : n ≤ n') {O : CellTallies nD τ sig Unit} (h : Above n' O) : Above n O :=
  fun g u hp => ⟨(h g u hp).1, lt_of_le_of_lt hn (h g u hp).2⟩

/-! ## The levels of the cells -/

/-- The partner index by a literal: the k-th partner of c is its partner number k. -/
theorem kOf_peer_lit (c : Dev nD) {k : ℕ} (hk : k < 8) : kOf c (peer c k) = k := kOf_peer c ⟨k, hk⟩

/-- Partnership is symmetric: c is the k-th partner of its k-th partner. -/
theorem kOf_peer_symm (c : Dev nD) {k : ℕ} (hk : k < 8) : kOf (peer c k) c = k :=
  (kOf_symm c (peer c k)).trans (kOf_peer_lit c hk)

/-- The receive cell device c keeps for sender o stands at 2 + (o's partner index seen from c). -/
theorem lv_recvCell (c o : Dev nD) : lv (recvCell c o) () = 2 + kOf c o := by
  simp only [lv, recvIdx_recvSem]

/-- A barrier cell stands at 1. -/
theorem lv_barCell (d : Dev nD) : lv (barCell d) () = 1 := rfl

/-- A DMA cell that is no receive cell stands at 0. -/
theorem lv_low (c : Dev nD) (q : DmaSem sig) (hq : recvIdx q = none) : lv ((c : Thread nD τ), .dma q) () = 0 := by
  simp only [lv, hq]

/-! ## What a device owes lies above -/

/-- A block's credit owed on the receive cell device d keeps for c lies above every level below 2 + (c's
    partner index seen from d). -/
theorem above_recv (d c : Dev nD) {n : ℕ} (h : n < 2 + kOf d c) : Above n (tallyAt (recvCell d c) () N) :=
  Above.cell N rfl (by rw [lv_recvCell]; exact h)

/-- In particular above the barrier's level and above level 0. -/
theorem above_recv_low (d c : Dev nD) {n : ℕ} (hn : n ≤ 1) : Above n (tallyAt (recvCell d c) () N) :=
  above_recv d c (by omega)

/-- The credit owed to the k-th partner lies above every level below 2 + k. -/
theorem above_recv_peer (c : Dev nD) {k n : ℕ} (hk : k < 8) (h : n < 2 + k) :
    Above n (tallyAt (recvCell (peer c k) c) () N) :=
  above_recv (peer c k) c (by rw [kOf_peer_symm c hk]; exact h)

/-- A unit owed on a barrier cell lies above level 0. -/
theorem above_bar (d : Dev nD) : Above 0 (tallyAt (barCell d) () 1) :=
  Above.cell 1 rfl (by rw [lv_barCell]; exact Nat.one_pos)

/-- The seven sends still owed, all of them: above the barrier's level (and so above level 0). -/
theorem above_sends (c : Dev nD) {n : ℕ} (hn : n ≤ 1) :
    Above n (tallyAt (recvCell (peer c 7) c) () N + tallyAt (recvCell (peer c 6) c) () N + tallyAt (recvCell (peer c 5) c) () N
      + tallyAt (recvCell (peer c 4) c) () N + tallyAt (recvCell (peer c 3) c) () N + tallyAt (recvCell (peer c 2) c) () N
      + tallyAt (recvCell (peer c 1) c) () N) :=
  ((((((above_recv_low _ c hn).add (above_recv_low _ c hn)).add (above_recv_low _ c hn)).add (above_recv_low _ c hn)).add
    (above_recv_low _ c hn)).add (above_recv_low _ c hn)).add (above_recv_low _ c hn)

/-- The last four sends still owed. -/
theorem above_sends4 (c : Dev nD) {n : ℕ} (hn : n ≤ 1) :
    Above n (tallyAt (recvCell (peer c 7) c) () N + tallyAt (recvCell (peer c 6) c) () N + tallyAt (recvCell (peer c 5) c) () N
      + tallyAt (recvCell (peer c 4) c) () N) :=
  (((above_recv_low _ c hn).add (above_recv_low _ c hn)).add (above_recv_low _ c hn)).add (above_recv_low _ c hn)

/-- Everything a device owes at launch lies above level 0. -/
theorem above_O₀ (c : Dev nD) : Above 0 (O₀ c) := by
  unfold O₀
  exact (((((((above_sends c (Nat.zero_le 1)).add (above_bar _)).add (above_bar _)).add (above_bar _)).add (above_bar _)).add
    (above_bar _)).add (above_bar _)).add (above_bar _)

/-! ## The waits -/

/-- A device may wait on a cell of its own while everything it owes lies above that cell's level. -/
theorem mayWait_of_above (c : Dev nD) (s : SemLoc sig) {O : CellTallies nD τ sig Unit}
    (h : Above (lv ((c : Thread nD τ), s) ()) O) :
    (levAts L lv : sProp 𝕄) ⊢ MayWait (c : Thread nD τ) s () O :=
  Pipeline.mayWait_of_levAts (by rw [L_tc]; exact Finset.mem_singleton_self _)
    (fun g i hg => ⟨by unfold L; rw [if_pos (h g i hg).1]; exact Finset.mem_singleton_self _, (h g i hg).2⟩)

/-- The barrier wait, all seven sends still owed. -/
theorem mayWait_bar (c : Dev nD) :
    (levAts L lv : sProp 𝕄) ⊢ MayWait (c : Thread nD τ) (.reg barS) ()
      (tallyAt (recvCell (peer c 7) c) () N + tallyAt (recvCell (peer c 6) c) () N + tallyAt (recvCell (peer c 5) c) () N
        + tallyAt (recvCell (peer c 4) c) () N + tallyAt (recvCell (peer c 3) c) () N + tallyAt (recvCell (peer c 2) c) () N
        + tallyAt (recvCell (peer c 1) c) () N) :=
  mayWait_of_above c (.reg barS) (above_sends c (Nat.le_refl 1))

/-- A wait on a DMA cell that is no receive cell (a staging cell, a send cell, a local copy's cell), whatever
    is owed, provided it lies above level 0. -/
theorem mayWait_low (c : Dev nD) (q : DmaSem sig) (hq : recvIdx q = none) (O : CellTallies nD τ sig Unit) (hO : Above 0 O) :
    (levAts L lv : sProp 𝕄) ⊢ MayWait (c : Thread nD τ) (.dma q) () O :=
  mayWait_of_above c (.dma q) (by rw [lv_low c q hq]; exact hO)

/-- The same at each stage of what a device owes: everything owed at launch, -/
theorem mayWait_low_O₀ (c : Dev nD) (q : DmaSem sig) (hq : recvIdx q = none) :
    (levAts L lv : sProp 𝕄) ⊢ MayWait (c : Thread nD τ) (.dma q) () (O₀ c) :=
  mayWait_low c q hq _ (above_O₀ c)

/-- the seven sends, -/
theorem mayWait_low_sends (c : Dev nD) (q : DmaSem sig) (hq : recvIdx q = none) :
    (levAts L lv : sProp 𝕄) ⊢ MayWait (c : Thread nD τ) (.dma q) ()
      (tallyAt (recvCell (peer c 7) c) () N + tallyAt (recvCell (peer c 6) c) () N + tallyAt (recvCell (peer c 5) c) () N
        + tallyAt (recvCell (peer c 4) c) () N + tallyAt (recvCell (peer c 3) c) () N + tallyAt (recvCell (peer c 2) c) () N
        + tallyAt (recvCell (peer c 1) c) () N) :=
  mayWait_low c q hq _ (above_sends c (Nat.zero_le 1))

/-- the last four sends, -/
theorem mayWait_low_sends4 (c : Dev nD) (q : DmaSem sig) (hq : recvIdx q = none) :
    (levAts L lv : sProp 𝕄) ⊢ MayWait (c : Thread nD τ) (.dma q) ()
      (tallyAt (recvCell (peer c 7) c) () N + tallyAt (recvCell (peer c 6) c) () N + tallyAt (recvCell (peer c 5) c) () N
        + tallyAt (recvCell (peer c 4) c) () N) :=
  mayWait_low c q hq _ (above_sends4 c (Nat.zero_le 1))

/-- the last send. -/
theorem mayWait_low_send7 (c : Dev nD) (q : DmaSem sig) (hq : recvIdx q = none) :
    (levAts L lv : sProp 𝕄) ⊢ MayWait (c : Thread nD τ) (.dma q) () (tallyAt (recvCell (peer c 7) c) () N) :=
  mayWait_low c q hq _ (above_recv_low _ c (Nat.zero_le 1))

/-- A wait for the j-th partner's block while only the send to a later partner k is owed. -/
theorem mayWait_recv (c : Dev nD) {j k : ℕ} (hjk : j < k) (hk : k < 8) :
    (levAts L lv : sProp 𝕄) ⊢ MayWait (c : Thread nD τ) (.dma (recvSem (peer c j))) ()
      (tallyAt (recvCell (peer c k) c) () N) :=
  mayWait_of_above c (.dma (recvSem (peer c j))) (by
    rw [show lv ((c : Thread nD τ), SemLoc.dma (recvSem (peer c j))) () = 2 + kOf c (peer c j) from lv_recvCell c (peer c j),
      kOf_peer_lit c (Nat.lt_trans hjk hk)]
    exact above_recv_peer c hk (by omega))

/-- The first receive wait, the last send still owed: level 2 + 1 is below 2 + 7. -/
theorem mayWait_recv1 (c : Dev nD) :
    (levAts L lv : sProp 𝕄) ⊢ MayWait (c : Thread nD τ) (.dma (recvSem (peer c 1))) ()
      (tallyAt (recvCell (peer c 7) c) () N) :=
  mayWait_recv c (by decide) (by decide)

end Cert.KernelIdeal.Levels

end
-- ==== Proof.SchedTables.lean ====
/- The schedule's tables, cell kind by cell kind: the duties, amounts, expected units and payloads of round 0,
   and that no later round has a duty. -/
import proofs.«900487_g7700000000000488_dist_a2a_gemm_m4096_k4096_n8192_f32_gelu_v7x_i8_1_alg».proof.Proof.Sched

noncomputable section

namespace Cert.KernelIdeal.Proto

open Cert.KernelIdeal Cert.KernelIdeal.Gen Cert.KernelIdeal.Devs
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

instance Rd_payload_storable (g : GSem nD τ sig) (r : ℕ) (d : Fin 8) :
    BI.Storable (upEmb : UEmb _ 𝕄) ((Rd (F := F) m).payload g r d) := by
  show BI.Storable upEmb (match g.2 with
    | .reg _ => barPay g.1.1 d
    | .dma s => match recvIdx s with
      | some o => recvPay m g.1.1 o
      | none => match sendIdx s with
        | some i => sendPay m g.1.1 i
        | none => iprop(emp))
  unfold barPay recvPay sendPay
  (repeat' split) <;> infer_instance

section Tables
variable (c : Dev nD)

theorem duties_bar : (Rd (F := F) m).duties (barCell c) 0 = Finset.univ.erase 0 := by
  dsimp only [Rd]; rw [if_pos ⟨rfl, rfl⟩]; exact if_pos rfl
theorem duties_send (i : Fin 7) : (Rd (F := F) m).duties (sendCell c i) 0 = {0} := by
  dsimp only [Rd]; rw [if_pos ⟨rfl, rfl⟩]; simp only [recvIdx_sendSem, sendIdx_sendSem]
theorem duties_recv (o : Dev nD) (h : o ≠ c) : (Rd (F := F) m).duties (recvCell c o) 0 = {0} := by
  dsimp only [Rd]; rw [if_pos ⟨rfl, rfl⟩]; simp only [recvIdx_recvSem]; exact if_neg h
theorem duties_later (g : GSem nD τ sig) : ∀ r, 1 ≤ r → (Rd (F := F) m).duties g r = ∅ :=
  fun r hr => by dsimp only [Rd]; rw [if_neg fun h => by omega]

theorem amount_bar (d : Fin 8) : (Rd (F := F) m).amount (barCell c) 0 d = 1 := rfl
theorem amount_send (i : Fin 7) (d : Fin 8) : (Rd (F := F) m).amount (sendCell c i) 0 d = N := rfl
theorem amount_recv (o : Dev nD) (d : Fin 8) : (Rd (F := F) m).amount (recvCell c o) 0 d = N := rfl

theorem expect_bar : (Rd (F := F) m).expect (barCell c) 0 = 7 := by
  unfold Schedule.expect Schedule.amountOf
  rw [duties_bar, Finset.sum_congr rfl fun d _ => amount_bar m c d, Finset.sum_const, smul_eq_mul, mul_one]
  rfl
theorem expect_send (i : Fin 7) : (Rd (F := F) m).expect (sendCell c i) 0 = N := by
  unfold Schedule.expect Schedule.amountOf; rw [duties_send, Finset.sum_singleton, amount_send]
theorem expect_recv (o : Dev nD) (h : o ≠ c) : (Rd (F := F) m).expect (recvCell c o) 0 = N := by
  unfold Schedule.expect Schedule.amountOf; rw [duties_recv m c o h, Finset.sum_singleton, amount_recv]

theorem payload_bar (k : Fin 8) : (Rd (F := F) m).payload (barCell c) 0 k = barPay c k := rfl
theorem payload_send (i : Fin 7) (d : Fin 8) : (Rd (F := F) m).payload (sendCell c i) 0 d = sendPay m c i := by
  dsimp only [Rd]; simp only [recvIdx_sendSem, sendIdx_sendSem]
theorem payload_recv (o : Dev nD) (d : Fin 8) : (Rd (F := F) m).payload (recvCell c o) 0 d = recvPay m c o := by
  dsimp only [Rd]; simp only [recvIdx_recvSem]

/-- The rest of a send cell's round, no duty taken: the row block back. -/
theorem rest_send (i : Fin 7) : bigSep ((Rd (F := F) m).duties (sendCell c i) 0 \ ∅) (fun d => (Rd (F := F) m).payload (sendCell c i) 0 d) = sendPay m c i := by
  rw [Finset.sdiff_empty, duties_send, bigSep_singleton, payload_send]
/-- The rest of a receive cell's round: the slot at what landed. -/
theorem rest_recv (o : Dev nD) (h : o ≠ c) : bigSep ((Rd (F := F) m).duties (recvCell c o) 0 \ ∅) (fun d => (Rd (F := F) m).payload (recvCell c o) 0 d) = recvPay m c o := by
  rw [Finset.sdiff_empty, duties_recv m c o h, bigSep_singleton, payload_recv]
/-- The rest of the barrier cell's round: every partner's slot c. -/
theorem rest_bar : bigSep ((Rd (F := F) m).duties (barCell c) 0 \ ∅) (fun d => (Rd (F := F) m).payload (barCell c) 0 d)
    = iprop(barPay c 1 ∗ barPay c 2 ∗ barPay c 3 ∗ barPay c 4 ∗ barPay c 5 ∗ barPay c 6 ∗ barPay c 7) := by
  rw [Finset.sdiff_empty, duties_bar, bigSep_eq_bigSepL_of_eq [(1 : Fin 8), 2, 3, 4, 5, 6, 7] (by decide) (by decide)]
  rfl

end Tables

end Cert.KernelIdeal.Proto

end
-- ==== Proof.Cuts.lean ====
/-
  Two scratch buffers of one device, held piece by piece.

  The receive buffer, 8 × 512 × 512, is its eight slots: slot j is the unit rectangle at offset (j, 0, 0),
  one long on the first axis and whole on the other two. The half-precision copy of x, 4096 × 512, is its
  eight blocks of 512 rows: block j is the unit rectangle at offset (512 · j, 0), 512 long on the first
  axis and whole on the second. In both families two pieces with different numbers are disjoint (their
  ranges on the first axis are), and the eight pieces cover the buffer (8 · 1 = 8, 8 · 512 = 4096): that
  is arithmetic on the offsets, and no element set is ever listed. So a buffer held whole is the eight
  pieces held, each on its own elements at the same contents, and eight pieces held at any contents join
  back to the buffer held whole.

  The copy's blocks are also indexed by partner: k ↦ the k-th partner of c is a bijection of the eight
  devices, so the blocks of the partners of c, k = 0, …, 7, are the same eight blocks. The rows device c
  sends its (i + 1)-th partner are that partner's block, and the rows it keeps are its own block.
-/
import proofs.«900487_g7700000000000488_dist_a2a_gemm_m4096_k4096_n8192_f32_gelu_v7x_i8_1_alg».proof.Proof.Sched
import Idealize.ShloMosaic.Lib.Ring

noncomputable section

namespace Cert.KernelIdeal.Cuts

open Cert.KernelIdeal Cert.KernelIdeal.Gen Cert.KernelIdeal.Devs Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ Cert.KernelIdeal.Proto.UU ℕ

/-! ## Eight pieces, one after another -/

/-- A product over the eight numbers, spelt out. -/
theorem bigSep_fin8 {M : Type _} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The receive buffer and its slots -/

/-- Slot j's elements, as a set of elements of the receive buffer. -/
abbrev slotSet (j : Dev nD) : Finset S8x512x512.Idx := (slotM j).view.set

/-- They are the unit rectangle at (j, 0, 0). -/
theorem slot_set (j : Dev nD) :
    slotSet j = (Rect.unit (s := S8x512x512) (k0_off3 j) S1x512x512.size (k0_off3_inb j)).set :=
  (View.set_reshape (v := rM.view.slice (Rect.unit (s := S8x512x512) (k0_off3 j) S1x512x512.size (k0_off3_inb j))) _).trans
    (View.set_slice_whole cc0_scratch1 _)

theorem slot_off_lead (b : Dev nD) : k0_off3 b (⟨0, by decide⟩ : Fin S8x512x512.rank) = 1 * b.val := by
  rw [k0_off3_eq, Nat.one_mul]; rfl

theorem slot_off_rest : ∀ (b : Dev nD) (a : Fin S8x512x512.rank), a ≠ ⟨0, by decide⟩ → k0_off3 b a = 0 := by
  intro b a ha
  rw [k0_off3_eq]
  match a, ha with
  | ⟨0, _⟩, ha => exact absurd rfl ha
  | ⟨1, _⟩, _ => rfl
  | ⟨2, _⟩, _ => rfl

/-- Two different slots share no element. -/
theorem slots_disjoint (j j' : Dev nD) (h : j ≠ j') : Disjoint (slotSet j) (slotSet j') := by
  rw [slot_set, slot_set]
  exact Ring.lead_disjoint (s := S8x512x512) (NB := 8) ⟨0, by decide⟩ 1 (fun b : Fin 8 => k0_off3 b) S1x512x512.size
    k0_off3_inb slot_off_lead (by decide) j j' h

/-- The eight slots are the whole buffer. -/
theorem slots_cover : Finset.univ.biUnion (fun j : Dev nD => slotSet j) = Finset.univ := by
  rw [show (fun j : Dev nD => slotSet j)
      = fun j : Dev nD => (Rect.unit (s := S8x512x512) (k0_off3 j) S1x512x512.size (k0_off3_inb j)).set from funext slot_set]
  exact Ring.lead_cover (s := S8x512x512) (NB := 8) ⟨0, by decide⟩ 1 (fun b : Fin 8 => k0_off3 b) S1x512x512.size
    k0_off3_inb slot_off_lead slot_off_rest (by decide) (by decide) (by decide)

/-- The receive buffer held whole is its eight slots held, at the same contents. -/
theorem recv_cut (c : Dev nD) (f : Buf (Elt F) ((c : Thread nD τ).loc cc0_scratch1)) :
    (((c : Thread nD τ).loc cc0_scratch1) ↦{fullShare} f : sProp 𝕄)
      = bigSep Finset.univ fun j : Dev nD => (slotM j).view.loc (c : Thread nD τ) ↦[(slotM j).view.set]{fullShare} f :=
  Ring.pointsTo_blocks (Ix := Unit) (Val := Elt F) (Name := ℕ) (U := UU) (Lvl := ℕ) (ℓ := (c : Thread nD τ).loc cc0_scratch1)
    (q := fullShare) (fun j : Dev nD => slotSet j) slots_disjoint slots_cover f

/-- Eight slots held at any contents join to the receive buffer held whole. -/
theorem recv_join (c : Dev nD) :
    bigSep Finset.univ (fun j : Dev nD => iprop(∃ f, (slotM j).view.loc (c : Thread nD τ) ↦[(slotM j).view.set]{fullShare} f))
      ⊢ (iprop(∃ g, ((c : Thread nD τ).loc cc0_scratch1) ↦{fullShare} g) : sProp 𝕄) :=
  Ring.pointsTo_blocks_join_exists (Ix := Unit) (Val := Elt F) (Name := ℕ) (U := UU) (Lvl := ℕ) (ℓ := (c : Thread nD τ).loc cc0_scratch1)
    (q := fullShare) (fun j : Dev nD => slotSet j) slots_disjoint slots_cover (fun _ => Classical.arbitrary _)

/-- The same two, the eight slots one after another. -/
theorem recv_cut_chain (c : Dev nD) (f : Buf (Elt F) ((c : Thread nD τ).loc cc0_scratch1)) :
    (((c : Thread nD τ).loc cc0_scratch1) ↦{fullShare} f : sProp 𝕄)
      = iprop(((slotM 0).view.loc (c : Thread nD τ) ↦[(slotM 0).view.set]{fullShare} f)
        ∗ ((slotM 1).view.loc (c : Thread nD τ) ↦[(slotM 1).view.set]{fullShare} f)
        ∗ ((slotM 2).view.loc (c : Thread nD τ) ↦[(slotM 2).view.set]{fullShare} f)
        ∗ ((slotM 3).view.loc (c : Thread nD τ) ↦[(slotM 3).view.set]{fullShare} f)
        ∗ ((slotM 4).view.loc (c : Thread nD τ) ↦[(slotM 4).view.set]{fullShare} f)
        ∗ ((slotM 5).view.loc (c : Thread nD τ) ↦[(slotM 5).view.set]{fullShare} f)
        ∗ ((slotM 6).view.loc (c : Thread nD τ) ↦[(slotM 6).view.set]{fullShare} f)
        ∗ ((slotM 7).view.loc (c : Thread nD τ) ↦[(slotM 7).view.set]{fullShare} f)) :=
  (recv_cut c f).trans (bigSep_fin8 _)

theorem recv_join_chain (c : Dev nD) :
    iprop((∃ f, (slotM 0).view.loc (c : Thread nD τ) ↦[(slotM 0).view.set]{fullShare} f)
        ∗ (∃ f, (slotM 1).view.loc (c : Thread nD τ) ↦[(slotM 1).view.set]{fullShare} f)
        ∗ (∃ f, (slotM 2).view.loc (c : Thread nD τ) ↦[(slotM 2).view.set]{fullShare} f)
        ∗ (∃ f, (slotM 3).view.loc (c : Thread nD τ) ↦[(slotM 3).view.set]{fullShare} f)
        ∗ (∃ f, (slotM 4).view.loc (c : Thread nD τ) ↦[(slotM 4).view.set]{fullShare} f)
        ∗ (∃ f, (slotM 5).view.loc (c : Thread nD τ) ↦[(slotM 5).view.set]{fullShare} f)
        ∗ (∃ f, (slotM 6).view.loc (c : Thread nD τ) ↦[(slotM 6).view.set]{fullShare} f)
        ∗ (∃ f, (slotM 7).view.loc (c : Thread nD τ) ↦[(slotM 7).view.set]{fullShare} f))
      ⊢ (iprop(∃ g, ((c : Thread nD τ).loc cc0_scratch1) ↦{fullShare} g) : sProp 𝕄) :=
  (Entails.of_eq (bigSep_fin8 (fun j : Dev nD =>
    (iprop(∃ f, (slotM j).view.loc (c : Thread nD τ) ↦[(slotM j).view.set]{fullShare} f) : sProp 𝕄))).symm).trans (recv_join c)

/-! ## The half-precision copy and its row blocks -/

theorem rows_inb : ∀ (j : Dev nD) (a : Fin S4096x512.rank),
    (![512 * j.val, 0] : Fin 2 → ℕ) a + S512x512.size a ≤ S4096x512.size a := by decide

/-- Block j of the copy: rows 512 · j, …, 512 · j + 511. -/
abbrev blockM (j : Dev nD) : Memref sig .tc .vmem S512x512 .bf16 :=
  bM.slice (Rect.unit (s := S4096x512) ![512 * j.val, 0] S512x512.size (rows_inb j)) (fun _ => rfl)

/-- Block j's elements, as a set of elements of the copy. -/
abbrev blockSet (j : Dev nD) : Finset S4096x512.Idx := (blockM j).view.set

theorem block_set (j : Dev nD) :
    blockSet j = (Rect.unit (s := S4096x512) ![512 * j.val, 0] S512x512.size (rows_inb j)).set :=
  View.set_slice_whole cc0_scratch0 _

theorem block_off_rest : ∀ (b : Dev nD) (a : Fin S4096x512.rank), a ≠ ⟨0, by decide⟩ → (![512 * b.val, 0] : Fin 2 → ℕ) a = 0 := by
  intro b a ha
  match a, ha with
  | ⟨0, _⟩, ha => exact absurd rfl ha
  | ⟨1, _⟩, _ => rfl

theorem blocks_disjoint (j j' : Dev nD) (h : j ≠ j') : Disjoint (blockSet j) (blockSet j') := by
  rw [block_set, block_set]
  exact Ring.lead_disjoint (s := S4096x512) (NB := 8) ⟨0, by decide⟩ 512 (fun b : Fin 8 => ![512 * b.val, 0]) S512x512.size
    rows_inb (fun _ => rfl) (by decide) j j' h

theorem blocks_cover : Finset.univ.biUnion (fun j : Dev nD => blockSet j) = Finset.univ := by
  rw [show (fun j : Dev nD => blockSet j)
      = fun j : Dev nD => (Rect.unit (s := S4096x512) ![512 * j.val, 0] S512x512.size (rows_inb j)).set from funext block_set]
  exact Ring.lead_cover (s := S4096x512) (NB := 8) ⟨0, by decide⟩ 512 (fun b : Fin 8 => ![512 * b.val, 0]) S512x512.size
    rows_inb (fun _ => rfl) block_off_rest (by decide) (by decide) (by decide)

/-- The copy held whole is its eight row blocks held, at the same contents. -/
theorem copy_cut (c : Dev nD) (f : Buf (Elt F) ((c : Thread nD τ).loc cc0_scratch0)) :
    (((c : Thread nD τ).loc cc0_scratch0) ↦{fullShare} f : sProp 𝕄)
      = bigSep Finset.univ fun j : Dev nD => (blockM j).view.loc (c : Thread nD τ) ↦[(blockM j).view.set]{fullShare} f :=
  Ring.pointsTo_blocks (Ix := Unit) (Val := Elt F) (Name := ℕ) (U := UU) (Lvl := ℕ) (ℓ := (c : Thread nD τ).loc cc0_scratch0)
    (q := fullShare) (fun j : Dev nD => blockSet j) blocks_disjoint blocks_cover f

/-- Eight row blocks held at any contents join to the copy held whole. -/
theorem copy_join (c : Dev nD) :
    bigSep Finset.univ (fun j : Dev nD => iprop(∃ f, (blockM j).view.loc (c : Thread nD τ) ↦[(blockM j).view.set]{fullShare} f))
      ⊢ (iprop(∃ g, ((c : Thread nD τ).loc cc0_scratch0) ↦{fullShare} g) : sProp 𝕄) :=
  Ring.pointsTo_blocks_join_exists (Ix := Unit) (Val := Elt F) (Name := ℕ) (U := UU) (Lvl := ℕ) (ℓ := (c : Thread nD τ).loc cc0_scratch0)
    (q := fullShare) (fun j : Dev nD => blockSet j) blocks_disjoint blocks_cover (fun _ => Classical.arbitrary _)

/-! ## The same blocks by partner -/

/-- k ↦ the k-th partner of c, a bijection of the eight devices. -/
def partner (c : Dev nD) : Fin 8 ≃ Dev nD :=
  Equiv.ofBijective (fun k : Fin 8 => peer c k.val)
    ⟨fun k k' h => peer_inj c k k' h, fun j => peer_surj c j⟩

theorem partner_apply (c : Dev nD) (k : Fin 8) : partner c k = peer c k.val := rfl

/-- The copy held whole is the blocks of the eight partners of c held. -/
theorem copy_cut_peer (c : Dev nD) (f : Buf (Elt F) ((c : Thread nD τ).loc cc0_scratch0)) :
    (((c : Thread nD τ).loc cc0_scratch0) ↦{fullShare} f : sProp 𝕄)
      = bigSep Finset.univ fun k : Fin 8 =>
          (blockM (peer c k.val)).view.loc (c : Thread nD τ) ↦[(blockM (peer c k.val)).view.set]{fullShare} f :=
  (copy_cut c f).trans (bigSep_univ_equiv (partner c) _)

theorem copy_join_peer (c : Dev nD) :
    bigSep Finset.univ (fun k : Fin 8 =>
        iprop(∃ f, (blockM (peer c k.val)).view.loc (c : Thread nD τ) ↦[(blockM (peer c k.val)).view.set]{fullShare} f))
      ⊢ (iprop(∃ g, ((c : Thread nD τ).loc cc0_scratch0) ↦{fullShare} g) : sProp 𝕄) :=
  (Entails.of_eq (bigSep_univ_equiv (partner c) (fun j : Dev nD =>
    (iprop(∃ f, (blockM j).view.loc (c : Thread nD τ) ↦[(blockM j).view.set]{fullShare} f) : sProp 𝕄))).symm).trans (copy_join c)

/-- The blocks of the partners of c, k = 0, …, 7, one after another. -/
theorem copy_cut_peer_chain (c : Dev nD) (f : Buf (Elt F) ((c : Thread nD τ).loc cc0_scratch0)) :
    (((c : Thread nD τ).loc cc0_scratch0) ↦{fullShare} f : sProp 𝕄)
      = iprop(((blockM (peer c 0)).view.loc (c : Thread nD τ) ↦[(blockM (peer c 0)).view.set]{fullShare} f)
        ∗ ((blockM (peer c 1)).view.loc (c : Thread nD τ) ↦[(blockM (peer c 1)).view.set]{fullShare} f)
        ∗ ((blockM (peer c 2)).view.loc (c : Thread nD τ) ↦[(blockM (peer c 2)).view.set]{fullShare} f)
        ∗ ((blockM (peer c 3)).view.loc (c : Thread nD τ) ↦[(blockM (peer c 3)).view.set]{fullShare} f)
        ∗ ((blockM (peer c 4)).view.loc (c : Thread nD τ) ↦[(blockM (peer c 4)).view.set]{fullShare} f)
        ∗ ((blockM (peer c 5)).view.loc (c : Thread nD τ) ↦[(blockM (peer c 5)).view.set]{fullShare} f)
        ∗ ((blockM (peer c 6)).view.loc (c : Thread nD τ) ↦[(blockM (peer c 6)).view.set]{fullShare} f)
        ∗ ((blockM (peer c 7)).view.loc (c : Thread nD τ) ↦[(blockM (peer c 7)).view.set]{fullShare} f)) :=
  (copy_cut_peer c f).trans (bigSep_fin8 _)

theorem copy_join_peer_chain (c : Dev nD) :
    iprop((∃ f, (blockM (peer c 0)).view.loc (c : Thread nD τ) ↦[(blockM (peer c 0)).view.set]{fullShare} f)
        ∗ (∃ f, (blockM (peer c 1)).view.loc (c : Thread nD τ) ↦[(blockM (peer c 1)).view.set]{fullShare} f)
        ∗ (∃ f, (blockM (peer c 2)).view.loc (c : Thread nD τ) ↦[(blockM (peer c 2)).view.set]{fullShare} f)
        ∗ (∃ f, (blockM (peer c 3)).view.loc (c : Thread nD τ) ↦[(blockM (peer c 3)).view.set]{fullShare} f)
        ∗ (∃ f, (blockM (peer c 4)).view.loc (c : Thread nD τ) ↦[(blockM (peer c 4)).view.set]{fullShare} f)
        ∗ (∃ f, (blockM (peer c 5)).view.loc (c : Thread nD τ) ↦[(blockM (peer c 5)).view.set]{fullShare} f)
        ∗ (∃ f, (blockM (peer c 6)).view.loc (c : Thread nD τ) ↦[(blockM (peer c 6)).view.set]{fullShare} f)
        ∗ (∃ f, (blockM (peer c 7)).view.loc (c : Thread nD τ) ↦[(blockM (peer c 7)).view.set]{fullShare} f))
      ⊢ (iprop(∃ g, ((c : Thread nD τ).loc cc0_scratch0) ↦{fullShare} g) : sProp 𝕄) :=
  (Entails.of_eq (bigSep_fin8 (fun k : Fin 8 =>
    (iprop(∃ f, (blockM (peer c k.val)).view.loc (c : Thread nD τ) ↦[(blockM (peer c k.val)).view.set]{fullShare} f) : sProp 𝕄))).symm).trans
    (copy_join_peer c)

/-! ## The body's own names for the blocks -/

/-- The offset of the rows sent to the (i + 1)-th partner: that partner's block. -/
theorem off4_at_eq : ∀ (c : Dev nD) (i : Fin 7),
    k0_off4 c (k0_off4_at i).1 (k0_off4_at i).2.1 (k0_off4_at i).2.2 = ![512 * (peer c (i.val + 1)).val, 0] := by
  decide +kernel

/-- The rows device c sends its (i + 1)-th partner are that partner's block of the copy. -/
theorem rowsM_eq (c : Dev nD) (i : Fin 7) : rowsM c i = blockM (peer c (i.val + 1)) :=
  Memref.slice_unit_congr bM (off4_at_eq c i) _ _ _ _

/-- The rows device c keeps, as the body names them. -/
abbrev ownM (c : Dev nD) : Memref sig .tc .vmem S512x512 .bf16 :=
  bM.slice (Rect.unit (s := S4096x512) (k0_off6 c) S512x512.size (k0_off6_inb c)) (fun _ => rfl)

/-- They are its own block. -/
theorem ownM_eq (c : Dev nD) : ownM c = blockM c :=
  Memref.slice_unit_congr bM (k0_off6_eq c) _ _ _ _

/-- Its own block is the block of its partner number 0. -/
theorem block_peer_zero (c : Dev nD) : blockM (peer c 0) = blockM c := by rw [peer_zero]

/-- info: 'Cert.KernelIdeal.Cuts.recv_cut' depends on axioms: [propext, Classical.choice, Quot.sound] -/
#guard_msgs in #print axioms recv_cut
/-- info: 'Cert.KernelIdeal.Cuts.copy_cut_peer' depends on axioms: [propext, Classical.choice, Quot.sound] -/
#guard_msgs in #print axioms copy_cut_peer

end Cert.KernelIdeal.Cuts

end
-- ==== Proof.CutsBody.lean ====
/-
  More ways to hold the two scratch buffers piece by piece.

  The receive buffer's slots indexed by partner: k ↦ the k-th partner of c is a bijection of the eight
  devices, so the slots of the partners of c, k = 0, …, 7, are the eight slots.

  The double buffer of w, 2 × 512 × 4096, is its two slots: slot s is the unit rectangle at offset (s, 0, 0),
  one long on the first axis and whole on the other two.

  The half-precision copy in the names the body itself uses: the rows device c keeps, and the rows it sends
  its (i + 1)-th partner, i = 0, …, 6. These are the block of c and the blocks of its partners 1, …, 7:
  memrefs cut out of one buffer at equal offsets are the same piece, whatever chain of arithmetic spells
  the offset.
-/
import proofs.«900487_g7700000000000488_dist_a2a_gemm_m4096_k4096_n8192_f32_gelu_v7x_i8_1_alg».proof.Proof.Cuts

noncomputable section

namespace Cert.KernelIdeal.Cuts

open Cert.KernelIdeal Cert.KernelIdeal.Gen Cert.KernelIdeal.Devs Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ Cert.KernelIdeal.Proto.UU ℕ

/-! ## The receive buffer's slots by partner -/

/-- The receive buffer held whole is the slots of the eight partners of c held. -/
theorem recv_cut_peer (c : Dev nD) (f : Buf (Elt F) ((c : Thread nD τ).loc cc0_scratch1)) :
    (((c : Thread nD τ).loc cc0_scratch1) ↦{fullShare} f : sProp 𝕄)
      = bigSep Finset.univ fun k : Fin 8 =>
          (slotM (peer c k.val)).view.loc (c : Thread nD τ) ↦[(slotM (peer c k.val)).view.set]{fullShare} f :=
  (recv_cut c f).trans (bigSep_univ_equiv (partner c) _)

theorem recv_join_peer (c : Dev nD) :
    bigSep Finset.univ (fun k : Fin 8 =>
        iprop(∃ f, (slotM (peer c k.val)).view.loc (c : Thread nD τ) ↦[(slotM (peer c k.val)).view.set]{fullShare} f))
      ⊢ (iprop(∃ g, ((c : Thread nD τ).loc cc0_scratch1) ↦{fullShare} g) : sProp 𝕄) :=
  (Entails.of_eq (bigSep_univ_equiv (partner c) (fun j : Dev nD =>
    (iprop(∃ f, (slotM j).view.loc (c : Thread nD τ) ↦[(slotM j).view.set]{fullShare} f) : sProp 𝕄))).symm).trans (recv_join c)

/-- The slots of the partners of c, k = 0, …, 7, one after another. -/
theorem recv_cut_peer_chain (c : Dev nD) (f : Buf (Elt F) ((c : Thread nD τ).loc cc0_scratch1)) :
    (((c : Thread nD τ).loc cc0_scratch1) ↦{fullShare} f : sProp 𝕄)
      = iprop(((slotM (peer c 0)).view.loc (c : Thread nD τ) ↦[(slotM (peer c 0)).view.set]{fullShare} f)
        ∗ ((slotM (peer c 1)).view.loc (c : Thread nD τ) ↦[(slotM (peer c 1)).view.set]{fullShare} f)
        ∗ ((slotM (peer c 2)).view.loc (c : Thread nD τ) ↦[(slotM (peer c 2)).view.set]{fullShare} f)
        ∗ ((slotM (peer c 3)).view.loc (c : Thread nD τ) ↦[(slotM (peer c 3)).view.set]{fullShare} f)
        ∗ ((slotM (peer c 4)).view.loc (c : Thread nD τ) ↦[(slotM (peer c 4)).view.set]{fullShare} f)
        ∗ ((slotM (peer c 5)).view.loc (c : Thread nD τ) ↦[(slotM (peer c 5)).view.set]{fullShare} f)
        ∗ ((slotM (peer c 6)).view.loc (c : Thread nD τ) ↦[(slotM (peer c 6)).view.set]{fullShare} f)
        ∗ ((slotM (peer c 7)).view.loc (c : Thread nD τ) ↦[(slotM (peer c 7)).view.set]{fullShare} f)) :=
  (recv_cut_peer c f).trans (bigSep_fin8 _)

theorem recv_join_peer_chain (c : Dev nD) :
    iprop((∃ f, (slotM (peer c 0)).view.loc (c : Thread nD τ) ↦[(slotM (peer c 0)).view.set]{fullShare} f)
        ∗ (∃ f, (slotM (peer c 1)).view.loc (c : Thread nD τ) ↦[(slotM (peer c 1)).view.set]{fullShare} f)
        ∗ (∃ f, (slotM (peer c 2)).view.loc (c : Thread nD τ) ↦[(slotM (peer c 2)).view.set]{fullShare} f)
        ∗ (∃ f, (slotM (peer c 3)).view.loc (c : Thread nD τ) ↦[(slotM (peer c 3)).view.set]{fullShare} f)
        ∗ (∃ f, (slotM (peer c 4)).view.loc (c : Thread nD τ) ↦[(slotM (peer c 4)).view.set]{fullShare} f)
        ∗ (∃ f, (slotM (peer c 5)).view.loc (c : Thread nD τ) ↦[(slotM (peer c 5)).view.set]{fullShare} f)
        ∗ (∃ f, (slotM (peer c 6)).view.loc (c : Thread nD τ) ↦[(slotM (peer c 6)).view.set]{fullShare} f)
        ∗ (∃ f, (slotM (peer c 7)).view.loc (c : Thread nD τ) ↦[(slotM (peer c 7)).view.set]{fullShare} f))
      ⊢ (iprop(∃ g, ((c : Thread nD τ).loc cc0_scratch1) ↦{fullShare} g) : sProp 𝕄) :=
  (Entails.of_eq (bigSep_fin8 (fun k : Fin 8 =>
    (iprop(∃ f, (slotM (peer c k.val)).view.loc (c : Thread nD τ) ↦[(slotM (peer c k.val)).view.set]{fullShare} f) : sProp 𝕄))).symm).trans
    (recv_join_peer c)

/-! ## Rows of the copy at an offset: equal offsets, equal pieces -/

/-- The 512 rows of the copy at an offset. -/
abbrev rowsAt (off : Fin S4096x512.rank → ℕ) (h : ∀ a, off a + S512x512.size a ≤ S4096x512.size a) :
    Memref sig .tc .vmem S512x512 .bf16 :=
  bM.slice (Rect.unit (s := S4096x512) off S512x512.size h) (fun _ => rfl)

theorem piece_congr (c : Dev nD) (f : Buf (Elt F) ((c : Thread nD τ).loc cc0_scratch0))
    {off off' : Fin S4096x512.rank → ℕ} (e : off = off')
    (h : ∀ a, off a + S512x512.size a ≤ S4096x512.size a) (h' : ∀ a, off' a + S512x512.size a ≤ S4096x512.size a) :
    ((rowsAt off h).view.loc (c : Thread nD τ) ↦[(rowsAt off h).view.set]{fullShare} f : sProp 𝕄)
      = ((rowsAt off' h').view.loc (c : Thread nD τ) ↦[(rowsAt off' h').view.set]{fullShare} f) := by
  subst e; rfl

theorem pieceEx_congr (c : Dev nD) {off off' : Fin S4096x512.rank → ℕ} (e : off = off')
    (h : ∀ a, off a + S512x512.size a ≤ S4096x512.size a) (h' : ∀ a, off' a + S512x512.size a ≤ S4096x512.size a) :
    (iprop(∃ f, (rowsAt off h).view.loc (c : Thread nD τ) ↦[(rowsAt off h).view.set]{fullShare} f) : sProp 𝕄)
      = iprop(∃ f, (rowsAt off' h').view.loc (c : Thread nD τ) ↦[(rowsAt off' h').view.set]{fullShare} f) := by
  subst e; rfl

/-- The rows sent to the (i + 1)-th partner, held: that partner's block, held. -/
theorem rows_piece (c : Dev nD) (i : Fin 7) (f : Buf (Elt F) ((c : Thread nD τ).loc cc0_scratch0)) :
    (((rowsM c i).view.loc (c : Thread nD τ) ↦[(rowsM c i).view.set]{fullShare} f) : sProp 𝕄)
      = ((blockM (peer c (i.val + 1))).view.loc (c : Thread nD τ) ↦[(blockM (peer c (i.val + 1))).view.set]{fullShare} f) :=
  piece_congr c f (off4_at_eq c i) _ _

/-- The rows kept, held: the device's own block, held. -/
theorem own_piece (c : Dev nD) (f : Buf (Elt F) ((c : Thread nD τ).loc cc0_scratch0)) :
    (((ownM c).view.loc (c : Thread nD τ) ↦[(ownM c).view.set]{fullShare} f) : sProp 𝕄) = ((blockM c).view.loc (c : Thread nD τ) ↦[(blockM c).view.set]{fullShare} f) :=
  piece_congr c f (k0_off6_eq c) _ _

/-- The block of partner number 0 is the device's own. -/
theorem peer0_piece (c : Dev nD) (f : Buf (Elt F) ((c : Thread nD τ).loc cc0_scratch0)) :
    (((blockM (peer c 0)).view.loc (c : Thread nD τ) ↦[(blockM (peer c 0)).view.set]{fullShare} f) : sProp 𝕄) = ((blockM c).view.loc (c : Thread nD τ) ↦[(blockM c).view.set]{fullShare} f) :=
  piece_congr c f (by rw [peer_zero]) _ _

theorem rows_pieceEx (c : Dev nD) (i : Fin 7) :
    (iprop(∃ f, (rowsM c i).view.loc (c : Thread nD τ) ↦[(rowsM c i).view.set]{fullShare} f) : sProp 𝕄) = iprop(∃ f, (blockM (peer c (i.val + 1))).view.loc (c : Thread nD τ) ↦[(blockM (peer c (i.val + 1))).view.set]{fullShare} f) :=
  pieceEx_congr c (off4_at_eq c i) _ _

theorem own_pieceEx (c : Dev nD) :
    (iprop(∃ f, (ownM c).view.loc (c : Thread nD τ) ↦[(ownM c).view.set]{fullShare} f) : sProp 𝕄) = iprop(∃ f, (blockM c).view.loc (c : Thread nD τ) ↦[(blockM c).view.set]{fullShare} f) :=
  pieceEx_congr c (k0_off6_eq c) _ _

theorem peer0_pieceEx (c : Dev nD) :
    (iprop(∃ f, (blockM (peer c 0)).view.loc (c : Thread nD τ) ↦[(blockM (peer c 0)).view.set]{fullShare} f) : sProp 𝕄) = iprop(∃ f, (blockM c).view.loc (c : Thread nD τ) ↦[(blockM c).view.set]{fullShare} f) :=
  pieceEx_congr c (by rw [peer_zero]) _ _

/-! ## The copy in the body's names -/

/-- The copy held whole is the rows kept and the seven blocks sent, held, at the same contents. -/
theorem copy_cut_body (c : Dev nD) (f : Buf (Elt F) ((c : Thread nD τ).loc cc0_scratch0)) :
    (((c : Thread nD τ).loc cc0_scratch0) ↦{fullShare} f : sProp 𝕄)
      = iprop(((ownM c).view.loc (c : Thread nD τ) ↦[(ownM c).view.set]{fullShare} f)
        ∗ ((rowsM c 0).view.loc (c : Thread nD τ) ↦[(rowsM c 0).view.set]{fullShare} f)
        ∗ ((rowsM c 1).view.loc (c : Thread nD τ) ↦[(rowsM c 1).view.set]{fullShare} f)
        ∗ ((rowsM c 2).view.loc (c : Thread nD τ) ↦[(rowsM c 2).view.set]{fullShare} f)
        ∗ ((rowsM c 3).view.loc (c : Thread nD τ) ↦[(rowsM c 3).view.set]{fullShare} f)
        ∗ ((rowsM c 4).view.loc (c : Thread nD τ) ↦[(rowsM c 4).view.set]{fullShare} f)
        ∗ ((rowsM c 5).view.loc (c : Thread nD τ) ↦[(rowsM c 5).view.set]{fullShare} f)
        ∗ ((rowsM c 6).view.loc (c : Thread nD τ) ↦[(rowsM c 6).view.set]{fullShare} f)) := by
  rw [own_piece c f, rows_piece c 0 f, rows_piece c 1 f, rows_piece c 2 f, rows_piece c 3 f, rows_piece c 4 f,
    rows_piece c 5 f, rows_piece c 6 f, ← peer0_piece c f]
  exact copy_cut_peer_chain c f

/-- The rows kept and the seven blocks sent, held at any contents, join to the copy held whole. -/
theorem copy_join_body (c : Dev nD) :
    iprop((∃ f, (ownM c).view.loc (c : Thread nD τ) ↦[(ownM c).view.set]{fullShare} f)
        ∗ (∃ f, (rowsM c 0).view.loc (c : Thread nD τ) ↦[(rowsM c 0).view.set]{fullShare} f)
        ∗ (∃ f, (rowsM c 1).view.loc (c : Thread nD τ) ↦[(rowsM c 1).view.set]{fullShare} f)
        ∗ (∃ f, (rowsM c 2).view.loc (c : Thread nD τ) ↦[(rowsM c 2).view.set]{fullShare} f)
        ∗ (∃ f, (rowsM c 3).view.loc (c : Thread nD τ) ↦[(rowsM c 3).view.set]{fullShare} f)
        ∗ (∃ f, (rowsM c 4).view.loc (c : Thread nD τ) ↦[(rowsM c 4).view.set]{fullShare} f)
        ∗ (∃ f, (rowsM c 5).view.loc (c : Thread nD τ) ↦[(rowsM c 5).view.set]{fullShare} f)
        ∗ (∃ f, (rowsM c 6).view.loc (c : Thread nD τ) ↦[(rowsM c 6).view.set]{fullShare} f))
      ⊢ (iprop(∃ g, ((c : Thread nD τ).loc cc0_scratch0) ↦{fullShare} g) : sProp 𝕄) := by
  rw [own_pieceEx c, rows_pieceEx c 0, rows_pieceEx c 1, rows_pieceEx c 2, rows_pieceEx c 3, rows_pieceEx c 4,
    rows_pieceEx c 5, rows_pieceEx c 6, ← peer0_pieceEx c]
  exact copy_join_peer_chain c

/-! ## The double buffer of w and its two slots -/

/-- A product over the two numbers, spelt out. -/
theorem bigSep_two {M : Type _} [URA M] (Φ : Fin 2 → sProp M) : bigSep Finset.univ Φ = iprop(Φ 0 ∗ Φ 1) :=
  bigSep_univ_eq_bigSepL [0, 1] (by decide) (by decide) Φ

/-- Slot s of the double buffer, 512 × 4096, as the body names it. -/
abbrev wslot : Fin 2 → Memref sig .tc .vmem S512x4096 .f32
  | 0 => (wM.slice (Rect.unit (s := S2x512x4096) ![0, 0, 0] S1x512x4096.size inb_S2x512x4096_S1x512x4096_0_0_0) (fun _ => rfl)).squeeze
      S512x4096 squeezes_S1x512x4096_S512x4096
  | 1 => (wM.slice (Rect.unit (s := S2x512x4096) ![1, 0, 0] S1x512x4096.size inb_S2x512x4096_S1x512x4096_1_0_0) (fun _ => rfl)).squeeze
      S512x4096 squeezes_S1x512x4096_S512x4096

/-- The offset of slot s in the double buffer. -/
abbrev woff : Fin 2 → Fin S2x512x4096.rank → ℕ
  | 0 => ![0, 0, 0]
  | 1 => ![1, 0, 0]

theorem woff_inb : ∀ (b : Fin 2) (a : Fin S2x512x4096.rank), woff b a + S1x512x4096.size a ≤ S2x512x4096.size a
  | 0 => inb_S2x512x4096_S1x512x4096_0_0_0
  | 1 => inb_S2x512x4096_S1x512x4096_1_0_0

/-- Slot s's elements, as a set of elements of the double buffer. -/
abbrev wslotSet : Fin 2 → Finset S2x512x4096.Idx
  | 0 => (wslot 0).view.set
  | 1 => (wslot 1).view.set

/-- They are the unit rectangle at (s, 0, 0). -/
theorem wslot_set : ∀ s : Fin 2,
    wslotSet s = (Rect.unit (s := S2x512x4096) (woff s) S1x512x4096.size (woff_inb s)).set
  | 0 => (View.set_reshape (v := wM.view.slice (Rect.unit (s := S2x512x4096) ![0, 0, 0] S1x512x4096.size
      inb_S2x512x4096_S1x512x4096_0_0_0)) _).trans (View.set_slice_whole cc0_scratch3 _)
  | 1 => (View.set_reshape (v := wM.view.slice (Rect.unit (s := S2x512x4096) ![1, 0, 0] S1x512x4096.size
      inb_S2x512x4096_S1x512x4096_1_0_0)) _).trans (View.set_slice_whole cc0_scratch3 _)

theorem woff_lead : ∀ b : Fin 2, woff b (⟨0, by decide⟩ : Fin S2x512x4096.rank) = 1 * b.val := by decide

theorem woff_rest : ∀ (b : Fin 2) (a : Fin S2x512x4096.rank), a ≠ ⟨0, by decide⟩ → woff b a = 0 := by decide

theorem wslots_disjoint (s s' : Fin 2) (h : s ≠ s') : Disjoint (wslotSet s) (wslotSet s') := by
  rw [wslot_set s, wslot_set s']
  exact Ring.lead_disjoint (s := S2x512x4096) (NB := 2) ⟨0, by decide⟩ 1 woff S1x512x4096.size
    woff_inb woff_lead (by decide) s s' h

theorem wslots_cover : Finset.univ.biUnion (fun s : Fin 2 => wslotSet s) = Finset.univ := by
  rw [show (fun s : Fin 2 => wslotSet s)
      = fun s : Fin 2 => (Rect.unit (s := S2x512x4096) (woff s) S1x512x4096.size (woff_inb s)).set from funext wslot_set]
  exact Ring.lead_cover (s := S2x512x4096) (NB := 2) ⟨0, by decide⟩ 1 woff S1x512x4096.size
    woff_inb woff_lead woff_rest (by decide) (by decide) (by decide)

/-- The double buffer held whole is its two slots held, at the same contents. -/
theorem wbuf_cut (c : Dev nD) (f : Buf (Elt F) (wM.view.loc (c : Thread nD τ))) :
    (wM.view.loc (c : Thread nD τ) ↦{fullShare} f : sProp 𝕄)
      = iprop(((wslot 0).view.loc (c : Thread nD τ) ↦[(wslot 0).view.set]{fullShare} f)
        ∗ ((wslot 1).view.loc (c : Thread nD τ) ↦[(wslot 1).view.set]{fullShare} f)) :=
  (Ring.pointsTo_blocks (Ix := Unit) (Val := Elt F) (Name := ℕ) (U := UU) (Lvl := ℕ) (ℓ := (c : Thread nD τ).loc cc0_scratch3)
    (q := fullShare) (fun s : Fin 2 => wslotSet s) wslots_disjoint wslots_cover f).trans
    (bigSep_two (fun s : Fin 2 => ((((c : Thread nD τ).loc cc0_scratch3) ↦[wslotSet s]{fullShare} f : sProp 𝕄))))

/-- Two slots held at any contents join to the double buffer held whole. -/
theorem wbuf_join (c : Dev nD) :
    iprop((∃ f, (wslot 0).view.loc (c : Thread nD τ) ↦[(wslot 0).view.set]{fullShare} f)
        ∗ (∃ f, (wslot 1).view.loc (c : Thread nD τ) ↦[(wslot 1).view.set]{fullShare} f))
      ⊢ (iprop(∃ g, wM.view.loc (c : Thread nD τ) ↦{fullShare} g) : sProp 𝕄) :=
  (Entails.of_eq (bigSep_two (fun s : Fin 2 =>
    (iprop(∃ f, ((c : Thread nD τ).loc cc0_scratch3) ↦[wslotSet s]{fullShare} f) : sProp 𝕄))).symm).trans
    (Ring.pointsTo_blocks_join_exists (Ix := Unit) (Val := Elt F) (Name := ℕ) (U := UU) (Lvl := ℕ) (ℓ := (c : Thread nD τ).loc cc0_scratch3)
      (q := fullShare) (fun s : Fin 2 => wslotSet s) wslots_disjoint wslots_cover (fun _ => Classical.arbitrary _))

/-- info: 'Cert.KernelIdeal.Cuts.copy_cut_body' depends on axioms: [propext, Classical.choice, Quot.sound] -/
#guard_msgs in #print axioms copy_cut_body
/-- info: 'Cert.KernelIdeal.Cuts.recv_cut_peer_chain' depends on axioms: [propext, Classical.choice, Quot.sound] -/
#guard_msgs in #print axioms recv_cut_peer_chain
/-- info: 'Cert.KernelIdeal.Cuts.wbuf_cut' depends on axioms: [propext, Classical.choice, Quot.sound] -/
#guard_msgs in #print axioms wbuf_cut

end Cert.KernelIdeal.Cuts

end
-- ==== Proof.BodyLemmas.lean ====
/- The rules and tables the body's symbolic run is driven with: the schedule's tables with the entry on the left and
   each payload spelt as the points-to it is; the closed forms of the printed offset and device chains as the run's
   geometry reads them; the one transfer rule the run applies by name (a landing over whatever the slot held is the
   landing the schedule names); and the small restating steps between two stretches of the run. -/
import proofs.«900487_g7700000000000488_dist_a2a_gemm_m4096_k4096_n8192_f32_gelu_v7x_i8_1_alg».proof.Proof.Sched
import proofs.«900487_g7700000000000488_dist_a2a_gemm_m4096_k4096_n8192_f32_gelu_v7x_i8_1_alg».proof.Proof.Levels
import proofs.«900487_g7700000000000488_dist_a2a_gemm_m4096_k4096_n8192_f32_gelu_v7x_i8_1_alg».proof.Proof.SchedTables
import proofs.«900487_g7700000000000488_dist_a2a_gemm_m4096_k4096_n8192_f32_gelu_v7x_i8_1_alg».proof.Proof.Cuts
import proofs.«900487_g7700000000000488_dist_a2a_gemm_m4096_k4096_n8192_f32_gelu_v7x_i8_1_alg».proof.Proof.CutsBody
import Idealize.ShloMosaic.Lib.Pipeline.Launch
import Idealize.ShloMosaic.Lib.Pipeline.Kit
import Idealize.ShloMosaic.Lib.Ring
import Idealize.ShloMosaic.Lib.Tactic

noncomputable section

namespace Cert.KernelIdeal.BodyProof

open Cert.KernelIdeal Cert.KernelIdeal.Gen Cert.KernelIdeal.Devs Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The schedule's tables in the form the symbolic run reads them (entry on the left, payloads spelt as the
    points-to itself) -/

theorem t_duties_bar (o : Dev nD) : (Rd m).duties (barCell o) 0 = {1, 2, 3, 4, 5, 6, 7} := by
  rw [duties_bar]; decide
theorem t_amount_bar (o : Dev nD) (r : ℕ) (d : Fin 8) : (Rd m).amount (barCell o) r d = 1 := rfl
theorem t_expect_bar (o : Dev nD) : (Rd m).expect (barCell o) 0 = 7 := expect_bar m o
theorem t_payload_bar (o : Dev nD) (r : ℕ) (k : Fin 8) :
    (Rd m).payload (barCell o) r k
      = iprop(∃ f, ((slotM o).view.loc ((peer o k.val : Dev nD) : Thread nD τ) ↦[(slotM o).view.set]{fullShare} f : sProp 𝕄)) := rfl

theorem t_duties_send (c : Dev nD) (i : Fin 7) : (Rd m).duties (sendCell c i) 0 = {0} := duties_send m c i
theorem t_amount_send (c : Dev nD) (i : Fin 7) (r : ℕ) (d : Fin 8) : (Rd m).amount (sendCell c i) r d = N := rfl
theorem t_expect_send (c : Dev nD) (i : Fin 7) : (Rd m).expect (sendCell c i) 0 = N := expect_send m c i
theorem t_payload_send (c : Dev nD) (i : Fin 7) (d : Fin 8) :
    (Rd m).payload (sendCell c i) 0 d
      = ((rowsM c i).view.loc (c : Thread nD τ) ↦[(rowsM c i).view.set]{fullShare} xbC m c : sProp 𝕄) := payload_send m c i d

theorem t_amount_recv (c o : Dev nD) (r : ℕ) (d : Fin 8) : (Rd m).amount (recvCell c o) r d = N := rfl
theorem t_payload_recv (c o : Dev nD) (d : Fin 8) :
    (Rd m).payload (recvCell c o) 0 d
      = ((slotM o).view.loc (c : Thread nD τ) ↦[(slotM o).view.set]{fullShare} landed m c o : sProp 𝕄) := payload_recv m c o d
/-- The receive cell a device keeps for its k-th partner, and the one that partner keeps for it, have the one duty. -/
theorem t_duties_recv_in (c : Dev nD) (k : Fin 8) (hk : k.val ≠ 0) : (Rd m).duties (recvCell c (peer c k.val)) 0 = {0} :=
  duties_recv m c _ (peer_ne_self c k hk)
theorem t_duties_recv_out (c : Dev nD) (k : Fin 8) (hk : k.val ≠ 0) : (Rd m).duties (recvCell (peer c k.val) c) 0 = {0} :=
  duties_recv m _ c (fun h => peer_ne_self c k hk h.symm)
theorem t_expect_recv_in (c : Dev nD) (k : Fin 8) (hk : k.val ≠ 0) : (Rd m).expect (recvCell c (peer c k.val)) 0 = N :=
  expect_recv m c _ (peer_ne_self c k hk)

theorem t_duties_recv_in_1 (c : Dev nD) : (Rd m).duties (recvCell c (peer c 1)) 0 = {0} :=
  duties_recv m c _ (peer_ne_self c (1 : Fin 8) (by decide))
theorem t_expect_recv_in_1 (c : Dev nD) : (Rd m).expect (recvCell c (peer c 1)) 0 = N :=
  expect_recv m c _ (peer_ne_self c (1 : Fin 8) (by decide))
theorem t_duties_recv_in_2 (c : Dev nD) : (Rd m).duties (recvCell c (peer c 2)) 0 = {0} :=
  duties_recv m c _ (peer_ne_self c (2 : Fin 8) (by decide))
theorem t_expect_recv_in_2 (c : Dev nD) : (Rd m).expect (recvCell c (peer c 2)) 0 = N :=
  expect_recv m c _ (peer_ne_self c (2 : Fin 8) (by decide))
theorem t_duties_recv_in_3 (c : Dev nD) : (Rd m).duties (recvCell c (peer c 3)) 0 = {0} :=
  duties_recv m c _ (peer_ne_self c (3 : Fin 8) (by decide))
theorem t_expect_recv_in_3 (c : Dev nD) : (Rd m).expect (recvCell c (peer c 3)) 0 = N :=
  expect_recv m c _ (peer_ne_self c (3 : Fin 8) (by decide))
theorem t_duties_recv_in_4 (c : Dev nD) : (Rd m).duties (recvCell c (peer c 4)) 0 = {0} :=
  duties_recv m c _ (peer_ne_self c (4 : Fin 8) (by decide))
theorem t_expect_recv_in_4 (c : Dev nD) : (Rd m).expect (recvCell c (peer c 4)) 0 = N :=
  expect_recv m c _ (peer_ne_self c (4 : Fin 8) (by decide))
theorem t_duties_recv_in_5 (c : Dev nD) : (Rd m).duties (recvCell c (peer c 5)) 0 = {0} :=
  duties_recv m c _ (peer_ne_self c (5 : Fin 8) (by decide))
theorem t_expect_recv_in_5 (c : Dev nD) : (Rd m).expect (recvCell c (peer c 5)) 0 = N :=
  expect_recv m c _ (peer_ne_self c (5 : Fin 8) (by decide))
theorem t_duties_recv_in_6 (c : Dev nD) : (Rd m).duties (recvCell c (peer c 6)) 0 = {0} :=
  duties_recv m c _ (peer_ne_self c (6 : Fin 8) (by decide))
theorem t_expect_recv_in_6 (c : Dev nD) : (Rd m).expect (recvCell c (peer c 6)) 0 = N :=
  expect_recv m c _ (peer_ne_self c (6 : Fin 8) (by decide))
theorem t_duties_recv_in_7 (c : Dev nD) : (Rd m).duties (recvCell c (peer c 7)) 0 = {0} :=
  duties_recv m c _ (peer_ne_self c (7 : Fin 8) (by decide))
theorem t_expect_recv_in_7 (c : Dev nD) : (Rd m).expect (recvCell c (peer c 7)) 0 = N :=
  expect_recv m c _ (peer_ne_self c (7 : Fin 8) (by decide))

/-! ## Steps applied by hand -/

/-- A chain of seven, restated in the connective the proof mode destructures. -/
theorem sep7 {M : Type _} [URA M] (A1 A2 A3 A4 A5 A6 A7 : sProp M) :
    BI.sep A1 (BI.sep A2 (BI.sep A3 (BI.sep A4 (BI.sep A5 (BI.sep A6 A7))))) ⊢ iprop(A1 ∗ A2 ∗ A3 ∗ A4 ∗ A5 ∗ A6 ∗ A7) := .rfl

theorem entails_of_eq' {M : Type _} [URA M] {P Q : sProp M} (e : P = Q) : P ⊢ Q := e ▸ .rfl

/-- Closing a send cell and a receive cell once their one round is consumed. -/
theorem close_send (c : Dev nD) (i : Fin 7) (κ : ℕ) :
    iprop(cellInv ER (Rd m) κ (sendCell c i) ∗ atPos ER (sendCell c i) 1 ∅ 0) ⊢ iprop(|={Set.univ}=> semVal (sendCell c i) 0) :=
  Rounds.cell_close ER (Rd m) (Set.mem_univ _) (fun h => h) (R := 1) (fun r hr => duties_later m _ r hr)
theorem close_recv (c o : Dev nD) (κ : ℕ) :
    iprop(cellInv ER (Rd m) κ (recvCell c o) ∗ atPos ER (recvCell c o) 1 ∅ 0) ⊢ iprop(|={Set.univ}=> semVal (recvCell c o) 0) :=
  Rounds.cell_close ER (Rd m) (Set.mem_univ _) (fun h => h) (R := 1) (fun r hr => duties_later m _ r hr)

/-- The receive semaphore the body reads off its order table is the one the schedule names by partner. -/
theorem semSlice8_congr {off off' : Fin S8.rank → ℕ} (h : off = off') (inb : ∀ a, off a + S1.size a ≤ S8.size a)
    (inb' : ∀ a, off' a + S1.size a ≤ S8.size a) :
    cc0_scratch5.slice (Rect.unit (s := S8) off S1.size inb) = cc0_scratch5.slice (Rect.unit (s := S8) off' S1.size inb') := by
  subst h; rfl
theorem recvSlice_1 (c : Dev nD) :
    cc0_scratch5.slice (Rect.unit (s := S8) (k0_off9 c 0#32 0#32 1#32) S1.size (k0_off9_inb c 0))
      = cc0_scratch5.slice (Rect.unit (s := S8) (k0_off2 (peer c 1)) S1.size (k0_off2_inb (peer c 1))) :=
  semSlice8_congr ((off9_1_eq c).trans (k0_off2_eq (peer c 1)).symm) _ _
theorem recvSlice_2 (c : Dev nD) :
    cc0_scratch5.slice (Rect.unit (s := S8) (k0_off9 c 0#32 1#32 0#32) S1.size (k0_off9_inb c 1))
      = cc0_scratch5.slice (Rect.unit (s := S8) (k0_off2 (peer c 2)) S1.size (k0_off2_inb (peer c 2))) :=
  semSlice8_congr ((off9_2_eq c).trans (k0_off2_eq (peer c 2)).symm) _ _
theorem recvSlice_3 (c : Dev nD) :
    cc0_scratch5.slice (Rect.unit (s := S8) (k0_off9 c 1#32 0#32 0#32) S1.size (k0_off9_inb c 2))
      = cc0_scratch5.slice (Rect.unit (s := S8) (k0_off2 (peer c 3)) S1.size (k0_off2_inb (peer c 3))) :=
  semSlice8_congr ((off9_3_eq c).trans (k0_off2_eq (peer c 3)).symm) _ _
theorem recvSlice_4 (c : Dev nD) :
    cc0_scratch5.slice (Rect.unit (s := S8) (k0_off9 c 0#32 1#32 1#32) S1.size (k0_off9_inb c 3))
      = cc0_scratch5.slice (Rect.unit (s := S8) (k0_off2 (peer c 4)) S1.size (k0_off2_inb (peer c 4))) :=
  semSlice8_congr ((off9_4_eq c).trans (k0_off2_eq (peer c 4)).symm) _ _
theorem recvSlice_5 (c : Dev nD) :
    cc0_scratch5.slice (Rect.unit (s := S8) (k0_off9 c 1#32 0#32 1#32) S1.size (k0_off9_inb c 4))
      = cc0_scratch5.slice (Rect.unit (s := S8) (k0_off2 (peer c 5)) S1.size (k0_off2_inb (peer c 5))) :=
  semSlice8_congr ((off9_5_eq c).trans (k0_off2_eq (peer c 5)).symm) _ _
theorem recvSlice_6 (c : Dev nD) :
    cc0_scratch5.slice (Rect.unit (s := S8) (k0_off9 c 1#32 1#32 0#32) S1.size (k0_off9_inb c 5))
      = cc0_scratch5.slice (Rect.unit (s := S8) (k0_off2 (peer c 6)) S1.size (k0_off2_inb (peer c 6))) :=
  semSlice8_congr ((off9_6_eq c).trans (k0_off2_eq (peer c 6)).symm) _ _
theorem recvSlice_7 (c : Dev nD) :
    cc0_scratch5.slice (Rect.unit (s := S8) (k0_off9 c 1#32 1#32 1#32) S1.size (k0_off9_inb c 6))
      = cc0_scratch5.slice (Rect.unit (s := S8) (k0_off2 (peer c 7)) S1.size (k0_off2_inb (peer c 7))) :=
  semSlice8_congr ((off9_7_eq c).trans (k0_off2_eq (peer c 7)).symm) _ _
attribute [sl_canon] recvSlice_1 recvSlice_2 recvSlice_3 recvSlice_4 recvSlice_5 recvSlice_6 recvSlice_7

/-- A slot held at this device is held at the device's name as a partner's partner. -/
theorem slot_respell (o c d : Dev nD) (h : d = c) (f : Buf (Elt F) ((slotM o).view.loc (c : Thread nD τ))) :
    ((slotM o).view.loc (c : Thread nD τ) ↦[(slotM o).view.set]{fullShare} f : sProp 𝕄)
      ⊢ iprop(∃ f', (slotM o).view.loc (d : Thread nD τ) ↦[(slotM o).view.set]{fullShare} f') := by
  subst h; iintro H; iexists f; iexact H

/-- What the i-th transfer lands in slot c of partner i+1, whatever the slot held, is the schedule's name for it. -/
theorem landed_peer (c : Dev nD) (i : Fin 7)
    (fd : Buf (Elt F) ((slotM c).view.loc ((peer c (i.val + 1) : Dev nD) : Thread nD τ))) :
    ((slotM c).view.loc ((peer c (i.val + 1) : Dev nD) : Thread nD τ) ↦[(slotM c).view.set]{fullShare}
        (slotM c).view.write (Elt F) fd ((rowsM c i).view.read (Elt F) (xbC m c)) Finset.univ : sProp 𝕄)
      = ((slotM c).view.loc ((peer c (i.val + 1) : Dev nD) : Thread nD τ) ↦[(slotM c).view.set]{fullShare} landed m (peer c (i.val + 1)) c) := by
  have hk : kOf c (peer c (i.val + 1)) = i.val + 1 := kOf_peer c ⟨i.val + 1, by have := i.isLt; omega⟩
  have hi : (⟨kOf c (peer c (i.val + 1)) - 1, by have := kOf_lt c (peer c (i.val + 1)); omega⟩ : Fin 7) = i := Fin.ext (by simp only [hk]; omega)
  unfold landed
  rw [hi]
  exact pointsTo_congr fun j hj => View.write_congr (fun _ _ _ => rfl) (fun hn => absurd hj hn)

/-- The half-precision copy after the cast store, whatever it held before, is the schedule's name for it. -/
theorem xb_eq (c : Dev nD) (fb : Buf (Elt F) (bM.view.loc (c : Thread nD τ))) :
    bM.view.writes (Elt F) fb
      [⟨Rect.unit (s := S4096x512) ![0, 0] S4096x512.size inb_S4096x512_S4096x512_0_0,
        k0_pay1 (View.readAt (Elt F) xM.view (Rect.unit (s := S4096x512) ![0, 0] S4096x512.size inb_S4096x512_S4096x512_0_0).toLoadRect (xstg m c))⟩]
      = xbC m c := by
  have h0 : (![0, 0] : Fin 2 → ℕ) = fun _ => 0 := by funext a; fin_cases a <;> rfl
  rw [View.writes_singleton]
  unfold xbC
  have h1 : View.readAt (Elt F) xM.view (Rect.unit (s := S4096x512) ![0, 0] S4096x512.size inb_S4096x512_S4096x512_0_0).toLoadRect (xstg m c) = xstg m c :=
    Memref.readAt_unit_zero (Elt F) cc0_stg0_0 h0 inb_S4096x512_S4096x512_0_0 (xstg m c)
  rw [h1]
  exact Memref.write_access_unit_zero_univ (Elt F) cc0_scratch0 h0 inb_S4096x512_S4096x512_0_0 fb _

/-- The copy after the cast store, held whole, at the schedule's name for its contents. -/
theorem xb_pts (c : Dev nD) (fb : Buf (Elt F) (bM.view.loc (c : Thread nD τ))) :
    (bM.view.loc (c : Thread nD τ) ↦{fullShare} bM.view.writes (Elt F) fb
      [⟨Rect.unit (s := S4096x512) ![0, 0] S4096x512.size inb_S4096x512_S4096x512_0_0,
        k0_pay1 (View.readAt (Elt F) xM.view (Rect.unit (s := S4096x512) ![0, 0] S4096x512.size inb_S4096x512_S4096x512_0_0).toLoadRect (xstg m c))⟩] : sProp 𝕄)
      ⊢ (bM.view.loc (c : Thread nD τ) ↦{fullShare} xbC m c) := by
  rw [xb_eq]
/-- The i-th transfer: the rows for partner i+1 into that partner's slot c. -/
theorem send_step (c : Dev nD) (i : Fin 7) (p : ℕ) (hp : p = i.val + 1) {α : Type} {Q : α → sProp 𝕄}
    {k : PUnit.{1} → Prog (TpuEff nD τ sig (Elt F) Λ₀ .tc) α} (κ₁ κ₂ : ℕ)
    (O₀ O : CellTallies nD τ sig Unit) (hO : O₀ = O + tallyAt (recvCell (peer c p) c) () N) (W : Waits sig Unit)
    (fd : Buf (Elt F) ((slotM c).view.loc ((peer c p : Dev nD) : Thread nD τ)))
    {hsc} {hsrc} {hdst} {hsem} :
    iprop(cellInv ER (Rd m) κ₁ (sendCell c i) ∗ cellInv ER (Rd m) κ₂ (recvCell (peer c p) c)
        ∗ ((rowsM c i).view.loc (c : Thread nD τ) ↦[(rowsM c i).view.set]{fullShare} xbC m c)
        ∗ ((slotM c).view.loc ((peer c p : Dev nD) : Thread nD τ) ↦[(slotM c).view.set]{fullShare} fd)
        ∗ owes (c : Thread nD τ) O₀ W
        ∗ dutyTok ER (sendCell c i) 0 (0 : Fin 8) ∗ reached ER (sendCell c i) 0
        ∗ dutyTok ER (recvCell (peer c p) c) 0 (0 : Fin 8) ∗ reached ER (recvCell (peer c p) c) 0)
      ⊢ iprop(((cred (tallyAt (sendCell c i) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowsM c i) (.remote ((peer c p : Dev nD) : Thread nD τ) (slotM c) (.dma (sendSem i)) hsc)
                (.dma (recvSem c)) hsrc hdst hsem) k) Q) := by
  subst hp
  have hk : (⟨i.val + 1, by have := i.isLt; omega⟩ : Fin 8).val ≠ 0 := by simp
  exact Rounds.wp_send_pointsTo 𝒱₀ ER (Rd m) (c : Thread nD τ) none
    (by rw [duties_send]; exact Finset.mem_singleton_self _)
    (by rw [duties_recv m _ c (fun h => peer_ne_self c ⟨i.val + 1, by have := i.isLt; omega⟩ hk h.symm)]; exact Finset.mem_singleton_self _)
    () () N rfl rfl rfl O hO
    (by rw [payload_send]; unfold sendPay; exact .rfl)
    (by rw [payload_recv]; unfold recvPay; rw [landed_peer])

/-- The barrier signals' targets are the literal devices. -/
theorem dev1_lit (h) : (⟨k0_dev1, h⟩ : Dev nD) = 0 := Fin.ext k0_dev1_eq
theorem dev2_lit (h) : (⟨k0_dev2, h⟩ : Dev nD) = 1 := Fin.ext k0_dev2_eq
theorem dev3_lit (h) : (⟨k0_dev3, h⟩ : Dev nD) = 2 := Fin.ext k0_dev3_eq
theorem dev4_lit (h) : (⟨k0_dev4, h⟩ : Dev nD) = 3 := Fin.ext k0_dev4_eq
theorem dev5_lit (h) : (⟨k0_dev5, h⟩ : Dev nD) = 4 := Fin.ext k0_dev5_eq
theorem dev6_lit (h) : (⟨k0_dev6, h⟩ : Dev nD) = 5 := Fin.ext k0_dev6_eq
theorem dev7_lit (h) : (⟨k0_dev7, h⟩ : Dev nD) = 6 := Fin.ext k0_dev7_eq
theorem dev8_lit (h) : (⟨k0_dev8, h⟩ : Dev nD) = 7 := Fin.ext k0_dev8_eq
attribute [sl_canon] dev1_lit dev2_lit dev3_lit dev4_lit dev5_lit dev6_lit dev7_lit dev8_lit

/-! ## The printed offset chains in closed form, for the run's geometry -/
instance closedOff_off4_1 (c : Dev nD) : ClosedOff (k0_off4 c 0#32 0#32 1#32) := ⟨_, off4_1_eq c⟩
instance closedOff_off4_2 (c : Dev nD) : ClosedOff (k0_off4 c 0#32 1#32 0#32) := ⟨_, off4_2_eq c⟩
instance closedOff_off4_3 (c : Dev nD) : ClosedOff (k0_off4 c 1#32 0#32 0#32) := ⟨_, off4_3_eq c⟩
instance closedOff_off4_4 (c : Dev nD) : ClosedOff (k0_off4 c 0#32 1#32 1#32) := ⟨_, off4_4_eq c⟩
instance closedOff_off4_5 (c : Dev nD) : ClosedOff (k0_off4 c 1#32 0#32 1#32) := ⟨_, off4_5_eq c⟩
instance closedOff_off4_6 (c : Dev nD) : ClosedOff (k0_off4 c 1#32 1#32 0#32) := ⟨_, off4_6_eq c⟩
instance closedOff_off4_7 (c : Dev nD) : ClosedOff (k0_off4 c 1#32 1#32 1#32) := ⟨_, off4_7_eq c⟩
instance closedOff_off7_1 (c : Dev nD) : ClosedOff (k0_off7 c 0#32 0#32 1#32) := ⟨_, off7_1_eq c⟩
instance closedOff_off7_2 (c : Dev nD) : ClosedOff (k0_off7 c 0#32 1#32 0#32) := ⟨_, off7_2_eq c⟩
instance closedOff_off7_3 (c : Dev nD) : ClosedOff (k0_off7 c 1#32 0#32 0#32) := ⟨_, off7_3_eq c⟩
instance closedOff_off7_4 (c : Dev nD) : ClosedOff (k0_off7 c 0#32 1#32 1#32) := ⟨_, off7_4_eq c⟩
instance closedOff_off7_5 (c : Dev nD) : ClosedOff (k0_off7 c 1#32 0#32 1#32) := ⟨_, off7_5_eq c⟩
instance closedOff_off7_6 (c : Dev nD) : ClosedOff (k0_off7 c 1#32 1#32 0#32) := ⟨_, off7_6_eq c⟩
instance closedOff_off7_7 (c : Dev nD) : ClosedOff (k0_off7 c 1#32 1#32 1#32) := ⟨_, off7_7_eq c⟩
instance closedOff_off8_1 (c : Dev nD) : ClosedOff (k0_off8 c 0#32 0#32 1#32) := ⟨_, off8_1_eq c⟩
instance closedOff_off8_2 (c : Dev nD) : ClosedOff (k0_off8 c 0#32 1#32 0#32) := ⟨_, off8_2_eq c⟩
instance closedOff_off8_3 (c : Dev nD) : ClosedOff (k0_off8 c 1#32 0#32 0#32) := ⟨_, off8_3_eq c⟩
instance closedOff_off8_4 (c : Dev nD) : ClosedOff (k0_off8 c 0#32 1#32 1#32) := ⟨_, off8_4_eq c⟩
instance closedOff_off8_5 (c : Dev nD) : ClosedOff (k0_off8 c 1#32 0#32 1#32) := ⟨_, off8_5_eq c⟩
instance closedOff_off8_6 (c : Dev nD) : ClosedOff (k0_off8 c 1#32 1#32 0#32) := ⟨_, off8_6_eq c⟩
instance closedOff_off8_7 (c : Dev nD) : ClosedOff (k0_off8 c 1#32 1#32 1#32) := ⟨_, off8_7_eq c⟩
instance closedOff_off9_1 (c : Dev nD) : ClosedOff (k0_off9 c 0#32 0#32 1#32) := ⟨_, off9_1_eq c⟩
instance closedOff_off9_2 (c : Dev nD) : ClosedOff (k0_off9 c 0#32 1#32 0#32) := ⟨_, off9_2_eq c⟩
instance closedOff_off9_3 (c : Dev nD) : ClosedOff (k0_off9 c 1#32 0#32 0#32) := ⟨_, off9_3_eq c⟩
instance closedOff_off9_4 (c : Dev nD) : ClosedOff (k0_off9 c 0#32 1#32 1#32) := ⟨_, off9_4_eq c⟩
instance closedOff_off9_5 (c : Dev nD) : ClosedOff (k0_off9 c 1#32 0#32 1#32) := ⟨_, off9_5_eq c⟩
instance closedOff_off9_6 (c : Dev nD) : ClosedOff (k0_off9 c 1#32 1#32 0#32) := ⟨_, off9_6_eq c⟩
instance closedOff_off9_7 (c : Dev nD) : ClosedOff (k0_off9 c 1#32 1#32 1#32) := ⟨_, off9_7_eq c⟩
instance closedOff_off10_1 (c : Dev nD) : ClosedOff (k0_off10 c 0#32 0#32 1#32) := ⟨_, off10_1_eq c⟩
instance closedOff_off10_2 (c : Dev nD) : ClosedOff (k0_off10 c 0#32 1#32 0#32) := ⟨_, off10_2_eq c⟩
instance closedOff_off10_3 (c : Dev nD) : ClosedOff (k0_off10 c 1#32 0#32 0#32) := ⟨_, off10_3_eq c⟩
instance closedOff_off10_4 (c : Dev nD) : ClosedOff (k0_off10 c 0#32 1#32 1#32) := ⟨_, off10_4_eq c⟩
instance closedOff_off10_5 (c : Dev nD) : ClosedOff (k0_off10 c 1#32 0#32 1#32) := ⟨_, off10_5_eq c⟩
instance closedOff_off10_6 (c : Dev nD) : ClosedOff (k0_off10 c 1#32 1#32 0#32) := ⟨_, off10_6_eq c⟩
instance closedOff_off10_7 (c : Dev nD) : ClosedOff (k0_off10 c 1#32 1#32 1#32) := ⟨_, off10_7_eq c⟩
instance closedOff_off11_1 (c : Dev nD) : ClosedOff (k0_off11 c 0#32 0#32 1#32) := ⟨_, off11_1_eq c⟩
instance closedOff_off11_2 (c : Dev nD) : ClosedOff (k0_off11 c 0#32 1#32 0#32) := ⟨_, off11_2_eq c⟩
instance closedOff_off11_3 (c : Dev nD) : ClosedOff (k0_off11 c 1#32 0#32 0#32) := ⟨_, off11_3_eq c⟩
instance closedOff_off11_4 (c : Dev nD) : ClosedOff (k0_off11 c 0#32 1#32 1#32) := ⟨_, off11_4_eq c⟩
instance closedOff_off11_5 (c : Dev nD) : ClosedOff (k0_off11 c 1#32 0#32 1#32) := ⟨_, off11_5_eq c⟩
instance closedOff_off11_6 (c : Dev nD) : ClosedOff (k0_off11 c 1#32 1#32 0#32) := ⟨_, off11_6_eq c⟩
instance closedOff_off11_7 (c : Dev nD) : ClosedOff (k0_off11 c 1#32 1#32 1#32) := ⟨_, off11_7_eq c⟩

attribute [sl_rounds] t_duties_bar t_amount_bar t_expect_bar t_payload_bar t_duties_send t_amount_send t_expect_send t_payload_send
  t_amount_recv t_payload_recv t_duties_recv_in_1 t_expect_recv_in_1 t_duties_recv_in_2 t_expect_recv_in_2 t_duties_recv_in_3 t_expect_recv_in_3 t_duties_recv_in_4 t_expect_recv_in_4 t_duties_recv_in_5 t_expect_recv_in_5 t_duties_recv_in_6 t_expect_recv_in_6 t_duties_recv_in_7 t_expect_recv_in_7

end Cert.KernelIdeal.BodyProof

end
-- ==== Proof.BodyMid.lean ====
/- One device's body in two stretches. The entry stretch — the first copy of a block of w issued, the half-precision
   copy of x stored, the handshake on the barrier semaphore, the first transfer — returns the device word and the eight
   words the rest of the body computes its partners from; the rest is the body from the second transfer on. Between the
   two the device holds what Mid says. The printed body is the one followed by the other, so a run of each, the second
   from what the first leaves, is a run of the body. -/
import proofs.«900487_g7700000000000488_dist_a2a_gemm_m4096_k4096_n8192_f32_gelu_v7x_i8_1_alg».proof.Proof.SchedTables
import proofs.«900487_g7700000000000488_dist_a2a_gemm_m4096_k4096_n8192_f32_gelu_v7x_i8_1_alg».proof.Proof.CutsBody

noncomputable section

namespace Cert.KernelIdeal.BodyProof

open Cert.KernelIdeal Cert.KernelIdeal.Gen Cert.KernelIdeal.Devs Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The two stretches of the program -/

/-- The device word and the eight words the body's later parts read. -/
abbrev Words : Type := Σ' (d0 : Dev nD) (v2 : BitVec 32) (v43 : BitVec 32) (v51 : BitVec 32) (v59 : BitVec 32) (v67 : BitVec 32) (v75 : BitVec 32) (v83 : BitVec 32), BitVec 32

/-- The entry stretch: parts 1 to 4 of the printed body, returning the words. -/
noncomputable def headProg : Prog (TpuEff nD τ sig (Elt F) Λ₀ .tc) Words := do
  let ⟨d0, v2, v29, v33, v35, v36, v37, c0_i32_15⟩ : Σ' (d0 : Dev nD) (v2 : BitVec 32) (v29 : BitVec 32) (v33 : BitVec 32) (v35 : BitVec 32) (v36 : BitVec 32) (v37 : BitVec 32), BitVec 32 ← k0_part1 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6
  let ⟨v43, v51, v59, v67, v75⟩ : Σ' (v43 : BitVec 32) (v51 : BitVec 32) (v59 : BitVec 32) (v67 : BitVec 32), BitVec 32 ← k0_part2 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 v29 v33 v35 v36 v37 c0_i32_15
  let ⟨v83, v91, v104, v109⟩ : Σ' (v83 : BitVec 32) (v91 : BitVec 32) (v104 : Sems sig S_), BitVec 32 ← k0_part3 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v2 v29 v33 v35
  k0_part4 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v2 v43 v104 v109
  pure ⟨d0, v2, v43, v51, v59, v67, v75, v83, v91⟩

/-- The body from the second transfer on: parts 5 to 23 of the printed body. -/
noncomputable def tailProg (d0 : Dev nD) (v2 v43 v51 v59 v67 v75 v83 v91 : BitVec 32) :
    Prog (TpuEff nD τ sig (Elt F) Λ₀ .tc) PUnit := do
  k0_part5 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v2 v51 v59
  let v195 : Vec F S512x512 .f32 ← k0_part6 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v2 v43
  k0_part7 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v67 v75 v83 v195
  let v257 : Vec F S512x512 .f32 ← k0_part8 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v43
  k0_part9 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v43 v51 v257
  k0_part10 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v51 v91
  let v342 : Vec F S512x512 .f32 ← k0_part11 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v51 v59
  k0_part12 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v59 v342
  let v397 : Vec F S512x512 .f32 ← k0_part13 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v59 v67
  let v426 : Vec F S1x512x512 .bf16 ← k0_part14 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v67 v397
  let ⟨v452, v453⟩ : Σ' (v452 : Vec F S512x512 .f32), Vec F S1x512x4096 .f32 ← k0_part15 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v67 v75 v426
  let v483 : FVec F S512x512 .f32 ← k0_part16 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v75 v452 v453
  let ⟨v507, v509, cst_428⟩ : Σ' (v507 : Vec F S512x512 .f32) (v509 : FVec F S512x4096 .f32), FVec F S512x4096 .f32 ← k0_part17 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v75 v83 v483
  let v538 : FVec F S512x512 .f32 ← k0_part18 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v83 v507 v509 cst_428
  let v565 : FVec F S512x4096 .f32 ← k0_part19 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v83 v91 v538
  let v593 : FVec F S512x512 .f32 ← k0_part20 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v91 v565
  k0_part21 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v91 v593
  k0_part22 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0
  k0_part23 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0
  pure ⟨⟩

/-- The rest of the body at the words the entry stretch returned. -/
abbrev tailAt (ws : Words) : Prog (TpuEff nD τ sig (Elt F) Λ₀ .tc) PUnit :=
  tailProg (F := F) ws.1 ws.2.1 ws.2.2.1 ws.2.2.2.1 ws.2.2.2.2.1 ws.2.2.2.2.2.1 ws.2.2.2.2.2.2.1 ws.2.2.2.2.2.2.2.1 ws.2.2.2.2.2.2.2.2

/-- The entry stretch with its intermediate results named by their components. -/
theorem headProg_eq : headProg (F := F)
    = (k0_part1 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 >>= fun (r1 : Σ' (d0 : Dev nD) (v2 : BitVec 32) (v29 : BitVec 32) (v33 : BitVec 32) (v35 : BitVec 32) (v36 : BitVec 32) (v37 : BitVec 32), BitVec 32) =>
        k0_part2 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 r1.2.2.1 r1.2.2.2.1 r1.2.2.2.2.1 r1.2.2.2.2.2.1 r1.2.2.2.2.2.2.1 r1.2.2.2.2.2.2.2 >>= fun (r2 : Σ' (v43 : BitVec 32) (v51 : BitVec 32) (v59 : BitVec 32) (v67 : BitVec 32), BitVec 32) =>
        k0_part3 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 r1.1 r1.2.1 r1.2.2.1 r1.2.2.2.1 r1.2.2.2.2.1 >>= fun (r3 : Σ' (v83 : BitVec 32) (v91 : BitVec 32) (v104 : Sems sig S_), BitVec 32) =>
        k0_part4 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 r1.1 r1.2.1 r2.1 r3.2.2.1 r3.2.2.2 >>= fun _ =>
        pure (⟨r1.1, r1.2.1, r2.1, r2.2.1, r2.2.2.1, r2.2.2.2.1, r2.2.2.2.2, r3.1, r3.2.1⟩ : Words)) := rfl

set_option maxRecDepth 65536 in
/-- The printed body is the entry stretch followed by the rest. -/
theorem body_split :
    cc0_body (F := F) xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 = headProg (F := F) >>= fun ws => tailAt (F := F) ws := by
  rw [cc0_body_eq_skeleton, headProg_eq]
  simp only [bind_assoc, pure_bind]
  rfl

section Glue
variable (m : (ℓ : Loc nD τ sig) → Buf (Elt F) ℓ)

/-- What the device holds between the entry stretch (the handshake and the first transfer) and the rest of the body. -/
def Mid (c : Dev nD) (W : Waits sig Unit) (κs κro κri : ℕ → ℕ)
    (fo : Buf (Elt F) (oM.view.loc (c : Thread nD τ)))
    (fr : Buf (Elt F) (rM.view.loc (c : Thread nD τ)))
    (fa : Buf (Elt F) (aM.view.loc (c : Thread nD τ)))
    (fk : Buf (Elt F) (wM.view.loc (c : Thread nD τ))) : sProp 𝕄 :=
  iprop((xM.view.loc (c : Thread nD τ) ↦{fullShare} xstg m c)
      ∗ (oM.view.loc (c : Thread nD τ) ↦{fullShare} fo)
      ∗ (aM.view.loc (c : Thread nD τ) ↦{fullShare} fa)
      ∗ semVal ((c : Thread nD τ), SemLoc.dma (wSem 1)) 0
      ∗ semVal ((c : Thread nD τ), SemLoc.dma (recvSem c)) 0
      ∗ ((Cuts.wslot 1).view.loc (c : Thread nD τ) ↦[(Cuts.wslot 1).view.set]{fullShare} fk)
      ∗ Transfers.Flight countersEmb (c : Thread nD τ) (SemLoc.dma (wSem 0)) () 262144
          iprop(((Cuts.wslot 0).view.loc (c : Thread nD τ) ↦[(Cuts.wslot 0).view.set]{fullShare}
              (Cuts.wslot 0).view.writes (Elt F) fk [⟨Rect.whole S512x4096, ReadAs.same.apply (View.read (Elt F) (hM.slice (Rect.unit (s := S4096x8192) (k0_off1 c) S512x4096.size (k0_off1_inb c)) (fun _ => rfl)).view (warr m c))⟩])
            ∗ (hM.view.loc (c : Thread nD τ) ↦[(hM.slice (Rect.unit (s := S4096x8192) (k0_off1 c) S512x4096.size (k0_off1_inb c)) (fun _ => rfl)).view.set]{fullShare} warr m c))
      ∗ (hM.view.loc (c : Thread nD τ) ↦[Finset.univ \ (hM.slice (Rect.unit (s := S4096x8192) (k0_off1 c) S512x4096.size (k0_off1_inb c)) (fun _ => rfl)).view.set]{fullShare} warr m c)
      ∗ ((slotM (peer c 0)).view.loc (c : Thread nD τ) ↦[(slotM (peer c 0)).view.set]{fullShare} fr)
      ∗ (∃ g, (slotM c).view.loc ((peer c 2 : Dev nD) : Thread nD τ) ↦[(slotM c).view.set]{fullShare} g)
      ∗ (∃ g, (slotM c).view.loc ((peer c 3 : Dev nD) : Thread nD τ) ↦[(slotM c).view.set]{fullShare} g)
      ∗ (∃ g, (slotM c).view.loc ((peer c 4 : Dev nD) : Thread nD τ) ↦[(slotM c).view.set]{fullShare} g)
      ∗ (∃ g, (slotM c).view.loc ((peer c 5 : Dev nD) : Thread nD τ) ↦[(slotM c).view.set]{fullShare} g)
      ∗ (∃ g, (slotM c).view.loc ((peer c 6 : Dev nD) : Thread nD τ) ↦[(slotM c).view.set]{fullShare} g)
      ∗ (∃ g, (slotM c).view.loc ((peer c 7 : Dev nD) : Thread nD τ) ↦[(slotM c).view.set]{fullShare} g)
      ∗ ((Cuts.ownM c).view.loc (c : Thread nD τ) ↦[(Cuts.ownM c).view.set]{fullShare} xbC m c)
      ∗ ((rowsM c 1).view.loc (c : Thread nD τ) ↦[(rowsM c 1).view.set]{fullShare} xbC m c)
      ∗ ((rowsM c 2).view.loc (c : Thread nD τ) ↦[(rowsM c 2).view.set]{fullShare} xbC m c)
      ∗ ((rowsM c 3).view.loc (c : Thread nD τ) ↦[(rowsM c 3).view.set]{fullShare} xbC m c)
      ∗ ((rowsM c 4).view.loc (c : Thread nD τ) ↦[(rowsM c 4).view.set]{fullShare} xbC m c)
      ∗ ((rowsM c 5).view.loc (c : Thread nD τ) ↦[(rowsM c 5).view.set]{fullShare} xbC m c)
      ∗ ((rowsM c 6).view.loc (c : Thread nD τ) ↦[(rowsM c 6).view.set]{fullShare} xbC m c)
      ∗ cred (tallyAt (sendCell c 0) () N)
      ∗ owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N) W
      ∗ levAts L lv
      ∗ cellInv ER (Rd m) (κs 0) (sendCell c 0)
      ∗ atPos ER (sendCell c 0) 0 ∅ 0
      ∗ reached ER (sendCell c 0) 0
      ∗ cellInv ER (Rd m) (κri 1) (recvCell c (peer c 1))
      ∗ atPos ER (recvCell c (peer c 1)) 0 ∅ 0
      ∗ cred (tallyAt (recvCell c (peer c 1)) () N)
      ∗ cellInv ER (Rd m) (κs 1) (sendCell c 1)
      ∗ atPos ER (sendCell c 1) 0 ∅ 0
      ∗ reached ER (sendCell c 1) 0
      ∗ dutyTok ER (sendCell c 1) 0 (0 : Fin 8)
      ∗ cellInv ER (Rd m) (κro 2) (recvCell (peer c 2) c)
      ∗ dutyTok ER (recvCell (peer c 2) c) 0 (0 : Fin 8)
      ∗ reached ER (recvCell (peer c 2) c) 0
      ∗ cellInv ER (Rd m) (κri 2) (recvCell c (peer c 2))
      ∗ atPos ER (recvCell c (peer c 2)) 0 ∅ 0
      ∗ cred (tallyAt (recvCell c (peer c 2)) () N)
      ∗ cellInv ER (Rd m) (κs 2) (sendCell c 2)
      ∗ atPos ER (sendCell c 2) 0 ∅ 0
      ∗ reached ER (sendCell c 2) 0
      ∗ dutyTok ER (sendCell c 2) 0 (0 : Fin 8)
      ∗ cellInv ER (Rd m) (κro 3) (recvCell (peer c 3) c)
      ∗ dutyTok ER (recvCell (peer c 3) c) 0 (0 : Fin 8)
      ∗ reached ER (recvCell (peer c 3) c) 0
      ∗ cellInv ER (Rd m) (κri 3) (recvCell c (peer c 3))
      ∗ atPos ER (recvCell c (peer c 3)) 0 ∅ 0
      ∗ cred (tallyAt (recvCell c (peer c 3)) () N)
      ∗ cellInv ER (Rd m) (κs 3) (sendCell c 3)
      ∗ atPos ER (sendCell c 3) 0 ∅ 0
      ∗ reached ER (sendCell c 3) 0
      ∗ dutyTok ER (sendCell c 3) 0 (0 : Fin 8)
      ∗ cellInv ER (Rd m) (κro 4) (recvCell (peer c 4) c)
      ∗ dutyTok ER (recvCell (peer c 4) c) 0 (0 : Fin 8)
      ∗ reached ER (recvCell (peer c 4) c) 0
      ∗ cellInv ER (Rd m) (κri 4) (recvCell c (peer c 4))
      ∗ atPos ER (recvCell c (peer c 4)) 0 ∅ 0
      ∗ cred (tallyAt (recvCell c (peer c 4)) () N)
      ∗ cellInv ER (Rd m) (κs 4) (sendCell c 4)
      ∗ atPos ER (sendCell c 4) 0 ∅ 0
      ∗ reached ER (sendCell c 4) 0
      ∗ dutyTok ER (sendCell c 4) 0 (0 : Fin 8)
      ∗ cellInv ER (Rd m) (κro 5) (recvCell (peer c 5) c)
      ∗ dutyTok ER (recvCell (peer c 5) c) 0 (0 : Fin 8)
      ∗ reached ER (recvCell (peer c 5) c) 0
      ∗ cellInv ER (Rd m) (κri 5) (recvCell c (peer c 5))
      ∗ atPos ER (recvCell c (peer c 5)) 0 ∅ 0
      ∗ cred (tallyAt (recvCell c (peer c 5)) () N)
      ∗ cellInv ER (Rd m) (κs 5) (sendCell c 5)
      ∗ atPos ER (sendCell c 5) 0 ∅ 0
      ∗ reached ER (sendCell c 5) 0
      ∗ dutyTok ER (sendCell c 5) 0 (0 : Fin 8)
      ∗ cellInv ER (Rd m) (κro 6) (recvCell (peer c 6) c)
      ∗ dutyTok ER (recvCell (peer c 6) c) 0 (0 : Fin 8)
      ∗ reached ER (recvCell (peer c 6) c) 0
      ∗ cellInv ER (Rd m) (κri 6) (recvCell c (peer c 6))
      ∗ atPos ER (recvCell c (peer c 6)) 0 ∅ 0
      ∗ cred (tallyAt (recvCell c (peer c 6)) () N)
      ∗ cellInv ER (Rd m) (κs 6) (sendCell c 6)
      ∗ atPos ER (sendCell c 6) 0 ∅ 0
      ∗ reached ER (sendCell c 6) 0
      ∗ dutyTok ER (sendCell c 6) 0 (0 : Fin 8)
      ∗ cellInv ER (Rd m) (κro 7) (recvCell (peer c 7) c)
      ∗ dutyTok ER (recvCell (peer c 7) c) 0 (0 : Fin 8)
      ∗ reached ER (recvCell (peer c 7) c) 0
      ∗ cellInv ER (Rd m) (κri 7) (recvCell c (peer c 7))
      ∗ atPos ER (recvCell c (peer c 7)) 0 ∅ 0
      ∗ cred (tallyAt (recvCell c (peer c 7)) () N))

set_option maxRecDepth 8000 in
set_option maxHeartbeats 1600000 in
/-- The run of the body from the flat list of its resources to the result's staging buffer at contents X, GIVEN a run of
    the entry stretch to Mid (its barrier wait recorded) and a run of the rest from Mid to those contents. -/
theorem run_body_of (X : (c : Dev nD) → Buf (Elt F) (oM.view.loc (c : Thread nD τ)))
    (hprefix : ∀ (c : Dev nD) (W : Waits sig Unit)
      (κ0 : ℕ) (κb κs κro κri : ℕ → ℕ)
      (fo : Buf (Elt F) (oM.view.loc (c : Thread nD τ)))
      (fb : Buf (Elt F) (bM.view.loc (c : Thread nD τ)))
      (fr : Buf (Elt F) (rM.view.loc (c : Thread nD τ)))
      (fa : Buf (Elt F) (aM.view.loc (c : Thread nD τ)))
      (fk : Buf (Elt F) (wM.view.loc (c : Thread nD τ))),
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ (headProg (F := F))
          (fun ws => iprop(⌜ws.1 = c⌝ ∗ Mid m c (insert (SemLoc.reg barS, ()) W) κs κro κri fo fr fa fk)))
    (htail : ∀ (c : Dev nD) (v2 v43 v51 v59 v67 v75 v83 v91 : BitVec 32) (W : Waits sig Unit) (κs κro κri : ℕ → ℕ)
      (fo : Buf (Elt F) (oM.view.loc (c : Thread nD τ)))
      (fr : Buf (Elt F) (rM.view.loc (c : Thread nD τ)))
      (fa : Buf (Elt F) (aM.view.loc (c : Thread nD τ)))
      (fk : Buf (Elt F) (wM.view.loc (c : Thread nD τ))),
      Mid m c W κs κro κri fo fr fa fk
        ⊢ wp frame (wpE (defs₀ (F := F)) 𝒱₀ (c : Thread nD τ) none) Set.univ (tailProg (F := F) c v2 v43 v51 v59 v67 v75 v83 v91)
            (fun _ => iprop((xM.view.loc (c : Thread nD τ) ↦{fullShare} xstg m c)
              ∗ (oM.view.loc (c : Thread nD τ) ↦{fullShare} X c)
              ∗ (∃ f, bM.view.loc (c : Thread nD τ) ↦{fullShare} f)
              ∗ (∃ f, rM.view.loc (c : Thread nD τ) ↦{fullShare} f)
              ∗ (∃ f, aM.view.loc (c : Thread nD τ) ↦{fullShare} f)
              ∗ (∃ f, wM.view.loc (c : Thread nD τ) ↦{fullShare} f)
              ∗ (hM.view.loc (c : Thread nD τ) ↦{fullShare} warr m c)
              ∗ semVal (sendCell c 0) 0
              ∗ semVal (sendCell c 1) 0
              ∗ semVal (sendCell c 2) 0
              ∗ semVal (sendCell c 3) 0
              ∗ semVal (sendCell c 4) 0
              ∗ semVal (sendCell c 5) 0
              ∗ semVal (sendCell c 6) 0
              ∗ semVal (recvCell c (peer c 1)) 0
              ∗ semVal (recvCell c (peer c 2)) 0
              ∗ semVal (recvCell c (peer c 3)) 0
              ∗ semVal (recvCell c (peer c 4)) 0
              ∗ semVal (recvCell c (peer c 5)) 0
              ∗ semVal (recvCell c (peer c 6)) 0
              ∗ semVal (recvCell c (peer c 7)) 0
              ∗ semVal ((c : Thread nD τ), SemLoc.dma (recvSem c)) 0
              ∗ semVal ((c : Thread nD τ), SemLoc.dma (wSem 0)) 0
              ∗ semVal ((c : Thread nD τ), SemLoc.dma (wSem 1)) 0
              ∗ (∃ W', owes (c : Thread nD τ) 0 W')))) :
    ∀ (c : Dev nD) (W : Waits sig Unit)
      (κ0 : ℕ) (κb κs κro κri : ℕ → ℕ)
      (fo : Buf (Elt F) (oM.view.loc (c : Thread nD τ)))
      (fb : Buf (Elt F) (bM.view.loc (c : Thread nD τ)))
      (fr : Buf (Elt F) (rM.view.loc (c : Thread nD τ)))
      (fa : Buf (Elt F) (aM.view.loc (c : Thread nD τ)))
      (fk : Buf (Elt F) (wM.view.loc (c : Thread nD τ))),
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ
          (cc0_body (F := F) xM (Memref.isWhole_whole _) hM (Memref.isWhole_whole _) oM (Memref.isWhole_whole _)
            bM (Memref.isWhole_whole _) rM (Memref.isWhole_whole _) aM (Memref.isWhole_whole _) wM (Memref.isWhole_whole _)
            cc0_scratch4 cc0_scratch5 cc0_scratch6)
          (fun _ => iprop((xM.view.loc (c : Thread nD τ) ↦{fullShare} xstg m c)
              ∗ (oM.view.loc (c : Thread nD τ) ↦{fullShare} X c)
              ∗ (∃ f, bM.view.loc (c : Thread nD τ) ↦{fullShare} f)
              ∗ (∃ f, rM.view.loc (c : Thread nD τ) ↦{fullShare} f)
              ∗ (∃ f, aM.view.loc (c : Thread nD τ) ↦{fullShare} f)
              ∗ (∃ f, wM.view.loc (c : Thread nD τ) ↦{fullShare} f)
              ∗ (hM.view.loc (c : Thread nD τ) ↦{fullShare} warr m c)
              ∗ semVal (sendCell c 0) 0
              ∗ semVal (sendCell c 1) 0
              ∗ semVal (sendCell c 2) 0
              ∗ semVal (sendCell c 3) 0
              ∗ semVal (sendCell c 4) 0
              ∗ semVal (sendCell c 5) 0
              ∗ semVal (sendCell c 6) 0
              ∗ semVal (recvCell c (peer c 1)) 0
              ∗ semVal (recvCell c (peer c 2)) 0
              ∗ semVal (recvCell c (peer c 3)) 0
              ∗ semVal (recvCell c (peer c 4)) 0
              ∗ semVal (recvCell c (peer c 5)) 0
              ∗ semVal (recvCell c (peer c 6)) 0
              ∗ semVal (recvCell c (peer c 7)) 0
              ∗ semVal ((c : Thread nD τ), SemLoc.dma (recvSem c)) 0
              ∗ semVal ((c : Thread nD τ), SemLoc.dma (wSem 0)) 0
              ∗ semVal ((c : Thread nD τ), SemLoc.dma (wSem 1)) 0
              ∗ (∃ W', owes (c : Thread nD τ) 0 W'))) := by
  intro c W κ0 κb κs κro κri fo fb fr fa fk
  rw [body_split, wp_bind]
  refine (hprefix c W κ0 κb κs κro κri fo fb fr fa fk).trans (wp_mono _ _ _ fun ws => ?_)
  obtain ⟨d0, v2, v43, v51, v59, v67, v75, v83, v91⟩ := ws
  iintro ⟨%hws, HM⟩
  have hd : d0 = c := hws
  subst hd
  iapply (htail d0 v2 v43 v51 v59 v67 v75 v83 v91 (insert (SemLoc.reg barS, ()) W) κs κro κri fo fr fa fk)
  iexact HM

/-- info: 'Cert.KernelIdeal.BodyProof.run_body_of' depends on axioms: [propext, Classical.choice, Quot.sound] -/
#guard_msgs in #print axioms run_body_of

end Glue

end Cert.KernelIdeal.BodyProof

end
-- ==== Proof.BodyTailRun.lean ====
/- The body from the second transfer on, run once at a symbolic device: six more transfers of 512 rows, the sixteen
   double-buffered copies of w's blocks and their waits, the seven waits for a partner's rows and the load of the slot
   each hands over, the sixteen partial products accumulated into the two halves of the result with the activation at
   the last, and the seven waits for the transfers' sources. The list of stores the run leaves in the result's staging
   buffer is the WITNESS of a subtype: the run finds it, and the kernel's result on a device is read off it. -/
import proofs.«900487_g7700000000000488_dist_a2a_gemm_m4096_k4096_n8192_f32_gelu_v7x_i8_1_alg».proof.Proof.Sched
import proofs.«900487_g7700000000000488_dist_a2a_gemm_m4096_k4096_n8192_f32_gelu_v7x_i8_1_alg».proof.Proof.Levels
import proofs.«900487_g7700000000000488_dist_a2a_gemm_m4096_k4096_n8192_f32_gelu_v7x_i8_1_alg».proof.Proof.SchedTables
import proofs.«900487_g7700000000000488_dist_a2a_gemm_m4096_k4096_n8192_f32_gelu_v7x_i8_1_alg».proof.Proof.Cuts
import proofs.«900487_g7700000000000488_dist_a2a_gemm_m4096_k4096_n8192_f32_gelu_v7x_i8_1_alg».proof.Proof.CutsBody
import proofs.«900487_g7700000000000488_dist_a2a_gemm_m4096_k4096_n8192_f32_gelu_v7x_i8_1_alg».proof.Proof.BodyLemmas
import proofs.«900487_g7700000000000488_dist_a2a_gemm_m4096_k4096_n8192_f32_gelu_v7x_i8_1_alg».proof.Proof.BodyMid
import Idealize.ShloMosaic.Lib.Pipeline.Launch
import Idealize.ShloMosaic.Lib.Pipeline.Kit
import Idealize.ShloMosaic.Lib.Ring
import Idealize.ShloMosaic.Lib.Tactic

noncomputable section

namespace Cert.KernelIdeal.BodyProof

open Cert.KernelIdeal Cert.KernelIdeal.Gen Cert.KernelIdeal.Devs Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-- The rest of a send cell's round is the row block back, at what the copy holds. -/
theorem pay_send (c : Dev nD) (i : Fin 7) :
    bigSep ((Rd m).duties (sendCell c i) 0) (fun d => (Rd m).payload (sendCell c i) 0 d)
      ⊢ ((rowsM c i).view.loc (c : Thread nD τ) ↦[(rowsM c i).view.set]{fullShare} xbC m c : sProp 𝕄) := by
  rw [duties_send, bigSep_singleton, payload_send]; unfold sendPay; exact .rfl

/-- The result's staging buffer after the body's stores: they cover it, so what it held before is nowhere read. -/
theorem out_rebase (c : Dev nD) (fo : Buf (Elt F) (oM.view.loc (c : Thread nD τ)))
    (L : List (View.Piece (Elt F) S512x8192 .f32)) (t : LoadRect.Cov)
    (hcov : LoadRect.covChk (L.map Sigma.fst) (LoadRect.whole S512x8192) t = true) :
    (oM.view.loc (c : Thread nD τ) ↦{fullShare} oM.view.writes (Elt F) fo L : sProp 𝕄)
      ⊢ (oM.view.loc (c : Thread nD τ) ↦{fullShare} oM.view.writes (Elt F) oM.view.junk L) := by
  have h := Memref.writes_eq_junk_of_covChk (m := oM) (Memref.isWhole_whole _) fo L t hcov
  rw [h]

/-- A token set aside, out of the symbolic run's sight, until the step that spends it by name. -/
def Kept (P : sProp 𝕄) : sProp 𝕄 := P
theorem keep {P : sProp 𝕄} : P ⊢ Kept P := .rfl
theorem unkeep {P : sProp 𝕄} : Kept P ⊢ P := .rfl

/-- The wait for the i-th transfer's source: the one round of its send cell consumed, the rows back at what the copy
    holds, the cell's semaphore recorded among the waits. -/
theorem send_wait_step (c : Dev nD) (i : Fin 7) (w1 w2 w3 : BitVec 32) (hw : k0_off4_at i = (w1, w2, w3))
    (hinb : ∀ a, (k0_off4 c w1 w2 w3) a + S512x512.size a ≤ S4096x512.size a)
    {α : Type} {Q : α → sProp 𝕄} {k : PUnit.{1} → Prog (TpuEff nD τ sig (Elt F) Λ₀ .tc) α}
    (κ : ℕ) (W : Waits sig Unit) {hd} {hs} :
    iprop(cellInv ER (Rd m) κ (sendCell c i) ∗ cred (tallyAt (sendCell c i) () N) ∗ owes (c : Thread nD τ) 0 W
        ∗ atPos ER (sendCell c i) 0 ∅ 0)
      ⊢ iprop(((owes (c : Thread nD τ) 0 (insert (SemLoc.dma (sendSem i), ()) W)
              ∗ atPos ER (sendCell c i) 1 ∅ 0 ∗ reached ER (sendCell c i) 1
              ∗ ((rowsM c i).view.loc (c : Thread nD τ) ↦[(rowsM c i).view.set]{fullShare} xbC m c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendSem i) (slotM c)
                (bM.slice (Rect.unit (s := S4096x512) (k0_off4 c w1 w2 w3) S512x512.size hinb) (fun _ => rfl)) hd hs) k) Q) := by
  iintro ⟨#HI, Hc, HO, Hat⟩ Hk
  iapply (Rounds.wp_wait_rest_token 𝒱₀ ER (Rd m) (c : Thread nD τ) none (sm := SemLoc.dma (sendSem i)) (k' := N)
    (fun K => rfl) (Set.mem_univ κ) () (R := 0) (m := 0) (T := ∅) (by rw [expect_send]; exact Nat.zero_add _)) $$ [Hc HO Hat]
  · isplitr; · iexact HI
    isplitl [Hc]; · iexact Hc
    isplitl [HO]; · iexact HO
    isplitr; · rw [MayWait_zero]; iempintro
    iexact Hat
  iintro ⟨HO, Hat, #Hr, Hp⟩
  iapply Hk
  isplitl [HO]; · iexact HO
  isplitl [Hat]; · iexact Hat
  isplitr; · iexact Hr
  have hq : bigSep ((Rd m).duties (sendCell c i) 0 \ ∅) (fun d => (Rd m).payload (sendCell c i) 0 d)
      ⊢ ((rowsM c i).view.loc (c : Thread nD τ) ↦[(rowsM c i).view.set]{fullShare} xbC m c : sProp 𝕄) :=
    (entails_of_eq' (rest_send m c i)).trans (by unfold sendPay; exact .rfl)
  iapply hq; iexact Hp

/-- What the device holds at the body's return: its buffers by the pieces the transfers handed back, the result's
    staging buffer at the listed stores L over contents nothing reads, the counters of the local copies at zero, nothing
    owed, and each send and receive cell past its one round. -/
def End (c : Dev nD) (L : List (View.Piece (Elt F) S512x8192 .f32)) (κs κri : ℕ → ℕ)
    (fr : Buf (Elt F) (rM.view.loc (c : Thread nD τ))) : sProp 𝕄 :=
  iprop((xM.view.loc (c : Thread nD τ) ↦{fullShare} xstg m c)
      ∗ (oM.view.loc (c : Thread nD τ) ↦{fullShare} oM.view.writes (Elt F) oM.view.junk L)
      ∗ ((Cuts.ownM c).view.loc (c : Thread nD τ) ↦[(Cuts.ownM c).view.set]{fullShare} xbC m c)
      ∗ ((rowsM c 0).view.loc (c : Thread nD τ) ↦[(rowsM c 0).view.set]{fullShare} xbC m c)
      ∗ ((rowsM c 1).view.loc (c : Thread nD τ) ↦[(rowsM c 1).view.set]{fullShare} xbC m c)
      ∗ ((rowsM c 2).view.loc (c : Thread nD τ) ↦[(rowsM c 2).view.set]{fullShare} xbC m c)
      ∗ ((rowsM c 3).view.loc (c : Thread nD τ) ↦[(rowsM c 3).view.set]{fullShare} xbC m c)
      ∗ ((rowsM c 4).view.loc (c : Thread nD τ) ↦[(rowsM c 4).view.set]{fullShare} xbC m c)
      ∗ ((rowsM c 5).view.loc (c : Thread nD τ) ↦[(rowsM c 5).view.set]{fullShare} xbC m c)
      ∗ ((rowsM c 6).view.loc (c : Thread nD τ) ↦[(rowsM c 6).view.set]{fullShare} xbC m c)
      ∗ ((slotM (peer c 0)).view.loc (c : Thread nD τ) ↦[(slotM (peer c 0)).view.set]{fullShare} fr)
      ∗ ((slotM (peer c 1)).view.loc (c : Thread nD τ) ↦[(slotM (peer c 1)).view.set]{fullShare} landed m c (peer c 1))
      ∗ ((slotM (peer c 2)).view.loc (c : Thread nD τ) ↦[(slotM (peer c 2)).view.set]{fullShare} landed m c (peer c 2))
      ∗ ((slotM (peer c 3)).view.loc (c : Thread nD τ) ↦[(slotM (peer c 3)).view.set]{fullShare} landed m c (peer c 3))
      ∗ ((slotM (peer c 4)).view.loc (c : Thread nD τ) ↦[(slotM (peer c 4)).view.set]{fullShare} landed m c (peer c 4))
      ∗ ((slotM (peer c 5)).view.loc (c : Thread nD τ) ↦[(slotM (peer c 5)).view.set]{fullShare} landed m c (peer c 5))
      ∗ ((slotM (peer c 6)).view.loc (c : Thread nD τ) ↦[(slotM (peer c 6)).view.set]{fullShare} landed m c (peer c 6))
      ∗ ((slotM (peer c 7)).view.loc (c : Thread nD τ) ↦[(slotM (peer c 7)).view.set]{fullShare} landed m c (peer c 7))
      ∗ (∃ fa, aM.view.loc (c : Thread nD τ) ↦{fullShare} fa)
      ∗ (∃ f0, (Cuts.wslot 0).view.loc (c : Thread nD τ) ↦[(Cuts.wslot 0).view.set]{fullShare} f0)
      ∗ (∃ f1, (Cuts.wslot 1).view.loc (c : Thread nD τ) ↦[(Cuts.wslot 1).view.set]{fullShare} f1)
      ∗ (hM.view.loc (c : Thread nD τ) ↦{fullShare} warr m c)
      ∗ semVal ((c : Thread nD τ), SemLoc.dma (recvSem c)) 0
      ∗ semVal ((c : Thread nD τ), SemLoc.dma (wSem 0)) 0
      ∗ semVal ((c : Thread nD τ), SemLoc.dma (wSem 1)) 0
      ∗ (∃ W', owes (c : Thread nD τ) 0 W')
      ∗ cellInv ER (Rd m) (κs 0) (sendCell c 0)
      ∗ atPos ER (sendCell c 0) 1 ∅ 0
      ∗ cellInv ER (Rd m) (κs 1) (sendCell c 1)
      ∗ atPos ER (sendCell c 1) 1 ∅ 0
      ∗ cellInv ER (Rd m) (κs 2) (sendCell c 2)
      ∗ atPos ER (sendCell c 2) 1 ∅ 0
      ∗ cellInv ER (Rd m) (κs 3) (sendCell c 3)
      ∗ atPos ER (sendCell c 3) 1 ∅ 0
      ∗ cellInv ER (Rd m) (κs 4) (sendCell c 4)
      ∗ atPos ER (sendCell c 4) 1 ∅ 0
      ∗ cellInv ER (Rd m) (κs 5) (sendCell c 5)
      ∗ atPos ER (sendCell c 5) 1 ∅ 0
      ∗ cellInv ER (Rd m) (κs 6) (sendCell c 6)
      ∗ atPos ER (sendCell c 6) 1 ∅ 0
      ∗ cellInv ER (Rd m) (κri 1) (recvCell c (peer c 1))
      ∗ atPos ER (recvCell c (peer c 1)) 1 ∅ 0
      ∗ cellInv ER (Rd m) (κri 2) (recvCell c (peer c 2))
      ∗ atPos ER (recvCell c (peer c 2)) 1 ∅ 0
      ∗ cellInv ER (Rd m) (κri 3) (recvCell c (peer c 3))
      ∗ atPos ER (recvCell c (peer c 3)) 1 ∅ 0
      ∗ cellInv ER (Rd m) (κri 4) (recvCell c (peer c 4))
      ∗ atPos ER (recvCell c (peer c 4)) 1 ∅ 0
      ∗ cellInv ER (Rd m) (κri 5) (recvCell c (peer c 5))
      ∗ atPos ER (recvCell c (peer c 5)) 1 ∅ 0
      ∗ cellInv ER (Rd m) (κri 6) (recvCell c (peer c 6))
      ∗ atPos ER (recvCell c (peer c 6)) 1 ∅ 0
      ∗ cellInv ER (Rd m) (κri 7) (recvCell c (peer c 7))
      ∗ atPos ER (recvCell c (peer c 7)) 1 ∅ 0)

set_option profiler true
set_option profiler.threshold 5000

set_option maxHeartbeats 16000000 in
noncomputable def tail_sub (c : Dev nD) : { L : List (View.Piece (Elt F) S512x8192 .f32) //
    ∀ (v2 v43 v51 v59 v67 v75 v83 v91 : BitVec 32) (W : Waits sig Unit) (κs κro κri : ℕ → ℕ)
      (fo : Buf (Elt F) (oM.view.loc (c : Thread nD τ)))
      (fr : Buf (Elt F) (rM.view.loc (c : Thread nD τ)))
      (fa : Buf (Elt F) (aM.view.loc (c : Thread nD τ)))
      (fk : Buf (Elt F) (wM.view.loc (c : Thread nD τ))),
      Mid m c W κs κro κri fo fr fa fk
        ⊢ wp frame (wpE (defs₀ (F := F)) 𝒱₀ (c : Thread nD τ) none) Set.univ
            (tailProg (F := F) c v2 v43 v51 v59 v67 v75 v83 v91)
            (fun _ => End m c L κs κri fr) } := by
  refine ⟨?L, fun v2 v43 v51 v59 v67 v75 v83 v91 W κs κro κri fo fr fa fk => ?run⟩
  case run =>
    unfold Mid
    iintro ⟨Hx, Ho, Ha, Hs1, Hsr, Hk1, Hs0, Hh, Hr0, ⟨%g2, Hd2⟩, ⟨%g3, Hd3⟩, ⟨%g4, Hd4⟩, ⟨%g5, Hd5⟩, ⟨%g6, Hd6⟩, ⟨%g7, Hd7⟩, Hown, Hrow1, Hrow2, Hrow3, Hrow4, Hrow5, Hrow6, Hcs0, HO, #HL, #Is0, Hats0, #Hrs0, #Iri1, Hatr1, Hcrr1, #Is1, Hats1, #Hrs1, Hts1, #Iro2, Htro2, #Hrro2, #Iri2, Hatr2, Hcrr2, #Is2, Hats2, #Hrs2, Hts2, #Iro3, Htro3, #Hrro3, #Iri3, Hatr3, Hcrr3, #Is3, Hats3, #Hrs3, Hts3, #Iro4, Htro4, #Hrro4, #Iri4, Hatr4, Hcrr4, #Is4, Hats4, #Hrs4, Hts4, #Iro5, Htro5, #Hrro5, #Iri5, Hatr5, Hcrr5, #Is5, Hats5, #Hrs5, Hts5, #Iro6, Htro6, #Hrro6, #Iri6, Hatr6, Hcrr6, #Is6, Hats6, #Hrs6, Hts6, #Iro7, Htro7, #Hrro7, #Iri7, Hatr7, Hcrr7⟩
    icases (keep) $$ Hcs0 with Hcs0
    have hw0a := Levels.mayWait_low_sends4 (F := F) c (wSem 0) (recvIdx_wSem 0)
    have hw1a := Levels.mayWait_low_sends4 (F := F) c (wSem 1) (recvIdx_wSem 1)
    have hw0b := Levels.mayWait_low_send7 (F := F) c (wSem 0) (recvIdx_wSem 0)
    have hw1b := Levels.mayWait_low_send7 (F := F) c (wSem 1) (recvIdx_wSem 1)
    have hr1 := Levels.mayWait_recv1 (F := F) c
    sl_unfold [tailProg]
    sl_exec_parts (disch := first | sl_exact dev9_eq c | sl_exact dev10_eq c | sl_exact dev11_eq c | sl_exact dev12_eq c | sl_exact dev13_eq c | sl_exact dev14_eq c | sl_exact dev15_eq c)
    iapply (send_step m c 1 2 rfl (κs 1) (κro 2) _ _ rfl _ g2) $$ [Hrow1 Hd2 HO Hts1 Htro2]
    · sl_close
    iintro ⟨Hcs1, HO⟩
    icases (keep) $$ Hcs1 with Hcs1
    sl_exec_parts (disch := first | sl_exact dev9_eq c | sl_exact dev10_eq c | sl_exact dev11_eq c | sl_exact dev12_eq c | sl_exact dev13_eq c | sl_exact dev14_eq c | sl_exact dev15_eq c)
    iapply (send_step m c 2 3 rfl (κs 2) (κro 3) _ _ rfl _ g3) $$ [Hrow2 Hd3 HO Hts2 Htro3]
    · sl_close
    iintro ⟨Hcs2, HO⟩
    icases (keep) $$ Hcs2 with Hcs2
    sl_exec_parts (disch := first | sl_exact dev9_eq c | sl_exact dev10_eq c | sl_exact dev11_eq c | sl_exact dev12_eq c | sl_exact dev13_eq c | sl_exact dev14_eq c | sl_exact dev15_eq c)
    iapply (send_step m c 3 4 rfl (κs 3) (κro 4) _ _ rfl _ g4) $$ [Hrow3 Hd4 HO Hts3 Htro4]
    · sl_close
    iintro ⟨Hcs3, HO⟩
    icases (keep) $$ Hcs3 with Hcs3
    sl_exec_parts (disch := first | sl_exact dev9_eq c | sl_exact dev10_eq c | sl_exact dev11_eq c | sl_exact dev12_eq c | sl_exact dev13_eq c | sl_exact dev14_eq c | sl_exact dev15_eq c)
    iapply (send_step m c 4 5 rfl (κs 4) (κro 5) _ _ rfl _ g5) $$ [Hrow4 Hd5 HO Hts4 Htro5]
    · sl_close
    iintro ⟨Hcs4, HO⟩
    icases (keep) $$ Hcs4 with Hcs4
    sl_exec_parts (disch := first | sl_exact dev9_eq c | sl_exact dev10_eq c | sl_exact dev11_eq c | sl_exact dev12_eq c | sl_exact dev13_eq c | sl_exact dev14_eq c | sl_exact dev15_eq c)
    iapply (send_step m c 5 6 rfl (κs 5) (κro 6) _ _ rfl _ g6) $$ [Hrow5 Hd6 HO Hts5 Htro6]
    · sl_close
    iintro ⟨Hcs5, HO⟩
    icases (keep) $$ Hcs5 with Hcs5
    sl_exec_parts (disch := first | sl_exact dev9_eq c | sl_exact dev10_eq c | sl_exact dev11_eq c | sl_exact dev12_eq c | sl_exact dev13_eq c | sl_exact dev14_eq c | sl_exact dev15_eq c)
    iapply (send_step m c 6 7 rfl (κs 6) (κro 7) _ 0 (zero_add _).symm _ g7) $$ [Hrow6 Hd7 HO Hts6 Htro7]
    · sl_close
    iintro ⟨Hcs6, HO⟩
    icases (keep) $$ Hcs6 with Hcs6
    set_option sl_exec.maxSteps 159 in sl_exec_parts (disch := first | sl_exact dev9_eq c | sl_exact dev10_eq c | sl_exact dev11_eq c | sl_exact dev12_eq c | sl_exact dev13_eq c | sl_exact dev14_eq c | sl_exact dev15_eq c)
    first | (sl_exec (disch := first | sl_exact dev9_eq c | sl_exact dev10_eq c | sl_exact dev11_eq c | sl_exact dev12_eq c | sl_exact dev13_eq c | sl_exact dev14_eq c | sl_exact dev15_eq c)) | skip
    icases (unkeep) $$ Hcs0 with Hcs0
    iapply (send_wait_step m c 0 0#32 0#32 1#32 rfl (k0_off4_inb c 0) (κs 0) _) $$ [Hcs0 HO Hats0]
    · sl_close
    iintro ⟨HO, Hats0, #Hrr0, Hrow0⟩
    first | (sl_exec (disch := first | sl_exact dev9_eq c | sl_exact dev10_eq c | sl_exact dev11_eq c | sl_exact dev12_eq c | sl_exact dev13_eq c | sl_exact dev14_eq c | sl_exact dev15_eq c)) | skip
    icases (unkeep) $$ Hcs1 with Hcs1
    iapply (send_wait_step m c 1 0#32 1#32 0#32 rfl (k0_off4_inb c 1) (κs 1) _) $$ [Hcs1 HO Hats1]
    · sl_close
    iintro ⟨HO, Hats1, #Hrr1, Hrow1⟩
    first | (sl_exec (disch := first | sl_exact dev9_eq c | sl_exact dev10_eq c | sl_exact dev11_eq c | sl_exact dev12_eq c | sl_exact dev13_eq c | sl_exact dev14_eq c | sl_exact dev15_eq c)) | skip
    icases (unkeep) $$ Hcs2 with Hcs2
    iapply (send_wait_step m c 2 1#32 0#32 0#32 rfl (k0_off4_inb c 2) (κs 2) _) $$ [Hcs2 HO Hats2]
    · sl_close
    iintro ⟨HO, Hats2, #Hrr2, Hrow2⟩
    first | (sl_exec (disch := first | sl_exact dev9_eq c | sl_exact dev10_eq c | sl_exact dev11_eq c | sl_exact dev12_eq c | sl_exact dev13_eq c | sl_exact dev14_eq c | sl_exact dev15_eq c)) | skip
    icases (unkeep) $$ Hcs3 with Hcs3
    iapply (send_wait_step m c 3 0#32 1#32 1#32 rfl (k0_off4_inb c 3) (κs 3) _) $$ [Hcs3 HO Hats3]
    · sl_close
    iintro ⟨HO, Hats3, #Hrr3, Hrow3⟩
    first | (sl_exec (disch := first | sl_exact dev9_eq c | sl_exact dev10_eq c | sl_exact dev11_eq c | sl_exact dev12_eq c | sl_exact dev13_eq c | sl_exact dev14_eq c | sl_exact dev15_eq c)) | skip
    icases (unkeep) $$ Hcs4 with Hcs4
    iapply (send_wait_step m c 4 1#32 0#32 1#32 rfl (k0_off4_inb c 4) (κs 4) _) $$ [Hcs4 HO Hats4]
    · sl_close
    iintro ⟨HO, Hats4, #Hrr4, Hrow4⟩
    first | (sl_exec (disch := first | sl_exact dev9_eq c | sl_exact dev10_eq c | sl_exact dev11_eq c | sl_exact dev12_eq c | sl_exact dev13_eq c | sl_exact dev14_eq c | sl_exact dev15_eq c)) | skip
    icases (unkeep) $$ Hcs5 with Hcs5
    iapply (send_wait_step m c 5 1#32 1#32 0#32 rfl (k0_off4_inb c 5) (κs 5) _) $$ [Hcs5 HO Hats5]
    · sl_close
    iintro ⟨HO, Hats5, #Hrr5, Hrow5⟩
    first | (sl_exec (disch := first | sl_exact dev9_eq c | sl_exact dev10_eq c | sl_exact dev11_eq c | sl_exact dev12_eq c | sl_exact dev13_eq c | sl_exact dev14_eq c | sl_exact dev15_eq c)) | skip
    icases (unkeep) $$ Hcs6 with Hcs6
    iapply (send_wait_step m c 6 1#32 1#32 1#32 rfl (k0_off4_inb c 6) (κs 6) _) $$ [Hcs6 HO Hats6]
    · sl_close
    iintro ⟨HO, Hats6, #Hrr6, Hrow6⟩
    first | (sl_exec (disch := first | sl_exact dev9_eq c | sl_exact dev10_eq c | sl_exact dev11_eq c | sl_exact dev12_eq c | sl_exact dev13_eq c | sl_exact dev14_eq c | sl_exact dev15_eq c)) | skip
    icases (out_rebase c fo _ (.split 1 4096 (.leaf 2) (.leaf 0)) (by rfl)) $$ Ho with Ho
    sl_step
    unfold End
    sl_close

end Cert.KernelIdeal.BodyProof

end
-- ==== Proof.OutAt.lean ====
/- The kernel's result on one device, as the body's run leaves it in the result's staging buffer: the list of stores
   the run of the body found, over contents that nothing reads. -/
import proofs.«900487_g7700000000000488_dist_a2a_gemm_m4096_k4096_n8192_f32_gelu_v7x_i8_1_alg».proof.Proof.BodyTailRun

noncomputable section

namespace Cert.KernelIdeal.Proto

open Cert.KernelIdeal Cert.KernelIdeal.Gen Cert.KernelIdeal.Devs
open Idealize.ShloMosaic Idealize.ShloMosaic.TcCoe Idealize.SL.Sem

variable {F : FTy → Type} [FloatOps F]

/-- The kernel's result on device c: the stores the body's run lists in the result's staging buffer, newest first. -/
def outAt (m : (ℓ : Loc nD τ sig) → Buf (Elt F) ℓ) (c : Dev nD) : (cc0_stg1_0 : Ref sig .tc).ty.Contents (Elt F) :=
  oM.view.writes (Elt F) oM.view.junk (Cert.KernelIdeal.BodyProof.tail_sub m c).1

end Cert.KernelIdeal.Proto

end
-- ==== Proof.Dats.lean ====
/- The pipeline's proof data of the one region: what each window's staging buffer holds after the body, the
   invariant before and after the point, and what the device owes. -/
import proofs.«900487_g7700000000000488_dist_a2a_gemm_m4096_k4096_n8192_f32_gelu_v7x_i8_1_alg».proof.Proof.OutAt

noncomputable section

namespace Cert.KernelIdeal.Proto

open Cert.KernelIdeal Cert.KernelIdeal.Gen Cert.KernelIdeal.Devs
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.Proto

end
-- ==== Proof.Launch.lean ====
/- The launch: the library's launch theorem for a region whose devices owe at launch and whose protocol also runs
   on the runtime's barrier semaphore, applied to the body obligation. From any memory with every counter at zero,
   every fair execution of the program on the eight devices ends, and every final state has each device's windowed
   arrays at what the pipeline's proof data computes for them and its copy of w as it was. -/
import proofs.«900487_g7700000000000488_dist_a2a_gemm_m4096_k4096_n8192_f32_gelu_v7x_i8_1_alg».proof.Proof.LaunchPre
import proofs.«900487_g7700000000000488_dist_a2a_gemm_m4096_k4096_n8192_f32_gelu_v7x_i8_1_alg».proof.Proof.Dats
import proofs.«900487_g7700000000000488_dist_a2a_gemm_m4096_k4096_n8192_f32_gelu_v7x_i8_1_alg».proof.Proof.Levels
import proofs.«900487_g7700000000000488_dist_a2a_gemm_m4096_k4096_n8192_f32_gelu_v7x_i8_1_alg».proof.Proof.Gen.KernelIdeal.Points

noncomputable section

namespace Cert.KernelIdeal.LaunchProof

open Cert.KernelIdeal Cert.KernelIdeal.Gen Cert.KernelIdeal.Devs Cert.KernelIdeal.Proto Cert.KernelIdeal.LaunchPre

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/- The result's contents are a name here: nothing in this module reads its definition. -/
attribute [local irreducible] Cert.KernelIdeal.Proto.outAt

local notation "𝕄" => MT nD τ sig Unit (Elt F) ℕ UU ℕ

variable (m : (ℓ : Loc nD τ sig) → Buf (Elt F) ℓ) (ρ : Dev nD → PrngReg)

/-! ## The launch theorem's side conditions -/

theorem share_eq (c : Dev nD) (w : Fin cfg0.W) : (dats m 0 c).share w = fullShare := by unfold Dat.share; split <;> rfl

/-- What the region is entered with (the theorem's hX): the copy of w out of the unscoped rest, the level facts, the
    launch credit as the device's credit tokens, the ghost state and the three idle semaphores out of the global step. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (creds_intro (F := F) c) $$ Hcr
  unfold G'
  icases HG with ⟨HG, Hidle⟩
  imodintro
  unfold start warr
  isplitl
  · isplitl [HG]; · iexact HG
    isplitl [Hc]; · iexact Hc
    isplitl [Hidle]; · iexact Hidle
    isplitl [Hlev]; · iexact Hlev
    iexact Hw
  · iempintro

/-- The invariant before the point (hin): what the region is entered with and the four scratch buffers. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- The invariant after the point (hout): the copy of w, the own semaphores at zero, the scratch buffers. -/
theorem phi1_exit (c : Dev nD) :
    (dats m 0 c).Φ (Fin.last cfg0.N)
      ⊢ iprop((((c : Thread nD τ).loc main_arg1) ↦{fullShare} warr m c) ∗ Pipeline.ownSems0 osem c ∗ Pipeline.scopedRest cfg0.spec c) := by
  rw [show (dats m 0 c).Φ (Fin.last cfg0.N) = Φ₁ m c from rfl, scopedRest0_eq, ownSems0_eq_groups]
  unfold Φ₁ ownZero scratch
  iintro ⟨Hscr, Hz, Hw⟩
  isplitl [Hw]; · iexact Hw
  isplitl [Hz]; · iexact Hz
  iexact Hscr

/-- The staging cells are no receive cell: they stand at level 0. -/
theorem stage_low (w : Fin cfg0.W) (s : Fin (cfg0.win w).nbuf) : recvIdx ((cfg0.win w).sem s) = none := by
  fin_cases w <;> fin_cases s <;> decide

/-- The pipeline's own waits, on the staging cells: below everything the device owes at launch, and after the
    point it owes nothing. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact Levels.mayWait_low_O₀ c _ (stage_low w s)
    · show _ ⊢ MayWait (c : Thread nD τ) _ () 0
      rw [MayWait_zero]; iintro -; iempintro

/-! ## The run -/

set_option maxRecDepth 8000 in
/-- At the compiled mesh of eight devices, for any float values, from any memory with zero counters, GIVEN the body
    obligation on every device: every weakly fair execution of @main terminates, and every final state has each
    device's windowed arrays at the contents the proof data computes and its copy of w unchanged. -/
theorem run_main (hbody : ∀ c, BodyObligation (dats (F := F) m 0 c) (defs₀ (F := F)) 𝒱₀ () Set.univ) :
    θ_run defs (onTc (τ := τ) (main (F := F))) ⟨m, fun _ => 0, ρ⟩
      (fun r => ∀ c : Dev nD, (∀ w : Fin cfg0.W, r.2.mem ((cfg0.win w).arr.view.loc (c : Thread nD τ)) = (dats m 0 c).arrAt w cfg0.N)
        ∧ r.2.mem ((c : Thread nD τ).loc main_arg1) = m ((c : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (own_pair_emb embR _ _) $$ HX
      icases HX' with ⟨HX1, -⟩
      imod (fund_ring m) $$ HX1 with HG
      imodintro
      isplitl [HP] <;> iassumption)
    (hglob := glob m)
    (hA := fun _ _ => rfl) (hpf := fun _ k => k.elim0)
    (X := start m) (Y := fun c => (((c : Thread nD τ).loc main_arg1) ↦{fullShare} warr m c)) (Z := fun _ => iprop(emp))
    (hX := start_intro m ρ) (hin := phi0_intro m) (hout := phi1_exit m)
    (QY := fun c s => s.mem ((c : Thread nD τ).loc main_arg1) = warr m c)
    (hY := fun c s' => by
      iintro ⟨Hw, -, HSI⟩
      icombine HSI Hw gives %hw
      imodintro
      isplitr; · ipureintro; exact Buf.eq_of_forall_mem_univ hw
      iexact HSI)
    (hQ := fun _ h c => ⟨(h c).1, (h c).2.2⟩)

/-- info: 'Cert.KernelIdeal.LaunchProof.run_main' depends on axioms: [propext, Classical.choice, Quot.sound] -/
#guard_msgs in #print axioms run_main

/-! ## The windowed arrays after the run -/

/-- The x array after the run holds what it held: an input window is never written back. -/
theorem finalA_x (m : (ℓ : Loc nD τ sig) → Buf (Elt F) ℓ) (ρ : Dev nD → PrngReg) (c : Dev nD) :
    (dats m 0 c).arrAt (0 : Fin 2) cfg0.N = m ((c : Thread nD τ).loc main_arg0) :=
  (dats (F := F) m 0 c).arrAt_in (0 : Fin 2) rfl _

/-- The result array after the run holds what the body left in its staging buffer: the one point writes the whole
    block back, and the block is the whole array. -/
theorem finalA_out (m : (ℓ : Loc nD τ sig) → Buf (Elt F) ℓ) (ρ : Dev nD → PrngReg) (c : Dev nD) :
    (dats m 0 c).arrAt (1 : Fin 2) cfg0.N = outAt m c := by
  have h := (dats (F := F) m 0 c).arrAt_succ (1 : Fin 2) t0_0
  rw [flush0_1 t0_0, if_pos rfl] at h
  refine (congrArg ((dats (F := F) m 0 c).arrAt (1 : Fin 2)) (show cfg0.N = t0_0.val + 1 from rfl)).trans (h.trans ?_)
  exact Memref.write_access_unit_zero_univ (Elt F) main_v1 (funext fun a => Nat.zero_mul _) _ _ _

end Cert.KernelIdeal.LaunchProof

end
-- ==== Proof.BodyDev0.lean ====
/- The entry stretch of the body on device 0: the cast of the device's block of x into its half-precision copy, the
   first copy of a block of w, the handshake on the barrier semaphore (a unit to every other device, each handing
   that device the slot of this device's receive buffer it writes; then the wait for the seven units, each handing
   this device its slot of a partner's buffer), and the first transfer of 512 rows to the first partner. The guards
   of the eight signals and the partners are decided at this device; everything else is stated at the device c. -/
import proofs.«900487_g7700000000000488_dist_a2a_gemm_m4096_k4096_n8192_f32_gelu_v7x_i8_1_alg».proof.Proof.Sched
import proofs.«900487_g7700000000000488_dist_a2a_gemm_m4096_k4096_n8192_f32_gelu_v7x_i8_1_alg».proof.Proof.Levels
import proofs.«900487_g7700000000000488_dist_a2a_gemm_m4096_k4096_n8192_f32_gelu_v7x_i8_1_alg».proof.Proof.SchedTables
import proofs.«900487_g7700000000000488_dist_a2a_gemm_m4096_k4096_n8192_f32_gelu_v7x_i8_1_alg».proof.Proof.Cuts
import proofs.«900487_g7700000000000488_dist_a2a_gemm_m4096_k4096_n8192_f32_gelu_v7x_i8_1_alg».proof.Proof.CutsBody
import proofs.«900487_g7700000000000488_dist_a2a_gemm_m4096_k4096_n8192_f32_gelu_v7x_i8_1_alg».proof.Proof.BodyLemmas
import proofs.«900487_g7700000000000488_dist_a2a_gemm_m4096_k4096_n8192_f32_gelu_v7x_i8_1_alg».proof.Proof.BodyMid
import Idealize.ShloMosaic.Lib.Pipeline.Launch
import Idealize.ShloMosaic.Lib.Pipeline.Kit
import Idealize.ShloMosaic.Lib.Ring
import Idealize.ShloMosaic.Lib.Tactic

noncomputable section

namespace Cert.KernelIdeal.BodyProof

open Cert.KernelIdeal Cert.KernelIdeal.Gen Cert.KernelIdeal.Devs Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The barrier duty a device pays on its k-th partner's cell hands over the slot of ITS OWN buffer that partner writes -/
theorem t_payload_bar_out_1 (c : Dev nD) (r : ℕ) :
    (Rd m).payload (barCell (peer c 1)) r (1 : Fin 8)
      = iprop(∃ f, ((slotM (peer c 1)).view.loc (c : Thread nD τ) ↦[(slotM (peer c 1)).view.set]{fullShare} f : sProp 𝕄)) := by
  have h : peer (peer c 1) 1 = c := peer_invol c 1
  show iprop(∃ f, ((slotM (peer c 1)).view.loc ((peer (peer c 1) ((1 : Fin 8) : ℕ) : Dev nD) : Thread nD τ) ↦[(slotM (peer c 1)).view.set]{fullShare} f : sProp 𝕄)) = _
  rw [show ((1 : Fin 8) : ℕ) = 1 from rfl, h]
theorem t_payload_bar_out_2 (c : Dev nD) (r : ℕ) :
    (Rd m).payload (barCell (peer c 2)) r (2 : Fin 8)
      = iprop(∃ f, ((slotM (peer c 2)).view.loc (c : Thread nD τ) ↦[(slotM (peer c 2)).view.set]{fullShare} f : sProp 𝕄)) := by
  have h : peer (peer c 2) 2 = c := peer_invol c 2
  show iprop(∃ f, ((slotM (peer c 2)).view.loc ((peer (peer c 2) ((2 : Fin 8) : ℕ) : Dev nD) : Thread nD τ) ↦[(slotM (peer c 2)).view.set]{fullShare} f : sProp 𝕄)) = _
  rw [show ((2 : Fin 8) : ℕ) = 2 from rfl, h]
theorem t_payload_bar_out_3 (c : Dev nD) (r : ℕ) :
    (Rd m).payload (barCell (peer c 3)) r (3 : Fin 8)
      = iprop(∃ f, ((slotM (peer c 3)).view.loc (c : Thread nD τ) ↦[(slotM (peer c 3)).view.set]{fullShare} f : sProp 𝕄)) := by
  have h : peer (peer c 3) 3 = c := peer_invol c 3
  show iprop(∃ f, ((slotM (peer c 3)).view.loc ((peer (peer c 3) ((3 : Fin 8) : ℕ) : Dev nD) : Thread nD τ) ↦[(slotM (peer c 3)).view.set]{fullShare} f : sProp 𝕄)) = _
  rw [show ((3 : Fin 8) : ℕ) = 3 from rfl, h]
theorem t_payload_bar_out_4 (c : Dev nD) (r : ℕ) :
    (Rd m).payload (barCell (peer c 4)) r (4 : Fin 8)
      = iprop(∃ f, ((slotM (peer c 4)).view.loc (c : Thread nD τ) ↦[(slotM (peer c 4)).view.set]{fullShare} f : sProp 𝕄)) := by
  have h : peer (peer c 4) 4 = c := peer_invol c 4
  show iprop(∃ f, ((slotM (peer c 4)).view.loc ((peer (peer c 4) ((4 : Fin 8) : ℕ) : Dev nD) : Thread nD τ) ↦[(slotM (peer c 4)).view.set]{fullShare} f : sProp 𝕄)) = _
  rw [show ((4 : Fin 8) : ℕ) = 4 from rfl, h]
theorem t_payload_bar_out_5 (c : Dev nD) (r : ℕ) :
    (Rd m).payload (barCell (peer c 5)) r (5 : Fin 8)
      = iprop(∃ f, ((slotM (peer c 5)).view.loc (c : Thread nD τ) ↦[(slotM (peer c 5)).view.set]{fullShare} f : sProp 𝕄)) := by
  have h : peer (peer c 5) 5 = c := peer_invol c 5
  show iprop(∃ f, ((slotM (peer c 5)).view.loc ((peer (peer c 5) ((5 : Fin 8) : ℕ) : Dev nD) : Thread nD τ) ↦[(slotM (peer c 5)).view.set]{fullShare} f : sProp 𝕄)) = _
  rw [show ((5 : Fin 8) : ℕ) = 5 from rfl, h]
theorem t_payload_bar_out_6 (c : Dev nD) (r : ℕ) :
    (Rd m).payload (barCell (peer c 6)) r (6 : Fin 8)
      = iprop(∃ f, ((slotM (peer c 6)).view.loc (c : Thread nD τ) ↦[(slotM (peer c 6)).view.set]{fullShare} f : sProp 𝕄)) := by
  have h : peer (peer c 6) 6 = c := peer_invol c 6
  show iprop(∃ f, ((slotM (peer c 6)).view.loc ((peer (peer c 6) ((6 : Fin 8) : ℕ) : Dev nD) : Thread nD τ) ↦[(slotM (peer c 6)).view.set]{fullShare} f : sProp 𝕄)) = _
  rw [show ((6 : Fin 8) : ℕ) = 6 from rfl, h]
theorem t_payload_bar_out_7 (c : Dev nD) (r : ℕ) :
    (Rd m).payload (barCell (peer c 7)) r (7 : Fin 8)
      = iprop(∃ f, ((slotM (peer c 7)).view.loc (c : Thread nD τ) ↦[(slotM (peer c 7)).view.set]{fullShare} f : sProp 𝕄)) := by
  have h : peer (peer c 7) 7 = c := peer_invol c 7
  show iprop(∃ f, ((slotM (peer c 7)).view.loc ((peer (peer c 7) ((7 : Fin 8) : ℕ) : Dev nD) : Thread nD τ) ↦[(slotM (peer c 7)).view.set]{fullShare} f : sProp 𝕄)) = _
  rw [show ((7 : Fin 8) : ℕ) = 7 from rfl, h]
attribute [local sl_rounds high] t_payload_bar_out_1 t_payload_bar_out_2 t_payload_bar_out_3 t_payload_bar_out_4 t_payload_bar_out_5 t_payload_bar_out_6 t_payload_bar_out_7

set_option maxHeartbeats 8000000 in
theorem prefix_dev0 (c : Dev nD) (hc : c = 0) (W : Waits sig Unit)
    (κ0 : ℕ) (κb κs κro κri : ℕ → ℕ)
    (fo : Buf (Elt F) (oM.view.loc (c : Thread nD τ)))
    (fb : Buf (Elt F) (bM.view.loc (c : Thread nD τ)))
    (fr : Buf (Elt F) (rM.view.loc (c : Thread nD τ)))
    (fa : Buf (Elt F) (aM.view.loc (c : Thread nD τ)))
    (fk : Buf (Elt F) (wM.view.loc (c : Thread nD τ))) :
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ
          (headProg (F := F))
          (fun ws => iprop(⌜ws.1 = c⌝ ∗ Mid m c (insert (SemLoc.reg barS, ()) W) κs κro κri fo fr fa fk)) := by
  iintro ⟨Hx, Ho, Hb, Hr, Ha, Hk, Hh, Hs0, Hs1, Hsr, HO, #HL, #Ib0, Hatb, Hcrb, #Ib1, Htb1, #Hrb1, #Ib2, Htb2, #Hrb2, #Ib3, Htb3, #Hrb3, #Ib4, Htb4, #Hrb4, #Ib5, Htb5, #Hrb5, #Ib6, Htb6, #Hrb6, #Ib7, Htb7, #Hrb7, #Is0, Hats0, Hts0, #Hrs0, #Iro1, Htro1, #Hrro1, #Iri1, Hatr1, Hcrr1, #Is1, Hats1, Hts1, #Hrs1, #Iro2, Htro2, #Hrro2, #Iri2, Hatr2, Hcrr2, #Is2, Hats2, Hts2, #Hrs2, #Iro3, Htro3, #Hrro3, #Iri3, Hatr3, Hcrr3, #Is3, Hats3, Hts3, #Hrs3, #Iro4, Htro4, #Hrro4, #Iri4, Hatr4, Hcrr4, #Is4, Hats4, Hts4, #Hrs4, #Iro5, Htro5, #Hrro5, #Iri5, Hatr5, Hcrr5, #Is5, Hats5, Hts5, #Hrs5, #Iro6, Htro6, #Hrro6, #Iri6, Hatr6, Hcrr6, #Is6, Hats6, Hts6, #Hrs6, #Iro7, Htro7, #Hrro7, #Iri7, Hatr7, Hcrr7⟩
  have hmb := Levels.mayWait_bar (F := F) c
  have hpeer1 : (1 : Dev nD) = peer c 1 := by subst hc; decide
  have hpeer2 : (3 : Dev nD) = peer c 2 := by subst hc; decide
  have hpeer3 : (4 : Dev nD) = peer c 3 := by subst hc; decide
  have hpeer4 : (2 : Dev nD) = peer c 4 := by subst hc; decide
  have hpeer5 : (5 : Dev nD) = peer c 5 := by subst hc; decide
  have hpeer6 : (7 : Dev nD) = peer c 6 := by subst hc; decide
  have hpeer7 : (6 : Dev nD) = peer c 7 := by subst hc; decide
  have hO : (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1 : CellTallies nD τ sig Unit)
      = (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 6)) () 1 + tallyAt (barCell (peer c 7)) () 1 + tallyAt (barCell (peer c 5)) () 1 + tallyAt (barCell (peer c 3)) () 1 + tallyAt (barCell (peer c 2)) () 1 + tallyAt (barCell (peer c 4)) () 1 + tallyAt (barCell (peer c 1)) () 1) := by ac_rfl
  icases (entails_of_eq' (congrArg (fun O => (owes (c : Thread nD τ) O W : sProp 𝕄)) hO)) $$ HO with HO
  icases (entails_of_eq' (Cuts.wbuf_cut (F := F) c fk)) $$ Hk with ⟨Hk0, Hk1⟩
  sl_unfold [headProg]
  set_option sl_exec.stopBefore "k0_cond1" in sl_exec_parts (disch := first | (subst hc; decide))
  icases (entails_of_eq' (Cuts.recv_cut_peer_chain (F := F) c fr)) $$ Hr with ⟨Hr0, Hr1, Hr2, Hr3, Hr4, Hr5, Hr6, Hr7⟩
  irevert Hr1 Hr4 Hr2 Hr3 Hr5 Hr7 Hr6 Hr0
  iintro Hr1 Hr4 Hr2 Hr3 Hr5 Hr7 Hr6 Hr0
  sl_exec_parts (disch := first | (subst hc; decide))
  icases (sep7 _ _ _ _ _ _ _) $$ Hatb_pay1 with ⟨⟨%g1, Hd1⟩, ⟨%g2, Hd2⟩, ⟨%g3, Hd3⟩, ⟨%g4, Hd4⟩, ⟨%g5, Hd5⟩, ⟨%g6, Hd6⟩, ⟨%g7, Hd7⟩⟩
  icases (xb_pts m c fb) $$ Hb with Hb
  icases (entails_of_eq' (Cuts.copy_cut_body (F := F) c (xbC m c))) $$ Hb with ⟨Hown, Hrow0, Hrow1, Hrow2, Hrow3, Hrow4, Hrow5, Hrow6⟩
  iapply (send_step m c 0 1 rfl (κs 0) (κro 1) _ _ rfl _ g1) $$ [Hrow0 Hd1 HO Hts0 Htro1]
  · sl_close
  iintro ⟨Hcs0, HO⟩
  sl_exec_parts (disch := first | (subst hc; decide))
  sl_step
  isplitr
  · ipureintro; rfl
  unfold Mid
  sl_close

end Cert.KernelIdeal.BodyProof

end
-- ==== Proof.BodyDev1.lean ====
/- The entry stretch of the body on device 1: the cast of the device's block of x into its half-precision copy, the
   first copy of a block of w, the handshake on the barrier semaphore (a unit to every other device, each handing
   that device the slot of this device's receive buffer it writes; then the wait for the seven units, each handing
   this device its slot of a partner's buffer), and the first transfer of 512 rows to the first partner. The guards
   of the eight signals and the partners are decided at this device; everything else is stated at the device c. -/
import proofs.«900487_g7700000000000488_dist_a2a_gemm_m4096_k4096_n8192_f32_gelu_v7x_i8_1_alg».proof.Proof.Sched
import proofs.«900487_g7700000000000488_dist_a2a_gemm_m4096_k4096_n8192_f32_gelu_v7x_i8_1_alg».proof.Proof.Levels
import proofs.«900487_g7700000000000488_dist_a2a_gemm_m4096_k4096_n8192_f32_gelu_v7x_i8_1_alg».proof.Proof.SchedTables
import proofs.«900487_g7700000000000488_dist_a2a_gemm_m4096_k4096_n8192_f32_gelu_v7x_i8_1_alg».proof.Proof.Cuts
import proofs.«900487_g7700000000000488_dist_a2a_gemm_m4096_k4096_n8192_f32_gelu_v7x_i8_1_alg».proof.Proof.CutsBody
import proofs.«900487_g7700000000000488_dist_a2a_gemm_m4096_k4096_n8192_f32_gelu_v7x_i8_1_alg».proof.Proof.BodyLemmas
import proofs.«900487_g7700000000000488_dist_a2a_gemm_m4096_k4096_n8192_f32_gelu_v7x_i8_1_alg».proof.Proof.BodyMid
import Idealize.ShloMosaic.Lib.Pipeline.Launch
import Idealize.ShloMosaic.Lib.Pipeline.Kit
import Idealize.ShloMosaic.Lib.Ring
import Idealize.ShloMosaic.Lib.Tactic

noncomputable section

namespace Cert.KernelIdeal.BodyProof

open Cert.KernelIdeal Cert.KernelIdeal.Gen Cert.KernelIdeal.Devs Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The barrier duty a device pays on its k-th partner's cell hands over the slot of ITS OWN buffer that partner writes -/
theorem t_payload_bar_out_1 (c : Dev nD) (r : ℕ) :
    (Rd m).payload (barCell (peer c 1)) r (1 : Fin 8)
      = iprop(∃ f, ((slotM (peer c 1)).view.loc (c : Thread nD τ) ↦[(slotM (peer c 1)).view.set]{fullShare} f : sProp 𝕄)) := by
  have h : peer (peer c 1) 1 = c := peer_invol c 1
  show iprop(∃ f, ((slotM (peer c 1)).view.loc ((peer (peer c 1) ((1 : Fin 8) : ℕ) : Dev nD) : Thread nD τ) ↦[(slotM (peer c 1)).view.set]{fullShare} f : sProp 𝕄)) = _
  rw [show ((1 : Fin 8) : ℕ) = 1 from rfl, h]
theorem t_payload_bar_out_2 (c : Dev nD) (r : ℕ) :
    (Rd m).payload (barCell (peer c 2)) r (2 : Fin 8)
      = iprop(∃ f, ((slotM (peer c 2)).view.loc (c : Thread nD τ) ↦[(slotM (peer c 2)).view.set]{fullShare} f : sProp 𝕄)) := by
  have h : peer (peer c 2) 2 = c := peer_invol c 2
  show iprop(∃ f, ((slotM (peer c 2)).view.loc ((peer (peer c 2) ((2 : Fin 8) : ℕ) : Dev nD) : Thread nD τ) ↦[(slotM (peer c 2)).view.set]{fullShare} f : sProp 𝕄)) = _
  rw [show ((2 : Fin 8) : ℕ) = 2 from rfl, h]
theorem t_payload_bar_out_3 (c : Dev nD) (r : ℕ) :
    (Rd m).payload (barCell (peer c 3)) r (3 : Fin 8)
      = iprop(∃ f, ((slotM (peer c 3)).view.loc (c : Thread nD τ) ↦[(slotM (peer c 3)).view.set]{fullShare} f : sProp 𝕄)) := by
  have h : peer (peer c 3) 3 = c := peer_invol c 3
  show iprop(∃ f, ((slotM (peer c 3)).view.loc ((peer (peer c 3) ((3 : Fin 8) : ℕ) : Dev nD) : Thread nD τ) ↦[(slotM (peer c 3)).view.set]{fullShare} f : sProp 𝕄)) = _
  rw [show ((3 : Fin 8) : ℕ) = 3 from rfl, h]
theorem t_payload_bar_out_4 (c : Dev nD) (r : ℕ) :
    (Rd m).payload (barCell (peer c 4)) r (4 : Fin 8)
      = iprop(∃ f, ((slotM (peer c 4)).view.loc (c : Thread nD τ) ↦[(slotM (peer c 4)).view.set]{fullShare} f : sProp 𝕄)) := by
  have h : peer (peer c 4) 4 = c := peer_invol c 4
  show iprop(∃ f, ((slotM (peer c 4)).view.loc ((peer (peer c 4) ((4 : Fin 8) : ℕ) : Dev nD) : Thread nD τ) ↦[(slotM (peer c 4)).view.set]{fullShare} f : sProp 𝕄)) = _
  rw [show ((4 : Fin 8) : ℕ) = 4 from rfl, h]
theorem t_payload_bar_out_5 (c : Dev nD) (r : ℕ) :
    (Rd m).payload (barCell (peer c 5)) r (5 : Fin 8)
      = iprop(∃ f, ((slotM (peer c 5)).view.loc (c : Thread nD τ) ↦[(slotM (peer c 5)).view.set]{fullShare} f : sProp 𝕄)) := by
  have h : peer (peer c 5) 5 = c := peer_invol c 5
  show iprop(∃ f, ((slotM (peer c 5)).view.loc ((peer (peer c 5) ((5 : Fin 8) : ℕ) : Dev nD) : Thread nD τ) ↦[(slotM (peer c 5)).view.set]{fullShare} f : sProp 𝕄)) = _
  rw [show ((5 : Fin 8) : ℕ) = 5 from rfl, h]
theorem t_payload_bar_out_6 (c : Dev nD) (r : ℕ) :
    (Rd m).payload (barCell (peer c 6)) r (6 : Fin 8)
      = iprop(∃ f, ((slotM (peer c 6)).view.loc (c : Thread nD τ) ↦[(slotM (peer c 6)).view.set]{fullShare} f : sProp 𝕄)) := by
  have h : peer (peer c 6) 6 = c := peer_invol c 6
  show iprop(∃ f, ((slotM (peer c 6)).view.loc ((peer (peer c 6) ((6 : Fin 8) : ℕ) : Dev nD) : Thread nD τ) ↦[(slotM (peer c 6)).view.set]{fullShare} f : sProp 𝕄)) = _
  rw [show ((6 : Fin 8) : ℕ) = 6 from rfl, h]
theorem t_payload_bar_out_7 (c : Dev nD) (r : ℕ) :
    (Rd m).payload (barCell (peer c 7)) r (7 : Fin 8)
      = iprop(∃ f, ((slotM (peer c 7)).view.loc (c : Thread nD τ) ↦[(slotM (peer c 7)).view.set]{fullShare} f : sProp 𝕄)) := by
  have h : peer (peer c 7) 7 = c := peer_invol c 7
  show iprop(∃ f, ((slotM (peer c 7)).view.loc ((peer (peer c 7) ((7 : Fin 8) : ℕ) : Dev nD) : Thread nD τ) ↦[(slotM (peer c 7)).view.set]{fullShare} f : sProp 𝕄)) = _
  rw [show ((7 : Fin 8) : ℕ) = 7 from rfl, h]
attribute [local sl_rounds high] t_payload_bar_out_1 t_payload_bar_out_2 t_payload_bar_out_3 t_payload_bar_out_4 t_payload_bar_out_5 t_payload_bar_out_6 t_payload_bar_out_7

set_option maxHeartbeats 8000000 in
theorem prefix_dev1 (c : Dev nD) (hc : c = 1) (W : Waits sig Unit)
    (κ0 : ℕ) (κb κs κro κri : ℕ → ℕ)
    (fo : Buf (Elt F) (oM.view.loc (c : Thread nD τ)))
    (fb : Buf (Elt F) (bM.view.loc (c : Thread nD τ)))
    (fr : Buf (Elt F) (rM.view.loc (c : Thread nD τ)))
    (fa : Buf (Elt F) (aM.view.loc (c : Thread nD τ)))
    (fk : Buf (Elt F) (wM.view.loc (c : Thread nD τ))) :
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ
          (headProg (F := F))
          (fun ws => iprop(⌜ws.1 = c⌝ ∗ Mid m c (insert (SemLoc.reg barS, ()) W) κs κro κri fo fr fa fk)) := by
  iintro ⟨Hx, Ho, Hb, Hr, Ha, Hk, Hh, Hs0, Hs1, Hsr, HO, #HL, #Ib0, Hatb, Hcrb, #Ib1, Htb1, #Hrb1, #Ib2, Htb2, #Hrb2, #Ib3, Htb3, #Hrb3, #Ib4, Htb4, #Hrb4, #Ib5, Htb5, #Hrb5, #Ib6, Htb6, #Hrb6, #Ib7, Htb7, #Hrb7, #Is0, Hats0, Hts0, #Hrs0, #Iro1, Htro1, #Hrro1, #Iri1, Hatr1, Hcrr1, #Is1, Hats1, Hts1, #Hrs1, #Iro2, Htro2, #Hrro2, #Iri2, Hatr2, Hcrr2, #Is2, Hats2, Hts2, #Hrs2, #Iro3, Htro3, #Hrro3, #Iri3, Hatr3, Hcrr3, #Is3, Hats3, Hts3, #Hrs3, #Iro4, Htro4, #Hrro4, #Iri4, Hatr4, Hcrr4, #Is4, Hats4, Hts4, #Hrs4, #Iro5, Htro5, #Hrro5, #Iri5, Hatr5, Hcrr5, #Is5, Hats5, Hts5, #Hrs5, #Iro6, Htro6, #Hrro6, #Iri6, Hatr6, Hcrr6, #Is6, Hats6, Hts6, #Hrs6, #Iro7, Htro7, #Hrro7, #Iri7, Hatr7, Hcrr7⟩
  have hmb := Levels.mayWait_bar (F := F) c
  have hpeer1 : (0 : Dev nD) = peer c 1 := by subst hc; decide
  have hpeer2 : (2 : Dev nD) = peer c 2 := by subst hc; decide
  have hpeer3 : (5 : Dev nD) = peer c 3 := by subst hc; decide
  have hpeer4 : (3 : Dev nD) = peer c 4 := by subst hc; decide
  have hpeer5 : (4 : Dev nD) = peer c 5 := by subst hc; decide
  have hpeer6 : (6 : Dev nD) = peer c 6 := by subst hc; decide
  have hpeer7 : (7 : Dev nD) = peer c 7 := by subst hc; decide
  have hO : (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1 : CellTallies nD τ sig Unit)
      = (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 3)) () 1 + tallyAt (barCell (peer c 5)) () 1 + tallyAt (barCell (peer c 4)) () 1 + tallyAt (barCell (peer c 2)) () 1 + tallyAt (barCell (peer c 1)) () 1) := by ac_rfl
  icases (entails_of_eq' (congrArg (fun O => (owes (c : Thread nD τ) O W : sProp 𝕄)) hO)) $$ HO with HO
  icases (entails_of_eq' (Cuts.wbuf_cut (F := F) c fk)) $$ Hk with ⟨Hk0, Hk1⟩
  sl_unfold [headProg]
  set_option sl_exec.stopBefore "k0_cond1" in sl_exec_parts (disch := first | (subst hc; decide))
  icases (entails_of_eq' (Cuts.recv_cut_peer_chain (F := F) c fr)) $$ Hr with ⟨Hr0, Hr1, Hr2, Hr3, Hr4, Hr5, Hr6, Hr7⟩
  irevert Hr1 Hr2 Hr4 Hr5 Hr3 Hr6 Hr7 Hr0
  iintro Hr1 Hr2 Hr4 Hr5 Hr3 Hr6 Hr7 Hr0
  sl_exec_parts (disch := first | (subst hc; decide))
  icases (sep7 _ _ _ _ _ _ _) $$ Hatb_pay1 with ⟨⟨%g1, Hd1⟩, ⟨%g2, Hd2⟩, ⟨%g3, Hd3⟩, ⟨%g4, Hd4⟩, ⟨%g5, Hd5⟩, ⟨%g6, Hd6⟩, ⟨%g7, Hd7⟩⟩
  icases (xb_pts m c fb) $$ Hb with Hb
  icases (entails_of_eq' (Cuts.copy_cut_body (F := F) c (xbC m c))) $$ Hb with ⟨Hown, Hrow0, Hrow1, Hrow2, Hrow3, Hrow4, Hrow5, Hrow6⟩
  iapply (send_step m c 0 1 rfl (κs 0) (κro 1) _ _ rfl _ g1) $$ [Hrow0 Hd1 HO Hts0 Htro1]
  · sl_close
  iintro ⟨Hcs0, HO⟩
  sl_exec_parts (disch := first | (subst hc; decide))
  sl_step
  isplitr
  · ipureintro; rfl
  unfold Mid
  sl_close

end Cert.KernelIdeal.BodyProof

end
-- ==== Proof.BodyDev2.lean ====
/- The entry stretch of the body on device 2: the cast of the device's block of x into its half-precision copy, the
   first copy of a block of w, the handshake on the barrier semaphore (a unit to every other device, each handing
   that device the slot of this device's receive buffer it writes; then the wait for the seven units, each handing
   this device its slot of a partner's buffer), and the first transfer of 512 rows to the first partner. The guards
   of the eight signals and the partners are decided at this device; everything else is stated at the device c. -/
import proofs.«900487_g7700000000000488_dist_a2a_gemm_m4096_k4096_n8192_f32_gelu_v7x_i8_1_alg».proof.Proof.Sched
import proofs.«900487_g7700000000000488_dist_a2a_gemm_m4096_k4096_n8192_f32_gelu_v7x_i8_1_alg».proof.Proof.Levels
import proofs.«900487_g7700000000000488_dist_a2a_gemm_m4096_k4096_n8192_f32_gelu_v7x_i8_1_alg».proof.Proof.SchedTables
import proofs.«900487_g7700000000000488_dist_a2a_gemm_m4096_k4096_n8192_f32_gelu_v7x_i8_1_alg».proof.Proof.Cuts
import proofs.«900487_g7700000000000488_dist_a2a_gemm_m4096_k4096_n8192_f32_gelu_v7x_i8_1_alg».proof.Proof.CutsBody
import proofs.«900487_g7700000000000488_dist_a2a_gemm_m4096_k4096_n8192_f32_gelu_v7x_i8_1_alg».proof.Proof.BodyLemmas
import proofs.«900487_g7700000000000488_dist_a2a_gemm_m4096_k4096_n8192_f32_gelu_v7x_i8_1_alg».proof.Proof.BodyMid
import Idealize.ShloMosaic.Lib.Pipeline.Launch
import Idealize.ShloMosaic.Lib.Pipeline.Kit
import Idealize.ShloMosaic.Lib.Ring
import Idealize.ShloMosaic.Lib.Tactic

noncomputable section

namespace Cert.KernelIdeal.BodyProof

open Cert.KernelIdeal Cert.KernelIdeal.Gen Cert.KernelIdeal.Devs Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The barrier duty a device pays on its k-th partner's cell hands over the slot of ITS OWN buffer that partner writes -/
theorem t_payload_bar_out_1 (c : Dev nD) (r : ℕ) :
    (Rd m).payload (barCell (peer c 1)) r (1 : Fin 8)
      = iprop(∃ f, ((slotM (peer c 1)).view.loc (c : Thread nD τ) ↦[(slotM (peer c 1)).view.set]{fullShare} f : sProp 𝕄)) := by
  have h : peer (peer c 1) 1 = c := peer_invol c 1
  show iprop(∃ f, ((slotM (peer c 1)).view.loc ((peer (peer c 1) ((1 : Fin 8) : ℕ) : Dev nD) : Thread nD τ) ↦[(slotM (peer c 1)).view.set]{fullShare} f : sProp 𝕄)) = _
  rw [show ((1 : Fin 8) : ℕ) = 1 from rfl, h]
theorem t_payload_bar_out_2 (c : Dev nD) (r : ℕ) :
    (Rd m).payload (barCell (peer c 2)) r (2 : Fin 8)
      = iprop(∃ f, ((slotM (peer c 2)).view.loc (c : Thread nD τ) ↦[(slotM (peer c 2)).view.set]{fullShare} f : sProp 𝕄)) := by
  have h : peer (peer c 2) 2 = c := peer_invol c 2
  show iprop(∃ f, ((slotM (peer c 2)).view.loc ((peer (peer c 2) ((2 : Fin 8) : ℕ) : Dev nD) : Thread nD τ) ↦[(slotM (peer c 2)).view.set]{fullShare} f : sProp 𝕄)) = _
  rw [show ((2 : Fin 8) : ℕ) = 2 from rfl, h]
theorem t_payload_bar_out_3 (c : Dev nD) (r : ℕ) :
    (Rd m).payload (barCell (peer c 3)) r (3 : Fin 8)
      = iprop(∃ f, ((slotM (peer c 3)).view.loc (c : Thread nD τ) ↦[(slotM (peer c 3)).view.set]{fullShare} f : sProp 𝕄)) := by
  have h : peer (peer c 3) 3 = c := peer_invol c 3
  show iprop(∃ f, ((slotM (peer c 3)).view.loc ((peer (peer c 3) ((3 : Fin 8) : ℕ) : Dev nD) : Thread nD τ) ↦[(slotM (peer c 3)).view.set]{fullShare} f : sProp 𝕄)) = _
  rw [show ((3 : Fin 8) : ℕ) = 3 from rfl, h]
theorem t_payload_bar_out_4 (c : Dev nD) (r : ℕ) :
    (Rd m).payload (barCell (peer c 4)) r (4 : Fin 8)
      = iprop(∃ f, ((slotM (peer c 4)).view.loc (c : Thread nD τ) ↦[(slotM (peer c 4)).view.set]{fullShare} f : sProp 𝕄)) := by
  have h : peer (peer c 4) 4 = c := peer_invol c 4
  show iprop(∃ f, ((slotM (peer c 4)).view.loc ((peer (peer c 4) ((4 : Fin 8) : ℕ) : Dev nD) : Thread nD τ) ↦[(slotM (peer c 4)).view.set]{fullShare} f : sProp 𝕄)) = _
  rw [show ((4 : Fin 8) : ℕ) = 4 from rfl, h]
theorem t_payload_bar_out_5 (c : Dev nD) (r : ℕ) :
    (Rd m).payload (barCell (peer c 5)) r (5 : Fin 8)
      = iprop(∃ f, ((slotM (peer c 5)).view.loc (c : Thread nD τ) ↦[(slotM (peer c 5)).view.set]{fullShare} f : sProp 𝕄)) := by
  have h : peer (peer c 5) 5 = c := peer_invol c 5
  show iprop(∃ f, ((slotM (peer c 5)).view.loc ((peer (peer c 5) ((5 : Fin 8) : ℕ) : Dev nD) : Thread nD τ) ↦[(slotM (peer c 5)).view.set]{fullShare} f : sProp 𝕄)) = _
  rw [show ((5 : Fin 8) : ℕ) = 5 from rfl, h]
theorem t_payload_bar_out_6 (c : Dev nD) (r : ℕ) :
    (Rd m).payload (barCell (peer c 6)) r (6 : Fin 8)
      = iprop(∃ f, ((slotM (peer c 6)).view.loc (c : Thread nD τ) ↦[(slotM (peer c 6)).view.set]{fullShare} f : sProp 𝕄)) := by
  have h : peer (peer c 6) 6 = c := peer_invol c 6
  show iprop(∃ f, ((slotM (peer c 6)).view.loc ((peer (peer c 6) ((6 : Fin 8) : ℕ) : Dev nD) : Thread nD τ) ↦[(slotM (peer c 6)).view.set]{fullShare} f : sProp 𝕄)) = _
  rw [show ((6 : Fin 8) : ℕ) = 6 from rfl, h]
theorem t_payload_bar_out_7 (c : Dev nD) (r : ℕ) :
    (Rd m).payload (barCell (peer c 7)) r (7 : Fin 8)
      = iprop(∃ f, ((slotM (peer c 7)).view.loc (c : Thread nD τ) ↦[(slotM (peer c 7)).view.set]{fullShare} f : sProp 𝕄)) := by
  have h : peer (peer c 7) 7 = c := peer_invol c 7
  show iprop(∃ f, ((slotM (peer c 7)).view.loc ((peer (peer c 7) ((7 : Fin 8) : ℕ) : Dev nD) : Thread nD τ) ↦[(slotM (peer c 7)).view.set]{fullShare} f : sProp 𝕄)) = _
  rw [show ((7 : Fin 8) : ℕ) = 7 from rfl, h]
attribute [local sl_rounds high] t_payload_bar_out_1 t_payload_bar_out_2 t_payload_bar_out_3 t_payload_bar_out_4 t_payload_bar_out_5 t_payload_bar_out_6 t_payload_bar_out_7

set_option maxHeartbeats 8000000 in
theorem prefix_dev2 (c : Dev nD) (hc : c = 2) (W : Waits sig Unit)
    (κ0 : ℕ) (κb κs κro κri : ℕ → ℕ)
    (fo : Buf (Elt F) (oM.view.loc (c : Thread nD τ)))
    (fb : Buf (Elt F) (bM.view.loc (c : Thread nD τ)))
    (fr : Buf (Elt F) (rM.view.loc (c : Thread nD τ)))
    (fa : Buf (Elt F) (aM.view.loc (c : Thread nD τ)))
    (fk : Buf (Elt F) (wM.view.loc (c : Thread nD τ))) :
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ
          (headProg (F := F))
          (fun ws => iprop(⌜ws.1 = c⌝ ∗ Mid m c (insert (SemLoc.reg barS, ()) W) κs κro κri fo fr fa fk)) := by
  iintro ⟨Hx, Ho, Hb, Hr, Ha, Hk, Hh, Hs0, Hs1, Hsr, HO, #HL, #Ib0, Hatb, Hcrb, #Ib1, Htb1, #Hrb1, #Ib2, Htb2, #Hrb2, #Ib3, Htb3, #Hrb3, #Ib4, Htb4, #Hrb4, #Ib5, Htb5, #Hrb5, #Ib6, Htb6, #Hrb6, #Ib7, Htb7, #Hrb7, #Is0, Hats0, Hts0, #Hrs0, #Iro1, Htro1, #Hrro1, #Iri1, Hatr1, Hcrr1, #Is1, Hats1, Hts1, #Hrs1, #Iro2, Htro2, #Hrro2, #Iri2, Hatr2, Hcrr2, #Is2, Hats2, Hts2, #Hrs2, #Iro3, Htro3, #Hrro3, #Iri3, Hatr3, Hcrr3, #Is3, Hats3, Hts3, #Hrs3, #Iro4, Htro4, #Hrro4, #Iri4, Hatr4, Hcrr4, #Is4, Hats4, Hts4, #Hrs4, #Iro5, Htro5, #Hrro5, #Iri5, Hatr5, Hcrr5, #Is5, Hats5, Hts5, #Hrs5, #Iro6, Htro6, #Hrro6, #Iri6, Hatr6, Hcrr6, #Is6, Hats6, Hts6, #Hrs6, #Iro7, Htro7, #Hrro7, #Iri7, Hatr7, Hcrr7⟩
  have hmb := Levels.mayWait_bar (F := F) c
  have hpeer1 : (3 : Dev nD) = peer c 1 := by subst hc; decide
  have hpeer2 : (1 : Dev nD) = peer c 2 := by subst hc; decide
  have hpeer3 : (6 : Dev nD) = peer c 3 := by subst hc; decide
  have hpeer4 : (0 : Dev nD) = peer c 4 := by subst hc; decide
  have hpeer5 : (7 : Dev nD) = peer c 5 := by subst hc; decide
  have hpeer6 : (5 : Dev nD) = peer c 6 := by subst hc; decide
  have hpeer7 : (4 : Dev nD) = peer c 7 := by subst hc; decide
  have hO : (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1 : CellTallies nD τ sig Unit)
      = (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 5)) () 1 + tallyAt (barCell (peer c 3)) () 1 + tallyAt (barCell (peer c 6)) () 1 + tallyAt (barCell (peer c 7)) () 1 + tallyAt (barCell (peer c 1)) () 1 + tallyAt (barCell (peer c 2)) () 1 + tallyAt (barCell (peer c 4)) () 1) := by ac_rfl
  icases (entails_of_eq' (congrArg (fun O => (owes (c : Thread nD τ) O W : sProp 𝕄)) hO)) $$ HO with HO
  icases (entails_of_eq' (Cuts.wbuf_cut (F := F) c fk)) $$ Hk with ⟨Hk0, Hk1⟩
  sl_unfold [headProg]
  set_option sl_exec.stopBefore "k0_cond1" in sl_exec_parts (disch := first | (subst hc; decide))
  icases (entails_of_eq' (Cuts.recv_cut_peer_chain (F := F) c fr)) $$ Hr with ⟨Hr0, Hr1, Hr2, Hr3, Hr4, Hr5, Hr6, Hr7⟩
  irevert Hr4 Hr2 Hr1 Hr7 Hr6 Hr3 Hr5 Hr0
  iintro Hr4 Hr2 Hr1 Hr7 Hr6 Hr3 Hr5 Hr0
  sl_exec_parts (disch := first | (subst hc; decide))
  icases (sep7 _ _ _ _ _ _ _) $$ Hatb_pay1 with ⟨⟨%g1, Hd1⟩, ⟨%g2, Hd2⟩, ⟨%g3, Hd3⟩, ⟨%g4, Hd4⟩, ⟨%g5, Hd5⟩, ⟨%g6, Hd6⟩, ⟨%g7, Hd7⟩⟩
  icases (xb_pts m c fb) $$ Hb with Hb
  icases (entails_of_eq' (Cuts.copy_cut_body (F := F) c (xbC m c))) $$ Hb with ⟨Hown, Hrow0, Hrow1, Hrow2, Hrow3, Hrow4, Hrow5, Hrow6⟩
  iapply (send_step m c 0 1 rfl (κs 0) (κro 1) _ _ rfl _ g1) $$ [Hrow0 Hd1 HO Hts0 Htro1]
  · sl_close
  iintro ⟨Hcs0, HO⟩
  sl_exec_parts (disch := first | (subst hc; decide))
  sl_step
  isplitr
  · ipureintro; rfl
  unfold Mid
  sl_close

end Cert.KernelIdeal.BodyProof

end
-- ==== Proof.BodyDev3.lean ====
/- The entry stretch of the body on device 3: the cast of the device's block of x into its half-precision copy, the
   first copy of a block of w, the handshake on the barrier semaphore (a unit to every other device, each handing
   that device the slot of this device's receive buffer it writes; then the wait for the seven units, each handing
   this device its slot of a partner's buffer), and the first transfer of 512 rows to the first partner. The guards
   of the eight signals and the partners are decided at this device; everything else is stated at the device c. -/
import proofs.«900487_g7700000000000488_dist_a2a_gemm_m4096_k4096_n8192_f32_gelu_v7x_i8_1_alg».proof.Proof.Sched
import proofs.«900487_g7700000000000488_dist_a2a_gemm_m4096_k4096_n8192_f32_gelu_v7x_i8_1_alg».proof.Proof.Levels
import proofs.«900487_g7700000000000488_dist_a2a_gemm_m4096_k4096_n8192_f32_gelu_v7x_i8_1_alg».proof.Proof.SchedTables
import proofs.«900487_g7700000000000488_dist_a2a_gemm_m4096_k4096_n8192_f32_gelu_v7x_i8_1_alg».proof.Proof.Cuts
import proofs.«900487_g7700000000000488_dist_a2a_gemm_m4096_k4096_n8192_f32_gelu_v7x_i8_1_alg».proof.Proof.CutsBody
import proofs.«900487_g7700000000000488_dist_a2a_gemm_m4096_k4096_n8192_f32_gelu_v7x_i8_1_alg».proof.Proof.BodyLemmas
import proofs.«900487_g7700000000000488_dist_a2a_gemm_m4096_k4096_n8192_f32_gelu_v7x_i8_1_alg».proof.Proof.BodyMid
import Idealize.ShloMosaic.Lib.Pipeline.Launch
import Idealize.ShloMosaic.Lib.Pipeline.Kit
import Idealize.ShloMosaic.Lib.Ring
import Idealize.ShloMosaic.Lib.Tactic

noncomputable section

namespace Cert.KernelIdeal.BodyProof

open Cert.KernelIdeal Cert.KernelIdeal.Gen Cert.KernelIdeal.Devs Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The barrier duty a device pays on its k-th partner's cell hands over the slot of ITS OWN buffer that partner writes -/
theorem t_payload_bar_out_1 (c : Dev nD) (r : ℕ) :
    (Rd m).payload (barCell (peer c 1)) r (1 : Fin 8)
      = iprop(∃ f, ((slotM (peer c 1)).view.loc (c : Thread nD τ) ↦[(slotM (peer c 1)).view.set]{fullShare} f : sProp 𝕄)) := by
  have h : peer (peer c 1) 1 = c := peer_invol c 1
  show iprop(∃ f, ((slotM (peer c 1)).view.loc ((peer (peer c 1) ((1 : Fin 8) : ℕ) : Dev nD) : Thread nD τ) ↦[(slotM (peer c 1)).view.set]{fullShare} f : sProp 𝕄)) = _
  rw [show ((1 : Fin 8) : ℕ) = 1 from rfl, h]
theorem t_payload_bar_out_2 (c : Dev nD) (r : ℕ) :
    (Rd m).payload (barCell (peer c 2)) r (2 : Fin 8)
      = iprop(∃ f, ((slotM (peer c 2)).view.loc (c : Thread nD τ) ↦[(slotM (peer c 2)).view.set]{fullShare} f : sProp 𝕄)) := by
  have h : peer (peer c 2) 2 = c := peer_invol c 2
  show iprop(∃ f, ((slotM (peer c 2)).view.loc ((peer (peer c 2) ((2 : Fin 8) : ℕ) : Dev nD) : Thread nD τ) ↦[(slotM (peer c 2)).view.set]{fullShare} f : sProp 𝕄)) = _
  rw [show ((2 : Fin 8) : ℕ) = 2 from rfl, h]
theorem t_payload_bar_out_3 (c : Dev nD) (r : ℕ) :
    (Rd m).payload (barCell (peer c 3)) r (3 : Fin 8)
      = iprop(∃ f, ((slotM (peer c 3)).view.loc (c : Thread nD τ) ↦[(slotM (peer c 3)).view.set]{fullShare} f : sProp 𝕄)) := by
  have h : peer (peer c 3) 3 = c := peer_invol c 3
  show iprop(∃ f, ((slotM (peer c 3)).view.loc ((peer (peer c 3) ((3 : Fin 8) : ℕ) : Dev nD) : Thread nD τ) ↦[(slotM (peer c 3)).view.set]{fullShare} f : sProp 𝕄)) = _
  rw [show ((3 : Fin 8) : ℕ) = 3 from rfl, h]
theorem t_payload_bar_out_4 (c : Dev nD) (r : ℕ) :
    (Rd m).payload (barCell (peer c 4)) r (4 : Fin 8)
      = iprop(∃ f, ((slotM (peer c 4)).view.loc (c : Thread nD τ) ↦[(slotM (peer c 4)).view.set]{fullShare} f : sProp 𝕄)) := by
  have h : peer (peer c 4) 4 = c := peer_invol c 4
  show iprop(∃ f, ((slotM (peer c 4)).view.loc ((peer (peer c 4) ((4 : Fin 8) : ℕ) : Dev nD) : Thread nD τ) ↦[(slotM (peer c 4)).view.set]{fullShare} f : sProp 𝕄)) = _
  rw [show ((4 : Fin 8) : ℕ) = 4 from rfl, h]
theorem t_payload_bar_out_5 (c : Dev nD) (r : ℕ) :
    (Rd m).payload (barCell (peer c 5)) r (5 : Fin 8)
      = iprop(∃ f, ((slotM (peer c 5)).view.loc (c : Thread nD τ) ↦[(slotM (peer c 5)).view.set]{fullShare} f : sProp 𝕄)) := by
  have h : peer (peer c 5) 5 = c := peer_invol c 5
  show iprop(∃ f, ((slotM (peer c 5)).view.loc ((peer (peer c 5) ((5 : Fin 8) : ℕ) : Dev nD) : Thread nD τ) ↦[(slotM (peer c 5)).view.set]{fullShare} f : sProp 𝕄)) = _
  rw [show ((5 : Fin 8) : ℕ) = 5 from rfl, h]
theorem t_payload_bar_out_6 (c : Dev nD) (r : ℕ) :
    (Rd m).payload (barCell (peer c 6)) r (6 : Fin 8)
      = iprop(∃ f, ((slotM (peer c 6)).view.loc (c : Thread nD τ) ↦[(slotM (peer c 6)).view.set]{fullShare} f : sProp 𝕄)) := by
  have h : peer (peer c 6) 6 = c := peer_invol c 6
  show iprop(∃ f, ((slotM (peer c 6)).view.loc ((peer (peer c 6) ((6 : Fin 8) : ℕ) : Dev nD) : Thread nD τ) ↦[(slotM (peer c 6)).view.set]{fullShare} f : sProp 𝕄)) = _
  rw [show ((6 : Fin 8) : ℕ) = 6 from rfl, h]
theorem t_payload_bar_out_7 (c : Dev nD) (r : ℕ) :
    (Rd m).payload (barCell (peer c 7)) r (7 : Fin 8)
      = iprop(∃ f, ((slotM (peer c 7)).view.loc (c : Thread nD τ) ↦[(slotM (peer c 7)).view.set]{fullShare} f : sProp 𝕄)) := by
  have h : peer (peer c 7) 7 = c := peer_invol c 7
  show iprop(∃ f, ((slotM (peer c 7)).view.loc ((peer (peer c 7) ((7 : Fin 8) : ℕ) : Dev nD) : Thread nD τ) ↦[(slotM (peer c 7)).view.set]{fullShare} f : sProp 𝕄)) = _
  rw [show ((7 : Fin 8) : ℕ) = 7 from rfl, h]
attribute [local sl_rounds high] t_payload_bar_out_1 t_payload_bar_out_2 t_payload_bar_out_3 t_payload_bar_out_4 t_payload_bar_out_5 t_payload_bar_out_6 t_payload_bar_out_7

set_option maxHeartbeats 8000000 in
theorem prefix_dev3 (c : Dev nD) (hc : c = 3) (W : Waits sig Unit)
    (κ0 : ℕ) (κb κs κro κri : ℕ → ℕ)
    (fo : Buf (Elt F) (oM.view.loc (c : Thread nD τ)))
    (fb : Buf (Elt F) (bM.view.loc (c : Thread nD τ)))
    (fr : Buf (Elt F) (rM.view.loc (c : Thread nD τ)))
    (fa : Buf (Elt F) (aM.view.loc (c : Thread nD τ)))
    (fk : Buf (Elt F) (wM.view.loc (c : Thread nD τ))) :
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ
          (headProg (F := F))
          (fun ws => iprop(⌜ws.1 = c⌝ ∗ Mid m c (insert (SemLoc.reg barS, ()) W) κs κro κri fo fr fa fk)) := by
  iintro ⟨Hx, Ho, Hb, Hr, Ha, Hk, Hh, Hs0, Hs1, Hsr, HO, #HL, #Ib0, Hatb, Hcrb, #Ib1, Htb1, #Hrb1, #Ib2, Htb2, #Hrb2, #Ib3, Htb3, #Hrb3, #Ib4, Htb4, #Hrb4, #Ib5, Htb5, #Hrb5, #Ib6, Htb6, #Hrb6, #Ib7, Htb7, #Hrb7, #Is0, Hats0, Hts0, #Hrs0, #Iro1, Htro1, #Hrro1, #Iri1, Hatr1, Hcrr1, #Is1, Hats1, Hts1, #Hrs1, #Iro2, Htro2, #Hrro2, #Iri2, Hatr2, Hcrr2, #Is2, Hats2, Hts2, #Hrs2, #Iro3, Htro3, #Hrro3, #Iri3, Hatr3, Hcrr3, #Is3, Hats3, Hts3, #Hrs3, #Iro4, Htro4, #Hrro4, #Iri4, Hatr4, Hcrr4, #Is4, Hats4, Hts4, #Hrs4, #Iro5, Htro5, #Hrro5, #Iri5, Hatr5, Hcrr5, #Is5, Hats5, Hts5, #Hrs5, #Iro6, Htro6, #Hrro6, #Iri6, Hatr6, Hcrr6, #Is6, Hats6, Hts6, #Hrs6, #Iro7, Htro7, #Hrro7, #Iri7, Hatr7, Hcrr7⟩
  have hmb := Levels.mayWait_bar (F := F) c
  have hpeer1 : (2 : Dev nD) = peer c 1 := by subst hc; decide
  have hpeer2 : (0 : Dev nD) = peer c 2 := by subst hc; decide
  have hpeer3 : (7 : Dev nD) = peer c 3 := by subst hc; decide
  have hpeer4 : (1 : Dev nD) = peer c 4 := by subst hc; decide
  have hpeer5 : (6 : Dev nD) = peer c 5 := by subst hc; decide
  have hpeer6 : (4 : Dev nD) = peer c 6 := by subst hc; decide
  have hpeer7 : (5 : Dev nD) = peer c 7 := by subst hc; decide
  have hO : (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1 : CellTallies nD τ sig Unit)
      = (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 3)) () 1 + tallyAt (barCell (peer c 5)) () 1 + tallyAt (barCell (peer c 7)) () 1 + tallyAt (barCell (peer c 6)) () 1 + tallyAt (barCell (peer c 1)) () 1 + tallyAt (barCell (peer c 4)) () 1 + tallyAt (barCell (peer c 2)) () 1) := by ac_rfl
  icases (entails_of_eq' (congrArg (fun O => (owes (c : Thread nD τ) O W : sProp 𝕄)) hO)) $$ HO with HO
  icases (entails_of_eq' (Cuts.wbuf_cut (F := F) c fk)) $$ Hk with ⟨Hk0, Hk1⟩
  sl_unfold [headProg]
  set_option sl_exec.stopBefore "k0_cond1" in sl_exec_parts (disch := first | (subst hc; decide))
  icases (entails_of_eq' (Cuts.recv_cut_peer_chain (F := F) c fr)) $$ Hr with ⟨Hr0, Hr1, Hr2, Hr3, Hr4, Hr5, Hr6, Hr7⟩
  irevert Hr2 Hr4 Hr1 Hr6 Hr7 Hr5 Hr3 Hr0
  iintro Hr2 Hr4 Hr1 Hr6 Hr7 Hr5 Hr3 Hr0
  sl_exec_parts (disch := first | (subst hc; decide))
  icases (sep7 _ _ _ _ _ _ _) $$ Hatb_pay1 with ⟨⟨%g1, Hd1⟩, ⟨%g2, Hd2⟩, ⟨%g3, Hd3⟩, ⟨%g4, Hd4⟩, ⟨%g5, Hd5⟩, ⟨%g6, Hd6⟩, ⟨%g7, Hd7⟩⟩
  icases (xb_pts m c fb) $$ Hb with Hb
  icases (entails_of_eq' (Cuts.copy_cut_body (F := F) c (xbC m c))) $$ Hb with ⟨Hown, Hrow0, Hrow1, Hrow2, Hrow3, Hrow4, Hrow5, Hrow6⟩
  iapply (send_step m c 0 1 rfl (κs 0) (κro 1) _ _ rfl _ g1) $$ [Hrow0 Hd1 HO Hts0 Htro1]
  · sl_close
  iintro ⟨Hcs0, HO⟩
  sl_exec_parts (disch := first | (subst hc; decide))
  sl_step
  isplitr
  · ipureintro; rfl
  unfold Mid
  sl_close

end Cert.KernelIdeal.BodyProof

end
-- ==== Proof.BodyDev4.lean ====
/- The entry stretch of the body on device 4: the cast of the device's block of x into its half-precision copy, the
   first copy of a block of w, the handshake on the barrier semaphore (a unit to every other device, each handing
   that device the slot of this device's receive buffer it writes; then the wait for the seven units, each handing
   this device its slot of a partner's buffer), and the first transfer of 512 rows to the first partner. The guards
   of the eight signals and the partners are decided at this device; everything else is stated at the device c. -/
import proofs.«900487_g7700000000000488_dist_a2a_gemm_m4096_k4096_n8192_f32_gelu_v7x_i8_1_alg».proof.Proof.Sched
import proofs.«900487_g7700000000000488_dist_a2a_gemm_m4096_k4096_n8192_f32_gelu_v7x_i8_1_alg».proof.Proof.Levels
import proofs.«900487_g7700000000000488_dist_a2a_gemm_m4096_k4096_n8192_f32_gelu_v7x_i8_1_alg».proof.Proof.SchedTables
import proofs.«900487_g7700000000000488_dist_a2a_gemm_m4096_k4096_n8192_f32_gelu_v7x_i8_1_alg».proof.Proof.Cuts
import proofs.«900487_g7700000000000488_dist_a2a_gemm_m4096_k4096_n8192_f32_gelu_v7x_i8_1_alg».proof.Proof.CutsBody
import proofs.«900487_g7700000000000488_dist_a2a_gemm_m4096_k4096_n8192_f32_gelu_v7x_i8_1_alg».proof.Proof.BodyLemmas
import proofs.«900487_g7700000000000488_dist_a2a_gemm_m4096_k4096_n8192_f32_gelu_v7x_i8_1_alg».proof.Proof.BodyMid
import Idealize.ShloMosaic.Lib.Pipeline.Launch
import Idealize.ShloMosaic.Lib.Pipeline.Kit
import Idealize.ShloMosaic.Lib.Ring
import Idealize.ShloMosaic.Lib.Tactic

noncomputable section

namespace Cert.KernelIdeal.BodyProof

open Cert.KernelIdeal Cert.KernelIdeal.Gen Cert.KernelIdeal.Devs Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The barrier duty a device pays on its k-th partner's cell hands over the slot of ITS OWN buffer that partner writes -/
theorem t_payload_bar_out_1 (c : Dev nD) (r : ℕ) :
    (Rd m).payload (barCell (peer c 1)) r (1 : Fin 8)
      = iprop(∃ f, ((slotM (peer c 1)).view.loc (c : Thread nD τ) ↦[(slotM (peer c 1)).view.set]{fullShare} f : sProp 𝕄)) := by
  have h : peer (peer c 1) 1 = c := peer_invol c 1
  show iprop(∃ f, ((slotM (peer c 1)).view.loc ((peer (peer c 1) ((1 : Fin 8) : ℕ) : Dev nD) : Thread nD τ) ↦[(slotM (peer c 1)).view.set]{fullShare} f : sProp 𝕄)) = _
  rw [show ((1 : Fin 8) : ℕ) = 1 from rfl, h]
theorem t_payload_bar_out_2 (c : Dev nD) (r : ℕ) :
    (Rd m).payload (barCell (peer c 2)) r (2 : Fin 8)
      = iprop(∃ f, ((slotM (peer c 2)).view.loc (c : Thread nD τ) ↦[(slotM (peer c 2)).view.set]{fullShare} f : sProp 𝕄)) := by
  have h : peer (peer c 2) 2 = c := peer_invol c 2
  show iprop(∃ f, ((slotM (peer c 2)).view.loc ((peer (peer c 2) ((2 : Fin 8) : ℕ) : Dev nD) : Thread nD τ) ↦[(slotM (peer c 2)).view.set]{fullShare} f : sProp 𝕄)) = _
  rw [show ((2 : Fin 8) : ℕ) = 2 from rfl, h]
theorem t_payload_bar_out_3 (c : Dev nD) (r : ℕ) :
    (Rd m).payload (barCell (peer c 3)) r (3 : Fin 8)
      = iprop(∃ f, ((slotM (peer c 3)).view.loc (c : Thread nD τ) ↦[(slotM (peer c 3)).view.set]{fullShare} f : sProp 𝕄)) := by
  have h : peer (peer c 3) 3 = c := peer_invol c 3
  show iprop(∃ f, ((slotM (peer c 3)).view.loc ((peer (peer c 3) ((3 : Fin 8) : ℕ) : Dev nD) : Thread nD τ) ↦[(slotM (peer c 3)).view.set]{fullShare} f : sProp 𝕄)) = _
  rw [show ((3 : Fin 8) : ℕ) = 3 from rfl, h]
theorem t_payload_bar_out_4 (c : Dev nD) (r : ℕ) :
    (Rd m).payload (barCell (peer c 4)) r (4 : Fin 8)
      = iprop(∃ f, ((slotM (peer c 4)).view.loc (c : Thread nD τ) ↦[(slotM (peer c 4)).view.set]{fullShare} f : sProp 𝕄)) := by
  have h : peer (peer c 4) 4 = c := peer_invol c 4
  show iprop(∃ f, ((slotM (peer c 4)).view.loc ((peer (peer c 4) ((4 : Fin 8) : ℕ) : Dev nD) : Thread nD τ) ↦[(slotM (peer c 4)).view.set]{fullShare} f : sProp 𝕄)) = _
  rw [show ((4 : Fin 8) : ℕ) = 4 from rfl, h]
theorem t_payload_bar_out_5 (c : Dev nD) (r : ℕ) :
    (Rd m).payload (barCell (peer c 5)) r (5 : Fin 8)
      = iprop(∃ f, ((slotM (peer c 5)).view.loc (c : Thread nD τ) ↦[(slotM (peer c 5)).view.set]{fullShare} f : sProp 𝕄)) := by
  have h : peer (peer c 5) 5 = c := peer_invol c 5
  show iprop(∃ f, ((slotM (peer c 5)).view.loc ((peer (peer c 5) ((5 : Fin 8) : ℕ) : Dev nD) : Thread nD τ) ↦[(slotM (peer c 5)).view.set]{fullShare} f : sProp 𝕄)) = _
  rw [show ((5 : Fin 8) : ℕ) = 5 from rfl, h]
theorem t_payload_bar_out_6 (c : Dev nD) (r : ℕ) :
    (Rd m).payload (barCell (peer c 6)) r (6 : Fin 8)
      = iprop(∃ f, ((slotM (peer c 6)).view.loc (c : Thread nD τ) ↦[(slotM (peer c 6)).view.set]{fullShare} f : sProp 𝕄)) := by
  have h : peer (peer c 6) 6 = c := peer_invol c 6
  show iprop(∃ f, ((slotM (peer c 6)).view.loc ((peer (peer c 6) ((6 : Fin 8) : ℕ) : Dev nD) : Thread nD τ) ↦[(slotM (peer c 6)).view.set]{fullShare} f : sProp 𝕄)) = _
  rw [show ((6 : Fin 8) : ℕ) = 6 from rfl, h]
theorem t_payload_bar_out_7 (c : Dev nD) (r : ℕ) :
    (Rd m).payload (barCell (peer c 7)) r (7 : Fin 8)
      = iprop(∃ f, ((slotM (peer c 7)).view.loc (c : Thread nD τ) ↦[(slotM (peer c 7)).view.set]{fullShare} f : sProp 𝕄)) := by
  have h : peer (peer c 7) 7 = c := peer_invol c 7
  show iprop(∃ f, ((slotM (peer c 7)).view.loc ((peer (peer c 7) ((7 : Fin 8) : ℕ) : Dev nD) : Thread nD τ) ↦[(slotM (peer c 7)).view.set]{fullShare} f : sProp 𝕄)) = _
  rw [show ((7 : Fin 8) : ℕ) = 7 from rfl, h]
attribute [local sl_rounds high] t_payload_bar_out_1 t_payload_bar_out_2 t_payload_bar_out_3 t_payload_bar_out_4 t_payload_bar_out_5 t_payload_bar_out_6 t_payload_bar_out_7

set_option maxHeartbeats 8000000 in
theorem prefix_dev4 (c : Dev nD) (hc : c = 4) (W : Waits sig Unit)
    (κ0 : ℕ) (κb κs κro κri : ℕ → ℕ)
    (fo : Buf (Elt F) (oM.view.loc (c : Thread nD τ)))
    (fb : Buf (Elt F) (bM.view.loc (c : Thread nD τ)))
    (fr : Buf (Elt F) (rM.view.loc (c : Thread nD τ)))
    (fa : Buf (Elt F) (aM.view.loc (c : Thread nD τ)))
    (fk : Buf (Elt F) (wM.view.loc (c : Thread nD τ))) :
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ
          (headProg (F := F))
          (fun ws => iprop(⌜ws.1 = c⌝ ∗ Mid m c (insert (SemLoc.reg barS, ()) W) κs κro κri fo fr fa fk)) := by
  iintro ⟨Hx, Ho, Hb, Hr, Ha, Hk, Hh, Hs0, Hs1, Hsr, HO, #HL, #Ib0, Hatb, Hcrb, #Ib1, Htb1, #Hrb1, #Ib2, Htb2, #Hrb2, #Ib3, Htb3, #Hrb3, #Ib4, Htb4, #Hrb4, #Ib5, Htb5, #Hrb5, #Ib6, Htb6, #Hrb6, #Ib7, Htb7, #Hrb7, #Is0, Hats0, Hts0, #Hrs0, #Iro1, Htro1, #Hrro1, #Iri1, Hatr1, Hcrr1, #Is1, Hats1, Hts1, #Hrs1, #Iro2, Htro2, #Hrro2, #Iri2, Hatr2, Hcrr2, #Is2, Hats2, Hts2, #Hrs2, #Iro3, Htro3, #Hrro3, #Iri3, Hatr3, Hcrr3, #Is3, Hats3, Hts3, #Hrs3, #Iro4, Htro4, #Hrro4, #Iri4, Hatr4, Hcrr4, #Is4, Hats4, Hts4, #Hrs4, #Iro5, Htro5, #Hrro5, #Iri5, Hatr5, Hcrr5, #Is5, Hats5, Hts5, #Hrs5, #Iro6, Htro6, #Hrro6, #Iri6, Hatr6, Hcrr6, #Is6, Hats6, Hts6, #Hrs6, #Iro7, Htro7, #Hrro7, #Iri7, Hatr7, Hcrr7⟩
  have hmb := Levels.mayWait_bar (F := F) c
  have hpeer1 : (5 : Dev nD) = peer c 1 := by subst hc; decide
  have hpeer2 : (7 : Dev nD) = peer c 2 := by subst hc; decide
  have hpeer3 : (0 : Dev nD) = peer c 3 := by subst hc; decide
  have hpeer4 : (6 : Dev nD) = peer c 4 := by subst hc; decide
  have hpeer5 : (1 : Dev nD) = peer c 5 := by subst hc; decide
  have hpeer6 : (3 : Dev nD) = peer c 6 := by subst hc; decide
  have hpeer7 : (2 : Dev nD) = peer c 7 := by subst hc; decide
  have hO : (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1 : CellTallies nD τ sig Unit)
      = (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 2)) () 1 + tallyAt (barCell (peer c 4)) () 1 + tallyAt (barCell (peer c 1)) () 1 + tallyAt (barCell (peer c 6)) () 1 + tallyAt (barCell (peer c 7)) () 1 + tallyAt (barCell (peer c 5)) () 1 + tallyAt (barCell (peer c 3)) () 1) := by ac_rfl
  icases (entails_of_eq' (congrArg (fun O => (owes (c : Thread nD τ) O W : sProp 𝕄)) hO)) $$ HO with HO
  icases (entails_of_eq' (Cuts.wbuf_cut (F := F) c fk)) $$ Hk with ⟨Hk0, Hk1⟩
  sl_unfold [headProg]
  set_option sl_exec.stopBefore "k0_cond1" in sl_exec_parts (disch := first | (subst hc; decide))
  icases (entails_of_eq' (Cuts.recv_cut_peer_chain (F := F) c fr)) $$ Hr with ⟨Hr0, Hr1, Hr2, Hr3, Hr4, Hr5, Hr6, Hr7⟩
  irevert Hr3 Hr5 Hr7 Hr6 Hr1 Hr4 Hr2 Hr0
  iintro Hr3 Hr5 Hr7 Hr6 Hr1 Hr4 Hr2 Hr0
  sl_exec_parts (disch := first | (subst hc; decide))
  icases (sep7 _ _ _ _ _ _ _) $$ Hatb_pay1 with ⟨⟨%g1, Hd1⟩, ⟨%g2, Hd2⟩, ⟨%g3, Hd3⟩, ⟨%g4, Hd4⟩, ⟨%g5, Hd5⟩, ⟨%g6, Hd6⟩, ⟨%g7, Hd7⟩⟩
  icases (xb_pts m c fb) $$ Hb with Hb
  icases (entails_of_eq' (Cuts.copy_cut_body (F := F) c (xbC m c))) $$ Hb with ⟨Hown, Hrow0, Hrow1, Hrow2, Hrow3, Hrow4, Hrow5, Hrow6⟩
  iapply (send_step m c 0 1 rfl (κs 0) (κro 1) _ _ rfl _ g1) $$ [Hrow0 Hd1 HO Hts0 Htro1]
  · sl_close
  iintro ⟨Hcs0, HO⟩
  sl_exec_parts (disch := first | (subst hc; decide))
  sl_step
  isplitr
  · ipureintro; rfl
  unfold Mid
  sl_close

end Cert.KernelIdeal.BodyProof

end
-- ==== Proof.BodyDev5.lean ====
/- The entry stretch of the body on device 5: the cast of the device's block of x into its half-precision copy, the
   first copy of a block of w, the handshake on the barrier semaphore (a unit to every other device, each handing
   that device the slot of this device's receive buffer it writes; then the wait for the seven units, each handing
   this device its slot of a partner's buffer), and the first transfer of 512 rows to the first partner. The guards
   of the eight signals and the partners are decided at this device; everything else is stated at the device c. -/
import proofs.«900487_g7700000000000488_dist_a2a_gemm_m4096_k4096_n8192_f32_gelu_v7x_i8_1_alg».proof.Proof.Sched
import proofs.«900487_g7700000000000488_dist_a2a_gemm_m4096_k4096_n8192_f32_gelu_v7x_i8_1_alg».proof.Proof.Levels
import proofs.«900487_g7700000000000488_dist_a2a_gemm_m4096_k4096_n8192_f32_gelu_v7x_i8_1_alg».proof.Proof.SchedTables
import proofs.«900487_g7700000000000488_dist_a2a_gemm_m4096_k4096_n8192_f32_gelu_v7x_i8_1_alg».proof.Proof.Cuts
import proofs.«900487_g7700000000000488_dist_a2a_gemm_m4096_k4096_n8192_f32_gelu_v7x_i8_1_alg».proof.Proof.CutsBody
import proofs.«900487_g7700000000000488_dist_a2a_gemm_m4096_k4096_n8192_f32_gelu_v7x_i8_1_alg».proof.Proof.BodyLemmas
import proofs.«900487_g7700000000000488_dist_a2a_gemm_m4096_k4096_n8192_f32_gelu_v7x_i8_1_alg».proof.Proof.BodyMid
import Idealize.ShloMosaic.Lib.Pipeline.Launch
import Idealize.ShloMosaic.Lib.Pipeline.Kit
import Idealize.ShloMosaic.Lib.Ring
import Idealize.ShloMosaic.Lib.Tactic

noncomputable section

namespace Cert.KernelIdeal.BodyProof

open Cert.KernelIdeal Cert.KernelIdeal.Gen Cert.KernelIdeal.Devs Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The barrier duty a device pays on its k-th partner's cell hands over the slot of ITS OWN buffer that partner writes -/
theorem t_payload_bar_out_1 (c : Dev nD) (r : ℕ) :
    (Rd m).payload (barCell (peer c 1)) r (1 : Fin 8)
      = iprop(∃ f, ((slotM (peer c 1)).view.loc (c : Thread nD τ) ↦[(slotM (peer c 1)).view.set]{fullShare} f : sProp 𝕄)) := by
  have h : peer (peer c 1) 1 = c := peer_invol c 1
  show iprop(∃ f, ((slotM (peer c 1)).view.loc ((peer (peer c 1) ((1 : Fin 8) : ℕ) : Dev nD) : Thread nD τ) ↦[(slotM (peer c 1)).view.set]{fullShare} f : sProp 𝕄)) = _
  rw [show ((1 : Fin 8) : ℕ) = 1 from rfl, h]
theorem t_payload_bar_out_2 (c : Dev nD) (r : ℕ) :
    (Rd m).payload (barCell (peer c 2)) r (2 : Fin 8)
      = iprop(∃ f, ((slotM (peer c 2)).view.loc (c : Thread nD τ) ↦[(slotM (peer c 2)).view.set]{fullShare} f : sProp 𝕄)) := by
  have h : peer (peer c 2) 2 = c := peer_invol c 2
  show iprop(∃ f, ((slotM (peer c 2)).view.loc ((peer (peer c 2) ((2 : Fin 8) : ℕ) : Dev nD) : Thread nD τ) ↦[(slotM (peer c 2)).view.set]{fullShare} f : sProp 𝕄)) = _
  rw [show ((2 : Fin 8) : ℕ) = 2 from rfl, h]
theorem t_payload_bar_out_3 (c : Dev nD) (r : ℕ) :
    (Rd m).payload (barCell (peer c 3)) r (3 : Fin 8)
      = iprop(∃ f, ((slotM (peer c 3)).view.loc (c : Thread nD τ) ↦[(slotM (peer c 3)).view.set]{fullShare} f : sProp 𝕄)) := by
  have h : peer (peer c 3) 3 = c := peer_invol c 3
  show iprop(∃ f, ((slotM (peer c 3)).view.loc ((peer (peer c 3) ((3 : Fin 8) : ℕ) : Dev nD) : Thread nD τ) ↦[(slotM (peer c 3)).view.set]{fullShare} f : sProp 𝕄)) = _
  rw [show ((3 : Fin 8) : ℕ) = 3 from rfl, h]
theorem t_payload_bar_out_4 (c : Dev nD) (r : ℕ) :
    (Rd m).payload (barCell (peer c 4)) r (4 : Fin 8)
      = iprop(∃ f, ((slotM (peer c 4)).view.loc (c : Thread nD τ) ↦[(slotM (peer c 4)).view.set]{fullShare} f : sProp 𝕄)) := by
  have h : peer (peer c 4) 4 = c := peer_invol c 4
  show iprop(∃ f, ((slotM (peer c 4)).view.loc ((peer (peer c 4) ((4 : Fin 8) : ℕ) : Dev nD) : Thread nD τ) ↦[(slotM (peer c 4)).view.set]{fullShare} f : sProp 𝕄)) = _
  rw [show ((4 : Fin 8) : ℕ) = 4 from rfl, h]
theorem t_payload_bar_out_5 (c : Dev nD) (r : ℕ) :
    (Rd m).payload (barCell (peer c 5)) r (5 : Fin 8)
      = iprop(∃ f, ((slotM (peer c 5)).view.loc (c : Thread nD τ) ↦[(slotM (peer c 5)).view.set]{fullShare} f : sProp 𝕄)) := by
  have h : peer (peer c 5) 5 = c := peer_invol c 5
  show iprop(∃ f, ((slotM (peer c 5)).view.loc ((peer (peer c 5) ((5 : Fin 8) : ℕ) : Dev nD) : Thread nD τ) ↦[(slotM (peer c 5)).view.set]{fullShare} f : sProp 𝕄)) = _
  rw [show ((5 : Fin 8) : ℕ) = 5 from rfl, h]
theorem t_payload_bar_out_6 (c : Dev nD) (r : ℕ) :
    (Rd m).payload (barCell (peer c 6)) r (6 : Fin 8)
      = iprop(∃ f, ((slotM (peer c 6)).view.loc (c : Thread nD τ) ↦[(slotM (peer c 6)).view.set]{fullShare} f : sProp 𝕄)) := by
  have h : peer (peer c 6) 6 = c := peer_invol c 6
  show iprop(∃ f, ((slotM (peer c 6)).view.loc ((peer (peer c 6) ((6 : Fin 8) : ℕ) : Dev nD) : Thread nD τ) ↦[(slotM (peer c 6)).view.set]{fullShare} f : sProp 𝕄)) = _
  rw [show ((6 : Fin 8) : ℕ) = 6 from rfl, h]
theorem t_payload_bar_out_7 (c : Dev nD) (r : ℕ) :
    (Rd m).payload (barCell (peer c 7)) r (7 : Fin 8)
      = iprop(∃ f, ((slotM (peer c 7)).view.loc (c : Thread nD τ) ↦[(slotM (peer c 7)).view.set]{fullShare} f : sProp 𝕄)) := by
  have h : peer (peer c 7) 7 = c := peer_invol c 7
  show iprop(∃ f, ((slotM (peer c 7)).view.loc ((peer (peer c 7) ((7 : Fin 8) : ℕ) : Dev nD) : Thread nD τ) ↦[(slotM (peer c 7)).view.set]{fullShare} f : sProp 𝕄)) = _
  rw [show ((7 : Fin 8) : ℕ) = 7 from rfl, h]
attribute [local sl_rounds high] t_payload_bar_out_1 t_payload_bar_out_2 t_payload_bar_out_3 t_payload_bar_out_4 t_payload_bar_out_5 t_payload_bar_out_6 t_payload_bar_out_7

set_option maxHeartbeats 8000000 in
theorem prefix_dev5 (c : Dev nD) (hc : c = 5) (W : Waits sig Unit)
    (κ0 : ℕ) (κb κs κro κri : ℕ → ℕ)
    (fo : Buf (Elt F) (oM.view.loc (c : Thread nD τ)))
    (fb : Buf (Elt F) (bM.view.loc (c : Thread nD τ)))
    (fr : Buf (Elt F) (rM.view.loc (c : Thread nD τ)))
    (fa : Buf (Elt F) (aM.view.loc (c : Thread nD τ)))
    (fk : Buf (Elt F) (wM.view.loc (c : Thread nD τ))) :
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ
          (headProg (F := F))
          (fun ws => iprop(⌜ws.1 = c⌝ ∗ Mid m c (insert (SemLoc.reg barS, ()) W) κs κro κri fo fr fa fk)) := by
  iintro ⟨Hx, Ho, Hb, Hr, Ha, Hk, Hh, Hs0, Hs1, Hsr, HO, #HL, #Ib0, Hatb, Hcrb, #Ib1, Htb1, #Hrb1, #Ib2, Htb2, #Hrb2, #Ib3, Htb3, #Hrb3, #Ib4, Htb4, #Hrb4, #Ib5, Htb5, #Hrb5, #Ib6, Htb6, #Hrb6, #Ib7, Htb7, #Hrb7, #Is0, Hats0, Hts0, #Hrs0, #Iro1, Htro1, #Hrro1, #Iri1, Hatr1, Hcrr1, #Is1, Hats1, Hts1, #Hrs1, #Iro2, Htro2, #Hrro2, #Iri2, Hatr2, Hcrr2, #Is2, Hats2, Hts2, #Hrs2, #Iro3, Htro3, #Hrro3, #Iri3, Hatr3, Hcrr3, #Is3, Hats3, Hts3, #Hrs3, #Iro4, Htro4, #Hrro4, #Iri4, Hatr4, Hcrr4, #Is4, Hats4, Hts4, #Hrs4, #Iro5, Htro5, #Hrro5, #Iri5, Hatr5, Hcrr5, #Is5, Hats5, Hts5, #Hrs5, #Iro6, Htro6, #Hrro6, #Iri6, Hatr6, Hcrr6, #Is6, Hats6, Hts6, #Hrs6, #Iro7, Htro7, #Hrro7, #Iri7, Hatr7, Hcrr7⟩
  have hmb := Levels.mayWait_bar (F := F) c
  have hpeer1 : (4 : Dev nD) = peer c 1 := by subst hc; decide
  have hpeer2 : (6 : Dev nD) = peer c 2 := by subst hc; decide
  have hpeer3 : (1 : Dev nD) = peer c 3 := by subst hc; decide
  have hpeer4 : (7 : Dev nD) = peer c 4 := by subst hc; decide
  have hpeer5 : (0 : Dev nD) = peer c 5 := by subst hc; decide
  have hpeer6 : (2 : Dev nD) = peer c 6 := by subst hc; decide
  have hpeer7 : (3 : Dev nD) = peer c 7 := by subst hc; decide
  have hO : (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1 : CellTallies nD τ sig Unit)
      = (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 4)) () 1 + tallyAt (barCell (peer c 2)) () 1 + tallyAt (barCell (peer c 1)) () 1 + tallyAt (barCell (peer c 7)) () 1 + tallyAt (barCell (peer c 6)) () 1 + tallyAt (barCell (peer c 3)) () 1 + tallyAt (barCell (peer c 5)) () 1) := by ac_rfl
  icases (entails_of_eq' (congrArg (fun O => (owes (c : Thread nD τ) O W : sProp 𝕄)) hO)) $$ HO with HO
  icases (entails_of_eq' (Cuts.wbuf_cut (F := F) c fk)) $$ Hk with ⟨Hk0, Hk1⟩
  sl_unfold [headProg]
  set_option sl_exec.stopBefore "k0_cond1" in sl_exec_parts (disch := first | (subst hc; decide))
  icases (entails_of_eq' (Cuts.recv_cut_peer_chain (F := F) c fr)) $$ Hr with ⟨Hr0, Hr1, Hr2, Hr3, Hr4, Hr5, Hr6, Hr7⟩
  irevert Hr5 Hr3 Hr6 Hr7 Hr1 Hr2 Hr4 Hr0
  iintro Hr5 Hr3 Hr6 Hr7 Hr1 Hr2 Hr4 Hr0
  sl_exec_parts (disch := first | (subst hc; decide))
  icases (sep7 _ _ _ _ _ _ _) $$ Hatb_pay1 with ⟨⟨%g1, Hd1⟩, ⟨%g2, Hd2⟩, ⟨%g3, Hd3⟩, ⟨%g4, Hd4⟩, ⟨%g5, Hd5⟩, ⟨%g6, Hd6⟩, ⟨%g7, Hd7⟩⟩
  icases (xb_pts m c fb) $$ Hb with Hb
  icases (entails_of_eq' (Cuts.copy_cut_body (F := F) c (xbC m c))) $$ Hb with ⟨Hown, Hrow0, Hrow1, Hrow2, Hrow3, Hrow4, Hrow5, Hrow6⟩
  iapply (send_step m c 0 1 rfl (κs 0) (κro 1) _ _ rfl _ g1) $$ [Hrow0 Hd1 HO Hts0 Htro1]
  · sl_close
  iintro ⟨Hcs0, HO⟩
  sl_exec_parts (disch := first | (subst hc; decide))
  sl_step
  isplitr
  · ipureintro; rfl
  unfold Mid
  sl_close

end Cert.KernelIdeal.BodyProof

end
-- ==== Proof.BodyDev6.lean ====
/- The entry stretch of the body on device 6: the cast of the device's block of x into its half-precision copy, the
   first copy of a block of w, the handshake on the barrier semaphore (a unit to every other device, each handing
   that device the slot of this device's receive buffer it writes; then the wait for the seven units, each handing
   this device its slot of a partner's buffer), and the first transfer of 512 rows to the first partner. The guards
   of the eight signals and the partners are decided at this device; everything else is stated at the device c. -/
import proofs.«900487_g7700000000000488_dist_a2a_gemm_m4096_k4096_n8192_f32_gelu_v7x_i8_1_alg».proof.Proof.Sched
import proofs.«900487_g7700000000000488_dist_a2a_gemm_m4096_k4096_n8192_f32_gelu_v7x_i8_1_alg».proof.Proof.Levels
import proofs.«900487_g7700000000000488_dist_a2a_gemm_m4096_k4096_n8192_f32_gelu_v7x_i8_1_alg».proof.Proof.SchedTables
import proofs.«900487_g7700000000000488_dist_a2a_gemm_m4096_k4096_n8192_f32_gelu_v7x_i8_1_alg».proof.Proof.Cuts
import proofs.«900487_g7700000000000488_dist_a2a_gemm_m4096_k4096_n8192_f32_gelu_v7x_i8_1_alg».proof.Proof.CutsBody
import proofs.«900487_g7700000000000488_dist_a2a_gemm_m4096_k4096_n8192_f32_gelu_v7x_i8_1_alg».proof.Proof.BodyLemmas
import proofs.«900487_g7700000000000488_dist_a2a_gemm_m4096_k4096_n8192_f32_gelu_v7x_i8_1_alg».proof.Proof.BodyMid
import Idealize.ShloMosaic.Lib.Pipeline.Launch
import Idealize.ShloMosaic.Lib.Pipeline.Kit
import Idealize.ShloMosaic.Lib.Ring
import Idealize.ShloMosaic.Lib.Tactic

noncomputable section

namespace Cert.KernelIdeal.BodyProof

open Cert.KernelIdeal Cert.KernelIdeal.Gen Cert.KernelIdeal.Devs Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The barrier duty a device pays on its k-th partner's cell hands over the slot of ITS OWN buffer that partner writes -/
theorem t_payload_bar_out_1 (c : Dev nD) (r : ℕ) :
    (Rd m).payload (barCell (peer c 1)) r (1 : Fin 8)
      = iprop(∃ f, ((slotM (peer c 1)).view.loc (c : Thread nD τ) ↦[(slotM (peer c 1)).view.set]{fullShare} f : sProp 𝕄)) := by
  have h : peer (peer c 1) 1 = c := peer_invol c 1
  show iprop(∃ f, ((slotM (peer c 1)).view.loc ((peer (peer c 1) ((1 : Fin 8) : ℕ) : Dev nD) : Thread nD τ) ↦[(slotM (peer c 1)).view.set]{fullShare} f : sProp 𝕄)) = _
  rw [show ((1 : Fin 8) : ℕ) = 1 from rfl, h]
theorem t_payload_bar_out_2 (c : Dev nD) (r : ℕ) :
    (Rd m).payload (barCell (peer c 2)) r (2 : Fin 8)
      = iprop(∃ f, ((slotM (peer c 2)).view.loc (c : Thread nD τ) ↦[(slotM (peer c 2)).view.set]{fullShare} f : sProp 𝕄)) := by
  have h : peer (peer c 2) 2 = c := peer_invol c 2
  show iprop(∃ f, ((slotM (peer c 2)).view.loc ((peer (peer c 2) ((2 : Fin 8) : ℕ) : Dev nD) : Thread nD τ) ↦[(slotM (peer c 2)).view.set]{fullShare} f : sProp 𝕄)) = _
  rw [show ((2 : Fin 8) : ℕ) = 2 from rfl, h]
theorem t_payload_bar_out_3 (c : Dev nD) (r : ℕ) :
    (Rd m).payload (barCell (peer c 3)) r (3 : Fin 8)
      = iprop(∃ f, ((slotM (peer c 3)).view.loc (c : Thread nD τ) ↦[(slotM (peer c 3)).view.set]{fullShare} f : sProp 𝕄)) := by
  have h : peer (peer c 3) 3 = c := peer_invol c 3
  show iprop(∃ f, ((slotM (peer c 3)).view.loc ((peer (peer c 3) ((3 : Fin 8) : ℕ) : Dev nD) : Thread nD τ) ↦[(slotM (peer c 3)).view.set]{fullShare} f : sProp 𝕄)) = _
  rw [show ((3 : Fin 8) : ℕ) = 3 from rfl, h]
theorem t_payload_bar_out_4 (c : Dev nD) (r : ℕ) :
    (Rd m).payload (barCell (peer c 4)) r (4 : Fin 8)
      = iprop(∃ f, ((slotM (peer c 4)).view.loc (c : Thread nD τ) ↦[(slotM (peer c 4)).view.set]{fullShare} f : sProp 𝕄)) := by
  have h : peer (peer c 4) 4 = c := peer_invol c 4
  show iprop(∃ f, ((slotM (peer c 4)).view.loc ((peer (peer c 4) ((4 : Fin 8) : ℕ) : Dev nD) : Thread nD τ) ↦[(slotM (peer c 4)).view.set]{fullShare} f : sProp 𝕄)) = _
  rw [show ((4 : Fin 8) : ℕ) = 4 from rfl, h]
theorem t_payload_bar_out_5 (c : Dev nD) (r : ℕ) :
    (Rd m).payload (barCell (peer c 5)) r (5 : Fin 8)
      = iprop(∃ f, ((slotM (peer c 5)).view.loc (c : Thread nD τ) ↦[(slotM (peer c 5)).view.set]{fullShare} f : sProp 𝕄)) := by
  have h : peer (peer c 5) 5 = c := peer_invol c 5
  show iprop(∃ f, ((slotM (peer c 5)).view.loc ((peer (peer c 5) ((5 : Fin 8) : ℕ) : Dev nD) : Thread nD τ) ↦[(slotM (peer c 5)).view.set]{fullShare} f : sProp 𝕄)) = _
  rw [show ((5 : Fin 8) : ℕ) = 5 from rfl, h]
theorem t_payload_bar_out_6 (c : Dev nD) (r : ℕ) :
    (Rd m).payload (barCell (peer c 6)) r (6 : Fin 8)
      = iprop(∃ f, ((slotM (peer c 6)).view.loc (c : Thread nD τ) ↦[(slotM (peer c 6)).view.set]{fullShare} f : sProp 𝕄)) := by
  have h : peer (peer c 6) 6 = c := peer_invol c 6
  show iprop(∃ f, ((slotM (peer c 6)).view.loc ((peer (peer c 6) ((6 : Fin 8) : ℕ) : Dev nD) : Thread nD τ) ↦[(slotM (peer c 6)).view.set]{fullShare} f : sProp 𝕄)) = _
  rw [show ((6 : Fin 8) : ℕ) = 6 from rfl, h]
theorem t_payload_bar_out_7 (c : Dev nD) (r : ℕ) :
    (Rd m).payload (barCell (peer c 7)) r (7 : Fin 8)
      = iprop(∃ f, ((slotM (peer c 7)).view.loc (c : Thread nD τ) ↦[(slotM (peer c 7)).view.set]{fullShare} f : sProp 𝕄)) := by
  have h : peer (peer c 7) 7 = c := peer_invol c 7
  show iprop(∃ f, ((slotM (peer c 7)).view.loc ((peer (peer c 7) ((7 : Fin 8) : ℕ) : Dev nD) : Thread nD τ) ↦[(slotM (peer c 7)).view.set]{fullShare} f : sProp 𝕄)) = _
  rw [show ((7 : Fin 8) : ℕ) = 7 from rfl, h]
attribute [local sl_rounds high] t_payload_bar_out_1 t_payload_bar_out_2 t_payload_bar_out_3 t_payload_bar_out_4 t_payload_bar_out_5 t_payload_bar_out_6 t_payload_bar_out_7

set_option maxHeartbeats 8000000 in
theorem prefix_dev6 (c : Dev nD) (hc : c = 6) (W : Waits sig Unit)
    (κ0 : ℕ) (κb κs κro κri : ℕ → ℕ)
    (fo : Buf (Elt F) (oM.view.loc (c : Thread nD τ)))
    (fb : Buf (Elt F) (bM.view.loc (c : Thread nD τ)))
    (fr : Buf (Elt F) (rM.view.loc (c : Thread nD τ)))
    (fa : Buf (Elt F) (aM.view.loc (c : Thread nD τ)))
    (fk : Buf (Elt F) (wM.view.loc (c : Thread nD τ))) :
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ
          (headProg (F := F))
          (fun ws => iprop(⌜ws.1 = c⌝ ∗ Mid m c (insert (SemLoc.reg barS, ()) W) κs κro κri fo fr fa fk)) := by
  iintro ⟨Hx, Ho, Hb, Hr, Ha, Hk, Hh, Hs0, Hs1, Hsr, HO, #HL, #Ib0, Hatb, Hcrb, #Ib1, Htb1, #Hrb1, #Ib2, Htb2, #Hrb2, #Ib3, Htb3, #Hrb3, #Ib4, Htb4, #Hrb4, #Ib5, Htb5, #Hrb5, #Ib6, Htb6, #Hrb6, #Ib7, Htb7, #Hrb7, #Is0, Hats0, Hts0, #Hrs0, #Iro1, Htro1, #Hrro1, #Iri1, Hatr1, Hcrr1, #Is1, Hats1, Hts1, #Hrs1, #Iro2, Htro2, #Hrro2, #Iri2, Hatr2, Hcrr2, #Is2, Hats2, Hts2, #Hrs2, #Iro3, Htro3, #Hrro3, #Iri3, Hatr3, Hcrr3, #Is3, Hats3, Hts3, #Hrs3, #Iro4, Htro4, #Hrro4, #Iri4, Hatr4, Hcrr4, #Is4, Hats4, Hts4, #Hrs4, #Iro5, Htro5, #Hrro5, #Iri5, Hatr5, Hcrr5, #Is5, Hats5, Hts5, #Hrs5, #Iro6, Htro6, #Hrro6, #Iri6, Hatr6, Hcrr6, #Is6, Hats6, Hts6, #Hrs6, #Iro7, Htro7, #Hrro7, #Iri7, Hatr7, Hcrr7⟩
  have hmb := Levels.mayWait_bar (F := F) c
  have hpeer1 : (7 : Dev nD) = peer c 1 := by subst hc; decide
  have hpeer2 : (5 : Dev nD) = peer c 2 := by subst hc; decide
  have hpeer3 : (2 : Dev nD) = peer c 3 := by subst hc; decide
  have hpeer4 : (4 : Dev nD) = peer c 4 := by subst hc; decide
  have hpeer5 : (3 : Dev nD) = peer c 5 := by subst hc; decide
  have hpeer6 : (1 : Dev nD) = peer c 6 := by subst hc; decide
  have hpeer7 : (0 : Dev nD) = peer c 7 := by subst hc; decide
  have hO : (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1 : CellTallies nD τ sig Unit)
      = (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 1)) () 1 + tallyAt (barCell (peer c 2)) () 1 + tallyAt (barCell (peer c 4)) () 1 + tallyAt (barCell (peer c 5)) () 1 + tallyAt (barCell (peer c 3)) () 1 + tallyAt (barCell (peer c 6)) () 1 + tallyAt (barCell (peer c 7)) () 1) := by ac_rfl
  icases (entails_of_eq' (congrArg (fun O => (owes (c : Thread nD τ) O W : sProp 𝕄)) hO)) $$ HO with HO
  icases (entails_of_eq' (Cuts.wbuf_cut (F := F) c fk)) $$ Hk with ⟨Hk0, Hk1⟩
  sl_unfold [headProg]
  set_option sl_exec.stopBefore "k0_cond1" in sl_exec_parts (disch := first | (subst hc; decide))
  icases (entails_of_eq' (Cuts.recv_cut_peer_chain (F := F) c fr)) $$ Hr with ⟨Hr0, Hr1, Hr2, Hr3, Hr4, Hr5, Hr6, Hr7⟩
  irevert Hr7 Hr6 Hr3 Hr5 Hr4 Hr2 Hr1 Hr0
  iintro Hr7 Hr6 Hr3 Hr5 Hr4 Hr2 Hr1 Hr0
  sl_exec_parts (disch := first | (subst hc; decide))
  icases (sep7 _ _ _ _ _ _ _) $$ Hatb_pay1 with ⟨⟨%g1, Hd1⟩, ⟨%g2, Hd2⟩, ⟨%g3, Hd3⟩, ⟨%g4, Hd4⟩, ⟨%g5, Hd5⟩, ⟨%g6, Hd6⟩, ⟨%g7, Hd7⟩⟩
  icases (xb_pts m c fb) $$ Hb with Hb
  icases (entails_of_eq' (Cuts.copy_cut_body (F := F) c (xbC m c))) $$ Hb with ⟨Hown, Hrow0, Hrow1, Hrow2, Hrow3, Hrow4, Hrow5, Hrow6⟩
  iapply (send_step m c 0 1 rfl (κs 0) (κro 1) _ _ rfl _ g1) $$ [Hrow0 Hd1 HO Hts0 Htro1]
  · sl_close
  iintro ⟨Hcs0, HO⟩
  sl_exec_parts (disch := first | (subst hc; decide))
  sl_step
  isplitr
  · ipureintro; rfl
  unfold Mid
  sl_close

end Cert.KernelIdeal.BodyProof

end
-- ==== Proof.BodyDev7.lean ====
/- The entry stretch of the body on device 7: the cast of the device's block of x into its half-precision copy, the
   first copy of a block of w, the handshake on the barrier semaphore (a unit to every other device, each handing
   that device the slot of this device's receive buffer it writes; then the wait for the seven units, each handing
   this device its slot of a partner's buffer), and the first transfer of 512 rows to the first partner. The guards
   of the eight signals and the partners are decided at this device; everything else is stated at the device c. -/
import proofs.«900487_g7700000000000488_dist_a2a_gemm_m4096_k4096_n8192_f32_gelu_v7x_i8_1_alg».proof.Proof.Sched
import proofs.«900487_g7700000000000488_dist_a2a_gemm_m4096_k4096_n8192_f32_gelu_v7x_i8_1_alg».proof.Proof.Levels
import proofs.«900487_g7700000000000488_dist_a2a_gemm_m4096_k4096_n8192_f32_gelu_v7x_i8_1_alg».proof.Proof.SchedTables
import proofs.«900487_g7700000000000488_dist_a2a_gemm_m4096_k4096_n8192_f32_gelu_v7x_i8_1_alg».proof.Proof.Cuts
import proofs.«900487_g7700000000000488_dist_a2a_gemm_m4096_k4096_n8192_f32_gelu_v7x_i8_1_alg».proof.Proof.CutsBody
import proofs.«900487_g7700000000000488_dist_a2a_gemm_m4096_k4096_n8192_f32_gelu_v7x_i8_1_alg».proof.Proof.BodyLemmas
import proofs.«900487_g7700000000000488_dist_a2a_gemm_m4096_k4096_n8192_f32_gelu_v7x_i8_1_alg».proof.Proof.BodyMid
import Idealize.ShloMosaic.Lib.Pipeline.Launch
import Idealize.ShloMosaic.Lib.Pipeline.Kit
import Idealize.ShloMosaic.Lib.Ring
import Idealize.ShloMosaic.Lib.Tactic

noncomputable section

namespace Cert.KernelIdeal.BodyProof

open Cert.KernelIdeal Cert.KernelIdeal.Gen Cert.KernelIdeal.Devs Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The barrier duty a device pays on its k-th partner's cell hands over the slot of ITS OWN buffer that partner writes -/
theorem t_payload_bar_out_1 (c : Dev nD) (r : ℕ) :
    (Rd m).payload (barCell (peer c 1)) r (1 : Fin 8)
      = iprop(∃ f, ((slotM (peer c 1)).view.loc (c : Thread nD τ) ↦[(slotM (peer c 1)).view.set]{fullShare} f : sProp 𝕄)) := by
  have h : peer (peer c 1) 1 = c := peer_invol c 1
  show iprop(∃ f, ((slotM (peer c 1)).view.loc ((peer (peer c 1) ((1 : Fin 8) : ℕ) : Dev nD) : Thread nD τ) ↦[(slotM (peer c 1)).view.set]{fullShare} f : sProp 𝕄)) = _
  rw [show ((1 : Fin 8) : ℕ) = 1 from rfl, h]
theorem t_payload_bar_out_2 (c : Dev nD) (r : ℕ) :
    (Rd m).payload (barCell (peer c 2)) r (2 : Fin 8)
      = iprop(∃ f, ((slotM (peer c 2)).view.loc (c : Thread nD τ) ↦[(slotM (peer c 2)).view.set]{fullShare} f : sProp 𝕄)) := by
  have h : peer (peer c 2) 2 = c := peer_invol c 2
  show iprop(∃ f, ((slotM (peer c 2)).view.loc ((peer (peer c 2) ((2 : Fin 8) : ℕ) : Dev nD) : Thread nD τ) ↦[(slotM (peer c 2)).view.set]{fullShare} f : sProp 𝕄)) = _
  rw [show ((2 : Fin 8) : ℕ) = 2 from rfl, h]
theorem t_payload_bar_out_3 (c : Dev nD) (r : ℕ) :
    (Rd m).payload (barCell (peer c 3)) r (3 : Fin 8)
      = iprop(∃ f, ((slotM (peer c 3)).view.loc (c : Thread nD τ) ↦[(slotM (peer c 3)).view.set]{fullShare} f : sProp 𝕄)) := by
  have h : peer (peer c 3) 3 = c := peer_invol c 3
  show iprop(∃ f, ((slotM (peer c 3)).view.loc ((peer (peer c 3) ((3 : Fin 8) : ℕ) : Dev nD) : Thread nD τ) ↦[(slotM (peer c 3)).view.set]{fullShare} f : sProp 𝕄)) = _
  rw [show ((3 : Fin 8) : ℕ) = 3 from rfl, h]
theorem t_payload_bar_out_4 (c : Dev nD) (r : ℕ) :
    (Rd m).payload (barCell (peer c 4)) r (4 : Fin 8)
      = iprop(∃ f, ((slotM (peer c 4)).view.loc (c : Thread nD τ) ↦[(slotM (peer c 4)).view.set]{fullShare} f : sProp 𝕄)) := by
  have h : peer (peer c 4) 4 = c := peer_invol c 4
  show iprop(∃ f, ((slotM (peer c 4)).view.loc ((peer (peer c 4) ((4 : Fin 8) : ℕ) : Dev nD) : Thread nD τ) ↦[(slotM (peer c 4)).view.set]{fullShare} f : sProp 𝕄)) = _
  rw [show ((4 : Fin 8) : ℕ) = 4 from rfl, h]
theorem t_payload_bar_out_5 (c : Dev nD) (r : ℕ) :
    (Rd m).payload (barCell (peer c 5)) r (5 : Fin 8)
      = iprop(∃ f, ((slotM (peer c 5)).view.loc (c : Thread nD τ) ↦[(slotM (peer c 5)).view.set]{fullShare} f : sProp 𝕄)) := by
  have h : peer (peer c 5) 5 = c := peer_invol c 5
  show iprop(∃ f, ((slotM (peer c 5)).view.loc ((peer (peer c 5) ((5 : Fin 8) : ℕ) : Dev nD) : Thread nD τ) ↦[(slotM (peer c 5)).view.set]{fullShare} f : sProp 𝕄)) = _
  rw [show ((5 : Fin 8) : ℕ) = 5 from rfl, h]
theorem t_payload_bar_out_6 (c : Dev nD) (r : ℕ) :
    (Rd m).payload (barCell (peer c 6)) r (6 : Fin 8)
      = iprop(∃ f, ((slotM (peer c 6)).view.loc (c : Thread nD τ) ↦[(slotM (peer c 6)).view.set]{fullShare} f : sProp 𝕄)) := by
  have h : peer (peer c 6) 6 = c := peer_invol c 6
  show iprop(∃ f, ((slotM (peer c 6)).view.loc ((peer (peer c 6) ((6 : Fin 8) : ℕ) : Dev nD) : Thread nD τ) ↦[(slotM (peer c 6)).view.set]{fullShare} f : sProp 𝕄)) = _
  rw [show ((6 : Fin 8) : ℕ) = 6 from rfl, h]
theorem t_payload_bar_out_7 (c : Dev nD) (r : ℕ) :
    (Rd m).payload (barCell (peer c 7)) r (7 : Fin 8)
      = iprop(∃ f, ((slotM (peer c 7)).view.loc (c : Thread nD τ) ↦[(slotM (peer c 7)).view.set]{fullShare} f : sProp 𝕄)) := by
  have h : peer (peer c 7) 7 = c := peer_invol c 7
  show iprop(∃ f, ((slotM (peer c 7)).view.loc ((peer (peer c 7) ((7 : Fin 8) : ℕ) : Dev nD) : Thread nD τ) ↦[(slotM (peer c 7)).view.set]{fullShare} f : sProp 𝕄)) = _
  rw [show ((7 : Fin 8) : ℕ) = 7 from rfl, h]
attribute [local sl_rounds high] t_payload_bar_out_1 t_payload_bar_out_2 t_payload_bar_out_3 t_payload_bar_out_4 t_payload_bar_out_5 t_payload_bar_out_6 t_payload_bar_out_7

set_option maxHeartbeats 8000000 in
theorem prefix_dev7 (c : Dev nD) (hc : c = 7) (W : Waits sig Unit)
    (κ0 : ℕ) (κb κs κro κri : ℕ → ℕ)
    (fo : Buf (Elt F) (oM.view.loc (c : Thread nD τ)))
    (fb : Buf (Elt F) (bM.view.loc (c : Thread nD τ)))
    (fr : Buf (Elt F) (rM.view.loc (c : Thread nD τ)))
    (fa : Buf (Elt F) (aM.view.loc (c : Thread nD τ)))
    (fk : Buf (Elt F) (wM.view.loc (c : Thread nD τ))) :
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ
          (headProg (F := F))
          (fun ws => iprop(⌜ws.1 = c⌝ ∗ Mid m c (insert (SemLoc.reg barS, ()) W) κs κro κri fo fr fa fk)) := by
  iintro ⟨Hx, Ho, Hb, Hr, Ha, Hk, Hh, Hs0, Hs1, Hsr, HO, #HL, #Ib0, Hatb, Hcrb, #Ib1, Htb1, #Hrb1, #Ib2, Htb2, #Hrb2, #Ib3, Htb3, #Hrb3, #Ib4, Htb4, #Hrb4, #Ib5, Htb5, #Hrb5, #Ib6, Htb6, #Hrb6, #Ib7, Htb7, #Hrb7, #Is0, Hats0, Hts0, #Hrs0, #Iro1, Htro1, #Hrro1, #Iri1, Hatr1, Hcrr1, #Is1, Hats1, Hts1, #Hrs1, #Iro2, Htro2, #Hrro2, #Iri2, Hatr2, Hcrr2, #Is2, Hats2, Hts2, #Hrs2, #Iro3, Htro3, #Hrro3, #Iri3, Hatr3, Hcrr3, #Is3, Hats3, Hts3, #Hrs3, #Iro4, Htro4, #Hrro4, #Iri4, Hatr4, Hcrr4, #Is4, Hats4, Hts4, #Hrs4, #Iro5, Htro5, #Hrro5, #Iri5, Hatr5, Hcrr5, #Is5, Hats5, Hts5, #Hrs5, #Iro6, Htro6, #Hrro6, #Iri6, Hatr6, Hcrr6, #Is6, Hats6, Hts6, #Hrs6, #Iro7, Htro7, #Hrro7, #Iri7, Hatr7, Hcrr7⟩
  have hmb := Levels.mayWait_bar (F := F) c
  have hpeer1 : (6 : Dev nD) = peer c 1 := by subst hc; decide
  have hpeer2 : (4 : Dev nD) = peer c 2 := by subst hc; decide
  have hpeer3 : (3 : Dev nD) = peer c 3 := by subst hc; decide
  have hpeer4 : (5 : Dev nD) = peer c 4 := by subst hc; decide
  have hpeer5 : (2 : Dev nD) = peer c 5 := by subst hc; decide
  have hpeer6 : (0 : Dev nD) = peer c 6 := by subst hc; decide
  have hpeer7 : (1 : Dev nD) = peer c 7 := by subst hc; decide
  have hO : (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1 : CellTallies nD τ sig Unit)
      = (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 1)) () 1 + tallyAt (barCell (peer c 4)) () 1 + tallyAt (barCell (peer c 2)) () 1 + tallyAt (barCell (peer c 3)) () 1 + tallyAt (barCell (peer c 5)) () 1 + tallyAt (barCell (peer c 7)) () 1 + tallyAt (barCell (peer c 6)) () 1) := by ac_rfl
  icases (entails_of_eq' (congrArg (fun O => (owes (c : Thread nD τ) O W : sProp 𝕄)) hO)) $$ HO with HO
  icases (entails_of_eq' (Cuts.wbuf_cut (F := F) c fk)) $$ Hk with ⟨Hk0, Hk1⟩
  sl_unfold [headProg]
  set_option sl_exec.stopBefore "k0_cond1" in sl_exec_parts (disch := first | (subst hc; decide))
  icases (entails_of_eq' (Cuts.recv_cut_peer_chain (F := F) c fr)) $$ Hr with ⟨Hr0, Hr1, Hr2, Hr3, Hr4, Hr5, Hr6, Hr7⟩
  irevert Hr6 Hr7 Hr5 Hr3 Hr2 Hr4 Hr1 Hr0
  iintro Hr6 Hr7 Hr5 Hr3 Hr2 Hr4 Hr1 Hr0
  sl_exec_parts (disch := first | (subst hc; decide))
  icases (sep7 _ _ _ _ _ _ _) $$ Hatb_pay1 with ⟨⟨%g1, Hd1⟩, ⟨%g2, Hd2⟩, ⟨%g3, Hd3⟩, ⟨%g4, Hd4⟩, ⟨%g5, Hd5⟩, ⟨%g6, Hd6⟩, ⟨%g7, Hd7⟩⟩
  icases (xb_pts m c fb) $$ Hb with Hb
  icases (entails_of_eq' (Cuts.copy_cut_body (F := F) c (xbC m c))) $$ Hb with ⟨Hown, Hrow0, Hrow1, Hrow2, Hrow3, Hrow4, Hrow5, Hrow6⟩
  iapply (send_step m c 0 1 rfl (κs 0) (κro 1) _ _ rfl _ g1) $$ [Hrow0 Hd1 HO Hts0 Htro1]
  · sl_close
  iintro ⟨Hcs0, HO⟩
  sl_exec_parts (disch := first | (subst hc; decide))
  sl_step
  isplitr
  · ipureintro; rfl
  unfold Mid
  sl_close

end Cert.KernelIdeal.BodyProof

end
-- ==== Proof.BodyTail.lean ====
/- The end of one device's body: from what the run holds when the program returns — the half-precision copy of x and
   the receive buffer by pieces, the two slots of the double buffer of w, the send cells and the receive cells each with
   its one round consumed — to what the pipeline takes back: the scratch buffers whole, at some contents, and every
   own semaphore at zero. A cell whose only round is consumed and that has no later round is closed, which gives its
   counter back at zero; pieces held at any contents join to the buffer held whole. -/
import proofs.«900487_g7700000000000488_dist_a2a_gemm_m4096_k4096_n8192_f32_gelu_v7x_i8_1_alg».proof.Proof.SchedTables
import proofs.«900487_g7700000000000488_dist_a2a_gemm_m4096_k4096_n8192_f32_gelu_v7x_i8_1_alg».proof.Proof.CutsBody

noncomputable section

namespace Cert.KernelIdeal.BodyProof

open Cert.KernelIdeal Cert.KernelIdeal.Gen Cert.KernelIdeal.Devs Cert.KernelIdeal.Proto Cert.KernelIdeal.Cuts

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A cell past its one round closes: no round from 1 on has a duty, and no cell of the schedule takes a contribution
    of no unit; its counter, at zero, is the device's again. -/
theorem close_cell (κ : ℕ) (g : GSem nD τ sig) :
    iprop(cellInv ER (Rd m) κ g ∗ atPos ER g 1 ∅ 0) ⊢ (iprop(|={Set.univ}=> semVal g 0) : sProp 𝕄) :=
  Rounds.cell_close ER (Rd m) (Set.mem_univ κ) (fun h => h) (R := 1) (fun r hr => duties_later m g r hr)

set_option maxRecDepth 8000 in
set_option maxHeartbeats 1600000 in
theorem body_tail (c : Dev nD) (X : Buf (Elt F) (oM.view.loc (c : Thread nD τ))) (W : Waits sig Unit) (κs κri : ℕ → ℕ)
    (fr : Buf (Elt F) (rM.view.loc (c : Thread nD τ)))
    (fa : Buf (Elt F) (aM.view.loc (c : Thread nD τ)))
    (fk0 fk1 : Buf (Elt F) (wM.view.loc (c : Thread nD τ))) :
    iprop((xM.view.loc (c : Thread nD τ) ↦{fullShare} xstg m c)
      ∗ (oM.view.loc (c : Thread nD τ) ↦{fullShare} X)
      ∗ ((bM.slice (Rect.unit (s := S4096x512) (k0_off6 c) S512x512.size (k0_off6_inb c)) (fun _ => rfl)).view.loc (c : Thread nD τ) ↦[(bM.slice (Rect.unit (s := S4096x512) (k0_off6 c) S512x512.size (k0_off6_inb c)) (fun _ => rfl)).view.set]{fullShare} xbC m c)
      ∗ ((rowsM c 0).view.loc (c : Thread nD τ) ↦[(rowsM c 0).view.set]{fullShare} xbC m c)
      ∗ ((rowsM c 1).view.loc (c : Thread nD τ) ↦[(rowsM c 1).view.set]{fullShare} xbC m c)
      ∗ ((rowsM c 2).view.loc (c : Thread nD τ) ↦[(rowsM c 2).view.set]{fullShare} xbC m c)
      ∗ ((rowsM c 3).view.loc (c : Thread nD τ) ↦[(rowsM c 3).view.set]{fullShare} xbC m c)
      ∗ ((rowsM c 4).view.loc (c : Thread nD τ) ↦[(rowsM c 4).view.set]{fullShare} xbC m c)
      ∗ ((rowsM c 5).view.loc (c : Thread nD τ) ↦[(rowsM c 5).view.set]{fullShare} xbC m c)
      ∗ ((rowsM c 6).view.loc (c : Thread nD τ) ↦[(rowsM c 6).view.set]{fullShare} xbC m c)
      ∗ ((slotM (peer c 0)).view.loc (c : Thread nD τ) ↦[(slotM (peer c 0)).view.set]{fullShare} fr)
      ∗ ((slotM (peer c 1)).view.loc (c : Thread nD τ) ↦[(slotM (peer c 1)).view.set]{fullShare} landed m c (peer c 1))
      ∗ ((slotM (peer c 2)).view.loc (c : Thread nD τ) ↦[(slotM (peer c 2)).view.set]{fullShare} landed m c (peer c 2))
      ∗ ((slotM (peer c 3)).view.loc (c : Thread nD τ) ↦[(slotM (peer c 3)).view.set]{fullShare} landed m c (peer c 3))
      ∗ ((slotM (peer c 4)).view.loc (c : Thread nD τ) ↦[(slotM (peer c 4)).view.set]{fullShare} landed m c (peer c 4))
      ∗ ((slotM (peer c 5)).view.loc (c : Thread nD τ) ↦[(slotM (peer c 5)).view.set]{fullShare} landed m c (peer c 5))
      ∗ ((slotM (peer c 6)).view.loc (c : Thread nD τ) ↦[(slotM (peer c 6)).view.set]{fullShare} landed m c (peer c 6))
      ∗ ((slotM (peer c 7)).view.loc (c : Thread nD τ) ↦[(slotM (peer c 7)).view.set]{fullShare} landed m c (peer c 7))
      ∗ (aM.view.loc (c : Thread nD τ) ↦{fullShare} fa)
      ∗ (((wM.slice (Rect.unit (s := S2x512x4096) ![0, 0, 0] S1x512x4096.size inb_S2x512x4096_S1x512x4096_0_0_0) (fun _ => rfl)).squeeze S512x4096 squeezes_S1x512x4096_S512x4096).view.loc (c : Thread nD τ) ↦[((wM.slice (Rect.unit (s := S2x512x4096) ![0, 0, 0] S1x512x4096.size inb_S2x512x4096_S1x512x4096_0_0_0) (fun _ => rfl)).squeeze S512x4096 squeezes_S1x512x4096_S512x4096).view.set]{fullShare} fk0)
      ∗ (((wM.slice (Rect.unit (s := S2x512x4096) ![1, 0, 0] S1x512x4096.size inb_S2x512x4096_S1x512x4096_1_0_0) (fun _ => rfl)).squeeze S512x4096 squeezes_S1x512x4096_S512x4096).view.loc (c : Thread nD τ) ↦[((wM.slice (Rect.unit (s := S2x512x4096) ![1, 0, 0] S1x512x4096.size inb_S2x512x4096_S1x512x4096_1_0_0) (fun _ => rfl)).squeeze S512x4096 squeezes_S1x512x4096_S512x4096).view.set]{fullShare} fk1)
      ∗ (hM.view.loc (c : Thread nD τ) ↦{fullShare} warr m c)
      ∗ semVal ((c : Thread nD τ), SemLoc.dma (recvSem c)) 0
      ∗ semVal ((c : Thread nD τ), SemLoc.dma (wSem 0)) 0
      ∗ semVal ((c : Thread nD τ), SemLoc.dma (wSem 1)) 0
      ∗ owes (c : Thread nD τ) 0 W
      ∗ cellInv ER (Rd m) (κs 0) (sendCell c 0)
      ∗ atPos ER (sendCell c 0) 1 ∅ 0
      ∗ cellInv ER (Rd m) (κs 1) (sendCell c 1)
      ∗ atPos ER (sendCell c 1) 1 ∅ 0
      ∗ cellInv ER (Rd m) (κs 2) (sendCell c 2)
      ∗ atPos ER (sendCell c 2) 1 ∅ 0
      ∗ cellInv ER (Rd m) (κs 3) (sendCell c 3)
      ∗ atPos ER (sendCell c 3) 1 ∅ 0
      ∗ cellInv ER (Rd m) (κs 4) (sendCell c 4)
      ∗ atPos ER (sendCell c 4) 1 ∅ 0
      ∗ cellInv ER (Rd m) (κs 5) (sendCell c 5)
      ∗ atPos ER (sendCell c 5) 1 ∅ 0
      ∗ cellInv ER (Rd m) (κs 6) (sendCell c 6)
      ∗ atPos ER (sendCell c 6) 1 ∅ 0
      ∗ cellInv ER (Rd m) (κri 1) (recvCell c (peer c 1))
      ∗ atPos ER (recvCell c (peer c 1)) 1 ∅ 0
      ∗ cellInv ER (Rd m) (κri 2) (recvCell c (peer c 2))
      ∗ atPos ER (recvCell c (peer c 2)) 1 ∅ 0
      ∗ cellInv ER (Rd m) (κri 3) (recvCell c (peer c 3))
      ∗ atPos ER (recvCell c (peer c 3)) 1 ∅ 0
      ∗ cellInv ER (Rd m) (κri 4) (recvCell c (peer c 4))
      ∗ atPos ER (recvCell c (peer c 4)) 1 ∅ 0
      ∗ cellInv ER (Rd m) (κri 5) (recvCell c (peer c 5))
      ∗ atPos ER (recvCell c (peer c 5)) 1 ∅ 0
      ∗ cellInv ER (Rd m) (κri 6) (recvCell c (peer c 6))
      ∗ atPos ER (recvCell c (peer c 6)) 1 ∅ 0
      ∗ cellInv ER (Rd m) (κri 7) (recvCell c (peer c 7))
      ∗ atPos ER (recvCell c (peer c 7)) 1 ∅ 0)
      ⊢ iprop(|={Set.univ}=> ((xM.view.loc (c : Thread nD τ) ↦{fullShare} xstg m c)
              ∗ (oM.view.loc (c : Thread nD τ) ↦{fullShare} X)
              ∗ (∃ f, bM.view.loc (c : Thread nD τ) ↦{fullShare} f)
              ∗ (∃ f, rM.view.loc (c : Thread nD τ) ↦{fullShare} f)
              ∗ (∃ f, aM.view.loc (c : Thread nD τ) ↦{fullShare} f)
              ∗ (∃ f, wM.view.loc (c : Thread nD τ) ↦{fullShare} f)
              ∗ (hM.view.loc (c : Thread nD τ) ↦{fullShare} warr m c)
              ∗ semVal (sendCell c 0) 0
              ∗ semVal (sendCell c 1) 0
              ∗ semVal (sendCell c 2) 0
              ∗ semVal (sendCell c 3) 0
              ∗ semVal (sendCell c 4) 0
              ∗ semVal (sendCell c 5) 0
              ∗ semVal (sendCell c 6) 0
              ∗ semVal (recvCell c (peer c 1)) 0
              ∗ semVal (recvCell c (peer c 2)) 0
              ∗ semVal (recvCell c (peer c 3)) 0
              ∗ semVal (recvCell c (peer c 4)) 0
              ∗ semVal (recvCell c (peer c 5)) 0
              ∗ semVal (recvCell c (peer c 6)) 0
              ∗ semVal (recvCell c (peer c 7)) 0
              ∗ semVal ((c : Thread nD τ), SemLoc.dma (recvSem c)) 0
              ∗ semVal ((c : Thread nD τ), SemLoc.dma (wSem 0)) 0
              ∗ semVal ((c : Thread nD τ), SemLoc.dma (wSem 1)) 0
              ∗ (∃ W', owes (c : Thread nD τ) 0 W'))) := by
  iintro ⟨Hx, Ho, Hown, B0, B1, B2, B3, B4, B5, B6, Q0, Q1, Q2, Q3, Q4, Q5, Q6, Q7, Ha, K0, K1, Hh, Zr, Zw0, Zw1, HO,
    is0, ps0, is1, ps1, is2, ps2, is3, ps3, is4, ps4, is5, ps5, is6, ps6,
    ir1, pr1, ir2, pr2, ir3, pr3, ir4, pr4, ir5, pr5, ir6, pr6, ir7, pr7⟩
  imod (close_cell m (κs 0) (sendCell c 0)) $$ [is0 ps0] with S0
  · isplitl [is0] <;> iassumption
  imod (close_cell m (κs 1) (sendCell c 1)) $$ [is1 ps1] with S1
  · isplitl [is1] <;> iassumption
  imod (close_cell m (κs 2) (sendCell c 2)) $$ [is2 ps2] with S2
  · isplitl [is2] <;> iassumption
  imod (close_cell m (κs 3) (sendCell c 3)) $$ [is3 ps3] with S3
  · isplitl [is3] <;> iassumption
  imod (close_cell m (κs 4) (sendCell c 4)) $$ [is4 ps4] with S4
  · isplitl [is4] <;> iassumption
  imod (close_cell m (κs 5) (sendCell c 5)) $$ [is5 ps5] with S5
  · isplitl [is5] <;> iassumption
  imod (close_cell m (κs 6) (sendCell c 6)) $$ [is6 ps6] with S6
  · isplitl [is6] <;> iassumption
  imod (close_cell m (κri 1) (recvCell c (peer c 1))) $$ [ir1 pr1] with R1
  · isplitl [ir1] <;> iassumption
  imod (close_cell m (κri 2) (recvCell c (peer c 2))) $$ [ir2 pr2] with R2
  · isplitl [ir2] <;> iassumption
  imod (close_cell m (κri 3) (recvCell c (peer c 3))) $$ [ir3 pr3] with R3
  · isplitl [ir3] <;> iassumption
  imod (close_cell m (κri 4) (recvCell c (peer c 4))) $$ [ir4 pr4] with R4
  · isplitl [ir4] <;> iassumption
  imod (close_cell m (κri 5) (recvCell c (peer c 5))) $$ [ir5 pr5] with R5
  · isplitl [ir5] <;> iassumption
  imod (close_cell m (κri 6) (recvCell c (peer c 6))) $$ [ir6 pr6] with R6
  · isplitl [ir6] <;> iassumption
  imod (close_cell m (κri 7) (recvCell c (peer c 7))) $$ [ir7 pr7] with R7
  · isplitl [ir7] <;> iassumption
  ihave Hb := (copy_join_body (F := F) c) $$ [Hown B0 B1 B2 B3 B4 B5 B6]
  · isplitl [Hown]; · iexists _; iexact Hown
    isplitl [B0]; · iexists _; iexact B0
    isplitl [B1]; · iexists _; iexact B1
    isplitl [B2]; · iexists _; iexact B2
    isplitl [B3]; · iexists _; iexact B3
    isplitl [B4]; · iexists _; iexact B4
    isplitl [B5]; · iexists _; iexact B5
    iexists _; iexact B6
  ihave Hr := (recv_join_peer_chain (F := F) c) $$ [Q0 Q1 Q2 Q3 Q4 Q5 Q6 Q7]
  · isplitl [Q0]; · iexists _; iexact Q0
    isplitl [Q1]; · iexists _; iexact Q1
    isplitl [Q2]; · iexists _; iexact Q2
    isplitl [Q3]; · iexists _; iexact Q3
    isplitl [Q4]; · iexists _; iexact Q4
    isplitl [Q5]; · iexists _; iexact Q5
    isplitl [Q6]; · iexists _; iexact Q6
    iexists _; iexact Q7
  ihave Hk := (wbuf_join (F := F) c) $$ [K0 K1]
  · isplitl [K0]; · iexists _; iexact K0
    iexists _; iexact K1
  imodintro
  isplitl [Hx]; · iexact Hx
  isplitl [Ho]; · iexact Ho
  isplitl [Hb]; · iexact Hb
  isplitl [Hr]; · iexact Hr
  isplitl [Ha]; · iexists fa; iexact Ha
  isplitl [Hk]; · iexact Hk
  isplitl [Hh]; · iexact Hh
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [Zr]; · iexact Zr
  isplitl [Zw0]; · iexact Zw0
  isplitl [Zw1]; · iexact Zw1
  iexists W; iexact HO

/-- info: 'Cert.KernelIdeal.BodyProof.body_tail' depends on axioms: [propext, Classical.choice, Quot.sound] -/
#guard_msgs in #print axioms body_tail

end Cert.KernelIdeal.BodyProof

end
-- ==== Proof.BodyTailPost.lean ====
/- From the pieces the device holds at the body's return to the state the launch takes back: the buffers rejoined, the
   fourteen send and receive cells closed, and the result's staging buffer at the kernel's result on the device — the
   stores the body's run listed, over contents nothing reads. -/
import proofs.«900487_g7700000000000488_dist_a2a_gemm_m4096_k4096_n8192_f32_gelu_v7x_i8_1_alg».proof.Proof.Sched
import proofs.«900487_g7700000000000488_dist_a2a_gemm_m4096_k4096_n8192_f32_gelu_v7x_i8_1_alg».proof.Proof.Levels
import proofs.«900487_g7700000000000488_dist_a2a_gemm_m4096_k4096_n8192_f32_gelu_v7x_i8_1_alg».proof.Proof.SchedTables
import proofs.«900487_g7700000000000488_dist_a2a_gemm_m4096_k4096_n8192_f32_gelu_v7x_i8_1_alg».proof.Proof.OutAt
import proofs.«900487_g7700000000000488_dist_a2a_gemm_m4096_k4096_n8192_f32_gelu_v7x_i8_1_alg».proof.Proof.Cuts
import proofs.«900487_g7700000000000488_dist_a2a_gemm_m4096_k4096_n8192_f32_gelu_v7x_i8_1_alg».proof.Proof.CutsBody
import proofs.«900487_g7700000000000488_dist_a2a_gemm_m4096_k4096_n8192_f32_gelu_v7x_i8_1_alg».proof.Proof.BodyLemmas
import proofs.«900487_g7700000000000488_dist_a2a_gemm_m4096_k4096_n8192_f32_gelu_v7x_i8_1_alg».proof.Proof.BodyMid
import proofs.«900487_g7700000000000488_dist_a2a_gemm_m4096_k4096_n8192_f32_gelu_v7x_i8_1_alg».proof.Proof.BodyTail
import proofs.«900487_g7700000000000488_dist_a2a_gemm_m4096_k4096_n8192_f32_gelu_v7x_i8_1_alg».proof.Proof.BodyTailRun
import Idealize.ShloMosaic.Lib.Pipeline.Launch
import Idealize.ShloMosaic.Lib.Pipeline.Kit
import Idealize.ShloMosaic.Lib.Ring
import Idealize.ShloMosaic.Lib.Tactic

noncomputable section

namespace Cert.KernelIdeal.BodyProof

open Cert.KernelIdeal Cert.KernelIdeal.Gen Cert.KernelIdeal.Devs Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-- The pieces at the return, whatever list of stores stands in the result's staging buffer, are the flat state after
    the body, under one update. -/
theorem end_post (c : Dev nD) (L : List (View.Piece (Elt F) S512x8192 .f32)) (κs κri : ℕ → ℕ)
    (fr : Buf (Elt F) (rM.view.loc (c : Thread nD τ))) :
    End m c L κs κri fr
      ⊢ iprop(|={Set.univ}=> ((xM.view.loc (c : Thread nD τ) ↦{fullShare} xstg m c)
          ∗ (oM.view.loc (c : Thread nD τ) ↦{fullShare} oM.view.writes (Elt F) oM.view.junk L)
          ∗ (∃ f, bM.view.loc (c : Thread nD τ) ↦{fullShare} f)
          ∗ (∃ f, rM.view.loc (c : Thread nD τ) ↦{fullShare} f)
          ∗ (∃ f, aM.view.loc (c : Thread nD τ) ↦{fullShare} f)
          ∗ (∃ f, wM.view.loc (c : Thread nD τ) ↦{fullShare} f)
          ∗ (hM.view.loc (c : Thread nD τ) ↦{fullShare} warr m c)
          ∗ semVal (sendCell c 0) 0
          ∗ semVal (sendCell c 1) 0
          ∗ semVal (sendCell c 2) 0
          ∗ semVal (sendCell c 3) 0
          ∗ semVal (sendCell c 4) 0
          ∗ semVal (sendCell c 5) 0
          ∗ semVal (sendCell c 6) 0
          ∗ semVal (recvCell c (peer c 1)) 0
          ∗ semVal (recvCell c (peer c 2)) 0
          ∗ semVal (recvCell c (peer c 3)) 0
          ∗ semVal (recvCell c (peer c 4)) 0
          ∗ semVal (recvCell c (peer c 5)) 0
          ∗ semVal (recvCell c (peer c 6)) 0
          ∗ semVal (recvCell c (peer c 7)) 0
          ∗ semVal ((c : Thread nD τ), SemLoc.dma (recvSem c)) 0
          ∗ semVal ((c : Thread nD τ), SemLoc.dma (wSem 0)) 0
          ∗ semVal ((c : Thread nD τ), SemLoc.dma (wSem 1)) 0
          ∗ (∃ W', owes (c : Thread nD τ) 0 W'))) := by
  unfold End
  iintro ⟨Hx, Ho, Hown, Hrow0, Hrow1, Hrow2, Hrow3, Hrow4, Hrow5, Hrow6, Hr0, Hsl1, Hsl2, Hsl3, Hsl4, Hsl5, Hsl6, Hsl7, ⟨%fa, Ha⟩, ⟨%f0, Hk0⟩, ⟨%f1, Hk1⟩, Hh, Hsr, Hs0, Hs1, ⟨%W', HO⟩, #Is0, Hats0, #Is1, Hats1, #Is2, Hats2, #Is3, Hats3, #Is4, Hats4, #Is5, Hats5, #Is6, Hats6, #Iri1, Hatr1, #Iri2, Hatr2, #Iri3, Hatr3, #Iri4, Hatr4, #Iri5, Hatr5, #Iri6, Hatr6, #Iri7, Hatr7⟩
  iapply (body_tail m c (oM.view.writes (Elt F) oM.view.junk L) W' κs κri fr fa f0 f1)
  sl_close

/-- The rest of the body from what the entry stretch hands on, to the flat state after the body. -/
theorem tail_run (c : Dev nD) (v2 v43 v51 v59 v67 v75 v83 v91 : BitVec 32) (W : Waits sig Unit) (κs κro κri : ℕ → ℕ)
    (fo : Buf (Elt F) (oM.view.loc (c : Thread nD τ)))
    (fr : Buf (Elt F) (rM.view.loc (c : Thread nD τ)))
    (fa : Buf (Elt F) (aM.view.loc (c : Thread nD τ)))
    (fk : Buf (Elt F) (wM.view.loc (c : Thread nD τ))) :
    Mid m c W κs κro κri fo fr fa fk
      ⊢ wp frame (wpE (defs₀ (F := F)) 𝒱₀ (c : Thread nD τ) none) Set.univ
          (tailProg (F := F) c v2 v43 v51 v59 v67 v75 v83 v91)
          (fun _ => iprop((xM.view.loc (c : Thread nD τ) ↦{fullShare} xstg m c)
              ∗ (oM.view.loc (c : Thread nD τ) ↦{fullShare} outAt m c)
              ∗ (∃ f, bM.view.loc (c : Thread nD τ) ↦{fullShare} f)
              ∗ (∃ f, rM.view.loc (c : Thread nD τ) ↦{fullShare} f)
              ∗ (∃ f, aM.view.loc (c : Thread nD τ) ↦{fullShare} f)
              ∗ (∃ f, wM.view.loc (c : Thread nD τ) ↦{fullShare} f)
              ∗ (hM.view.loc (c : Thread nD τ) ↦{fullShare} warr m c)
              ∗ semVal (sendCell c 0) 0
              ∗ semVal (sendCell c 1) 0
              ∗ semVal (sendCell c 2) 0
              ∗ semVal (sendCell c 3) 0
              ∗ semVal (sendCell c 4) 0
              ∗ semVal (sendCell c 5) 0
              ∗ semVal (sendCell c 6) 0
              ∗ semVal (recvCell c (peer c 1)) 0
              ∗ semVal (recvCell c (peer c 2)) 0
              ∗ semVal (recvCell c (peer c 3)) 0
              ∗ semVal (recvCell c (peer c 4)) 0
              ∗ semVal (recvCell c (peer c 5)) 0
              ∗ semVal (recvCell c (peer c 6)) 0
              ∗ semVal (recvCell c (peer c 7)) 0
              ∗ semVal ((c : Thread nD τ), SemLoc.dma (recvSem c)) 0
              ∗ semVal ((c : Thread nD τ), SemLoc.dma (wSem 0)) 0
              ∗ semVal ((c : Thread nD τ), SemLoc.dma (wSem 1)) 0
              ∗ (∃ W', owes (c : Thread nD τ) 0 W'))) := by
  unfold outAt
  exact ((tail_sub m c).2 v2 v43 v51 v59 v67 v75 v83 v91 W κs κro κri fo fr fa fk).trans
    ((wp_mono _ _ _ (fun _ => end_post m c _ κs κri fr)).trans (wp_fupd _ _ _ _ _))

end Cert.KernelIdeal.BodyProof

end
-- ==== Proof.BodyWrap.lean ====
/- The body obligation of the launch theorem from the run of one device's body. The pipeline asks, at its one point: from
   the invariant before the point, what the device owes and the two windows' staging buffers, the body runs to the
   invariant after the point, nothing owed, and the staging buffers at what the body leaves. The invariant is opened into
   the flat list of resources the body's run starts from — the buffers, the idle semaphores, and per cell the invariant,
   the position, the credit, the tokens and the reached-marks —, the run is applied, and its post is folded back. -/
import proofs.«900487_g7700000000000488_dist_a2a_gemm_m4096_k4096_n8192_f32_gelu_v7x_i8_1_alg».proof.Proof.Dats
import proofs.«900487_g7700000000000488_dist_a2a_gemm_m4096_k4096_n8192_f32_gelu_v7x_i8_1_alg».proof.Proof.LaunchPre
import proofs.«900487_g7700000000000488_dist_a2a_gemm_m4096_k4096_n8192_f32_gelu_v7x_i8_1_alg».proof.Proof.Gen.KernelIdeal.Points

noncomputable section

namespace Cert.KernelIdeal.BodyProof

open Cert.KernelIdeal Cert.KernelIdeal.Gen Cert.KernelIdeal.Devs Cert.KernelIdeal.Proto Cert.KernelIdeal.LaunchPre

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/- The result's contents are a name here: nothing in this module reads its definition. -/
attribute [local irreducible] Cert.KernelIdeal.Proto.outAt

local notation "𝕄" => MT nD τ sig Unit (Elt F) ℕ UU ℕ

/-! ## Families over a device's cells and partners, written out -/

/-- Among a device's fifteen cells: the index of its i-th send cell, of its receive cell of partner k. -/
def sN (i : ℕ) : Fin 15 := Fin.ofNat 15 (i + 1)
def rN (k : ℕ) : Fin 15 := Fin.ofNat 15 (7 + k)

theorem idx_eq : ∀ (k : Fin 8) (h : 7 + k.val < 15), (⟨7 + k.val, h⟩ : Fin 15) = rN k.val := by decide

omit [FloatOps F] in
/-- Something said of each of device c's fifteen cells, by its index and the cell. -/
theorem L15 (c : Dev nD) (Ψ : Fin 15 → GSem nD τ sig → sProp 𝕄) :
    (bigSep Finset.univ fun n : Fin 15 => Ψ n (kcell (c, n)))
      = iprop(Ψ 0 (barCell c) ∗ Ψ (sN 0) (sendCell c 0) ∗ Ψ (sN 1) (sendCell c 1) ∗ Ψ (sN 2) (sendCell c 2) ∗ Ψ (sN 3) (sendCell c 3)
          ∗ Ψ (sN 4) (sendCell c 4) ∗ Ψ (sN 5) (sendCell c 5) ∗ Ψ (sN 6) (sendCell c 6)
          ∗ Ψ (rN 1) (recvCell c (peer c 1)) ∗ Ψ (rN 2) (recvCell c (peer c 2)) ∗ Ψ (rN 3) (recvCell c (peer c 3))
          ∗ Ψ (rN 4) (recvCell c (peer c 4)) ∗ Ψ (rN 5) (recvCell c (peer c 5)) ∗ Ψ (rN 6) (recvCell c (peer c 6))
          ∗ Ψ (rN 7) (recvCell c (peer c 7))) :=
  bigSep_fin15 _

omit [FloatOps F] in
/-- Something said of each partner index 1..7, by the index as a number and as a duty's name. -/
theorem LE7 (Φ : ℕ → Fin 8 → sProp 𝕄) :
    (bigSep E7 fun k : Fin 8 => Φ k.val k) = iprop(Φ 1 1 ∗ Φ 2 2 ∗ Φ 3 3 ∗ Φ 4 4 ∗ Φ 5 5 ∗ Φ 6 6 ∗ Φ 7 7) := bigSep_E7 _

omit [FloatOps F] in
/-- Something said of each send cell. -/
theorem L7 (Φ : Fin 7 → sProp 𝕄) :
    (bigSep Finset.univ fun i : Fin 7 => Φ i) = iprop(Φ 0 ∗ Φ 1 ∗ Φ 2 ∗ Φ 3 ∗ Φ 4 ∗ Φ 5 ∗ Φ 6) := bigSep_fin7 _

section Wrap
variable (m : (ℓ : Loc nD τ sig) → Buf (Elt F) ℓ)

/-- The ghost state a device's body starts from, written out: per cell its invariant, position and reached-mark, per
    partner the invariants and reached-marks of the two cells the device pays, and the tokens it pays with. -/
theorem ghost_flat (K : Dev nD × Fin 15 → ℕ) (c : Dev nD) :
    ghost m K c = iprop(
      ((bigSep Finset.univ fun n : Fin 15 => cellInv ER (Rd m) (K (c, n)) (kcell (c, n)))
        ∗ (bigSep E7 fun k : Fin 8 => cellInv ER (Rd m) (K (peer c k.val, 0)) (barCell (peer c k.val)))
        ∗ (bigSep E7 fun k : Fin 8 => cellInv ER (Rd m) (K (peer c k.val, rN k.val)) (recvCell (peer c k.val) c)))
      ∗ (bigSep Finset.univ fun n : Fin 15 => atPos ER (kcell (c, n)) 0 ∅ 0)
      ∗ (bigSep Finset.univ fun n : Fin 15 => reached ER (kcell (c, n)) 0)
      ∗ (bigSep E7 fun k : Fin 8 => reached ER (barCell (peer c k.val)) 0)
      ∗ (bigSep E7 fun k : Fin 8 => reached ER (recvCell (peer c k.val) c) 0)
      ∗ (bigSep E7 fun k : Fin 8 => dutyTok ER (barCell (peer c k.val)) 0 k)
      ∗ (bigSep E7 fun k : Fin 8 => dutyTok ER (recvCell (peer c k.val) c) 0 (0 : Fin 8))
      ∗ (bigSep Finset.univ fun i : Fin 7 => dutyTok ER (sendCell c i) 0 (0 : Fin 8))) := by
  unfold ghost Proto.invs
  simp only [idx_eq]

/-! ## The obligation's two ends -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the pipeline hands the body at the point. -/
def bodyPre' (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

set_option maxRecDepth 4000 in
/-- What it takes back. -/
def bodyPost (c : Dev nD) : sProp 𝕄 :=
  iprop(Φ₁ m c ∗ (dats m 0 c).owesAt () t0_0.succ ∗ stg c cc0_stg0_0 (xstg m c) ∗ stg c cc0_stg1_0 (outAt m c))

/-- The x window's staging buffer holds the device's block of x when the body runs: it was just fetched. -/
theorem before_x (c : Dev nD) (d) : (dats m 0 c).before (0 : Fin 2) t0_0 d = xstg m c := by
  unfold Dat.before; rw [if_pos (fetch0_0 t0_0)]; rfl

/-- The run's post, folded back into what the pipeline takes back. -/
theorem post_fold (c : Dev nD) :
    iprop((xM.view.loc (c : Thread nD τ) ↦{fullShare} xstg m c)
              ∗ (oM.view.loc (c : Thread nD τ) ↦{fullShare} outAt m c)
              ∗ (∃ f, bM.view.loc (c : Thread nD τ) ↦{fullShare} f)
              ∗ (∃ f, rM.view.loc (c : Thread nD τ) ↦{fullShare} f)
              ∗ (∃ f, aM.view.loc (c : Thread nD τ) ↦{fullShare} f)
              ∗ (∃ f, wM.view.loc (c : Thread nD τ) ↦{fullShare} f)
              ∗ (hM.view.loc (c : Thread nD τ) ↦{fullShare} warr m c)
              ∗ semVal (sendCell c 0) 0
              ∗ semVal (sendCell c 1) 0
              ∗ semVal (sendCell c 2) 0
              ∗ semVal (sendCell c 3) 0
              ∗ semVal (sendCell c 4) 0
              ∗ semVal (sendCell c 5) 0
              ∗ semVal (sendCell c 6) 0
              ∗ semVal (recvCell c (peer c 1)) 0
              ∗ semVal (recvCell c (peer c 2)) 0
              ∗ semVal (recvCell c (peer c 3)) 0
              ∗ semVal (recvCell c (peer c 4)) 0
              ∗ semVal (recvCell c (peer c 5)) 0
              ∗ semVal (recvCell c (peer c 6)) 0
              ∗ semVal (recvCell c (peer c 7)) 0
              ∗ semVal ((c : Thread nD τ), SemLoc.dma (recvSem c)) 0
              ∗ semVal ((c : Thread nD τ), SemLoc.dma (wSem 0)) 0
              ∗ semVal ((c : Thread nD τ), SemLoc.dma (wSem 1)) 0
              ∗ (∃ W', owes (c : Thread nD τ) 0 W'))
      ⊢ bodyPost m c := by
  unfold bodyPost Φ₁ scratch ownZero Dat.owesAt Pipeline.owesWithin
  rw [show (dats m 0 c).owed t0_0.succ = 0 from rfl, L7 (fun i => semVal (sendCell c i) 0),
    by_partner c (fun o => semVal (recvCell c o) 0), LE7 (fun n _ => semVal (recvCell c (peer c n)) 0)]
  iintro ⟨Hx, Ho, Hb, Hr, Ha, Hk, Hh, S0, S1, S2, S3, S4, S5, S6, R1, R2, R3, R4, R5, R6, R7, Rc, W0, W1, ⟨%W', HO⟩⟩
  isplitl [Hb Hr Ha Hk Hh S0 S1 S2 S3 S4 S5 S6 R1 R2 R3 R4 R5 R6 R7 Rc W0 W1]
  · isplitl [Hb Hr Ha Hk]
    · isplitl [Hb]; · iexact Hb
      isplitl [Hr]; · iexact Hr
      isplitl [Ha]; · iexact Ha
      iexact Hk
    isplitl [S0 S1 S2 S3 S4 S5 S6 R1 R2 R3 R4 R5 R6 R7 Rc W0 W1]
    · iframe
    · iexact Hh
  isplitl [HO]
  · iexists W'
    isplitr; · ipureintro; exact fun _ _ => Or.inl trivial
    iexact HO
  isplitl [Hx]
  · iexists _; isplitr; · (ipureintro; rfl)
    iexact Hx
  · iexists _; isplitr; · (ipureintro; rfl)
    iexact Ho

set_option maxRecDepth 8000 in
set_option maxHeartbeats 1600000 in
/-- The library's body obligation on every device, GIVEN the run of the body from the flat list of its resources. -/
theorem body_obligation_of
    (hrun : ∀ (c : Dev nD) (W : Waits sig Unit)
      (κ0 : ℕ) (κb κs κro κri : ℕ → ℕ)
      (fo : Buf (Elt F) (oM.view.loc (c : Thread nD τ)))
      (fb : Buf (Elt F) (bM.view.loc (c : Thread nD τ)))
      (fr : Buf (Elt F) (rM.view.loc (c : Thread nD τ)))
      (fa : Buf (Elt F) (aM.view.loc (c : Thread nD τ)))
      (fk : Buf (Elt F) (wM.view.loc (c : Thread nD τ))),
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ
          (cc0_body (F := F) xM (Memref.isWhole_whole _) hM (Memref.isWhole_whole _) oM (Memref.isWhole_whole _)
            bM (Memref.isWhole_whole _) rM (Memref.isWhole_whole _) aM (Memref.isWhole_whole _) wM (Memref.isWhole_whole _)
            cc0_scratch4 cc0_scratch5 cc0_scratch6)
          (fun _ => iprop((xM.view.loc (c : Thread nD τ) ↦{fullShare} xstg m c)
              ∗ (oM.view.loc (c : Thread nD τ) ↦{fullShare} outAt m c)
              ∗ (∃ f, bM.view.loc (c : Thread nD τ) ↦{fullShare} f)
              ∗ (∃ f, rM.view.loc (c : Thread nD τ) ↦{fullShare} f)
              ∗ (∃ f, aM.view.loc (c : Thread nD τ) ↦{fullShare} f)
              ∗ (∃ f, wM.view.loc (c : Thread nD τ) ↦{fullShare} f)
              ∗ (hM.view.loc (c : Thread nD τ) ↦{fullShare} warr m c)
              ∗ semVal (sendCell c 0) 0
              ∗ semVal (sendCell c 1) 0
              ∗ semVal (sendCell c 2) 0
              ∗ semVal (sendCell c 3) 0
              ∗ semVal (sendCell c 4) 0
              ∗ semVal (sendCell c 5) 0
              ∗ semVal (sendCell c 6) 0
              ∗ semVal (recvCell c (peer c 1)) 0
              ∗ semVal (recvCell c (peer c 2)) 0
              ∗ semVal (recvCell c (peer c 3)) 0
              ∗ semVal (recvCell c (peer c 4)) 0
              ∗ semVal (recvCell c (peer c 5)) 0
              ∗ semVal (recvCell c (peer c 6)) 0
              ∗ semVal (recvCell c (peer c 7)) 0
              ∗ semVal ((c : Thread nD τ), SemLoc.dma (recvSem c)) 0
              ∗ semVal ((c : Thread nD τ), SemLoc.dma (wSem 0)) 0
              ∗ semVal ((c : Thread nD τ), SemLoc.dma (wSem 1)) 0
              ∗ (∃ W', owes (c : Thread nD τ) 0 W')))) :
    ∀ c, BodyObligation (dats (F := F) m 0 c) (defs₀ (F := F)) 𝒱₀ () Set.univ := fun c t => by
  rw [fin_N0 t]
  rw [bigSep_W0, bigSep_W0]
  simp only [owns_whole_eq]
  show bodyPre' m c ⊢ wp frame (wpE (defs₀ (F := F)) 𝒱₀ c none) Set.univ
    (cc0_body (F := F) xM (Memref.isWhole_whole _) hM (Memref.isWhole_whole _) oM (Memref.isWhole_whole _)
      bM (Memref.isWhole_whole _) rM (Memref.isWhole_whole _) aM (Memref.isWhole_whole _) wM (Memref.isWhole_whole _)
      cc0_scratch4 cc0_scratch5 cc0_scratch6) (fun _ => bodyPost m c)
  unfold bodyPre' Φ₀ start scratch Proto.creds idleSems
  rw [LE7 (fun n _ => cred (tallyAt (recvCell c (peer c n)) () N))]
  iintro ⟨⟨⟨⟨%K, Hg⟩, ⟨cb, c1, c2, c3, c4, c5, c6, c7⟩, ⟨Hrc, Hw0, Hw1⟩, Hlev, Hh⟩, ⟨%fb, Hb⟩, ⟨%fr, Hr⟩, ⟨%fa, Ha⟩, ⟨%fk, Hk⟩⟩,
    Ho, ⟨%d0, %g0, %hg0, Hx⟩, ⟨%d1, %g1, %hg1, Hout⟩⟩
  have hx : g0 = xstg m c := hg0.trans (before_x m c d0)
  subst hx
  unfold Dat.owesAt Pipeline.owesWithin
  icases Ho with ⟨%W, %hW, HO⟩
  rw [show (dats m 0 c).owed t0_0.castSucc = O₀ c from rfl]
  unfold O₀
  irevert Hg
  rw [ghost_flat m K c,
    L15 c (fun n g => cellInv ER (Rd m) (K (c, n)) g), L15 c (fun _ g => atPos ER g 0 ∅ 0), L15 c (fun _ g => reached ER g 0),
    LE7 (fun n _ => cellInv ER (Rd m) (K (peer c n, 0)) (barCell (peer c n))),
    LE7 (fun n _ => cellInv ER (Rd m) (K (peer c n, rN n)) (recvCell (peer c n) c)),
    LE7 (fun n _ => reached ER (barCell (peer c n)) 0), LE7 (fun n _ => reached ER (recvCell (peer c n) c) 0),
    LE7 (fun n k => dutyTok ER (barCell (peer c n)) 0 k), LE7 (fun n _ => dutyTok ER (recvCell (peer c n) c) 0 (0 : Fin 8)),
    L7 (fun i => dutyTok ER (sendCell c i) 0 (0 : Fin 8))]
  iintro ⟨⟨⟨i0, is0, is1, is2, is3, is4, is5, is6, ir1, ir2, ir3, ir4, ir5, ir6, ir7⟩, ⟨ib1, ib2, ib3, ib4, ib5, ib6, ib7⟩,
      ⟨io1, io2, io3, io4, io5, io6, io7⟩⟩,
    ⟨p0, ps0, ps1, ps2, ps3, ps4, ps5, ps6, pr1, pr2, pr3, pr4, pr5, pr6, pr7⟩,
    ⟨-, rs0, rs1, rs2, rs3, rs4, rs5, rs6, -, -, -, -, -, -, -⟩,
    ⟨rb1, rb2, rb3, rb4, rb5, rb6, rb7⟩, ⟨ro1, ro2, ro3, ro4, ro5, ro6, ro7⟩,
    ⟨tb1, tb2, tb3, tb4, tb5, tb6, tb7⟩, ⟨to1, to2, to3, to4, to5, to6, to7⟩, ⟨ts0, ts1, ts2, ts3, ts4, ts5, ts6⟩⟩
  iapply (wp_mono _ _ _ fun _ => post_fold m c)
  iapply (hrun c W (K (c, 0)) (fun n => K (peer c n, 0)) (fun i => K (c, sN i)) (fun n => K (peer c n, rN n)) (fun n => K (c, rN n))
    g1 fb fr fa fk)
  iframe

/-- info: 'Cert.KernelIdeal.BodyProof.body_obligation_of' depends on axioms: [propext, Classical.choice, Quot.sound] -/
#guard_msgs in #print axioms body_obligation_of

end Wrap

end Cert.KernelIdeal.BodyProof

end
-- ==== Proof.Body.lean ====
/- The body obligation of the launch theorem, assembled: the entry stretch's run on each of the eight devices, the run of
   the rest of the body at a symbolic device, the two joined into the run of the body, and that run folded into the
   pipeline's obligation. -/
import proofs.«900487_g7700000000000488_dist_a2a_gemm_m4096_k4096_n8192_f32_gelu_v7x_i8_1_alg».proof.Proof.BodyDev0
import proofs.«900487_g7700000000000488_dist_a2a_gemm_m4096_k4096_n8192_f32_gelu_v7x_i8_1_alg».proof.Proof.BodyDev1
import proofs.«900487_g7700000000000488_dist_a2a_gemm_m4096_k4096_n8192_f32_gelu_v7x_i8_1_alg».proof.Proof.BodyDev2
import proofs.«900487_g7700000000000488_dist_a2a_gemm_m4096_k4096_n8192_f32_gelu_v7x_i8_1_alg».proof.Proof.BodyDev3
import proofs.«900487_g7700000000000488_dist_a2a_gemm_m4096_k4096_n8192_f32_gelu_v7x_i8_1_alg».proof.Proof.BodyDev4
import proofs.«900487_g7700000000000488_dist_a2a_gemm_m4096_k4096_n8192_f32_gelu_v7x_i8_1_alg».proof.Proof.BodyDev5
import proofs.«900487_g7700000000000488_dist_a2a_gemm_m4096_k4096_n8192_f32_gelu_v7x_i8_1_alg».proof.Proof.BodyDev6
import proofs.«900487_g7700000000000488_dist_a2a_gemm_m4096_k4096_n8192_f32_gelu_v7x_i8_1_alg».proof.Proof.BodyDev7
import proofs.«900487_g7700000000000488_dist_a2a_gemm_m4096_k4096_n8192_f32_gelu_v7x_i8_1_alg».proof.Proof.BodyTailPost
import proofs.«900487_g7700000000000488_dist_a2a_gemm_m4096_k4096_n8192_f32_gelu_v7x_i8_1_alg».proof.Proof.BodyMid
import proofs.«900487_g7700000000000488_dist_a2a_gemm_m4096_k4096_n8192_f32_gelu_v7x_i8_1_alg».proof.Proof.BodyWrap

noncomputable section

namespace Cert.KernelIdeal.BodyProof

open Cert.KernelIdeal Cert.KernelIdeal.Gen Cert.KernelIdeal.Devs Cert.KernelIdeal.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A device of the mesh is one of the eight. -/
theorem dev_cases : ∀ c : Dev nD, c = 0 ∨ c = 1 ∨ c = 2 ∨ c = 3 ∨ c = 4 ∨ c = 5 ∨ c = 6 ∨ c = 7 := by decide

set_option maxRecDepth 8000 in
/-- The entry stretch's run on every device: device by device. -/
theorem prefix_all : ∀ (c : Dev nD) (W : Waits sig Unit)
      (κ0 : ℕ) (κb κs κro κri : ℕ → ℕ)
      (fo : Buf (Elt F) (oM.view.loc (c : Thread nD τ)))
      (fb : Buf (Elt F) (bM.view.loc (c : Thread nD τ)))
      (fr : Buf (Elt F) (rM.view.loc (c : Thread nD τ)))
      (fa : Buf (Elt F) (aM.view.loc (c : Thread nD τ)))
      (fk : Buf (Elt F) (wM.view.loc (c : Thread nD τ))),
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ (headProg (F := F))
          (fun ws => iprop(⌜ws.1 = c⌝ ∗ Mid m c (insert (SemLoc.reg barS, ()) W) κs κro κri fo fr fa fk)) := fun c => by
  rcases dev_cases c with h | h | h | h | h | h | h | h
  · exact prefix_dev0 m c h
  · exact prefix_dev1 m c h
  · exact prefix_dev2 m c h
  · exact prefix_dev3 m c h
  · exact prefix_dev4 m c h
  · exact prefix_dev5 m c h
  · exact prefix_dev6 m c h
  · exact prefix_dev7 m c h

set_option maxRecDepth 8000 in
/-- The run of one device's body from the flat list of its resources. -/
theorem run_body : ∀ (c : Dev nD) (W : Waits sig Unit)
      (κ0 : ℕ) (κb κs κro κri : ℕ → ℕ)
      (fo : Buf (Elt F) (oM.view.loc (c : Thread nD τ)))
      (fb : Buf (Elt F) (bM.view.loc (c : Thread nD τ)))
      (fr : Buf (Elt F) (rM.view.loc (c : Thread nD τ)))
      (fa : Buf (Elt F) (aM.view.loc (c : Thread nD τ)))
      (fk : Buf (Elt F) (wM.view.loc (c : Thread nD τ))),
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ
          (cc0_body (F := F) xM (Memref.isWhole_whole _) hM (Memref.isWhole_whole _) oM (Memref.isWhole_whole _)
            bM (Memref.isWhole_whole _) rM (Memref.isWhole_whole _) aM (Memref.isWhole_whole _) wM (Memref.isWhole_whole _)
            cc0_scratch4 cc0_scratch5 cc0_scratch6)
          (fun _ => iprop((xM.view.loc (c : Thread nD τ) ↦{fullShare} xstg m c)
              ∗ (oM.view.loc (c : Thread nD τ) ↦{fullShare} outAt m c)
              ∗ (∃ f, bM.view.loc (c : Thread nD τ) ↦{fullShare} f)
              ∗ (∃ f, rM.view.loc (c : Thread nD τ) ↦{fullShare} f)
              ∗ (∃ f, aM.view.loc (c : Thread nD τ) ↦{fullShare} f)
              ∗ (∃ f, wM.view.loc (c : Thread nD τ) ↦{fullShare} f)
              ∗ (hM.view.loc (c : Thread nD τ) ↦{fullShare} warr m c)
              ∗ semVal (sendCell c 0) 0
              ∗ semVal (sendCell c 1) 0
              ∗ semVal (sendCell c 2) 0
              ∗ semVal (sendCell c 3) 0
              ∗ semVal (sendCell c 4) 0
              ∗ semVal (sendCell c 5) 0
              ∗ semVal (sendCell c 6) 0
              ∗ semVal (recvCell c (peer c 1)) 0
              ∗ semVal (recvCell c (peer c 2)) 0
              ∗ semVal (recvCell c (peer c 3)) 0
              ∗ semVal (recvCell c (peer c 4)) 0
              ∗ semVal (recvCell c (peer c 5)) 0
              ∗ semVal (recvCell c (peer c 6)) 0
              ∗ semVal (recvCell c (peer c 7)) 0
              ∗ semVal ((c : Thread nD τ), SemLoc.dma (recvSem c)) 0
              ∗ semVal ((c : Thread nD τ), SemLoc.dma (wSem 0)) 0
              ∗ semVal ((c : Thread nD τ), SemLoc.dma (wSem 1)) 0
              ∗ (∃ W', owes (c : Thread nD τ) 0 W'))) :=
  run_body_of m (outAt m) (prefix_all m) (tail_run m)

/-- The library's body obligation on every device. -/
theorem body_obligation : ∀ c, BodyObligation (dats (F := F) m 0 c) (defs₀ (F := F)) 𝒱₀ () Set.univ :=
  body_obligation_of m (run_body m)

/-- info: 'Cert.KernelIdeal.BodyProof.body_obligation' depends on axioms: [propext, Classical.choice, Quot.sound] -/
#guard_msgs in #print axioms body_obligation

end Cert.KernelIdeal.BodyProof

end
-- ==== Proof.Bits.Devs.lean ====
/- The mesh's peer function: device c's k-th partner in the kernel's traversal order of the 3-cube
   (k = 0 the device itself, k = 1..7 the seven nonzero offsets in Gray-coded coordinates), the closed forms
   of the printed device and offset chains through it, and the facts the protocol needs of it
   (an involution in each k, injective in k, onto the mesh). -/
import proofs.«900487_g7700000000000488_dist_a2a_gemm_m4096_k4096_n8192_f32_gelu_v7x_i8_1_alg».proof.Proof.Gen.Kernel
import Idealize.ShloMosaic.Lib.Decide

set_option Elab.async false

namespace Cert.Kernel.Devs

open Idealize.ShloMosaic Idealize.SL.Sem Cert.Kernel Cert.Kernel.Gen

/-- Row c: the devices at offsets 000, 100, 010, 001, 110, 101, 011, 111 from c in the coordinates
    (x, y, z) with c = 4 z + 2 y + (x xor y). -/
def peerTab : List (List Nat) := [[0, 1, 3, 4, 2, 5, 7, 6], [1, 0, 2, 5, 3, 4, 6, 7], [2, 3, 1, 6, 0, 7, 5, 4], [3, 2, 0, 7, 1, 6, 4, 5], [4, 5, 7, 0, 6, 1, 3, 2], [5, 4, 6, 1, 7, 0, 2, 3], [6, 7, 5, 2, 4, 3, 1, 0], [7, 6, 4, 3, 5, 2, 0, 1]]

def peerNat (c k : Nat) : Nat := (peerTab.getD c []).getD k 0

/-- Device c's k-th partner. -/
def peer (c : Dev nD) (k : Nat) : Dev nD := ⟨peerNat c.val k % 8, Nat.mod_lt _ (by decide)⟩

theorem peer_zero : ∀ c : Dev nD, peer c 0 = c := by decide
theorem peer_invol : ∀ c : Dev nD, ∀ k : Fin 8, peer (peer c k.val) k.val = c := by decide
theorem peer_ne_self : ∀ c : Dev nD, ∀ k : Fin 8, k.val ≠ 0 → peer c k.val ≠ c := by decide
theorem peer_inj : ∀ c : Dev nD, ∀ k k' : Fin 8, peer c k.val = peer c k'.val → k = k' := by decide
theorem peer_surj : ∀ c j : Dev nD, ∃ k : Fin 8, peer c k.val = j := by decide

/-! ## The printed device chains -/
theorem dev9_eq : ∀ c : Dev nD, (⟨k0_dev9 c, k0_dev9_lt c⟩ : Dev nD) = peer c 1 := by decide +kernel
theorem dev10_eq : ∀ c : Dev nD, (⟨k0_dev10 c, k0_dev10_lt c⟩ : Dev nD) = peer c 2 := by decide +kernel
theorem dev11_eq : ∀ c : Dev nD, (⟨k0_dev11 c, k0_dev11_lt c⟩ : Dev nD) = peer c 3 := by decide +kernel
theorem dev12_eq : ∀ c : Dev nD, (⟨k0_dev12 c, k0_dev12_lt c⟩ : Dev nD) = peer c 4 := by decide +kernel
theorem dev13_eq : ∀ c : Dev nD, (⟨k0_dev13 c, k0_dev13_lt c⟩ : Dev nD) = peer c 5 := by decide +kernel
theorem dev14_eq : ∀ c : Dev nD, (⟨k0_dev14 c, k0_dev14_lt c⟩ : Dev nD) = peer c 6 := by decide +kernel
theorem dev15_eq : ∀ c : Dev nD, (⟨k0_dev15 c, k0_dev15_lt c⟩ : Dev nD) = peer c 7 := by decide +kernel

/-! ## The barrier signals' guards: the j-th is taken by every device but j -/
theorem cond1_iff : ∀ c : Dev nD, (k0_cond1 c = 1#1) ↔ c.val ≠ 0 := by decide +kernel
theorem cond2_iff : ∀ c : Dev nD, (k0_cond2 c = 1#1) ↔ c.val ≠ 1 := by decide +kernel
theorem cond3_iff : ∀ c : Dev nD, (k0_cond3 c = 1#1) ↔ c.val ≠ 2 := by decide +kernel
theorem cond4_iff : ∀ c : Dev nD, (k0_cond4 c = 1#1) ↔ c.val ≠ 3 := by decide +kernel
theorem cond5_iff : ∀ c : Dev nD, (k0_cond5 c = 1#1) ↔ c.val ≠ 4 := by decide +kernel
theorem cond6_iff : ∀ c : Dev nD, (k0_cond6 c = 1#1) ↔ c.val ≠ 5 := by decide +kernel
theorem cond7_iff : ∀ c : Dev nD, (k0_cond7 c = 1#1) ↔ c.val ≠ 6 := by decide +kernel
theorem cond8_iff : ∀ c : Dev nD, (k0_cond8 c = 1#1) ↔ c.val ≠ 7 := by decide +kernel

/-! ## The printed offset chains at the seven offsets' words -/
theorem off4_1_eq : ∀ c : Dev nD, k0_off4 c 0#32 0#32 1#32 = ![512 * (peer c 1).val, 0] := by decide +kernel
theorem off4_2_eq : ∀ c : Dev nD, k0_off4 c 0#32 1#32 0#32 = ![512 * (peer c 2).val, 0] := by decide +kernel
theorem off4_3_eq : ∀ c : Dev nD, k0_off4 c 1#32 0#32 0#32 = ![512 * (peer c 3).val, 0] := by decide +kernel
theorem off4_4_eq : ∀ c : Dev nD, k0_off4 c 0#32 1#32 1#32 = ![512 * (peer c 4).val, 0] := by decide +kernel
theorem off4_5_eq : ∀ c : Dev nD, k0_off4 c 1#32 0#32 1#32 = ![512 * (peer c 5).val, 0] := by decide +kernel
theorem off4_6_eq : ∀ c : Dev nD, k0_off4 c 1#32 1#32 0#32 = ![512 * (peer c 6).val, 0] := by decide +kernel
theorem off4_7_eq : ∀ c : Dev nD, k0_off4 c 1#32 1#32 1#32 = ![512 * (peer c 7).val, 0] := by decide +kernel
theorem off7_1_eq : ∀ c : Dev nD, k0_off7 c 0#32 0#32 1#32 = ![512 * (peer c 1).val, 0] := by decide +kernel
theorem off7_2_eq : ∀ c : Dev nD, k0_off7 c 0#32 1#32 0#32 = ![512 * (peer c 2).val, 0] := by decide +kernel
theorem off7_3_eq : ∀ c : Dev nD, k0_off7 c 1#32 0#32 0#32 = ![512 * (peer c 3).val, 0] := by decide +kernel
theorem off7_4_eq : ∀ c : Dev nD, k0_off7 c 0#32 1#32 1#32 = ![512 * (peer c 4).val, 0] := by decide +kernel
theorem off7_5_eq : ∀ c : Dev nD, k0_off7 c 1#32 0#32 1#32 = ![512 * (peer c 5).val, 0] := by decide +kernel
theorem off7_6_eq : ∀ c : Dev nD, k0_off7 c 1#32 1#32 0#32 = ![512 * (peer c 6).val, 0] := by decide +kernel
theorem off7_7_eq : ∀ c : Dev nD, k0_off7 c 1#32 1#32 1#32 = ![512 * (peer c 7).val, 0] := by decide +kernel
theorem off8_1_eq : ∀ c : Dev nD, k0_off8 c 0#32 0#32 1#32 = ![512 * (peer c 1).val, 4096] := by decide +kernel
theorem off8_2_eq : ∀ c : Dev nD, k0_off8 c 0#32 1#32 0#32 = ![512 * (peer c 2).val, 4096] := by decide +kernel
theorem off8_3_eq : ∀ c : Dev nD, k0_off8 c 1#32 0#32 0#32 = ![512 * (peer c 3).val, 4096] := by decide +kernel
theorem off8_4_eq : ∀ c : Dev nD, k0_off8 c 0#32 1#32 1#32 = ![512 * (peer c 4).val, 4096] := by decide +kernel
theorem off8_5_eq : ∀ c : Dev nD, k0_off8 c 1#32 0#32 1#32 = ![512 * (peer c 5).val, 4096] := by decide +kernel
theorem off8_6_eq : ∀ c : Dev nD, k0_off8 c 1#32 1#32 0#32 = ![512 * (peer c 6).val, 4096] := by decide +kernel
theorem off8_7_eq : ∀ c : Dev nD, k0_off8 c 1#32 1#32 1#32 = ![512 * (peer c 7).val, 4096] := by decide +kernel
theorem off9_1_eq : ∀ c : Dev nD, k0_off9 c 0#32 0#32 1#32 = ![(peer c 1).val] := by decide +kernel
theorem off9_2_eq : ∀ c : Dev nD, k0_off9 c 0#32 1#32 0#32 = ![(peer c 2).val] := by decide +kernel
theorem off9_3_eq : ∀ c : Dev nD, k0_off9 c 1#32 0#32 0#32 = ![(peer c 3).val] := by decide +kernel
theorem off9_4_eq : ∀ c : Dev nD, k0_off9 c 0#32 1#32 1#32 = ![(peer c 4).val] := by decide +kernel
theorem off9_5_eq : ∀ c : Dev nD, k0_off9 c 1#32 0#32 1#32 = ![(peer c 5).val] := by decide +kernel
theorem off9_6_eq : ∀ c : Dev nD, k0_off9 c 1#32 1#32 0#32 = ![(peer c 6).val] := by decide +kernel
theorem off9_7_eq : ∀ c : Dev nD, k0_off9 c 1#32 1#32 1#32 = ![(peer c 7).val] := by decide +kernel
theorem off10_1_eq : ∀ c : Dev nD, k0_off10 c 0#32 0#32 1#32 = ![(peer c 1).val, 0, 0] := by decide +kernel
theorem off10_2_eq : ∀ c : Dev nD, k0_off10 c 0#32 1#32 0#32 = ![(peer c 2).val, 0, 0] := by decide +kernel
theorem off10_3_eq : ∀ c : Dev nD, k0_off10 c 1#32 0#32 0#32 = ![(peer c 3).val, 0, 0] := by decide +kernel
theorem off10_4_eq : ∀ c : Dev nD, k0_off10 c 0#32 1#32 1#32 = ![(peer c 4).val, 0, 0] := by decide +kernel
theorem off10_5_eq : ∀ c : Dev nD, k0_off10 c 1#32 0#32 1#32 = ![(peer c 5).val, 0, 0] := by decide +kernel
theorem off10_6_eq : ∀ c : Dev nD, k0_off10 c 1#32 1#32 0#32 = ![(peer c 6).val, 0, 0] := by decide +kernel
theorem off10_7_eq : ∀ c : Dev nD, k0_off10 c 1#32 1#32 1#32 = ![(peer c 7).val, 0, 0] := by decide +kernel
theorem off11_1_eq : ∀ c : Dev nD, k0_off11 c 0#32 0#32 1#32 = ![(peer c 1).val, 0, 0] := by decide +kernel
theorem off11_2_eq : ∀ c : Dev nD, k0_off11 c 0#32 1#32 0#32 = ![(peer c 2).val, 0, 0] := by decide +kernel
theorem off11_3_eq : ∀ c : Dev nD, k0_off11 c 1#32 0#32 0#32 = ![(peer c 3).val, 0, 0] := by decide +kernel
theorem off11_4_eq : ∀ c : Dev nD, k0_off11 c 0#32 1#32 1#32 = ![(peer c 4).val, 0, 0] := by decide +kernel
theorem off11_5_eq : ∀ c : Dev nD, k0_off11 c 1#32 0#32 1#32 = ![(peer c 5).val, 0, 0] := by decide +kernel
theorem off11_6_eq : ∀ c : Dev nD, k0_off11 c 1#32 1#32 0#32 = ![(peer c 6).val, 0, 0] := by decide +kernel
theorem off11_7_eq : ∀ c : Dev nD, k0_off11 c 1#32 1#32 1#32 = ![(peer c 7).val, 0, 0] := by decide +kernel

end Cert.Kernel.Devs
-- ==== Proof.Bits.Sched.lean ====
/- The cross-device protocol of the kernel: the semaphore cells of one device, their rounds, what each
   landing hands its waiter, and the levels that order the waits.

   Every device c enters by signalling each other device's barrier semaphore once and waiting its own for
   seven units; the unit device j = peer c k pays on c's barrier hands c the slot of j's receive buffer that
   c writes (slot c) and the fact that j is at round 0 of the receive cell c credits. Device c then sends, for
   k = 1..7, the 512 rows of its half-precision copy of x that belong to its k-th partner into that partner's
   slot c, crediting the partner's receive semaphore c and its own send semaphore k-1; it waits the receive
   semaphore of partner k before it reads slot (peer c k), and its seven send semaphores at the end. -/
import proofs.«900487_g7700000000000488_dist_a2a_gemm_m4096_k4096_n8192_f32_gelu_v7x_i8_1_alg».proof.Proof.Gen.Kernel
import proofs.«900487_g7700000000000488_dist_a2a_gemm_m4096_k4096_n8192_f32_gelu_v7x_i8_1_alg».proof.Proof.Gen.Kernel.Skeleton
import proofs.«900487_g7700000000000488_dist_a2a_gemm_m4096_k4096_n8192_f32_gelu_v7x_i8_1_alg».proof.Proof.Gen.Kernel.Launch
import proofs.«900487_g7700000000000488_dist_a2a_gemm_m4096_k4096_n8192_f32_gelu_v7x_i8_1_alg».proof.Proof.Bits.Devs
import Idealize.ShloMosaic.Lib.Pipeline.Launch
import Idealize.ShloMosaic.Lib.Pipeline.Kit
import Idealize.ShloMosaic.Lib.Tactic

noncomputable section

namespace Cert.Kernel.Proto

open Cert.Kernel Cert.Kernel.Gen Cert.Kernel.Devs

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by partner index) -/

abbrev UB : Type := URounds (GSem nD τ sig) (Fin 8)
/-- The third component counts the local copies in flight. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

abbrev 𝒱₀ : Variants := Variants.none

/-! ## Buffers -/

abbrev xM : Memref sig .tc .vmem S4096x512 .f32 := Memref.whole cc0_stg0_0
abbrev oM : Memref sig .tc .vmem S512x8192 .f32 := Memref.whole cc0_stg1_0
/-- the half-precision copy of x -/
abbrev bM : Memref sig .tc .vmem S4096x512 .bf16 := Memref.whole cc0_scratch0
/-- the receive buffer: eight slots of 512 × 512 -/
abbrev rM : Memref sig .tc .vmem S8x512x512 .bf16 := Memref.whole cc0_scratch1
abbrev aM : Memref sig .tc .vmem S512x512 .f32 := Memref.whole cc0_scratch2
abbrev wM : Memref sig .tc .vmem S2x512x4096 .f32 := Memref.whole cc0_scratch3
abbrev hM : Memref sig .tc .hbm S4096x8192 .f32 := Memref.whole main_arg1

/-- Slot o of a receive buffer, as sender o's transfer names its target. -/
abbrev slotM (o : Dev nD) : Memref sig .tc .vmem S512x512 .bf16 :=
  (rM.slice (Rect.unit (s := S8x512x512) (k0_off3 o) S1x512x512.size (k0_off3_inb o)) (fun _ => rfl)).squeeze S512x512 squeezes_S1x512x512_S512x512

/-! ## Semaphores and cells -/

abbrev barS : Sem sig := (SemArray.scalar (sig.barrier 0 rfl) : Sems sig S_).sem

/-- The send semaphore of the transfer to partner i+1. -/
abbrev sendSem : Fin 7 → DmaSem sig
  | 0 => ((cc0_scratch4.slice (Rect.unit (s := S7) ![0] S1.size inb_S7_S1_0)).squeeze S_ squeezes_S1_S_).sem
  | 1 => ((cc0_scratch4.slice (Rect.unit (s := S7) ![1] S1.size inb_S7_S1_1)).squeeze S_ squeezes_S1_S_).sem
  | 2 => ((cc0_scratch4.slice (Rect.unit (s := S7) ![2] S1.size inb_S7_S1_2)).squeeze S_ squeezes_S1_S_).sem
  | 3 => ((cc0_scratch4.slice (Rect.unit (s := S7) ![3] S1.size inb_S7_S1_3)).squeeze S_ squeezes_S1_S_).sem
  | 4 => ((cc0_scratch4.slice (Rect.unit (s := S7) ![4] S1.size inb_S7_S1_4)).squeeze S_ squeezes_S1_S_).sem
  | 5 => ((cc0_scratch4.slice (Rect.unit (s := S7) ![5] S1.size inb_S7_S1_5)).squeeze S_ squeezes_S1_S_).sem
  | 6 => ((cc0_scratch4.slice (Rect.unit (s := S7) ![6] S1.size inb_S7_S1_6)).squeeze S_ squeezes_S1_S_).sem

/-- The receive semaphore that sender o credits (on whichever device it sends to), as o's transfer names it. -/
abbrev recvSem (o : Dev nD) : DmaSem sig :=
  ((cc0_scratch5.slice (Rect.unit (s := S8) (k0_off2 o) S1.size (k0_off2_inb o))).squeeze S_ squeezes_S1_S_).sem

/-- The two semaphores of the local copies of w's blocks. -/
abbrev wSem : Fin 2 → DmaSem sig
  | 0 => ((cc0_scratch6.slice (Rect.unit (s := S2) ![0] S1.size inb_S2_S1_0)).squeeze S_ squeezes_S1_S_).sem
  | 1 => ((cc0_scratch6.slice (Rect.unit (s := S2) ![1] S1.size inb_S2_S1_1)).squeeze S_ squeezes_S1_S_).sem

abbrev barCell (c : Dev nD) : GSem nD τ sig := ((c : Thread nD τ), .reg barS)
abbrev sendCell (c : Dev nD) (i : Fin 7) : GSem nD τ sig := ((c : Thread nD τ), .dma (sendSem i))
/-- On device c, the cell sender o credits. -/
abbrev recvCell (c o : Dev nD) : GSem nD τ sig := ((c : Thread nD τ), .dma (recvSem o))

theorem sendSem_val : ∀ i : Fin 7, (sendSem i).val = 2 + i.val := by decide
theorem recvSem_val : ∀ o : Dev nD, (recvSem o).val = 9 + o.val := by decide
theorem wSem_val : ∀ i : Fin 2, (wSem i).val = 17 + i.val := by decide

/-- The units of one 512 × 512 half-precision block. -/
abbrev N : ℕ := (slotM (0 : Dev nD)).view.dmaCredit

/-! ## Contents -/

section Contents
variable (m : (ℓ : Loc nD τ sig) → Buf (Elt F) ℓ)

/-- Device c's block of x, as staged. -/
def xstg (c : Dev nD) : (cc0_stg0_0 : Ref sig .tc).ty.Contents (Elt F) :=
  (win0_0.blk (0 : Fin 1)).view.read (Elt F) (m ((c : Thread nD τ).loc main_arg0))

/-- Device c's copy of w. -/
def warr (c : Dev nD) : Buf (Elt F) ((c : Thread nD τ).loc main_arg1) := m ((c : Thread nD τ).loc main_arg1)

end Contents

/-! ## Reading a cell's semaphore back -/

/-- Which sender's receive semaphore a DMA semaphore is, if any. -/
def recvIdx (s : DmaSem sig) : Option (Dev nD) :=
  if h : 9 ≤ s.val ∧ s.val < 17 then some ⟨s.val - 9, by have := h.1; have := h.2; show s.val - 9 < 8; omega⟩ else none
/-- Which send semaphore a DMA semaphore is, if any. -/
def sendIdx (s : DmaSem sig) : Option (Fin 7) :=
  if h : 2 ≤ s.val ∧ s.val < 9 then some ⟨s.val - 2, by have := h.1; have := h.2; omega⟩ else none

theorem recvIdx_recvSem : ∀ o : Dev nD, recvIdx (recvSem o) = some o := by decide
theorem sendIdx_sendSem : ∀ i : Fin 7, sendIdx (sendSem i) = some i := by decide
theorem recvIdx_sendSem : ∀ i : Fin 7, recvIdx (sendSem i) = none := by decide
theorem sendIdx_recvSem : ∀ o : Dev nD, sendIdx (recvSem o) = none := by decide
theorem recvIdx_wSem : ∀ i : Fin 2, recvIdx (wSem i) = none := by decide
theorem sendIdx_wSem : ∀ i : Fin 2, sendIdx (wSem i) = none := by decide

/-- The partner index of o seen from d: the k with peer d k = o (0 for d itself). -/
def kOf (d o : Dev nD) : Nat := ((List.range 8).find? (fun k => decide (peer d k = o))).getD 0
theorem peer_kOf : ∀ d o : Dev nD, peer d (kOf d o) = o := by decide
theorem kOf_peer : ∀ d : Dev nD, ∀ k : Fin 8, kOf d (peer d k.val) = k.val := by decide
theorem kOf_lt : ∀ d o : Dev nD, kOf d o < 8 := by decide
theorem kOf_symm : ∀ d o : Dev nD, kOf o d = kOf d o := by decide

/-! ## The schedule -/

section Sched
variable (m : (ℓ : Loc nD τ sig) → Buf (Elt F) ℓ)

/-- The rows of device c's half-precision copy that go to its (i+1)-th partner, as its transfer names its source. -/
abbrev rowsM (c : Dev nD) (i : Fin 7) : Memref sig .tc .vmem S512x512 .bf16 :=
  bM.slice (Rect.unit (s := S4096x512) (k0_off4 c (k0_off4_at i).1 (k0_off4_at i).2.1 (k0_off4_at i).2.2) S512x512.size (k0_off4_inb c i)) (fun _ => rfl)

/-- What device c's half-precision copy holds once the cast is stored: the payload of that store over its block of x. -/
def xbC (c : Dev nD) : Buf (Elt F) ((bM : Memref sig .tc .vmem S4096x512 .bf16).view.loc (c : Thread nD τ)) :=
  k0_pay1 (xstg m c)

/-- What slot o of device c's receive buffer holds once o's transfer has landed: o's rows for c, written into the
    slot over contents that do not matter. -/
def landed (c o : Dev nD) : Buf (Elt F) ((slotM o).view.loc (c : Thread nD τ)) :=
  (slotM o).view.write (Elt F) (fun _ => Classical.arbitrary _)
    ((rowsM o ⟨kOf o c - 1, by have := kOf_lt o c; omega⟩).view.read (Elt F) (xbC m o)) Finset.univ

/-- Duty k of device o's barrier cell, paid by its k-th partner: that partner's slot o. -/
def barPay (o : Dev nD) (k : Fin 8) : sProp 𝕄 :=
  iprop(∃ f, (slotM o).view.loc (peer o k.val : Thread nD τ) ↦[(slotM o).view.set]{fullShare} f)
def recvPay (c o : Dev nD) : sProp 𝕄 :=
  (slotM o).view.loc (c : Thread nD τ) ↦[(slotM o).view.set]{fullShare} landed m c o
def sendPay (c : Dev nD) (i : Fin 7) : sProp 𝕄 :=
  (rowsM c i).view.loc (c : Thread nD τ) ↦[(rowsM c i).view.set]{fullShare} xbC m c

/-- One round, round 0. A barrier cell: the seven duties k = 1..7 of one unit each. A receive cell of another
    sender, a send cell: one duty of a block's credit. -/
def Rd : Rounds.Schedule (GSem nD τ sig) (Fin 8) 𝕄 where
  duties g r :=
    if r = 0 ∧ g.1.2 = .tc then
      match g.2 with
      | .reg s => if s = barS then Finset.univ.erase 0 else ∅
      | .dma s =>
        match recvIdx s with
        | some o => if o = g.1.1 then ∅ else {0}
        | none => match sendIdx s with
          | some _ => {0}
          | none => ∅
    else ∅
  unitless _ := False
  amount g _ _ := match g.2 with | .reg _ => 1 | .dma _ => N
  payload g _ d :=
    match g.2 with
    | .reg _ => barPay g.1.1 d
    | .dma s =>
      match recvIdx s with
      | some o => recvPay m g.1.1 o
      | none => match sendIdx s with
        | some i => sendPay m g.1.1 i
        | none => iprop(emp)
  amount_pos g _ _ _ := by
    cases g.2
    · exact Nat.one_pos
    · exact View.dmaCredit_pos _ (by decide)

end Sched

/-! ## What each device owes at launch; the levels -/

/-- Device c owes each partner's receive cell c a block's credit and each partner's barrier cell one unit. -/
def O₀ (c : Dev nD) : CellTallies nD τ sig Unit :=
  tallyAt (recvCell (peer c 7) c) () N + tallyAt (recvCell (peer c 6) c) () N + tallyAt (recvCell (peer c 5) c) () N
    + tallyAt (recvCell (peer c 4) c) () N + tallyAt (recvCell (peer c 3) c) () N + tallyAt (recvCell (peer c 2) c) () N
    + tallyAt (recvCell (peer c 1) c) () N
    + tallyAt (barCell (peer c 7)) () 1 + tallyAt (barCell (peer c 6)) () 1 + tallyAt (barCell (peer c 5)) () 1
    + tallyAt (barCell (peer c 4)) () 1 + tallyAt (barCell (peer c 3)) () 1 + tallyAt (barCell (peer c 2)) () 1
    + tallyAt (barCell (peer c 1)) () 1

def L (g : GSem nD τ sig) : Finset Unit := if g.1.2 = .tc then {()} else ∅
/-- Barrier cells at 1; the receive cell device d keeps for its k-th partner at 2 + k; everything else (the
    staging cells, the send cells, the local copies' cells) at 0. A device waits its k-th receive cell while it may
    still owe its 7th partner, whose receive cell for it stands at 2 + 7. -/
def lv (g : GSem nD τ sig) (_ : Unit) : ℕ :=
  match g.2 with
  | .reg _ => 1
  | .dma s => match recvIdx s with
    | some o => 2 + kOf g.1.1 o
    | none => 0

theorem L_of_ne (g : GSem nD τ sig) (h : g.1.2 ≠ .tc) : L g = ∅ := if_neg h
theorem L_tc (c : Dev nD) (sm : SemLoc sig) : L ((c : Thread nD τ), sm) = {()} := if_pos rfl

/-! ## The cells of one device, indexed: 0 the barrier, 1..7 the send cells, 8..14 the receive cells of partners 1..7 -/

abbrev csem (c : Dev nD) : Fin 15 → SemLoc sig
  | 0 => .reg barS
  | 1 => .dma (sendSem 0) | 2 => .dma (sendSem 1) | 3 => .dma (sendSem 2) | 4 => .dma (sendSem 3)
  | 5 => .dma (sendSem 4) | 6 => .dma (sendSem 5) | 7 => .dma (sendSem 6)
  | 8 => .dma (recvSem (peer c 1)) | 9 => .dma (recvSem (peer c 2)) | 10 => .dma (recvSem (peer c 3))
  | 11 => .dma (recvSem (peer c 4)) | 12 => .dma (recvSem (peer c 5)) | 13 => .dma (recvSem (peer c 6))
  | 14 => .dma (recvSem (peer c 7))
abbrev kcell (ck : Dev nD × Fin 15) : GSem nD τ sig := ((ck.1 : Thread nD τ), csem ck.1 ck.2)

/-! ## What the body starts from, and what it leaves -/

section Ghost
variable (m : (ℓ : Loc nD τ sig) → Buf (Elt F) ℓ)
variable (K : Dev nD × Fin 15 → ℕ)

/-- The cells' invariants device c's body opens, under the names the launch allocated them at: its own fifteen, and
    of each partner the barrier cell and the receive cell c credits (cell 7 + k of partner peer c k: c is its k-th). -/
def invs (c : Dev nD) : sProp 𝕄 :=
  iprop((bigSep Finset.univ fun n : Fin 15 => cellInv ER (Rd m) (K (c, n)) (kcell (c, n)))
    ∗ (bigSep (Finset.univ.erase (0 : Fin 8)) fun k : Fin 8 => cellInv ER (Rd m) (K (peer c k.val, 0)) (barCell (peer c k.val)))
    ∗ (bigSep (Finset.univ.erase (0 : Fin 8)) fun k : Fin 8 => cellInv ER (Rd m) (K (peer c k.val, ⟨7 + k.val, by have := k.isLt; omega⟩)) (recvCell (peer c k.val) c)))

/-- The protocol's ghost state device c starts from: the invariants; its positions at round 0 of its fifteen cells; round 0
    reached of every cell it waits or pays; the tokens it pays with — duty k of its k-th partner's barrier cell, the duty
    of that partner's receive cell c, the duty of each of its send cells. -/
def ghost (c : Dev nD) : sProp 𝕄 :=
  iprop(invs m K c
    ∗ (bigSep Finset.univ fun n : Fin 15 => atPos ER (kcell (c, n)) 0 ∅ 0)
    ∗ (bigSep Finset.univ fun n : Fin 15 => reached ER (kcell (c, n)) 0)
    ∗ (bigSep (Finset.univ.erase (0 : Fin 8)) fun k : Fin 8 => reached ER (barCell (peer c k.val)) 0)
    ∗ (bigSep (Finset.univ.erase (0 : Fin 8)) fun k : Fin 8 => reached ER (recvCell (peer c k.val) c) 0)
    ∗ (bigSep (Finset.univ.erase (0 : Fin 8)) fun k : Fin 8 => dutyTok ER (barCell (peer c k.val)) 0 k)
    ∗ (bigSep (Finset.univ.erase (0 : Fin 8)) fun k : Fin 8 => dutyTok ER (recvCell (peer c k.val) c) 0 (0 : Fin 8))
    ∗ (bigSep Finset.univ fun i : Fin 7 => dutyTok ER (sendCell c i) 0 (0 : Fin 8)))

/-- The credit the launch deals device c for the units others owe its cells: seven on its barrier, a block on each
    partner's receive cell. -/
def creds (c : Dev nD) : sProp 𝕄 :=
  iprop(cred (tallyAt (barCell c) () 7)
    ∗ bigSep (Finset.univ.erase (0 : Fin 8)) fun k : Fin 8 => cred (tallyAt (recvCell c (peer c k.val)) () N))

/-- The three own semaphores that are no cell of the protocol: the receive semaphore of the device's own index, and the
    two of the local copies; held at zero. -/
def idleSems (c : Dev nD) : sProp 𝕄 :=
  iprop(semVal ((c : Thread nD τ), .dma (recvSem c)) 0 ∗ semVal ((c : Thread nD τ), .dma (wSem 0)) 0 ∗ semVal ((c : Thread nD τ), .dma (wSem 1)) 0)

def start (c : Dev nD) : sProp 𝕄 :=
  iprop((∃ K, ghost m K c) ∗ creds c ∗ idleSems c ∗ levAts L lv
    ∗ (((c : Thread nD τ).loc main_arg1) ↦{fullShare} warr m c))

/-- The four scratch buffers, each whole at some contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f))

def Φ₀ (c : Dev nD) : sProp 𝕄 := iprop(start m c ∗ scratch c)

/-- The seventeen own semaphores at zero, as the launch takes them back. -/
def ownZero (c : Dev nD) : sProp 𝕄 :=
  iprop((bigSep Finset.univ fun i : Fin 7 => semVal (sendCell c i) 0)
    ∗ (bigSep Finset.univ fun o : Dev nD => semVal (recvCell c o) 0)
    ∗ semVal ((c : Thread nD τ), .dma (wSem 0)) 0 ∗ semVal ((c : Thread nD τ), .dma (wSem 1)) 0)

/-- After the point: the scratch buffers at some contents, the own semaphores at zero, w as it was. -/
def Φ₁ (c : Dev nD) : sProp 𝕄 :=
  iprop(scratch c ∗ ownZero c ∗ (((c : Thread nD τ).loc main_arg1) ↦{fullShare} warr m c))

end Ghost

end Cert.Kernel.Proto

end
-- ==== Proof.Bits.LaunchPre.lean ====
/- The launch of the kernel on eight devices, first part: what does not depend on the body. The kernel's own
   semaphores listed; the fifteen protocol cells of every device and the duty tokens as the launch mints them;
   the launch element; the cells' invariants allocated from their counters at zero and the tokens dealt to the
   devices that pay with them; the credit the launch deals each device for what the others owe its cells. -/
import proofs.«900487_g7700000000000488_dist_a2a_gemm_m4096_k4096_n8192_f32_gelu_v7x_i8_1_alg».proof.Proof.Bits.Sched

noncomputable section

namespace Cert.Kernel.LaunchPre

open Cert.Kernel Cert.Kernel.Gen Cert.Kernel.Devs Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Partners, as equivalences -/

/-- The partner indices 1..7. -/
abbrev E7 : Finset (Fin 8) := Finset.univ.erase 0

/-- For a fixed index k, taking the k-th partner is an involution of the mesh. -/
def peerE (k : Fin 8) : Dev nD ≃ Dev nD := ⟨fun c => peer c k.val, fun c => peer c k.val, fun c => peer_invol c k, fun c => peer_invol c k⟩
/-- For a fixed device, its partners in order enumerate the mesh. -/
def peerF (c : Dev nD) : Fin 8 ≃ Dev nD :=
  ⟨fun k => peer c k.val, fun o => ⟨kOf c o, kOf_lt c o⟩, fun k => Fin.ext (kOf_peer c k), fun o => peer_kOf c o⟩

/-! ## The kernel's own semaphores -/

/-- The seventeen scoped DMA semaphores the kernel declares: seven send, eight receive, two for the local copies. -/
abbrev osem : Fin 17 → SemLoc sig
  | 0 => .dma (sendSem 0) | 1 => .dma (sendSem 1) | 2 => .dma (sendSem 2) | 3 => .dma (sendSem 3)
  | 4 => .dma (sendSem 4) | 5 => .dma (sendSem 5) | 6 => .dma (sendSem 6)
  | 7 => .dma (recvSem 0) | 8 => .dma (recvSem 1) | 9 => .dma (recvSem 2) | 10 => .dma (recvSem 3)
  | 11 => .dma (recvSem 4) | 12 => .dma (recvSem 5) | 13 => .dma (recvSem 6) | 14 => .dma (recvSem 7)
  | 15 => .dma (wSem 0) | 16 => .dma (wSem 1)
  | ⟨_ + 17, h⟩ => absurd h (Nat.not_lt.2 (Nat.le_add_left _ _))

theorem ownSemFacts : Pipeline.OwnSemFacts cfg0.spec osem := by decide

omit [FloatOps F] in
/-- The own semaphores at zero, one by one. -/
theorem ownSems0_eq (c : Dev nD) :
    (Pipeline.ownSems0 (Ix := Unit) (Name := ℕ) (U := UU) (Lvl := ℕ) (Val := Elt F) (τ := τ) osem c : sProp 𝕄)
      = iprop(semVal (sendCell c 0) 0 ∗ semVal (sendCell c 1) 0 ∗ semVal (sendCell c 2) 0 ∗ semVal (sendCell c 3) 0
          ∗ semVal (sendCell c 4) 0 ∗ semVal (sendCell c 5) 0 ∗ semVal (sendCell c 6) 0
          ∗ semVal (recvCell c 0) 0 ∗ semVal (recvCell c 1) 0 ∗ semVal (recvCell c 2) 0 ∗ semVal (recvCell c 3) 0
          ∗ semVal (recvCell c 4) 0 ∗ semVal (recvCell c 5) 0 ∗ semVal (recvCell c 6) 0 ∗ semVal (recvCell c 7) 0
          ∗ semVal ((c : Thread nD τ), .dma (wSem 0)) 0 ∗ semVal ((c : Thread nD τ), .dma (wSem 1)) 0) := by
  rw [Pipeline.ownSems0_eq_of_list c osem [0, 1, 2, 3, 4, 5, 6, 7, 8, 9, 10, 11, 12, 13, 14, 15, 16] (by decide) (by decide)]; rfl

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_E7 (Φ : Fin 8 → sProp 𝕄) : bigSep E7 Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ
omit [FloatOps F] in
theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

omit [FloatOps F] in
/-- The same in the grouping the body hands them back in: the send semaphores, the receive semaphores by sender,
    the two of the local copies. -/
theorem ownSems0_eq_groups (c : Dev nD) :
    (Pipeline.ownSems0 (Ix := Unit) (Name := ℕ) (U := UU) (Lvl := ℕ) (Val := Elt F) (τ := τ) osem c : sProp 𝕄)
      = iprop((bigSep Finset.univ fun i : Fin 7 => semVal (sendCell c i) 0)
          ∗ (bigSep Finset.univ fun o : Dev nD => semVal (recvCell c o) 0)
          ∗ semVal ((c : Thread nD τ), .dma (wSem 0)) 0 ∗ semVal ((c : Thread nD τ), .dma (wSem 1)) 0) := by
  rw [ownSems0_eq, bigSep_fin7, bigSep_fin8]
  refine BI.Entails.antisymm (show _ ⊢ (_ : sProp 𝕄) from ?_) (show _ ⊢ (_ : sProp 𝕄) from ?_)
  · iintro ⟨H0, H1, H2, H3, H4, H5, H6, R0, R1, R2, R3, R4, R5, R6, R7, W0, W1⟩
    iframe
  · iintro ⟨⟨H0, H1, H2, H3, H4, H5, H6⟩, ⟨R0, R1, R2, R3, R4, R5, R6, R7⟩, W0, W1⟩
    iframe

/-! ## The protocol's cells and the duty tokens, as minted -/

theorem csem_inj : ∀ c : Dev nD, ∀ k k' : Fin 15, csem c k = csem c k' → k = k' := by decide

theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem c k = csem c k' := congrArg Prod.snd h
  rw [csem_inj c k k' h2]

def ringCells : Finset (GSem nD τ sig) := Finset.univ.map ⟨kcell, kcell_injective⟩

/-- What names a duty token among one device's cells: a duty k = 1..7 of its barrier cell, one of its seven send
    cells, or its receive cell of partner k = 1..7. -/
abbrev TokIx : Type := {k : Fin 8 // k ≠ 0} ⊕ Fin 7 ⊕ {k : Fin 8 // k ≠ 0}

/-- The duty tokens as the launch mints them, by the cell they belong to. -/
def tokOf (cj : Dev nD × TokIx) : GSem nD τ sig × ℕ × Fin 8 :=
  match cj.2 with
  | .inl k => (barCell cj.1, 0, k.1)
  | .inr (.inl i) => (sendCell cj.1 i, 0, 0)
  | .inr (.inr k) => (recvCell cj.1 (peer cj.1 k.1.val), 0, 0)

theorem sendSem_inj : ∀ i i' : Fin 7, sendSem i = sendSem i' → i = i' := by decide
theorem recvSem_inj : ∀ o o' : Dev nD, recvSem o = recvSem o' → o = o' := by decide
theorem sendSem_ne_recvSem : ∀ (i : Fin 7) (o : Dev nD), sendSem i ≠ recvSem o := by decide

theorem tokOf_injective : Function.Injective (tokOf : Dev nD × TokIx → GSem nD τ sig × ℕ × Fin 8) := by
  rintro ⟨c, j⟩ ⟨c', j'⟩ h
  have h1 : c = c' := by
    have := congrArg (fun x : GSem nD τ sig × ℕ × Fin 8 => x.1.1.1) h
    rcases j with k | i | k <;> rcases j' with k' | i' | k' <;> exact this
  subst h1
  have hs : (tokOf (c, j)).1.2 = (tokOf (c, j')).1.2 := congrArg (fun x : GSem nD τ sig × ℕ × Fin 8 => x.1.2) h
  have hd : (tokOf (c, j)).2.2 = (tokOf (c, j')).2.2 := congrArg (fun x : GSem nD τ sig × ℕ × Fin 8 => x.2.2) h
  rcases j with k | i | k <;> rcases j' with k' | i' | k'
  · have hk : k = k' := Subtype.ext hd
    rw [hk]
  · exact absurd (show (SemLoc.reg barS : SemLoc sig) = .dma (sendSem i') from hs) (fun h => by cases h)
  · exact absurd (show (SemLoc.reg barS : SemLoc sig) = .dma (recvSem (peer c k'.1.val)) from hs) (fun h => by cases h)
  · exact absurd (show (SemLoc.dma (sendSem i) : SemLoc sig) = .reg barS from hs) (fun h => by cases h)
  · have hi : i = i' := sendSem_inj i i' (SemLoc.dma.inj (show (SemLoc.dma (sendSem i) : SemLoc sig) = .dma (sendSem i') from hs))
    rw [hi]
  · exact absurd (SemLoc.dma.inj (show (SemLoc.dma (sendSem i) : SemLoc sig) = .dma (recvSem (peer c k'.1.val)) from hs)) (sendSem_ne_recvSem i _)
  · exact absurd (show (SemLoc.dma (recvSem (peer c k.1.val)) : SemLoc sig) = .reg barS from hs) (fun h => by cases h)
  · exact absurd (SemLoc.dma.inj (show (SemLoc.dma (recvSem (peer c k.1.val)) : SemLoc sig) = .dma (sendSem i') from hs)).symm (sendSem_ne_recvSem i' _)
  · have hp : peer c k.1.val = peer c k'.1.val :=
      recvSem_inj _ _ (SemLoc.dma.inj (show (SemLoc.dma (recvSem (peer c k.1.val)) : SemLoc sig) = .dma (recvSem (peer c k'.1.val)) from hs))
    have hk : k = k' := Subtype.ext (peer_inj c k.1 k'.1 hp)
    rw [hk]

def ringToks : Finset (GSem nD τ sig × ℕ × Fin 8) := Finset.univ.map ⟨tokOf, tokOf_injective⟩

/-- The launch element: the pipeline's staging cells and their tokens; the protocol's cells and tokens; no counter
    of a local copy (each is made when its copy is issued). -/
def u₀ : UU :=
  (initOf (Pipeline.cells cfgs cellOf_inj) (Pipeline.launchToks cfgs cellOf_inj), (initOf ringCells ringToks, 1))

/-! ## What the launch element deals each device, and the global step -/

section Fund
variable (m : (ℓ : Loc nD τ sig) → Buf (Elt F) ℓ)

/-- Every payload of the schedule can be kept in an invariant. -/
instance Rd_payload_storable (g : GSem nD τ sig) (r : ℕ) (d : Fin 8) :
    BI.Storable (upEmb : UEmb _ 𝕄) ((Rd (F := F) m).payload g r d) := by
  show BI.Storable upEmb (match g.2 with
    | .reg _ => barPay g.1.1 d
    | .dma s => match recvIdx s with
      | some o => recvPay m g.1.1 o
      | none => match sendIdx s with
        | some i => sendPay m g.1.1 i
        | none => iprop(emp))
  unfold barPay recvPay sendPay
  (repeat' split) <;> infer_instance

/-- The duty tokens of device c's own cells. -/
def toks (c : Dev nD) : sProp 𝕄 :=
  iprop((bigSep E7 fun k : Fin 8 => dutyTok ER (barCell c) 0 k)
    ∗ (bigSep Finset.univ fun i : Fin 7 => dutyTok ER (sendCell c i) 0 (0 : Fin 8))
    ∗ (bigSep E7 fun k : Fin 8 => dutyTok ER (recvCell c (peer c k.val)) 0 (0 : Fin 8)))

/-- The tokens device c pays with: duty k of its k-th partner's barrier cell, the duty of that partner's receive cell
    for c, the duty of each of its own send cells. -/
def payToks (c : Dev nD) : sProp 𝕄 :=
  iprop((bigSep E7 fun k : Fin 8 => dutyTok ER (barCell (peer c k.val)) 0 k)
    ∗ (bigSep E7 fun k : Fin 8 => dutyTok ER (recvCell (peer c k.val) c) 0 (0 : Fin 8))
    ∗ (bigSep Finset.univ fun i : Fin 7 => dutyTok ER (sendCell c i) 0 (0 : Fin 8)))

/-- What the launch element deals device c (the launch theorem's G). -/
def G (c : Dev nD) : sProp 𝕄 :=
  iprop((bigSep Finset.univ fun n : Fin 15 => roundState ER (Rd m) (kcell (c, n)) 0)
    ∗ (bigSep Finset.univ fun n : Fin 15 => iprop(atPos ER (kcell (c, n)) 0 ∅ 0 ∗ reached ER (kcell (c, n)) 0)) ∗ toks c)

/-- What the global step makes of it (G'): the ghost state the body starts from, at some names, and the three own
    semaphores that are no cell of the protocol. -/
def G' (c : Dev nD) : sProp 𝕄 := iprop((∃ K, ghost m K c) ∗ idleSems c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun n : Fin 15 => Φ (kcell (c, n)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_sum, bigSep_univ_sum, ← bigSep_subtype_ne (0 : Fin 8), ← bigSep_subtype_ne (0 : Fin 8)]
      rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- Something said of each of device c's fifteen cells: of the barrier cell, of the send cells, of the receive cells by
    partner. -/
theorem cells_eq (c : Dev nD) (Φ : GSem nD τ sig → sProp 𝕄) :
    (bigSep Finset.univ fun n : Fin 15 => Φ (kcell (c, n)))
      = iprop(Φ (barCell c) ∗ (bigSep Finset.univ fun i : Fin 7 => Φ (sendCell c i)) ∗ (bigSep E7 fun k : Fin 8 => Φ (recvCell c (peer c k.val)))) := by
  rw [bigSep_fin15, bigSep_fin7, bigSep_E7]
  show iprop(Φ (barCell c) ∗ Φ (sendCell c 0) ∗ Φ (sendCell c 1) ∗ Φ (sendCell c 2) ∗ Φ (sendCell c 3) ∗ Φ (sendCell c 4)
      ∗ Φ (sendCell c 5) ∗ Φ (sendCell c 6) ∗ Φ (recvCell c (peer c 1)) ∗ Φ (recvCell c (peer c 2)) ∗ Φ (recvCell c (peer c 3))
      ∗ Φ (recvCell c (peer c 4)) ∗ Φ (recvCell c (peer c 5)) ∗ Φ (recvCell c (peer c 6)) ∗ Φ (recvCell c (peer c 7)))
    = iprop(Φ (barCell c) ∗ (Φ (sendCell c 0) ∗ Φ (sendCell c 1) ∗ Φ (sendCell c 2) ∗ Φ (sendCell c 3) ∗ Φ (sendCell c 4)
      ∗ Φ (sendCell c 5) ∗ Φ (sendCell c 6)) ∗ (Φ (recvCell c (peer c 1)) ∗ Φ (recvCell c (peer c 2)) ∗ Φ (recvCell c (peer c 3))
      ∗ Φ (recvCell c (peer c 4)) ∗ Φ (recvCell c (peer c 5)) ∗ Φ (recvCell c (peer c 6)) ∗ Φ (recvCell c (peer c 7))))
  refine BI.Entails.antisymm (show _ ⊢ (_ : sProp 𝕄) from ?_) (show _ ⊢ (_ : sProp 𝕄) from ?_)
  · iintro ⟨B, S0, S1, S2, S3, S4, S5, S6, R1, R2, R3, R4, R5, R6, R7⟩
    iframe
  · iintro ⟨B, ⟨S0, S1, S2, S3, S4, S5, S6⟩, R1, R2, R3, R4, R5, R6, R7⟩
    iframe

omit [FloatOps F] in
/-- Something said of every device, from device c's point of view: of c itself and of its seven partners. -/
theorem by_partner (c : Dev nD) (Ψ : Dev nD → sProp 𝕄) :
    bigSep Finset.univ Ψ = iprop(Ψ c ∗ bigSep E7 fun k : Fin 8 => Ψ (peer c k.val)) := by
  rw [bigSep_univ_equiv (peerF c) Ψ, bigSep_univ_at _ (0 : Fin 8)]
  show iprop(Ψ (peer c (0 : Fin 8).val) ∗ bigSep E7 fun k : Fin 8 => Ψ (peer c k.val)) = _
  rw [show peer c (0 : Fin 8).val = c from peer_zero c]

omit [FloatOps F] in
/-- Device c's own and unscoped semaphores at zero: its fifteen cells' counters, and the three that are no cell. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun n : Fin 15 => semVal (kcell (c, n)) 0) ∗ idleSems c) : sProp 𝕄) := by
  rw [ownSems0_eq_groups, unscopedSems0_eq, cells_eq c (fun g => semVal g 0), by_partner c (fun o => semVal (recvCell c o) 0)]
  unfold idleSems
  iintro ⟨⟨HS, ⟨R0, HR⟩, W0, W1⟩, HB⟩
  iframe

/-- The fifteen cells' invariants allocated from their counters at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun n : Fin 15 => iprop(∃ κ : ℕ, cellInv ER (Rd m) κ (kcell (c, n))))
          ∗ (bigSep Finset.univ fun n : Fin 15 => iprop(atPos ER (kcell (c, n)) 0 ∅ 0 ∗ reached ER (kcell (c, n)) 0))
          ∗ toks c ∗ idleSems c) := by
  unfold G
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun n : Fin 15 => semVal (kcell (c, n)) 0) ∗ bigSep Finset.univ fun n : Fin 15 => roundState ER (Rd m) (kcell (c, n)) 0)
      ⊢ (|={Set.univ}=> bigSep Finset.univ fun n : Fin 15 => iprop(∃ κ : ℕ, cellInv ER (Rd m) κ (kcell (c, n))) : sProp 𝕄) from by
        rw [← bigSep_sep']
        exact (bigSep_mono fun n _ => (Rounds.body_intro ER (Rd m) (kcell (c, n))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

/-! ### The tokens dealt to the devices that pay with them -/

omit [FloatOps F] in
theorem bigSep_swap {α β : Type} [DecidableEq α] (s : Finset α) (t : Finset β) (Φ : α → β → sProp 𝕄) :
    (bigSep s fun a => bigSep t fun b => Φ a b) = bigSep t fun b => bigSep s fun a => Φ a b := by
  induction s using Finset.induction_on with
  | empty => simp only [bigSep_empty, bigSep_emp_const]
  | insert a s ha ih => simp only [bigSep_insert ha]; rw [ih]; exact (bigSep_sep t _ _).symm

omit [FloatOps F] in
/-- What is said of (device, partner index), said instead of (its partner of that index, the index): for each index,
    taking the partner is an involution of the mesh. -/
theorem around (Φ : Dev nD → Fin 8 → sProp 𝕄) :
    (bigSep Finset.univ fun c : Dev nD => bigSep E7 fun k : Fin 8 => Φ c k)
      = bigSep Finset.univ fun c : Dev nD => bigSep E7 fun k : Fin 8 => Φ (peer c k.val) k := by
  rw [bigSep_swap, bigSep_swap (Φ := fun c k => Φ (peer c k.val) k)]
  exact bigSep_congr fun k _ => bigSep_univ_equiv (peerE k) (fun c => Φ c k)

omit [FloatOps F] in
/-- The same for what is said of (device, its partner): said of (the partner, the device). -/
theorem around_pair (Ψ : Dev nD → Dev nD → sProp 𝕄) :
    (bigSep Finset.univ fun c : Dev nD => bigSep E7 fun k : Fin 8 => Ψ c (peer c k.val))
      = bigSep Finset.univ fun c : Dev nD => bigSep E7 fun k : Fin 8 => Ψ (peer c k.val) c := by
  rw [around (fun c k => Ψ c (peer c k.val))]
  exact bigSep_congr fun c _ => bigSep_congr fun k _ => by
    show Ψ (peer c k.val) (peer (peer c k.val) k.val) = _
    rw [peer_invol c k]

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    around (fun c k => (dutyTok ER (barCell c) 0 k : sProp 𝕄)),
    around_pair (fun c o => (dutyTok ER (recvCell c o) 0 (0 : Fin 8) : sProp 𝕄))]
  iintro ⟨H1, H2, H3⟩
  iframe

/-! ### The invariants and the reached-marks, persistent, handed to every device that needs them -/

theorem kcell_recv_partner : ∀ c : Dev nD, ∀ k : Fin 8, k ≠ 0 →
    kcell (peer c k.val, ⟨7 + k.val, by have := k.isLt; omega⟩) = recvCell (peer c k.val) c := by decide

def records (K : Dev nD × Fin 15 → ℕ) : sProp 𝕄 :=
  iprop((bigSep Finset.univ fun ck : Dev nD × Fin 15 => cellInv ER (Rd m) (K ck) (kcell ck))
    ∗ bigSep Finset.univ fun ck : Dev nD × Fin 15 => reached ER (kcell ck) 0)

instance records_persistent (K : Dev nD × Fin 15 → ℕ) : BI.Persistent (records m K) := by unfold records; infer_instance

theorem inv_at (K : Dev nD × Fin 15 → ℕ) (ck : Dev nD × Fin 15) :
    (bigSep Finset.univ fun ck : Dev nD × Fin 15 => (cellInv ER (Rd m) (K ck) (kcell ck) : sProp 𝕄)) ⊢ cellInv ER (Rd m) (K ck) (kcell ck) :=
  bigSep_elim (Finset.mem_univ ck)
omit [FloatOps F] in
theorem reached_at (ck : Dev nD × Fin 15) :
    (bigSep Finset.univ fun ck : Dev nD × Fin 15 => (reached ER (kcell ck) 0 : sProp 𝕄)) ⊢ reached ER (kcell ck) 0 :=
  bigSep_elim (Finset.mem_univ ck)

theorem invs_intro (K : Dev nD × Fin 15 → ℕ) (c : Dev nD) :
    (bigSep Finset.univ fun ck : Dev nD × Fin 15 => (cellInv ER (Rd m) (K ck) (kcell ck) : sProp 𝕄)) ⊢ Proto.invs m K c := by
  unfold Proto.invs
  iintro #HI
  isplitr
  · iapply (show (bigSep Finset.univ fun ck : Dev nD × Fin 15 => (cellInv ER (Rd m) (K ck) (kcell ck) : sProp 𝕄))
        ⊢ bigSep Finset.univ fun n : Fin 15 => cellInv ER (Rd m) (K (c, n)) (kcell (c, n)) from
      bigSep_intro_persistent fun n _ => inv_at m K (c, n))
    iexact HI
  isplitr
  · iapply (show (bigSep Finset.univ fun ck : Dev nD × Fin 15 => (cellInv ER (Rd m) (K ck) (kcell ck) : sProp 𝕄))
        ⊢ bigSep E7 fun k : Fin 8 => cellInv ER (Rd m) (K (peer c k.val, 0)) (barCell (peer c k.val)) from
      bigSep_intro_persistent fun k _ => inv_at m K (peer c k.val, 0))
    iexact HI
  · iapply (show (bigSep Finset.univ fun ck : Dev nD × Fin 15 => (cellInv ER (Rd m) (K ck) (kcell ck) : sProp 𝕄))
        ⊢ bigSep E7 fun k : Fin 8 => cellInv ER (Rd m) (K (peer c k.val, ⟨7 + k.val, by have := k.isLt; omega⟩)) (recvCell (peer c k.val) c) from
      bigSep_intro_persistent fun k hk => by
        rw [← kcell_recv_partner c k (Finset.ne_of_mem_erase hk)]; exact inv_at m K _)
    iexact HI

/-- From the records and what stays with device c — its positions, the tokens it pays with — the ghost state its body
    starts from. -/
theorem ghost_intro (K : Dev nD × Fin 15 → ℕ) (c : Dev nD) :
    iprop(records m K ∗ (bigSep Finset.univ fun n : Fin 15 => atPos ER (kcell (c, n)) 0 ∅ 0) ∗ payToks c) ⊢ ghost m K c := by
  unfold records payToks ghost
  iintro ⟨⟨#HI, #HR⟩, Hat, HtB, HtR, HtS⟩
  isplitr
  · iapply (invs_intro m K c); iexact HI
  isplitl [Hat]; · iexact Hat
  isplitr
  · iapply (show (bigSep Finset.univ fun ck : Dev nD × Fin 15 => (reached ER (kcell ck) 0 : sProp 𝕄))
        ⊢ bigSep Finset.univ fun n : Fin 15 => reached ER (kcell (c, n)) 0 from
      bigSep_intro_persistent fun n _ => reached_at (F := F) (c, n))
    iexact HR
  isplitr
  · iapply (show (bigSep Finset.univ fun ck : Dev nD × Fin 15 => (reached ER (kcell ck) 0 : sProp 𝕄))
        ⊢ bigSep E7 fun k : Fin 8 => reached ER (barCell (peer c k.val)) 0 from
      bigSep_intro_persistent fun k _ => reached_at (F := F) (peer c k.val, 0))
    iexact HR
  isplitr
  · iapply (show (bigSep Finset.univ fun ck : Dev nD × Fin 15 => (reached ER (kcell ck) 0 : sProp 𝕄))
        ⊢ bigSep E7 fun k : Fin 8 => reached ER (recvCell (peer c k.val) c) 0 from
      bigSep_intro_persistent fun k hk => by
        rw [← kcell_recv_partner c k (Finset.ne_of_mem_erase hk)]; exact reached_at (F := F) _)
    iexact HR
  isplitl [HtB]; · iexact HtB
  isplitl [HtR]; · iexact HtR
  iexact HtS

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun n : Fin 15 => iprop(∃ κ : ℕ, cellInv ER (Rd m) κ (kcell (c, n))))
          ∗ (bigSep Finset.univ fun n : Fin 15 => iprop(atPos ER (kcell (c, n)) 0 ∅ 0 ∗ reached ER (kcell (c, n)) 0))
          ∗ toks c ∗ idleSems c) : sProp 𝕄)
      ⊢ bigSep Finset.univ (G' m) := by
  rw [bigSep_sep', bigSep_sep', bigSep_sep', ← bigSep_univ_prod (fun ck : Dev nD × Fin 15 => iprop(∃ κ : ℕ, cellInv ER (Rd m) κ (kcell ck))),
    bigSep_congr (s := Finset.univ) (fun (c : Dev nD) _ => bigSep_sep' Finset.univ (fun n : Fin 15 => (atPos ER (kcell (c, n)) 0 ∅ 0 : sProp 𝕄)) (fun n => reached ER (kcell (c, n)) 0)),
    bigSep_sep', ← bigSep_univ_prod (fun ck : Dev nD × Fin 15 => (reached ER (kcell ck) 0 : sProp 𝕄))]
  iintro ⟨HI, ⟨Hat, #HR⟩, Htok, Hidle⟩
  ihave HK := (BI.bigSep_exists_pi Finset.univ (fun (ck : Dev nD × Fin 15) (κ : ℕ) => (cellInv ER (Rd m) κ (kcell ck) : sProp 𝕄))) $$ HI
  icases HK with ⟨%K, #HI⟩
  ihave Htk := (toks_around (F := F)) $$ Htok
  iapply (bigSep_with_persistent (R := records m K)
    (Φ := fun c : Dev nD => iprop(((bigSep Finset.univ fun n : Fin 15 => atPos ER (kcell (c, n)) 0 ∅ 0) ∗ payToks c) ∗ idleSems c))
    fun c _ => show iprop(records m K ∗ ((bigSep Finset.univ fun n : Fin 15 => atPos ER (kcell (c, n)) 0 ∅ 0) ∗ payToks c) ∗ idleSems c) ⊢ G' m c from by
      unfold G'
      iintro ⟨#HR, HL, Hidle⟩
      isplitl [HL]
      · iexists K
        iapply (ghost_intro m K c)
        isplitr; · iexact HR
        iexact HL
      · iexact Hidle)
  isplitr
  · unfold records; isplitl; · iexact HI
    iexact HR
  · rw [bigSep_sep', bigSep_sep']
    isplitl [Hat Htk]
    · isplitl [Hat]; · iexact Hat
      iexact Htk
    · iexact Hidle

/-- The global step (the launch theorem's hglob): the own AND the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Fund

/-! ## The launch credit

Summed over the devices, what each owes — a unit to every partner's barrier cell, a block's credit to every partner's
receive cell for it — is what each is owed on its own cells: seven units on its barrier cell and a block's credit on the
receive cell of each partner. -/

section Credit

theorem sum_E7 {A : Type} [AddCommMonoid A] (f : ℕ → A) : ∑ k ∈ E7, f k.val = f 7 + f 6 + f 5 + f 4 + f 3 + f 2 + f 1 := by
  rw [show E7 = {7, 6, 5, 4, 3, 2, 1} from by decide, Finset.sum_insert (by decide), Finset.sum_insert (by decide),
    Finset.sum_insert (by decide), Finset.sum_insert (by decide), Finset.sum_insert (by decide), Finset.sum_insert (by decide),
    Finset.sum_singleton]
  show f 7 + (f 6 + (f 5 + (f 4 + (f 3 + (f 2 + f 1))))) = _
  simp only [add_assoc]

/-- What a device owes, by kind: the receive credits, the barrier units. -/
theorem O₀_eq (d : Dev nD) :
    O₀ d = (∑ k ∈ E7, (tallyAt (recvCell (peer d k.val) d) () N : CellTallies nD τ sig Unit))
      + ∑ k ∈ E7, (tallyAt (barCell (peer d k.val)) () 1 : CellTallies nD τ sig Unit) := by
  rw [sum_E7 (fun k => (tallyAt (recvCell (peer d k) d) () N : CellTallies nD τ sig Unit)),
    sum_E7 (fun k => (tallyAt (barCell (peer d k)) () 1 : CellTallies nD τ sig Unit))]
  unfold O₀
  simp only [add_assoc]

/-- A sum over (device, partner index) may be taken at (the partner of that index, the index) instead. -/
theorem sum_around {A : Type} [AddCommMonoid A] (g : Dev nD → Fin 8 → A) :
    ∑ d : Dev nD, ∑ k ∈ E7, g (peer d k.val) k = ∑ d : Dev nD, ∑ k ∈ E7, g d k := by
  rw [Finset.sum_comm, Finset.sum_comm (f := fun d k => g d k)]
  exact Finset.sum_congr rfl fun k _ => Equiv.sum_comp (peerE k) (fun d => g d k)

/-- The units the other devices owe device c's cells. -/
def T (c : Dev nD) : CellTallies nD τ sig Unit :=
  tallyAt (barCell c) () 7 + ∑ k ∈ E7, tallyAt (recvCell c (peer c k.val)) () N

theorem bar_seven (d : Dev nD) : ∑ _k ∈ E7, (tallyAt (barCell d) () 1 : CellTallies nD τ sig Unit) = tallyAt (barCell d) () 7 := by
  rw [sum_E7 (fun _ => (tallyAt (barCell d) () 1 : CellTallies nD τ sig Unit))]
  simp only [tallyAt_add]

theorem owed_sum : (∑ d : Dev nD, O₀ d) = ∑ d : Dev nD, T d := by
  have hB : (∑ d : Dev nD, ∑ k ∈ E7, (tallyAt (barCell (peer d k.val)) () 1 : CellTallies nD τ sig Unit))
      = ∑ d : Dev nD, (tallyAt (barCell d) () 7 : CellTallies nD τ sig Unit) := by
    rw [sum_around (fun d _ => (tallyAt (barCell d) () 1 : CellTallies nD τ sig Unit))]
    exact Finset.sum_congr rfl fun d _ => bar_seven d
  have hR : (∑ d : Dev nD, ∑ k ∈ E7, (tallyAt (recvCell (peer d k.val) d) () N : CellTallies nD τ sig Unit))
      = ∑ d : Dev nD, ∑ k ∈ E7, (tallyAt (recvCell d (peer d k.val)) () N : CellTallies nD τ sig Unit) := by
    rw [← sum_around (fun d k => (tallyAt (recvCell d (peer d k.val)) () N : CellTallies nD τ sig Unit))]
    exact Finset.sum_congr rfl fun d _ => Finset.sum_congr rfl fun k _ => by
      show _ = (tallyAt (recvCell (peer d k.val) (peer (peer d k.val) k.val)) () N : CellTallies nD τ sig Unit)
      rw [peer_invol d k]
  simp only [O₀_eq, T]
  rw [Finset.sum_add_distrib, Finset.sum_add_distrib, hB, hR, add_comm]

theorem T_own (d : Dev nD) (g : GSem nD τ sig) (h : T d g ≠ 0) : g.1 = (d : Thread nD τ) := by
  by_contra hne
  apply h
  unfold T
  rw [Pi.add_apply, Finset.sum_apply, tallyAt_ne_cell (fun e => hne (by rw [e])), zero_add]
  exact Finset.sum_eq_zero fun k _ => tallyAt_ne_cell (fun e => hne (by rw [e])) () N

/-- The launch deals device c the credit for what the others owe its cells. -/
theorem creds_intro (c : Dev nD) : (Pipeline.launchCred O₀ c : sProp 𝕄) ⊢ Proto.creds c := by
  rw [Pipeline.launchCred_of_sum O₀ T owed_sum T_own c]
  unfold T Proto.creds
  exact (cred_add _ _).1.trans (sep_mono_right (Entails.of_eq (Pipeline.cred_finsetSum E7 _)))

end Credit

/-- info: 'Cert.Kernel.LaunchPre.fund_ring' depends on axioms: [propext, Classical.choice, Quot.sound] -/
#guard_msgs in #print axioms fund_ring
/-- info: 'Cert.Kernel.LaunchPre.glob' depends on axioms: [propext, Classical.choice, Quot.sound] -/
#guard_msgs in #print axioms glob
/-- info: 'Cert.Kernel.LaunchPre.creds_intro' depends on axioms: [propext, Classical.choice, Quot.sound] -/
#guard_msgs in #print axioms creds_intro

end Cert.Kernel.LaunchPre

end
-- ==== Proof.Bits.Levels.lean ====
/-
  The order of the waits. Every semaphore cell has a level: the barrier cells stand at 1, the receive cell
  a device keeps for its k-th partner at 2 + k, every other cell (the staging cells, the send cells, the
  cells of the local copies) at 0. A device may wait on a cell only while everything it still owes lies on
  cells of strictly higher level; since levels strictly rise along every chain "waits for a unit that is
  still owed", no cycle of devices waiting for one another can form.

  What a device owes, in the order it pays: one unit on each partner's barrier cell, then to its k-th
  partner, k = 1, …, 7, a block's credit on the receive cell that partner keeps for it. Partnership is
  symmetric (the k-th partner of c has c as its k-th partner), so that cell stands at 2 + k as well.
  Hence the barrier wait, at level 1, is below every receive cell; a wait on a cell of level 0 is below
  everything ever owed; and the wait for the first partner's block, at level 3, is below the receive cell
  of the seventh partner, at level 9, the only one still owed at that moment.
-/
import proofs.«900487_g7700000000000488_dist_a2a_gemm_m4096_k4096_n8192_f32_gelu_v7x_i8_1_alg».proof.Proof.Bits.Sched

noncomputable section

namespace Cert.Kernel.Levels

open Cert.Kernel Cert.Kernel.Gen Cert.Kernel.Devs Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ Cert.Kernel.Proto.UU ℕ

/-! ## Tallies that charge only cells above a level -/

/-- Every cell the tallies charge belongs to a TensorCore thread and stands strictly above level `n`. -/
def Above (n : ℕ) (O : CellTallies nD τ sig Unit) : Prop :=
  ∀ (g : GSem nD τ sig) (u : Unit), 0 < O g u → g.1.2 = .tc ∧ n < lv g u

theorem Above.zero (n : ℕ) : Above n (0 : CellTallies nD τ sig Unit) :=
  fun _ _ h => absurd h (Nat.lt_irrefl 0)

theorem Above.add {n : ℕ} {D₁ D₂ : CellTallies nD τ sig Unit} (h₁ : Above n D₁) (h₂ : Above n D₂) : Above n (D₁ + D₂) :=
  fun g u h => (Pipeline.add_pos_cases h).elim (h₁ g u) (h₂ g u)

/-- Tallies at one cell charge that cell only. -/
theorem Above.cell {n : ℕ} {g₀ : GSem nD τ sig} (k : ℕ) (htc : g₀.1.2 = .tc) (hlv : n < lv g₀ ()) :
    Above n (tallyAt g₀ () k) :=
  fun g u h => by
    obtain ⟨rfl, rfl⟩ := Pipeline.tallyAt_pos h
    exact ⟨htc, hlv⟩

theorem Above.mono {n n' : ℕ} (hn : n ≤ n') {O : CellTallies nD τ sig Unit} (h : Above n' O) : Above n O :=
  fun g u hp => ⟨(h g u hp).1, lt_of_le_of_lt hn (h g u hp).2⟩

/-! ## The levels of the cells -/

/-- The partner index by a literal: the k-th partner of c is its partner number k. -/
theorem kOf_peer_lit (c : Dev nD) {k : ℕ} (hk : k < 8) : kOf c (peer c k) = k := kOf_peer c ⟨k, hk⟩

/-- Partnership is symmetric: c is the k-th partner of its k-th partner. -/
theorem kOf_peer_symm (c : Dev nD) {k : ℕ} (hk : k < 8) : kOf (peer c k) c = k :=
  (kOf_symm c (peer c k)).trans (kOf_peer_lit c hk)

/-- The receive cell device c keeps for sender o stands at 2 + (o's partner index seen from c). -/
theorem lv_recvCell (c o : Dev nD) : lv (recvCell c o) () = 2 + kOf c o := by
  simp only [lv, recvIdx_recvSem]

/-- A barrier cell stands at 1. -/
theorem lv_barCell (d : Dev nD) : lv (barCell d) () = 1 := rfl

/-- A DMA cell that is no receive cell stands at 0. -/
theorem lv_low (c : Dev nD) (q : DmaSem sig) (hq : recvIdx q = none) : lv ((c : Thread nD τ), .dma q) () = 0 := by
  simp only [lv, hq]

/-! ## What a device owes lies above -/

/-- A block's credit owed on the receive cell device d keeps for c lies above every level below 2 + (c's
    partner index seen from d). -/
theorem above_recv (d c : Dev nD) {n : ℕ} (h : n < 2 + kOf d c) : Above n (tallyAt (recvCell d c) () N) :=
  Above.cell N rfl (by rw [lv_recvCell]; exact h)

/-- In particular above the barrier's level and above level 0. -/
theorem above_recv_low (d c : Dev nD) {n : ℕ} (hn : n ≤ 1) : Above n (tallyAt (recvCell d c) () N) :=
  above_recv d c (by omega)

/-- The credit owed to the k-th partner lies above every level below 2 + k. -/
theorem above_recv_peer (c : Dev nD) {k n : ℕ} (hk : k < 8) (h : n < 2 + k) :
    Above n (tallyAt (recvCell (peer c k) c) () N) :=
  above_recv (peer c k) c (by rw [kOf_peer_symm c hk]; exact h)

/-- A unit owed on a barrier cell lies above level 0. -/
theorem above_bar (d : Dev nD) : Above 0 (tallyAt (barCell d) () 1) :=
  Above.cell 1 rfl (by rw [lv_barCell]; exact Nat.one_pos)

/-- The seven sends still owed, all of them: above the barrier's level (and so above level 0). -/
theorem above_sends (c : Dev nD) {n : ℕ} (hn : n ≤ 1) :
    Above n (tallyAt (recvCell (peer c 7) c) () N + tallyAt (recvCell (peer c 6) c) () N + tallyAt (recvCell (peer c 5) c) () N
      + tallyAt (recvCell (peer c 4) c) () N + tallyAt (recvCell (peer c 3) c) () N + tallyAt (recvCell (peer c 2) c) () N
      + tallyAt (recvCell (peer c 1) c) () N) :=
  ((((((above_recv_low _ c hn).add (above_recv_low _ c hn)).add (above_recv_low _ c hn)).add (above_recv_low _ c hn)).add
    (above_recv_low _ c hn)).add (above_recv_low _ c hn)).add (above_recv_low _ c hn)

/-- The last four sends still owed. -/
theorem above_sends4 (c : Dev nD) {n : ℕ} (hn : n ≤ 1) :
    Above n (tallyAt (recvCell (peer c 7) c) () N + tallyAt (recvCell (peer c 6) c) () N + tallyAt (recvCell (peer c 5) c) () N
      + tallyAt (recvCell (peer c 4) c) () N) :=
  (((above_recv_low _ c hn).add (above_recv_low _ c hn)).add (above_recv_low _ c hn)).add (above_recv_low _ c hn)

/-- Everything a device owes at launch lies above level 0. -/
theorem above_O₀ (c : Dev nD) : Above 0 (O₀ c) := by
  unfold O₀
  exact (((((((above_sends c (Nat.zero_le 1)).add (above_bar _)).add (above_bar _)).add (above_bar _)).add (above_bar _)).add
    (above_bar _)).add (above_bar _)).add (above_bar _)

/-! ## The waits -/

/-- A device may wait on a cell of its own while everything it owes lies above that cell's level. -/
theorem mayWait_of_above (c : Dev nD) (s : SemLoc sig) {O : CellTallies nD τ sig Unit}
    (h : Above (lv ((c : Thread nD τ), s) ()) O) :
    (levAts L lv : sProp 𝕄) ⊢ MayWait (c : Thread nD τ) s () O :=
  Pipeline.mayWait_of_levAts (by rw [L_tc]; exact Finset.mem_singleton_self _)
    (fun g i hg => ⟨by unfold L; rw [if_pos (h g i hg).1]; exact Finset.mem_singleton_self _, (h g i hg).2⟩)

/-- The barrier wait, all seven sends still owed. -/
theorem mayWait_bar (c : Dev nD) :
    (levAts L lv : sProp 𝕄) ⊢ MayWait (c : Thread nD τ) (.reg barS) ()
      (tallyAt (recvCell (peer c 7) c) () N + tallyAt (recvCell (peer c 6) c) () N + tallyAt (recvCell (peer c 5) c) () N
        + tallyAt (recvCell (peer c 4) c) () N + tallyAt (recvCell (peer c 3) c) () N + tallyAt (recvCell (peer c 2) c) () N
        + tallyAt (recvCell (peer c 1) c) () N) :=
  mayWait_of_above c (.reg barS) (above_sends c (Nat.le_refl 1))

/-- A wait on a DMA cell that is no receive cell (a staging cell, a send cell, a local copy's cell), whatever
    is owed, provided it lies above level 0. -/
theorem mayWait_low (c : Dev nD) (q : DmaSem sig) (hq : recvIdx q = none) (O : CellTallies nD τ sig Unit) (hO : Above 0 O) :
    (levAts L lv : sProp 𝕄) ⊢ MayWait (c : Thread nD τ) (.dma q) () O :=
  mayWait_of_above c (.dma q) (by rw [lv_low c q hq]; exact hO)

/-- The same at each stage of what a device owes: everything owed at launch, -/
theorem mayWait_low_O₀ (c : Dev nD) (q : DmaSem sig) (hq : recvIdx q = none) :
    (levAts L lv : sProp 𝕄) ⊢ MayWait (c : Thread nD τ) (.dma q) () (O₀ c) :=
  mayWait_low c q hq _ (above_O₀ c)

/-- the seven sends, -/
theorem mayWait_low_sends (c : Dev nD) (q : DmaSem sig) (hq : recvIdx q = none) :
    (levAts L lv : sProp 𝕄) ⊢ MayWait (c : Thread nD τ) (.dma q) ()
      (tallyAt (recvCell (peer c 7) c) () N + tallyAt (recvCell (peer c 6) c) () N + tallyAt (recvCell (peer c 5) c) () N
        + tallyAt (recvCell (peer c 4) c) () N + tallyAt (recvCell (peer c 3) c) () N + tallyAt (recvCell (peer c 2) c) () N
        + tallyAt (recvCell (peer c 1) c) () N) :=
  mayWait_low c q hq _ (above_sends c (Nat.zero_le 1))

/-- the last four sends, -/
theorem mayWait_low_sends4 (c : Dev nD) (q : DmaSem sig) (hq : recvIdx q = none) :
    (levAts L lv : sProp 𝕄) ⊢ MayWait (c : Thread nD τ) (.dma q) ()
      (tallyAt (recvCell (peer c 7) c) () N + tallyAt (recvCell (peer c 6) c) () N + tallyAt (recvCell (peer c 5) c) () N
        + tallyAt (recvCell (peer c 4) c) () N) :=
  mayWait_low c q hq _ (above_sends4 c (Nat.zero_le 1))

/-- the last send. -/
theorem mayWait_low_send7 (c : Dev nD) (q : DmaSem sig) (hq : recvIdx q = none) :
    (levAts L lv : sProp 𝕄) ⊢ MayWait (c : Thread nD τ) (.dma q) () (tallyAt (recvCell (peer c 7) c) () N) :=
  mayWait_low c q hq _ (above_recv_low _ c (Nat.zero_le 1))

/-- A wait for the j-th partner's block while only the send to a later partner k is owed. -/
theorem mayWait_recv (c : Dev nD) {j k : ℕ} (hjk : j < k) (hk : k < 8) :
    (levAts L lv : sProp 𝕄) ⊢ MayWait (c : Thread nD τ) (.dma (recvSem (peer c j))) ()
      (tallyAt (recvCell (peer c k) c) () N) :=
  mayWait_of_above c (.dma (recvSem (peer c j))) (by
    rw [show lv ((c : Thread nD τ), SemLoc.dma (recvSem (peer c j))) () = 2 + kOf c (peer c j) from lv_recvCell c (peer c j),
      kOf_peer_lit c (Nat.lt_trans hjk hk)]
    exact above_recv_peer c hk (by omega))

/-- The first receive wait, the last send still owed: level 2 + 1 is below 2 + 7. -/
theorem mayWait_recv1 (c : Dev nD) :
    (levAts L lv : sProp 𝕄) ⊢ MayWait (c : Thread nD τ) (.dma (recvSem (peer c 1))) ()
      (tallyAt (recvCell (peer c 7) c) () N) :=
  mayWait_recv c (by decide) (by decide)

end Cert.Kernel.Levels

end
-- ==== Proof.Bits.SchedTables.lean ====
/- The schedule's tables, cell kind by cell kind: the duties, amounts, expected units and payloads of round 0,
   and that no later round has a duty. -/
import proofs.«900487_g7700000000000488_dist_a2a_gemm_m4096_k4096_n8192_f32_gelu_v7x_i8_1_alg».proof.Proof.Bits.Sched

noncomputable section

namespace Cert.Kernel.Proto

open Cert.Kernel Cert.Kernel.Gen Cert.Kernel.Devs
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

instance Rd_payload_storable (g : GSem nD τ sig) (r : ℕ) (d : Fin 8) :
    BI.Storable (upEmb : UEmb _ 𝕄) ((Rd (F := F) m).payload g r d) := by
  show BI.Storable upEmb (match g.2 with
    | .reg _ => barPay g.1.1 d
    | .dma s => match recvIdx s with
      | some o => recvPay m g.1.1 o
      | none => match sendIdx s with
        | some i => sendPay m g.1.1 i
        | none => iprop(emp))
  unfold barPay recvPay sendPay
  (repeat' split) <;> infer_instance

section Tables
variable (c : Dev nD)

theorem duties_bar : (Rd (F := F) m).duties (barCell c) 0 = Finset.univ.erase 0 := by
  dsimp only [Rd]; rw [if_pos ⟨rfl, rfl⟩]; exact if_pos rfl
theorem duties_send (i : Fin 7) : (Rd (F := F) m).duties (sendCell c i) 0 = {0} := by
  dsimp only [Rd]; rw [if_pos ⟨rfl, rfl⟩]; simp only [recvIdx_sendSem, sendIdx_sendSem]
theorem duties_recv (o : Dev nD) (h : o ≠ c) : (Rd (F := F) m).duties (recvCell c o) 0 = {0} := by
  dsimp only [Rd]; rw [if_pos ⟨rfl, rfl⟩]; simp only [recvIdx_recvSem]; exact if_neg h
theorem duties_later (g : GSem nD τ sig) : ∀ r, 1 ≤ r → (Rd (F := F) m).duties g r = ∅ :=
  fun r hr => by dsimp only [Rd]; rw [if_neg fun h => by omega]

theorem amount_bar (d : Fin 8) : (Rd (F := F) m).amount (barCell c) 0 d = 1 := rfl
theorem amount_send (i : Fin 7) (d : Fin 8) : (Rd (F := F) m).amount (sendCell c i) 0 d = N := rfl
theorem amount_recv (o : Dev nD) (d : Fin 8) : (Rd (F := F) m).amount (recvCell c o) 0 d = N := rfl

theorem expect_bar : (Rd (F := F) m).expect (barCell c) 0 = 7 := by
  unfold Schedule.expect Schedule.amountOf
  rw [duties_bar, Finset.sum_congr rfl fun d _ => amount_bar m c d, Finset.sum_const, smul_eq_mul, mul_one]
  rfl
theorem expect_send (i : Fin 7) : (Rd (F := F) m).expect (sendCell c i) 0 = N := by
  unfold Schedule.expect Schedule.amountOf; rw [duties_send, Finset.sum_singleton, amount_send]
theorem expect_recv (o : Dev nD) (h : o ≠ c) : (Rd (F := F) m).expect (recvCell c o) 0 = N := by
  unfold Schedule.expect Schedule.amountOf; rw [duties_recv m c o h, Finset.sum_singleton, amount_recv]

theorem payload_bar (k : Fin 8) : (Rd (F := F) m).payload (barCell c) 0 k = barPay c k := rfl
theorem payload_send (i : Fin 7) (d : Fin 8) : (Rd (F := F) m).payload (sendCell c i) 0 d = sendPay m c i := by
  dsimp only [Rd]; simp only [recvIdx_sendSem, sendIdx_sendSem]
theorem payload_recv (o : Dev nD) (d : Fin 8) : (Rd (F := F) m).payload (recvCell c o) 0 d = recvPay m c o := by
  dsimp only [Rd]; simp only [recvIdx_recvSem]

/-- The rest of a send cell's round, no duty taken: the row block back. -/
theorem rest_send (i : Fin 7) : bigSep ((Rd (F := F) m).duties (sendCell c i) 0 \ ∅) (fun d => (Rd (F := F) m).payload (sendCell c i) 0 d) = sendPay m c i := by
  rw [Finset.sdiff_empty, duties_send, bigSep_singleton, payload_send]
/-- The rest of a receive cell's round: the slot at what landed. -/
theorem rest_recv (o : Dev nD) (h : o ≠ c) : bigSep ((Rd (F := F) m).duties (recvCell c o) 0 \ ∅) (fun d => (Rd (F := F) m).payload (recvCell c o) 0 d) = recvPay m c o := by
  rw [Finset.sdiff_empty, duties_recv m c o h, bigSep_singleton, payload_recv]
/-- The rest of the barrier cell's round: every partner's slot c. -/
theorem rest_bar : bigSep ((Rd (F := F) m).duties (barCell c) 0 \ ∅) (fun d => (Rd (F := F) m).payload (barCell c) 0 d)
    = iprop(barPay c 1 ∗ barPay c 2 ∗ barPay c 3 ∗ barPay c 4 ∗ barPay c 5 ∗ barPay c 6 ∗ barPay c 7) := by
  rw [Finset.sdiff_empty, duties_bar, bigSep_eq_bigSepL_of_eq [(1 : Fin 8), 2, 3, 4, 5, 6, 7] (by decide) (by decide)]
  rfl

end Tables

end Cert.Kernel.Proto

end
-- ==== Proof.Bits.Cuts.lean ====
/-
  Two scratch buffers of one device, held piece by piece.

  The receive buffer, 8 × 512 × 512, is its eight slots: slot j is the unit rectangle at offset (j, 0, 0),
  one long on the first axis and whole on the other two. The half-precision copy of x, 4096 × 512, is its
  eight blocks of 512 rows: block j is the unit rectangle at offset (512 · j, 0), 512 long on the first
  axis and whole on the second. In both families two pieces with different numbers are disjoint (their
  ranges on the first axis are), and the eight pieces cover the buffer (8 · 1 = 8, 8 · 512 = 4096): that
  is arithmetic on the offsets, and no element set is ever listed. So a buffer held whole is the eight
  pieces held, each on its own elements at the same contents, and eight pieces held at any contents join
  back to the buffer held whole.

  The copy's blocks are also indexed by partner: k ↦ the k-th partner of c is a bijection of the eight
  devices, so the blocks of the partners of c, k = 0, …, 7, are the same eight blocks. The rows device c
  sends its (i + 1)-th partner are that partner's block, and the rows it keeps are its own block.
-/
import proofs.«900487_g7700000000000488_dist_a2a_gemm_m4096_k4096_n8192_f32_gelu_v7x_i8_1_alg».proof.Proof.Bits.Sched
import Idealize.ShloMosaic.Lib.Ring

noncomputable section

namespace Cert.Kernel.Cuts

open Cert.Kernel Cert.Kernel.Gen Cert.Kernel.Devs Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ Cert.Kernel.Proto.UU ℕ

/-! ## Eight pieces, one after another -/

/-- A product over the eight numbers, spelt out. -/
theorem bigSep_fin8 {M : Type _} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The receive buffer and its slots -/

/-- Slot j's elements, as a set of elements of the receive buffer. -/
abbrev slotSet (j : Dev nD) : Finset S8x512x512.Idx := (slotM j).view.set

/-- They are the unit rectangle at (j, 0, 0). -/
theorem slot_set (j : Dev nD) :
    slotSet j = (Rect.unit (s := S8x512x512) (k0_off3 j) S1x512x512.size (k0_off3_inb j)).set :=
  (View.set_reshape (v := rM.view.slice (Rect.unit (s := S8x512x512) (k0_off3 j) S1x512x512.size (k0_off3_inb j))) _).trans
    (View.set_slice_whole cc0_scratch1 _)

theorem slot_off_lead (b : Dev nD) : k0_off3 b (⟨0, by decide⟩ : Fin S8x512x512.rank) = 1 * b.val := by
  rw [k0_off3_eq, Nat.one_mul]; rfl

theorem slot_off_rest : ∀ (b : Dev nD) (a : Fin S8x512x512.rank), a ≠ ⟨0, by decide⟩ → k0_off3 b a = 0 := by
  intro b a ha
  rw [k0_off3_eq]
  match a, ha with
  | ⟨0, _⟩, ha => exact absurd rfl ha
  | ⟨1, _⟩, _ => rfl
  | ⟨2, _⟩, _ => rfl

/-- Two different slots share no element. -/
theorem slots_disjoint (j j' : Dev nD) (h : j ≠ j') : Disjoint (slotSet j) (slotSet j') := by
  rw [slot_set, slot_set]
  exact Ring.lead_disjoint (s := S8x512x512) (NB := 8) ⟨0, by decide⟩ 1 (fun b : Fin 8 => k0_off3 b) S1x512x512.size
    k0_off3_inb slot_off_lead (by decide) j j' h

/-- The eight slots are the whole buffer. -/
theorem slots_cover : Finset.univ.biUnion (fun j : Dev nD => slotSet j) = Finset.univ := by
  rw [show (fun j : Dev nD => slotSet j)
      = fun j : Dev nD => (Rect.unit (s := S8x512x512) (k0_off3 j) S1x512x512.size (k0_off3_inb j)).set from funext slot_set]
  exact Ring.lead_cover (s := S8x512x512) (NB := 8) ⟨0, by decide⟩ 1 (fun b : Fin 8 => k0_off3 b) S1x512x512.size
    k0_off3_inb slot_off_lead slot_off_rest (by decide) (by decide) (by decide)

/-- The receive buffer held whole is its eight slots held, at the same contents. -/
theorem recv_cut (c : Dev nD) (f : Buf (Elt F) ((c : Thread nD τ).loc cc0_scratch1)) :
    (((c : Thread nD τ).loc cc0_scratch1) ↦{fullShare} f : sProp 𝕄)
      = bigSep Finset.univ fun j : Dev nD => (slotM j).view.loc (c : Thread nD τ) ↦[(slotM j).view.set]{fullShare} f :=
  Ring.pointsTo_blocks (Ix := Unit) (Val := Elt F) (Name := ℕ) (U := UU) (Lvl := ℕ) (ℓ := (c : Thread nD τ).loc cc0_scratch1)
    (q := fullShare) (fun j : Dev nD => slotSet j) slots_disjoint slots_cover f

/-- Eight slots held at any contents join to the receive buffer held whole. -/
theorem recv_join (c : Dev nD) :
    bigSep Finset.univ (fun j : Dev nD => iprop(∃ f, (slotM j).view.loc (c : Thread nD τ) ↦[(slotM j).view.set]{fullShare} f))
      ⊢ (iprop(∃ g, ((c : Thread nD τ).loc cc0_scratch1) ↦{fullShare} g) : sProp 𝕄) :=
  Ring.pointsTo_blocks_join_exists (Ix := Unit) (Val := Elt F) (Name := ℕ) (U := UU) (Lvl := ℕ) (ℓ := (c : Thread nD τ).loc cc0_scratch1)
    (q := fullShare) (fun j : Dev nD => slotSet j) slots_disjoint slots_cover (fun _ => Classical.arbitrary _)

/-- The same two, the eight slots one after another. -/
theorem recv_cut_chain (c : Dev nD) (f : Buf (Elt F) ((c : Thread nD τ).loc cc0_scratch1)) :
    (((c : Thread nD τ).loc cc0_scratch1) ↦{fullShare} f : sProp 𝕄)
      = iprop(((slotM 0).view.loc (c : Thread nD τ) ↦[(slotM 0).view.set]{fullShare} f)
        ∗ ((slotM 1).view.loc (c : Thread nD τ) ↦[(slotM 1).view.set]{fullShare} f)
        ∗ ((slotM 2).view.loc (c : Thread nD τ) ↦[(slotM 2).view.set]{fullShare} f)
        ∗ ((slotM 3).view.loc (c : Thread nD τ) ↦[(slotM 3).view.set]{fullShare} f)
        ∗ ((slotM 4).view.loc (c : Thread nD τ) ↦[(slotM 4).view.set]{fullShare} f)
        ∗ ((slotM 5).view.loc (c : Thread nD τ) ↦[(slotM 5).view.set]{fullShare} f)
        ∗ ((slotM 6).view.loc (c : Thread nD τ) ↦[(slotM 6).view.set]{fullShare} f)
        ∗ ((slotM 7).view.loc (c : Thread nD τ) ↦[(slotM 7).view.set]{fullShare} f)) :=
  (recv_cut c f).trans (bigSep_fin8 _)

theorem recv_join_chain (c : Dev nD) :
    iprop((∃ f, (slotM 0).view.loc (c : Thread nD τ) ↦[(slotM 0).view.set]{fullShare} f)
        ∗ (∃ f, (slotM 1).view.loc (c : Thread nD τ) ↦[(slotM 1).view.set]{fullShare} f)
        ∗ (∃ f, (slotM 2).view.loc (c : Thread nD τ) ↦[(slotM 2).view.set]{fullShare} f)
        ∗ (∃ f, (slotM 3).view.loc (c : Thread nD τ) ↦[(slotM 3).view.set]{fullShare} f)
        ∗ (∃ f, (slotM 4).view.loc (c : Thread nD τ) ↦[(slotM 4).view.set]{fullShare} f)
        ∗ (∃ f, (slotM 5).view.loc (c : Thread nD τ) ↦[(slotM 5).view.set]{fullShare} f)
        ∗ (∃ f, (slotM 6).view.loc (c : Thread nD τ) ↦[(slotM 6).view.set]{fullShare} f)
        ∗ (∃ f, (slotM 7).view.loc (c : Thread nD τ) ↦[(slotM 7).view.set]{fullShare} f))
      ⊢ (iprop(∃ g, ((c : Thread nD τ).loc cc0_scratch1) ↦{fullShare} g) : sProp 𝕄) :=
  (Entails.of_eq (bigSep_fin8 (fun j : Dev nD =>
    (iprop(∃ f, (slotM j).view.loc (c : Thread nD τ) ↦[(slotM j).view.set]{fullShare} f) : sProp 𝕄))).symm).trans (recv_join c)

/-! ## The half-precision copy and its row blocks -/

theorem rows_inb : ∀ (j : Dev nD) (a : Fin S4096x512.rank),
    (![512 * j.val, 0] : Fin 2 → ℕ) a + S512x512.size a ≤ S4096x512.size a := by decide

/-- Block j of the copy: rows 512 · j, …, 512 · j + 511. -/
abbrev blockM (j : Dev nD) : Memref sig .tc .vmem S512x512 .bf16 :=
  bM.slice (Rect.unit (s := S4096x512) ![512 * j.val, 0] S512x512.size (rows_inb j)) (fun _ => rfl)

/-- Block j's elements, as a set of elements of the copy. -/
abbrev blockSet (j : Dev nD) : Finset S4096x512.Idx := (blockM j).view.set

theorem block_set (j : Dev nD) :
    blockSet j = (Rect.unit (s := S4096x512) ![512 * j.val, 0] S512x512.size (rows_inb j)).set :=
  View.set_slice_whole cc0_scratch0 _

theorem block_off_rest : ∀ (b : Dev nD) (a : Fin S4096x512.rank), a ≠ ⟨0, by decide⟩ → (![512 * b.val, 0] : Fin 2 → ℕ) a = 0 := by
  intro b a ha
  match a, ha with
  | ⟨0, _⟩, ha => exact absurd rfl ha
  | ⟨1, _⟩, _ => rfl

theorem blocks_disjoint (j j' : Dev nD) (h : j ≠ j') : Disjoint (blockSet j) (blockSet j') := by
  rw [block_set, block_set]
  exact Ring.lead_disjoint (s := S4096x512) (NB := 8) ⟨0, by decide⟩ 512 (fun b : Fin 8 => ![512 * b.val, 0]) S512x512.size
    rows_inb (fun _ => rfl) (by decide) j j' h

theorem blocks_cover : Finset.univ.biUnion (fun j : Dev nD => blockSet j) = Finset.univ := by
  rw [show (fun j : Dev nD => blockSet j)
      = fun j : Dev nD => (Rect.unit (s := S4096x512) ![512 * j.val, 0] S512x512.size (rows_inb j)).set from funext block_set]
  exact Ring.lead_cover (s := S4096x512) (NB := 8) ⟨0, by decide⟩ 512 (fun b : Fin 8 => ![512 * b.val, 0]) S512x512.size
    rows_inb (fun _ => rfl) block_off_rest (by decide) (by decide) (by decide)

/-- The copy held whole is its eight row blocks held, at the same contents. -/
theorem copy_cut (c : Dev nD) (f : Buf (Elt F) ((c : Thread nD τ).loc cc0_scratch0)) :
    (((c : Thread nD τ).loc cc0_scratch0) ↦{fullShare} f : sProp 𝕄)
      = bigSep Finset.univ fun j : Dev nD => (blockM j).view.loc (c : Thread nD τ) ↦[(blockM j).view.set]{fullShare} f :=
  Ring.pointsTo_blocks (Ix := Unit) (Val := Elt F) (Name := ℕ) (U := UU) (Lvl := ℕ) (ℓ := (c : Thread nD τ).loc cc0_scratch0)
    (q := fullShare) (fun j : Dev nD => blockSet j) blocks_disjoint blocks_cover f

/-- Eight row blocks held at any contents join to the copy held whole. -/
theorem copy_join (c : Dev nD) :
    bigSep Finset.univ (fun j : Dev nD => iprop(∃ f, (blockM j).view.loc (c : Thread nD τ) ↦[(blockM j).view.set]{fullShare} f))
      ⊢ (iprop(∃ g, ((c : Thread nD τ).loc cc0_scratch0) ↦{fullShare} g) : sProp 𝕄) :=
  Ring.pointsTo_blocks_join_exists (Ix := Unit) (Val := Elt F) (Name := ℕ) (U := UU) (Lvl := ℕ) (ℓ := (c : Thread nD τ).loc cc0_scratch0)
    (q := fullShare) (fun j : Dev nD => blockSet j) blocks_disjoint blocks_cover (fun _ => Classical.arbitrary _)

/-! ## The same blocks by partner -/

/-- k ↦ the k-th partner of c, a bijection of the eight devices. -/
def partner (c : Dev nD) : Fin 8 ≃ Dev nD :=
  Equiv.ofBijective (fun k : Fin 8 => peer c k.val)
    ⟨fun k k' h => peer_inj c k k' h, fun j => peer_surj c j⟩

theorem partner_apply (c : Dev nD) (k : Fin 8) : partner c k = peer c k.val := rfl

/-- The copy held whole is the blocks of the eight partners of c held. -/
theorem copy_cut_peer (c : Dev nD) (f : Buf (Elt F) ((c : Thread nD τ).loc cc0_scratch0)) :
    (((c : Thread nD τ).loc cc0_scratch0) ↦{fullShare} f : sProp 𝕄)
      = bigSep Finset.univ fun k : Fin 8 =>
          (blockM (peer c k.val)).view.loc (c : Thread nD τ) ↦[(blockM (peer c k.val)).view.set]{fullShare} f :=
  (copy_cut c f).trans (bigSep_univ_equiv (partner c) _)

theorem copy_join_peer (c : Dev nD) :
    bigSep Finset.univ (fun k : Fin 8 =>
        iprop(∃ f, (blockM (peer c k.val)).view.loc (c : Thread nD τ) ↦[(blockM (peer c k.val)).view.set]{fullShare} f))
      ⊢ (iprop(∃ g, ((c : Thread nD τ).loc cc0_scratch0) ↦{fullShare} g) : sProp 𝕄) :=
  (Entails.of_eq (bigSep_univ_equiv (partner c) (fun j : Dev nD =>
    (iprop(∃ f, (blockM j).view.loc (c : Thread nD τ) ↦[(blockM j).view.set]{fullShare} f) : sProp 𝕄))).symm).trans (copy_join c)

/-- The blocks of the partners of c, k = 0, …, 7, one after another. -/
theorem copy_cut_peer_chain (c : Dev nD) (f : Buf (Elt F) ((c : Thread nD τ).loc cc0_scratch0)) :
    (((c : Thread nD τ).loc cc0_scratch0) ↦{fullShare} f : sProp 𝕄)
      = iprop(((blockM (peer c 0)).view.loc (c : Thread nD τ) ↦[(blockM (peer c 0)).view.set]{fullShare} f)
        ∗ ((blockM (peer c 1)).view.loc (c : Thread nD τ) ↦[(blockM (peer c 1)).view.set]{fullShare} f)
        ∗ ((blockM (peer c 2)).view.loc (c : Thread nD τ) ↦[(blockM (peer c 2)).view.set]{fullShare} f)
        ∗ ((blockM (peer c 3)).view.loc (c : Thread nD τ) ↦[(blockM (peer c 3)).view.set]{fullShare} f)
        ∗ ((blockM (peer c 4)).view.loc (c : Thread nD τ) ↦[(blockM (peer c 4)).view.set]{fullShare} f)
        ∗ ((blockM (peer c 5)).view.loc (c : Thread nD τ) ↦[(blockM (peer c 5)).view.set]{fullShare} f)
        ∗ ((blockM (peer c 6)).view.loc (c : Thread nD τ) ↦[(blockM (peer c 6)).view.set]{fullShare} f)
        ∗ ((blockM (peer c 7)).view.loc (c : Thread nD τ) ↦[(blockM (peer c 7)).view.set]{fullShare} f)) :=
  (copy_cut_peer c f).trans (bigSep_fin8 _)

theorem copy_join_peer_chain (c : Dev nD) :
    iprop((∃ f, (blockM (peer c 0)).view.loc (c : Thread nD τ) ↦[(blockM (peer c 0)).view.set]{fullShare} f)
        ∗ (∃ f, (blockM (peer c 1)).view.loc (c : Thread nD τ) ↦[(blockM (peer c 1)).view.set]{fullShare} f)
        ∗ (∃ f, (blockM (peer c 2)).view.loc (c : Thread nD τ) ↦[(blockM (peer c 2)).view.set]{fullShare} f)
        ∗ (∃ f, (blockM (peer c 3)).view.loc (c : Thread nD τ) ↦[(blockM (peer c 3)).view.set]{fullShare} f)
        ∗ (∃ f, (blockM (peer c 4)).view.loc (c : Thread nD τ) ↦[(blockM (peer c 4)).view.set]{fullShare} f)
        ∗ (∃ f, (blockM (peer c 5)).view.loc (c : Thread nD τ) ↦[(blockM (peer c 5)).view.set]{fullShare} f)
        ∗ (∃ f, (blockM (peer c 6)).view.loc (c : Thread nD τ) ↦[(blockM (peer c 6)).view.set]{fullShare} f)
        ∗ (∃ f, (blockM (peer c 7)).view.loc (c : Thread nD τ) ↦[(blockM (peer c 7)).view.set]{fullShare} f))
      ⊢ (iprop(∃ g, ((c : Thread nD τ).loc cc0_scratch0) ↦{fullShare} g) : sProp 𝕄) :=
  (Entails.of_eq (bigSep_fin8 (fun k : Fin 8 =>
    (iprop(∃ f, (blockM (peer c k.val)).view.loc (c : Thread nD τ) ↦[(blockM (peer c k.val)).view.set]{fullShare} f) : sProp 𝕄))).symm).trans
    (copy_join_peer c)

/-! ## The body's own names for the blocks -/

/-- The offset of the rows sent to the (i + 1)-th partner: that partner's block. -/
theorem off4_at_eq : ∀ (c : Dev nD) (i : Fin 7),
    k0_off4 c (k0_off4_at i).1 (k0_off4_at i).2.1 (k0_off4_at i).2.2 = ![512 * (peer c (i.val + 1)).val, 0] := by
  decide +kernel

/-- The rows device c sends its (i + 1)-th partner are that partner's block of the copy. -/
theorem rowsM_eq (c : Dev nD) (i : Fin 7) : rowsM c i = blockM (peer c (i.val + 1)) :=
  Memref.slice_unit_congr bM (off4_at_eq c i) _ _ _ _

/-- The rows device c keeps, as the body names them. -/
abbrev ownM (c : Dev nD) : Memref sig .tc .vmem S512x512 .bf16 :=
  bM.slice (Rect.unit (s := S4096x512) (k0_off6 c) S512x512.size (k0_off6_inb c)) (fun _ => rfl)

/-- They are its own block. -/
theorem ownM_eq (c : Dev nD) : ownM c = blockM c :=
  Memref.slice_unit_congr bM (k0_off6_eq c) _ _ _ _

/-- Its own block is the block of its partner number 0. -/
theorem block_peer_zero (c : Dev nD) : blockM (peer c 0) = blockM c := by rw [peer_zero]

/-- info: 'Cert.Kernel.Cuts.recv_cut' depends on axioms: [propext, Classical.choice, Quot.sound] -/
#guard_msgs in #print axioms recv_cut
/-- info: 'Cert.Kernel.Cuts.copy_cut_peer' depends on axioms: [propext, Classical.choice, Quot.sound] -/
#guard_msgs in #print axioms copy_cut_peer

end Cert.Kernel.Cuts

end
-- ==== Proof.Bits.CutsBody.lean ====
/-
  More ways to hold the two scratch buffers piece by piece.

  The receive buffer's slots indexed by partner: k ↦ the k-th partner of c is a bijection of the eight
  devices, so the slots of the partners of c, k = 0, …, 7, are the eight slots.

  The double buffer of w, 2 × 512 × 4096, is its two slots: slot s is the unit rectangle at offset (s, 0, 0),
  one long on the first axis and whole on the other two.

  The half-precision copy in the names the body itself uses: the rows device c keeps, and the rows it sends
  its (i + 1)-th partner, i = 0, …, 6. These are the block of c and the blocks of its partners 1, …, 7:
  memrefs cut out of one buffer at equal offsets are the same piece, whatever chain of arithmetic spells
  the offset.
-/
import proofs.«900487_g7700000000000488_dist_a2a_gemm_m4096_k4096_n8192_f32_gelu_v7x_i8_1_alg».proof.Proof.Bits.Cuts

noncomputable section

namespace Cert.Kernel.Cuts

open Cert.Kernel Cert.Kernel.Gen Cert.Kernel.Devs Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ Cert.Kernel.Proto.UU ℕ

/-! ## The receive buffer's slots by partner -/

/-- The receive buffer held whole is the slots of the eight partners of c held. -/
theorem recv_cut_peer (c : Dev nD) (f : Buf (Elt F) ((c : Thread nD τ).loc cc0_scratch1)) :
    (((c : Thread nD τ).loc cc0_scratch1) ↦{fullShare} f : sProp 𝕄)
      = bigSep Finset.univ fun k : Fin 8 =>
          (slotM (peer c k.val)).view.loc (c : Thread nD τ) ↦[(slotM (peer c k.val)).view.set]{fullShare} f :=
  (recv_cut c f).trans (bigSep_univ_equiv (partner c) _)

theorem recv_join_peer (c : Dev nD) :
    bigSep Finset.univ (fun k : Fin 8 =>
        iprop(∃ f, (slotM (peer c k.val)).view.loc (c : Thread nD τ) ↦[(slotM (peer c k.val)).view.set]{fullShare} f))
      ⊢ (iprop(∃ g, ((c : Thread nD τ).loc cc0_scratch1) ↦{fullShare} g) : sProp 𝕄) :=
  (Entails.of_eq (bigSep_univ_equiv (partner c) (fun j : Dev nD =>
    (iprop(∃ f, (slotM j).view.loc (c : Thread nD τ) ↦[(slotM j).view.set]{fullShare} f) : sProp 𝕄))).symm).trans (recv_join c)

/-- The slots of the partners of c, k = 0, …, 7, one after another. -/
theorem recv_cut_peer_chain (c : Dev nD) (f : Buf (Elt F) ((c : Thread nD τ).loc cc0_scratch1)) :
    (((c : Thread nD τ).loc cc0_scratch1) ↦{fullShare} f : sProp 𝕄)
      = iprop(((slotM (peer c 0)).view.loc (c : Thread nD τ) ↦[(slotM (peer c 0)).view.set]{fullShare} f)
        ∗ ((slotM (peer c 1)).view.loc (c : Thread nD τ) ↦[(slotM (peer c 1)).view.set]{fullShare} f)
        ∗ ((slotM (peer c 2)).view.loc (c : Thread nD τ) ↦[(slotM (peer c 2)).view.set]{fullShare} f)
        ∗ ((slotM (peer c 3)).view.loc (c : Thread nD τ) ↦[(slotM (peer c 3)).view.set]{fullShare} f)
        ∗ ((slotM (peer c 4)).view.loc (c : Thread nD τ) ↦[(slotM (peer c 4)).view.set]{fullShare} f)
        ∗ ((slotM (peer c 5)).view.loc (c : Thread nD τ) ↦[(slotM (peer c 5)).view.set]{fullShare} f)
        ∗ ((slotM (peer c 6)).view.loc (c : Thread nD τ) ↦[(slotM (peer c 6)).view.set]{fullShare} f)
        ∗ ((slotM (peer c 7)).view.loc (c : Thread nD τ) ↦[(slotM (peer c 7)).view.set]{fullShare} f)) :=
  (recv_cut_peer c f).trans (bigSep_fin8 _)

theorem recv_join_peer_chain (c : Dev nD) :
    iprop((∃ f, (slotM (peer c 0)).view.loc (c : Thread nD τ) ↦[(slotM (peer c 0)).view.set]{fullShare} f)
        ∗ (∃ f, (slotM (peer c 1)).view.loc (c : Thread nD τ) ↦[(slotM (peer c 1)).view.set]{fullShare} f)
        ∗ (∃ f, (slotM (peer c 2)).view.loc (c : Thread nD τ) ↦[(slotM (peer c 2)).view.set]{fullShare} f)
        ∗ (∃ f, (slotM (peer c 3)).view.loc (c : Thread nD τ) ↦[(slotM (peer c 3)).view.set]{fullShare} f)
        ∗ (∃ f, (slotM (peer c 4)).view.loc (c : Thread nD τ) ↦[(slotM (peer c 4)).view.set]{fullShare} f)
        ∗ (∃ f, (slotM (peer c 5)).view.loc (c : Thread nD τ) ↦[(slotM (peer c 5)).view.set]{fullShare} f)
        ∗ (∃ f, (slotM (peer c 6)).view.loc (c : Thread nD τ) ↦[(slotM (peer c 6)).view.set]{fullShare} f)
        ∗ (∃ f, (slotM (peer c 7)).view.loc (c : Thread nD τ) ↦[(slotM (peer c 7)).view.set]{fullShare} f))
      ⊢ (iprop(∃ g, ((c : Thread nD τ).loc cc0_scratch1) ↦{fullShare} g) : sProp 𝕄) :=
  (Entails.of_eq (bigSep_fin8 (fun k : Fin 8 =>
    (iprop(∃ f, (slotM (peer c k.val)).view.loc (c : Thread nD τ) ↦[(slotM (peer c k.val)).view.set]{fullShare} f) : sProp 𝕄))).symm).trans
    (recv_join_peer c)

/-! ## Rows of the copy at an offset: equal offsets, equal pieces -/

/-- The 512 rows of the copy at an offset. -/
abbrev rowsAt (off : Fin S4096x512.rank → ℕ) (h : ∀ a, off a + S512x512.size a ≤ S4096x512.size a) :
    Memref sig .tc .vmem S512x512 .bf16 :=
  bM.slice (Rect.unit (s := S4096x512) off S512x512.size h) (fun _ => rfl)

theorem piece_congr (c : Dev nD) (f : Buf (Elt F) ((c : Thread nD τ).loc cc0_scratch0))
    {off off' : Fin S4096x512.rank → ℕ} (e : off = off')
    (h : ∀ a, off a + S512x512.size a ≤ S4096x512.size a) (h' : ∀ a, off' a + S512x512.size a ≤ S4096x512.size a) :
    ((rowsAt off h).view.loc (c : Thread nD τ) ↦[(rowsAt off h).view.set]{fullShare} f : sProp 𝕄)
      = ((rowsAt off' h').view.loc (c : Thread nD τ) ↦[(rowsAt off' h').view.set]{fullShare} f) := by
  subst e; rfl

theorem pieceEx_congr (c : Dev nD) {off off' : Fin S4096x512.rank → ℕ} (e : off = off')
    (h : ∀ a, off a + S512x512.size a ≤ S4096x512.size a) (h' : ∀ a, off' a + S512x512.size a ≤ S4096x512.size a) :
    (iprop(∃ f, (rowsAt off h).view.loc (c : Thread nD τ) ↦[(rowsAt off h).view.set]{fullShare} f) : sProp 𝕄)
      = iprop(∃ f, (rowsAt off' h').view.loc (c : Thread nD τ) ↦[(rowsAt off' h').view.set]{fullShare} f) := by
  subst e; rfl

/-- The rows sent to the (i + 1)-th partner, held: that partner's block, held. -/
theorem rows_piece (c : Dev nD) (i : Fin 7) (f : Buf (Elt F) ((c : Thread nD τ).loc cc0_scratch0)) :
    (((rowsM c i).view.loc (c : Thread nD τ) ↦[(rowsM c i).view.set]{fullShare} f) : sProp 𝕄)
      = ((blockM (peer c (i.val + 1))).view.loc (c : Thread nD τ) ↦[(blockM (peer c (i.val + 1))).view.set]{fullShare} f) :=
  piece_congr c f (off4_at_eq c i) _ _

/-- The rows kept, held: the device's own block, held. -/
theorem own_piece (c : Dev nD) (f : Buf (Elt F) ((c : Thread nD τ).loc cc0_scratch0)) :
    (((ownM c).view.loc (c : Thread nD τ) ↦[(ownM c).view.set]{fullShare} f) : sProp 𝕄) = ((blockM c).view.loc (c : Thread nD τ) ↦[(blockM c).view.set]{fullShare} f) :=
  piece_congr c f (k0_off6_eq c) _ _

/-- The block of partner number 0 is the device's own. -/
theorem peer0_piece (c : Dev nD) (f : Buf (Elt F) ((c : Thread nD τ).loc cc0_scratch0)) :
    (((blockM (peer c 0)).view.loc (c : Thread nD τ) ↦[(blockM (peer c 0)).view.set]{fullShare} f) : sProp 𝕄) = ((blockM c).view.loc (c : Thread nD τ) ↦[(blockM c).view.set]{fullShare} f) :=
  piece_congr c f (by rw [peer_zero]) _ _

theorem rows_pieceEx (c : Dev nD) (i : Fin 7) :
    (iprop(∃ f, (rowsM c i).view.loc (c : Thread nD τ) ↦[(rowsM c i).view.set]{fullShare} f) : sProp 𝕄) = iprop(∃ f, (blockM (peer c (i.val + 1))).view.loc (c : Thread nD τ) ↦[(blockM (peer c (i.val + 1))).view.set]{fullShare} f) :=
  pieceEx_congr c (off4_at_eq c i) _ _

theorem own_pieceEx (c : Dev nD) :
    (iprop(∃ f, (ownM c).view.loc (c : Thread nD τ) ↦[(ownM c).view.set]{fullShare} f) : sProp 𝕄) = iprop(∃ f, (blockM c).view.loc (c : Thread nD τ) ↦[(blockM c).view.set]{fullShare} f) :=
  pieceEx_congr c (k0_off6_eq c) _ _

theorem peer0_pieceEx (c : Dev nD) :
    (iprop(∃ f, (blockM (peer c 0)).view.loc (c : Thread nD τ) ↦[(blockM (peer c 0)).view.set]{fullShare} f) : sProp 𝕄) = iprop(∃ f, (blockM c).view.loc (c : Thread nD τ) ↦[(blockM c).view.set]{fullShare} f) :=
  pieceEx_congr c (by rw [peer_zero]) _ _

/-! ## The copy in the body's names -/

/-- The copy held whole is the rows kept and the seven blocks sent, held, at the same contents. -/
theorem copy_cut_body (c : Dev nD) (f : Buf (Elt F) ((c : Thread nD τ).loc cc0_scratch0)) :
    (((c : Thread nD τ).loc cc0_scratch0) ↦{fullShare} f : sProp 𝕄)
      = iprop(((ownM c).view.loc (c : Thread nD τ) ↦[(ownM c).view.set]{fullShare} f)
        ∗ ((rowsM c 0).view.loc (c : Thread nD τ) ↦[(rowsM c 0).view.set]{fullShare} f)
        ∗ ((rowsM c 1).view.loc (c : Thread nD τ) ↦[(rowsM c 1).view.set]{fullShare} f)
        ∗ ((rowsM c 2).view.loc (c : Thread nD τ) ↦[(rowsM c 2).view.set]{fullShare} f)
        ∗ ((rowsM c 3).view.loc (c : Thread nD τ) ↦[(rowsM c 3).view.set]{fullShare} f)
        ∗ ((rowsM c 4).view.loc (c : Thread nD τ) ↦[(rowsM c 4).view.set]{fullShare} f)
        ∗ ((rowsM c 5).view.loc (c : Thread nD τ) ↦[(rowsM c 5).view.set]{fullShare} f)
        ∗ ((rowsM c 6).view.loc (c : Thread nD τ) ↦[(rowsM c 6).view.set]{fullShare} f)) := by
  rw [own_piece c f, rows_piece c 0 f, rows_piece c 1 f, rows_piece c 2 f, rows_piece c 3 f, rows_piece c 4 f,
    rows_piece c 5 f, rows_piece c 6 f, ← peer0_piece c f]
  exact copy_cut_peer_chain c f

/-- The rows kept and the seven blocks sent, held at any contents, join to the copy held whole. -/
theorem copy_join_body (c : Dev nD) :
    iprop((∃ f, (ownM c).view.loc (c : Thread nD τ) ↦[(ownM c).view.set]{fullShare} f)
        ∗ (∃ f, (rowsM c 0).view.loc (c : Thread nD τ) ↦[(rowsM c 0).view.set]{fullShare} f)
        ∗ (∃ f, (rowsM c 1).view.loc (c : Thread nD τ) ↦[(rowsM c 1).view.set]{fullShare} f)
        ∗ (∃ f, (rowsM c 2).view.loc (c : Thread nD τ) ↦[(rowsM c 2).view.set]{fullShare} f)
        ∗ (∃ f, (rowsM c 3).view.loc (c : Thread nD τ) ↦[(rowsM c 3).view.set]{fullShare} f)
        ∗ (∃ f, (rowsM c 4).view.loc (c : Thread nD τ) ↦[(rowsM c 4).view.set]{fullShare} f)
        ∗ (∃ f, (rowsM c 5).view.loc (c : Thread nD τ) ↦[(rowsM c 5).view.set]{fullShare} f)
        ∗ (∃ f, (rowsM c 6).view.loc (c : Thread nD τ) ↦[(rowsM c 6).view.set]{fullShare} f))
      ⊢ (iprop(∃ g, ((c : Thread nD τ).loc cc0_scratch0) ↦{fullShare} g) : sProp 𝕄) := by
  rw [own_pieceEx c, rows_pieceEx c 0, rows_pieceEx c 1, rows_pieceEx c 2, rows_pieceEx c 3, rows_pieceEx c 4,
    rows_pieceEx c 5, rows_pieceEx c 6, ← peer0_pieceEx c]
  exact copy_join_peer_chain c

/-! ## The double buffer of w and its two slots -/

/-- A product over the two numbers, spelt out. -/
theorem bigSep_two {M : Type _} [URA M] (Φ : Fin 2 → sProp M) : bigSep Finset.univ Φ = iprop(Φ 0 ∗ Φ 1) :=
  bigSep_univ_eq_bigSepL [0, 1] (by decide) (by decide) Φ

/-- Slot s of the double buffer, 512 × 4096, as the body names it. -/
abbrev wslot : Fin 2 → Memref sig .tc .vmem S512x4096 .f32
  | 0 => (wM.slice (Rect.unit (s := S2x512x4096) ![0, 0, 0] S1x512x4096.size inb_S2x512x4096_S1x512x4096_0_0_0) (fun _ => rfl)).squeeze
      S512x4096 squeezes_S1x512x4096_S512x4096
  | 1 => (wM.slice (Rect.unit (s := S2x512x4096) ![1, 0, 0] S1x512x4096.size inb_S2x512x4096_S1x512x4096_1_0_0) (fun _ => rfl)).squeeze
      S512x4096 squeezes_S1x512x4096_S512x4096

/-- The offset of slot s in the double buffer. -/
abbrev woff : Fin 2 → Fin S2x512x4096.rank → ℕ
  | 0 => ![0, 0, 0]
  | 1 => ![1, 0, 0]

theorem woff_inb : ∀ (b : Fin 2) (a : Fin S2x512x4096.rank), woff b a + S1x512x4096.size a ≤ S2x512x4096.size a
  | 0 => inb_S2x512x4096_S1x512x4096_0_0_0
  | 1 => inb_S2x512x4096_S1x512x4096_1_0_0

/-- Slot s's elements, as a set of elements of the double buffer. -/
abbrev wslotSet : Fin 2 → Finset S2x512x4096.Idx
  | 0 => (wslot 0).view.set
  | 1 => (wslot 1).view.set

/-- They are the unit rectangle at (s, 0, 0). -/
theorem wslot_set : ∀ s : Fin 2,
    wslotSet s = (Rect.unit (s := S2x512x4096) (woff s) S1x512x4096.size (woff_inb s)).set
  | 0 => (View.set_reshape (v := wM.view.slice (Rect.unit (s := S2x512x4096) ![0, 0, 0] S1x512x4096.size
      inb_S2x512x4096_S1x512x4096_0_0_0)) _).trans (View.set_slice_whole cc0_scratch3 _)
  | 1 => (View.set_reshape (v := wM.view.slice (Rect.unit (s := S2x512x4096) ![1, 0, 0] S1x512x4096.size
      inb_S2x512x4096_S1x512x4096_1_0_0)) _).trans (View.set_slice_whole cc0_scratch3 _)

theorem woff_lead : ∀ b : Fin 2, woff b (⟨0, by decide⟩ : Fin S2x512x4096.rank) = 1 * b.val := by decide

theorem woff_rest : ∀ (b : Fin 2) (a : Fin S2x512x4096.rank), a ≠ ⟨0, by decide⟩ → woff b a = 0 := by decide

theorem wslots_disjoint (s s' : Fin 2) (h : s ≠ s') : Disjoint (wslotSet s) (wslotSet s') := by
  rw [wslot_set s, wslot_set s']
  exact Ring.lead_disjoint (s := S2x512x4096) (NB := 2) ⟨0, by decide⟩ 1 woff S1x512x4096.size
    woff_inb woff_lead (by decide) s s' h

theorem wslots_cover : Finset.univ.biUnion (fun s : Fin 2 => wslotSet s) = Finset.univ := by
  rw [show (fun s : Fin 2 => wslotSet s)
      = fun s : Fin 2 => (Rect.unit (s := S2x512x4096) (woff s) S1x512x4096.size (woff_inb s)).set from funext wslot_set]
  exact Ring.lead_cover (s := S2x512x4096) (NB := 2) ⟨0, by decide⟩ 1 woff S1x512x4096.size
    woff_inb woff_lead woff_rest (by decide) (by decide) (by decide)

/-- The double buffer held whole is its two slots held, at the same contents. -/
theorem wbuf_cut (c : Dev nD) (f : Buf (Elt F) (wM.view.loc (c : Thread nD τ))) :
    (wM.view.loc (c : Thread nD τ) ↦{fullShare} f : sProp 𝕄)
      = iprop(((wslot 0).view.loc (c : Thread nD τ) ↦[(wslot 0).view.set]{fullShare} f)
        ∗ ((wslot 1).view.loc (c : Thread nD τ) ↦[(wslot 1).view.set]{fullShare} f)) :=
  (Ring.pointsTo_blocks (Ix := Unit) (Val := Elt F) (Name := ℕ) (U := UU) (Lvl := ℕ) (ℓ := (c : Thread nD τ).loc cc0_scratch3)
    (q := fullShare) (fun s : Fin 2 => wslotSet s) wslots_disjoint wslots_cover f).trans
    (bigSep_two (fun s : Fin 2 => ((((c : Thread nD τ).loc cc0_scratch3) ↦[wslotSet s]{fullShare} f : sProp 𝕄))))

/-- Two slots held at any contents join to the double buffer held whole. -/
theorem wbuf_join (c : Dev nD) :
    iprop((∃ f, (wslot 0).view.loc (c : Thread nD τ) ↦[(wslot 0).view.set]{fullShare} f)
        ∗ (∃ f, (wslot 1).view.loc (c : Thread nD τ) ↦[(wslot 1).view.set]{fullShare} f))
      ⊢ (iprop(∃ g, wM.view.loc (c : Thread nD τ) ↦{fullShare} g) : sProp 𝕄) :=
  (Entails.of_eq (bigSep_two (fun s : Fin 2 =>
    (iprop(∃ f, ((c : Thread nD τ).loc cc0_scratch3) ↦[wslotSet s]{fullShare} f) : sProp 𝕄))).symm).trans
    (Ring.pointsTo_blocks_join_exists (Ix := Unit) (Val := Elt F) (Name := ℕ) (U := UU) (Lvl := ℕ) (ℓ := (c : Thread nD τ).loc cc0_scratch3)
      (q := fullShare) (fun s : Fin 2 => wslotSet s) wslots_disjoint wslots_cover (fun _ => Classical.arbitrary _))

/-- info: 'Cert.Kernel.Cuts.copy_cut_body' depends on axioms: [propext, Classical.choice, Quot.sound] -/
#guard_msgs in #print axioms copy_cut_body
/-- info: 'Cert.Kernel.Cuts.recv_cut_peer_chain' depends on axioms: [propext, Classical.choice, Quot.sound] -/
#guard_msgs in #print axioms recv_cut_peer_chain
/-- info: 'Cert.Kernel.Cuts.wbuf_cut' depends on axioms: [propext, Classical.choice, Quot.sound] -/
#guard_msgs in #print axioms wbuf_cut

end Cert.Kernel.Cuts

end
-- ==== Proof.Bits.BodyLemmas.lean ====
/- The rules and tables the body's symbolic run is driven with: the schedule's tables with the entry on the left and
   each payload spelt as the points-to it is; the closed forms of the printed offset and device chains as the run's
   geometry reads them; the one transfer rule the run applies by name (a landing over whatever the slot held is the
   landing the schedule names); and the small restating steps between two stretches of the run. -/
import proofs.«900487_g7700000000000488_dist_a2a_gemm_m4096_k4096_n8192_f32_gelu_v7x_i8_1_alg».proof.Proof.Bits.Sched
import proofs.«900487_g7700000000000488_dist_a2a_gemm_m4096_k4096_n8192_f32_gelu_v7x_i8_1_alg».proof.Proof.Bits.Levels
import proofs.«900487_g7700000000000488_dist_a2a_gemm_m4096_k4096_n8192_f32_gelu_v7x_i8_1_alg».proof.Proof.Bits.SchedTables
import proofs.«900487_g7700000000000488_dist_a2a_gemm_m4096_k4096_n8192_f32_gelu_v7x_i8_1_alg».proof.Proof.Bits.Cuts
import proofs.«900487_g7700000000000488_dist_a2a_gemm_m4096_k4096_n8192_f32_gelu_v7x_i8_1_alg».proof.Proof.Bits.CutsBody
import Idealize.ShloMosaic.Lib.Pipeline.Launch
import Idealize.ShloMosaic.Lib.Pipeline.Kit
import Idealize.ShloMosaic.Lib.Ring
import Idealize.ShloMosaic.Lib.Tactic

noncomputable section

namespace Cert.Kernel.BodyProof

open Cert.Kernel Cert.Kernel.Gen Cert.Kernel.Devs Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The schedule's tables in the form the symbolic run reads them (entry on the left, payloads spelt as the
    points-to itself) -/

theorem t_duties_bar (o : Dev nD) : (Rd m).duties (barCell o) 0 = {1, 2, 3, 4, 5, 6, 7} := by
  rw [duties_bar]; decide
theorem t_amount_bar (o : Dev nD) (r : ℕ) (d : Fin 8) : (Rd m).amount (barCell o) r d = 1 := rfl
theorem t_expect_bar (o : Dev nD) : (Rd m).expect (barCell o) 0 = 7 := expect_bar m o
theorem t_payload_bar (o : Dev nD) (r : ℕ) (k : Fin 8) :
    (Rd m).payload (barCell o) r k
      = iprop(∃ f, ((slotM o).view.loc ((peer o k.val : Dev nD) : Thread nD τ) ↦[(slotM o).view.set]{fullShare} f : sProp 𝕄)) := rfl

theorem t_duties_send (c : Dev nD) (i : Fin 7) : (Rd m).duties (sendCell c i) 0 = {0} := duties_send m c i
theorem t_amount_send (c : Dev nD) (i : Fin 7) (r : ℕ) (d : Fin 8) : (Rd m).amount (sendCell c i) r d = N := rfl
theorem t_expect_send (c : Dev nD) (i : Fin 7) : (Rd m).expect (sendCell c i) 0 = N := expect_send m c i
theorem t_payload_send (c : Dev nD) (i : Fin 7) (d : Fin 8) :
    (Rd m).payload (sendCell c i) 0 d
      = ((rowsM c i).view.loc (c : Thread nD τ) ↦[(rowsM c i).view.set]{fullShare} xbC m c : sProp 𝕄) := payload_send m c i d

theorem t_amount_recv (c o : Dev nD) (r : ℕ) (d : Fin 8) : (Rd m).amount (recvCell c o) r d = N := rfl
theorem t_payload_recv (c o : Dev nD) (d : Fin 8) :
    (Rd m).payload (recvCell c o) 0 d
      = ((slotM o).view.loc (c : Thread nD τ) ↦[(slotM o).view.set]{fullShare} landed m c o : sProp 𝕄) := payload_recv m c o d
/-- The receive cell a device keeps for its k-th partner, and the one that partner keeps for it, have the one duty. -/
theorem t_duties_recv_in (c : Dev nD) (k : Fin 8) (hk : k.val ≠ 0) : (Rd m).duties (recvCell c (peer c k.val)) 0 = {0} :=
  duties_recv m c _ (peer_ne_self c k hk)
theorem t_duties_recv_out (c : Dev nD) (k : Fin 8) (hk : k.val ≠ 0) : (Rd m).duties (recvCell (peer c k.val) c) 0 = {0} :=
  duties_recv m _ c (fun h => peer_ne_self c k hk h.symm)
theorem t_expect_recv_in (c : Dev nD) (k : Fin 8) (hk : k.val ≠ 0) : (Rd m).expect (recvCell c (peer c k.val)) 0 = N :=
  expect_recv m c _ (peer_ne_self c k hk)

theorem t_duties_recv_in_1 (c : Dev nD) : (Rd m).duties (recvCell c (peer c 1)) 0 = {0} :=
  duties_recv m c _ (peer_ne_self c (1 : Fin 8) (by decide))
theorem t_expect_recv_in_1 (c : Dev nD) : (Rd m).expect (recvCell c (peer c 1)) 0 = N :=
  expect_recv m c _ (peer_ne_self c (1 : Fin 8) (by decide))
theorem t_duties_recv_in_2 (c : Dev nD) : (Rd m).duties (recvCell c (peer c 2)) 0 = {0} :=
  duties_recv m c _ (peer_ne_self c (2 : Fin 8) (by decide))
theorem t_expect_recv_in_2 (c : Dev nD) : (Rd m).expect (recvCell c (peer c 2)) 0 = N :=
  expect_recv m c _ (peer_ne_self c (2 : Fin 8) (by decide))
theorem t_duties_recv_in_3 (c : Dev nD) : (Rd m).duties (recvCell c (peer c 3)) 0 = {0} :=
  duties_recv m c _ (peer_ne_self c (3 : Fin 8) (by decide))
theorem t_expect_recv_in_3 (c : Dev nD) : (Rd m).expect (recvCell c (peer c 3)) 0 = N :=
  expect_recv m c _ (peer_ne_self c (3 : Fin 8) (by decide))
theorem t_duties_recv_in_4 (c : Dev nD) : (Rd m).duties (recvCell c (peer c 4)) 0 = {0} :=
  duties_recv m c _ (peer_ne_self c (4 : Fin 8) (by decide))
theorem t_expect_recv_in_4 (c : Dev nD) : (Rd m).expect (recvCell c (peer c 4)) 0 = N :=
  expect_recv m c _ (peer_ne_self c (4 : Fin 8) (by decide))
theorem t_duties_recv_in_5 (c : Dev nD) : (Rd m).duties (recvCell c (peer c 5)) 0 = {0} :=
  duties_recv m c _ (peer_ne_self c (5 : Fin 8) (by decide))
theorem t_expect_recv_in_5 (c : Dev nD) : (Rd m).expect (recvCell c (peer c 5)) 0 = N :=
  expect_recv m c _ (peer_ne_self c (5 : Fin 8) (by decide))
theorem t_duties_recv_in_6 (c : Dev nD) : (Rd m).duties (recvCell c (peer c 6)) 0 = {0} :=
  duties_recv m c _ (peer_ne_self c (6 : Fin 8) (by decide))
theorem t_expect_recv_in_6 (c : Dev nD) : (Rd m).expect (recvCell c (peer c 6)) 0 = N :=
  expect_recv m c _ (peer_ne_self c (6 : Fin 8) (by decide))
theorem t_duties_recv_in_7 (c : Dev nD) : (Rd m).duties (recvCell c (peer c 7)) 0 = {0} :=
  duties_recv m c _ (peer_ne_self c (7 : Fin 8) (by decide))
theorem t_expect_recv_in_7 (c : Dev nD) : (Rd m).expect (recvCell c (peer c 7)) 0 = N :=
  expect_recv m c _ (peer_ne_self c (7 : Fin 8) (by decide))

/-! ## Steps applied by hand -/

/-- A chain of seven, restated in the connective the proof mode destructures. -/
theorem sep7 {M : Type _} [URA M] (A1 A2 A3 A4 A5 A6 A7 : sProp M) :
    BI.sep A1 (BI.sep A2 (BI.sep A3 (BI.sep A4 (BI.sep A5 (BI.sep A6 A7))))) ⊢ iprop(A1 ∗ A2 ∗ A3 ∗ A4 ∗ A5 ∗ A6 ∗ A7) := .rfl

theorem entails_of_eq' {M : Type _} [URA M] {P Q : sProp M} (e : P = Q) : P ⊢ Q := e ▸ .rfl

/-- Closing a send cell and a receive cell once their one round is consumed. -/
theorem close_send (c : Dev nD) (i : Fin 7) (κ : ℕ) :
    iprop(cellInv ER (Rd m) κ (sendCell c i) ∗ atPos ER (sendCell c i) 1 ∅ 0) ⊢ iprop(|={Set.univ}=> semVal (sendCell c i) 0) :=
  Rounds.cell_close ER (Rd m) (Set.mem_univ _) (fun h => h) (R := 1) (fun r hr => duties_later m _ r hr)
theorem close_recv (c o : Dev nD) (κ : ℕ) :
    iprop(cellInv ER (Rd m) κ (recvCell c o) ∗ atPos ER (recvCell c o) 1 ∅ 0) ⊢ iprop(|={Set.univ}=> semVal (recvCell c o) 0) :=
  Rounds.cell_close ER (Rd m) (Set.mem_univ _) (fun h => h) (R := 1) (fun r hr => duties_later m _ r hr)

/-- The receive semaphore the body reads off its order table is the one the schedule names by partner. -/
theorem semSlice8_congr {off off' : Fin S8.rank → ℕ} (h : off = off') (inb : ∀ a, off a + S1.size a ≤ S8.size a)
    (inb' : ∀ a, off' a + S1.size a ≤ S8.size a) :
    cc0_scratch5.slice (Rect.unit (s := S8) off S1.size inb) = cc0_scratch5.slice (Rect.unit (s := S8) off' S1.size inb') := by
  subst h; rfl
theorem recvSlice_1 (c : Dev nD) :
    cc0_scratch5.slice (Rect.unit (s := S8) (k0_off9 c 0#32 0#32 1#32) S1.size (k0_off9_inb c 0))
      = cc0_scratch5.slice (Rect.unit (s := S8) (k0_off2 (peer c 1)) S1.size (k0_off2_inb (peer c 1))) :=
  semSlice8_congr ((off9_1_eq c).trans (k0_off2_eq (peer c 1)).symm) _ _
theorem recvSlice_2 (c : Dev nD) :
    cc0_scratch5.slice (Rect.unit (s := S8) (k0_off9 c 0#32 1#32 0#32) S1.size (k0_off9_inb c 1))
      = cc0_scratch5.slice (Rect.unit (s := S8) (k0_off2 (peer c 2)) S1.size (k0_off2_inb (peer c 2))) :=
  semSlice8_congr ((off9_2_eq c).trans (k0_off2_eq (peer c 2)).symm) _ _
theorem recvSlice_3 (c : Dev nD) :
    cc0_scratch5.slice (Rect.unit (s := S8) (k0_off9 c 1#32 0#32 0#32) S1.size (k0_off9_inb c 2))
      = cc0_scratch5.slice (Rect.unit (s := S8) (k0_off2 (peer c 3)) S1.size (k0_off2_inb (peer c 3))) :=
  semSlice8_congr ((off9_3_eq c).trans (k0_off2_eq (peer c 3)).symm) _ _
theorem recvSlice_4 (c : Dev nD) :
    cc0_scratch5.slice (Rect.unit (s := S8) (k0_off9 c 0#32 1#32 1#32) S1.size (k0_off9_inb c 3))
      = cc0_scratch5.slice (Rect.unit (s := S8) (k0_off2 (peer c 4)) S1.size (k0_off2_inb (peer c 4))) :=
  semSlice8_congr ((off9_4_eq c).trans (k0_off2_eq (peer c 4)).symm) _ _
theorem recvSlice_5 (c : Dev nD) :
    cc0_scratch5.slice (Rect.unit (s := S8) (k0_off9 c 1#32 0#32 1#32) S1.size (k0_off9_inb c 4))
      = cc0_scratch5.slice (Rect.unit (s := S8) (k0_off2 (peer c 5)) S1.size (k0_off2_inb (peer c 5))) :=
  semSlice8_congr ((off9_5_eq c).trans (k0_off2_eq (peer c 5)).symm) _ _
theorem recvSlice_6 (c : Dev nD) :
    cc0_scratch5.slice (Rect.unit (s := S8) (k0_off9 c 1#32 1#32 0#32) S1.size (k0_off9_inb c 5))
      = cc0_scratch5.slice (Rect.unit (s := S8) (k0_off2 (peer c 6)) S1.size (k0_off2_inb (peer c 6))) :=
  semSlice8_congr ((off9_6_eq c).trans (k0_off2_eq (peer c 6)).symm) _ _
theorem recvSlice_7 (c : Dev nD) :
    cc0_scratch5.slice (Rect.unit (s := S8) (k0_off9 c 1#32 1#32 1#32) S1.size (k0_off9_inb c 6))
      = cc0_scratch5.slice (Rect.unit (s := S8) (k0_off2 (peer c 7)) S1.size (k0_off2_inb (peer c 7))) :=
  semSlice8_congr ((off9_7_eq c).trans (k0_off2_eq (peer c 7)).symm) _ _
attribute [sl_canon] recvSlice_1 recvSlice_2 recvSlice_3 recvSlice_4 recvSlice_5 recvSlice_6 recvSlice_7

/-- A slot held at this device is held at the device's name as a partner's partner. -/
theorem slot_respell (o c d : Dev nD) (h : d = c) (f : Buf (Elt F) ((slotM o).view.loc (c : Thread nD τ))) :
    ((slotM o).view.loc (c : Thread nD τ) ↦[(slotM o).view.set]{fullShare} f : sProp 𝕄)
      ⊢ iprop(∃ f', (slotM o).view.loc (d : Thread nD τ) ↦[(slotM o).view.set]{fullShare} f') := by
  subst h; iintro H; iexists f; iexact H

/-- What the i-th transfer lands in slot c of partner i+1, whatever the slot held, is the schedule's name for it. -/
theorem landed_peer (c : Dev nD) (i : Fin 7)
    (fd : Buf (Elt F) ((slotM c).view.loc ((peer c (i.val + 1) : Dev nD) : Thread nD τ))) :
    ((slotM c).view.loc ((peer c (i.val + 1) : Dev nD) : Thread nD τ) ↦[(slotM c).view.set]{fullShare}
        (slotM c).view.write (Elt F) fd ((rowsM c i).view.read (Elt F) (xbC m c)) Finset.univ : sProp 𝕄)
      = ((slotM c).view.loc ((peer c (i.val + 1) : Dev nD) : Thread nD τ) ↦[(slotM c).view.set]{fullShare} landed m (peer c (i.val + 1)) c) := by
  have hk : kOf c (peer c (i.val + 1)) = i.val + 1 := kOf_peer c ⟨i.val + 1, by have := i.isLt; omega⟩
  have hi : (⟨kOf c (peer c (i.val + 1)) - 1, by have := kOf_lt c (peer c (i.val + 1)); omega⟩ : Fin 7) = i := Fin.ext (by simp only [hk]; omega)
  unfold landed
  rw [hi]
  exact pointsTo_congr fun j hj => View.write_congr (fun _ _ _ => rfl) (fun hn => absurd hj hn)

/-- The half-precision copy after the cast store, whatever it held before, is the schedule's name for it. -/
theorem xb_eq (c : Dev nD) (fb : Buf (Elt F) (bM.view.loc (c : Thread nD τ))) :
    bM.view.writes (Elt F) fb
      [⟨Rect.unit (s := S4096x512) ![0, 0] S4096x512.size inb_S4096x512_S4096x512_0_0,
        k0_pay1 (View.readAt (Elt F) xM.view (Rect.unit (s := S4096x512) ![0, 0] S4096x512.size inb_S4096x512_S4096x512_0_0).toLoadRect (xstg m c))⟩]
      = xbC m c := by
  have h0 : (![0, 0] : Fin 2 → ℕ) = fun _ => 0 := by funext a; fin_cases a <;> rfl
  rw [View.writes_singleton]
  unfold xbC
  have h1 : View.readAt (Elt F) xM.view (Rect.unit (s := S4096x512) ![0, 0] S4096x512.size inb_S4096x512_S4096x512_0_0).toLoadRect (xstg m c) = xstg m c :=
    Memref.readAt_unit_zero (Elt F) cc0_stg0_0 h0 inb_S4096x512_S4096x512_0_0 (xstg m c)
  rw [h1]
  exact Memref.write_access_unit_zero_univ (Elt F) cc0_scratch0 h0 inb_S4096x512_S4096x512_0_0 fb _

/-- The copy after the cast store, held whole, at the schedule's name for its contents. -/
theorem xb_pts (c : Dev nD) (fb : Buf (Elt F) (bM.view.loc (c : Thread nD τ))) :
    (bM.view.loc (c : Thread nD τ) ↦{fullShare} bM.view.writes (Elt F) fb
      [⟨Rect.unit (s := S4096x512) ![0, 0] S4096x512.size inb_S4096x512_S4096x512_0_0,
        k0_pay1 (View.readAt (Elt F) xM.view (Rect.unit (s := S4096x512) ![0, 0] S4096x512.size inb_S4096x512_S4096x512_0_0).toLoadRect (xstg m c))⟩] : sProp 𝕄)
      ⊢ (bM.view.loc (c : Thread nD τ) ↦{fullShare} xbC m c) := by
  rw [xb_eq]
/-- The i-th transfer: the rows for partner i+1 into that partner's slot c. -/
theorem send_step (c : Dev nD) (i : Fin 7) (p : ℕ) (hp : p = i.val + 1) {α : Type} {Q : α → sProp 𝕄}
    {k : PUnit.{1} → Prog (TpuEff nD τ sig (Elt F) Λ₀ .tc) α} (κ₁ κ₂ : ℕ)
    (O₀ O : CellTallies nD τ sig Unit) (hO : O₀ = O + tallyAt (recvCell (peer c p) c) () N) (W : Waits sig Unit)
    (fd : Buf (Elt F) ((slotM c).view.loc ((peer c p : Dev nD) : Thread nD τ)))
    {hsc} {hsrc} {hdst} {hsem} :
    iprop(cellInv ER (Rd m) κ₁ (sendCell c i) ∗ cellInv ER (Rd m) κ₂ (recvCell (peer c p) c)
        ∗ ((rowsM c i).view.loc (c : Thread nD τ) ↦[(rowsM c i).view.set]{fullShare} xbC m c)
        ∗ ((slotM c).view.loc ((peer c p : Dev nD) : Thread nD τ) ↦[(slotM c).view.set]{fullShare} fd)
        ∗ owes (c : Thread nD τ) O₀ W
        ∗ dutyTok ER (sendCell c i) 0 (0 : Fin 8) ∗ reached ER (sendCell c i) 0
        ∗ dutyTok ER (recvCell (peer c p) c) 0 (0 : Fin 8) ∗ reached ER (recvCell (peer c p) c) 0)
      ⊢ iprop(((cred (tallyAt (sendCell c i) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowsM c i) (.remote ((peer c p : Dev nD) : Thread nD τ) (slotM c) (.dma (sendSem i)) hsc)
                (.dma (recvSem c)) hsrc hdst hsem) k) Q) := by
  subst hp
  have hk : (⟨i.val + 1, by have := i.isLt; omega⟩ : Fin 8).val ≠ 0 := by simp
  exact Rounds.wp_send_pointsTo 𝒱₀ ER (Rd m) (c : Thread nD τ) none
    (by rw [duties_send]; exact Finset.mem_singleton_self _)
    (by rw [duties_recv m _ c (fun h => peer_ne_self c ⟨i.val + 1, by have := i.isLt; omega⟩ hk h.symm)]; exact Finset.mem_singleton_self _)
    () () N rfl rfl rfl O hO
    (by rw [payload_send]; unfold sendPay; exact .rfl)
    (by rw [payload_recv]; unfold recvPay; rw [landed_peer])

/-- The barrier signals' targets are the literal devices. -/
theorem dev1_lit (h) : (⟨k0_dev1, h⟩ : Dev nD) = 0 := Fin.ext k0_dev1_eq
theorem dev2_lit (h) : (⟨k0_dev2, h⟩ : Dev nD) = 1 := Fin.ext k0_dev2_eq
theorem dev3_lit (h) : (⟨k0_dev3, h⟩ : Dev nD) = 2 := Fin.ext k0_dev3_eq
theorem dev4_lit (h) : (⟨k0_dev4, h⟩ : Dev nD) = 3 := Fin.ext k0_dev4_eq
theorem dev5_lit (h) : (⟨k0_dev5, h⟩ : Dev nD) = 4 := Fin.ext k0_dev5_eq
theorem dev6_lit (h) : (⟨k0_dev6, h⟩ : Dev nD) = 5 := Fin.ext k0_dev6_eq
theorem dev7_lit (h) : (⟨k0_dev7, h⟩ : Dev nD) = 6 := Fin.ext k0_dev7_eq
theorem dev8_lit (h) : (⟨k0_dev8, h⟩ : Dev nD) = 7 := Fin.ext k0_dev8_eq
attribute [sl_canon] dev1_lit dev2_lit dev3_lit dev4_lit dev5_lit dev6_lit dev7_lit dev8_lit

/-! ## The printed offset chains in closed form, for the run's geometry -/
instance closedOff_off4_1 (c : Dev nD) : ClosedOff (k0_off4 c 0#32 0#32 1#32) := ⟨_, off4_1_eq c⟩
instance closedOff_off4_2 (c : Dev nD) : ClosedOff (k0_off4 c 0#32 1#32 0#32) := ⟨_, off4_2_eq c⟩
instance closedOff_off4_3 (c : Dev nD) : ClosedOff (k0_off4 c 1#32 0#32 0#32) := ⟨_, off4_3_eq c⟩
instance closedOff_off4_4 (c : Dev nD) : ClosedOff (k0_off4 c 0#32 1#32 1#32) := ⟨_, off4_4_eq c⟩
instance closedOff_off4_5 (c : Dev nD) : ClosedOff (k0_off4 c 1#32 0#32 1#32) := ⟨_, off4_5_eq c⟩
instance closedOff_off4_6 (c : Dev nD) : ClosedOff (k0_off4 c 1#32 1#32 0#32) := ⟨_, off4_6_eq c⟩
instance closedOff_off4_7 (c : Dev nD) : ClosedOff (k0_off4 c 1#32 1#32 1#32) := ⟨_, off4_7_eq c⟩
instance closedOff_off7_1 (c : Dev nD) : ClosedOff (k0_off7 c 0#32 0#32 1#32) := ⟨_, off7_1_eq c⟩
instance closedOff_off7_2 (c : Dev nD) : ClosedOff (k0_off7 c 0#32 1#32 0#32) := ⟨_, off7_2_eq c⟩
instance closedOff_off7_3 (c : Dev nD) : ClosedOff (k0_off7 c 1#32 0#32 0#32) := ⟨_, off7_3_eq c⟩
instance closedOff_off7_4 (c : Dev nD) : ClosedOff (k0_off7 c 0#32 1#32 1#32) := ⟨_, off7_4_eq c⟩
instance closedOff_off7_5 (c : Dev nD) : ClosedOff (k0_off7 c 1#32 0#32 1#32) := ⟨_, off7_5_eq c⟩
instance closedOff_off7_6 (c : Dev nD) : ClosedOff (k0_off7 c 1#32 1#32 0#32) := ⟨_, off7_6_eq c⟩
instance closedOff_off7_7 (c : Dev nD) : ClosedOff (k0_off7 c 1#32 1#32 1#32) := ⟨_, off7_7_eq c⟩
instance closedOff_off8_1 (c : Dev nD) : ClosedOff (k0_off8 c 0#32 0#32 1#32) := ⟨_, off8_1_eq c⟩
instance closedOff_off8_2 (c : Dev nD) : ClosedOff (k0_off8 c 0#32 1#32 0#32) := ⟨_, off8_2_eq c⟩
instance closedOff_off8_3 (c : Dev nD) : ClosedOff (k0_off8 c 1#32 0#32 0#32) := ⟨_, off8_3_eq c⟩
instance closedOff_off8_4 (c : Dev nD) : ClosedOff (k0_off8 c 0#32 1#32 1#32) := ⟨_, off8_4_eq c⟩
instance closedOff_off8_5 (c : Dev nD) : ClosedOff (k0_off8 c 1#32 0#32 1#32) := ⟨_, off8_5_eq c⟩
instance closedOff_off8_6 (c : Dev nD) : ClosedOff (k0_off8 c 1#32 1#32 0#32) := ⟨_, off8_6_eq c⟩
instance closedOff_off8_7 (c : Dev nD) : ClosedOff (k0_off8 c 1#32 1#32 1#32) := ⟨_, off8_7_eq c⟩
instance closedOff_off9_1 (c : Dev nD) : ClosedOff (k0_off9 c 0#32 0#32 1#32) := ⟨_, off9_1_eq c⟩
instance closedOff_off9_2 (c : Dev nD) : ClosedOff (k0_off9 c 0#32 1#32 0#32) := ⟨_, off9_2_eq c⟩
instance closedOff_off9_3 (c : Dev nD) : ClosedOff (k0_off9 c 1#32 0#32 0#32) := ⟨_, off9_3_eq c⟩
instance closedOff_off9_4 (c : Dev nD) : ClosedOff (k0_off9 c 0#32 1#32 1#32) := ⟨_, off9_4_eq c⟩
instance closedOff_off9_5 (c : Dev nD) : ClosedOff (k0_off9 c 1#32 0#32 1#32) := ⟨_, off9_5_eq c⟩
instance closedOff_off9_6 (c : Dev nD) : ClosedOff (k0_off9 c 1#32 1#32 0#32) := ⟨_, off9_6_eq c⟩
instance closedOff_off9_7 (c : Dev nD) : ClosedOff (k0_off9 c 1#32 1#32 1#32) := ⟨_, off9_7_eq c⟩
instance closedOff_off10_1 (c : Dev nD) : ClosedOff (k0_off10 c 0#32 0#32 1#32) := ⟨_, off10_1_eq c⟩
instance closedOff_off10_2 (c : Dev nD) : ClosedOff (k0_off10 c 0#32 1#32 0#32) := ⟨_, off10_2_eq c⟩
instance closedOff_off10_3 (c : Dev nD) : ClosedOff (k0_off10 c 1#32 0#32 0#32) := ⟨_, off10_3_eq c⟩
instance closedOff_off10_4 (c : Dev nD) : ClosedOff (k0_off10 c 0#32 1#32 1#32) := ⟨_, off10_4_eq c⟩
instance closedOff_off10_5 (c : Dev nD) : ClosedOff (k0_off10 c 1#32 0#32 1#32) := ⟨_, off10_5_eq c⟩
instance closedOff_off10_6 (c : Dev nD) : ClosedOff (k0_off10 c 1#32 1#32 0#32) := ⟨_, off10_6_eq c⟩
instance closedOff_off10_7 (c : Dev nD) : ClosedOff (k0_off10 c 1#32 1#32 1#32) := ⟨_, off10_7_eq c⟩
instance closedOff_off11_1 (c : Dev nD) : ClosedOff (k0_off11 c 0#32 0#32 1#32) := ⟨_, off11_1_eq c⟩
instance closedOff_off11_2 (c : Dev nD) : ClosedOff (k0_off11 c 0#32 1#32 0#32) := ⟨_, off11_2_eq c⟩
instance closedOff_off11_3 (c : Dev nD) : ClosedOff (k0_off11 c 1#32 0#32 0#32) := ⟨_, off11_3_eq c⟩
instance closedOff_off11_4 (c : Dev nD) : ClosedOff (k0_off11 c 0#32 1#32 1#32) := ⟨_, off11_4_eq c⟩
instance closedOff_off11_5 (c : Dev nD) : ClosedOff (k0_off11 c 1#32 0#32 1#32) := ⟨_, off11_5_eq c⟩
instance closedOff_off11_6 (c : Dev nD) : ClosedOff (k0_off11 c 1#32 1#32 0#32) := ⟨_, off11_6_eq c⟩
instance closedOff_off11_7 (c : Dev nD) : ClosedOff (k0_off11 c 1#32 1#32 1#32) := ⟨_, off11_7_eq c⟩

attribute [sl_rounds] t_duties_bar t_amount_bar t_expect_bar t_payload_bar t_duties_send t_amount_send t_expect_send t_payload_send
  t_amount_recv t_payload_recv t_duties_recv_in_1 t_expect_recv_in_1 t_duties_recv_in_2 t_expect_recv_in_2 t_duties_recv_in_3 t_expect_recv_in_3 t_duties_recv_in_4 t_expect_recv_in_4 t_duties_recv_in_5 t_expect_recv_in_5 t_duties_recv_in_6 t_expect_recv_in_6 t_duties_recv_in_7 t_expect_recv_in_7

end Cert.Kernel.BodyProof

end
-- ==== Proof.Bits.BodyMid.lean ====
/- One device's body in two stretches. The entry stretch — the first copy of a block of w issued, the half-precision
   copy of x stored, the handshake on the barrier semaphore, the first transfer — returns the device word and the eight
   words the rest of the body computes its partners from; the rest is the body from the second transfer on. Between the
   two the device holds what Mid says. The printed body is the one followed by the other, so a run of each, the second
   from what the first leaves, is a run of the body. -/
import proofs.«900487_g7700000000000488_dist_a2a_gemm_m4096_k4096_n8192_f32_gelu_v7x_i8_1_alg».proof.Proof.Bits.SchedTables
import proofs.«900487_g7700000000000488_dist_a2a_gemm_m4096_k4096_n8192_f32_gelu_v7x_i8_1_alg».proof.Proof.Bits.CutsBody

noncomputable section

namespace Cert.Kernel.BodyProof

open Cert.Kernel Cert.Kernel.Gen Cert.Kernel.Devs Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The two stretches of the program -/

/-- The device word and the eight words the body's later parts read. -/
abbrev Words : Type := Σ' (d0 : Dev nD) (v2 : BitVec 32) (v43 : BitVec 32) (v51 : BitVec 32) (v59 : BitVec 32) (v67 : BitVec 32) (v75 : BitVec 32) (v83 : BitVec 32), BitVec 32

/-- The entry stretch: parts 1 to 4 of the printed body, returning the words. -/
noncomputable def headProg : Prog (TpuEff nD τ sig (Elt F) Λ₀ .tc) Words := do
  let ⟨d0, v2, v29, v33, v35, v36, v37, c0_i32_15⟩ : Σ' (d0 : Dev nD) (v2 : BitVec 32) (v29 : BitVec 32) (v33 : BitVec 32) (v35 : BitVec 32) (v36 : BitVec 32) (v37 : BitVec 32), BitVec 32 ← k0_part1 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6
  let ⟨v43, v51, v59, v67, v75⟩ : Σ' (v43 : BitVec 32) (v51 : BitVec 32) (v59 : BitVec 32) (v67 : BitVec 32), BitVec 32 ← k0_part2 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 v29 v33 v35 v36 v37 c0_i32_15
  let ⟨v83, v91, v104, v109⟩ : Σ' (v83 : BitVec 32) (v91 : BitVec 32) (v104 : Sems sig S_), BitVec 32 ← k0_part3 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v2 v29 v33 v35
  k0_part4 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v2 v43 v104 v109
  pure ⟨d0, v2, v43, v51, v59, v67, v75, v83, v91⟩

/-- The body from the second transfer on: parts 5 to 23 of the printed body. -/
noncomputable def tailProg (d0 : Dev nD) (v2 v43 v51 v59 v67 v75 v83 v91 : BitVec 32) :
    Prog (TpuEff nD τ sig (Elt F) Λ₀ .tc) PUnit := do
  k0_part5 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v2 v51 v59
  let v195 : Vec F S512x512 .f32 ← k0_part6 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v2 v43
  k0_part7 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v67 v75 v83 v195
  let v257 : Vec F S512x512 .f32 ← k0_part8 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v43
  k0_part9 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v43 v51 v257
  k0_part10 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v51 v91
  let v342 : Vec F S512x512 .f32 ← k0_part11 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v51 v59
  k0_part12 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v59 v342
  let v397 : Vec F S512x512 .f32 ← k0_part13 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v59 v67
  let v426 : Vec F S1x512x512 .bf16 ← k0_part14 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v67 v397
  let ⟨v452, v453⟩ : Σ' (v452 : Vec F S512x512 .f32), Vec F S1x512x4096 .f32 ← k0_part15 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v67 v75 v426
  let v483 : FVec F S512x512 .f32 ← k0_part16 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v75 v452 v453
  let ⟨v507, v509, cst_428⟩ : Σ' (v507 : Vec F S512x512 .f32) (v509 : FVec F S512x4096 .f32), FVec F S512x4096 .f32 ← k0_part17 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v75 v83 v483
  let v538 : FVec F S512x512 .f32 ← k0_part18 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v83 v507 v509 cst_428
  let v565 : FVec F S512x4096 .f32 ← k0_part19 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v83 v91 v538
  let v593 : FVec F S512x512 .f32 ← k0_part20 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v91 v565
  k0_part21 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0 v91 v593
  k0_part22 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0
  k0_part23 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 d0
  pure ⟨⟩

/-- The rest of the body at the words the entry stretch returned. -/
abbrev tailAt (ws : Words) : Prog (TpuEff nD τ sig (Elt F) Λ₀ .tc) PUnit :=
  tailProg (F := F) ws.1 ws.2.1 ws.2.2.1 ws.2.2.2.1 ws.2.2.2.2.1 ws.2.2.2.2.2.1 ws.2.2.2.2.2.2.1 ws.2.2.2.2.2.2.2.1 ws.2.2.2.2.2.2.2.2

/-- The entry stretch with its intermediate results named by their components. -/
theorem headProg_eq : headProg (F := F)
    = (k0_part1 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 >>= fun (r1 : Σ' (d0 : Dev nD) (v2 : BitVec 32) (v29 : BitVec 32) (v33 : BitVec 32) (v35 : BitVec 32) (v36 : BitVec 32) (v37 : BitVec 32), BitVec 32) =>
        k0_part2 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 r1.2.2.1 r1.2.2.2.1 r1.2.2.2.2.1 r1.2.2.2.2.2.1 r1.2.2.2.2.2.2.1 r1.2.2.2.2.2.2.2 >>= fun (r2 : Σ' (v43 : BitVec 32) (v51 : BitVec 32) (v59 : BitVec 32) (v67 : BitVec 32), BitVec 32) =>
        k0_part3 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 r1.1 r1.2.1 r1.2.2.1 r1.2.2.2.1 r1.2.2.2.2.1 >>= fun (r3 : Σ' (v83 : BitVec 32) (v91 : BitVec 32) (v104 : Sems sig S_), BitVec 32) =>
        k0_part4 xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 r1.1 r1.2.1 r2.1 r3.2.2.1 r3.2.2.2 >>= fun _ =>
        pure (⟨r1.1, r1.2.1, r2.1, r2.2.1, r2.2.2.1, r2.2.2.2.1, r2.2.2.2.2, r3.1, r3.2.1⟩ : Words)) := rfl

set_option maxRecDepth 65536 in
/-- The printed body is the entry stretch followed by the rest. -/
theorem body_split :
    cc0_body (F := F) xM (Memref.isWhole_whole _) hM (Memref.isWhole_whole _) oM (Memref.isWhole_whole _) bM (Memref.isWhole_whole _) rM (Memref.isWhole_whole _) aM (Memref.isWhole_whole _) wM (Memref.isWhole_whole _) cc0_scratch4 cc0_scratch5 cc0_scratch6 = headProg (F := F) >>= fun ws => tailAt (F := F) ws := by
  rw [cc0_body_eq_skeleton, headProg_eq]
  simp only [bind_assoc, pure_bind]
  rfl

section Glue
variable (m : (ℓ : Loc nD τ sig) → Buf (Elt F) ℓ)

/-- What the device holds between the entry stretch (the handshake and the first transfer) and the rest of the body. -/
def Mid (c : Dev nD) (W : Waits sig Unit) (κs κro κri : ℕ → ℕ)
    (fo : Buf (Elt F) (oM.view.loc (c : Thread nD τ)))
    (fr : Buf (Elt F) (rM.view.loc (c : Thread nD τ)))
    (fa : Buf (Elt F) (aM.view.loc (c : Thread nD τ)))
    (fk : Buf (Elt F) (wM.view.loc (c : Thread nD τ))) : sProp 𝕄 :=
  iprop((xM.view.loc (c : Thread nD τ) ↦{fullShare} xstg m c)
      ∗ (oM.view.loc (c : Thread nD τ) ↦{fullShare} fo)
      ∗ (aM.view.loc (c : Thread nD τ) ↦{fullShare} fa)
      ∗ semVal ((c : Thread nD τ), SemLoc.dma (wSem 1)) 0
      ∗ semVal ((c : Thread nD τ), SemLoc.dma (recvSem c)) 0
      ∗ ((Cuts.wslot 1).view.loc (c : Thread nD τ) ↦[(Cuts.wslot 1).view.set]{fullShare} fk)
      ∗ Transfers.Flight countersEmb (c : Thread nD τ) (SemLoc.dma (wSem 0)) () 262144
          iprop(((Cuts.wslot 0).view.loc (c : Thread nD τ) ↦[(Cuts.wslot 0).view.set]{fullShare}
              (Cuts.wslot 0).view.writes (Elt F) fk [⟨Rect.whole S512x4096, ReadAs.same.apply (View.read (Elt F) (hM.slice (Rect.unit (s := S4096x8192) (k0_off1 c) S512x4096.size (k0_off1_inb c)) (fun _ => rfl)).view (warr m c))⟩])
            ∗ (hM.view.loc (c : Thread nD τ) ↦[(hM.slice (Rect.unit (s := S4096x8192) (k0_off1 c) S512x4096.size (k0_off1_inb c)) (fun _ => rfl)).view.set]{fullShare} warr m c))
      ∗ (hM.view.loc (c : Thread nD τ) ↦[Finset.univ \ (hM.slice (Rect.unit (s := S4096x8192) (k0_off1 c) S512x4096.size (k0_off1_inb c)) (fun _ => rfl)).view.set]{fullShare} warr m c)
      ∗ ((slotM (peer c 0)).view.loc (c : Thread nD τ) ↦[(slotM (peer c 0)).view.set]{fullShare} fr)
      ∗ (∃ g, (slotM c).view.loc ((peer c 2 : Dev nD) : Thread nD τ) ↦[(slotM c).view.set]{fullShare} g)
      ∗ (∃ g, (slotM c).view.loc ((peer c 3 : Dev nD) : Thread nD τ) ↦[(slotM c).view.set]{fullShare} g)
      ∗ (∃ g, (slotM c).view.loc ((peer c 4 : Dev nD) : Thread nD τ) ↦[(slotM c).view.set]{fullShare} g)
      ∗ (∃ g, (slotM c).view.loc ((peer c 5 : Dev nD) : Thread nD τ) ↦[(slotM c).view.set]{fullShare} g)
      ∗ (∃ g, (slotM c).view.loc ((peer c 6 : Dev nD) : Thread nD τ) ↦[(slotM c).view.set]{fullShare} g)
      ∗ (∃ g, (slotM c).view.loc ((peer c 7 : Dev nD) : Thread nD τ) ↦[(slotM c).view.set]{fullShare} g)
      ∗ ((Cuts.ownM c).view.loc (c : Thread nD τ) ↦[(Cuts.ownM c).view.set]{fullShare} xbC m c)
      ∗ ((rowsM c 1).view.loc (c : Thread nD τ) ↦[(rowsM c 1).view.set]{fullShare} xbC m c)
      ∗ ((rowsM c 2).view.loc (c : Thread nD τ) ↦[(rowsM c 2).view.set]{fullShare} xbC m c)
      ∗ ((rowsM c 3).view.loc (c : Thread nD τ) ↦[(rowsM c 3).view.set]{fullShare} xbC m c)
      ∗ ((rowsM c 4).view.loc (c : Thread nD τ) ↦[(rowsM c 4).view.set]{fullShare} xbC m c)
      ∗ ((rowsM c 5).view.loc (c : Thread nD τ) ↦[(rowsM c 5).view.set]{fullShare} xbC m c)
      ∗ ((rowsM c 6).view.loc (c : Thread nD τ) ↦[(rowsM c 6).view.set]{fullShare} xbC m c)
      ∗ cred (tallyAt (sendCell c 0) () N)
      ∗ owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N) W
      ∗ levAts L lv
      ∗ cellInv ER (Rd m) (κs 0) (sendCell c 0)
      ∗ atPos ER (sendCell c 0) 0 ∅ 0
      ∗ reached ER (sendCell c 0) 0
      ∗ cellInv ER (Rd m) (κri 1) (recvCell c (peer c 1))
      ∗ atPos ER (recvCell c (peer c 1)) 0 ∅ 0
      ∗ cred (tallyAt (recvCell c (peer c 1)) () N)
      ∗ cellInv ER (Rd m) (κs 1) (sendCell c 1)
      ∗ atPos ER (sendCell c 1) 0 ∅ 0
      ∗ reached ER (sendCell c 1) 0
      ∗ dutyTok ER (sendCell c 1) 0 (0 : Fin 8)
      ∗ cellInv ER (Rd m) (κro 2) (recvCell (peer c 2) c)
      ∗ dutyTok ER (recvCell (peer c 2) c) 0 (0 : Fin 8)
      ∗ reached ER (recvCell (peer c 2) c) 0
      ∗ cellInv ER (Rd m) (κri 2) (recvCell c (peer c 2))
      ∗ atPos ER (recvCell c (peer c 2)) 0 ∅ 0
      ∗ cred (tallyAt (recvCell c (peer c 2)) () N)
      ∗ cellInv ER (Rd m) (κs 2) (sendCell c 2)
      ∗ atPos ER (sendCell c 2) 0 ∅ 0
      ∗ reached ER (sendCell c 2) 0
      ∗ dutyTok ER (sendCell c 2) 0 (0 : Fin 8)
      ∗ cellInv ER (Rd m) (κro 3) (recvCell (peer c 3) c)
      ∗ dutyTok ER (recvCell (peer c 3) c) 0 (0 : Fin 8)
      ∗ reached ER (recvCell (peer c 3) c) 0
      ∗ cellInv ER (Rd m) (κri 3) (recvCell c (peer c 3))
      ∗ atPos ER (recvCell c (peer c 3)) 0 ∅ 0
      ∗ cred (tallyAt (recvCell c (peer c 3)) () N)
      ∗ cellInv ER (Rd m) (κs 3) (sendCell c 3)
      ∗ atPos ER (sendCell c 3) 0 ∅ 0
      ∗ reached ER (sendCell c 3) 0
      ∗ dutyTok ER (sendCell c 3) 0 (0 : Fin 8)
      ∗ cellInv ER (Rd m) (κro 4) (recvCell (peer c 4) c)
      ∗ dutyTok ER (recvCell (peer c 4) c) 0 (0 : Fin 8)
      ∗ reached ER (recvCell (peer c 4) c) 0
      ∗ cellInv ER (Rd m) (κri 4) (recvCell c (peer c 4))
      ∗ atPos ER (recvCell c (peer c 4)) 0 ∅ 0
      ∗ cred (tallyAt (recvCell c (peer c 4)) () N)
      ∗ cellInv ER (Rd m) (κs 4) (sendCell c 4)
      ∗ atPos ER (sendCell c 4) 0 ∅ 0
      ∗ reached ER (sendCell c 4) 0
      ∗ dutyTok ER (sendCell c 4) 0 (0 : Fin 8)
      ∗ cellInv ER (Rd m) (κro 5) (recvCell (peer c 5) c)
      ∗ dutyTok ER (recvCell (peer c 5) c) 0 (0 : Fin 8)
      ∗ reached ER (recvCell (peer c 5) c) 0
      ∗ cellInv ER (Rd m) (κri 5) (recvCell c (peer c 5))
      ∗ atPos ER (recvCell c (peer c 5)) 0 ∅ 0
      ∗ cred (tallyAt (recvCell c (peer c 5)) () N)
      ∗ cellInv ER (Rd m) (κs 5) (sendCell c 5)
      ∗ atPos ER (sendCell c 5) 0 ∅ 0
      ∗ reached ER (sendCell c 5) 0
      ∗ dutyTok ER (sendCell c 5) 0 (0 : Fin 8)
      ∗ cellInv ER (Rd m) (κro 6) (recvCell (peer c 6) c)
      ∗ dutyTok ER (recvCell (peer c 6) c) 0 (0 : Fin 8)
      ∗ reached ER (recvCell (peer c 6) c) 0
      ∗ cellInv ER (Rd m) (κri 6) (recvCell c (peer c 6))
      ∗ atPos ER (recvCell c (peer c 6)) 0 ∅ 0
      ∗ cred (tallyAt (recvCell c (peer c 6)) () N)
      ∗ cellInv ER (Rd m) (κs 6) (sendCell c 6)
      ∗ atPos ER (sendCell c 6) 0 ∅ 0
      ∗ reached ER (sendCell c 6) 0
      ∗ dutyTok ER (sendCell c 6) 0 (0 : Fin 8)
      ∗ cellInv ER (Rd m) (κro 7) (recvCell (peer c 7) c)
      ∗ dutyTok ER (recvCell (peer c 7) c) 0 (0 : Fin 8)
      ∗ reached ER (recvCell (peer c 7) c) 0
      ∗ cellInv ER (Rd m) (κri 7) (recvCell c (peer c 7))
      ∗ atPos ER (recvCell c (peer c 7)) 0 ∅ 0
      ∗ cred (tallyAt (recvCell c (peer c 7)) () N))

set_option maxRecDepth 8000 in
set_option maxHeartbeats 1600000 in
/-- The run of the body from the flat list of its resources to the result's staging buffer at contents X, GIVEN a run of
    the entry stretch to Mid (its barrier wait recorded) and a run of the rest from Mid to those contents. -/
theorem run_body_of (X : (c : Dev nD) → Buf (Elt F) (oM.view.loc (c : Thread nD τ)))
    (hprefix : ∀ (c : Dev nD) (W : Waits sig Unit)
      (κ0 : ℕ) (κb κs κro κri : ℕ → ℕ)
      (fo : Buf (Elt F) (oM.view.loc (c : Thread nD τ)))
      (fb : Buf (Elt F) (bM.view.loc (c : Thread nD τ)))
      (fr : Buf (Elt F) (rM.view.loc (c : Thread nD τ)))
      (fa : Buf (Elt F) (aM.view.loc (c : Thread nD τ)))
      (fk : Buf (Elt F) (wM.view.loc (c : Thread nD τ))),
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ (headProg (F := F))
          (fun ws => iprop(⌜ws.1 = c⌝ ∗ Mid m c (insert (SemLoc.reg barS, ()) W) κs κro κri fo fr fa fk)))
    (htail : ∀ (c : Dev nD) (v2 v43 v51 v59 v67 v75 v83 v91 : BitVec 32) (W : Waits sig Unit) (κs κro κri : ℕ → ℕ)
      (fo : Buf (Elt F) (oM.view.loc (c : Thread nD τ)))
      (fr : Buf (Elt F) (rM.view.loc (c : Thread nD τ)))
      (fa : Buf (Elt F) (aM.view.loc (c : Thread nD τ)))
      (fk : Buf (Elt F) (wM.view.loc (c : Thread nD τ))),
      Mid m c W κs κro κri fo fr fa fk
        ⊢ wp frame (wpE (defs₀ (F := F)) 𝒱₀ (c : Thread nD τ) none) Set.univ (tailProg (F := F) c v2 v43 v51 v59 v67 v75 v83 v91)
            (fun _ => iprop((xM.view.loc (c : Thread nD τ) ↦{fullShare} xstg m c)
              ∗ (oM.view.loc (c : Thread nD τ) ↦{fullShare} X c)
              ∗ (∃ f, bM.view.loc (c : Thread nD τ) ↦{fullShare} f)
              ∗ (∃ f, rM.view.loc (c : Thread nD τ) ↦{fullShare} f)
              ∗ (∃ f, aM.view.loc (c : Thread nD τ) ↦{fullShare} f)
              ∗ (∃ f, wM.view.loc (c : Thread nD τ) ↦{fullShare} f)
              ∗ (hM.view.loc (c : Thread nD τ) ↦{fullShare} warr m c)
              ∗ semVal (sendCell c 0) 0
              ∗ semVal (sendCell c 1) 0
              ∗ semVal (sendCell c 2) 0
              ∗ semVal (sendCell c 3) 0
              ∗ semVal (sendCell c 4) 0
              ∗ semVal (sendCell c 5) 0
              ∗ semVal (sendCell c 6) 0
              ∗ semVal (recvCell c (peer c 1)) 0
              ∗ semVal (recvCell c (peer c 2)) 0
              ∗ semVal (recvCell c (peer c 3)) 0
              ∗ semVal (recvCell c (peer c 4)) 0
              ∗ semVal (recvCell c (peer c 5)) 0
              ∗ semVal (recvCell c (peer c 6)) 0
              ∗ semVal (recvCell c (peer c 7)) 0
              ∗ semVal ((c : Thread nD τ), SemLoc.dma (recvSem c)) 0
              ∗ semVal ((c : Thread nD τ), SemLoc.dma (wSem 0)) 0
              ∗ semVal ((c : Thread nD τ), SemLoc.dma (wSem 1)) 0
              ∗ (∃ W', owes (c : Thread nD τ) 0 W')))) :
    ∀ (c : Dev nD) (W : Waits sig Unit)
      (κ0 : ℕ) (κb κs κro κri : ℕ → ℕ)
      (fo : Buf (Elt F) (oM.view.loc (c : Thread nD τ)))
      (fb : Buf (Elt F) (bM.view.loc (c : Thread nD τ)))
      (fr : Buf (Elt F) (rM.view.loc (c : Thread nD τ)))
      (fa : Buf (Elt F) (aM.view.loc (c : Thread nD τ)))
      (fk : Buf (Elt F) (wM.view.loc (c : Thread nD τ))),
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ
          (cc0_body (F := F) xM (Memref.isWhole_whole _) hM (Memref.isWhole_whole _) oM (Memref.isWhole_whole _)
            bM (Memref.isWhole_whole _) rM (Memref.isWhole_whole _) aM (Memref.isWhole_whole _) wM (Memref.isWhole_whole _)
            cc0_scratch4 cc0_scratch5 cc0_scratch6)
          (fun _ => iprop((xM.view.loc (c : Thread nD τ) ↦{fullShare} xstg m c)
              ∗ (oM.view.loc (c : Thread nD τ) ↦{fullShare} X c)
              ∗ (∃ f, bM.view.loc (c : Thread nD τ) ↦{fullShare} f)
              ∗ (∃ f, rM.view.loc (c : Thread nD τ) ↦{fullShare} f)
              ∗ (∃ f, aM.view.loc (c : Thread nD τ) ↦{fullShare} f)
              ∗ (∃ f, wM.view.loc (c : Thread nD τ) ↦{fullShare} f)
              ∗ (hM.view.loc (c : Thread nD τ) ↦{fullShare} warr m c)
              ∗ semVal (sendCell c 0) 0
              ∗ semVal (sendCell c 1) 0
              ∗ semVal (sendCell c 2) 0
              ∗ semVal (sendCell c 3) 0
              ∗ semVal (sendCell c 4) 0
              ∗ semVal (sendCell c 5) 0
              ∗ semVal (sendCell c 6) 0
              ∗ semVal (recvCell c (peer c 1)) 0
              ∗ semVal (recvCell c (peer c 2)) 0
              ∗ semVal (recvCell c (peer c 3)) 0
              ∗ semVal (recvCell c (peer c 4)) 0
              ∗ semVal (recvCell c (peer c 5)) 0
              ∗ semVal (recvCell c (peer c 6)) 0
              ∗ semVal (recvCell c (peer c 7)) 0
              ∗ semVal ((c : Thread nD τ), SemLoc.dma (recvSem c)) 0
              ∗ semVal ((c : Thread nD τ), SemLoc.dma (wSem 0)) 0
              ∗ semVal ((c : Thread nD τ), SemLoc.dma (wSem 1)) 0
              ∗ (∃ W', owes (c : Thread nD τ) 0 W'))) := by
  intro c W κ0 κb κs κro κri fo fb fr fa fk
  rw [body_split, wp_bind]
  refine (hprefix c W κ0 κb κs κro κri fo fb fr fa fk).trans (wp_mono _ _ _ fun ws => ?_)
  obtain ⟨d0, v2, v43, v51, v59, v67, v75, v83, v91⟩ := ws
  iintro ⟨%hws, HM⟩
  have hd : d0 = c := hws
  subst hd
  iapply (htail d0 v2 v43 v51 v59 v67 v75 v83 v91 (insert (SemLoc.reg barS, ()) W) κs κro κri fo fr fa fk)
  iexact HM

/-- info: 'Cert.Kernel.BodyProof.run_body_of' depends on axioms: [propext, Classical.choice, Quot.sound] -/
#guard_msgs in #print axioms run_body_of

end Glue

end Cert.Kernel.BodyProof

end
-- ==== Proof.Bits.BodyTailRun.lean ====
/- The body from the second transfer on, run once at a symbolic device: six more transfers of 512 rows, the sixteen
   double-buffered copies of w's blocks and their waits, the seven waits for a partner's rows and the load of the slot
   each hands over, the sixteen partial products accumulated into the two halves of the result with the activation at
   the last, and the seven waits for the transfers' sources. The list of stores the run leaves in the result's staging
   buffer is the WITNESS of a subtype: the run finds it, and the kernel's result on a device is read off it. -/
import proofs.«900487_g7700000000000488_dist_a2a_gemm_m4096_k4096_n8192_f32_gelu_v7x_i8_1_alg».proof.Proof.Bits.Sched
import proofs.«900487_g7700000000000488_dist_a2a_gemm_m4096_k4096_n8192_f32_gelu_v7x_i8_1_alg».proof.Proof.Bits.Levels
import proofs.«900487_g7700000000000488_dist_a2a_gemm_m4096_k4096_n8192_f32_gelu_v7x_i8_1_alg».proof.Proof.Bits.SchedTables
import proofs.«900487_g7700000000000488_dist_a2a_gemm_m4096_k4096_n8192_f32_gelu_v7x_i8_1_alg».proof.Proof.Bits.Cuts
import proofs.«900487_g7700000000000488_dist_a2a_gemm_m4096_k4096_n8192_f32_gelu_v7x_i8_1_alg».proof.Proof.Bits.CutsBody
import proofs.«900487_g7700000000000488_dist_a2a_gemm_m4096_k4096_n8192_f32_gelu_v7x_i8_1_alg».proof.Proof.Bits.BodyLemmas
import proofs.«900487_g7700000000000488_dist_a2a_gemm_m4096_k4096_n8192_f32_gelu_v7x_i8_1_alg».proof.Proof.Bits.BodyMid
import Idealize.ShloMosaic.Lib.Pipeline.Launch
import Idealize.ShloMosaic.Lib.Pipeline.Kit
import Idealize.ShloMosaic.Lib.Ring
import Idealize.ShloMosaic.Lib.Tactic

noncomputable section

namespace Cert.Kernel.BodyProof

open Cert.Kernel Cert.Kernel.Gen Cert.Kernel.Devs Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-- The rest of a send cell's round is the row block back, at what the copy holds. -/
theorem pay_send (c : Dev nD) (i : Fin 7) :
    bigSep ((Rd m).duties (sendCell c i) 0) (fun d => (Rd m).payload (sendCell c i) 0 d)
      ⊢ ((rowsM c i).view.loc (c : Thread nD τ) ↦[(rowsM c i).view.set]{fullShare} xbC m c : sProp 𝕄) := by
  rw [duties_send, bigSep_singleton, payload_send]; unfold sendPay; exact .rfl

/-- The result's staging buffer after the body's stores: they cover it, so what it held before is nowhere read. -/
theorem out_rebase (c : Dev nD) (fo : Buf (Elt F) (oM.view.loc (c : Thread nD τ)))
    (L : List (View.Piece (Elt F) S512x8192 .f32)) (t : LoadRect.Cov)
    (hcov : LoadRect.covChk (L.map Sigma.fst) (LoadRect.whole S512x8192) t = true) :
    (oM.view.loc (c : Thread nD τ) ↦{fullShare} oM.view.writes (Elt F) fo L : sProp 𝕄)
      ⊢ (oM.view.loc (c : Thread nD τ) ↦{fullShare} oM.view.writes (Elt F) oM.view.junk L) := by
  have h := Memref.writes_eq_junk_of_covChk (m := oM) (Memref.isWhole_whole _) fo L t hcov
  rw [h]

/-- A token set aside, out of the symbolic run's sight, until the step that spends it by name. -/
def Kept (P : sProp 𝕄) : sProp 𝕄 := P
theorem keep {P : sProp 𝕄} : P ⊢ Kept P := .rfl
theorem unkeep {P : sProp 𝕄} : Kept P ⊢ P := .rfl

/-- The wait for the i-th transfer's source: the one round of its send cell consumed, the rows back at what the copy
    holds, the cell's semaphore recorded among the waits. -/
theorem send_wait_step (c : Dev nD) (i : Fin 7) (w1 w2 w3 : BitVec 32) (hw : k0_off4_at i = (w1, w2, w3))
    (hinb : ∀ a, (k0_off4 c w1 w2 w3) a + S512x512.size a ≤ S4096x512.size a)
    {α : Type} {Q : α → sProp 𝕄} {k : PUnit.{1} → Prog (TpuEff nD τ sig (Elt F) Λ₀ .tc) α}
    (κ : ℕ) (W : Waits sig Unit) {hd} {hs} :
    iprop(cellInv ER (Rd m) κ (sendCell c i) ∗ cred (tallyAt (sendCell c i) () N) ∗ owes (c : Thread nD τ) 0 W
        ∗ atPos ER (sendCell c i) 0 ∅ 0)
      ⊢ iprop(((owes (c : Thread nD τ) 0 (insert (SemLoc.dma (sendSem i), ()) W)
              ∗ atPos ER (sendCell c i) 1 ∅ 0 ∗ reached ER (sendCell c i) 1
              ∗ ((rowsM c i).view.loc (c : Thread nD τ) ↦[(rowsM c i).view.set]{fullShare} xbC m c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendSem i) (slotM c)
                (bM.slice (Rect.unit (s := S4096x512) (k0_off4 c w1 w2 w3) S512x512.size hinb) (fun _ => rfl)) hd hs) k) Q) := by
  iintro ⟨#HI, Hc, HO, Hat⟩ Hk
  iapply (Rounds.wp_wait_rest_token 𝒱₀ ER (Rd m) (c : Thread nD τ) none (sm := SemLoc.dma (sendSem i)) (k' := N)
    (fun K => rfl) (Set.mem_univ κ) () (R := 0) (m := 0) (T := ∅) (by rw [expect_send]; exact Nat.zero_add _)) $$ [Hc HO Hat]
  · isplitr; · iexact HI
    isplitl [Hc]; · iexact Hc
    isplitl [HO]; · iexact HO
    isplitr; · rw [MayWait_zero]; iempintro
    iexact Hat
  iintro ⟨HO, Hat, #Hr, Hp⟩
  iapply Hk
  isplitl [HO]; · iexact HO
  isplitl [Hat]; · iexact Hat
  isplitr; · iexact Hr
  have hq : bigSep ((Rd m).duties (sendCell c i) 0 \ ∅) (fun d => (Rd m).payload (sendCell c i) 0 d)
      ⊢ ((rowsM c i).view.loc (c : Thread nD τ) ↦[(rowsM c i).view.set]{fullShare} xbC m c : sProp 𝕄) :=
    (entails_of_eq' (rest_send m c i)).trans (by unfold sendPay; exact .rfl)
  iapply hq; iexact Hp

/-- What the device holds at the body's return: its buffers by the pieces the transfers handed back, the result's
    staging buffer at the listed stores L over contents nothing reads, the counters of the local copies at zero, nothing
    owed, and each send and receive cell past its one round. -/
def End (c : Dev nD) (L : List (View.Piece (Elt F) S512x8192 .f32)) (κs κri : ℕ → ℕ)
    (fr : Buf (Elt F) (rM.view.loc (c : Thread nD τ))) : sProp 𝕄 :=
  iprop((xM.view.loc (c : Thread nD τ) ↦{fullShare} xstg m c)
      ∗ (oM.view.loc (c : Thread nD τ) ↦{fullShare} oM.view.writes (Elt F) oM.view.junk L)
      ∗ ((Cuts.ownM c).view.loc (c : Thread nD τ) ↦[(Cuts.ownM c).view.set]{fullShare} xbC m c)
      ∗ ((rowsM c 0).view.loc (c : Thread nD τ) ↦[(rowsM c 0).view.set]{fullShare} xbC m c)
      ∗ ((rowsM c 1).view.loc (c : Thread nD τ) ↦[(rowsM c 1).view.set]{fullShare} xbC m c)
      ∗ ((rowsM c 2).view.loc (c : Thread nD τ) ↦[(rowsM c 2).view.set]{fullShare} xbC m c)
      ∗ ((rowsM c 3).view.loc (c : Thread nD τ) ↦[(rowsM c 3).view.set]{fullShare} xbC m c)
      ∗ ((rowsM c 4).view.loc (c : Thread nD τ) ↦[(rowsM c 4).view.set]{fullShare} xbC m c)
      ∗ ((rowsM c 5).view.loc (c : Thread nD τ) ↦[(rowsM c 5).view.set]{fullShare} xbC m c)
      ∗ ((rowsM c 6).view.loc (c : Thread nD τ) ↦[(rowsM c 6).view.set]{fullShare} xbC m c)
      ∗ ((slotM (peer c 0)).view.loc (c : Thread nD τ) ↦[(slotM (peer c 0)).view.set]{fullShare} fr)
      ∗ ((slotM (peer c 1)).view.loc (c : Thread nD τ) ↦[(slotM (peer c 1)).view.set]{fullShare} landed m c (peer c 1))
      ∗ ((slotM (peer c 2)).view.loc (c : Thread nD τ) ↦[(slotM (peer c 2)).view.set]{fullShare} landed m c (peer c 2))
      ∗ ((slotM (peer c 3)).view.loc (c : Thread nD τ) ↦[(slotM (peer c 3)).view.set]{fullShare} landed m c (peer c 3))
      ∗ ((slotM (peer c 4)).view.loc (c : Thread nD τ) ↦[(slotM (peer c 4)).view.set]{fullShare} landed m c (peer c 4))
      ∗ ((slotM (peer c 5)).view.loc (c : Thread nD τ) ↦[(slotM (peer c 5)).view.set]{fullShare} landed m c (peer c 5))
      ∗ ((slotM (peer c 6)).view.loc (c : Thread nD τ) ↦[(slotM (peer c 6)).view.set]{fullShare} landed m c (peer c 6))
      ∗ ((slotM (peer c 7)).view.loc (c : Thread nD τ) ↦[(slotM (peer c 7)).view.set]{fullShare} landed m c (peer c 7))
      ∗ (∃ fa, aM.view.loc (c : Thread nD τ) ↦{fullShare} fa)
      ∗ (∃ f0, (Cuts.wslot 0).view.loc (c : Thread nD τ) ↦[(Cuts.wslot 0).view.set]{fullShare} f0)
      ∗ (∃ f1, (Cuts.wslot 1).view.loc (c : Thread nD τ) ↦[(Cuts.wslot 1).view.set]{fullShare} f1)
      ∗ (hM.view.loc (c : Thread nD τ) ↦{fullShare} warr m c)
      ∗ semVal ((c : Thread nD τ), SemLoc.dma (recvSem c)) 0
      ∗ semVal ((c : Thread nD τ), SemLoc.dma (wSem 0)) 0
      ∗ semVal ((c : Thread nD τ), SemLoc.dma (wSem 1)) 0
      ∗ (∃ W', owes (c : Thread nD τ) 0 W')
      ∗ cellInv ER (Rd m) (κs 0) (sendCell c 0)
      ∗ atPos ER (sendCell c 0) 1 ∅ 0
      ∗ cellInv ER (Rd m) (κs 1) (sendCell c 1)
      ∗ atPos ER (sendCell c 1) 1 ∅ 0
      ∗ cellInv ER (Rd m) (κs 2) (sendCell c 2)
      ∗ atPos ER (sendCell c 2) 1 ∅ 0
      ∗ cellInv ER (Rd m) (κs 3) (sendCell c 3)
      ∗ atPos ER (sendCell c 3) 1 ∅ 0
      ∗ cellInv ER (Rd m) (κs 4) (sendCell c 4)
      ∗ atPos ER (sendCell c 4) 1 ∅ 0
      ∗ cellInv ER (Rd m) (κs 5) (sendCell c 5)
      ∗ atPos ER (sendCell c 5) 1 ∅ 0
      ∗ cellInv ER (Rd m) (κs 6) (sendCell c 6)
      ∗ atPos ER (sendCell c 6) 1 ∅ 0
      ∗ cellInv ER (Rd m) (κri 1) (recvCell c (peer c 1))
      ∗ atPos ER (recvCell c (peer c 1)) 1 ∅ 0
      ∗ cellInv ER (Rd m) (κri 2) (recvCell c (peer c 2))
      ∗ atPos ER (recvCell c (peer c 2)) 1 ∅ 0
      ∗ cellInv ER (Rd m) (κri 3) (recvCell c (peer c 3))
      ∗ atPos ER (recvCell c (peer c 3)) 1 ∅ 0
      ∗ cellInv ER (Rd m) (κri 4) (recvCell c (peer c 4))
      ∗ atPos ER (recvCell c (peer c 4)) 1 ∅ 0
      ∗ cellInv ER (Rd m) (κri 5) (recvCell c (peer c 5))
      ∗ atPos ER (recvCell c (peer c 5)) 1 ∅ 0
      ∗ cellInv ER (Rd m) (κri 6) (recvCell c (peer c 6))
      ∗ atPos ER (recvCell c (peer c 6)) 1 ∅ 0
      ∗ cellInv ER (Rd m) (κri 7) (recvCell c (peer c 7))
      ∗ atPos ER (recvCell c (peer c 7)) 1 ∅ 0)

set_option profiler true
set_option profiler.threshold 5000

set_option maxHeartbeats 16000000 in
noncomputable def tail_sub (c : Dev nD) : { L : List (View.Piece (Elt F) S512x8192 .f32) //
    ∀ (v2 v43 v51 v59 v67 v75 v83 v91 : BitVec 32) (W : Waits sig Unit) (κs κro κri : ℕ → ℕ)
      (fo : Buf (Elt F) (oM.view.loc (c : Thread nD τ)))
      (fr : Buf (Elt F) (rM.view.loc (c : Thread nD τ)))
      (fa : Buf (Elt F) (aM.view.loc (c : Thread nD τ)))
      (fk : Buf (Elt F) (wM.view.loc (c : Thread nD τ))),
      Mid m c W κs κro κri fo fr fa fk
        ⊢ wp frame (wpE (defs₀ (F := F)) 𝒱₀ (c : Thread nD τ) none) Set.univ
            (tailProg (F := F) c v2 v43 v51 v59 v67 v75 v83 v91)
            (fun _ => End m c L κs κri fr) } := by
  refine ⟨?L, fun v2 v43 v51 v59 v67 v75 v83 v91 W κs κro κri fo fr fa fk => ?run⟩
  case run =>
    unfold Mid
    iintro ⟨Hx, Ho, Ha, Hs1, Hsr, Hk1, Hs0, Hh, Hr0, ⟨%g2, Hd2⟩, ⟨%g3, Hd3⟩, ⟨%g4, Hd4⟩, ⟨%g5, Hd5⟩, ⟨%g6, Hd6⟩, ⟨%g7, Hd7⟩, Hown, Hrow1, Hrow2, Hrow3, Hrow4, Hrow5, Hrow6, Hcs0, HO, #HL, #Is0, Hats0, #Hrs0, #Iri1, Hatr1, Hcrr1, #Is1, Hats1, #Hrs1, Hts1, #Iro2, Htro2, #Hrro2, #Iri2, Hatr2, Hcrr2, #Is2, Hats2, #Hrs2, Hts2, #Iro3, Htro3, #Hrro3, #Iri3, Hatr3, Hcrr3, #Is3, Hats3, #Hrs3, Hts3, #Iro4, Htro4, #Hrro4, #Iri4, Hatr4, Hcrr4, #Is4, Hats4, #Hrs4, Hts4, #Iro5, Htro5, #Hrro5, #Iri5, Hatr5, Hcrr5, #Is5, Hats5, #Hrs5, Hts5, #Iro6, Htro6, #Hrro6, #Iri6, Hatr6, Hcrr6, #Is6, Hats6, #Hrs6, Hts6, #Iro7, Htro7, #Hrro7, #Iri7, Hatr7, Hcrr7⟩
    icases (keep) $$ Hcs0 with Hcs0
    have hw0a := Levels.mayWait_low_sends4 (F := F) c (wSem 0) (recvIdx_wSem 0)
    have hw1a := Levels.mayWait_low_sends4 (F := F) c (wSem 1) (recvIdx_wSem 1)
    have hw0b := Levels.mayWait_low_send7 (F := F) c (wSem 0) (recvIdx_wSem 0)
    have hw1b := Levels.mayWait_low_send7 (F := F) c (wSem 1) (recvIdx_wSem 1)
    have hr1 := Levels.mayWait_recv1 (F := F) c
    sl_unfold [tailProg]
    sl_exec_parts (disch := first | sl_exact dev9_eq c | sl_exact dev10_eq c | sl_exact dev11_eq c | sl_exact dev12_eq c | sl_exact dev13_eq c | sl_exact dev14_eq c | sl_exact dev15_eq c)
    iapply (send_step m c 1 2 rfl (κs 1) (κro 2) _ _ rfl _ g2) $$ [Hrow1 Hd2 HO Hts1 Htro2]
    · sl_close
    iintro ⟨Hcs1, HO⟩
    icases (keep) $$ Hcs1 with Hcs1
    sl_exec_parts (disch := first | sl_exact dev9_eq c | sl_exact dev10_eq c | sl_exact dev11_eq c | sl_exact dev12_eq c | sl_exact dev13_eq c | sl_exact dev14_eq c | sl_exact dev15_eq c)
    iapply (send_step m c 2 3 rfl (κs 2) (κro 3) _ _ rfl _ g3) $$ [Hrow2 Hd3 HO Hts2 Htro3]
    · sl_close
    iintro ⟨Hcs2, HO⟩
    icases (keep) $$ Hcs2 with Hcs2
    sl_exec_parts (disch := first | sl_exact dev9_eq c | sl_exact dev10_eq c | sl_exact dev11_eq c | sl_exact dev12_eq c | sl_exact dev13_eq c | sl_exact dev14_eq c | sl_exact dev15_eq c)
    iapply (send_step m c 3 4 rfl (κs 3) (κro 4) _ _ rfl _ g4) $$ [Hrow3 Hd4 HO Hts3 Htro4]
    · sl_close
    iintro ⟨Hcs3, HO⟩
    icases (keep) $$ Hcs3 with Hcs3
    sl_exec_parts (disch := first | sl_exact dev9_eq c | sl_exact dev10_eq c | sl_exact dev11_eq c | sl_exact dev12_eq c | sl_exact dev13_eq c | sl_exact dev14_eq c | sl_exact dev15_eq c)
    iapply (send_step m c 4 5 rfl (κs 4) (κro 5) _ _ rfl _ g5) $$ [Hrow4 Hd5 HO Hts4 Htro5]
    · sl_close
    iintro ⟨Hcs4, HO⟩
    icases (keep) $$ Hcs4 with Hcs4
    sl_exec_parts (disch := first | sl_exact dev9_eq c | sl_exact dev10_eq c | sl_exact dev11_eq c | sl_exact dev12_eq c | sl_exact dev13_eq c | sl_exact dev14_eq c | sl_exact dev15_eq c)
    iapply (send_step m c 5 6 rfl (κs 5) (κro 6) _ _ rfl _ g6) $$ [Hrow5 Hd6 HO Hts5 Htro6]
    · sl_close
    iintro ⟨Hcs5, HO⟩
    icases (keep) $$ Hcs5 with Hcs5
    sl_exec_parts (disch := first | sl_exact dev9_eq c | sl_exact dev10_eq c | sl_exact dev11_eq c | sl_exact dev12_eq c | sl_exact dev13_eq c | sl_exact dev14_eq c | sl_exact dev15_eq c)
    iapply (send_step m c 6 7 rfl (κs 6) (κro 7) _ 0 (zero_add _).symm _ g7) $$ [Hrow6 Hd7 HO Hts6 Htro7]
    · sl_close
    iintro ⟨Hcs6, HO⟩
    icases (keep) $$ Hcs6 with Hcs6
    set_option sl_exec.maxSteps 159 in sl_exec_parts (disch := first | sl_exact dev9_eq c | sl_exact dev10_eq c | sl_exact dev11_eq c | sl_exact dev12_eq c | sl_exact dev13_eq c | sl_exact dev14_eq c | sl_exact dev15_eq c)
    first | (sl_exec (disch := first | sl_exact dev9_eq c | sl_exact dev10_eq c | sl_exact dev11_eq c | sl_exact dev12_eq c | sl_exact dev13_eq c | sl_exact dev14_eq c | sl_exact dev15_eq c)) | skip
    icases (unkeep) $$ Hcs0 with Hcs0
    iapply (send_wait_step m c 0 0#32 0#32 1#32 rfl (k0_off4_inb c 0) (κs 0) _) $$ [Hcs0 HO Hats0]
    · sl_close
    iintro ⟨HO, Hats0, #Hrr0, Hrow0⟩
    first | (sl_exec (disch := first | sl_exact dev9_eq c | sl_exact dev10_eq c | sl_exact dev11_eq c | sl_exact dev12_eq c | sl_exact dev13_eq c | sl_exact dev14_eq c | sl_exact dev15_eq c)) | skip
    icases (unkeep) $$ Hcs1 with Hcs1
    iapply (send_wait_step m c 1 0#32 1#32 0#32 rfl (k0_off4_inb c 1) (κs 1) _) $$ [Hcs1 HO Hats1]
    · sl_close
    iintro ⟨HO, Hats1, #Hrr1, Hrow1⟩
    first | (sl_exec (disch := first | sl_exact dev9_eq c | sl_exact dev10_eq c | sl_exact dev11_eq c | sl_exact dev12_eq c | sl_exact dev13_eq c | sl_exact dev14_eq c | sl_exact dev15_eq c)) | skip
    icases (unkeep) $$ Hcs2 with Hcs2
    iapply (send_wait_step m c 2 1#32 0#32 0#32 rfl (k0_off4_inb c 2) (κs 2) _) $$ [Hcs2 HO Hats2]
    · sl_close
    iintro ⟨HO, Hats2, #Hrr2, Hrow2⟩
    first | (sl_exec (disch := first | sl_exact dev9_eq c | sl_exact dev10_eq c | sl_exact dev11_eq c | sl_exact dev12_eq c | sl_exact dev13_eq c | sl_exact dev14_eq c | sl_exact dev15_eq c)) | skip
    icases (unkeep) $$ Hcs3 with Hcs3
    iapply (send_wait_step m c 3 0#32 1#32 1#32 rfl (k0_off4_inb c 3) (κs 3) _) $$ [Hcs3 HO Hats3]
    · sl_close
    iintro ⟨HO, Hats3, #Hrr3, Hrow3⟩
    first | (sl_exec (disch := first | sl_exact dev9_eq c | sl_exact dev10_eq c | sl_exact dev11_eq c | sl_exact dev12_eq c | sl_exact dev13_eq c | sl_exact dev14_eq c | sl_exact dev15_eq c)) | skip
    icases (unkeep) $$ Hcs4 with Hcs4
    iapply (send_wait_step m c 4 1#32 0#32 1#32 rfl (k0_off4_inb c 4) (κs 4) _) $$ [Hcs4 HO Hats4]
    · sl_close
    iintro ⟨HO, Hats4, #Hrr4, Hrow4⟩
    first | (sl_exec (disch := first | sl_exact dev9_eq c | sl_exact dev10_eq c | sl_exact dev11_eq c | sl_exact dev12_eq c | sl_exact dev13_eq c | sl_exact dev14_eq c | sl_exact dev15_eq c)) | skip
    icases (unkeep) $$ Hcs5 with Hcs5
    iapply (send_wait_step m c 5 1#32 1#32 0#32 rfl (k0_off4_inb c 5) (κs 5) _) $$ [Hcs5 HO Hats5]
    · sl_close
    iintro ⟨HO, Hats5, #Hrr5, Hrow5⟩
    first | (sl_exec (disch := first | sl_exact dev9_eq c | sl_exact dev10_eq c | sl_exact dev11_eq c | sl_exact dev12_eq c | sl_exact dev13_eq c | sl_exact dev14_eq c | sl_exact dev15_eq c)) | skip
    icases (unkeep) $$ Hcs6 with Hcs6
    iapply (send_wait_step m c 6 1#32 1#32 1#32 rfl (k0_off4_inb c 6) (κs 6) _) $$ [Hcs6 HO Hats6]
    · sl_close
    iintro ⟨HO, Hats6, #Hrr6, Hrow6⟩
    first | (sl_exec (disch := first | sl_exact dev9_eq c | sl_exact dev10_eq c | sl_exact dev11_eq c | sl_exact dev12_eq c | sl_exact dev13_eq c | sl_exact dev14_eq c | sl_exact dev15_eq c)) | skip
    icases (out_rebase c fo _ (.split 1 4096 (.leaf 2) (.leaf 0)) (by rfl)) $$ Ho with Ho
    sl_step
    unfold End
    sl_close

end Cert.Kernel.BodyProof

end
-- ==== Proof.Bits.OutAt.lean ====
/- The kernel's result on one device, as the body's run leaves it in the result's staging buffer: the list of stores
   the run of the body found, over contents that nothing reads. -/
import proofs.«900487_g7700000000000488_dist_a2a_gemm_m4096_k4096_n8192_f32_gelu_v7x_i8_1_alg».proof.Proof.Bits.BodyTailRun

noncomputable section

namespace Cert.Kernel.Proto

open Cert.Kernel Cert.Kernel.Gen Cert.Kernel.Devs
open Idealize.ShloMosaic Idealize.ShloMosaic.TcCoe Idealize.SL.Sem

variable {F : FTy → Type} [FloatOps F]

/-- The kernel's result on device c: the stores the body's run lists in the result's staging buffer, newest first. -/
def outAt (m : (ℓ : Loc nD τ sig) → Buf (Elt F) ℓ) (c : Dev nD) : (cc0_stg1_0 : Ref sig .tc).ty.Contents (Elt F) :=
  oM.view.writes (Elt F) oM.view.junk (Cert.Kernel.BodyProof.tail_sub m c).1

end Cert.Kernel.Proto

end
-- ==== Proof.Bits.Dats.lean ====
/- The pipeline's proof data of the one region: what each window's staging buffer holds after the body, the
   invariant before and after the point, and what the device owes. -/
import proofs.«900487_g7700000000000488_dist_a2a_gemm_m4096_k4096_n8192_f32_gelu_v7x_i8_1_alg».proof.Proof.Bits.OutAt

noncomputable section

namespace Cert.Kernel.Proto

open Cert.Kernel Cert.Kernel.Gen Cert.Kernel.Devs
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.Proto

end
-- ==== Proof.Bits.Launch.lean ====
/- The launch: the library's launch theorem for a region whose devices owe at launch and whose protocol also runs
   on the runtime's barrier semaphore, applied to the body obligation. From any memory with every counter at zero,
   every fair execution of the program on the eight devices ends, and every final state has each device's windowed
   arrays at what the pipeline's proof data computes for them and its copy of w as it was. -/
import proofs.«900487_g7700000000000488_dist_a2a_gemm_m4096_k4096_n8192_f32_gelu_v7x_i8_1_alg».proof.Proof.Bits.LaunchPre
import proofs.«900487_g7700000000000488_dist_a2a_gemm_m4096_k4096_n8192_f32_gelu_v7x_i8_1_alg».proof.Proof.Bits.Dats
import proofs.«900487_g7700000000000488_dist_a2a_gemm_m4096_k4096_n8192_f32_gelu_v7x_i8_1_alg».proof.Proof.Bits.Levels
import proofs.«900487_g7700000000000488_dist_a2a_gemm_m4096_k4096_n8192_f32_gelu_v7x_i8_1_alg».proof.Proof.Gen.Kernel.Points

noncomputable section

namespace Cert.Kernel.LaunchProof

open Cert.Kernel Cert.Kernel.Gen Cert.Kernel.Devs Cert.Kernel.Proto Cert.Kernel.LaunchPre

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/- The result's contents are a name here: nothing in this module reads its definition. -/
attribute [local irreducible] Cert.Kernel.Proto.outAt

local notation "𝕄" => MT nD τ sig Unit (Elt F) ℕ UU ℕ

variable (m : (ℓ : Loc nD τ sig) → Buf (Elt F) ℓ) (ρ : Dev nD → PrngReg)

/-! ## The launch theorem's side conditions -/

theorem share_eq (c : Dev nD) (w : Fin cfg0.W) : (dats m 0 c).share w = fullShare := by unfold Dat.share; split <;> rfl

/-- What the region is entered with (the theorem's hX): the copy of w out of the unscoped rest, the level facts, the
    launch credit as the device's credit tokens, the ghost state and the three idle semaphores out of the global step. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (creds_intro (F := F) c) $$ Hcr
  unfold G'
  icases HG with ⟨HG, Hidle⟩
  imodintro
  unfold start warr
  isplitl
  · isplitl [HG]; · iexact HG
    isplitl [Hc]; · iexact Hc
    isplitl [Hidle]; · iexact Hidle
    isplitl [Hlev]; · iexact Hlev
    iexact Hw
  · iempintro

/-- The invariant before the point (hin): what the region is entered with and the four scratch buffers. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- The invariant after the point (hout): the copy of w, the own semaphores at zero, the scratch buffers. -/
theorem phi1_exit (c : Dev nD) :
    (dats m 0 c).Φ (Fin.last cfg0.N)
      ⊢ iprop((((c : Thread nD τ).loc main_arg1) ↦{fullShare} warr m c) ∗ Pipeline.ownSems0 osem c ∗ Pipeline.scopedRest cfg0.spec c) := by
  rw [show (dats m 0 c).Φ (Fin.last cfg0.N) = Φ₁ m c from rfl, scopedRest0_eq, ownSems0_eq_groups]
  unfold Φ₁ ownZero scratch
  iintro ⟨Hscr, Hz, Hw⟩
  isplitl [Hw]; · iexact Hw
  isplitl [Hz]; · iexact Hz
  iexact Hscr

/-- The staging cells are no receive cell: they stand at level 0. -/
theorem stage_low (w : Fin cfg0.W) (s : Fin (cfg0.win w).nbuf) : recvIdx ((cfg0.win w).sem s) = none := by
  fin_cases w <;> fin_cases s <;> decide

/-- The pipeline's own waits, on the staging cells: below everything the device owes at launch, and after the
    point it owes nothing. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact Levels.mayWait_low_O₀ c _ (stage_low w s)
    · show _ ⊢ MayWait (c : Thread nD τ) _ () 0
      rw [MayWait_zero]; iintro -; iempintro

/-! ## The run -/

set_option maxRecDepth 8000 in
/-- At the compiled mesh of eight devices, for any float values, from any memory with zero counters, GIVEN the body
    obligation on every device: every weakly fair execution of @main terminates, and every final state has each
    device's windowed arrays at the contents the proof data computes and its copy of w unchanged. -/
theorem run_main (hbody : ∀ c, BodyObligation (dats (F := F) m 0 c) (defs₀ (F := F)) 𝒱₀ () Set.univ) :
    θ_run defs (onTc (τ := τ) (main (F := F))) ⟨m, fun _ => 0, ρ⟩
      (fun r => ∀ c : Dev nD, (∀ w : Fin cfg0.W, r.2.mem ((cfg0.win w).arr.view.loc (c : Thread nD τ)) = (dats m 0 c).arrAt w cfg0.N)
        ∧ r.2.mem ((c : Thread nD τ).loc main_arg1) = m ((c : Thread nD τ).loc main_arg1)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (own_pair_emb embR _ _) $$ HX
      icases HX' with ⟨HX1, -⟩
      imod (fund_ring m) $$ HX1 with HG
      imodintro
      isplitl [HP] <;> iassumption)
    (hglob := glob m)
    (hA := fun _ _ => rfl) (hpf := fun _ k => k.elim0)
    (X := start m) (Y := fun c => (((c : Thread nD τ).loc main_arg1) ↦{fullShare} warr m c)) (Z := fun _ => iprop(emp))
    (hX := start_intro m ρ) (hin := phi0_intro m) (hout := phi1_exit m)
    (QY := fun c s => s.mem ((c : Thread nD τ).loc main_arg1) = warr m c)
    (hY := fun c s' => by
      iintro ⟨Hw, -, HSI⟩
      icombine HSI Hw gives %hw
      imodintro
      isplitr; · ipureintro; exact Buf.eq_of_forall_mem_univ hw
      iexact HSI)
    (hQ := fun _ h c => ⟨(h c).1, (h c).2.2⟩)

/-- info: 'Cert.Kernel.LaunchProof.run_main' depends on axioms: [propext, Classical.choice, Quot.sound] -/
#guard_msgs in #print axioms run_main

/-! ## The windowed arrays after the run -/

/-- The x array after the run holds what it held: an input window is never written back. -/
theorem finalA_x (m : (ℓ : Loc nD τ sig) → Buf (Elt F) ℓ) (ρ : Dev nD → PrngReg) (c : Dev nD) :
    (dats m 0 c).arrAt (0 : Fin 2) cfg0.N = m ((c : Thread nD τ).loc main_arg0) :=
  (dats (F := F) m 0 c).arrAt_in (0 : Fin 2) rfl _

/-- The result array after the run holds what the body left in its staging buffer: the one point writes the whole
    block back, and the block is the whole array. -/
theorem finalA_out (m : (ℓ : Loc nD τ sig) → Buf (Elt F) ℓ) (ρ : Dev nD → PrngReg) (c : Dev nD) :
    (dats m 0 c).arrAt (1 : Fin 2) cfg0.N = outAt m c := by
  have h := (dats (F := F) m 0 c).arrAt_succ (1 : Fin 2) t0_0
  rw [flush0_1 t0_0, if_pos rfl] at h
  refine (congrArg ((dats (F := F) m 0 c).arrAt (1 : Fin 2)) (show cfg0.N = t0_0.val + 1 from rfl)).trans (h.trans ?_)
  exact Memref.write_access_unit_zero_univ (Elt F) main_v1 (funext fun a => Nat.zero_mul _) _ _ _

end Cert.Kernel.LaunchProof

end
-- ==== Proof.Bits.BodyDev0.lean ====
/- The entry stretch of the body on device 0: the cast of the device's block of x into its half-precision copy, the
   first copy of a block of w, the handshake on the barrier semaphore (a unit to every other device, each handing
   that device the slot of this device's receive buffer it writes; then the wait for the seven units, each handing
   this device its slot of a partner's buffer), and the first transfer of 512 rows to the first partner. The guards
   of the eight signals and the partners are decided at this device; everything else is stated at the device c. -/
import proofs.«900487_g7700000000000488_dist_a2a_gemm_m4096_k4096_n8192_f32_gelu_v7x_i8_1_alg».proof.Proof.Bits.Sched
import proofs.«900487_g7700000000000488_dist_a2a_gemm_m4096_k4096_n8192_f32_gelu_v7x_i8_1_alg».proof.Proof.Bits.Levels
import proofs.«900487_g7700000000000488_dist_a2a_gemm_m4096_k4096_n8192_f32_gelu_v7x_i8_1_alg».proof.Proof.Bits.SchedTables
import proofs.«900487_g7700000000000488_dist_a2a_gemm_m4096_k4096_n8192_f32_gelu_v7x_i8_1_alg».proof.Proof.Bits.Cuts
import proofs.«900487_g7700000000000488_dist_a2a_gemm_m4096_k4096_n8192_f32_gelu_v7x_i8_1_alg».proof.Proof.Bits.CutsBody
import proofs.«900487_g7700000000000488_dist_a2a_gemm_m4096_k4096_n8192_f32_gelu_v7x_i8_1_alg».proof.Proof.Bits.BodyLemmas
import proofs.«900487_g7700000000000488_dist_a2a_gemm_m4096_k4096_n8192_f32_gelu_v7x_i8_1_alg».proof.Proof.Bits.BodyMid
import Idealize.ShloMosaic.Lib.Pipeline.Launch
import Idealize.ShloMosaic.Lib.Pipeline.Kit
import Idealize.ShloMosaic.Lib.Ring
import Idealize.ShloMosaic.Lib.Tactic

noncomputable section

namespace Cert.Kernel.BodyProof

open Cert.Kernel Cert.Kernel.Gen Cert.Kernel.Devs Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The barrier duty a device pays on its k-th partner's cell hands over the slot of ITS OWN buffer that partner writes -/
theorem t_payload_bar_out_1 (c : Dev nD) (r : ℕ) :
    (Rd m).payload (barCell (peer c 1)) r (1 : Fin 8)
      = iprop(∃ f, ((slotM (peer c 1)).view.loc (c : Thread nD τ) ↦[(slotM (peer c 1)).view.set]{fullShare} f : sProp 𝕄)) := by
  have h : peer (peer c 1) 1 = c := peer_invol c 1
  show iprop(∃ f, ((slotM (peer c 1)).view.loc ((peer (peer c 1) ((1 : Fin 8) : ℕ) : Dev nD) : Thread nD τ) ↦[(slotM (peer c 1)).view.set]{fullShare} f : sProp 𝕄)) = _
  rw [show ((1 : Fin 8) : ℕ) = 1 from rfl, h]
theorem t_payload_bar_out_2 (c : Dev nD) (r : ℕ) :
    (Rd m).payload (barCell (peer c 2)) r (2 : Fin 8)
      = iprop(∃ f, ((slotM (peer c 2)).view.loc (c : Thread nD τ) ↦[(slotM (peer c 2)).view.set]{fullShare} f : sProp 𝕄)) := by
  have h : peer (peer c 2) 2 = c := peer_invol c 2
  show iprop(∃ f, ((slotM (peer c 2)).view.loc ((peer (peer c 2) ((2 : Fin 8) : ℕ) : Dev nD) : Thread nD τ) ↦[(slotM (peer c 2)).view.set]{fullShare} f : sProp 𝕄)) = _
  rw [show ((2 : Fin 8) : ℕ) = 2 from rfl, h]
theorem t_payload_bar_out_3 (c : Dev nD) (r : ℕ) :
    (Rd m).payload (barCell (peer c 3)) r (3 : Fin 8)
      = iprop(∃ f, ((slotM (peer c 3)).view.loc (c : Thread nD τ) ↦[(slotM (peer c 3)).view.set]{fullShare} f : sProp 𝕄)) := by
  have h : peer (peer c 3) 3 = c := peer_invol c 3
  show iprop(∃ f, ((slotM (peer c 3)).view.loc ((peer (peer c 3) ((3 : Fin 8) : ℕ) : Dev nD) : Thread nD τ) ↦[(slotM (peer c 3)).view.set]{fullShare} f : sProp 𝕄)) = _
  rw [show ((3 : Fin 8) : ℕ) = 3 from rfl, h]
theorem t_payload_bar_out_4 (c : Dev nD) (r : ℕ) :
    (Rd m).payload (barCell (peer c 4)) r (4 : Fin 8)
      = iprop(∃ f, ((slotM (peer c 4)).view.loc (c : Thread nD τ) ↦[(slotM (peer c 4)).view.set]{fullShare} f : sProp 𝕄)) := by
  have h : peer (peer c 4) 4 = c := peer_invol c 4
  show iprop(∃ f, ((slotM (peer c 4)).view.loc ((peer (peer c 4) ((4 : Fin 8) : ℕ) : Dev nD) : Thread nD τ) ↦[(slotM (peer c 4)).view.set]{fullShare} f : sProp 𝕄)) = _
  rw [show ((4 : Fin 8) : ℕ) = 4 from rfl, h]
theorem t_payload_bar_out_5 (c : Dev nD) (r : ℕ) :
    (Rd m).payload (barCell (peer c 5)) r (5 : Fin 8)
      = iprop(∃ f, ((slotM (peer c 5)).view.loc (c : Thread nD τ) ↦[(slotM (peer c 5)).view.set]{fullShare} f : sProp 𝕄)) := by
  have h : peer (peer c 5) 5 = c := peer_invol c 5
  show iprop(∃ f, ((slotM (peer c 5)).view.loc ((peer (peer c 5) ((5 : Fin 8) : ℕ) : Dev nD) : Thread nD τ) ↦[(slotM (peer c 5)).view.set]{fullShare} f : sProp 𝕄)) = _
  rw [show ((5 : Fin 8) : ℕ) = 5 from rfl, h]
theorem t_payload_bar_out_6 (c : Dev nD) (r : ℕ) :
    (Rd m).payload (barCell (peer c 6)) r (6 : Fin 8)
      = iprop(∃ f, ((slotM (peer c 6)).view.loc (c : Thread nD τ) ↦[(slotM (peer c 6)).view.set]{fullShare} f : sProp 𝕄)) := by
  have h : peer (peer c 6) 6 = c := peer_invol c 6
  show iprop(∃ f, ((slotM (peer c 6)).view.loc ((peer (peer c 6) ((6 : Fin 8) : ℕ) : Dev nD) : Thread nD τ) ↦[(slotM (peer c 6)).view.set]{fullShare} f : sProp 𝕄)) = _
  rw [show ((6 : Fin 8) : ℕ) = 6 from rfl, h]
theorem t_payload_bar_out_7 (c : Dev nD) (r : ℕ) :
    (Rd m).payload (barCell (peer c 7)) r (7 : Fin 8)
      = iprop(∃ f, ((slotM (peer c 7)).view.loc (c : Thread nD τ) ↦[(slotM (peer c 7)).view.set]{fullShare} f : sProp 𝕄)) := by
  have h : peer (peer c 7) 7 = c := peer_invol c 7
  show iprop(∃ f, ((slotM (peer c 7)).view.loc ((peer (peer c 7) ((7 : Fin 8) : ℕ) : Dev nD) : Thread nD τ) ↦[(slotM (peer c 7)).view.set]{fullShare} f : sProp 𝕄)) = _
  rw [show ((7 : Fin 8) : ℕ) = 7 from rfl, h]
attribute [local sl_rounds high] t_payload_bar_out_1 t_payload_bar_out_2 t_payload_bar_out_3 t_payload_bar_out_4 t_payload_bar_out_5 t_payload_bar_out_6 t_payload_bar_out_7

set_option maxHeartbeats 8000000 in
theorem prefix_dev0 (c : Dev nD) (hc : c = 0) (W : Waits sig Unit)
    (κ0 : ℕ) (κb κs κro κri : ℕ → ℕ)
    (fo : Buf (Elt F) (oM.view.loc (c : Thread nD τ)))
    (fb : Buf (Elt F) (bM.view.loc (c : Thread nD τ)))
    (fr : Buf (Elt F) (rM.view.loc (c : Thread nD τ)))
    (fa : Buf (Elt F) (aM.view.loc (c : Thread nD τ)))
    (fk : Buf (Elt F) (wM.view.loc (c : Thread nD τ))) :
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ
          (headProg (F := F))
          (fun ws => iprop(⌜ws.1 = c⌝ ∗ Mid m c (insert (SemLoc.reg barS, ()) W) κs κro κri fo fr fa fk)) := by
  iintro ⟨Hx, Ho, Hb, Hr, Ha, Hk, Hh, Hs0, Hs1, Hsr, HO, #HL, #Ib0, Hatb, Hcrb, #Ib1, Htb1, #Hrb1, #Ib2, Htb2, #Hrb2, #Ib3, Htb3, #Hrb3, #Ib4, Htb4, #Hrb4, #Ib5, Htb5, #Hrb5, #Ib6, Htb6, #Hrb6, #Ib7, Htb7, #Hrb7, #Is0, Hats0, Hts0, #Hrs0, #Iro1, Htro1, #Hrro1, #Iri1, Hatr1, Hcrr1, #Is1, Hats1, Hts1, #Hrs1, #Iro2, Htro2, #Hrro2, #Iri2, Hatr2, Hcrr2, #Is2, Hats2, Hts2, #Hrs2, #Iro3, Htro3, #Hrro3, #Iri3, Hatr3, Hcrr3, #Is3, Hats3, Hts3, #Hrs3, #Iro4, Htro4, #Hrro4, #Iri4, Hatr4, Hcrr4, #Is4, Hats4, Hts4, #Hrs4, #Iro5, Htro5, #Hrro5, #Iri5, Hatr5, Hcrr5, #Is5, Hats5, Hts5, #Hrs5, #Iro6, Htro6, #Hrro6, #Iri6, Hatr6, Hcrr6, #Is6, Hats6, Hts6, #Hrs6, #Iro7, Htro7, #Hrro7, #Iri7, Hatr7, Hcrr7⟩
  have hmb := Levels.mayWait_bar (F := F) c
  have hpeer1 : (1 : Dev nD) = peer c 1 := by subst hc; decide
  have hpeer2 : (3 : Dev nD) = peer c 2 := by subst hc; decide
  have hpeer3 : (4 : Dev nD) = peer c 3 := by subst hc; decide
  have hpeer4 : (2 : Dev nD) = peer c 4 := by subst hc; decide
  have hpeer5 : (5 : Dev nD) = peer c 5 := by subst hc; decide
  have hpeer6 : (7 : Dev nD) = peer c 6 := by subst hc; decide
  have hpeer7 : (6 : Dev nD) = peer c 7 := by subst hc; decide
  have hO : (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1 : CellTallies nD τ sig Unit)
      = (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 6)) () 1 + tallyAt (barCell (peer c 7)) () 1 + tallyAt (barCell (peer c 5)) () 1 + tallyAt (barCell (peer c 3)) () 1 + tallyAt (barCell (peer c 2)) () 1 + tallyAt (barCell (peer c 4)) () 1 + tallyAt (barCell (peer c 1)) () 1) := by ac_rfl
  icases (entails_of_eq' (congrArg (fun O => (owes (c : Thread nD τ) O W : sProp 𝕄)) hO)) $$ HO with HO
  icases (entails_of_eq' (Cuts.wbuf_cut (F := F) c fk)) $$ Hk with ⟨Hk0, Hk1⟩
  sl_unfold [headProg]
  set_option sl_exec.stopBefore "k0_cond1" in sl_exec_parts (disch := first | (subst hc; decide))
  icases (entails_of_eq' (Cuts.recv_cut_peer_chain (F := F) c fr)) $$ Hr with ⟨Hr0, Hr1, Hr2, Hr3, Hr4, Hr5, Hr6, Hr7⟩
  irevert Hr1 Hr4 Hr2 Hr3 Hr5 Hr7 Hr6 Hr0
  iintro Hr1 Hr4 Hr2 Hr3 Hr5 Hr7 Hr6 Hr0
  sl_exec_parts (disch := first | (subst hc; decide))
  icases (sep7 _ _ _ _ _ _ _) $$ Hatb_pay1 with ⟨⟨%g1, Hd1⟩, ⟨%g2, Hd2⟩, ⟨%g3, Hd3⟩, ⟨%g4, Hd4⟩, ⟨%g5, Hd5⟩, ⟨%g6, Hd6⟩, ⟨%g7, Hd7⟩⟩
  icases (xb_pts m c fb) $$ Hb with Hb
  icases (entails_of_eq' (Cuts.copy_cut_body (F := F) c (xbC m c))) $$ Hb with ⟨Hown, Hrow0, Hrow1, Hrow2, Hrow3, Hrow4, Hrow5, Hrow6⟩
  iapply (send_step m c 0 1 rfl (κs 0) (κro 1) _ _ rfl _ g1) $$ [Hrow0 Hd1 HO Hts0 Htro1]
  · sl_close
  iintro ⟨Hcs0, HO⟩
  sl_exec_parts (disch := first | (subst hc; decide))
  sl_step
  isplitr
  · ipureintro; rfl
  unfold Mid
  sl_close

end Cert.Kernel.BodyProof

end
-- ==== Proof.Bits.BodyDev1.lean ====
/- The entry stretch of the body on device 1: the cast of the device's block of x into its half-precision copy, the
   first copy of a block of w, the handshake on the barrier semaphore (a unit to every other device, each handing
   that device the slot of this device's receive buffer it writes; then the wait for the seven units, each handing
   this device its slot of a partner's buffer), and the first transfer of 512 rows to the first partner. The guards
   of the eight signals and the partners are decided at this device; everything else is stated at the device c. -/
import proofs.«900487_g7700000000000488_dist_a2a_gemm_m4096_k4096_n8192_f32_gelu_v7x_i8_1_alg».proof.Proof.Bits.Sched
import proofs.«900487_g7700000000000488_dist_a2a_gemm_m4096_k4096_n8192_f32_gelu_v7x_i8_1_alg».proof.Proof.Bits.Levels
import proofs.«900487_g7700000000000488_dist_a2a_gemm_m4096_k4096_n8192_f32_gelu_v7x_i8_1_alg».proof.Proof.Bits.SchedTables
import proofs.«900487_g7700000000000488_dist_a2a_gemm_m4096_k4096_n8192_f32_gelu_v7x_i8_1_alg».proof.Proof.Bits.Cuts
import proofs.«900487_g7700000000000488_dist_a2a_gemm_m4096_k4096_n8192_f32_gelu_v7x_i8_1_alg».proof.Proof.Bits.CutsBody
import proofs.«900487_g7700000000000488_dist_a2a_gemm_m4096_k4096_n8192_f32_gelu_v7x_i8_1_alg».proof.Proof.Bits.BodyLemmas
import proofs.«900487_g7700000000000488_dist_a2a_gemm_m4096_k4096_n8192_f32_gelu_v7x_i8_1_alg».proof.Proof.Bits.BodyMid
import Idealize.ShloMosaic.Lib.Pipeline.Launch
import Idealize.ShloMosaic.Lib.Pipeline.Kit
import Idealize.ShloMosaic.Lib.Ring
import Idealize.ShloMosaic.Lib.Tactic

noncomputable section

namespace Cert.Kernel.BodyProof

open Cert.Kernel Cert.Kernel.Gen Cert.Kernel.Devs Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The barrier duty a device pays on its k-th partner's cell hands over the slot of ITS OWN buffer that partner writes -/
theorem t_payload_bar_out_1 (c : Dev nD) (r : ℕ) :
    (Rd m).payload (barCell (peer c 1)) r (1 : Fin 8)
      = iprop(∃ f, ((slotM (peer c 1)).view.loc (c : Thread nD τ) ↦[(slotM (peer c 1)).view.set]{fullShare} f : sProp 𝕄)) := by
  have h : peer (peer c 1) 1 = c := peer_invol c 1
  show iprop(∃ f, ((slotM (peer c 1)).view.loc ((peer (peer c 1) ((1 : Fin 8) : ℕ) : Dev nD) : Thread nD τ) ↦[(slotM (peer c 1)).view.set]{fullShare} f : sProp 𝕄)) = _
  rw [show ((1 : Fin 8) : ℕ) = 1 from rfl, h]
theorem t_payload_bar_out_2 (c : Dev nD) (r : ℕ) :
    (Rd m).payload (barCell (peer c 2)) r (2 : Fin 8)
      = iprop(∃ f, ((slotM (peer c 2)).view.loc (c : Thread nD τ) ↦[(slotM (peer c 2)).view.set]{fullShare} f : sProp 𝕄)) := by
  have h : peer (peer c 2) 2 = c := peer_invol c 2
  show iprop(∃ f, ((slotM (peer c 2)).view.loc ((peer (peer c 2) ((2 : Fin 8) : ℕ) : Dev nD) : Thread nD τ) ↦[(slotM (peer c 2)).view.set]{fullShare} f : sProp 𝕄)) = _
  rw [show ((2 : Fin 8) : ℕ) = 2 from rfl, h]
theorem t_payload_bar_out_3 (c : Dev nD) (r : ℕ) :
    (Rd m).payload (barCell (peer c 3)) r (3 : Fin 8)
      = iprop(∃ f, ((slotM (peer c 3)).view.loc (c : Thread nD τ) ↦[(slotM (peer c 3)).view.set]{fullShare} f : sProp 𝕄)) := by
  have h : peer (peer c 3) 3 = c := peer_invol c 3
  show iprop(∃ f, ((slotM (peer c 3)).view.loc ((peer (peer c 3) ((3 : Fin 8) : ℕ) : Dev nD) : Thread nD τ) ↦[(slotM (peer c 3)).view.set]{fullShare} f : sProp 𝕄)) = _
  rw [show ((3 : Fin 8) : ℕ) = 3 from rfl, h]
theorem t_payload_bar_out_4 (c : Dev nD) (r : ℕ) :
    (Rd m).payload (barCell (peer c 4)) r (4 : Fin 8)
      = iprop(∃ f, ((slotM (peer c 4)).view.loc (c : Thread nD τ) ↦[(slotM (peer c 4)).view.set]{fullShare} f : sProp 𝕄)) := by
  have h : peer (peer c 4) 4 = c := peer_invol c 4
  show iprop(∃ f, ((slotM (peer c 4)).view.loc ((peer (peer c 4) ((4 : Fin 8) : ℕ) : Dev nD) : Thread nD τ) ↦[(slotM (peer c 4)).view.set]{fullShare} f : sProp 𝕄)) = _
  rw [show ((4 : Fin 8) : ℕ) = 4 from rfl, h]
theorem t_payload_bar_out_5 (c : Dev nD) (r : ℕ) :
    (Rd m).payload (barCell (peer c 5)) r (5 : Fin 8)
      = iprop(∃ f, ((slotM (peer c 5)).view.loc (c : Thread nD τ) ↦[(slotM (peer c 5)).view.set]{fullShare} f : sProp 𝕄)) := by
  have h : peer (peer c 5) 5 = c := peer_invol c 5
  show iprop(∃ f, ((slotM (peer c 5)).view.loc ((peer (peer c 5) ((5 : Fin 8) : ℕ) : Dev nD) : Thread nD τ) ↦[(slotM (peer c 5)).view.set]{fullShare} f : sProp 𝕄)) = _
  rw [show ((5 : Fin 8) : ℕ) = 5 from rfl, h]
theorem t_payload_bar_out_6 (c : Dev nD) (r : ℕ) :
    (Rd m).payload (barCell (peer c 6)) r (6 : Fin 8)
      = iprop(∃ f, ((slotM (peer c 6)).view.loc (c : Thread nD τ) ↦[(slotM (peer c 6)).view.set]{fullShare} f : sProp 𝕄)) := by
  have h : peer (peer c 6) 6 = c := peer_invol c 6
  show iprop(∃ f, ((slotM (peer c 6)).view.loc ((peer (peer c 6) ((6 : Fin 8) : ℕ) : Dev nD) : Thread nD τ) ↦[(slotM (peer c 6)).view.set]{fullShare} f : sProp 𝕄)) = _
  rw [show ((6 : Fin 8) : ℕ) = 6 from rfl, h]
theorem t_payload_bar_out_7 (c : Dev nD) (r : ℕ) :
    (Rd m).payload (barCell (peer c 7)) r (7 : Fin 8)
      = iprop(∃ f, ((slotM (peer c 7)).view.loc (c : Thread nD τ) ↦[(slotM (peer c 7)).view.set]{fullShare} f : sProp 𝕄)) := by
  have h : peer (peer c 7) 7 = c := peer_invol c 7
  show iprop(∃ f, ((slotM (peer c 7)).view.loc ((peer (peer c 7) ((7 : Fin 8) : ℕ) : Dev nD) : Thread nD τ) ↦[(slotM (peer c 7)).view.set]{fullShare} f : sProp 𝕄)) = _
  rw [show ((7 : Fin 8) : ℕ) = 7 from rfl, h]
attribute [local sl_rounds high] t_payload_bar_out_1 t_payload_bar_out_2 t_payload_bar_out_3 t_payload_bar_out_4 t_payload_bar_out_5 t_payload_bar_out_6 t_payload_bar_out_7

set_option maxHeartbeats 8000000 in
theorem prefix_dev1 (c : Dev nD) (hc : c = 1) (W : Waits sig Unit)
    (κ0 : ℕ) (κb κs κro κri : ℕ → ℕ)
    (fo : Buf (Elt F) (oM.view.loc (c : Thread nD τ)))
    (fb : Buf (Elt F) (bM.view.loc (c : Thread nD τ)))
    (fr : Buf (Elt F) (rM.view.loc (c : Thread nD τ)))
    (fa : Buf (Elt F) (aM.view.loc (c : Thread nD τ)))
    (fk : Buf (Elt F) (wM.view.loc (c : Thread nD τ))) :
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ
          (headProg (F := F))
          (fun ws => iprop(⌜ws.1 = c⌝ ∗ Mid m c (insert (SemLoc.reg barS, ()) W) κs κro κri fo fr fa fk)) := by
  iintro ⟨Hx, Ho, Hb, Hr, Ha, Hk, Hh, Hs0, Hs1, Hsr, HO, #HL, #Ib0, Hatb, Hcrb, #Ib1, Htb1, #Hrb1, #Ib2, Htb2, #Hrb2, #Ib3, Htb3, #Hrb3, #Ib4, Htb4, #Hrb4, #Ib5, Htb5, #Hrb5, #Ib6, Htb6, #Hrb6, #Ib7, Htb7, #Hrb7, #Is0, Hats0, Hts0, #Hrs0, #Iro1, Htro1, #Hrro1, #Iri1, Hatr1, Hcrr1, #Is1, Hats1, Hts1, #Hrs1, #Iro2, Htro2, #Hrro2, #Iri2, Hatr2, Hcrr2, #Is2, Hats2, Hts2, #Hrs2, #Iro3, Htro3, #Hrro3, #Iri3, Hatr3, Hcrr3, #Is3, Hats3, Hts3, #Hrs3, #Iro4, Htro4, #Hrro4, #Iri4, Hatr4, Hcrr4, #Is4, Hats4, Hts4, #Hrs4, #Iro5, Htro5, #Hrro5, #Iri5, Hatr5, Hcrr5, #Is5, Hats5, Hts5, #Hrs5, #Iro6, Htro6, #Hrro6, #Iri6, Hatr6, Hcrr6, #Is6, Hats6, Hts6, #Hrs6, #Iro7, Htro7, #Hrro7, #Iri7, Hatr7, Hcrr7⟩
  have hmb := Levels.mayWait_bar (F := F) c
  have hpeer1 : (0 : Dev nD) = peer c 1 := by subst hc; decide
  have hpeer2 : (2 : Dev nD) = peer c 2 := by subst hc; decide
  have hpeer3 : (5 : Dev nD) = peer c 3 := by subst hc; decide
  have hpeer4 : (3 : Dev nD) = peer c 4 := by subst hc; decide
  have hpeer5 : (4 : Dev nD) = peer c 5 := by subst hc; decide
  have hpeer6 : (6 : Dev nD) = peer c 6 := by subst hc; decide
  have hpeer7 : (7 : Dev nD) = peer c 7 := by subst hc; decide
  have hO : (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1 : CellTallies nD τ sig Unit)
      = (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 3)) () 1 + tallyAt (barCell (peer c 5)) () 1 + tallyAt (barCell (peer c 4)) () 1 + tallyAt (barCell (peer c 2)) () 1 + tallyAt (barCell (peer c 1)) () 1) := by ac_rfl
  icases (entails_of_eq' (congrArg (fun O => (owes (c : Thread nD τ) O W : sProp 𝕄)) hO)) $$ HO with HO
  icases (entails_of_eq' (Cuts.wbuf_cut (F := F) c fk)) $$ Hk with ⟨Hk0, Hk1⟩
  sl_unfold [headProg]
  set_option sl_exec.stopBefore "k0_cond1" in sl_exec_parts (disch := first | (subst hc; decide))
  icases (entails_of_eq' (Cuts.recv_cut_peer_chain (F := F) c fr)) $$ Hr with ⟨Hr0, Hr1, Hr2, Hr3, Hr4, Hr5, Hr6, Hr7⟩
  irevert Hr1 Hr2 Hr4 Hr5 Hr3 Hr6 Hr7 Hr0
  iintro Hr1 Hr2 Hr4 Hr5 Hr3 Hr6 Hr7 Hr0
  sl_exec_parts (disch := first | (subst hc; decide))
  icases (sep7 _ _ _ _ _ _ _) $$ Hatb_pay1 with ⟨⟨%g1, Hd1⟩, ⟨%g2, Hd2⟩, ⟨%g3, Hd3⟩, ⟨%g4, Hd4⟩, ⟨%g5, Hd5⟩, ⟨%g6, Hd6⟩, ⟨%g7, Hd7⟩⟩
  icases (xb_pts m c fb) $$ Hb with Hb
  icases (entails_of_eq' (Cuts.copy_cut_body (F := F) c (xbC m c))) $$ Hb with ⟨Hown, Hrow0, Hrow1, Hrow2, Hrow3, Hrow4, Hrow5, Hrow6⟩
  iapply (send_step m c 0 1 rfl (κs 0) (κro 1) _ _ rfl _ g1) $$ [Hrow0 Hd1 HO Hts0 Htro1]
  · sl_close
  iintro ⟨Hcs0, HO⟩
  sl_exec_parts (disch := first | (subst hc; decide))
  sl_step
  isplitr
  · ipureintro; rfl
  unfold Mid
  sl_close

end Cert.Kernel.BodyProof

end
-- ==== Proof.Bits.BodyDev2.lean ====
/- The entry stretch of the body on device 2: the cast of the device's block of x into its half-precision copy, the
   first copy of a block of w, the handshake on the barrier semaphore (a unit to every other device, each handing
   that device the slot of this device's receive buffer it writes; then the wait for the seven units, each handing
   this device its slot of a partner's buffer), and the first transfer of 512 rows to the first partner. The guards
   of the eight signals and the partners are decided at this device; everything else is stated at the device c. -/
import proofs.«900487_g7700000000000488_dist_a2a_gemm_m4096_k4096_n8192_f32_gelu_v7x_i8_1_alg».proof.Proof.Bits.Sched
import proofs.«900487_g7700000000000488_dist_a2a_gemm_m4096_k4096_n8192_f32_gelu_v7x_i8_1_alg».proof.Proof.Bits.Levels
import proofs.«900487_g7700000000000488_dist_a2a_gemm_m4096_k4096_n8192_f32_gelu_v7x_i8_1_alg».proof.Proof.Bits.SchedTables
import proofs.«900487_g7700000000000488_dist_a2a_gemm_m4096_k4096_n8192_f32_gelu_v7x_i8_1_alg».proof.Proof.Bits.Cuts
import proofs.«900487_g7700000000000488_dist_a2a_gemm_m4096_k4096_n8192_f32_gelu_v7x_i8_1_alg».proof.Proof.Bits.CutsBody
import proofs.«900487_g7700000000000488_dist_a2a_gemm_m4096_k4096_n8192_f32_gelu_v7x_i8_1_alg».proof.Proof.Bits.BodyLemmas
import proofs.«900487_g7700000000000488_dist_a2a_gemm_m4096_k4096_n8192_f32_gelu_v7x_i8_1_alg».proof.Proof.Bits.BodyMid
import Idealize.ShloMosaic.Lib.Pipeline.Launch
import Idealize.ShloMosaic.Lib.Pipeline.Kit
import Idealize.ShloMosaic.Lib.Ring
import Idealize.ShloMosaic.Lib.Tactic

noncomputable section

namespace Cert.Kernel.BodyProof

open Cert.Kernel Cert.Kernel.Gen Cert.Kernel.Devs Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The barrier duty a device pays on its k-th partner's cell hands over the slot of ITS OWN buffer that partner writes -/
theorem t_payload_bar_out_1 (c : Dev nD) (r : ℕ) :
    (Rd m).payload (barCell (peer c 1)) r (1 : Fin 8)
      = iprop(∃ f, ((slotM (peer c 1)).view.loc (c : Thread nD τ) ↦[(slotM (peer c 1)).view.set]{fullShare} f : sProp 𝕄)) := by
  have h : peer (peer c 1) 1 = c := peer_invol c 1
  show iprop(∃ f, ((slotM (peer c 1)).view.loc ((peer (peer c 1) ((1 : Fin 8) : ℕ) : Dev nD) : Thread nD τ) ↦[(slotM (peer c 1)).view.set]{fullShare} f : sProp 𝕄)) = _
  rw [show ((1 : Fin 8) : ℕ) = 1 from rfl, h]
theorem t_payload_bar_out_2 (c : Dev nD) (r : ℕ) :
    (Rd m).payload (barCell (peer c 2)) r (2 : Fin 8)
      = iprop(∃ f, ((slotM (peer c 2)).view.loc (c : Thread nD τ) ↦[(slotM (peer c 2)).view.set]{fullShare} f : sProp 𝕄)) := by
  have h : peer (peer c 2) 2 = c := peer_invol c 2
  show iprop(∃ f, ((slotM (peer c 2)).view.loc ((peer (peer c 2) ((2 : Fin 8) : ℕ) : Dev nD) : Thread nD τ) ↦[(slotM (peer c 2)).view.set]{fullShare} f : sProp 𝕄)) = _
  rw [show ((2 : Fin 8) : ℕ) = 2 from rfl, h]
theorem t_payload_bar_out_3 (c : Dev nD) (r : ℕ) :
    (Rd m).payload (barCell (peer c 3)) r (3 : Fin 8)
      = iprop(∃ f, ((slotM (peer c 3)).view.loc (c : Thread nD τ) ↦[(slotM (peer c 3)).view.set]{fullShare} f : sProp 𝕄)) := by
  have h : peer (peer c 3) 3 = c := peer_invol c 3
  show iprop(∃ f, ((slotM (peer c 3)).view.loc ((peer (peer c 3) ((3 : Fin 8) : ℕ) : Dev nD) : Thread nD τ) ↦[(slotM (peer c 3)).view.set]{fullShare} f : sProp 𝕄)) = _
  rw [show ((3 : Fin 8) : ℕ) = 3 from rfl, h]
theorem t_payload_bar_out_4 (c : Dev nD) (r : ℕ) :
    (Rd m).payload (barCell (peer c 4)) r (4 : Fin 8)
      = iprop(∃ f, ((slotM (peer c 4)).view.loc (c : Thread nD τ) ↦[(slotM (peer c 4)).view.set]{fullShare} f : sProp 𝕄)) := by
  have h : peer (peer c 4) 4 = c := peer_invol c 4
  show iprop(∃ f, ((slotM (peer c 4)).view.loc ((peer (peer c 4) ((4 : Fin 8) : ℕ) : Dev nD) : Thread nD τ) ↦[(slotM (peer c 4)).view.set]{fullShare} f : sProp 𝕄)) = _
  rw [show ((4 : Fin 8) : ℕ) = 4 from rfl, h]
theorem t_payload_bar_out_5 (c : Dev nD) (r : ℕ) :
    (Rd m).payload (barCell (peer c 5)) r (5 : Fin 8)
      = iprop(∃ f, ((slotM (peer c 5)).view.loc (c : Thread nD τ) ↦[(slotM (peer c 5)).view.set]{fullShare} f : sProp 𝕄)) := by
  have h : peer (peer c 5) 5 = c := peer_invol c 5
  show iprop(∃ f, ((slotM (peer c 5)).view.loc ((peer (peer c 5) ((5 : Fin 8) : ℕ) : Dev nD) : Thread nD τ) ↦[(slotM (peer c 5)).view.set]{fullShare} f : sProp 𝕄)) = _
  rw [show ((5 : Fin 8) : ℕ) = 5 from rfl, h]
theorem t_payload_bar_out_6 (c : Dev nD) (r : ℕ) :
    (Rd m).payload (barCell (peer c 6)) r (6 : Fin 8)
      = iprop(∃ f, ((slotM (peer c 6)).view.loc (c : Thread nD τ) ↦[(slotM (peer c 6)).view.set]{fullShare} f : sProp 𝕄)) := by
  have h : peer (peer c 6) 6 = c := peer_invol c 6
  show iprop(∃ f, ((slotM (peer c 6)).view.loc ((peer (peer c 6) ((6 : Fin 8) : ℕ) : Dev nD) : Thread nD τ) ↦[(slotM (peer c 6)).view.set]{fullShare} f : sProp 𝕄)) = _
  rw [show ((6 : Fin 8) : ℕ) = 6 from rfl, h]
theorem t_payload_bar_out_7 (c : Dev nD) (r : ℕ) :
    (Rd m).payload (barCell (peer c 7)) r (7 : Fin 8)
      = iprop(∃ f, ((slotM (peer c 7)).view.loc (c : Thread nD τ) ↦[(slotM (peer c 7)).view.set]{fullShare} f : sProp 𝕄)) := by
  have h : peer (peer c 7) 7 = c := peer_invol c 7
  show iprop(∃ f, ((slotM (peer c 7)).view.loc ((peer (peer c 7) ((7 : Fin 8) : ℕ) : Dev nD) : Thread nD τ) ↦[(slotM (peer c 7)).view.set]{fullShare} f : sProp 𝕄)) = _
  rw [show ((7 : Fin 8) : ℕ) = 7 from rfl, h]
attribute [local sl_rounds high] t_payload_bar_out_1 t_payload_bar_out_2 t_payload_bar_out_3 t_payload_bar_out_4 t_payload_bar_out_5 t_payload_bar_out_6 t_payload_bar_out_7

set_option maxHeartbeats 8000000 in
theorem prefix_dev2 (c : Dev nD) (hc : c = 2) (W : Waits sig Unit)
    (κ0 : ℕ) (κb κs κro κri : ℕ → ℕ)
    (fo : Buf (Elt F) (oM.view.loc (c : Thread nD τ)))
    (fb : Buf (Elt F) (bM.view.loc (c : Thread nD τ)))
    (fr : Buf (Elt F) (rM.view.loc (c : Thread nD τ)))
    (fa : Buf (Elt F) (aM.view.loc (c : Thread nD τ)))
    (fk : Buf (Elt F) (wM.view.loc (c : Thread nD τ))) :
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ
          (headProg (F := F))
          (fun ws => iprop(⌜ws.1 = c⌝ ∗ Mid m c (insert (SemLoc.reg barS, ()) W) κs κro κri fo fr fa fk)) := by
  iintro ⟨Hx, Ho, Hb, Hr, Ha, Hk, Hh, Hs0, Hs1, Hsr, HO, #HL, #Ib0, Hatb, Hcrb, #Ib1, Htb1, #Hrb1, #Ib2, Htb2, #Hrb2, #Ib3, Htb3, #Hrb3, #Ib4, Htb4, #Hrb4, #Ib5, Htb5, #Hrb5, #Ib6, Htb6, #Hrb6, #Ib7, Htb7, #Hrb7, #Is0, Hats0, Hts0, #Hrs0, #Iro1, Htro1, #Hrro1, #Iri1, Hatr1, Hcrr1, #Is1, Hats1, Hts1, #Hrs1, #Iro2, Htro2, #Hrro2, #Iri2, Hatr2, Hcrr2, #Is2, Hats2, Hts2, #Hrs2, #Iro3, Htro3, #Hrro3, #Iri3, Hatr3, Hcrr3, #Is3, Hats3, Hts3, #Hrs3, #Iro4, Htro4, #Hrro4, #Iri4, Hatr4, Hcrr4, #Is4, Hats4, Hts4, #Hrs4, #Iro5, Htro5, #Hrro5, #Iri5, Hatr5, Hcrr5, #Is5, Hats5, Hts5, #Hrs5, #Iro6, Htro6, #Hrro6, #Iri6, Hatr6, Hcrr6, #Is6, Hats6, Hts6, #Hrs6, #Iro7, Htro7, #Hrro7, #Iri7, Hatr7, Hcrr7⟩
  have hmb := Levels.mayWait_bar (F := F) c
  have hpeer1 : (3 : Dev nD) = peer c 1 := by subst hc; decide
  have hpeer2 : (1 : Dev nD) = peer c 2 := by subst hc; decide
  have hpeer3 : (6 : Dev nD) = peer c 3 := by subst hc; decide
  have hpeer4 : (0 : Dev nD) = peer c 4 := by subst hc; decide
  have hpeer5 : (7 : Dev nD) = peer c 5 := by subst hc; decide
  have hpeer6 : (5 : Dev nD) = peer c 6 := by subst hc; decide
  have hpeer7 : (4 : Dev nD) = peer c 7 := by subst hc; decide
  have hO : (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1 : CellTallies nD τ sig Unit)
      = (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 5)) () 1 + tallyAt (barCell (peer c 3)) () 1 + tallyAt (barCell (peer c 6)) () 1 + tallyAt (barCell (peer c 7)) () 1 + tallyAt (barCell (peer c 1)) () 1 + tallyAt (barCell (peer c 2)) () 1 + tallyAt (barCell (peer c 4)) () 1) := by ac_rfl
  icases (entails_of_eq' (congrArg (fun O => (owes (c : Thread nD τ) O W : sProp 𝕄)) hO)) $$ HO with HO
  icases (entails_of_eq' (Cuts.wbuf_cut (F := F) c fk)) $$ Hk with ⟨Hk0, Hk1⟩
  sl_unfold [headProg]
  set_option sl_exec.stopBefore "k0_cond1" in sl_exec_parts (disch := first | (subst hc; decide))
  icases (entails_of_eq' (Cuts.recv_cut_peer_chain (F := F) c fr)) $$ Hr with ⟨Hr0, Hr1, Hr2, Hr3, Hr4, Hr5, Hr6, Hr7⟩
  irevert Hr4 Hr2 Hr1 Hr7 Hr6 Hr3 Hr5 Hr0
  iintro Hr4 Hr2 Hr1 Hr7 Hr6 Hr3 Hr5 Hr0
  sl_exec_parts (disch := first | (subst hc; decide))
  icases (sep7 _ _ _ _ _ _ _) $$ Hatb_pay1 with ⟨⟨%g1, Hd1⟩, ⟨%g2, Hd2⟩, ⟨%g3, Hd3⟩, ⟨%g4, Hd4⟩, ⟨%g5, Hd5⟩, ⟨%g6, Hd6⟩, ⟨%g7, Hd7⟩⟩
  icases (xb_pts m c fb) $$ Hb with Hb
  icases (entails_of_eq' (Cuts.copy_cut_body (F := F) c (xbC m c))) $$ Hb with ⟨Hown, Hrow0, Hrow1, Hrow2, Hrow3, Hrow4, Hrow5, Hrow6⟩
  iapply (send_step m c 0 1 rfl (κs 0) (κro 1) _ _ rfl _ g1) $$ [Hrow0 Hd1 HO Hts0 Htro1]
  · sl_close
  iintro ⟨Hcs0, HO⟩
  sl_exec_parts (disch := first | (subst hc; decide))
  sl_step
  isplitr
  · ipureintro; rfl
  unfold Mid
  sl_close

end Cert.Kernel.BodyProof

end
-- ==== Proof.Bits.BodyDev3.lean ====
/- The entry stretch of the body on device 3: the cast of the device's block of x into its half-precision copy, the
   first copy of a block of w, the handshake on the barrier semaphore (a unit to every other device, each handing
   that device the slot of this device's receive buffer it writes; then the wait for the seven units, each handing
   this device its slot of a partner's buffer), and the first transfer of 512 rows to the first partner. The guards
   of the eight signals and the partners are decided at this device; everything else is stated at the device c. -/
import proofs.«900487_g7700000000000488_dist_a2a_gemm_m4096_k4096_n8192_f32_gelu_v7x_i8_1_alg».proof.Proof.Bits.Sched
import proofs.«900487_g7700000000000488_dist_a2a_gemm_m4096_k4096_n8192_f32_gelu_v7x_i8_1_alg».proof.Proof.Bits.Levels
import proofs.«900487_g7700000000000488_dist_a2a_gemm_m4096_k4096_n8192_f32_gelu_v7x_i8_1_alg».proof.Proof.Bits.SchedTables
import proofs.«900487_g7700000000000488_dist_a2a_gemm_m4096_k4096_n8192_f32_gelu_v7x_i8_1_alg».proof.Proof.Bits.Cuts
import proofs.«900487_g7700000000000488_dist_a2a_gemm_m4096_k4096_n8192_f32_gelu_v7x_i8_1_alg».proof.Proof.Bits.CutsBody
import proofs.«900487_g7700000000000488_dist_a2a_gemm_m4096_k4096_n8192_f32_gelu_v7x_i8_1_alg».proof.Proof.Bits.BodyLemmas
import proofs.«900487_g7700000000000488_dist_a2a_gemm_m4096_k4096_n8192_f32_gelu_v7x_i8_1_alg».proof.Proof.Bits.BodyMid
import Idealize.ShloMosaic.Lib.Pipeline.Launch
import Idealize.ShloMosaic.Lib.Pipeline.Kit
import Idealize.ShloMosaic.Lib.Ring
import Idealize.ShloMosaic.Lib.Tactic

noncomputable section

namespace Cert.Kernel.BodyProof

open Cert.Kernel Cert.Kernel.Gen Cert.Kernel.Devs Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The barrier duty a device pays on its k-th partner's cell hands over the slot of ITS OWN buffer that partner writes -/
theorem t_payload_bar_out_1 (c : Dev nD) (r : ℕ) :
    (Rd m).payload (barCell (peer c 1)) r (1 : Fin 8)
      = iprop(∃ f, ((slotM (peer c 1)).view.loc (c : Thread nD τ) ↦[(slotM (peer c 1)).view.set]{fullShare} f : sProp 𝕄)) := by
  have h : peer (peer c 1) 1 = c := peer_invol c 1
  show iprop(∃ f, ((slotM (peer c 1)).view.loc ((peer (peer c 1) ((1 : Fin 8) : ℕ) : Dev nD) : Thread nD τ) ↦[(slotM (peer c 1)).view.set]{fullShare} f : sProp 𝕄)) = _
  rw [show ((1 : Fin 8) : ℕ) = 1 from rfl, h]
theorem t_payload_bar_out_2 (c : Dev nD) (r : ℕ) :
    (Rd m).payload (barCell (peer c 2)) r (2 : Fin 8)
      = iprop(∃ f, ((slotM (peer c 2)).view.loc (c : Thread nD τ) ↦[(slotM (peer c 2)).view.set]{fullShare} f : sProp 𝕄)) := by
  have h : peer (peer c 2) 2 = c := peer_invol c 2
  show iprop(∃ f, ((slotM (peer c 2)).view.loc ((peer (peer c 2) ((2 : Fin 8) : ℕ) : Dev nD) : Thread nD τ) ↦[(slotM (peer c 2)).view.set]{fullShare} f : sProp 𝕄)) = _
  rw [show ((2 : Fin 8) : ℕ) = 2 from rfl, h]
theorem t_payload_bar_out_3 (c : Dev nD) (r : ℕ) :
    (Rd m).payload (barCell (peer c 3)) r (3 : Fin 8)
      = iprop(∃ f, ((slotM (peer c 3)).view.loc (c : Thread nD τ) ↦[(slotM (peer c 3)).view.set]{fullShare} f : sProp 𝕄)) := by
  have h : peer (peer c 3) 3 = c := peer_invol c 3
  show iprop(∃ f, ((slotM (peer c 3)).view.loc ((peer (peer c 3) ((3 : Fin 8) : ℕ) : Dev nD) : Thread nD τ) ↦[(slotM (peer c 3)).view.set]{fullShare} f : sProp 𝕄)) = _
  rw [show ((3 : Fin 8) : ℕ) = 3 from rfl, h]
theorem t_payload_bar_out_4 (c : Dev nD) (r : ℕ) :
    (Rd m).payload (barCell (peer c 4)) r (4 : Fin 8)
      = iprop(∃ f, ((slotM (peer c 4)).view.loc (c : Thread nD τ) ↦[(slotM (peer c 4)).view.set]{fullShare} f : sProp 𝕄)) := by
  have h : peer (peer c 4) 4 = c := peer_invol c 4
  show iprop(∃ f, ((slotM (peer c 4)).view.loc ((peer (peer c 4) ((4 : Fin 8) : ℕ) : Dev nD) : Thread nD τ) ↦[(slotM (peer c 4)).view.set]{fullShare} f : sProp 𝕄)) = _
  rw [show ((4 : Fin 8) : ℕ) = 4 from rfl, h]
theorem t_payload_bar_out_5 (c : Dev nD) (r : ℕ) :
    (Rd m).payload (barCell (peer c 5)) r (5 : Fin 8)
      = iprop(∃ f, ((slotM (peer c 5)).view.loc (c : Thread nD τ) ↦[(slotM (peer c 5)).view.set]{fullShare} f : sProp 𝕄)) := by
  have h : peer (peer c 5) 5 = c := peer_invol c 5
  show iprop(∃ f, ((slotM (peer c 5)).view.loc ((peer (peer c 5) ((5 : Fin 8) : ℕ) : Dev nD) : Thread nD τ) ↦[(slotM (peer c 5)).view.set]{fullShare} f : sProp 𝕄)) = _
  rw [show ((5 : Fin 8) : ℕ) = 5 from rfl, h]
theorem t_payload_bar_out_6 (c : Dev nD) (r : ℕ) :
    (Rd m).payload (barCell (peer c 6)) r (6 : Fin 8)
      = iprop(∃ f, ((slotM (peer c 6)).view.loc (c : Thread nD τ) ↦[(slotM (peer c 6)).view.set]{fullShare} f : sProp 𝕄)) := by
  have h : peer (peer c 6) 6 = c := peer_invol c 6
  show iprop(∃ f, ((slotM (peer c 6)).view.loc ((peer (peer c 6) ((6 : Fin 8) : ℕ) : Dev nD) : Thread nD τ) ↦[(slotM (peer c 6)).view.set]{fullShare} f : sProp 𝕄)) = _
  rw [show ((6 : Fin 8) : ℕ) = 6 from rfl, h]
theorem t_payload_bar_out_7 (c : Dev nD) (r : ℕ) :
    (Rd m).payload (barCell (peer c 7)) r (7 : Fin 8)
      = iprop(∃ f, ((slotM (peer c 7)).view.loc (c : Thread nD τ) ↦[(slotM (peer c 7)).view.set]{fullShare} f : sProp 𝕄)) := by
  have h : peer (peer c 7) 7 = c := peer_invol c 7
  show iprop(∃ f, ((slotM (peer c 7)).view.loc ((peer (peer c 7) ((7 : Fin 8) : ℕ) : Dev nD) : Thread nD τ) ↦[(slotM (peer c 7)).view.set]{fullShare} f : sProp 𝕄)) = _
  rw [show ((7 : Fin 8) : ℕ) = 7 from rfl, h]
attribute [local sl_rounds high] t_payload_bar_out_1 t_payload_bar_out_2 t_payload_bar_out_3 t_payload_bar_out_4 t_payload_bar_out_5 t_payload_bar_out_6 t_payload_bar_out_7

set_option maxHeartbeats 8000000 in
theorem prefix_dev3 (c : Dev nD) (hc : c = 3) (W : Waits sig Unit)
    (κ0 : ℕ) (κb κs κro κri : ℕ → ℕ)
    (fo : Buf (Elt F) (oM.view.loc (c : Thread nD τ)))
    (fb : Buf (Elt F) (bM.view.loc (c : Thread nD τ)))
    (fr : Buf (Elt F) (rM.view.loc (c : Thread nD τ)))
    (fa : Buf (Elt F) (aM.view.loc (c : Thread nD τ)))
    (fk : Buf (Elt F) (wM.view.loc (c : Thread nD τ))) :
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ
          (headProg (F := F))
          (fun ws => iprop(⌜ws.1 = c⌝ ∗ Mid m c (insert (SemLoc.reg barS, ()) W) κs κro κri fo fr fa fk)) := by
  iintro ⟨Hx, Ho, Hb, Hr, Ha, Hk, Hh, Hs0, Hs1, Hsr, HO, #HL, #Ib0, Hatb, Hcrb, #Ib1, Htb1, #Hrb1, #Ib2, Htb2, #Hrb2, #Ib3, Htb3, #Hrb3, #Ib4, Htb4, #Hrb4, #Ib5, Htb5, #Hrb5, #Ib6, Htb6, #Hrb6, #Ib7, Htb7, #Hrb7, #Is0, Hats0, Hts0, #Hrs0, #Iro1, Htro1, #Hrro1, #Iri1, Hatr1, Hcrr1, #Is1, Hats1, Hts1, #Hrs1, #Iro2, Htro2, #Hrro2, #Iri2, Hatr2, Hcrr2, #Is2, Hats2, Hts2, #Hrs2, #Iro3, Htro3, #Hrro3, #Iri3, Hatr3, Hcrr3, #Is3, Hats3, Hts3, #Hrs3, #Iro4, Htro4, #Hrro4, #Iri4, Hatr4, Hcrr4, #Is4, Hats4, Hts4, #Hrs4, #Iro5, Htro5, #Hrro5, #Iri5, Hatr5, Hcrr5, #Is5, Hats5, Hts5, #Hrs5, #Iro6, Htro6, #Hrro6, #Iri6, Hatr6, Hcrr6, #Is6, Hats6, Hts6, #Hrs6, #Iro7, Htro7, #Hrro7, #Iri7, Hatr7, Hcrr7⟩
  have hmb := Levels.mayWait_bar (F := F) c
  have hpeer1 : (2 : Dev nD) = peer c 1 := by subst hc; decide
  have hpeer2 : (0 : Dev nD) = peer c 2 := by subst hc; decide
  have hpeer3 : (7 : Dev nD) = peer c 3 := by subst hc; decide
  have hpeer4 : (1 : Dev nD) = peer c 4 := by subst hc; decide
  have hpeer5 : (6 : Dev nD) = peer c 5 := by subst hc; decide
  have hpeer6 : (4 : Dev nD) = peer c 6 := by subst hc; decide
  have hpeer7 : (5 : Dev nD) = peer c 7 := by subst hc; decide
  have hO : (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1 : CellTallies nD τ sig Unit)
      = (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 3)) () 1 + tallyAt (barCell (peer c 5)) () 1 + tallyAt (barCell (peer c 7)) () 1 + tallyAt (barCell (peer c 6)) () 1 + tallyAt (barCell (peer c 1)) () 1 + tallyAt (barCell (peer c 4)) () 1 + tallyAt (barCell (peer c 2)) () 1) := by ac_rfl
  icases (entails_of_eq' (congrArg (fun O => (owes (c : Thread nD τ) O W : sProp 𝕄)) hO)) $$ HO with HO
  icases (entails_of_eq' (Cuts.wbuf_cut (F := F) c fk)) $$ Hk with ⟨Hk0, Hk1⟩
  sl_unfold [headProg]
  set_option sl_exec.stopBefore "k0_cond1" in sl_exec_parts (disch := first | (subst hc; decide))
  icases (entails_of_eq' (Cuts.recv_cut_peer_chain (F := F) c fr)) $$ Hr with ⟨Hr0, Hr1, Hr2, Hr3, Hr4, Hr5, Hr6, Hr7⟩
  irevert Hr2 Hr4 Hr1 Hr6 Hr7 Hr5 Hr3 Hr0
  iintro Hr2 Hr4 Hr1 Hr6 Hr7 Hr5 Hr3 Hr0
  sl_exec_parts (disch := first | (subst hc; decide))
  icases (sep7 _ _ _ _ _ _ _) $$ Hatb_pay1 with ⟨⟨%g1, Hd1⟩, ⟨%g2, Hd2⟩, ⟨%g3, Hd3⟩, ⟨%g4, Hd4⟩, ⟨%g5, Hd5⟩, ⟨%g6, Hd6⟩, ⟨%g7, Hd7⟩⟩
  icases (xb_pts m c fb) $$ Hb with Hb
  icases (entails_of_eq' (Cuts.copy_cut_body (F := F) c (xbC m c))) $$ Hb with ⟨Hown, Hrow0, Hrow1, Hrow2, Hrow3, Hrow4, Hrow5, Hrow6⟩
  iapply (send_step m c 0 1 rfl (κs 0) (κro 1) _ _ rfl _ g1) $$ [Hrow0 Hd1 HO Hts0 Htro1]
  · sl_close
  iintro ⟨Hcs0, HO⟩
  sl_exec_parts (disch := first | (subst hc; decide))
  sl_step
  isplitr
  · ipureintro; rfl
  unfold Mid
  sl_close

end Cert.Kernel.BodyProof

end
-- ==== Proof.Bits.BodyDev4.lean ====
/- The entry stretch of the body on device 4: the cast of the device's block of x into its half-precision copy, the
   first copy of a block of w, the handshake on the barrier semaphore (a unit to every other device, each handing
   that device the slot of this device's receive buffer it writes; then the wait for the seven units, each handing
   this device its slot of a partner's buffer), and the first transfer of 512 rows to the first partner. The guards
   of the eight signals and the partners are decided at this device; everything else is stated at the device c. -/
import proofs.«900487_g7700000000000488_dist_a2a_gemm_m4096_k4096_n8192_f32_gelu_v7x_i8_1_alg».proof.Proof.Bits.Sched
import proofs.«900487_g7700000000000488_dist_a2a_gemm_m4096_k4096_n8192_f32_gelu_v7x_i8_1_alg».proof.Proof.Bits.Levels
import proofs.«900487_g7700000000000488_dist_a2a_gemm_m4096_k4096_n8192_f32_gelu_v7x_i8_1_alg».proof.Proof.Bits.SchedTables
import proofs.«900487_g7700000000000488_dist_a2a_gemm_m4096_k4096_n8192_f32_gelu_v7x_i8_1_alg».proof.Proof.Bits.Cuts
import proofs.«900487_g7700000000000488_dist_a2a_gemm_m4096_k4096_n8192_f32_gelu_v7x_i8_1_alg».proof.Proof.Bits.CutsBody
import proofs.«900487_g7700000000000488_dist_a2a_gemm_m4096_k4096_n8192_f32_gelu_v7x_i8_1_alg».proof.Proof.Bits.BodyLemmas
import proofs.«900487_g7700000000000488_dist_a2a_gemm_m4096_k4096_n8192_f32_gelu_v7x_i8_1_alg».proof.Proof.Bits.BodyMid
import Idealize.ShloMosaic.Lib.Pipeline.Launch
import Idealize.ShloMosaic.Lib.Pipeline.Kit
import Idealize.ShloMosaic.Lib.Ring
import Idealize.ShloMosaic.Lib.Tactic

noncomputable section

namespace Cert.Kernel.BodyProof

open Cert.Kernel Cert.Kernel.Gen Cert.Kernel.Devs Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The barrier duty a device pays on its k-th partner's cell hands over the slot of ITS OWN buffer that partner writes -/
theorem t_payload_bar_out_1 (c : Dev nD) (r : ℕ) :
    (Rd m).payload (barCell (peer c 1)) r (1 : Fin 8)
      = iprop(∃ f, ((slotM (peer c 1)).view.loc (c : Thread nD τ) ↦[(slotM (peer c 1)).view.set]{fullShare} f : sProp 𝕄)) := by
  have h : peer (peer c 1) 1 = c := peer_invol c 1
  show iprop(∃ f, ((slotM (peer c 1)).view.loc ((peer (peer c 1) ((1 : Fin 8) : ℕ) : Dev nD) : Thread nD τ) ↦[(slotM (peer c 1)).view.set]{fullShare} f : sProp 𝕄)) = _
  rw [show ((1 : Fin 8) : ℕ) = 1 from rfl, h]
theorem t_payload_bar_out_2 (c : Dev nD) (r : ℕ) :
    (Rd m).payload (barCell (peer c 2)) r (2 : Fin 8)
      = iprop(∃ f, ((slotM (peer c 2)).view.loc (c : Thread nD τ) ↦[(slotM (peer c 2)).view.set]{fullShare} f : sProp 𝕄)) := by
  have h : peer (peer c 2) 2 = c := peer_invol c 2
  show iprop(∃ f, ((slotM (peer c 2)).view.loc ((peer (peer c 2) ((2 : Fin 8) : ℕ) : Dev nD) : Thread nD τ) ↦[(slotM (peer c 2)).view.set]{fullShare} f : sProp 𝕄)) = _
  rw [show ((2 : Fin 8) : ℕ) = 2 from rfl, h]
theorem t_payload_bar_out_3 (c : Dev nD) (r : ℕ) :
    (Rd m).payload (barCell (peer c 3)) r (3 : Fin 8)
      = iprop(∃ f, ((slotM (peer c 3)).view.loc (c : Thread nD τ) ↦[(slotM (peer c 3)).view.set]{fullShare} f : sProp 𝕄)) := by
  have h : peer (peer c 3) 3 = c := peer_invol c 3
  show iprop(∃ f, ((slotM (peer c 3)).view.loc ((peer (peer c 3) ((3 : Fin 8) : ℕ) : Dev nD) : Thread nD τ) ↦[(slotM (peer c 3)).view.set]{fullShare} f : sProp 𝕄)) = _
  rw [show ((3 : Fin 8) : ℕ) = 3 from rfl, h]
theorem t_payload_bar_out_4 (c : Dev nD) (r : ℕ) :
    (Rd m).payload (barCell (peer c 4)) r (4 : Fin 8)
      = iprop(∃ f, ((slotM (peer c 4)).view.loc (c : Thread nD τ) ↦[(slotM (peer c 4)).view.set]{fullShare} f : sProp 𝕄)) := by
  have h : peer (peer c 4) 4 = c := peer_invol c 4
  show iprop(∃ f, ((slotM (peer c 4)).view.loc ((peer (peer c 4) ((4 : Fin 8) : ℕ) : Dev nD) : Thread nD τ) ↦[(slotM (peer c 4)).view.set]{fullShare} f : sProp 𝕄)) = _
  rw [show ((4 : Fin 8) : ℕ) = 4 from rfl, h]
theorem t_payload_bar_out_5 (c : Dev nD) (r : ℕ) :
    (Rd m).payload (barCell (peer c 5)) r (5 : Fin 8)
      = iprop(∃ f, ((slotM (peer c 5)).view.loc (c : Thread nD τ) ↦[(slotM (peer c 5)).view.set]{fullShare} f : sProp 𝕄)) := by
  have h : peer (peer c 5) 5 = c := peer_invol c 5
  show iprop(∃ f, ((slotM (peer c 5)).view.loc ((peer (peer c 5) ((5 : Fin 8) : ℕ) : Dev nD) : Thread nD τ) ↦[(slotM (peer c 5)).view.set]{fullShare} f : sProp 𝕄)) = _
  rw [show ((5 : Fin 8) : ℕ) = 5 from rfl, h]
theorem t_payload_bar_out_6 (c : Dev nD) (r : ℕ) :
    (Rd m).payload (barCell (peer c 6)) r (6 : Fin 8)
      = iprop(∃ f, ((slotM (peer c 6)).view.loc (c : Thread nD τ) ↦[(slotM (peer c 6)).view.set]{fullShare} f : sProp 𝕄)) := by
  have h : peer (peer c 6) 6 = c := peer_invol c 6
  show iprop(∃ f, ((slotM (peer c 6)).view.loc ((peer (peer c 6) ((6 : Fin 8) : ℕ) : Dev nD) : Thread nD τ) ↦[(slotM (peer c 6)).view.set]{fullShare} f : sProp 𝕄)) = _
  rw [show ((6 : Fin 8) : ℕ) = 6 from rfl, h]
theorem t_payload_bar_out_7 (c : Dev nD) (r : ℕ) :
    (Rd m).payload (barCell (peer c 7)) r (7 : Fin 8)
      = iprop(∃ f, ((slotM (peer c 7)).view.loc (c : Thread nD τ) ↦[(slotM (peer c 7)).view.set]{fullShare} f : sProp 𝕄)) := by
  have h : peer (peer c 7) 7 = c := peer_invol c 7
  show iprop(∃ f, ((slotM (peer c 7)).view.loc ((peer (peer c 7) ((7 : Fin 8) : ℕ) : Dev nD) : Thread nD τ) ↦[(slotM (peer c 7)).view.set]{fullShare} f : sProp 𝕄)) = _
  rw [show ((7 : Fin 8) : ℕ) = 7 from rfl, h]
attribute [local sl_rounds high] t_payload_bar_out_1 t_payload_bar_out_2 t_payload_bar_out_3 t_payload_bar_out_4 t_payload_bar_out_5 t_payload_bar_out_6 t_payload_bar_out_7

set_option maxHeartbeats 8000000 in
theorem prefix_dev4 (c : Dev nD) (hc : c = 4) (W : Waits sig Unit)
    (κ0 : ℕ) (κb κs κro κri : ℕ → ℕ)
    (fo : Buf (Elt F) (oM.view.loc (c : Thread nD τ)))
    (fb : Buf (Elt F) (bM.view.loc (c : Thread nD τ)))
    (fr : Buf (Elt F) (rM.view.loc (c : Thread nD τ)))
    (fa : Buf (Elt F) (aM.view.loc (c : Thread nD τ)))
    (fk : Buf (Elt F) (wM.view.loc (c : Thread nD τ))) :
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ
          (headProg (F := F))
          (fun ws => iprop(⌜ws.1 = c⌝ ∗ Mid m c (insert (SemLoc.reg barS, ()) W) κs κro κri fo fr fa fk)) := by
  iintro ⟨Hx, Ho, Hb, Hr, Ha, Hk, Hh, Hs0, Hs1, Hsr, HO, #HL, #Ib0, Hatb, Hcrb, #Ib1, Htb1, #Hrb1, #Ib2, Htb2, #Hrb2, #Ib3, Htb3, #Hrb3, #Ib4, Htb4, #Hrb4, #Ib5, Htb5, #Hrb5, #Ib6, Htb6, #Hrb6, #Ib7, Htb7, #Hrb7, #Is0, Hats0, Hts0, #Hrs0, #Iro1, Htro1, #Hrro1, #Iri1, Hatr1, Hcrr1, #Is1, Hats1, Hts1, #Hrs1, #Iro2, Htro2, #Hrro2, #Iri2, Hatr2, Hcrr2, #Is2, Hats2, Hts2, #Hrs2, #Iro3, Htro3, #Hrro3, #Iri3, Hatr3, Hcrr3, #Is3, Hats3, Hts3, #Hrs3, #Iro4, Htro4, #Hrro4, #Iri4, Hatr4, Hcrr4, #Is4, Hats4, Hts4, #Hrs4, #Iro5, Htro5, #Hrro5, #Iri5, Hatr5, Hcrr5, #Is5, Hats5, Hts5, #Hrs5, #Iro6, Htro6, #Hrro6, #Iri6, Hatr6, Hcrr6, #Is6, Hats6, Hts6, #Hrs6, #Iro7, Htro7, #Hrro7, #Iri7, Hatr7, Hcrr7⟩
  have hmb := Levels.mayWait_bar (F := F) c
  have hpeer1 : (5 : Dev nD) = peer c 1 := by subst hc; decide
  have hpeer2 : (7 : Dev nD) = peer c 2 := by subst hc; decide
  have hpeer3 : (0 : Dev nD) = peer c 3 := by subst hc; decide
  have hpeer4 : (6 : Dev nD) = peer c 4 := by subst hc; decide
  have hpeer5 : (1 : Dev nD) = peer c 5 := by subst hc; decide
  have hpeer6 : (3 : Dev nD) = peer c 6 := by subst hc; decide
  have hpeer7 : (2 : Dev nD) = peer c 7 := by subst hc; decide
  have hO : (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1 : CellTallies nD τ sig Unit)
      = (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 2)) () 1 + tallyAt (barCell (peer c 4)) () 1 + tallyAt (barCell (peer c 1)) () 1 + tallyAt (barCell (peer c 6)) () 1 + tallyAt (barCell (peer c 7)) () 1 + tallyAt (barCell (peer c 5)) () 1 + tallyAt (barCell (peer c 3)) () 1) := by ac_rfl
  icases (entails_of_eq' (congrArg (fun O => (owes (c : Thread nD τ) O W : sProp 𝕄)) hO)) $$ HO with HO
  icases (entails_of_eq' (Cuts.wbuf_cut (F := F) c fk)) $$ Hk with ⟨Hk0, Hk1⟩
  sl_unfold [headProg]
  set_option sl_exec.stopBefore "k0_cond1" in sl_exec_parts (disch := first | (subst hc; decide))
  icases (entails_of_eq' (Cuts.recv_cut_peer_chain (F := F) c fr)) $$ Hr with ⟨Hr0, Hr1, Hr2, Hr3, Hr4, Hr5, Hr6, Hr7⟩
  irevert Hr3 Hr5 Hr7 Hr6 Hr1 Hr4 Hr2 Hr0
  iintro Hr3 Hr5 Hr7 Hr6 Hr1 Hr4 Hr2 Hr0
  sl_exec_parts (disch := first | (subst hc; decide))
  icases (sep7 _ _ _ _ _ _ _) $$ Hatb_pay1 with ⟨⟨%g1, Hd1⟩, ⟨%g2, Hd2⟩, ⟨%g3, Hd3⟩, ⟨%g4, Hd4⟩, ⟨%g5, Hd5⟩, ⟨%g6, Hd6⟩, ⟨%g7, Hd7⟩⟩
  icases (xb_pts m c fb) $$ Hb with Hb
  icases (entails_of_eq' (Cuts.copy_cut_body (F := F) c (xbC m c))) $$ Hb with ⟨Hown, Hrow0, Hrow1, Hrow2, Hrow3, Hrow4, Hrow5, Hrow6⟩
  iapply (send_step m c 0 1 rfl (κs 0) (κro 1) _ _ rfl _ g1) $$ [Hrow0 Hd1 HO Hts0 Htro1]
  · sl_close
  iintro ⟨Hcs0, HO⟩
  sl_exec_parts (disch := first | (subst hc; decide))
  sl_step
  isplitr
  · ipureintro; rfl
  unfold Mid
  sl_close

end Cert.Kernel.BodyProof

end
-- ==== Proof.Bits.BodyDev5.lean ====
/- The entry stretch of the body on device 5: the cast of the device's block of x into its half-precision copy, the
   first copy of a block of w, the handshake on the barrier semaphore (a unit to every other device, each handing
   that device the slot of this device's receive buffer it writes; then the wait for the seven units, each handing
   this device its slot of a partner's buffer), and the first transfer of 512 rows to the first partner. The guards
   of the eight signals and the partners are decided at this device; everything else is stated at the device c. -/
import proofs.«900487_g7700000000000488_dist_a2a_gemm_m4096_k4096_n8192_f32_gelu_v7x_i8_1_alg».proof.Proof.Bits.Sched
import proofs.«900487_g7700000000000488_dist_a2a_gemm_m4096_k4096_n8192_f32_gelu_v7x_i8_1_alg».proof.Proof.Bits.Levels
import proofs.«900487_g7700000000000488_dist_a2a_gemm_m4096_k4096_n8192_f32_gelu_v7x_i8_1_alg».proof.Proof.Bits.SchedTables
import proofs.«900487_g7700000000000488_dist_a2a_gemm_m4096_k4096_n8192_f32_gelu_v7x_i8_1_alg».proof.Proof.Bits.Cuts
import proofs.«900487_g7700000000000488_dist_a2a_gemm_m4096_k4096_n8192_f32_gelu_v7x_i8_1_alg».proof.Proof.Bits.CutsBody
import proofs.«900487_g7700000000000488_dist_a2a_gemm_m4096_k4096_n8192_f32_gelu_v7x_i8_1_alg».proof.Proof.Bits.BodyLemmas
import proofs.«900487_g7700000000000488_dist_a2a_gemm_m4096_k4096_n8192_f32_gelu_v7x_i8_1_alg».proof.Proof.Bits.BodyMid
import Idealize.ShloMosaic.Lib.Pipeline.Launch
import Idealize.ShloMosaic.Lib.Pipeline.Kit
import Idealize.ShloMosaic.Lib.Ring
import Idealize.ShloMosaic.Lib.Tactic

noncomputable section

namespace Cert.Kernel.BodyProof

open Cert.Kernel Cert.Kernel.Gen Cert.Kernel.Devs Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The barrier duty a device pays on its k-th partner's cell hands over the slot of ITS OWN buffer that partner writes -/
theorem t_payload_bar_out_1 (c : Dev nD) (r : ℕ) :
    (Rd m).payload (barCell (peer c 1)) r (1 : Fin 8)
      = iprop(∃ f, ((slotM (peer c 1)).view.loc (c : Thread nD τ) ↦[(slotM (peer c 1)).view.set]{fullShare} f : sProp 𝕄)) := by
  have h : peer (peer c 1) 1 = c := peer_invol c 1
  show iprop(∃ f, ((slotM (peer c 1)).view.loc ((peer (peer c 1) ((1 : Fin 8) : ℕ) : Dev nD) : Thread nD τ) ↦[(slotM (peer c 1)).view.set]{fullShare} f : sProp 𝕄)) = _
  rw [show ((1 : Fin 8) : ℕ) = 1 from rfl, h]
theorem t_payload_bar_out_2 (c : Dev nD) (r : ℕ) :
    (Rd m).payload (barCell (peer c 2)) r (2 : Fin 8)
      = iprop(∃ f, ((slotM (peer c 2)).view.loc (c : Thread nD τ) ↦[(slotM (peer c 2)).view.set]{fullShare} f : sProp 𝕄)) := by
  have h : peer (peer c 2) 2 = c := peer_invol c 2
  show iprop(∃ f, ((slotM (peer c 2)).view.loc ((peer (peer c 2) ((2 : Fin 8) : ℕ) : Dev nD) : Thread nD τ) ↦[(slotM (peer c 2)).view.set]{fullShare} f : sProp 𝕄)) = _
  rw [show ((2 : Fin 8) : ℕ) = 2 from rfl, h]
theorem t_payload_bar_out_3 (c : Dev nD) (r : ℕ) :
    (Rd m).payload (barCell (peer c 3)) r (3 : Fin 8)
      = iprop(∃ f, ((slotM (peer c 3)).view.loc (c : Thread nD τ) ↦[(slotM (peer c 3)).view.set]{fullShare} f : sProp 𝕄)) := by
  have h : peer (peer c 3) 3 = c := peer_invol c 3
  show iprop(∃ f, ((slotM (peer c 3)).view.loc ((peer (peer c 3) ((3 : Fin 8) : ℕ) : Dev nD) : Thread nD τ) ↦[(slotM (peer c 3)).view.set]{fullShare} f : sProp 𝕄)) = _
  rw [show ((3 : Fin 8) : ℕ) = 3 from rfl, h]
theorem t_payload_bar_out_4 (c : Dev nD) (r : ℕ) :
    (Rd m).payload (barCell (peer c 4)) r (4 : Fin 8)
      = iprop(∃ f, ((slotM (peer c 4)).view.loc (c : Thread nD τ) ↦[(slotM (peer c 4)).view.set]{fullShare} f : sProp 𝕄)) := by
  have h : peer (peer c 4) 4 = c := peer_invol c 4
  show iprop(∃ f, ((slotM (peer c 4)).view.loc ((peer (peer c 4) ((4 : Fin 8) : ℕ) : Dev nD) : Thread nD τ) ↦[(slotM (peer c 4)).view.set]{fullShare} f : sProp 𝕄)) = _
  rw [show ((4 : Fin 8) : ℕ) = 4 from rfl, h]
theorem t_payload_bar_out_5 (c : Dev nD) (r : ℕ) :
    (Rd m).payload (barCell (peer c 5)) r (5 : Fin 8)
      = iprop(∃ f, ((slotM (peer c 5)).view.loc (c : Thread nD τ) ↦[(slotM (peer c 5)).view.set]{fullShare} f : sProp 𝕄)) := by
  have h : peer (peer c 5) 5 = c := peer_invol c 5
  show iprop(∃ f, ((slotM (peer c 5)).view.loc ((peer (peer c 5) ((5 : Fin 8) : ℕ) : Dev nD) : Thread nD τ) ↦[(slotM (peer c 5)).view.set]{fullShare} f : sProp 𝕄)) = _
  rw [show ((5 : Fin 8) : ℕ) = 5 from rfl, h]
theorem t_payload_bar_out_6 (c : Dev nD) (r : ℕ) :
    (Rd m).payload (barCell (peer c 6)) r (6 : Fin 8)
      = iprop(∃ f, ((slotM (peer c 6)).view.loc (c : Thread nD τ) ↦[(slotM (peer c 6)).view.set]{fullShare} f : sProp 𝕄)) := by
  have h : peer (peer c 6) 6 = c := peer_invol c 6
  show iprop(∃ f, ((slotM (peer c 6)).view.loc ((peer (peer c 6) ((6 : Fin 8) : ℕ) : Dev nD) : Thread nD τ) ↦[(slotM (peer c 6)).view.set]{fullShare} f : sProp 𝕄)) = _
  rw [show ((6 : Fin 8) : ℕ) = 6 from rfl, h]
theorem t_payload_bar_out_7 (c : Dev nD) (r : ℕ) :
    (Rd m).payload (barCell (peer c 7)) r (7 : Fin 8)
      = iprop(∃ f, ((slotM (peer c 7)).view.loc (c : Thread nD τ) ↦[(slotM (peer c 7)).view.set]{fullShare} f : sProp 𝕄)) := by
  have h : peer (peer c 7) 7 = c := peer_invol c 7
  show iprop(∃ f, ((slotM (peer c 7)).view.loc ((peer (peer c 7) ((7 : Fin 8) : ℕ) : Dev nD) : Thread nD τ) ↦[(slotM (peer c 7)).view.set]{fullShare} f : sProp 𝕄)) = _
  rw [show ((7 : Fin 8) : ℕ) = 7 from rfl, h]
attribute [local sl_rounds high] t_payload_bar_out_1 t_payload_bar_out_2 t_payload_bar_out_3 t_payload_bar_out_4 t_payload_bar_out_5 t_payload_bar_out_6 t_payload_bar_out_7

set_option maxHeartbeats 8000000 in
theorem prefix_dev5 (c : Dev nD) (hc : c = 5) (W : Waits sig Unit)
    (κ0 : ℕ) (κb κs κro κri : ℕ → ℕ)
    (fo : Buf (Elt F) (oM.view.loc (c : Thread nD τ)))
    (fb : Buf (Elt F) (bM.view.loc (c : Thread nD τ)))
    (fr : Buf (Elt F) (rM.view.loc (c : Thread nD τ)))
    (fa : Buf (Elt F) (aM.view.loc (c : Thread nD τ)))
    (fk : Buf (Elt F) (wM.view.loc (c : Thread nD τ))) :
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ
          (headProg (F := F))
          (fun ws => iprop(⌜ws.1 = c⌝ ∗ Mid m c (insert (SemLoc.reg barS, ()) W) κs κro κri fo fr fa fk)) := by
  iintro ⟨Hx, Ho, Hb, Hr, Ha, Hk, Hh, Hs0, Hs1, Hsr, HO, #HL, #Ib0, Hatb, Hcrb, #Ib1, Htb1, #Hrb1, #Ib2, Htb2, #Hrb2, #Ib3, Htb3, #Hrb3, #Ib4, Htb4, #Hrb4, #Ib5, Htb5, #Hrb5, #Ib6, Htb6, #Hrb6, #Ib7, Htb7, #Hrb7, #Is0, Hats0, Hts0, #Hrs0, #Iro1, Htro1, #Hrro1, #Iri1, Hatr1, Hcrr1, #Is1, Hats1, Hts1, #Hrs1, #Iro2, Htro2, #Hrro2, #Iri2, Hatr2, Hcrr2, #Is2, Hats2, Hts2, #Hrs2, #Iro3, Htro3, #Hrro3, #Iri3, Hatr3, Hcrr3, #Is3, Hats3, Hts3, #Hrs3, #Iro4, Htro4, #Hrro4, #Iri4, Hatr4, Hcrr4, #Is4, Hats4, Hts4, #Hrs4, #Iro5, Htro5, #Hrro5, #Iri5, Hatr5, Hcrr5, #Is5, Hats5, Hts5, #Hrs5, #Iro6, Htro6, #Hrro6, #Iri6, Hatr6, Hcrr6, #Is6, Hats6, Hts6, #Hrs6, #Iro7, Htro7, #Hrro7, #Iri7, Hatr7, Hcrr7⟩
  have hmb := Levels.mayWait_bar (F := F) c
  have hpeer1 : (4 : Dev nD) = peer c 1 := by subst hc; decide
  have hpeer2 : (6 : Dev nD) = peer c 2 := by subst hc; decide
  have hpeer3 : (1 : Dev nD) = peer c 3 := by subst hc; decide
  have hpeer4 : (7 : Dev nD) = peer c 4 := by subst hc; decide
  have hpeer5 : (0 : Dev nD) = peer c 5 := by subst hc; decide
  have hpeer6 : (2 : Dev nD) = peer c 6 := by subst hc; decide
  have hpeer7 : (3 : Dev nD) = peer c 7 := by subst hc; decide
  have hO : (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1 : CellTallies nD τ sig Unit)
      = (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 4)) () 1 + tallyAt (barCell (peer c 2)) () 1 + tallyAt (barCell (peer c 1)) () 1 + tallyAt (barCell (peer c 7)) () 1 + tallyAt (barCell (peer c 6)) () 1 + tallyAt (barCell (peer c 3)) () 1 + tallyAt (barCell (peer c 5)) () 1) := by ac_rfl
  icases (entails_of_eq' (congrArg (fun O => (owes (c : Thread nD τ) O W : sProp 𝕄)) hO)) $$ HO with HO
  icases (entails_of_eq' (Cuts.wbuf_cut (F := F) c fk)) $$ Hk with ⟨Hk0, Hk1⟩
  sl_unfold [headProg]
  set_option sl_exec.stopBefore "k0_cond1" in sl_exec_parts (disch := first | (subst hc; decide))
  icases (entails_of_eq' (Cuts.recv_cut_peer_chain (F := F) c fr)) $$ Hr with ⟨Hr0, Hr1, Hr2, Hr3, Hr4, Hr5, Hr6, Hr7⟩
  irevert Hr5 Hr3 Hr6 Hr7 Hr1 Hr2 Hr4 Hr0
  iintro Hr5 Hr3 Hr6 Hr7 Hr1 Hr2 Hr4 Hr0
  sl_exec_parts (disch := first | (subst hc; decide))
  icases (sep7 _ _ _ _ _ _ _) $$ Hatb_pay1 with ⟨⟨%g1, Hd1⟩, ⟨%g2, Hd2⟩, ⟨%g3, Hd3⟩, ⟨%g4, Hd4⟩, ⟨%g5, Hd5⟩, ⟨%g6, Hd6⟩, ⟨%g7, Hd7⟩⟩
  icases (xb_pts m c fb) $$ Hb with Hb
  icases (entails_of_eq' (Cuts.copy_cut_body (F := F) c (xbC m c))) $$ Hb with ⟨Hown, Hrow0, Hrow1, Hrow2, Hrow3, Hrow4, Hrow5, Hrow6⟩
  iapply (send_step m c 0 1 rfl (κs 0) (κro 1) _ _ rfl _ g1) $$ [Hrow0 Hd1 HO Hts0 Htro1]
  · sl_close
  iintro ⟨Hcs0, HO⟩
  sl_exec_parts (disch := first | (subst hc; decide))
  sl_step
  isplitr
  · ipureintro; rfl
  unfold Mid
  sl_close

end Cert.Kernel.BodyProof

end
-- ==== Proof.Bits.BodyDev6.lean ====
/- The entry stretch of the body on device 6: the cast of the device's block of x into its half-precision copy, the
   first copy of a block of w, the handshake on the barrier semaphore (a unit to every other device, each handing
   that device the slot of this device's receive buffer it writes; then the wait for the seven units, each handing
   this device its slot of a partner's buffer), and the first transfer of 512 rows to the first partner. The guards
   of the eight signals and the partners are decided at this device; everything else is stated at the device c. -/
import proofs.«900487_g7700000000000488_dist_a2a_gemm_m4096_k4096_n8192_f32_gelu_v7x_i8_1_alg».proof.Proof.Bits.Sched
import proofs.«900487_g7700000000000488_dist_a2a_gemm_m4096_k4096_n8192_f32_gelu_v7x_i8_1_alg».proof.Proof.Bits.Levels
import proofs.«900487_g7700000000000488_dist_a2a_gemm_m4096_k4096_n8192_f32_gelu_v7x_i8_1_alg».proof.Proof.Bits.SchedTables
import proofs.«900487_g7700000000000488_dist_a2a_gemm_m4096_k4096_n8192_f32_gelu_v7x_i8_1_alg».proof.Proof.Bits.Cuts
import proofs.«900487_g7700000000000488_dist_a2a_gemm_m4096_k4096_n8192_f32_gelu_v7x_i8_1_alg».proof.Proof.Bits.CutsBody
import proofs.«900487_g7700000000000488_dist_a2a_gemm_m4096_k4096_n8192_f32_gelu_v7x_i8_1_alg».proof.Proof.Bits.BodyLemmas
import proofs.«900487_g7700000000000488_dist_a2a_gemm_m4096_k4096_n8192_f32_gelu_v7x_i8_1_alg».proof.Proof.Bits.BodyMid
import Idealize.ShloMosaic.Lib.Pipeline.Launch
import Idealize.ShloMosaic.Lib.Pipeline.Kit
import Idealize.ShloMosaic.Lib.Ring
import Idealize.ShloMosaic.Lib.Tactic

noncomputable section

namespace Cert.Kernel.BodyProof

open Cert.Kernel Cert.Kernel.Gen Cert.Kernel.Devs Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The barrier duty a device pays on its k-th partner's cell hands over the slot of ITS OWN buffer that partner writes -/
theorem t_payload_bar_out_1 (c : Dev nD) (r : ℕ) :
    (Rd m).payload (barCell (peer c 1)) r (1 : Fin 8)
      = iprop(∃ f, ((slotM (peer c 1)).view.loc (c : Thread nD τ) ↦[(slotM (peer c 1)).view.set]{fullShare} f : sProp 𝕄)) := by
  have h : peer (peer c 1) 1 = c := peer_invol c 1
  show iprop(∃ f, ((slotM (peer c 1)).view.loc ((peer (peer c 1) ((1 : Fin 8) : ℕ) : Dev nD) : Thread nD τ) ↦[(slotM (peer c 1)).view.set]{fullShare} f : sProp 𝕄)) = _
  rw [show ((1 : Fin 8) : ℕ) = 1 from rfl, h]
theorem t_payload_bar_out_2 (c : Dev nD) (r : ℕ) :
    (Rd m).payload (barCell (peer c 2)) r (2 : Fin 8)
      = iprop(∃ f, ((slotM (peer c 2)).view.loc (c : Thread nD τ) ↦[(slotM (peer c 2)).view.set]{fullShare} f : sProp 𝕄)) := by
  have h : peer (peer c 2) 2 = c := peer_invol c 2
  show iprop(∃ f, ((slotM (peer c 2)).view.loc ((peer (peer c 2) ((2 : Fin 8) : ℕ) : Dev nD) : Thread nD τ) ↦[(slotM (peer c 2)).view.set]{fullShare} f : sProp 𝕄)) = _
  rw [show ((2 : Fin 8) : ℕ) = 2 from rfl, h]
theorem t_payload_bar_out_3 (c : Dev nD) (r : ℕ) :
    (Rd m).payload (barCell (peer c 3)) r (3 : Fin 8)
      = iprop(∃ f, ((slotM (peer c 3)).view.loc (c : Thread nD τ) ↦[(slotM (peer c 3)).view.set]{fullShare} f : sProp 𝕄)) := by
  have h : peer (peer c 3) 3 = c := peer_invol c 3
  show iprop(∃ f, ((slotM (peer c 3)).view.loc ((peer (peer c 3) ((3 : Fin 8) : ℕ) : Dev nD) : Thread nD τ) ↦[(slotM (peer c 3)).view.set]{fullShare} f : sProp 𝕄)) = _
  rw [show ((3 : Fin 8) : ℕ) = 3 from rfl, h]
theorem t_payload_bar_out_4 (c : Dev nD) (r : ℕ) :
    (Rd m).payload (barCell (peer c 4)) r (4 : Fin 8)
      = iprop(∃ f, ((slotM (peer c 4)).view.loc (c : Thread nD τ) ↦[(slotM (peer c 4)).view.set]{fullShare} f : sProp 𝕄)) := by
  have h : peer (peer c 4) 4 = c := peer_invol c 4
  show iprop(∃ f, ((slotM (peer c 4)).view.loc ((peer (peer c 4) ((4 : Fin 8) : ℕ) : Dev nD) : Thread nD τ) ↦[(slotM (peer c 4)).view.set]{fullShare} f : sProp 𝕄)) = _
  rw [show ((4 : Fin 8) : ℕ) = 4 from rfl, h]
theorem t_payload_bar_out_5 (c : Dev nD) (r : ℕ) :
    (Rd m).payload (barCell (peer c 5)) r (5 : Fin 8)
      = iprop(∃ f, ((slotM (peer c 5)).view.loc (c : Thread nD τ) ↦[(slotM (peer c 5)).view.set]{fullShare} f : sProp 𝕄)) := by
  have h : peer (peer c 5) 5 = c := peer_invol c 5
  show iprop(∃ f, ((slotM (peer c 5)).view.loc ((peer (peer c 5) ((5 : Fin 8) : ℕ) : Dev nD) : Thread nD τ) ↦[(slotM (peer c 5)).view.set]{fullShare} f : sProp 𝕄)) = _
  rw [show ((5 : Fin 8) : ℕ) = 5 from rfl, h]
theorem t_payload_bar_out_6 (c : Dev nD) (r : ℕ) :
    (Rd m).payload (barCell (peer c 6)) r (6 : Fin 8)
      = iprop(∃ f, ((slotM (peer c 6)).view.loc (c : Thread nD τ) ↦[(slotM (peer c 6)).view.set]{fullShare} f : sProp 𝕄)) := by
  have h : peer (peer c 6) 6 = c := peer_invol c 6
  show iprop(∃ f, ((slotM (peer c 6)).view.loc ((peer (peer c 6) ((6 : Fin 8) : ℕ) : Dev nD) : Thread nD τ) ↦[(slotM (peer c 6)).view.set]{fullShare} f : sProp 𝕄)) = _
  rw [show ((6 : Fin 8) : ℕ) = 6 from rfl, h]
theorem t_payload_bar_out_7 (c : Dev nD) (r : ℕ) :
    (Rd m).payload (barCell (peer c 7)) r (7 : Fin 8)
      = iprop(∃ f, ((slotM (peer c 7)).view.loc (c : Thread nD τ) ↦[(slotM (peer c 7)).view.set]{fullShare} f : sProp 𝕄)) := by
  have h : peer (peer c 7) 7 = c := peer_invol c 7
  show iprop(∃ f, ((slotM (peer c 7)).view.loc ((peer (peer c 7) ((7 : Fin 8) : ℕ) : Dev nD) : Thread nD τ) ↦[(slotM (peer c 7)).view.set]{fullShare} f : sProp 𝕄)) = _
  rw [show ((7 : Fin 8) : ℕ) = 7 from rfl, h]
attribute [local sl_rounds high] t_payload_bar_out_1 t_payload_bar_out_2 t_payload_bar_out_3 t_payload_bar_out_4 t_payload_bar_out_5 t_payload_bar_out_6 t_payload_bar_out_7

set_option maxHeartbeats 8000000 in
theorem prefix_dev6 (c : Dev nD) (hc : c = 6) (W : Waits sig Unit)
    (κ0 : ℕ) (κb κs κro κri : ℕ → ℕ)
    (fo : Buf (Elt F) (oM.view.loc (c : Thread nD τ)))
    (fb : Buf (Elt F) (bM.view.loc (c : Thread nD τ)))
    (fr : Buf (Elt F) (rM.view.loc (c : Thread nD τ)))
    (fa : Buf (Elt F) (aM.view.loc (c : Thread nD τ)))
    (fk : Buf (Elt F) (wM.view.loc (c : Thread nD τ))) :
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ
          (headProg (F := F))
          (fun ws => iprop(⌜ws.1 = c⌝ ∗ Mid m c (insert (SemLoc.reg barS, ()) W) κs κro κri fo fr fa fk)) := by
  iintro ⟨Hx, Ho, Hb, Hr, Ha, Hk, Hh, Hs0, Hs1, Hsr, HO, #HL, #Ib0, Hatb, Hcrb, #Ib1, Htb1, #Hrb1, #Ib2, Htb2, #Hrb2, #Ib3, Htb3, #Hrb3, #Ib4, Htb4, #Hrb4, #Ib5, Htb5, #Hrb5, #Ib6, Htb6, #Hrb6, #Ib7, Htb7, #Hrb7, #Is0, Hats0, Hts0, #Hrs0, #Iro1, Htro1, #Hrro1, #Iri1, Hatr1, Hcrr1, #Is1, Hats1, Hts1, #Hrs1, #Iro2, Htro2, #Hrro2, #Iri2, Hatr2, Hcrr2, #Is2, Hats2, Hts2, #Hrs2, #Iro3, Htro3, #Hrro3, #Iri3, Hatr3, Hcrr3, #Is3, Hats3, Hts3, #Hrs3, #Iro4, Htro4, #Hrro4, #Iri4, Hatr4, Hcrr4, #Is4, Hats4, Hts4, #Hrs4, #Iro5, Htro5, #Hrro5, #Iri5, Hatr5, Hcrr5, #Is5, Hats5, Hts5, #Hrs5, #Iro6, Htro6, #Hrro6, #Iri6, Hatr6, Hcrr6, #Is6, Hats6, Hts6, #Hrs6, #Iro7, Htro7, #Hrro7, #Iri7, Hatr7, Hcrr7⟩
  have hmb := Levels.mayWait_bar (F := F) c
  have hpeer1 : (7 : Dev nD) = peer c 1 := by subst hc; decide
  have hpeer2 : (5 : Dev nD) = peer c 2 := by subst hc; decide
  have hpeer3 : (2 : Dev nD) = peer c 3 := by subst hc; decide
  have hpeer4 : (4 : Dev nD) = peer c 4 := by subst hc; decide
  have hpeer5 : (3 : Dev nD) = peer c 5 := by subst hc; decide
  have hpeer6 : (1 : Dev nD) = peer c 6 := by subst hc; decide
  have hpeer7 : (0 : Dev nD) = peer c 7 := by subst hc; decide
  have hO : (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1 : CellTallies nD τ sig Unit)
      = (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 1)) () 1 + tallyAt (barCell (peer c 2)) () 1 + tallyAt (barCell (peer c 4)) () 1 + tallyAt (barCell (peer c 5)) () 1 + tallyAt (barCell (peer c 3)) () 1 + tallyAt (barCell (peer c 6)) () 1 + tallyAt (barCell (peer c 7)) () 1) := by ac_rfl
  icases (entails_of_eq' (congrArg (fun O => (owes (c : Thread nD τ) O W : sProp 𝕄)) hO)) $$ HO with HO
  icases (entails_of_eq' (Cuts.wbuf_cut (F := F) c fk)) $$ Hk with ⟨Hk0, Hk1⟩
  sl_unfold [headProg]
  set_option sl_exec.stopBefore "k0_cond1" in sl_exec_parts (disch := first | (subst hc; decide))
  icases (entails_of_eq' (Cuts.recv_cut_peer_chain (F := F) c fr)) $$ Hr with ⟨Hr0, Hr1, Hr2, Hr3, Hr4, Hr5, Hr6, Hr7⟩
  irevert Hr7 Hr6 Hr3 Hr5 Hr4 Hr2 Hr1 Hr0
  iintro Hr7 Hr6 Hr3 Hr5 Hr4 Hr2 Hr1 Hr0
  sl_exec_parts (disch := first | (subst hc; decide))
  icases (sep7 _ _ _ _ _ _ _) $$ Hatb_pay1 with ⟨⟨%g1, Hd1⟩, ⟨%g2, Hd2⟩, ⟨%g3, Hd3⟩, ⟨%g4, Hd4⟩, ⟨%g5, Hd5⟩, ⟨%g6, Hd6⟩, ⟨%g7, Hd7⟩⟩
  icases (xb_pts m c fb) $$ Hb with Hb
  icases (entails_of_eq' (Cuts.copy_cut_body (F := F) c (xbC m c))) $$ Hb with ⟨Hown, Hrow0, Hrow1, Hrow2, Hrow3, Hrow4, Hrow5, Hrow6⟩
  iapply (send_step m c 0 1 rfl (κs 0) (κro 1) _ _ rfl _ g1) $$ [Hrow0 Hd1 HO Hts0 Htro1]
  · sl_close
  iintro ⟨Hcs0, HO⟩
  sl_exec_parts (disch := first | (subst hc; decide))
  sl_step
  isplitr
  · ipureintro; rfl
  unfold Mid
  sl_close

end Cert.Kernel.BodyProof

end
-- ==== Proof.Bits.BodyDev7.lean ====
/- The entry stretch of the body on device 7: the cast of the device's block of x into its half-precision copy, the
   first copy of a block of w, the handshake on the barrier semaphore (a unit to every other device, each handing
   that device the slot of this device's receive buffer it writes; then the wait for the seven units, each handing
   this device its slot of a partner's buffer), and the first transfer of 512 rows to the first partner. The guards
   of the eight signals and the partners are decided at this device; everything else is stated at the device c. -/
import proofs.«900487_g7700000000000488_dist_a2a_gemm_m4096_k4096_n8192_f32_gelu_v7x_i8_1_alg».proof.Proof.Bits.Sched
import proofs.«900487_g7700000000000488_dist_a2a_gemm_m4096_k4096_n8192_f32_gelu_v7x_i8_1_alg».proof.Proof.Bits.Levels
import proofs.«900487_g7700000000000488_dist_a2a_gemm_m4096_k4096_n8192_f32_gelu_v7x_i8_1_alg».proof.Proof.Bits.SchedTables
import proofs.«900487_g7700000000000488_dist_a2a_gemm_m4096_k4096_n8192_f32_gelu_v7x_i8_1_alg».proof.Proof.Bits.Cuts
import proofs.«900487_g7700000000000488_dist_a2a_gemm_m4096_k4096_n8192_f32_gelu_v7x_i8_1_alg».proof.Proof.Bits.CutsBody
import proofs.«900487_g7700000000000488_dist_a2a_gemm_m4096_k4096_n8192_f32_gelu_v7x_i8_1_alg».proof.Proof.Bits.BodyLemmas
import proofs.«900487_g7700000000000488_dist_a2a_gemm_m4096_k4096_n8192_f32_gelu_v7x_i8_1_alg».proof.Proof.Bits.BodyMid
import Idealize.ShloMosaic.Lib.Pipeline.Launch
import Idealize.ShloMosaic.Lib.Pipeline.Kit
import Idealize.ShloMosaic.Lib.Ring
import Idealize.ShloMosaic.Lib.Tactic

noncomputable section

namespace Cert.Kernel.BodyProof

open Cert.Kernel Cert.Kernel.Gen Cert.Kernel.Devs Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-! ## The barrier duty a device pays on its k-th partner's cell hands over the slot of ITS OWN buffer that partner writes -/
theorem t_payload_bar_out_1 (c : Dev nD) (r : ℕ) :
    (Rd m).payload (barCell (peer c 1)) r (1 : Fin 8)
      = iprop(∃ f, ((slotM (peer c 1)).view.loc (c : Thread nD τ) ↦[(slotM (peer c 1)).view.set]{fullShare} f : sProp 𝕄)) := by
  have h : peer (peer c 1) 1 = c := peer_invol c 1
  show iprop(∃ f, ((slotM (peer c 1)).view.loc ((peer (peer c 1) ((1 : Fin 8) : ℕ) : Dev nD) : Thread nD τ) ↦[(slotM (peer c 1)).view.set]{fullShare} f : sProp 𝕄)) = _
  rw [show ((1 : Fin 8) : ℕ) = 1 from rfl, h]
theorem t_payload_bar_out_2 (c : Dev nD) (r : ℕ) :
    (Rd m).payload (barCell (peer c 2)) r (2 : Fin 8)
      = iprop(∃ f, ((slotM (peer c 2)).view.loc (c : Thread nD τ) ↦[(slotM (peer c 2)).view.set]{fullShare} f : sProp 𝕄)) := by
  have h : peer (peer c 2) 2 = c := peer_invol c 2
  show iprop(∃ f, ((slotM (peer c 2)).view.loc ((peer (peer c 2) ((2 : Fin 8) : ℕ) : Dev nD) : Thread nD τ) ↦[(slotM (peer c 2)).view.set]{fullShare} f : sProp 𝕄)) = _
  rw [show ((2 : Fin 8) : ℕ) = 2 from rfl, h]
theorem t_payload_bar_out_3 (c : Dev nD) (r : ℕ) :
    (Rd m).payload (barCell (peer c 3)) r (3 : Fin 8)
      = iprop(∃ f, ((slotM (peer c 3)).view.loc (c : Thread nD τ) ↦[(slotM (peer c 3)).view.set]{fullShare} f : sProp 𝕄)) := by
  have h : peer (peer c 3) 3 = c := peer_invol c 3
  show iprop(∃ f, ((slotM (peer c 3)).view.loc ((peer (peer c 3) ((3 : Fin 8) : ℕ) : Dev nD) : Thread nD τ) ↦[(slotM (peer c 3)).view.set]{fullShare} f : sProp 𝕄)) = _
  rw [show ((3 : Fin 8) : ℕ) = 3 from rfl, h]
theorem t_payload_bar_out_4 (c : Dev nD) (r : ℕ) :
    (Rd m).payload (barCell (peer c 4)) r (4 : Fin 8)
      = iprop(∃ f, ((slotM (peer c 4)).view.loc (c : Thread nD τ) ↦[(slotM (peer c 4)).view.set]{fullShare} f : sProp 𝕄)) := by
  have h : peer (peer c 4) 4 = c := peer_invol c 4
  show iprop(∃ f, ((slotM (peer c 4)).view.loc ((peer (peer c 4) ((4 : Fin 8) : ℕ) : Dev nD) : Thread nD τ) ↦[(slotM (peer c 4)).view.set]{fullShare} f : sProp 𝕄)) = _
  rw [show ((4 : Fin 8) : ℕ) = 4 from rfl, h]
theorem t_payload_bar_out_5 (c : Dev nD) (r : ℕ) :
    (Rd m).payload (barCell (peer c 5)) r (5 : Fin 8)
      = iprop(∃ f, ((slotM (peer c 5)).view.loc (c : Thread nD τ) ↦[(slotM (peer c 5)).view.set]{fullShare} f : sProp 𝕄)) := by
  have h : peer (peer c 5) 5 = c := peer_invol c 5
  show iprop(∃ f, ((slotM (peer c 5)).view.loc ((peer (peer c 5) ((5 : Fin 8) : ℕ) : Dev nD) : Thread nD τ) ↦[(slotM (peer c 5)).view.set]{fullShare} f : sProp 𝕄)) = _
  rw [show ((5 : Fin 8) : ℕ) = 5 from rfl, h]
theorem t_payload_bar_out_6 (c : Dev nD) (r : ℕ) :
    (Rd m).payload (barCell (peer c 6)) r (6 : Fin 8)
      = iprop(∃ f, ((slotM (peer c 6)).view.loc (c : Thread nD τ) ↦[(slotM (peer c 6)).view.set]{fullShare} f : sProp 𝕄)) := by
  have h : peer (peer c 6) 6 = c := peer_invol c 6
  show iprop(∃ f, ((slotM (peer c 6)).view.loc ((peer (peer c 6) ((6 : Fin 8) : ℕ) : Dev nD) : Thread nD τ) ↦[(slotM (peer c 6)).view.set]{fullShare} f : sProp 𝕄)) = _
  rw [show ((6 : Fin 8) : ℕ) = 6 from rfl, h]
theorem t_payload_bar_out_7 (c : Dev nD) (r : ℕ) :
    (Rd m).payload (barCell (peer c 7)) r (7 : Fin 8)
      = iprop(∃ f, ((slotM (peer c 7)).view.loc (c : Thread nD τ) ↦[(slotM (peer c 7)).view.set]{fullShare} f : sProp 𝕄)) := by
  have h : peer (peer c 7) 7 = c := peer_invol c 7
  show iprop(∃ f, ((slotM (peer c 7)).view.loc ((peer (peer c 7) ((7 : Fin 8) : ℕ) : Dev nD) : Thread nD τ) ↦[(slotM (peer c 7)).view.set]{fullShare} f : sProp 𝕄)) = _
  rw [show ((7 : Fin 8) : ℕ) = 7 from rfl, h]
attribute [local sl_rounds high] t_payload_bar_out_1 t_payload_bar_out_2 t_payload_bar_out_3 t_payload_bar_out_4 t_payload_bar_out_5 t_payload_bar_out_6 t_payload_bar_out_7

set_option maxHeartbeats 8000000 in
theorem prefix_dev7 (c : Dev nD) (hc : c = 7) (W : Waits sig Unit)
    (κ0 : ℕ) (κb κs κro κri : ℕ → ℕ)
    (fo : Buf (Elt F) (oM.view.loc (c : Thread nD τ)))
    (fb : Buf (Elt F) (bM.view.loc (c : Thread nD τ)))
    (fr : Buf (Elt F) (rM.view.loc (c : Thread nD τ)))
    (fa : Buf (Elt F) (aM.view.loc (c : Thread nD τ)))
    (fk : Buf (Elt F) (wM.view.loc (c : Thread nD τ))) :
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ
          (headProg (F := F))
          (fun ws => iprop(⌜ws.1 = c⌝ ∗ Mid m c (insert (SemLoc.reg barS, ()) W) κs κro κri fo fr fa fk)) := by
  iintro ⟨Hx, Ho, Hb, Hr, Ha, Hk, Hh, Hs0, Hs1, Hsr, HO, #HL, #Ib0, Hatb, Hcrb, #Ib1, Htb1, #Hrb1, #Ib2, Htb2, #Hrb2, #Ib3, Htb3, #Hrb3, #Ib4, Htb4, #Hrb4, #Ib5, Htb5, #Hrb5, #Ib6, Htb6, #Hrb6, #Ib7, Htb7, #Hrb7, #Is0, Hats0, Hts0, #Hrs0, #Iro1, Htro1, #Hrro1, #Iri1, Hatr1, Hcrr1, #Is1, Hats1, Hts1, #Hrs1, #Iro2, Htro2, #Hrro2, #Iri2, Hatr2, Hcrr2, #Is2, Hats2, Hts2, #Hrs2, #Iro3, Htro3, #Hrro3, #Iri3, Hatr3, Hcrr3, #Is3, Hats3, Hts3, #Hrs3, #Iro4, Htro4, #Hrro4, #Iri4, Hatr4, Hcrr4, #Is4, Hats4, Hts4, #Hrs4, #Iro5, Htro5, #Hrro5, #Iri5, Hatr5, Hcrr5, #Is5, Hats5, Hts5, #Hrs5, #Iro6, Htro6, #Hrro6, #Iri6, Hatr6, Hcrr6, #Is6, Hats6, Hts6, #Hrs6, #Iro7, Htro7, #Hrro7, #Iri7, Hatr7, Hcrr7⟩
  have hmb := Levels.mayWait_bar (F := F) c
  have hpeer1 : (6 : Dev nD) = peer c 1 := by subst hc; decide
  have hpeer2 : (4 : Dev nD) = peer c 2 := by subst hc; decide
  have hpeer3 : (3 : Dev nD) = peer c 3 := by subst hc; decide
  have hpeer4 : (5 : Dev nD) = peer c 4 := by subst hc; decide
  have hpeer5 : (2 : Dev nD) = peer c 5 := by subst hc; decide
  have hpeer6 : (0 : Dev nD) = peer c 6 := by subst hc; decide
  have hpeer7 : (1 : Dev nD) = peer c 7 := by subst hc; decide
  have hO : (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1 : CellTallies nD τ sig Unit)
      = (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 1)) () 1 + tallyAt (barCell (peer c 4)) () 1 + tallyAt (barCell (peer c 2)) () 1 + tallyAt (barCell (peer c 3)) () 1 + tallyAt (barCell (peer c 5)) () 1 + tallyAt (barCell (peer c 7)) () 1 + tallyAt (barCell (peer c 6)) () 1) := by ac_rfl
  icases (entails_of_eq' (congrArg (fun O => (owes (c : Thread nD τ) O W : sProp 𝕄)) hO)) $$ HO with HO
  icases (entails_of_eq' (Cuts.wbuf_cut (F := F) c fk)) $$ Hk with ⟨Hk0, Hk1⟩
  sl_unfold [headProg]
  set_option sl_exec.stopBefore "k0_cond1" in sl_exec_parts (disch := first | (subst hc; decide))
  icases (entails_of_eq' (Cuts.recv_cut_peer_chain (F := F) c fr)) $$ Hr with ⟨Hr0, Hr1, Hr2, Hr3, Hr4, Hr5, Hr6, Hr7⟩
  irevert Hr6 Hr7 Hr5 Hr3 Hr2 Hr4 Hr1 Hr0
  iintro Hr6 Hr7 Hr5 Hr3 Hr2 Hr4 Hr1 Hr0
  sl_exec_parts (disch := first | (subst hc; decide))
  icases (sep7 _ _ _ _ _ _ _) $$ Hatb_pay1 with ⟨⟨%g1, Hd1⟩, ⟨%g2, Hd2⟩, ⟨%g3, Hd3⟩, ⟨%g4, Hd4⟩, ⟨%g5, Hd5⟩, ⟨%g6, Hd6⟩, ⟨%g7, Hd7⟩⟩
  icases (xb_pts m c fb) $$ Hb with Hb
  icases (entails_of_eq' (Cuts.copy_cut_body (F := F) c (xbC m c))) $$ Hb with ⟨Hown, Hrow0, Hrow1, Hrow2, Hrow3, Hrow4, Hrow5, Hrow6⟩
  iapply (send_step m c 0 1 rfl (κs 0) (κro 1) _ _ rfl _ g1) $$ [Hrow0 Hd1 HO Hts0 Htro1]
  · sl_close
  iintro ⟨Hcs0, HO⟩
  sl_exec_parts (disch := first | (subst hc; decide))
  sl_step
  isplitr
  · ipureintro; rfl
  unfold Mid
  sl_close

end Cert.Kernel.BodyProof

end
-- ==== Proof.Bits.BodyTail.lean ====
/- The end of one device's body: from what the run holds when the program returns — the half-precision copy of x and
   the receive buffer by pieces, the two slots of the double buffer of w, the send cells and the receive cells each with
   its one round consumed — to what the pipeline takes back: the scratch buffers whole, at some contents, and every
   own semaphore at zero. A cell whose only round is consumed and that has no later round is closed, which gives its
   counter back at zero; pieces held at any contents join to the buffer held whole. -/
import proofs.«900487_g7700000000000488_dist_a2a_gemm_m4096_k4096_n8192_f32_gelu_v7x_i8_1_alg».proof.Proof.Bits.SchedTables
import proofs.«900487_g7700000000000488_dist_a2a_gemm_m4096_k4096_n8192_f32_gelu_v7x_i8_1_alg».proof.Proof.Bits.CutsBody

noncomputable section

namespace Cert.Kernel.BodyProof

open Cert.Kernel Cert.Kernel.Gen Cert.Kernel.Devs Cert.Kernel.Proto Cert.Kernel.Cuts

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A cell past its one round closes: no round from 1 on has a duty, and no cell of the schedule takes a contribution
    of no unit; its counter, at zero, is the device's again. -/
theorem close_cell (κ : ℕ) (g : GSem nD τ sig) :
    iprop(cellInv ER (Rd m) κ g ∗ atPos ER g 1 ∅ 0) ⊢ (iprop(|={Set.univ}=> semVal g 0) : sProp 𝕄) :=
  Rounds.cell_close ER (Rd m) (Set.mem_univ κ) (fun h => h) (R := 1) (fun r hr => duties_later m g r hr)

set_option maxRecDepth 8000 in
set_option maxHeartbeats 1600000 in
theorem body_tail (c : Dev nD) (X : Buf (Elt F) (oM.view.loc (c : Thread nD τ))) (W : Waits sig Unit) (κs κri : ℕ → ℕ)
    (fr : Buf (Elt F) (rM.view.loc (c : Thread nD τ)))
    (fa : Buf (Elt F) (aM.view.loc (c : Thread nD τ)))
    (fk0 fk1 : Buf (Elt F) (wM.view.loc (c : Thread nD τ))) :
    iprop((xM.view.loc (c : Thread nD τ) ↦{fullShare} xstg m c)
      ∗ (oM.view.loc (c : Thread nD τ) ↦{fullShare} X)
      ∗ ((bM.slice (Rect.unit (s := S4096x512) (k0_off6 c) S512x512.size (k0_off6_inb c)) (fun _ => rfl)).view.loc (c : Thread nD τ) ↦[(bM.slice (Rect.unit (s := S4096x512) (k0_off6 c) S512x512.size (k0_off6_inb c)) (fun _ => rfl)).view.set]{fullShare} xbC m c)
      ∗ ((rowsM c 0).view.loc (c : Thread nD τ) ↦[(rowsM c 0).view.set]{fullShare} xbC m c)
      ∗ ((rowsM c 1).view.loc (c : Thread nD τ) ↦[(rowsM c 1).view.set]{fullShare} xbC m c)
      ∗ ((rowsM c 2).view.loc (c : Thread nD τ) ↦[(rowsM c 2).view.set]{fullShare} xbC m c)
      ∗ ((rowsM c 3).view.loc (c : Thread nD τ) ↦[(rowsM c 3).view.set]{fullShare} xbC m c)
      ∗ ((rowsM c 4).view.loc (c : Thread nD τ) ↦[(rowsM c 4).view.set]{fullShare} xbC m c)
      ∗ ((rowsM c 5).view.loc (c : Thread nD τ) ↦[(rowsM c 5).view.set]{fullShare} xbC m c)
      ∗ ((rowsM c 6).view.loc (c : Thread nD τ) ↦[(rowsM c 6).view.set]{fullShare} xbC m c)
      ∗ ((slotM (peer c 0)).view.loc (c : Thread nD τ) ↦[(slotM (peer c 0)).view.set]{fullShare} fr)
      ∗ ((slotM (peer c 1)).view.loc (c : Thread nD τ) ↦[(slotM (peer c 1)).view.set]{fullShare} landed m c (peer c 1))
      ∗ ((slotM (peer c 2)).view.loc (c : Thread nD τ) ↦[(slotM (peer c 2)).view.set]{fullShare} landed m c (peer c 2))
      ∗ ((slotM (peer c 3)).view.loc (c : Thread nD τ) ↦[(slotM (peer c 3)).view.set]{fullShare} landed m c (peer c 3))
      ∗ ((slotM (peer c 4)).view.loc (c : Thread nD τ) ↦[(slotM (peer c 4)).view.set]{fullShare} landed m c (peer c 4))
      ∗ ((slotM (peer c 5)).view.loc (c : Thread nD τ) ↦[(slotM (peer c 5)).view.set]{fullShare} landed m c (peer c 5))
      ∗ ((slotM (peer c 6)).view.loc (c : Thread nD τ) ↦[(slotM (peer c 6)).view.set]{fullShare} landed m c (peer c 6))
      ∗ ((slotM (peer c 7)).view.loc (c : Thread nD τ) ↦[(slotM (peer c 7)).view.set]{fullShare} landed m c (peer c 7))
      ∗ (aM.view.loc (c : Thread nD τ) ↦{fullShare} fa)
      ∗ (((wM.slice (Rect.unit (s := S2x512x4096) ![0, 0, 0] S1x512x4096.size inb_S2x512x4096_S1x512x4096_0_0_0) (fun _ => rfl)).squeeze S512x4096 squeezes_S1x512x4096_S512x4096).view.loc (c : Thread nD τ) ↦[((wM.slice (Rect.unit (s := S2x512x4096) ![0, 0, 0] S1x512x4096.size inb_S2x512x4096_S1x512x4096_0_0_0) (fun _ => rfl)).squeeze S512x4096 squeezes_S1x512x4096_S512x4096).view.set]{fullShare} fk0)
      ∗ (((wM.slice (Rect.unit (s := S2x512x4096) ![1, 0, 0] S1x512x4096.size inb_S2x512x4096_S1x512x4096_1_0_0) (fun _ => rfl)).squeeze S512x4096 squeezes_S1x512x4096_S512x4096).view.loc (c : Thread nD τ) ↦[((wM.slice (Rect.unit (s := S2x512x4096) ![1, 0, 0] S1x512x4096.size inb_S2x512x4096_S1x512x4096_1_0_0) (fun _ => rfl)).squeeze S512x4096 squeezes_S1x512x4096_S512x4096).view.set]{fullShare} fk1)
      ∗ (hM.view.loc (c : Thread nD τ) ↦{fullShare} warr m c)
      ∗ semVal ((c : Thread nD τ), SemLoc.dma (recvSem c)) 0
      ∗ semVal ((c : Thread nD τ), SemLoc.dma (wSem 0)) 0
      ∗ semVal ((c : Thread nD τ), SemLoc.dma (wSem 1)) 0
      ∗ owes (c : Thread nD τ) 0 W
      ∗ cellInv ER (Rd m) (κs 0) (sendCell c 0)
      ∗ atPos ER (sendCell c 0) 1 ∅ 0
      ∗ cellInv ER (Rd m) (κs 1) (sendCell c 1)
      ∗ atPos ER (sendCell c 1) 1 ∅ 0
      ∗ cellInv ER (Rd m) (κs 2) (sendCell c 2)
      ∗ atPos ER (sendCell c 2) 1 ∅ 0
      ∗ cellInv ER (Rd m) (κs 3) (sendCell c 3)
      ∗ atPos ER (sendCell c 3) 1 ∅ 0
      ∗ cellInv ER (Rd m) (κs 4) (sendCell c 4)
      ∗ atPos ER (sendCell c 4) 1 ∅ 0
      ∗ cellInv ER (Rd m) (κs 5) (sendCell c 5)
      ∗ atPos ER (sendCell c 5) 1 ∅ 0
      ∗ cellInv ER (Rd m) (κs 6) (sendCell c 6)
      ∗ atPos ER (sendCell c 6) 1 ∅ 0
      ∗ cellInv ER (Rd m) (κri 1) (recvCell c (peer c 1))
      ∗ atPos ER (recvCell c (peer c 1)) 1 ∅ 0
      ∗ cellInv ER (Rd m) (κri 2) (recvCell c (peer c 2))
      ∗ atPos ER (recvCell c (peer c 2)) 1 ∅ 0
      ∗ cellInv ER (Rd m) (κri 3) (recvCell c (peer c 3))
      ∗ atPos ER (recvCell c (peer c 3)) 1 ∅ 0
      ∗ cellInv ER (Rd m) (κri 4) (recvCell c (peer c 4))
      ∗ atPos ER (recvCell c (peer c 4)) 1 ∅ 0
      ∗ cellInv ER (Rd m) (κri 5) (recvCell c (peer c 5))
      ∗ atPos ER (recvCell c (peer c 5)) 1 ∅ 0
      ∗ cellInv ER (Rd m) (κri 6) (recvCell c (peer c 6))
      ∗ atPos ER (recvCell c (peer c 6)) 1 ∅ 0
      ∗ cellInv ER (Rd m) (κri 7) (recvCell c (peer c 7))
      ∗ atPos ER (recvCell c (peer c 7)) 1 ∅ 0)
      ⊢ iprop(|={Set.univ}=> ((xM.view.loc (c : Thread nD τ) ↦{fullShare} xstg m c)
              ∗ (oM.view.loc (c : Thread nD τ) ↦{fullShare} X)
              ∗ (∃ f, bM.view.loc (c : Thread nD τ) ↦{fullShare} f)
              ∗ (∃ f, rM.view.loc (c : Thread nD τ) ↦{fullShare} f)
              ∗ (∃ f, aM.view.loc (c : Thread nD τ) ↦{fullShare} f)
              ∗ (∃ f, wM.view.loc (c : Thread nD τ) ↦{fullShare} f)
              ∗ (hM.view.loc (c : Thread nD τ) ↦{fullShare} warr m c)
              ∗ semVal (sendCell c 0) 0
              ∗ semVal (sendCell c 1) 0
              ∗ semVal (sendCell c 2) 0
              ∗ semVal (sendCell c 3) 0
              ∗ semVal (sendCell c 4) 0
              ∗ semVal (sendCell c 5) 0
              ∗ semVal (sendCell c 6) 0
              ∗ semVal (recvCell c (peer c 1)) 0
              ∗ semVal (recvCell c (peer c 2)) 0
              ∗ semVal (recvCell c (peer c 3)) 0
              ∗ semVal (recvCell c (peer c 4)) 0
              ∗ semVal (recvCell c (peer c 5)) 0
              ∗ semVal (recvCell c (peer c 6)) 0
              ∗ semVal (recvCell c (peer c 7)) 0
              ∗ semVal ((c : Thread nD τ), SemLoc.dma (recvSem c)) 0
              ∗ semVal ((c : Thread nD τ), SemLoc.dma (wSem 0)) 0
              ∗ semVal ((c : Thread nD τ), SemLoc.dma (wSem 1)) 0
              ∗ (∃ W', owes (c : Thread nD τ) 0 W'))) := by
  iintro ⟨Hx, Ho, Hown, B0, B1, B2, B3, B4, B5, B6, Q0, Q1, Q2, Q3, Q4, Q5, Q6, Q7, Ha, K0, K1, Hh, Zr, Zw0, Zw1, HO,
    is0, ps0, is1, ps1, is2, ps2, is3, ps3, is4, ps4, is5, ps5, is6, ps6,
    ir1, pr1, ir2, pr2, ir3, pr3, ir4, pr4, ir5, pr5, ir6, pr6, ir7, pr7⟩
  imod (close_cell m (κs 0) (sendCell c 0)) $$ [is0 ps0] with S0
  · isplitl [is0] <;> iassumption
  imod (close_cell m (κs 1) (sendCell c 1)) $$ [is1 ps1] with S1
  · isplitl [is1] <;> iassumption
  imod (close_cell m (κs 2) (sendCell c 2)) $$ [is2 ps2] with S2
  · isplitl [is2] <;> iassumption
  imod (close_cell m (κs 3) (sendCell c 3)) $$ [is3 ps3] with S3
  · isplitl [is3] <;> iassumption
  imod (close_cell m (κs 4) (sendCell c 4)) $$ [is4 ps4] with S4
  · isplitl [is4] <;> iassumption
  imod (close_cell m (κs 5) (sendCell c 5)) $$ [is5 ps5] with S5
  · isplitl [is5] <;> iassumption
  imod (close_cell m (κs 6) (sendCell c 6)) $$ [is6 ps6] with S6
  · isplitl [is6] <;> iassumption
  imod (close_cell m (κri 1) (recvCell c (peer c 1))) $$ [ir1 pr1] with R1
  · isplitl [ir1] <;> iassumption
  imod (close_cell m (κri 2) (recvCell c (peer c 2))) $$ [ir2 pr2] with R2
  · isplitl [ir2] <;> iassumption
  imod (close_cell m (κri 3) (recvCell c (peer c 3))) $$ [ir3 pr3] with R3
  · isplitl [ir3] <;> iassumption
  imod (close_cell m (κri 4) (recvCell c (peer c 4))) $$ [ir4 pr4] with R4
  · isplitl [ir4] <;> iassumption
  imod (close_cell m (κri 5) (recvCell c (peer c 5))) $$ [ir5 pr5] with R5
  · isplitl [ir5] <;> iassumption
  imod (close_cell m (κri 6) (recvCell c (peer c 6))) $$ [ir6 pr6] with R6
  · isplitl [ir6] <;> iassumption
  imod (close_cell m (κri 7) (recvCell c (peer c 7))) $$ [ir7 pr7] with R7
  · isplitl [ir7] <;> iassumption
  ihave Hb := (copy_join_body (F := F) c) $$ [Hown B0 B1 B2 B3 B4 B5 B6]
  · isplitl [Hown]; · iexists _; iexact Hown
    isplitl [B0]; · iexists _; iexact B0
    isplitl [B1]; · iexists _; iexact B1
    isplitl [B2]; · iexists _; iexact B2
    isplitl [B3]; · iexists _; iexact B3
    isplitl [B4]; · iexists _; iexact B4
    isplitl [B5]; · iexists _; iexact B5
    iexists _; iexact B6
  ihave Hr := (recv_join_peer_chain (F := F) c) $$ [Q0 Q1 Q2 Q3 Q4 Q5 Q6 Q7]
  · isplitl [Q0]; · iexists _; iexact Q0
    isplitl [Q1]; · iexists _; iexact Q1
    isplitl [Q2]; · iexists _; iexact Q2
    isplitl [Q3]; · iexists _; iexact Q3
    isplitl [Q4]; · iexists _; iexact Q4
    isplitl [Q5]; · iexists _; iexact Q5
    isplitl [Q6]; · iexists _; iexact Q6
    iexists _; iexact Q7
  ihave Hk := (wbuf_join (F := F) c) $$ [K0 K1]
  · isplitl [K0]; · iexists _; iexact K0
    iexists _; iexact K1
  imodintro
  isplitl [Hx]; · iexact Hx
  isplitl [Ho]; · iexact Ho
  isplitl [Hb]; · iexact Hb
  isplitl [Hr]; · iexact Hr
  isplitl [Ha]; · iexists fa; iexact Ha
  isplitl [Hk]; · iexact Hk
  isplitl [Hh]; · iexact Hh
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [Zr]; · iexact Zr
  isplitl [Zw0]; · iexact Zw0
  isplitl [Zw1]; · iexact Zw1
  iexists W; iexact HO

/-- info: 'Cert.Kernel.BodyProof.body_tail' depends on axioms: [propext, Classical.choice, Quot.sound] -/
#guard_msgs in #print axioms body_tail

end Cert.Kernel.BodyProof

end
-- ==== Proof.Bits.BodyTailPost.lean ====
/- From the pieces the device holds at the body's return to the state the launch takes back: the buffers rejoined, the
   fourteen send and receive cells closed, and the result's staging buffer at the kernel's result on the device — the
   stores the body's run listed, over contents nothing reads. -/
import proofs.«900487_g7700000000000488_dist_a2a_gemm_m4096_k4096_n8192_f32_gelu_v7x_i8_1_alg».proof.Proof.Bits.Sched
import proofs.«900487_g7700000000000488_dist_a2a_gemm_m4096_k4096_n8192_f32_gelu_v7x_i8_1_alg».proof.Proof.Bits.Levels
import proofs.«900487_g7700000000000488_dist_a2a_gemm_m4096_k4096_n8192_f32_gelu_v7x_i8_1_alg».proof.Proof.Bits.SchedTables
import proofs.«900487_g7700000000000488_dist_a2a_gemm_m4096_k4096_n8192_f32_gelu_v7x_i8_1_alg».proof.Proof.Bits.OutAt
import proofs.«900487_g7700000000000488_dist_a2a_gemm_m4096_k4096_n8192_f32_gelu_v7x_i8_1_alg».proof.Proof.Bits.Cuts
import proofs.«900487_g7700000000000488_dist_a2a_gemm_m4096_k4096_n8192_f32_gelu_v7x_i8_1_alg».proof.Proof.Bits.CutsBody
import proofs.«900487_g7700000000000488_dist_a2a_gemm_m4096_k4096_n8192_f32_gelu_v7x_i8_1_alg».proof.Proof.Bits.BodyLemmas
import proofs.«900487_g7700000000000488_dist_a2a_gemm_m4096_k4096_n8192_f32_gelu_v7x_i8_1_alg».proof.Proof.Bits.BodyMid
import proofs.«900487_g7700000000000488_dist_a2a_gemm_m4096_k4096_n8192_f32_gelu_v7x_i8_1_alg».proof.Proof.Bits.BodyTail
import proofs.«900487_g7700000000000488_dist_a2a_gemm_m4096_k4096_n8192_f32_gelu_v7x_i8_1_alg».proof.Proof.Bits.BodyTailRun
import Idealize.ShloMosaic.Lib.Pipeline.Launch
import Idealize.ShloMosaic.Lib.Pipeline.Kit
import Idealize.ShloMosaic.Lib.Ring
import Idealize.ShloMosaic.Lib.Tactic

noncomputable section

namespace Cert.Kernel.BodyProof

open Cert.Kernel Cert.Kernel.Gen Cert.Kernel.Devs Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

/-- The pieces at the return, whatever list of stores stands in the result's staging buffer, are the flat state after
    the body, under one update. -/
theorem end_post (c : Dev nD) (L : List (View.Piece (Elt F) S512x8192 .f32)) (κs κri : ℕ → ℕ)
    (fr : Buf (Elt F) (rM.view.loc (c : Thread nD τ))) :
    End m c L κs κri fr
      ⊢ iprop(|={Set.univ}=> ((xM.view.loc (c : Thread nD τ) ↦{fullShare} xstg m c)
          ∗ (oM.view.loc (c : Thread nD τ) ↦{fullShare} oM.view.writes (Elt F) oM.view.junk L)
          ∗ (∃ f, bM.view.loc (c : Thread nD τ) ↦{fullShare} f)
          ∗ (∃ f, rM.view.loc (c : Thread nD τ) ↦{fullShare} f)
          ∗ (∃ f, aM.view.loc (c : Thread nD τ) ↦{fullShare} f)
          ∗ (∃ f, wM.view.loc (c : Thread nD τ) ↦{fullShare} f)
          ∗ (hM.view.loc (c : Thread nD τ) ↦{fullShare} warr m c)
          ∗ semVal (sendCell c 0) 0
          ∗ semVal (sendCell c 1) 0
          ∗ semVal (sendCell c 2) 0
          ∗ semVal (sendCell c 3) 0
          ∗ semVal (sendCell c 4) 0
          ∗ semVal (sendCell c 5) 0
          ∗ semVal (sendCell c 6) 0
          ∗ semVal (recvCell c (peer c 1)) 0
          ∗ semVal (recvCell c (peer c 2)) 0
          ∗ semVal (recvCell c (peer c 3)) 0
          ∗ semVal (recvCell c (peer c 4)) 0
          ∗ semVal (recvCell c (peer c 5)) 0
          ∗ semVal (recvCell c (peer c 6)) 0
          ∗ semVal (recvCell c (peer c 7)) 0
          ∗ semVal ((c : Thread nD τ), SemLoc.dma (recvSem c)) 0
          ∗ semVal ((c : Thread nD τ), SemLoc.dma (wSem 0)) 0
          ∗ semVal ((c : Thread nD τ), SemLoc.dma (wSem 1)) 0
          ∗ (∃ W', owes (c : Thread nD τ) 0 W'))) := by
  unfold End
  iintro ⟨Hx, Ho, Hown, Hrow0, Hrow1, Hrow2, Hrow3, Hrow4, Hrow5, Hrow6, Hr0, Hsl1, Hsl2, Hsl3, Hsl4, Hsl5, Hsl6, Hsl7, ⟨%fa, Ha⟩, ⟨%f0, Hk0⟩, ⟨%f1, Hk1⟩, Hh, Hsr, Hs0, Hs1, ⟨%W', HO⟩, #Is0, Hats0, #Is1, Hats1, #Is2, Hats2, #Is3, Hats3, #Is4, Hats4, #Is5, Hats5, #Is6, Hats6, #Iri1, Hatr1, #Iri2, Hatr2, #Iri3, Hatr3, #Iri4, Hatr4, #Iri5, Hatr5, #Iri6, Hatr6, #Iri7, Hatr7⟩
  iapply (body_tail m c (oM.view.writes (Elt F) oM.view.junk L) W' κs κri fr fa f0 f1)
  sl_close

/-- The rest of the body from what the entry stretch hands on, to the flat state after the body. -/
theorem tail_run (c : Dev nD) (v2 v43 v51 v59 v67 v75 v83 v91 : BitVec 32) (W : Waits sig Unit) (κs κro κri : ℕ → ℕ)
    (fo : Buf (Elt F) (oM.view.loc (c : Thread nD τ)))
    (fr : Buf (Elt F) (rM.view.loc (c : Thread nD τ)))
    (fa : Buf (Elt F) (aM.view.loc (c : Thread nD τ)))
    (fk : Buf (Elt F) (wM.view.loc (c : Thread nD τ))) :
    Mid m c W κs κro κri fo fr fa fk
      ⊢ wp frame (wpE (defs₀ (F := F)) 𝒱₀ (c : Thread nD τ) none) Set.univ
          (tailProg (F := F) c v2 v43 v51 v59 v67 v75 v83 v91)
          (fun _ => iprop((xM.view.loc (c : Thread nD τ) ↦{fullShare} xstg m c)
              ∗ (oM.view.loc (c : Thread nD τ) ↦{fullShare} outAt m c)
              ∗ (∃ f, bM.view.loc (c : Thread nD τ) ↦{fullShare} f)
              ∗ (∃ f, rM.view.loc (c : Thread nD τ) ↦{fullShare} f)
              ∗ (∃ f, aM.view.loc (c : Thread nD τ) ↦{fullShare} f)
              ∗ (∃ f, wM.view.loc (c : Thread nD τ) ↦{fullShare} f)
              ∗ (hM.view.loc (c : Thread nD τ) ↦{fullShare} warr m c)
              ∗ semVal (sendCell c 0) 0
              ∗ semVal (sendCell c 1) 0
              ∗ semVal (sendCell c 2) 0
              ∗ semVal (sendCell c 3) 0
              ∗ semVal (sendCell c 4) 0
              ∗ semVal (sendCell c 5) 0
              ∗ semVal (sendCell c 6) 0
              ∗ semVal (recvCell c (peer c 1)) 0
              ∗ semVal (recvCell c (peer c 2)) 0
              ∗ semVal (recvCell c (peer c 3)) 0
              ∗ semVal (recvCell c (peer c 4)) 0
              ∗ semVal (recvCell c (peer c 5)) 0
              ∗ semVal (recvCell c (peer c 6)) 0
              ∗ semVal (recvCell c (peer c 7)) 0
              ∗ semVal ((c : Thread nD τ), SemLoc.dma (recvSem c)) 0
              ∗ semVal ((c : Thread nD τ), SemLoc.dma (wSem 0)) 0
              ∗ semVal ((c : Thread nD τ), SemLoc.dma (wSem 1)) 0
              ∗ (∃ W', owes (c : Thread nD τ) 0 W'))) := by
  unfold outAt
  exact ((tail_sub m c).2 v2 v43 v51 v59 v67 v75 v83 v91 W κs κro κri fo fr fa fk).trans
    ((wp_mono _ _ _ (fun _ => end_post m c _ κs κri fr)).trans (wp_fupd _ _ _ _ _))

end Cert.Kernel.BodyProof

end
-- ==== Proof.Bits.BodyWrap.lean ====
/- The body obligation of the launch theorem from the run of one device's body. The pipeline asks, at its one point: from
   the invariant before the point, what the device owes and the two windows' staging buffers, the body runs to the
   invariant after the point, nothing owed, and the staging buffers at what the body leaves. The invariant is opened into
   the flat list of resources the body's run starts from — the buffers, the idle semaphores, and per cell the invariant,
   the position, the credit, the tokens and the reached-marks —, the run is applied, and its post is folded back. -/
import proofs.«900487_g7700000000000488_dist_a2a_gemm_m4096_k4096_n8192_f32_gelu_v7x_i8_1_alg».proof.Proof.Bits.Dats
import proofs.«900487_g7700000000000488_dist_a2a_gemm_m4096_k4096_n8192_f32_gelu_v7x_i8_1_alg».proof.Proof.Bits.LaunchPre
import proofs.«900487_g7700000000000488_dist_a2a_gemm_m4096_k4096_n8192_f32_gelu_v7x_i8_1_alg».proof.Proof.Gen.Kernel.Points

noncomputable section

namespace Cert.Kernel.BodyProof

open Cert.Kernel Cert.Kernel.Gen Cert.Kernel.Devs Cert.Kernel.Proto Cert.Kernel.LaunchPre

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/- The result's contents are a name here: nothing in this module reads its definition. -/
attribute [local irreducible] Cert.Kernel.Proto.outAt

local notation "𝕄" => MT nD τ sig Unit (Elt F) ℕ UU ℕ

/-! ## Families over a device's cells and partners, written out -/

/-- Among a device's fifteen cells: the index of its i-th send cell, of its receive cell of partner k. -/
def sN (i : ℕ) : Fin 15 := Fin.ofNat 15 (i + 1)
def rN (k : ℕ) : Fin 15 := Fin.ofNat 15 (7 + k)

theorem idx_eq : ∀ (k : Fin 8) (h : 7 + k.val < 15), (⟨7 + k.val, h⟩ : Fin 15) = rN k.val := by decide

omit [FloatOps F] in
/-- Something said of each of device c's fifteen cells, by its index and the cell. -/
theorem L15 (c : Dev nD) (Ψ : Fin 15 → GSem nD τ sig → sProp 𝕄) :
    (bigSep Finset.univ fun n : Fin 15 => Ψ n (kcell (c, n)))
      = iprop(Ψ 0 (barCell c) ∗ Ψ (sN 0) (sendCell c 0) ∗ Ψ (sN 1) (sendCell c 1) ∗ Ψ (sN 2) (sendCell c 2) ∗ Ψ (sN 3) (sendCell c 3)
          ∗ Ψ (sN 4) (sendCell c 4) ∗ Ψ (sN 5) (sendCell c 5) ∗ Ψ (sN 6) (sendCell c 6)
          ∗ Ψ (rN 1) (recvCell c (peer c 1)) ∗ Ψ (rN 2) (recvCell c (peer c 2)) ∗ Ψ (rN 3) (recvCell c (peer c 3))
          ∗ Ψ (rN 4) (recvCell c (peer c 4)) ∗ Ψ (rN 5) (recvCell c (peer c 5)) ∗ Ψ (rN 6) (recvCell c (peer c 6))
          ∗ Ψ (rN 7) (recvCell c (peer c 7))) :=
  bigSep_fin15 _

omit [FloatOps F] in
/-- Something said of each partner index 1..7, by the index as a number and as a duty's name. -/
theorem LE7 (Φ : ℕ → Fin 8 → sProp 𝕄) :
    (bigSep E7 fun k : Fin 8 => Φ k.val k) = iprop(Φ 1 1 ∗ Φ 2 2 ∗ Φ 3 3 ∗ Φ 4 4 ∗ Φ 5 5 ∗ Φ 6 6 ∗ Φ 7 7) := bigSep_E7 _

omit [FloatOps F] in
/-- Something said of each send cell. -/
theorem L7 (Φ : Fin 7 → sProp 𝕄) :
    (bigSep Finset.univ fun i : Fin 7 => Φ i) = iprop(Φ 0 ∗ Φ 1 ∗ Φ 2 ∗ Φ 3 ∗ Φ 4 ∗ Φ 5 ∗ Φ 6) := bigSep_fin7 _

section Wrap
variable (m : (ℓ : Loc nD τ sig) → Buf (Elt F) ℓ)

/-- The ghost state a device's body starts from, written out: per cell its invariant, position and reached-mark, per
    partner the invariants and reached-marks of the two cells the device pays, and the tokens it pays with. -/
theorem ghost_flat (K : Dev nD × Fin 15 → ℕ) (c : Dev nD) :
    ghost m K c = iprop(
      ((bigSep Finset.univ fun n : Fin 15 => cellInv ER (Rd m) (K (c, n)) (kcell (c, n)))
        ∗ (bigSep E7 fun k : Fin 8 => cellInv ER (Rd m) (K (peer c k.val, 0)) (barCell (peer c k.val)))
        ∗ (bigSep E7 fun k : Fin 8 => cellInv ER (Rd m) (K (peer c k.val, rN k.val)) (recvCell (peer c k.val) c)))
      ∗ (bigSep Finset.univ fun n : Fin 15 => atPos ER (kcell (c, n)) 0 ∅ 0)
      ∗ (bigSep Finset.univ fun n : Fin 15 => reached ER (kcell (c, n)) 0)
      ∗ (bigSep E7 fun k : Fin 8 => reached ER (barCell (peer c k.val)) 0)
      ∗ (bigSep E7 fun k : Fin 8 => reached ER (recvCell (peer c k.val) c) 0)
      ∗ (bigSep E7 fun k : Fin 8 => dutyTok ER (barCell (peer c k.val)) 0 k)
      ∗ (bigSep E7 fun k : Fin 8 => dutyTok ER (recvCell (peer c k.val) c) 0 (0 : Fin 8))
      ∗ (bigSep Finset.univ fun i : Fin 7 => dutyTok ER (sendCell c i) 0 (0 : Fin 8))) := by
  unfold ghost Proto.invs
  simp only [idx_eq]

/-! ## The obligation's two ends -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- What the pipeline hands the body at the point. -/
def bodyPre' (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

set_option maxRecDepth 4000 in
/-- What it takes back. -/
def bodyPost (c : Dev nD) : sProp 𝕄 :=
  iprop(Φ₁ m c ∗ (dats m 0 c).owesAt () t0_0.succ ∗ stg c cc0_stg0_0 (xstg m c) ∗ stg c cc0_stg1_0 (outAt m c))

/-- The x window's staging buffer holds the device's block of x when the body runs: it was just fetched. -/
theorem before_x (c : Dev nD) (d) : (dats m 0 c).before (0 : Fin 2) t0_0 d = xstg m c := by
  unfold Dat.before; rw [if_pos (fetch0_0 t0_0)]; rfl

/-- The run's post, folded back into what the pipeline takes back. -/
theorem post_fold (c : Dev nD) :
    iprop((xM.view.loc (c : Thread nD τ) ↦{fullShare} xstg m c)
              ∗ (oM.view.loc (c : Thread nD τ) ↦{fullShare} outAt m c)
              ∗ (∃ f, bM.view.loc (c : Thread nD τ) ↦{fullShare} f)
              ∗ (∃ f, rM.view.loc (c : Thread nD τ) ↦{fullShare} f)
              ∗ (∃ f, aM.view.loc (c : Thread nD τ) ↦{fullShare} f)
              ∗ (∃ f, wM.view.loc (c : Thread nD τ) ↦{fullShare} f)
              ∗ (hM.view.loc (c : Thread nD τ) ↦{fullShare} warr m c)
              ∗ semVal (sendCell c 0) 0
              ∗ semVal (sendCell c 1) 0
              ∗ semVal (sendCell c 2) 0
              ∗ semVal (sendCell c 3) 0
              ∗ semVal (sendCell c 4) 0
              ∗ semVal (sendCell c 5) 0
              ∗ semVal (sendCell c 6) 0
              ∗ semVal (recvCell c (peer c 1)) 0
              ∗ semVal (recvCell c (peer c 2)) 0
              ∗ semVal (recvCell c (peer c 3)) 0
              ∗ semVal (recvCell c (peer c 4)) 0
              ∗ semVal (recvCell c (peer c 5)) 0
              ∗ semVal (recvCell c (peer c 6)) 0
              ∗ semVal (recvCell c (peer c 7)) 0
              ∗ semVal ((c : Thread nD τ), SemLoc.dma (recvSem c)) 0
              ∗ semVal ((c : Thread nD τ), SemLoc.dma (wSem 0)) 0
              ∗ semVal ((c : Thread nD τ), SemLoc.dma (wSem 1)) 0
              ∗ (∃ W', owes (c : Thread nD τ) 0 W'))
      ⊢ bodyPost m c := by
  unfold bodyPost Φ₁ scratch ownZero Dat.owesAt Pipeline.owesWithin
  rw [show (dats m 0 c).owed t0_0.succ = 0 from rfl, L7 (fun i => semVal (sendCell c i) 0),
    by_partner c (fun o => semVal (recvCell c o) 0), LE7 (fun n _ => semVal (recvCell c (peer c n)) 0)]
  iintro ⟨Hx, Ho, Hb, Hr, Ha, Hk, Hh, S0, S1, S2, S3, S4, S5, S6, R1, R2, R3, R4, R5, R6, R7, Rc, W0, W1, ⟨%W', HO⟩⟩
  isplitl [Hb Hr Ha Hk Hh S0 S1 S2 S3 S4 S5 S6 R1 R2 R3 R4 R5 R6 R7 Rc W0 W1]
  · isplitl [Hb Hr Ha Hk]
    · isplitl [Hb]; · iexact Hb
      isplitl [Hr]; · iexact Hr
      isplitl [Ha]; · iexact Ha
      iexact Hk
    isplitl [S0 S1 S2 S3 S4 S5 S6 R1 R2 R3 R4 R5 R6 R7 Rc W0 W1]
    · iframe
    · iexact Hh
  isplitl [HO]
  · iexists W'
    isplitr; · ipureintro; exact fun _ _ => Or.inl trivial
    iexact HO
  isplitl [Hx]
  · iexists _; isplitr; · (ipureintro; rfl)
    iexact Hx
  · iexists _; isplitr; · (ipureintro; rfl)
    iexact Ho

set_option maxRecDepth 8000 in
set_option maxHeartbeats 1600000 in
/-- The library's body obligation on every device, GIVEN the run of the body from the flat list of its resources. -/
theorem body_obligation_of
    (hrun : ∀ (c : Dev nD) (W : Waits sig Unit)
      (κ0 : ℕ) (κb κs κro κri : ℕ → ℕ)
      (fo : Buf (Elt F) (oM.view.loc (c : Thread nD τ)))
      (fb : Buf (Elt F) (bM.view.loc (c : Thread nD τ)))
      (fr : Buf (Elt F) (rM.view.loc (c : Thread nD τ)))
      (fa : Buf (Elt F) (aM.view.loc (c : Thread nD τ)))
      (fk : Buf (Elt F) (wM.view.loc (c : Thread nD τ))),
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ
          (cc0_body (F := F) xM (Memref.isWhole_whole _) hM (Memref.isWhole_whole _) oM (Memref.isWhole_whole _)
            bM (Memref.isWhole_whole _) rM (Memref.isWhole_whole _) aM (Memref.isWhole_whole _) wM (Memref.isWhole_whole _)
            cc0_scratch4 cc0_scratch5 cc0_scratch6)
          (fun _ => iprop((xM.view.loc (c : Thread nD τ) ↦{fullShare} xstg m c)
              ∗ (oM.view.loc (c : Thread nD τ) ↦{fullShare} outAt m c)
              ∗ (∃ f, bM.view.loc (c : Thread nD τ) ↦{fullShare} f)
              ∗ (∃ f, rM.view.loc (c : Thread nD τ) ↦{fullShare} f)
              ∗ (∃ f, aM.view.loc (c : Thread nD τ) ↦{fullShare} f)
              ∗ (∃ f, wM.view.loc (c : Thread nD τ) ↦{fullShare} f)
              ∗ (hM.view.loc (c : Thread nD τ) ↦{fullShare} warr m c)
              ∗ semVal (sendCell c 0) 0
              ∗ semVal (sendCell c 1) 0
              ∗ semVal (sendCell c 2) 0
              ∗ semVal (sendCell c 3) 0
              ∗ semVal (sendCell c 4) 0
              ∗ semVal (sendCell c 5) 0
              ∗ semVal (sendCell c 6) 0
              ∗ semVal (recvCell c (peer c 1)) 0
              ∗ semVal (recvCell c (peer c 2)) 0
              ∗ semVal (recvCell c (peer c 3)) 0
              ∗ semVal (recvCell c (peer c 4)) 0
              ∗ semVal (recvCell c (peer c 5)) 0
              ∗ semVal (recvCell c (peer c 6)) 0
              ∗ semVal (recvCell c (peer c 7)) 0
              ∗ semVal ((c : Thread nD τ), SemLoc.dma (recvSem c)) 0
              ∗ semVal ((c : Thread nD τ), SemLoc.dma (wSem 0)) 0
              ∗ semVal ((c : Thread nD τ), SemLoc.dma (wSem 1)) 0
              ∗ (∃ W', owes (c : Thread nD τ) 0 W')))) :
    ∀ c, BodyObligation (dats (F := F) m 0 c) (defs₀ (F := F)) 𝒱₀ () Set.univ := fun c t => by
  rw [fin_N0 t]
  rw [bigSep_W0, bigSep_W0]
  simp only [owns_whole_eq]
  show bodyPre' m c ⊢ wp frame (wpE (defs₀ (F := F)) 𝒱₀ c none) Set.univ
    (cc0_body (F := F) xM (Memref.isWhole_whole _) hM (Memref.isWhole_whole _) oM (Memref.isWhole_whole _)
      bM (Memref.isWhole_whole _) rM (Memref.isWhole_whole _) aM (Memref.isWhole_whole _) wM (Memref.isWhole_whole _)
      cc0_scratch4 cc0_scratch5 cc0_scratch6) (fun _ => bodyPost m c)
  unfold bodyPre' Φ₀ start scratch Proto.creds idleSems
  rw [LE7 (fun n _ => cred (tallyAt (recvCell c (peer c n)) () N))]
  iintro ⟨⟨⟨⟨%K, Hg⟩, ⟨cb, c1, c2, c3, c4, c5, c6, c7⟩, ⟨Hrc, Hw0, Hw1⟩, Hlev, Hh⟩, ⟨%fb, Hb⟩, ⟨%fr, Hr⟩, ⟨%fa, Ha⟩, ⟨%fk, Hk⟩⟩,
    Ho, ⟨%d0, %g0, %hg0, Hx⟩, ⟨%d1, %g1, %hg1, Hout⟩⟩
  have hx : g0 = xstg m c := hg0.trans (before_x m c d0)
  subst hx
  unfold Dat.owesAt Pipeline.owesWithin
  icases Ho with ⟨%W, %hW, HO⟩
  rw [show (dats m 0 c).owed t0_0.castSucc = O₀ c from rfl]
  unfold O₀
  irevert Hg
  rw [ghost_flat m K c,
    L15 c (fun n g => cellInv ER (Rd m) (K (c, n)) g), L15 c (fun _ g => atPos ER g 0 ∅ 0), L15 c (fun _ g => reached ER g 0),
    LE7 (fun n _ => cellInv ER (Rd m) (K (peer c n, 0)) (barCell (peer c n))),
    LE7 (fun n _ => cellInv ER (Rd m) (K (peer c n, rN n)) (recvCell (peer c n) c)),
    LE7 (fun n _ => reached ER (barCell (peer c n)) 0), LE7 (fun n _ => reached ER (recvCell (peer c n) c) 0),
    LE7 (fun n k => dutyTok ER (barCell (peer c n)) 0 k), LE7 (fun n _ => dutyTok ER (recvCell (peer c n) c) 0 (0 : Fin 8)),
    L7 (fun i => dutyTok ER (sendCell c i) 0 (0 : Fin 8))]
  iintro ⟨⟨⟨i0, is0, is1, is2, is3, is4, is5, is6, ir1, ir2, ir3, ir4, ir5, ir6, ir7⟩, ⟨ib1, ib2, ib3, ib4, ib5, ib6, ib7⟩,
      ⟨io1, io2, io3, io4, io5, io6, io7⟩⟩,
    ⟨p0, ps0, ps1, ps2, ps3, ps4, ps5, ps6, pr1, pr2, pr3, pr4, pr5, pr6, pr7⟩,
    ⟨-, rs0, rs1, rs2, rs3, rs4, rs5, rs6, -, -, -, -, -, -, -⟩,
    ⟨rb1, rb2, rb3, rb4, rb5, rb6, rb7⟩, ⟨ro1, ro2, ro3, ro4, ro5, ro6, ro7⟩,
    ⟨tb1, tb2, tb3, tb4, tb5, tb6, tb7⟩, ⟨to1, to2, to3, to4, to5, to6, to7⟩, ⟨ts0, ts1, ts2, ts3, ts4, ts5, ts6⟩⟩
  iapply (wp_mono _ _ _ fun _ => post_fold m c)
  iapply (hrun c W (K (c, 0)) (fun n => K (peer c n, 0)) (fun i => K (c, sN i)) (fun n => K (peer c n, rN n)) (fun n => K (c, rN n))
    g1 fb fr fa fk)
  iframe

/-- info: 'Cert.Kernel.BodyProof.body_obligation_of' depends on axioms: [propext, Classical.choice, Quot.sound] -/
#guard_msgs in #print axioms body_obligation_of

end Wrap

end Cert.Kernel.BodyProof

end
-- ==== Proof.Bits.Body.lean ====
/- The body obligation of the launch theorem, assembled: the entry stretch's run on each of the eight devices, the run of
   the rest of the body at a symbolic device, the two joined into the run of the body, and that run folded into the
   pipeline's obligation. -/
import proofs.«900487_g7700000000000488_dist_a2a_gemm_m4096_k4096_n8192_f32_gelu_v7x_i8_1_alg».proof.Proof.Bits.BodyDev0
import proofs.«900487_g7700000000000488_dist_a2a_gemm_m4096_k4096_n8192_f32_gelu_v7x_i8_1_alg».proof.Proof.Bits.BodyDev1
import proofs.«900487_g7700000000000488_dist_a2a_gemm_m4096_k4096_n8192_f32_gelu_v7x_i8_1_alg».proof.Proof.Bits.BodyDev2
import proofs.«900487_g7700000000000488_dist_a2a_gemm_m4096_k4096_n8192_f32_gelu_v7x_i8_1_alg».proof.Proof.Bits.BodyDev3
import proofs.«900487_g7700000000000488_dist_a2a_gemm_m4096_k4096_n8192_f32_gelu_v7x_i8_1_alg».proof.Proof.Bits.BodyDev4
import proofs.«900487_g7700000000000488_dist_a2a_gemm_m4096_k4096_n8192_f32_gelu_v7x_i8_1_alg».proof.Proof.Bits.BodyDev5
import proofs.«900487_g7700000000000488_dist_a2a_gemm_m4096_k4096_n8192_f32_gelu_v7x_i8_1_alg».proof.Proof.Bits.BodyDev6
import proofs.«900487_g7700000000000488_dist_a2a_gemm_m4096_k4096_n8192_f32_gelu_v7x_i8_1_alg».proof.Proof.Bits.BodyDev7
import proofs.«900487_g7700000000000488_dist_a2a_gemm_m4096_k4096_n8192_f32_gelu_v7x_i8_1_alg».proof.Proof.Bits.BodyTailPost
import proofs.«900487_g7700000000000488_dist_a2a_gemm_m4096_k4096_n8192_f32_gelu_v7x_i8_1_alg».proof.Proof.Bits.BodyMid
import proofs.«900487_g7700000000000488_dist_a2a_gemm_m4096_k4096_n8192_f32_gelu_v7x_i8_1_alg».proof.Proof.Bits.BodyWrap

noncomputable section

namespace Cert.Kernel.BodyProof

open Cert.Kernel Cert.Kernel.Gen Cert.Kernel.Devs Cert.Kernel.Proto

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A device of the mesh is one of the eight. -/
theorem dev_cases : ∀ c : Dev nD, c = 0 ∨ c = 1 ∨ c = 2 ∨ c = 3 ∨ c = 4 ∨ c = 5 ∨ c = 6 ∨ c = 7 := by decide

set_option maxRecDepth 8000 in
/-- The entry stretch's run on every device: device by device. -/
theorem prefix_all : ∀ (c : Dev nD) (W : Waits sig Unit)
      (κ0 : ℕ) (κb κs κro κri : ℕ → ℕ)
      (fo : Buf (Elt F) (oM.view.loc (c : Thread nD τ)))
      (fb : Buf (Elt F) (bM.view.loc (c : Thread nD τ)))
      (fr : Buf (Elt F) (rM.view.loc (c : Thread nD τ)))
      (fa : Buf (Elt F) (aM.view.loc (c : Thread nD τ)))
      (fk : Buf (Elt F) (wM.view.loc (c : Thread nD τ))),
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ (headProg (F := F))
          (fun ws => iprop(⌜ws.1 = c⌝ ∗ Mid m c (insert (SemLoc.reg barS, ()) W) κs κro κri fo fr fa fk)) := fun c => by
  rcases dev_cases c with h | h | h | h | h | h | h | h
  · exact prefix_dev0 m c h
  · exact prefix_dev1 m c h
  · exact prefix_dev2 m c h
  · exact prefix_dev3 m c h
  · exact prefix_dev4 m c h
  · exact prefix_dev5 m c h
  · exact prefix_dev6 m c h
  · exact prefix_dev7 m c h

set_option maxRecDepth 8000 in
/-- The run of one device's body from the flat list of its resources. -/
theorem run_body : ∀ (c : Dev nD) (W : Waits sig Unit)
      (κ0 : ℕ) (κb κs κro κri : ℕ → ℕ)
      (fo : Buf (Elt F) (oM.view.loc (c : Thread nD τ)))
      (fb : Buf (Elt F) (bM.view.loc (c : Thread nD τ)))
      (fr : Buf (Elt F) (rM.view.loc (c : Thread nD τ)))
      (fa : Buf (Elt F) (aM.view.loc (c : Thread nD τ)))
      (fk : Buf (Elt F) (wM.view.loc (c : Thread nD τ))),
    iprop((xM.view.loc (c : Thread nD τ) ↦{fullShare} xstg m c)
      ∗         (oM.view.loc (c : Thread nD τ) ↦{fullShare} fo)
      ∗         (bM.view.loc (c : Thread nD τ) ↦{fullShare} fb)
      ∗         (rM.view.loc (c : Thread nD τ) ↦{fullShare} fr)
      ∗         (aM.view.loc (c : Thread nD τ) ↦{fullShare} fa)
      ∗         (wM.view.loc (c : Thread nD τ) ↦{fullShare} fk)
      ∗         (hM.view.loc (c : Thread nD τ) ↦{fullShare} warr m c)
      ∗         semVal ((c : Thread nD τ), SemLoc.dma (wSem 0)) 0
      ∗         semVal ((c : Thread nD τ), SemLoc.dma (wSem 1)) 0
      ∗         semVal ((c : Thread nD τ), SemLoc.dma (recvSem c)) 0
      ∗         owes (c : Thread nD τ) (tallyAt (recvCell (peer c 7) c) () N + tallyAt (recvCell (peer c 6) c) () N + tallyAt (recvCell (peer c 5) c) () N
          + tallyAt (recvCell (peer c 4) c) () N + tallyAt (recvCell (peer c 3) c) () N + tallyAt (recvCell (peer c 2) c) () N
          + tallyAt (recvCell (peer c 1) c) () N
          + tallyAt (barCell (peer c 7)) () 1 + tallyAt (barCell (peer c 6)) () 1 + tallyAt (barCell (peer c 5)) () 1
          + tallyAt (barCell (peer c 4)) () 1 + tallyAt (barCell (peer c 3)) () 1 + tallyAt (barCell (peer c 2)) () 1
          + tallyAt (barCell (peer c 1)) () 1) W
      ∗         levAts L lv
      ∗         cellInv ER (Rd m) κ0 (barCell c)
      ∗         atPos ER (barCell c) 0 ∅ 0
      ∗         cred (tallyAt (barCell c) () 7)
      ∗         cellInv ER (Rd m) (κb 1) (barCell (peer c 1))
      ∗         dutyTok ER (barCell (peer c 1)) 0 (1 : Fin 8)
      ∗         reached ER (barCell (peer c 1)) 0
      ∗         cellInv ER (Rd m) (κb 2) (barCell (peer c 2))
      ∗         dutyTok ER (barCell (peer c 2)) 0 (2 : Fin 8)
      ∗         reached ER (barCell (peer c 2)) 0
      ∗         cellInv ER (Rd m) (κb 3) (barCell (peer c 3))
      ∗         dutyTok ER (barCell (peer c 3)) 0 (3 : Fin 8)
      ∗         reached ER (barCell (peer c 3)) 0
      ∗         cellInv ER (Rd m) (κb 4) (barCell (peer c 4))
      ∗         dutyTok ER (barCell (peer c 4)) 0 (4 : Fin 8)
      ∗         reached ER (barCell (peer c 4)) 0
      ∗         cellInv ER (Rd m) (κb 5) (barCell (peer c 5))
      ∗         dutyTok ER (barCell (peer c 5)) 0 (5 : Fin 8)
      ∗         reached ER (barCell (peer c 5)) 0
      ∗         cellInv ER (Rd m) (κb 6) (barCell (peer c 6))
      ∗         dutyTok ER (barCell (peer c 6)) 0 (6 : Fin 8)
      ∗         reached ER (barCell (peer c 6)) 0
      ∗         cellInv ER (Rd m) (κb 7) (barCell (peer c 7))
      ∗         dutyTok ER (barCell (peer c 7)) 0 (7 : Fin 8)
      ∗         reached ER (barCell (peer c 7)) 0
      ∗         cellInv ER (Rd m) (κs 0) (sendCell c 0)
      ∗         atPos ER (sendCell c 0) 0 ∅ 0
      ∗         dutyTok ER (sendCell c 0) 0 (0 : Fin 8)
      ∗         reached ER (sendCell c 0) 0
      ∗         cellInv ER (Rd m) (κro 1) (recvCell (peer c 1) c)
      ∗         dutyTok ER (recvCell (peer c 1) c) 0 (0 : Fin 8)
      ∗         reached ER (recvCell (peer c 1) c) 0
      ∗         cellInv ER (Rd m) (κri 1) (recvCell c (peer c 1))
      ∗         atPos ER (recvCell c (peer c 1)) 0 ∅ 0
      ∗         cred (tallyAt (recvCell c (peer c 1)) () N)
      ∗         cellInv ER (Rd m) (κs 1) (sendCell c 1)
      ∗         atPos ER (sendCell c 1) 0 ∅ 0
      ∗         dutyTok ER (sendCell c 1) 0 (0 : Fin 8)
      ∗         reached ER (sendCell c 1) 0
      ∗         cellInv ER (Rd m) (κro 2) (recvCell (peer c 2) c)
      ∗         dutyTok ER (recvCell (peer c 2) c) 0 (0 : Fin 8)
      ∗         reached ER (recvCell (peer c 2) c) 0
      ∗         cellInv ER (Rd m) (κri 2) (recvCell c (peer c 2))
      ∗         atPos ER (recvCell c (peer c 2)) 0 ∅ 0
      ∗         cred (tallyAt (recvCell c (peer c 2)) () N)
      ∗         cellInv ER (Rd m) (κs 2) (sendCell c 2)
      ∗         atPos ER (sendCell c 2) 0 ∅ 0
      ∗         dutyTok ER (sendCell c 2) 0 (0 : Fin 8)
      ∗         reached ER (sendCell c 2) 0
      ∗         cellInv ER (Rd m) (κro 3) (recvCell (peer c 3) c)
      ∗         dutyTok ER (recvCell (peer c 3) c) 0 (0 : Fin 8)
      ∗         reached ER (recvCell (peer c 3) c) 0
      ∗         cellInv ER (Rd m) (κri 3) (recvCell c (peer c 3))
      ∗         atPos ER (recvCell c (peer c 3)) 0 ∅ 0
      ∗         cred (tallyAt (recvCell c (peer c 3)) () N)
      ∗         cellInv ER (Rd m) (κs 3) (sendCell c 3)
      ∗         atPos ER (sendCell c 3) 0 ∅ 0
      ∗         dutyTok ER (sendCell c 3) 0 (0 : Fin 8)
      ∗         reached ER (sendCell c 3) 0
      ∗         cellInv ER (Rd m) (κro 4) (recvCell (peer c 4) c)
      ∗         dutyTok ER (recvCell (peer c 4) c) 0 (0 : Fin 8)
      ∗         reached ER (recvCell (peer c 4) c) 0
      ∗         cellInv ER (Rd m) (κri 4) (recvCell c (peer c 4))
      ∗         atPos ER (recvCell c (peer c 4)) 0 ∅ 0
      ∗         cred (tallyAt (recvCell c (peer c 4)) () N)
      ∗         cellInv ER (Rd m) (κs 4) (sendCell c 4)
      ∗         atPos ER (sendCell c 4) 0 ∅ 0
      ∗         dutyTok ER (sendCell c 4) 0 (0 : Fin 8)
      ∗         reached ER (sendCell c 4) 0
      ∗         cellInv ER (Rd m) (κro 5) (recvCell (peer c 5) c)
      ∗         dutyTok ER (recvCell (peer c 5) c) 0 (0 : Fin 8)
      ∗         reached ER (recvCell (peer c 5) c) 0
      ∗         cellInv ER (Rd m) (κri 5) (recvCell c (peer c 5))
      ∗         atPos ER (recvCell c (peer c 5)) 0 ∅ 0
      ∗         cred (tallyAt (recvCell c (peer c 5)) () N)
      ∗         cellInv ER (Rd m) (κs 5) (sendCell c 5)
      ∗         atPos ER (sendCell c 5) 0 ∅ 0
      ∗         dutyTok ER (sendCell c 5) 0 (0 : Fin 8)
      ∗         reached ER (sendCell c 5) 0
      ∗         cellInv ER (Rd m) (κro 6) (recvCell (peer c 6) c)
      ∗         dutyTok ER (recvCell (peer c 6) c) 0 (0 : Fin 8)
      ∗         reached ER (recvCell (peer c 6) c) 0
      ∗         cellInv ER (Rd m) (κri 6) (recvCell c (peer c 6))
      ∗         atPos ER (recvCell c (peer c 6)) 0 ∅ 0
      ∗         cred (tallyAt (recvCell c (peer c 6)) () N)
      ∗         cellInv ER (Rd m) (κs 6) (sendCell c 6)
      ∗         atPos ER (sendCell c 6) 0 ∅ 0
      ∗         dutyTok ER (sendCell c 6) 0 (0 : Fin 8)
      ∗         reached ER (sendCell c 6) 0
      ∗         cellInv ER (Rd m) (κro 7) (recvCell (peer c 7) c)
      ∗         dutyTok ER (recvCell (peer c 7) c) 0 (0 : Fin 8)
      ∗         reached ER (recvCell (peer c 7) c) 0
      ∗         cellInv ER (Rd m) (κri 7) (recvCell c (peer c 7))
      ∗         atPos ER (recvCell c (peer c 7)) 0 ∅ 0
      ∗         cred (tallyAt (recvCell c (peer c 7)) () N))
      ⊢ wp frame (wpE (defs₀ (F := F)) 𝒱₀ (c : Thread nD τ) none) Set.univ
          (cc0_body (F := F) xM (Memref.isWhole_whole _) hM (Memref.isWhole_whole _) oM (Memref.isWhole_whole _)
            bM (Memref.isWhole_whole _) rM (Memref.isWhole_whole _) aM (Memref.isWhole_whole _) wM (Memref.isWhole_whole _)
            cc0_scratch4 cc0_scratch5 cc0_scratch6)
          (fun _ => iprop((xM.view.loc (c : Thread nD τ) ↦{fullShare} xstg m c)
              ∗ (oM.view.loc (c : Thread nD τ) ↦{fullShare} outAt m c)
              ∗ (∃ f, bM.view.loc (c : Thread nD τ) ↦{fullShare} f)
              ∗ (∃ f, rM.view.loc (c : Thread nD τ) ↦{fullShare} f)
              ∗ (∃ f, aM.view.loc (c : Thread nD τ) ↦{fullShare} f)
              ∗ (∃ f, wM.view.loc (c : Thread nD τ) ↦{fullShare} f)
              ∗ (hM.view.loc (c : Thread nD τ) ↦{fullShare} warr m c)
              ∗ semVal (sendCell c 0) 0
              ∗ semVal (sendCell c 1) 0
              ∗ semVal (sendCell c 2) 0
              ∗ semVal (sendCell c 3) 0
              ∗ semVal (sendCell c 4) 0
              ∗ semVal (sendCell c 5) 0
              ∗ semVal (sendCell c 6) 0
              ∗ semVal (recvCell c (peer c 1)) 0
              ∗ semVal (recvCell c (peer c 2)) 0
              ∗ semVal (recvCell c (peer c 3)) 0
              ∗ semVal (recvCell c (peer c 4)) 0
              ∗ semVal (recvCell c (peer c 5)) 0
              ∗ semVal (recvCell c (peer c 6)) 0
              ∗ semVal (recvCell c (peer c 7)) 0
              ∗ semVal ((c : Thread nD τ), SemLoc.dma (recvSem c)) 0
              ∗ semVal ((c : Thread nD τ), SemLoc.dma (wSem 0)) 0
              ∗ semVal ((c : Thread nD τ), SemLoc.dma (wSem 1)) 0
              ∗ (∃ W', owes (c : Thread nD τ) 0 W'))) :=
  run_body_of m (outAt m) (prefix_all m) (tail_run m)

/-- The library's body obligation on every device. -/
theorem body_obligation : ∀ c, BodyObligation (dats (F := F) m 0 c) (defs₀ (F := F)) 𝒱₀ () Set.univ :=
  body_obligation_of m (run_body m)

/-- info: 'Cert.Kernel.BodyProof.body_obligation' depends on axioms: [propext, Classical.choice, Quot.sound] -/
#guard_msgs in #print axioms body_obligation

end Cert.Kernel.BodyProof

end
-- ==== Proof.Spec.lean ====
/-
  The specification of the result, as ONE function of the whole argument arrays, and the algebra that joins
  the two programs to it. Nothing here mentions a program.

  For x of shape [4096, 4096] and w of shape [4096, 8192], entry (i, n) of the result is
      gelu (∑ k < 4096, x(i, k) · w(k, n)),
  where gelu y = (½ · y) · (1 + tanh (c₀ · (y + ((c₁ · y) · y) · y))) is the tanh approximation of GELU,
  c₀ the single-precision word nearest √(2/π) and c₁ the one nearest 0.044715. Everything is read at the
  extended reals: a product, a sum and tanh are the exact ones, and the four constants stay the words they
  are printed as (the same word stands on both sides of every equation below, so none is ever evaluated).

  Two laws are proved.
  • The contraction over 4096 indices is the sum of its eight blocks of 512 consecutive indices, the blocks
    taken in ANY order (a bijection of the eight block numbers) and added one after another from the left.
    Only commutativity and associativity of + are used, which hold on all of the extended reals, so no
    finiteness of the entries is needed.
  • The cube inside gelu may be grouped as c₁ · ((y · y) · y) instead of ((c₁ · y) · y) · y: associativity
    of · on the extended reals, again with no finiteness.
-/
import Idealize.ShloMosaic.PureOps.Ideal
import Idealize.ShloMosaic.Lib.ValueIdx
import Mathlib.Algebra.BigOperators.Fin
import Mathlib.Algebra.BigOperators.Group.Finset.Defs
import Mathlib.Data.Fintype.BigOperators
import Mathlib.Logic.Equiv.Fin.Basic

noncomputable section

open scoped BigOperators

namespace Cert.Spec

open Idealize.ShloMosaic

/-! ## Shapes -/

abbrev S4096x4096 : Shape := ⟨2, ![4096, 4096]⟩
abbrev S4096x8192 : Shape := ⟨2, ![4096, 8192]⟩
abbrev S4096x512 : Shape := ⟨2, ![4096, 512]⟩
abbrev S512x8192 : Shape := ⟨2, ![512, 8192]⟩

/-! ## The activation -/

/-- The tanh approximation of GELU at one extended real, grouped as
    (½ · y) · (1 + tanh (c₀ · (y + ((c₁ · y) · y) · y))). -/
def gelu (y : EReal) : EReal :=
  ((Ideal.ofBits .f32 0x3F000000#32 : EReal) * y)
    * ((Ideal.ofBits .f32 0x3F800000#32 : EReal)
        + Ideal.tanh ((Ideal.ofBits .f32 0x3F4C422A#32 : EReal)
            * (y + (((Ideal.ofBits .f32 0x3D372713#32 : EReal) * y) * y) * y)))

/-- The same activation written over whole vectors with the pointwise operations, read at one index: each
    pointwise operation reads its operands at that index, and a broadcast scalar reads itself. -/
theorem gelu_pointwise {s : Shape} (y : FVec Ideal s .f32) (i : s.Idx) :
    mulf (mulf (broadcast s (Scalar.ofBits (F := Ideal) .f32 0x3F000000#32)) y)
        (addf (broadcast s (Scalar.ofBits (F := Ideal) .f32 0x3F800000#32))
          (tanh (mulf (broadcast s (Scalar.ofBits (F := Ideal) .f32 0x3F4C422A#32))
            (addf y (mulf (mulf (mulf (broadcast s (Scalar.ofBits (F := Ideal) .f32 0x3D372713#32)) y) y) y))))) i
      = gelu (y i) := rfl

/-- The cube grouped the other way, c₁ · ((y · y) · y): the same value, by associativity of the product. -/
theorem gelu_ref_eq (y : EReal) :
    ((Ideal.ofBits .f32 0x3F000000#32 : EReal) * y)
      * ((Ideal.ofBits .f32 0x3F800000#32 : EReal)
          + Ideal.tanh ((Ideal.ofBits .f32 0x3F4C422A#32 : EReal)
              * (y + (Ideal.ofBits .f32 0x3D372713#32 : EReal) * ((y * y) * y))))
      = gelu y := by
  unfold gelu
  rw [mul_assoc (Ideal.ofBits .f32 0x3D372713#32 : EReal) y y,
    mul_assoc (Ideal.ofBits .f32 0x3D372713#32 : EReal) (y * y) y]

/-! ## The result -/

/-- Entry (i, n) of the result: the activation of row i of `X` against column n of `Wm`. -/
def G (X : S4096x4096.Idx → EReal) (Wm : S4096x8192.Idx → EReal) : S4096x8192.Idx → EReal :=
  fun i => gelu (∑ k : Fin 4096, X (ValueIdx.ix2 (i 0) k) * Wm (ValueIdx.ix2 k (i 1)))

/-- The result at an index given by its two coordinates. -/
theorem G_apply (X : S4096x4096.Idx → EReal) (Wm : S4096x8192.Idx → EReal) (r : Fin 4096) (n : Fin 8192) :
    G X Wm (ValueIdx.ix2 r n) = gelu (∑ k : Fin 4096, X (ValueIdx.ix2 r k) * Wm (ValueIdx.ix2 k n)) := rfl

/-! ## The contraction by blocks -/

/-- The part of a sum over 4096 indices that lies in block `b` of eight: indices b · 512, …, b · 512 + 511. -/
def blockSum (f : Fin 4096 → EReal) (b : Fin 8) : EReal :=
  ∑ kk : Fin 512, f ⟨b.val * 512 + kk.val, by have := b.isLt; have := kk.isLt; omega⟩

/-- A sum over 4096 indices is the sum of its eight blocks: every index is b · 512 + kk for exactly one
    block b and one place kk in it. -/
theorem sum_eq_sum_blockSum (f : Fin 4096 → EReal) : ∑ k : Fin 4096, f k = ∑ b : Fin 8, blockSum f b :=
  calc ∑ k : Fin 4096, f k
      = ∑ p : Fin 8 × Fin 512, f ((finProdFinEquiv : Fin 8 × Fin 512 ≃ Fin 4096) p) :=
        (Equiv.sum_comp (finProdFinEquiv : Fin 8 × Fin 512 ≃ Fin 4096) f).symm
    _ = ∑ b : Fin 8, ∑ kk : Fin 512, f ((finProdFinEquiv : Fin 8 × Fin 512 ≃ Fin 4096) (b, kk)) :=
        Fintype.sum_prod_type _
    _ = ∑ b : Fin 8, blockSum f b :=
        Finset.sum_congr rfl fun b _ => Finset.sum_congr rfl fun kk _ => congrArg f (Fin.ext (by
          show kk.val + 512 * b.val = b.val * 512 + kk.val
          omega))

/-- The blocks may be taken in any order `σ` and added one after another from the left. -/
theorem blocks_sum (f : Fin 4096 → EReal) (σ : Fin 8 → Fin 8) (hσ : Function.Bijective σ) :
    ∑ k : Fin 4096, f k =
      blockSum f (σ 0) + blockSum f (σ 1) + blockSum f (σ 2) + blockSum f (σ 3)
        + blockSum f (σ 4) + blockSum f (σ 5) + blockSum f (σ 6) + blockSum f (σ 7) :=
  calc ∑ k : Fin 4096, f k
      = ∑ b : Fin 8, blockSum f b := sum_eq_sum_blockSum f
    _ = ∑ t : Fin 8, blockSum f ((Equiv.ofBijective σ hσ) t) :=
        (Equiv.sum_comp (Equiv.ofBijective σ hσ) (blockSum f)).symm
    _ = _ := Fin.sum_univ_eight _

/-- info: 'Cert.Spec.blocks_sum' depends on axioms: [propext, Classical.choice, Quot.sound] -/
#guard_msgs in #print axioms blocks_sum
/-- info: 'Cert.Spec.gelu_ref_eq' depends on axioms: [propext, Classical.choice, Quot.sound] -/
#guard_msgs in #print axioms gelu_ref_eq

end Cert.Spec

end
-- ==== Proof.PayAt.lean ====
/- The body's arithmetic read at an index. Each payload of the idealized kernel is one of four kinds:
   a change of format with a change of view (the identity on the values, re-indexed), a 512 x 512 by
   512 x 4096 matrix product into a zero accumulator, such a product added to what the output half
   already holds, and the tanh form of GELU applied elementwise. At the ideal instance every one of them,
   read at row p and column q, is an expression over the extended reals in the operands' entries. -/
import proofs.«900487_g7700000000000488_dist_a2a_gemm_m4096_k4096_n8192_f32_gelu_v7x_i8_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«900487_g7700000000000488_dist_a2a_gemm_m4096_k4096_n8192_f32_gelu_v7x_i8_1_alg».proof.Proof.Spec

noncomputable section

namespace Cert.KernelIdeal.PayAt

open Idealize.ShloMosaic Idealize.ShloMosaic.ValueIdx Cert.KernelIdeal Cert.KernelIdeal.Gen

/-! ## Changes of format and of view -/

/-- The cast of the whole 4096 x 512 shard to the narrow format keeps every entry. -/
theorem pay1_eq (v : Vec Ideal S4096x512 .f32) : k0_pay1 (F := Ideal) v = v := by
  unfold k0_pay1
  simp only [shapeCast_self]
  rfl

theorem pay1_apply (v : Vec Ideal S4096x512 .f32) (p : Fin 4096) (q : Fin 512) :
    k0_pay1 (F := Ideal) v (ix2 p q) = v (ix2 p q) := by
  rw [pay1_eq]

/-- The device's own 512 x 512 block widened back: every entry kept. -/
theorem pay2_eq (v : Vec Ideal S512x512 .bf16) : k0_pay2 (F := Ideal) v = v := by
  unfold k0_pay2
  simp only [shapeCast_self]
  rfl

theorem pay2_apply (v : Vec Ideal S512x512 .bf16) (p q : Fin 512) :
    k0_pay2 (F := Ideal) v (ix2 p q) = v (ix2 p q) := by
  rw [pay2_eq]

/-- A received 1 x 512 x 512 slot viewed as a matrix and widened: entry (p, q) is the slot's (0, p, q). -/
theorem slot_apply (v : Vec Ideal S1x512x512 .bf16) (h : S1x512x512.ShapeCasts S512x512) (hb : FTy.bits .bf16 < FTy.bits .f32)
    (p q : Fin 512) :
    (extf .f32 (shapeCast S512x512 v h : FVec Ideal S512x512 .bf16) hb : FVec Ideal S512x512 .f32) (ix2 p q) = v (ix3 (0 : Fin 1) p q) := by
  rw [extf_apply]
  exact shapeCast_1ab_ab_apply v h p q

/-- A weight block held as 1 x 512 x 4096 viewed as a matrix: entry (p, q) is the block's (0, p, q). -/
theorem wview_apply (v : Vec Ideal S1x512x4096 .f32) (h : S1x512x4096.ShapeCasts S512x4096) (p : Fin 512) (q : Fin 4096) :
    (shapeCast S512x4096 v h : FVec Ideal S512x4096 .f32) (ix2 p q) = v (ix3 (0 : Fin 1) p q) :=
  shapeCast_1ab_ab_apply v h p q

theorem pay5_apply (v : Vec Ideal S1x512x512 .bf16) (p q : Fin 512) :
    k0_pay5 (F := Ideal) v (ix2 p q) = v (ix3 (0 : Fin 1) p q) := by
  unfold k0_pay5
  simp only [shapeCast_self]
  exact slot_apply v _ _ p q

theorem pay8_apply (v : Vec Ideal S1x512x512 .bf16) (p q : Fin 512) :
    k0_pay8 (F := Ideal) v (ix2 p q) = v (ix3 (0 : Fin 1) p q) := by
  unfold k0_pay8
  simp only [shapeCast_self]
  exact slot_apply v _ _ p q

theorem pay11_apply (v : Vec Ideal S1x512x512 .bf16) (p q : Fin 512) :
    k0_pay11 (F := Ideal) v (ix2 p q) = v (ix3 (0 : Fin 1) p q) := by
  unfold k0_pay11
  simp only [shapeCast_self]
  exact slot_apply v _ _ p q

theorem pay14_apply (v : Vec Ideal S1x512x512 .bf16) (p q : Fin 512) :
    k0_pay14 (F := Ideal) v (ix2 p q) = v (ix3 (0 : Fin 1) p q) := by
  unfold k0_pay14
  simp only [shapeCast_self]
  exact slot_apply v _ _ p q

/-- The same widening in two steps: first the view and the format … -/
theorem pay17_apply (v : Vec Ideal S1x512x512 .bf16) (p q : Fin 512) :
    k0_pay17 (F := Ideal) v (ix2 p q) = v (ix3 (0 : Fin 1) p q) :=
  slot_apply v _ _ p q

/-- … then a view onto the same shape, which changes nothing. -/
theorem pay18_eq (v : FVec Ideal S512x512 .f32) : k0_pay18 (F := Ideal) v = v := by
  unfold k0_pay18
  simp only [shapeCast_self]

theorem pay18_apply (v : FVec Ideal S512x512 .f32) (p q : Fin 512) :
    k0_pay18 (F := Ideal) v (ix2 p q) = v (ix2 p q) := by
  rw [pay18_eq]

theorem pay22_apply (v : Vec Ideal S1x512x512 .bf16) (p q : Fin 512) :
    k0_pay22 (F := Ideal) v (ix2 p q) = v (ix3 (0 : Fin 1) p q) :=
  slot_apply v _ _ p q

theorem pay23_eq (v : FVec Ideal S512x512 .f32) : k0_pay23 (F := Ideal) v = v := by
  unfold k0_pay23
  simp only [shapeCast_self]

theorem pay23_apply (v : FVec Ideal S512x512 .f32) (p q : Fin 512) :
    k0_pay23 (F := Ideal) v (ix2 p q) = v (ix2 p q) := by
  rw [pay23_eq]

theorem pay27_apply (v : Vec Ideal S1x512x512 .bf16) (p q : Fin 512) :
    k0_pay27 (F := Ideal) v (ix2 p q) = v (ix3 (0 : Fin 1) p q) :=
  slot_apply v _ _ p q

theorem pay28_eq (v : FVec Ideal S512x512 .f32) : k0_pay28 (F := Ideal) v = v := by
  unfold k0_pay28
  simp only [shapeCast_self]

theorem pay28_apply (v : FVec Ideal S512x512 .f32) (p q : Fin 512) :
    k0_pay28 (F := Ideal) v (ix2 p q) = v (ix2 p q) := by
  rw [pay28_eq]

/-- The two-step widenings composed: entry (p, q) is the slot's (0, p, q). -/
theorem pay18_pay17_apply (v : Vec Ideal S1x512x512 .bf16) (p q : Fin 512) :
    k0_pay18 (F := Ideal) (k0_pay17 (F := Ideal) v) (ix2 p q) = v (ix3 (0 : Fin 1) p q) := by
  rw [pay18_eq, pay17_apply]

theorem pay23_pay22_apply (v : Vec Ideal S1x512x512 .bf16) (p q : Fin 512) :
    k0_pay23 (F := Ideal) (k0_pay22 (F := Ideal) v) (ix2 p q) = v (ix3 (0 : Fin 1) p q) := by
  rw [pay23_eq, pay22_apply]

theorem pay28_pay27_apply (v : Vec Ideal S1x512x512 .bf16) (p q : Fin 512) :
    k0_pay28 (F := Ideal) (k0_pay27 (F := Ideal) v) (ix2 p q) = v (ix3 (0 : Fin 1) p q) := by
  rw [pay28_eq, pay27_apply]

/-- A weight block viewed as a matrix, as a payload of its own. -/
theorem pay20_apply (v : Vec Ideal S1x512x4096 .f32) (p : Fin 512) (q : Fin 4096) :
    k0_pay20 (F := Ideal) v (ix2 p q) = v (ix3 (0 : Fin 1) p q) :=
  wview_apply v _ p q

/-! ## The 512 x 512 by 512 x 4096 product

The contraction runs over ONE axis: axis 1 of the left operand against axis 0 of the right. At result
index (p, q) and contraction position k the left operand is read at (p, k) and the right at (k, q). -/

theorem lhs_mm_0 (i : S512x4096.Idx) (k : dot_S512x512_S512x4096_S512x4096_1_0_0_1_n_n.contr.Idx) :
    (dot_S512x512_S512x4096_S512x4096_1_0_0_1_n_n.lhsIdx i k 0).val = (i 0).val := by
  unfold DotDims.lhsIdx
  rw [dif_neg (show ¬(0 : Fin S512x512.rank) ∈ dot_S512x512_S512x4096_S512x4096_1_0_0_1_n_n.lhsBatch by decide), dif_pos (show (0 : Fin S512x512.rank) ∈ dot_S512x512_S512x4096_S512x4096_1_0_0_1_n_n.lhsNonContracting by decide)]
  rfl

theorem lhs_mm_1 (i : S512x4096.Idx) (k : dot_S512x512_S512x4096_S512x4096_1_0_0_1_n_n.contr.Idx) :
    (dot_S512x512_S512x4096_S512x4096_1_0_0_1_n_n.lhsIdx i k 1).val = (k ⟨0, by decide⟩).val :=
  dot_S512x512_S512x4096_S512x4096_1_0_0_1_n_n.lhsIdx_val_of_single rfl i k

theorem rhs_mm_0 (i : S512x4096.Idx) (k : dot_S512x512_S512x4096_S512x4096_1_0_0_1_n_n.contr.Idx) :
    (dot_S512x512_S512x4096_S512x4096_1_0_0_1_n_n.rhsIdx i k 0).val = (k ⟨0, by decide⟩).val :=
  dot_S512x512_S512x4096_S512x4096_1_0_0_1_n_n.rhsIdx_val_of_single rfl i k

theorem rhs_mm_1 (i : S512x4096.Idx) (k : dot_S512x512_S512x4096_S512x4096_1_0_0_1_n_n.contr.Idx) :
    (dot_S512x512_S512x4096_S512x4096_1_0_0_1_n_n.rhsIdx i k 1).val = (i 1).val := by
  unfold DotDims.rhsIdx
  rw [dif_neg (show ¬(1 : Fin S512x4096.rank) ∈ dot_S512x512_S512x4096_S512x4096_1_0_0_1_n_n.rhsBatch by decide), dif_pos (show (1 : Fin S512x4096.rank) ∈ dot_S512x512_S512x4096_S512x4096_1_0_0_1_n_n.rhsNonContracting by decide)]
  rfl

/-- The contraction's sum, re-indexed over the 512 positions of the shared axis. -/
theorem contr_sum (a : FVec Ideal S512x512 .f32) (b : FVec Ideal S512x4096 .f32) (p : Fin 512) (q : Fin 4096) :
    ∑ k : dot_S512x512_S512x4096_S512x4096_1_0_0_1_n_n.contr.Idx, a (dot_S512x512_S512x4096_S512x4096_1_0_0_1_n_n.lhsIdx (ix2 p q) k) * b (dot_S512x512_S512x4096_S512x4096_1_0_0_1_n_n.rhsIdx (ix2 p q) k)
      = ∑ kk : Fin 512, a (ix2 p kk) * b (ix2 kk q) := by
  rw [← Equiv.sum_comp (contrEquiv1 dot_S512x512_S512x4096_S512x4096_1_0_0_1_n_n 512 rfl rfl).symm]
  refine Finset.sum_congr rfl fun kk _ => ?_
  have hk := contrEquiv1_symm_val dot_S512x512_S512x4096_S512x4096_1_0_0_1_n_n 512 rfl rfl kk
  have el : dot_S512x512_S512x4096_S512x4096_1_0_0_1_n_n.lhsIdx (ix2 p q) ((contrEquiv1 dot_S512x512_S512x4096_S512x4096_1_0_0_1_n_n 512 rfl rfl).symm kk) = ix2 p kk := funext fun ax => Fin.ext (by
    match ax with
    | ⟨0, _⟩ => exact lhs_mm_0 _ _
    | ⟨1, _⟩ => exact (lhs_mm_1 _ _).trans hk)
  have er : dot_S512x512_S512x4096_S512x4096_1_0_0_1_n_n.rhsIdx (ix2 p q) ((contrEquiv1 dot_S512x512_S512x4096_S512x4096_1_0_0_1_n_n 512 rfl rfl).symm kk) = ix2 kk q := funext fun ax => Fin.ext (by
    match ax with
    | ⟨0, _⟩ => exact (rhs_mm_0 _ _).trans hk
    | ⟨1, _⟩ => exact rhs_mm_1 _ _)
  rw [el, er]

/-- The product onto any accumulator, read at (p, q). -/
theorem mm_apply (a : FVec Ideal S512x512 .f32) (b : FVec Ideal S512x4096 .f32) (z : FVec Ideal S512x4096 .f32)
    (p : Fin 512) (q : Fin 4096) :
    matmul (F := Ideal) (φ₁ := .f32) (φ₂ := .f32) dot_S512x512_S512x4096_S512x4096_1_0_0_1_n_n none a b z (ix2 p q)
      = z (ix2 p q) + ∑ kk : Fin 512, a (ix2 p kk) * b (ix2 kk q) := by
  simp only [matmul]
  rw [Ideal.matmul_apply, contr_sum]

/-- The product onto the zero accumulator, read at (p, q): just the sum. -/
theorem mm0_apply (a : FVec Ideal S512x512 .f32) (b : FVec Ideal S512x4096 .f32) (p : Fin 512) (q : Fin 4096) :
    matmul (F := Ideal) (φ₁ := .f32) (φ₂ := .f32) dot_S512x512_S512x4096_S512x4096_1_0_0_1_n_n none a b (constant (F := Ideal) S512x4096 .f32 0x00000000#32) (ix2 p q)
      = ∑ kk : Fin 512, a (ix2 p kk) * b (ix2 kk q) := by
  simp only [matmul]
  rw [Ideal.matmul_constant_zero_apply, contr_sum]

/-- The product of an operand block with a weight block held as 1 x 512 x 4096, onto zero. -/
theorem mmw_apply (a : FVec Ideal S512x512 .f32) (w : Vec Ideal S1x512x4096 .f32) (h : S1x512x4096.ShapeCasts S512x4096)
    (p : Fin 512) (q : Fin 4096) :
    matmul (F := Ideal) (φ₁ := .f32) (φ₂ := .f32) dot_S512x512_S512x4096_S512x4096_1_0_0_1_n_n none a (shapeCast S512x4096 w h : FVec Ideal S512x4096 .f32) (constant (F := Ideal) S512x4096 .f32 0x00000000#32) (ix2 p q)
      = ∑ kk : Fin 512, a (ix2 p kk) * w (ix3 (0 : Fin 1) kk q) := by
  rw [mm0_apply]
  exact Finset.sum_congr rfl fun kk _ => by rw [wview_apply]

theorem pay3_apply (a : Vec Ideal S512x512 .f32) (w : Vec Ideal S1x512x4096 .f32) (p : Fin 512) (q : Fin 4096) :
    k0_pay3 (F := Ideal) a w (ix2 p q) = ∑ kk : Fin 512, a (ix2 p kk) * w (ix3 (0 : Fin 1) kk q) :=
  mmw_apply a w _ p q

theorem pay4_apply (a : Vec Ideal S512x512 .f32) (w : Vec Ideal S1x512x4096 .f32) (p : Fin 512) (q : Fin 4096) :
    k0_pay4 (F := Ideal) a w (ix2 p q) = ∑ kk : Fin 512, a (ix2 p kk) * w (ix3 (0 : Fin 1) kk q) :=
  mmw_apply a w _ p q

theorem pay25_apply (a : Vec Ideal S512x512 .f32) (w : Vec Ideal S1x512x4096 .f32) (p : Fin 512) (q : Fin 4096) :
    k0_pay25 (F := Ideal) a w (ix2 p q) = ∑ kk : Fin 512, a (ix2 p kk) * w (ix3 (0 : Fin 1) kk q) :=
  mmw_apply a w _ p q

/-! ## A product added to what the output half holds -/

/-- The accumulated half read back through a view onto its own shape, plus the product onto zero. -/
theorem acc_apply (a : FVec Ideal S512x512 .f32) (w : Vec Ideal S1x512x4096 .f32) (acc : Vec Ideal S512x4096 .f32)
    (h : S1x512x4096.ShapeCasts S512x4096) (h' : S512x4096.ShapeCasts S512x4096) (p : Fin 512) (q : Fin 4096) :
    addf (F := Ideal) (shapeCast S512x4096 acc h' : FVec Ideal S512x4096 .f32)
        (matmul (F := Ideal) (φ₁ := .f32) (φ₂ := .f32) dot_S512x512_S512x4096_S512x4096_1_0_0_1_n_n none a (shapeCast S512x4096 w h : FVec Ideal S512x4096 .f32) (constant (F := Ideal) S512x4096 .f32 0x00000000#32)) (ix2 p q)
      = acc (ix2 p q) + ∑ kk : Fin 512, a (ix2 p kk) * w (ix3 (0 : Fin 1) kk q) := by
  rw [addf_apply, mmw_apply, shapeCast_self]

theorem pay6_apply (a : Vec Ideal S512x512 .f32) (w : Vec Ideal S1x512x4096 .f32) (acc : Vec Ideal S512x4096 .f32)
    (p : Fin 512) (q : Fin 4096) :
    k0_pay6 (F := Ideal) a w acc (ix2 p q) = acc (ix2 p q) + ∑ kk : Fin 512, a (ix2 p kk) * w (ix3 (0 : Fin 1) kk q) :=
  acc_apply a w acc _ _ p q

theorem pay7_apply (a : Vec Ideal S512x512 .f32) (w : Vec Ideal S1x512x4096 .f32) (acc : Vec Ideal S512x4096 .f32)
    (p : Fin 512) (q : Fin 4096) :
    k0_pay7 (F := Ideal) a w acc (ix2 p q) = acc (ix2 p q) + ∑ kk : Fin 512, a (ix2 p kk) * w (ix3 (0 : Fin 1) kk q) :=
  acc_apply a w acc _ _ p q

theorem pay9_apply (a : Vec Ideal S512x512 .f32) (w : Vec Ideal S1x512x4096 .f32) (acc : Vec Ideal S512x4096 .f32)
    (p : Fin 512) (q : Fin 4096) :
    k0_pay9 (F := Ideal) a w acc (ix2 p q) = acc (ix2 p q) + ∑ kk : Fin 512, a (ix2 p kk) * w (ix3 (0 : Fin 1) kk q) :=
  acc_apply a w acc _ _ p q

theorem pay10_apply (a : Vec Ideal S512x512 .f32) (w : Vec Ideal S1x512x4096 .f32) (acc : Vec Ideal S512x4096 .f32)
    (p : Fin 512) (q : Fin 4096) :
    k0_pay10 (F := Ideal) a w acc (ix2 p q) = acc (ix2 p q) + ∑ kk : Fin 512, a (ix2 p kk) * w (ix3 (0 : Fin 1) kk q) :=
  acc_apply a w acc _ _ p q

theorem pay12_apply (a : Vec Ideal S512x512 .f32) (w : Vec Ideal S1x512x4096 .f32) (acc : Vec Ideal S512x4096 .f32)
    (p : Fin 512) (q : Fin 4096) :
    k0_pay12 (F := Ideal) a w acc (ix2 p q) = acc (ix2 p q) + ∑ kk : Fin 512, a (ix2 p kk) * w (ix3 (0 : Fin 1) kk q) :=
  acc_apply a w acc _ _ p q

theorem pay13_apply (a : Vec Ideal S512x512 .f32) (w : Vec Ideal S1x512x4096 .f32) (acc : Vec Ideal S512x4096 .f32)
    (p : Fin 512) (q : Fin 4096) :
    k0_pay13 (F := Ideal) a w acc (ix2 p q) = acc (ix2 p q) + ∑ kk : Fin 512, a (ix2 p kk) * w (ix3 (0 : Fin 1) kk q) :=
  acc_apply a w acc _ _ p q

theorem pay15_apply (a : Vec Ideal S512x512 .f32) (w : Vec Ideal S1x512x4096 .f32) (acc : Vec Ideal S512x4096 .f32)
    (p : Fin 512) (q : Fin 4096) :
    k0_pay15 (F := Ideal) a w acc (ix2 p q) = acc (ix2 p q) + ∑ kk : Fin 512, a (ix2 p kk) * w (ix3 (0 : Fin 1) kk q) :=
  acc_apply a w acc _ _ p q

theorem pay16_apply (a : Vec Ideal S512x512 .f32) (w : Vec Ideal S1x512x4096 .f32) (acc : Vec Ideal S512x4096 .f32)
    (p : Fin 512) (q : Fin 4096) :
    k0_pay16 (F := Ideal) a w acc (ix2 p q) = acc (ix2 p q) + ∑ kk : Fin 512, a (ix2 p kk) * w (ix3 (0 : Fin 1) kk q) :=
  acc_apply a w acc _ _ p q

theorem pay19_apply (a : Vec Ideal S512x512 .f32) (w : Vec Ideal S1x512x4096 .f32) (acc : Vec Ideal S512x4096 .f32)
    (p : Fin 512) (q : Fin 4096) :
    k0_pay19 (F := Ideal) a w acc (ix2 p q) = acc (ix2 p q) + ∑ kk : Fin 512, a (ix2 p kk) * w (ix3 (0 : Fin 1) kk q) :=
  acc_apply a w acc _ _ p q

theorem pay24_apply (a : Vec Ideal S512x512 .f32) (w : Vec Ideal S1x512x4096 .f32) (acc : Vec Ideal S512x4096 .f32)
    (p : Fin 512) (q : Fin 4096) :
    k0_pay24 (F := Ideal) a w acc (ix2 p q) = acc (ix2 p q) + ∑ kk : Fin 512, a (ix2 p kk) * w (ix3 (0 : Fin 1) kk q) :=
  acc_apply a w acc _ _ p q

theorem pay29_apply (a : Vec Ideal S512x512 .f32) (w : Vec Ideal S1x512x4096 .f32) (acc : Vec Ideal S512x4096 .f32)
    (p : Fin 512) (q : Fin 4096) :
    k0_pay29 (F := Ideal) a w acc (ix2 p q) = acc (ix2 p q) + ∑ kk : Fin 512, a (ix2 p kk) * w (ix3 (0 : Fin 1) kk q) :=
  acc_apply a w acc _ _ p q

theorem pay31_apply (a : Vec Ideal S512x512 .f32) (w : Vec Ideal S1x512x4096 .f32) (acc : Vec Ideal S512x4096 .f32)
    (p : Fin 512) (q : Fin 4096) :
    k0_pay31 (F := Ideal) a w acc (ix2 p q) = acc (ix2 p q) + ∑ kk : Fin 512, a (ix2 p kk) * w (ix3 (0 : Fin 1) kk q) :=
  acc_apply a w acc _ _ p q

/-- The same with the weight block already viewed as a matrix and the accumulator of the product passed in. -/
theorem pay21_apply (a : Vec Ideal S512x512 .f32) (b : FVec Ideal S512x4096 .f32) (z : FVec Ideal S512x4096 .f32)
    (acc : Vec Ideal S512x4096 .f32) (p : Fin 512) (q : Fin 4096) :
    k0_pay21 (F := Ideal) a b z acc (ix2 p q)
      = acc (ix2 p q) + (z (ix2 p q) + ∑ kk : Fin 512, a (ix2 p kk) * b (ix2 kk q)) := by
  unfold k0_pay21
  simp only [shapeCast_self]
  rw [addf_apply, mm_apply]

/-- … at the zero accumulator and the viewed weight block the body passes. -/
theorem pay21_pay20_apply (a : Vec Ideal S512x512 .f32) (w : Vec Ideal S1x512x4096 .f32) (acc : Vec Ideal S512x4096 .f32)
    (p : Fin 512) (q : Fin 4096) :
    k0_pay21 (F := Ideal) a (k0_pay20 (F := Ideal) w) (constant (F := Ideal) S512x4096 .f32 0x00000000#32) acc (ix2 p q)
      = acc (ix2 p q) + ∑ kk : Fin 512, a (ix2 p kk) * w (ix3 (0 : Fin 1) kk q) := by
  rw [pay21_apply]
  have hz : (constant (F := Ideal) S512x4096 .f32 0x00000000#32) (ix2 p q) = (0 : EReal) := Ideal.ofBits_zero_f32
  rw [hz, zero_add]
  exact congrArg (acc (ix2 p q) + ·) (Finset.sum_congr rfl fun kk _ => by rw [pay20_apply])

/-- A ready product added to the accumulated half. -/
theorem pay26_apply (prod : FVec Ideal S512x4096 .f32) (acc : Vec Ideal S512x4096 .f32) (p : Fin 512) (q : Fin 4096) :
    k0_pay26 (F := Ideal) prod acc (ix2 p q) = acc (ix2 p q) + prod (ix2 p q) := by
  unfold k0_pay26
  simp only [shapeCast_self]
  rw [addf_apply]

theorem pay26_pay25_apply (a : Vec Ideal S512x512 .f32) (w : Vec Ideal S1x512x4096 .f32) (acc : Vec Ideal S512x4096 .f32)
    (p : Fin 512) (q : Fin 4096) :
    k0_pay26 (F := Ideal) (k0_pay25 (F := Ideal) a w) acc (ix2 p q)
      = acc (ix2 p q) + ∑ kk : Fin 512, a (ix2 p kk) * w (ix3 (0 : Fin 1) kk q) := by
  rw [pay26_apply, pay25_apply]

/-! ## The tanh form of GELU, elementwise -/

/- One element through the epilogue is the specification's activation `Cert.Spec.gelu`: half of y, times one plus the
   hyperbolic tangent of a cubic in y, the four constants the words the kernel spells. -/

theorem pay30_apply (y : Vec Ideal S512x4096 .f32) (p : Fin 512) (q : Fin 4096) :
    k0_pay30 (F := Ideal) y (ix2 p q) = Cert.Spec.gelu (y (ix2 p q)) := by
  unfold k0_pay30
  simp only [shapeCast_self]
  rfl

theorem pay32_apply (y : Vec Ideal S512x4096 .f32) (p : Fin 512) (q : Fin 4096) :
    k0_pay32 (F := Ideal) y (ix2 p q) = Cert.Spec.gelu (y (ix2 p q)) := by
  unfold k0_pay32
  simp only [shapeCast_self]
  rfl

/-! ## The two output halves, end to end

What each half of the output block ends as when the eight steps' operand blocks A0 … A7 and weight blocks W0 … W7
are threaded through the payloads in the order the body applies them: the eight partial products summed from the
left, then the epilogue. -/

/-- One partial product at (p, q). -/
def part (a : Vec Ideal S512x512 .f32) (w : Vec Ideal S1x512x4096 .f32) (p : Fin 512) (q : Fin 4096) : EReal :=
  ∑ kk : Fin 512, a (ix2 p kk) * w (ix3 (0 : Fin 1) kk q)

theorem half0_apply (A0 A1 A2 A3 A4 A5 A6 A7 : Vec Ideal S512x512 .f32) (W0 W1 W2 W3 W4 W5 W6 W7 : Vec Ideal S1x512x4096 .f32)
    (p : Fin 512) (q : Fin 4096) :
    k0_pay30 (F := Ideal) (k0_pay29 (F := Ideal) A7 W7 (k0_pay24 (F := Ideal) A6 W6 (k0_pay19 (F := Ideal) A5 W5
      (k0_pay15 (F := Ideal) A4 W4 (k0_pay12 (F := Ideal) A3 W3 (k0_pay9 (F := Ideal) A2 W2 (k0_pay6 (F := Ideal) A1 W1
        (k0_pay3 (F := Ideal) A0 W0)))))))) (ix2 p q)
      = Cert.Spec.gelu (((((((part A0 W0 p q + part A1 W1 p q) + part A2 W2 p q) + part A3 W3 p q) + part A4 W4 p q)
          + part A5 W5 p q) + part A6 W6 p q) + part A7 W7 p q) := by
  rw [pay30_apply, pay29_apply, pay24_apply, pay19_apply, pay15_apply, pay12_apply, pay9_apply, pay6_apply, pay3_apply]
  rfl

theorem half1_apply (A0 A1 A2 A3 A4 A5 A6 A7 : Vec Ideal S512x512 .f32) (W0 W1 W2 W3 W4 W5 W6 W7 : Vec Ideal S1x512x4096 .f32)
    (p : Fin 512) (q : Fin 4096) :
    k0_pay32 (F := Ideal) (k0_pay31 (F := Ideal) A7 W7 (k0_pay26 (F := Ideal) (k0_pay25 (F := Ideal) A6 W6)
      (k0_pay21 (F := Ideal) A5 (k0_pay20 (F := Ideal) W5) (constant (F := Ideal) S512x4096 .f32 0x00000000#32)
        (k0_pay16 (F := Ideal) A4 W4 (k0_pay13 (F := Ideal) A3 W3 (k0_pay10 (F := Ideal) A2 W2 (k0_pay7 (F := Ideal) A1 W1
          (k0_pay4 (F := Ideal) A0 W0)))))))) (ix2 p q)
      = Cert.Spec.gelu (((((((part A0 W0 p q + part A1 W1 p q) + part A2 W2 p q) + part A3 W3 p q) + part A4 W4 p q)
          + part A5 W5 p q) + part A6 W6 p q) + part A7 W7 p q) := by
  rw [pay32_apply, pay31_apply, pay26_pay25_apply, pay21_pay20_apply, pay16_apply, pay13_apply, pay10_apply, pay7_apply,
    pay4_apply]
  rfl

/-- info: 'Cert.KernelIdeal.PayAt.half0_apply' depends on axioms: [propext, Classical.choice, Quot.sound] -/
#guard_msgs in #print axioms half0_apply
/-- info: 'Cert.KernelIdeal.PayAt.half1_apply' depends on axioms: [propext, Classical.choice, Quot.sound] -/
#guard_msgs in #print axioms half1_apply
/-- info: 'Cert.KernelIdeal.PayAt.pay1_apply' depends on axioms: [propext, Classical.choice, Quot.sound] -/
#guard_msgs in #print axioms pay1_apply

end Cert.KernelIdeal.PayAt

end
-- ==== Proof.HalfSpec.lean ====
/- One entry of the output block against the specification. The body leaves, in each half of the output
   block, the activation of eight partial products added from the left in the device's own order of the eight
   blocks of the contraction; when the t-th operand block holds block σ t of row p of the left matrix and the
   t-th weight block holds block σ t of column q of the right one, for a bijection σ of the eight block
   numbers, that entry is the activation of the whole 4096-term contraction. The device's order of its
   partners is such a bijection. -/
import proofs.«900487_g7700000000000488_dist_a2a_gemm_m4096_k4096_n8192_f32_gelu_v7x_i8_1_alg».proof.Proof.PayAt
import proofs.«900487_g7700000000000488_dist_a2a_gemm_m4096_k4096_n8192_f32_gelu_v7x_i8_1_alg».proof.Proof.Spec
import proofs.«900487_g7700000000000488_dist_a2a_gemm_m4096_k4096_n8192_f32_gelu_v7x_i8_1_alg».proof.Proof.Devs

noncomputable section

namespace Cert.KernelIdeal.HalfSpec

open Idealize.ShloMosaic Idealize.ShloMosaic.ValueIdx Cert.KernelIdeal Cert.KernelIdeal.Gen Cert.KernelIdeal.PayAt

/-- Place kk of block b among the 4096 contraction indices: b · 512 + kk. -/
abbrev blkIx (b : Fin 8) (kk : Fin 512) : Fin 4096 :=
  ⟨b.val * 512 + kk.val, by have := b.isLt; have := kk.isLt; omega⟩

/-- A partial product whose operand block holds block b of a row x and whose weight block holds block b of a
    column w is block b of the contraction of x against w. -/
theorem part_eq_blockSum (x w : Fin 4096 → EReal) (b : Fin 8) (A : Vec Ideal S512x512 .f32) (W : Vec Ideal S1x512x4096 .f32)
    (p : Fin 512) (q : Fin 4096)
    (hA : ∀ kk : Fin 512, A (ix2 p kk) = x (blkIx b kk))
    (hW : ∀ kk : Fin 512, W (ix3 (0 : Fin 1) kk q) = w (blkIx b kk)) :
    part A W p q = Cert.Spec.blockSum (fun k => x k * w k) b := by
  unfold part Cert.Spec.blockSum
  exact Finset.sum_congr rfl fun kk _ => by rw [hA kk, hW kk]

/-- The eight partial products added from the left in the order σ are the whole contraction. -/
theorem parts_sum (x w : Fin 4096 → EReal) (σ : Fin 8 → Fin 8) (hσ : Function.Bijective σ)
    (A0 A1 A2 A3 A4 A5 A6 A7 : Vec Ideal S512x512 .f32) (W0 W1 W2 W3 W4 W5 W6 W7 : Vec Ideal S1x512x4096 .f32)
    (p : Fin 512) (q : Fin 4096)
    (hA0 : ∀ kk : Fin 512, A0 (ix2 p kk) = x (blkIx (σ 0) kk))
    (hA1 : ∀ kk : Fin 512, A1 (ix2 p kk) = x (blkIx (σ 1) kk))
    (hA2 : ∀ kk : Fin 512, A2 (ix2 p kk) = x (blkIx (σ 2) kk))
    (hA3 : ∀ kk : Fin 512, A3 (ix2 p kk) = x (blkIx (σ 3) kk))
    (hA4 : ∀ kk : Fin 512, A4 (ix2 p kk) = x (blkIx (σ 4) kk))
    (hA5 : ∀ kk : Fin 512, A5 (ix2 p kk) = x (blkIx (σ 5) kk))
    (hA6 : ∀ kk : Fin 512, A6 (ix2 p kk) = x (blkIx (σ 6) kk))
    (hA7 : ∀ kk : Fin 512, A7 (ix2 p kk) = x (blkIx (σ 7) kk))
    (hW0 : ∀ kk : Fin 512, W0 (ix3 (0 : Fin 1) kk q) = w (blkIx (σ 0) kk))
    (hW1 : ∀ kk : Fin 512, W1 (ix3 (0 : Fin 1) kk q) = w (blkIx (σ 1) kk))
    (hW2 : ∀ kk : Fin 512, W2 (ix3 (0 : Fin 1) kk q) = w (blkIx (σ 2) kk))
    (hW3 : ∀ kk : Fin 512, W3 (ix3 (0 : Fin 1) kk q) = w (blkIx (σ 3) kk))
    (hW4 : ∀ kk : Fin 512, W4 (ix3 (0 : Fin 1) kk q) = w (blkIx (σ 4) kk))
    (hW5 : ∀ kk : Fin 512, W5 (ix3 (0 : Fin 1) kk q) = w (blkIx (σ 5) kk))
    (hW6 : ∀ kk : Fin 512, W6 (ix3 (0 : Fin 1) kk q) = w (blkIx (σ 6) kk))
    (hW7 : ∀ kk : Fin 512, W7 (ix3 (0 : Fin 1) kk q) = w (blkIx (σ 7) kk)) :
    ((((((part A0 W0 p q + part A1 W1 p q) + part A2 W2 p q) + part A3 W3 p q) + part A4 W4 p q)
        + part A5 W5 p q) + part A6 W6 p q) + part A7 W7 p q
      = ∑ k : Fin 4096, x k * w k := by
  rw [part_eq_blockSum x w (σ 0) A0 W0 p q hA0 hW0,
    part_eq_blockSum x w (σ 1) A1 W1 p q hA1 hW1,
    part_eq_blockSum x w (σ 2) A2 W2 p q hA2 hW2,
    part_eq_blockSum x w (σ 3) A3 W3 p q hA3 hW3,
    part_eq_blockSum x w (σ 4) A4 W4 p q hA4 hW4,
    part_eq_blockSum x w (σ 5) A5 W5 p q hA5 hW5,
    part_eq_blockSum x w (σ 6) A6 W6 p q hA6 hW6,
    part_eq_blockSum x w (σ 7) A7 W7 p q hA7 hW7]
  exact (Cert.Spec.blocks_sum (fun k => x k * w k) σ hσ).symm

/-- The first half of the output block at (p, q). -/
theorem half0_spec (x w : Fin 4096 → EReal) (σ : Fin 8 → Fin 8) (hσ : Function.Bijective σ)
    (A0 A1 A2 A3 A4 A5 A6 A7 : Vec Ideal S512x512 .f32) (W0 W1 W2 W3 W4 W5 W6 W7 : Vec Ideal S1x512x4096 .f32)
    (p : Fin 512) (q : Fin 4096)
    (hA0 : ∀ kk : Fin 512, A0 (ix2 p kk) = x (blkIx (σ 0) kk))
    (hA1 : ∀ kk : Fin 512, A1 (ix2 p kk) = x (blkIx (σ 1) kk))
    (hA2 : ∀ kk : Fin 512, A2 (ix2 p kk) = x (blkIx (σ 2) kk))
    (hA3 : ∀ kk : Fin 512, A3 (ix2 p kk) = x (blkIx (σ 3) kk))
    (hA4 : ∀ kk : Fin 512, A4 (ix2 p kk) = x (blkIx (σ 4) kk))
    (hA5 : ∀ kk : Fin 512, A5 (ix2 p kk) = x (blkIx (σ 5) kk))
    (hA6 : ∀ kk : Fin 512, A6 (ix2 p kk) = x (blkIx (σ 6) kk))
    (hA7 : ∀ kk : Fin 512, A7 (ix2 p kk) = x (blkIx (σ 7) kk))
    (hW0 : ∀ kk : Fin 512, W0 (ix3 (0 : Fin 1) kk q) = w (blkIx (σ 0) kk))
    (hW1 : ∀ kk : Fin 512, W1 (ix3 (0 : Fin 1) kk q) = w (blkIx (σ 1) kk))
    (hW2 : ∀ kk : Fin 512, W2 (ix3 (0 : Fin 1) kk q) = w (blkIx (σ 2) kk))
    (hW3 : ∀ kk : Fin 512, W3 (ix3 (0 : Fin 1) kk q) = w (blkIx (σ 3) kk))
    (hW4 : ∀ kk : Fin 512, W4 (ix3 (0 : Fin 1) kk q) = w (blkIx (σ 4) kk))
    (hW5 : ∀ kk : Fin 512, W5 (ix3 (0 : Fin 1) kk q) = w (blkIx (σ 5) kk))
    (hW6 : ∀ kk : Fin 512, W6 (ix3 (0 : Fin 1) kk q) = w (blkIx (σ 6) kk))
    (hW7 : ∀ kk : Fin 512, W7 (ix3 (0 : Fin 1) kk q) = w (blkIx (σ 7) kk)) :
    k0_pay30 (F := Ideal) (k0_pay29 (F := Ideal) A7 W7 (k0_pay24 (F := Ideal) A6 W6 (k0_pay19 (F := Ideal) A5 W5
      (k0_pay15 (F := Ideal) A4 W4 (k0_pay12 (F := Ideal) A3 W3 (k0_pay9 (F := Ideal) A2 W2 (k0_pay6 (F := Ideal) A1 W1
        (k0_pay3 (F := Ideal) A0 W0)))))))) (ix2 p q)
      = Cert.Spec.gelu (∑ k : Fin 4096, x k * w k) := by
  rw [half0_apply]
  exact congrArg Cert.Spec.gelu
    (parts_sum x w σ hσ A0 A1 A2 A3 A4 A5 A6 A7 W0 W1 W2 W3 W4 W5 W6 W7 p q hA0 hA1 hA2 hA3 hA4 hA5 hA6 hA7
      hW0 hW1 hW2 hW3 hW4 hW5 hW6 hW7)

/-- The second half of the output block at (p, q). -/
theorem half1_spec (x w : Fin 4096 → EReal) (σ : Fin 8 → Fin 8) (hσ : Function.Bijective σ)
    (A0 A1 A2 A3 A4 A5 A6 A7 : Vec Ideal S512x512 .f32) (W0 W1 W2 W3 W4 W5 W6 W7 : Vec Ideal S1x512x4096 .f32)
    (p : Fin 512) (q : Fin 4096)
    (hA0 : ∀ kk : Fin 512, A0 (ix2 p kk) = x (blkIx (σ 0) kk))
    (hA1 : ∀ kk : Fin 512, A1 (ix2 p kk) = x (blkIx (σ 1) kk))
    (hA2 : ∀ kk : Fin 512, A2 (ix2 p kk) = x (blkIx (σ 2) kk))
    (hA3 : ∀ kk : Fin 512, A3 (ix2 p kk) = x (blkIx (σ 3) kk))
    (hA4 : ∀ kk : Fin 512, A4 (ix2 p kk) = x (blkIx (σ 4) kk))
    (hA5 : ∀ kk : Fin 512, A5 (ix2 p kk) = x (blkIx (σ 5) kk))
    (hA6 : ∀ kk : Fin 512, A6 (ix2 p kk) = x (blkIx (σ 6) kk))
    (hA7 : ∀ kk : Fin 512, A7 (ix2 p kk) = x (blkIx (σ 7) kk))
    (hW0 : ∀ kk : Fin 512, W0 (ix3 (0 : Fin 1) kk q) = w (blkIx (σ 0) kk))
    (hW1 : ∀ kk : Fin 512, W1 (ix3 (0 : Fin 1) kk q) = w (blkIx (σ 1) kk))
    (hW2 : ∀ kk : Fin 512, W2 (ix3 (0 : Fin 1) kk q) = w (blkIx (σ 2) kk))
    (hW3 : ∀ kk : Fin 512, W3 (ix3 (0 : Fin 1) kk q) = w (blkIx (σ 3) kk))
    (hW4 : ∀ kk : Fin 512, W4 (ix3 (0 : Fin 1) kk q) = w (blkIx (σ 4) kk))
    (hW5 : ∀ kk : Fin 512, W5 (ix3 (0 : Fin 1) kk q) = w (blkIx (σ 5) kk))
    (hW6 : ∀ kk : Fin 512, W6 (ix3 (0 : Fin 1) kk q) = w (blkIx (σ 6) kk))
    (hW7 : ∀ kk : Fin 512, W7 (ix3 (0 : Fin 1) kk q) = w (blkIx (σ 7) kk)) :
    k0_pay32 (F := Ideal) (k0_pay31 (F := Ideal) A7 W7 (k0_pay26 (F := Ideal) (k0_pay25 (F := Ideal) A6 W6)
      (k0_pay21 (F := Ideal) A5 (k0_pay20 (F := Ideal) W5) (constant (F := Ideal) S512x4096 .f32 0x00000000#32)
        (k0_pay16 (F := Ideal) A4 W4 (k0_pay13 (F := Ideal) A3 W3 (k0_pay10 (F := Ideal) A2 W2 (k0_pay7 (F := Ideal) A1 W1
          (k0_pay4 (F := Ideal) A0 W0)))))))) (ix2 p q)
      = Cert.Spec.gelu (∑ k : Fin 4096, x k * w k) := by
  rw [half1_apply]
  exact congrArg Cert.Spec.gelu
    (parts_sum x w σ hσ A0 A1 A2 A3 A4 A5 A6 A7 W0 W1 W2 W3 W4 W5 W6 W7 p q hA0 hA1 hA2 hA3 hA4 hA5 hA6 hA7
      hW0 hW1 hW2 hW3 hW4 hW5 hW6 hW7)

/-! ## The device's order of its partners -/

/-- Device c's partners, in the order it visits them, are each of the eight devices once. -/
theorem peer_bij (c : Dev nD) : Function.Bijective (fun t : Fin 8 => (Devs.peer c t.val : Fin 8)) :=
  ⟨fun k k' h => Devs.peer_inj c k k' h, fun j => Devs.peer_surj c j⟩

/-- info: 'Cert.KernelIdeal.HalfSpec.half0_spec' depends on axioms: [propext, Classical.choice, Quot.sound] -/
#guard_msgs in #print axioms half0_spec
/-- info: 'Cert.KernelIdeal.HalfSpec.half1_spec' depends on axioms: [propext, Classical.choice, Quot.sound] -/
#guard_msgs in #print axioms half1_spec
/-- info: 'Cert.KernelIdeal.HalfSpec.peer_bij' depends on axioms: [propext, Classical.choice, Quot.sound] -/
#guard_msgs in #print axioms peer_bij

end Cert.KernelIdeal.HalfSpec

end
-- ==== Proof.ViewAt.lean ====
/- Buffers read and written through the views the body names, index by index. Nothing here computes: a load
   through a rectangle of a whole buffer reads the buffer at the rectangle's offsets plus the index; a slot of
   the receive buffer that holds a block reads that block back; two stores into the two halves of the output
   block read back half by half; a block copied into a slot of the double buffer reads back as the block. -/
import proofs.«900487_g7700000000000488_dist_a2a_gemm_m4096_k4096_n8192_f32_gelu_v7x_i8_1_alg».proof.Proof.Sched
import Idealize.ShloMosaic.Lib.Pipeline.Value
import Idealize.ShloMosaic.Lib.ValueIdx
import Idealize.ShloMosaic.Lib.ValueLayout
import Idealize.ShloMosaic.Lib.Exec.Geometry

noncomputable section

namespace Cert.KernelIdeal.ViewAt

open Idealize.ShloMosaic Idealize.ShloMosaic.ValueIdx Cert.KernelIdeal Cert.KernelIdeal.Gen Cert.KernelIdeal.Devs
  Cert.KernelIdeal.Proto

variable {F : FTy → Type} [FloatOps F]

/-! ## A whole buffer read through itself -/

/-- A load through a whole buffer reads the contents at the rectangle's indices. -/
theorem whole_readAt_apply {sig' : RefSig} {κ : Kind} {Val : EltTy → Type} (b : Ref sig' κ) (r : LoadRect b.ty.shape)
    (g : b.ty.Contents Val) (x : r.shape.Idx) : (View.whole b).readAt Val r g x = g (r.idx x) := rfl

/-- A whole buffer read at one of its own indices is its contents there. -/
theorem whole_read_apply {sig' : RefSig} {κ : Kind} {Val : EltTy → Type} (b : Ref sig' κ) (g : b.ty.Contents Val)
    (i : b.ty.shape.Idx) : (View.whole b).read Val g i = g i := rfl

/-! ## Bounds -/

theorem row_lt (j : Dev nD) (p : Fin 512) : 512 * j.val + p.val < 4096 := by
  have : j.val < 8 := j.isLt
  have := p.isLt
  omega

theorem col_lt (h : Fin 2) (q : Fin 4096) : 4096 * h.val + q.val < 8192 := by
  have := h.isLt
  have := q.isLt
  omega

/-! ## Rows of the half-precision copy -/

/-- 512 rows of the copy from row 512 · j, through a slice at any offsets equal to (512 · j, 0): entry (p, q) is the
    copy's (512 · j + p, q). -/
theorem rows_read_of_eq (f : (cc0_scratch0 : Ref sig .tc).ty.Contents (Elt F)) (off : Fin 2 → Nat)
    (hin : ∀ a, off a + S512x512.size a ≤ S4096x512.size a) (j : Nat) (hoff : off = ![512 * j, 0])
    (p q : Fin 512) (hlt : 512 * j + p.val < 4096) :
    (bM.slice (Rect.unit (s := S4096x512) off S512x512.size hin) (fun _ => rfl)).view.read (Elt F) f (ix2 p q)
      = f (ix2 (⟨512 * j + p.val, hlt⟩ : Fin 4096) q) := by
  subst hoff
  show f ((Rect.unit (s := S4096x512) ![512 * j, 0] S512x512.size hin).emb (ix2 p q)) = _
  refine congrArg f (funext fun a => Fin.ext ?_)
  match a with
  | ⟨0, _⟩ => show 512 * j + 1 * p.val = 512 * j + p.val; omega
  | ⟨1, _⟩ => show 0 + 1 * q.val = q.val; omega

theorem rows_readAt (f : (cc0_scratch0 : Ref sig .tc).ty.Contents (Elt F)) (j : Dev nD)
    (hin : ∀ a, (![512 * j.val, 0] : Fin 2 → Nat) a + S512x512.size a ≤ S4096x512.size a) (p q : Fin 512) :
    bM.view.readAt (Elt F) (Rect.unit (s := S4096x512) ![512 * j.val, 0] S512x512.size hin).toLoadRect f (ix2 p q)
      = f (ix2 (⟨512 * j.val + p.val, row_lt j p⟩ : Fin 4096) q) :=
  rows_read_of_eq f _ hin j.val rfl p q _

theorem rows_read (f : (cc0_scratch0 : Ref sig .tc).ty.Contents (Elt F)) (j : Dev nD)
    (hin : ∀ a, (![512 * j.val, 0] : Fin 2 → Nat) a + S512x512.size a ≤ S4096x512.size a) (p q : Fin 512) :
    (bM.slice (Rect.unit (s := S4096x512) ![512 * j.val, 0] S512x512.size hin) (fun _ => rfl)).view.read (Elt F) f (ix2 p q)
      = f (ix2 (⟨512 * j.val + p.val, row_lt j p⟩ : Fin 4096) q) :=
  rows_read_of_eq f _ hin j.val rfl p q _

/-- The same through a load at any offsets equal to (512 · j, 0). -/
theorem rows_readAt_of_eq (f : (cc0_scratch0 : Ref sig .tc).ty.Contents (Elt F)) (off : Fin 2 → Nat)
    (hin : ∀ a, off a + S512x512.size a ≤ S4096x512.size a) (j : Nat) (hoff : off = ![512 * j, 0])
    (p q : Fin 512) (hlt : 512 * j + p.val < 4096) :
    bM.view.readAt (Elt F) (Rect.unit (s := S4096x512) off S512x512.size hin).toLoadRect f (ix2 p q)
      = f (ix2 (⟨512 * j + p.val, hlt⟩ : Fin 4096) q) :=
  rows_read_of_eq f off hin j hoff p q hlt

/-- The offsets of the rows device c sends to its (i+1)-th partner. -/
theorem off4_at_eq (c : Dev nD) (i : Fin 7) :
    k0_off4 c (k0_off4_at i).1 (k0_off4_at i).2.1 (k0_off4_at i).2.2 = ![512 * (peer c (i.val + 1)).val, 0] := by
  match i with
  | ⟨0, _⟩ => exact off4_1_eq c
  | ⟨1, _⟩ => exact off4_2_eq c
  | ⟨2, _⟩ => exact off4_3_eq c
  | ⟨3, _⟩ => exact off4_4_eq c
  | ⟨4, _⟩ => exact off4_5_eq c
  | ⟨5, _⟩ => exact off4_6_eq c
  | ⟨6, _⟩ => exact off4_7_eq c

/-- The rows device c sends to its (i+1)-th partner j: entry (p, q) is the copy's (512 · j + p, q). -/
theorem rowsM_read (f : (cc0_scratch0 : Ref sig .tc).ty.Contents (Elt F)) (c : Dev nD) (i : Fin 7) (p q : Fin 512) :
    (rowsM c i).view.read (Elt F) f (ix2 p q)
      = f (ix2 (⟨512 * (peer c (i.val + 1)).val + p.val, row_lt _ p⟩ : Fin 4096) q) :=
  rows_read_of_eq f _ _ _ (off4_at_eq c i) p q _

/-! ## A block of the weights -/

/-- A 512 x 4096 block of the weights through a slice at any offsets equal to (512 · j, 4096 · h): entry (kk, q) is the
    array's (512 · j + kk, 4096 · h + q). -/
theorem wblock_read_of_eq (f : (main_arg1 : Ref sig .tc).ty.Contents (Elt F)) (off : Fin 2 → Nat)
    (hin : ∀ a, off a + S512x4096.size a ≤ S4096x8192.size a) (j h : Nat) (hoff : off = ![512 * j, 4096 * h])
    (kk : Fin 512) (q : Fin 4096) (hr : 512 * j + kk.val < 4096) (hc : 4096 * h + q.val < 8192) :
    (hM.slice (Rect.unit (s := S4096x8192) off S512x4096.size hin) (fun _ => rfl)).view.read (Elt F) f (ix2 kk q)
      = f (ix2 (⟨512 * j + kk.val, hr⟩ : Fin 4096) (⟨4096 * h + q.val, hc⟩ : Fin 8192)) := by
  subst hoff
  show f ((Rect.unit (s := S4096x8192) ![512 * j, 4096 * h] S512x4096.size hin).emb (ix2 kk q)) = _
  refine congrArg f (funext fun a => Fin.ext ?_)
  match a with
  | ⟨0, _⟩ => show 512 * j + 1 * kk.val = 512 * j + kk.val; omega
  | ⟨1, _⟩ => show 4096 * h + 1 * q.val = 4096 * h + q.val; omega

theorem wblock_read (f : (main_arg1 : Ref sig .tc).ty.Contents (Elt F)) (j : Dev nD) (h : Fin 2)
    (hin : ∀ a, (![512 * j.val, 4096 * h.val] : Fin 2 → Nat) a + S512x4096.size a ≤ S4096x8192.size a)
    (kk : Fin 512) (q : Fin 4096) :
    (hM.slice (Rect.unit (s := S4096x8192) ![512 * j.val, 4096 * h.val] S512x4096.size hin) (fun _ => rfl)).view.read (Elt F) f (ix2 kk q)
      = f (ix2 (⟨512 * j.val + kk.val, row_lt j kk⟩ : Fin 4096) (⟨4096 * h.val + q.val, col_lt h q⟩ : Fin 8192)) :=
  wblock_read_of_eq f _ hin j.val h.val rfl kk q _ _

/-! ## A slot of the receive buffer -/

/-- Where entry (p, q) of slot o sits in the receive buffer: at (o, p, q). -/
theorem slot_emb (o : Dev nD) (p q : Fin 512) :
    (slotM o).view.emb (ix2 p q) = (ix3 o p q : S8x512x512.Idx) := by
  show (Rect.unit (s := S8x512x512) (k0_off3 o) S1x512x512.size (k0_off3_inb o)).emb (Shape.reshapeEquiv _ (ix2 p q)) = _
  rw [reshapeEquiv_ix2_1ab]
  refine funext fun a => Fin.ext ?_
  have ho : k0_off3 o a = (![o.val, 0, 0] : Fin 3 → Nat) a := congrFun (k0_off3_eq o) a
  rw [Rect.emb_apply]
  show k0_off3 o a + 1 * ((ix3 (⟨0, Nat.one_pos⟩ : Fin 1) p q : S1x512x512.Idx) a).val = _
  rw [ho]
  match a with
  | ⟨0, _⟩ => show o.val + 1 * 0 = o.val; omega
  | ⟨1, _⟩ => show 0 + 1 * p.val = p.val; omega
  | ⟨2, _⟩ => show 0 + 1 * q.val = q.val; omega

/-- A receive buffer that holds the block X on slot o reads X back at that slot's own elements. -/
theorem slot_rep_emb (X : S512x512.Idx → Elt F .bf16) (o : Dev nD) (p q : Fin 512) :
    (slotM o).view.rep X ((slotM o).view.emb (ix2 p q)) = X (ix2 p q) := by
  rw [View.rep_emb]
  rfl

/-- A receive buffer whose slot o holds the block X, loaded through the 1 x 512 x 512 rectangle at slot o, reads X. -/
theorem slot_readAt (X : S512x512.Idx → Elt F .bf16) (o : Dev nD)
    (hin : ∀ a, (![o.val, 0, 0] : Fin 3 → Nat) a + S1x512x512.size a ≤ S8x512x512.size a) (p q : Fin 512) :
    rM.view.readAt (Elt F) (Rect.unit (s := S8x512x512) ![o.val, 0, 0] S1x512x512.size hin).toLoadRect
        ((slotM o).view.rep X) (ix3 (0 : Fin 1) p q)
      = X (ix2 p q) := by
  have he : (Rect.unit (s := S8x512x512) ![o.val, 0, 0] S1x512x512.size hin).toLoadRect.idx (ix3 (0 : Fin 1) p q)
      = (slotM o).view.emb (ix2 p q) := by
    rw [slot_emb]
    refine funext fun a => Fin.ext ?_
    match a with
    | ⟨0, _⟩ => show o.val + 1 * 0 = o.val; omega
    | ⟨1, _⟩ => show 0 + 1 * p.val = p.val; omega
    | ⟨2, _⟩ => show 0 + 1 * q.val = q.val; omega
  have h1 := whole_readAt_apply (Val := Elt F) (cc0_scratch1 : Ref sig .tc)
    (Rect.unit (s := S8x512x512) ![o.val, 0, 0] S1x512x512.size hin).toLoadRect ((slotM o).view.rep X) (ix3 (0 : Fin 1) p q)
  refine h1.trans ?_
  rw [he]
  exact slot_rep_emb X o p q

/-- The same through a load at any offsets equal to (o, 0, 0). -/
theorem slot_readAt_of_eq (X : S512x512.Idx → Elt F .bf16) (o : Dev nD) (off : Fin 3 → Nat)
    (hin : ∀ a, off a + S1x512x512.size a ≤ S8x512x512.size a) (hoff : off = ![o.val, 0, 0]) (p q : Fin 512) :
    rM.view.readAt (Elt F) (Rect.unit (s := S8x512x512) off S1x512x512.size hin).toLoadRect
        ((slotM o).view.rep X) (ix3 (0 : Fin 1) p q)
      = X (ix2 p q) := by
  subst hoff
  exact slot_readAt X o hin p q

/-! ## The two halves of the output block -/

/-- After two stores through two rectangles of a view, an element under the earlier store that the later one
    misses reads the earlier store's payload. -/
theorem read_writes_two_miss {sig' : RefSig} {κ : Kind} {sp : Space} {s : Shape} {e : EltTy} {Val : EltTy → Type}
    (v : View sig' κ sp s e) (f : v.ty.Contents Val) (r1 r0 : Rect s) (w1 : r1.shape.Idx → Val e) (w0 : r0.shape.Idx → Val e)
    (x : r0.shape.Idx) (hmiss : ∀ x1 : r1.shape.Idx, r1.emb x1 ≠ r0.emb x) :
    v.read Val (v.writes Val f [⟨r1, w1⟩, ⟨r0, w0⟩]) (r0.emb x) = w0 x := by
  rw [View.writes_cons, View.read_slice_write_of_not_mem r1 _ _ _ ?_]
  · exact View.read_writes_cons_emb v f r0 w0 [] x
  · intro hm
    obtain ⟨x1, -, hx1⟩ := Finset.mem_map.mp hm
    exact hmiss x1 hx1

/-- Column q of the first half of the output block, and column 4096 + q, as elements of the two rectangles. -/
theorem first_emb (p : Fin 512) (q : Fin 4096) :
    (Rect.unit (s := S512x8192) ![0, 0] S512x4096.size inb_S512x8192_S512x4096_0_0).emb (ix2 p q) = (ix2 p (⟨q.val, by have := q.isLt; omega⟩ : Fin 8192) : S512x8192.Idx) := by
  refine funext fun a => Fin.ext ?_
  match a with
  | ⟨0, _⟩ => show 0 + 1 * p.val = p.val; omega
  | ⟨1, _⟩ => show 0 + 1 * q.val = q.val; omega

theorem second_emb (p : Fin 512) (q : Fin 4096) :
    (Rect.unit (s := S512x8192) ![0, 4096] S512x4096.size inb_S512x8192_S512x4096_0_4096).emb (ix2 p q) = (ix2 p (⟨4096 + q.val, by have := q.isLt; omega⟩ : Fin 8192) : S512x8192.Idx) := by
  refine funext fun a => Fin.ext ?_
  match a with
  | ⟨0, _⟩ => show 0 + 1 * p.val = p.val; omega
  | ⟨1, _⟩ => show 4096 + 1 * q.val = 4096 + q.val; omega

/-- No element of the second half is an element of the first. -/
theorem second_ne_first (p : Fin 512) (q : Fin 4096) (x1 : (Rect.unit (s := S512x8192) ![0, 4096] S512x4096.size inb_S512x8192_S512x4096_0_4096).shape.Idx) :
    (Rect.unit (s := S512x8192) ![0, 4096] S512x4096.size inb_S512x8192_S512x4096_0_4096).emb x1 ≠ (Rect.unit (s := S512x8192) ![0, 0] S512x4096.size inb_S512x8192_S512x4096_0_0).emb (ix2 p q) := by
  intro hx
  have h1' := congrArg (fun i : S512x8192.Idx => (i ⟨1, by decide⟩).val) hx
  have e1 : ((Rect.unit (s := S512x8192) ![0, 4096] S512x4096.size inb_S512x8192_S512x4096_0_4096).emb x1 ⟨1, by decide⟩).val = 4096 + 1 * (x1 ⟨1, by decide⟩).val := rfl
  have e0 : ((Rect.unit (s := S512x8192) ![0, 0] S512x4096.size inb_S512x8192_S512x4096_0_0).emb (ix2 p q) ⟨1, by decide⟩).val = 0 + 1 * q.val := rfl
  have hq := q.isLt
  simp only [e1, e0] at h1'
  omega

/-- The output block after the store of the second half h1 over the store of the first half h0: column q of the
    first 4096 reads h0. -/
theorem out_first (f : (cc0_stg1_0 : Ref sig .tc).ty.Contents (Elt F)) (h0 h1 : S512x4096.Idx → Elt F .f32)
    (p : Fin 512) (q : Fin 4096) :
    (oM.view.writes (Elt F) f
        [⟨Rect.unit (s := S512x8192) ![0, 4096] S512x4096.size inb_S512x8192_S512x4096_0_4096, h1⟩,
         ⟨Rect.unit (s := S512x8192) ![0, 0] S512x4096.size inb_S512x8192_S512x4096_0_0, h0⟩])
      (ix2 p (⟨q.val, by have := q.isLt; omega⟩ : Fin 8192)) = h0 (ix2 p q) := by
  rw [← first_emb p q]
  have h := read_writes_two_miss (Val := Elt F) (View.whole (cc0_stg1_0 : Ref sig .tc)) f (Rect.unit (s := S512x8192) ![0, 4096] S512x4096.size inb_S512x8192_S512x4096_0_4096) (Rect.unit (s := S512x8192) ![0, 0] S512x4096.size inb_S512x8192_S512x4096_0_0) h1 h0 (ix2 p q)
    (second_ne_first p q)
  exact (whole_read_apply (Val := Elt F) (cc0_stg1_0 : Ref sig .tc)
    ((View.whole (cc0_stg1_0 : Ref sig .tc)).writes (Elt F) f
        [⟨Rect.unit (s := S512x8192) ![0, 4096] S512x4096.size inb_S512x8192_S512x4096_0_4096, h1⟩,
         ⟨Rect.unit (s := S512x8192) ![0, 0] S512x4096.size inb_S512x8192_S512x4096_0_0, h0⟩])
    ((Rect.unit (s := S512x8192) ![0, 0] S512x4096.size inb_S512x8192_S512x4096_0_0).emb (ix2 p q))).symm.trans h

/-- … and column 4096 + q reads h1. -/
theorem out_second (f : (cc0_stg1_0 : Ref sig .tc).ty.Contents (Elt F)) (h0 h1 : S512x4096.Idx → Elt F .f32)
    (p : Fin 512) (q : Fin 4096) :
    (oM.view.writes (Elt F) f
        [⟨Rect.unit (s := S512x8192) ![0, 4096] S512x4096.size inb_S512x8192_S512x4096_0_4096, h1⟩,
         ⟨Rect.unit (s := S512x8192) ![0, 0] S512x4096.size inb_S512x8192_S512x4096_0_0, h0⟩])
      (ix2 p (⟨4096 + q.val, by have := q.isLt; omega⟩ : Fin 8192)) = h1 (ix2 p q) := by
  rw [← second_emb p q]
  have h := View.read_writes_cons_emb (Val := Elt F) (View.whole (cc0_stg1_0 : Ref sig .tc)) f (Rect.unit (s := S512x8192) ![0, 4096] S512x4096.size inb_S512x8192_S512x4096_0_4096) h1
    [⟨Rect.unit (s := S512x8192) ![0, 0] S512x4096.size inb_S512x8192_S512x4096_0_0, h0⟩] (ix2 p q)
  exact (whole_read_apply (Val := Elt F) (cc0_stg1_0 : Ref sig .tc)
    ((View.whole (cc0_stg1_0 : Ref sig .tc)).writes (Elt F) f
        [⟨Rect.unit (s := S512x8192) ![0, 4096] S512x4096.size inb_S512x8192_S512x4096_0_4096, h1⟩,
         ⟨Rect.unit (s := S512x8192) ![0, 0] S512x4096.size inb_S512x8192_S512x4096_0_0, h0⟩])
    ((Rect.unit (s := S512x8192) ![0, 4096] S512x4096.size inb_S512x8192_S512x4096_0_4096).emb (ix2 p q))).symm.trans h

/-! ## A slot of the weights' double buffer -/

/-- Slot s of the double buffer loaded through its 1 x 512 x 4096 rectangle: entry (0, kk, q) is the buffer's (s, kk, q). -/
theorem wslot_readAt (g : (cc0_scratch3 : Ref sig .tc).ty.Contents (Elt F)) (s : Fin 2) (off : Fin 3 → Nat)
    (hin : ∀ a, off a + S1x512x4096.size a ≤ S2x512x4096.size a) (hoff : off = ![s.val, 0, 0]) (kk : Fin 512) (q : Fin 4096) :
    wM.view.readAt (Elt F) (Rect.unit (s := S2x512x4096) off S1x512x4096.size hin).toLoadRect g (ix3 (0 : Fin 1) kk q)
      = g (ix3 s kk q) := by
  subst hoff
  show g ((Rect.unit (s := S2x512x4096) ![s.val, 0, 0] S1x512x4096.size hin).toLoadRect.idx (ix3 (0 : Fin 1) kk q)) = _
  refine congrArg g (funext fun a => Fin.ext ?_)
  match a with
  | ⟨0, _⟩ => show s.val + 1 * 0 = s.val; omega
  | ⟨1, _⟩ => show 0 + 1 * kk.val = kk.val; omega
  | ⟨2, _⟩ => show 0 + 1 * q.val = q.val; omega

/-- Where entry (kk, q) of slot s, viewed as a matrix, sits in the double buffer: at (s, kk, q). -/
theorem wslot_emb (s : Fin 2) (off : Fin 3 → Nat) (hin : ∀ a, off a + S1x512x4096.size a ≤ S2x512x4096.size a)
    (hoff : off = ![s.val, 0, 0]) (hq : S1x512x4096.Squeezes S512x4096) (kk : Fin 512) (q : Fin 4096) :
    ((wM.slice (Rect.unit (s := S2x512x4096) off S1x512x4096.size hin) (fun _ => rfl)).squeeze S512x4096 hq).view.emb (ix2 kk q)
      = (ix3 s kk q : S2x512x4096.Idx) := by
  subst hoff
  show (Rect.unit (s := S2x512x4096) ![s.val, 0, 0] S1x512x4096.size hin).emb (Shape.reshapeEquiv _ (ix2 kk q)) = _
  rw [reshapeEquiv_ix2_1ab]
  refine funext fun a => Fin.ext ?_
  match a with
  | ⟨0, _⟩ => show s.val + 1 * 0 = s.val; omega
  | ⟨1, _⟩ => show 0 + 1 * kk.val = kk.val; omega
  | ⟨2, _⟩ => show 0 + 1 * q.val = q.val; omega

/-- A block written whole into slot s, viewed as a matrix: the double buffer's (s, kk, q) then holds the block's (kk, q). -/
theorem wslot_write (g : (cc0_scratch3 : Ref sig .tc).ty.Contents (Elt F)) (v : S512x4096.Idx → Elt F .f32) (s : Fin 2)
    (off : Fin 3 → Nat) (hin : ∀ a, off a + S1x512x4096.size a ≤ S2x512x4096.size a) (hoff : off = ![s.val, 0, 0])
    (hq : S1x512x4096.Squeezes S512x4096) (kk : Fin 512) (q : Fin 4096) :
    ((wM.slice (Rect.unit (s := S2x512x4096) off S1x512x4096.size hin) (fun _ => rfl)).squeeze S512x4096 hq).view.write (Elt F) g v Finset.univ
        (ix3 s kk q)
      = v (ix2 kk q) := by
  rw [← wslot_emb s off hin hoff hq kk q, View.write_emb_of_mem _ _ (Finset.mem_univ _)]
  rfl

/-- info: 'Cert.KernelIdeal.ViewAt.rowsM_read' depends on axioms: [propext, Classical.choice, Quot.sound] -/
#guard_msgs in #print axioms rowsM_read
/-- info: 'Cert.KernelIdeal.ViewAt.slot_readAt_of_eq' depends on axioms: [propext, Classical.choice, Quot.sound] -/
#guard_msgs in #print axioms slot_readAt_of_eq
/-- info: 'Cert.KernelIdeal.ViewAt.wblock_read' depends on axioms: [propext, Classical.choice, Quot.sound] -/
#guard_msgs in #print axioms wblock_read
/-- info: 'Cert.KernelIdeal.ViewAt.out_first' depends on axioms: [propext, Classical.choice, Quot.sound] -/
#guard_msgs in #print axioms out_first
/-- info: 'Cert.KernelIdeal.ViewAt.out_second' depends on axioms: [propext, Classical.choice, Quot.sound] -/
#guard_msgs in #print axioms out_second
/-- info: 'Cert.KernelIdeal.ViewAt.wslot_write' depends on axioms: [propext, Classical.choice, Quot.sound] -/
#guard_msgs in #print axioms wslot_write

end Cert.KernelIdeal.ViewAt

end
-- ==== Proof.RefBlock.lean ====
/-
  How the whole arrays lie across the eight devices, read at an index given by its coordinates.

  The argument x, of shape [4096, 4096], is cut along its columns into eight blocks of 512: column kk of
  device c's block is column 512 · c + kk of the whole, the row the same. The result, of shape
  [4096, 8192], is cut along its rows into eight blocks of 512: row p of device c's block is row
  512 · c + p of the whole, the column the same. So device c's block of the specified result holds, at
  (p, q), the activation of row 512 · c + p of x against column q of w.
-/
import proofs.«900487_g7700000000000488_dist_a2a_gemm_m4096_k4096_n8192_f32_gelu_v7x_i8_1_alg».proof.Proof.Spec
import Idealize.ShloMosaic.Lib.Layout

noncomputable section

open scoped BigOperators

namespace Cert.RefBlock

open Idealize.ShloMosaic Idealize.ShloMosaic.ValueIdx

/-! ## Where a block's index lands -/

/-- Cut along the rows: index (p, q) of block `c` is index (c · 512 + p, q) of the whole. -/
theorem rows_idx (h : Layout.Tiles ⟨2, ![512, 8192]⟩ ⟨2, ![4096, 8192]⟩ 0 8) (c : Fin 8) (p : Fin 512) (q : Fin 8192) :
    h.idx c (ix2 p q) = ix2 (⟨c.val * 512 + p.val, by have := c.isLt; have := p.isLt; omega⟩ : Fin 4096) q :=
  funext fun a => Fin.ext (by match a with | ⟨0, _⟩ => rfl | ⟨1, _⟩ => rfl)

/-- Cut along the columns: index (r, kk) of block `c` is index (r, c · 512 + kk) of the whole. -/
theorem cols_idx (h : Layout.Tiles ⟨2, ![4096, 512]⟩ ⟨2, ![4096, 4096]⟩ 1 8) (c : Fin 8) (r : Fin 4096) (kk : Fin 512) :
    h.idx c (ix2 r kk) = ix2 r (⟨c.val * 512 + kk.val, by have := c.isLt; have := kk.isLt; omega⟩ : Fin 4096) :=
  funext fun a => Fin.ext (by match a with | ⟨0, _⟩ => rfl | ⟨1, _⟩ => rfl)

/-! ## The argument's block -/

/-- Device `c`'s block of x at (r, kk) is x at (r, c · 512 + kk). -/
theorem block_arg' {α : Type} (X : (⟨2, ![4096, 4096]⟩ : Shape).Idx → α) (c : Fin 8) (r : Fin 4096) (kk : Fin 512) :
    (Layout.block ⟨2, ![4096, 512]⟩ ⟨2, ![4096, 4096]⟩ 1 8 c X) (ix2 r kk)
      = X (ix2 r (⟨c.val * 512 + kk.val, by have := c.isLt; have := kk.isLt; omega⟩ : Fin 4096)) := by
  rw [Layout.block_apply, cols_idx]

/-- The same with the column written 512 · c + kk. -/
theorem block_arg {α : Type} (X : (⟨2, ![4096, 4096]⟩ : Shape).Idx → α) (c : Fin 8) (r : Fin 4096) (kk : Fin 512) :
    (Layout.block ⟨2, ![4096, 512]⟩ ⟨2, ![4096, 4096]⟩ 1 8 c X) (ix2 r kk)
      = X (ix2 r (⟨512 * c.val + kk.val, by have := c.isLt; have := kk.isLt; omega⟩ : Fin 4096)) := by
  rw [block_arg']
  exact congrArg (fun j : Fin 4096 => X (ix2 r j)) (Fin.ext (by
    show c.val * 512 + kk.val = 512 * c.val + kk.val
    omega))

/-! ## The result's block -/

/-- Device `c`'s block of the specified result at (p, q): the activation of row c · 512 + p of x against
    column q of w. -/
theorem block_G' (X : Cert.Spec.S4096x4096.Idx → EReal) (Wm : Cert.Spec.S4096x8192.Idx → EReal) (c : Fin 8)
    (p : Fin 512) (q : Fin 8192) :
    (Layout.block ⟨2, ![512, 8192]⟩ ⟨2, ![4096, 8192]⟩ 0 8 c (Cert.Spec.G X Wm)) (ix2 p q)
      = Cert.Spec.gelu (∑ k : Fin 4096,
          X (ix2 (⟨c.val * 512 + p.val, by have := c.isLt; have := p.isLt; omega⟩ : Fin 4096) k) * Wm (ix2 k q)) := by
  rw [Layout.block_apply, rows_idx, Cert.Spec.G_apply]

/-- The same with the row written 512 · c + p. -/
theorem block_G (X : Cert.Spec.S4096x4096.Idx → EReal) (Wm : Cert.Spec.S4096x8192.Idx → EReal) (c : Fin 8)
    (p : Fin 512) (q : Fin 8192) :
    (Layout.block ⟨2, ![512, 8192]⟩ ⟨2, ![4096, 8192]⟩ 0 8 c (Cert.Spec.G X Wm)) (ix2 p q)
      = Cert.Spec.gelu (∑ k : Fin 4096,
          X (ix2 (⟨512 * c.val + p.val, by have := c.isLt; have := p.isLt; omega⟩ : Fin 4096) k) * Wm (ix2 k q)) := by
  rw [block_G']
  exact congrArg (fun j : Fin 4096 => Cert.Spec.gelu (∑ k : Fin 4096, X (ix2 j k) * Wm (ix2 k q)))
    (Fin.ext (by
      show c.val * 512 + p.val = 512 * c.val + p.val
      omega))

/-- info: 'Cert.RefBlock.block_G' depends on axioms: [propext, Classical.choice, Quot.sound] -/
#guard_msgs in #print axioms block_G

end Cert.RefBlock

end
-- ==== Proof.KernelValue.lean ====
/- The kernel's result on one device against the specification: the two halves of the output block, each the
   activation of eight partial products taken in the device's order of its partners, hold block c of the
   specified result when the t-th operand block is the device's rows of x at the columns of its t-th partner
   and the t-th weight block is that partner's rows of w at the half's columns. -/
import proofs.«900487_g7700000000000488_dist_a2a_gemm_m4096_k4096_n8192_f32_gelu_v7x_i8_1_alg».proof.Proof.HalfSpec
import proofs.«900487_g7700000000000488_dist_a2a_gemm_m4096_k4096_n8192_f32_gelu_v7x_i8_1_alg».proof.Proof.ViewAt
import proofs.«900487_g7700000000000488_dist_a2a_gemm_m4096_k4096_n8192_f32_gelu_v7x_i8_1_alg».proof.Proof.RefBlock
import proofs.«900487_g7700000000000488_dist_a2a_gemm_m4096_k4096_n8192_f32_gelu_v7x_i8_1_alg».proof.Proof.OutAt
import proofs.«900487_g7700000000000488_dist_a2a_gemm_m4096_k4096_n8192_f32_gelu_v7x_i8_1_alg».proof.Proof.Dats

noncomputable section

namespace Cert.KernelIdeal.KernelValue

open Idealize.ShloMosaic Idealize.ShloMosaic.ValueIdx Cert.KernelIdeal Cert.KernelIdeal.Gen Cert.KernelIdeal.Devs
  Cert.KernelIdeal.Proto Cert.KernelIdeal.PayAt Cert.KernelIdeal.HalfSpec Cert.KernelIdeal.ViewAt

/-! ## The two chains of payloads -/

/-- What the first half of the output block ends as: the eight steps' payloads in the body's order. -/
abbrev nest0 (A0 A1 A2 A3 A4 A5 A6 A7 : Vec Ideal S512x512 .f32) (W0 W1 W2 W3 W4 W5 W6 W7 : Vec Ideal S1x512x4096 .f32) :
    FVec Ideal S512x4096 .f32 :=
  k0_pay30 (F := Ideal) (k0_pay29 (F := Ideal) A7 W7 (k0_pay24 (F := Ideal) A6 W6 (k0_pay19 (F := Ideal) A5 W5
    (k0_pay15 (F := Ideal) A4 W4 (k0_pay12 (F := Ideal) A3 W3 (k0_pay9 (F := Ideal) A2 W2 (k0_pay6 (F := Ideal) A1 W1
      (k0_pay3 (F := Ideal) A0 W0))))))))

/-- What the second half ends as. -/
abbrev nest1 (A0 A1 A2 A3 A4 A5 A6 A7 : Vec Ideal S512x512 .f32) (W0 W1 W2 W3 W4 W5 W6 W7 : Vec Ideal S1x512x4096 .f32) :
    FVec Ideal S512x4096 .f32 :=
  k0_pay32 (F := Ideal) (k0_pay31 (F := Ideal) A7 W7 (k0_pay26 (F := Ideal) (k0_pay25 (F := Ideal) A6 W6)
    (k0_pay21 (F := Ideal) A5 (k0_pay20 (F := Ideal) W5) (constant (F := Ideal) S512x4096 .f32 0x00000000#32)
      (k0_pay16 (F := Ideal) A4 W4 (k0_pay13 (F := Ideal) A3 W3 (k0_pay10 (F := Ideal) A2 W2 (k0_pay7 (F := Ideal) A1 W1
        (k0_pay4 (F := Ideal) A0 W0))))))))

/-! ## Indices written two ways -/

theorem lo_lt (q : Fin 4096) : q.val < 8192 := by have := q.isLt; omega
theorem hi_lt (q : Fin 4096) : 4096 + q.val < 8192 := by have := q.isLt; omega

/-- Place kk of block b of the contraction, written 512 · b + kk. -/
theorem colIdx_eq (b : Fin 8) (kk : Fin 512) : (⟨512 * b.val + kk.val, row_lt b kk⟩ : Fin 4096) = blkIx b kk :=
  Fin.ext (by show 512 * b.val + kk.val = b.val * 512 + kk.val; omega)

theorem wm_bridge (Wm : Cert.Spec.S4096x8192.Idx → EReal) (b : Fin 8) (kk : Fin 512) (h : Fin 2) (q : Fin 4096) (q8 : Fin 8192)
    (hq8 : 4096 * h.val + q.val = q8.val) :
    Wm (ix2 (⟨512 * b.val + kk.val, row_lt b kk⟩ : Fin 4096) (⟨4096 * h.val + q.val, col_lt h q⟩ : Fin 8192))
      = Wm (ix2 (blkIx b kk) q8) := by
  rw [colIdx_eq, show (⟨4096 * h.val + q.val, col_lt h q⟩ : Fin 8192) = q8 from Fin.ext hq8]

/-! ## The output block under a longer list of stores

The body stores into each half once per step and, at the last step, twice: the accumulated sum and then its
activation. Read at an index, the newest store that contains the index wins, whatever the older stores were. -/

/-- A store through a rectangle that misses an index is not seen at that index. -/
theorem read_writes_miss_cons {sig' : RefSig} {κ : Kind} {sp : Space} {s : Shape} {e : EltTy} {Val : EltTy → Type}
    (v : View sig' κ sp s e) (f : v.ty.Contents Val) (r1 : Rect s) (w1 : r1.shape.Idx → Val e)
    (L : List (View.Piece Val s e)) (y : s.Idx) (hmiss : ∀ x1 : r1.shape.Idx, r1.emb x1 ≠ y) :
    v.read Val (v.writes Val f (⟨r1, w1⟩ :: L)) y = v.read Val (v.writes Val f L) y := by
  rw [View.writes_cons, View.read_slice_write_of_not_mem r1 _ _ _ ?_]
  intro hm
  obtain ⟨x1, -, hx1⟩ := Finset.mem_map.mp hm
  exact hmiss x1 hx1

section Tail
variable {F : FTy → Type} [FloatOps F]

/-- Column 4096 + q after stores whose newest is into the second half: that store's payload. -/
theorem out4_second (f : (cc0_stg1_0 : Ref sig .tc).ty.Contents (Elt F)) (a : S512x4096.Idx → Elt F .f32)
    (rest : List (View.Piece (Elt F) S512x8192 .f32)) (p : Fin 512) (q : Fin 4096) :
    (oM.view.writes (Elt F) f (⟨(Rect.unit (s := S512x8192) ![0, 4096] S512x4096.size inb_S512x8192_S512x4096_0_4096), a⟩ :: rest)) (ix2 p (⟨4096 + q.val, hi_lt q⟩ : Fin 8192)) = a (ix2 p q) := by
  have he := second_emb p q
  have h := View.read_writes_cons_emb (Val := Elt F) (View.whole (cc0_stg1_0 : Ref sig .tc)) f (Rect.unit (s := S512x8192) ![0, 4096] S512x4096.size inb_S512x8192_S512x4096_0_4096) a rest (ix2 p q)
  rw [he] at h
  exact (whole_read_apply (Val := Elt F) (cc0_stg1_0 : Ref sig .tc)
    ((View.whole (cc0_stg1_0 : Ref sig .tc)).writes (Elt F) f (⟨(Rect.unit (s := S512x8192) ![0, 4096] S512x4096.size inb_S512x8192_S512x4096_0_4096), a⟩ :: rest))
    (ix2 p (⟨4096 + q.val, hi_lt q⟩ : Fin 8192))).symm.trans h

/-- Column q of the first 4096 after two stores into the second half over a store into the first: the first half's
    newest store's payload. -/
theorem out4_first (f : (cc0_stg1_0 : Ref sig .tc).ty.Contents (Elt F)) (a b c0 : S512x4096.Idx → Elt F .f32)
    (rest : List (View.Piece (Elt F) S512x8192 .f32)) (p : Fin 512) (q : Fin 4096) :
    (oM.view.writes (Elt F) f (⟨(Rect.unit (s := S512x8192) ![0, 4096] S512x4096.size inb_S512x8192_S512x4096_0_4096), a⟩ :: ⟨(Rect.unit (s := S512x8192) ![0, 4096] S512x4096.size inb_S512x8192_S512x4096_0_4096), b⟩ :: ⟨(Rect.unit (s := S512x8192) ![0, 0] S512x4096.size inb_S512x8192_S512x4096_0_0), c0⟩ :: rest))
        (ix2 p (⟨q.val, lo_lt q⟩ : Fin 8192)) = c0 (ix2 p q) := by
  have he := first_emb p q
  have h1 := read_writes_miss_cons (Val := Elt F) (View.whole (cc0_stg1_0 : Ref sig .tc)) f (Rect.unit (s := S512x8192) ![0, 4096] S512x4096.size inb_S512x8192_S512x4096_0_4096) a
    (⟨(Rect.unit (s := S512x8192) ![0, 4096] S512x4096.size inb_S512x8192_S512x4096_0_4096), b⟩ :: ⟨(Rect.unit (s := S512x8192) ![0, 0] S512x4096.size inb_S512x8192_S512x4096_0_0), c0⟩ :: rest) ((Rect.unit (s := S512x8192) ![0, 0] S512x4096.size inb_S512x8192_S512x4096_0_0).emb (ix2 p q)) (second_ne_first p q)
  have h2 := read_writes_miss_cons (Val := Elt F) (View.whole (cc0_stg1_0 : Ref sig .tc)) f (Rect.unit (s := S512x8192) ![0, 4096] S512x4096.size inb_S512x8192_S512x4096_0_4096) b
    (⟨(Rect.unit (s := S512x8192) ![0, 0] S512x4096.size inb_S512x8192_S512x4096_0_0), c0⟩ :: rest) ((Rect.unit (s := S512x8192) ![0, 0] S512x4096.size inb_S512x8192_S512x4096_0_0).emb (ix2 p q)) (second_ne_first p q)
  have h3 := View.read_writes_cons_emb (Val := Elt F) (View.whole (cc0_stg1_0 : Ref sig .tc)) f (Rect.unit (s := S512x8192) ![0, 0] S512x4096.size inb_S512x8192_S512x4096_0_0) c0 rest (ix2 p q)
  have h := h1.trans (h2.trans h3)
  rw [he] at h
  exact (whole_read_apply (Val := Elt F) (cc0_stg1_0 : Ref sig .tc)
    ((View.whole (cc0_stg1_0 : Ref sig .tc)).writes (Elt F) f
      (⟨(Rect.unit (s := S512x8192) ![0, 4096] S512x4096.size inb_S512x8192_S512x4096_0_4096), a⟩ :: ⟨(Rect.unit (s := S512x8192) ![0, 4096] S512x4096.size inb_S512x8192_S512x4096_0_4096), b⟩ :: ⟨(Rect.unit (s := S512x8192) ![0, 0] S512x4096.size inb_S512x8192_S512x4096_0_0), c0⟩ :: rest))
    (ix2 p (⟨q.val, lo_lt q⟩ : Fin 8192))).symm.trans h

end Tail

/-! ## One entry of each half -/

section Core
variable (X : Cert.Spec.S4096x4096.Idx → EReal) (Wm : Cert.Spec.S4096x8192.Idx → EReal) (c : Dev nD)

theorem entry0 (A0 A1 A2 A3 A4 A5 A6 A7 : Vec Ideal S512x512 .f32) (W00 W10 W20 W30 W40 W50 W60 W70 : Vec Ideal S1x512x4096 .f32)
    (hA0 : ∀ p kk : Fin 512, A0 (ix2 p kk)
      = X (ix2 (⟨512 * c.val + p.val, row_lt c p⟩ : Fin 4096) (⟨512 * (peer c 0).val + kk.val, row_lt (peer c 0) kk⟩ : Fin 4096)))
    (hA1 : ∀ p kk : Fin 512, A1 (ix2 p kk)
      = X (ix2 (⟨512 * c.val + p.val, row_lt c p⟩ : Fin 4096) (⟨512 * (peer c 1).val + kk.val, row_lt (peer c 1) kk⟩ : Fin 4096)))
    (hA2 : ∀ p kk : Fin 512, A2 (ix2 p kk)
      = X (ix2 (⟨512 * c.val + p.val, row_lt c p⟩ : Fin 4096) (⟨512 * (peer c 2).val + kk.val, row_lt (peer c 2) kk⟩ : Fin 4096)))
    (hA3 : ∀ p kk : Fin 512, A3 (ix2 p kk)
      = X (ix2 (⟨512 * c.val + p.val, row_lt c p⟩ : Fin 4096) (⟨512 * (peer c 3).val + kk.val, row_lt (peer c 3) kk⟩ : Fin 4096)))
    (hA4 : ∀ p kk : Fin 512, A4 (ix2 p kk)
      = X (ix2 (⟨512 * c.val + p.val, row_lt c p⟩ : Fin 4096) (⟨512 * (peer c 4).val + kk.val, row_lt (peer c 4) kk⟩ : Fin 4096)))
    (hA5 : ∀ p kk : Fin 512, A5 (ix2 p kk)
      = X (ix2 (⟨512 * c.val + p.val, row_lt c p⟩ : Fin 4096) (⟨512 * (peer c 5).val + kk.val, row_lt (peer c 5) kk⟩ : Fin 4096)))
    (hA6 : ∀ p kk : Fin 512, A6 (ix2 p kk)
      = X (ix2 (⟨512 * c.val + p.val, row_lt c p⟩ : Fin 4096) (⟨512 * (peer c 6).val + kk.val, row_lt (peer c 6) kk⟩ : Fin 4096)))
    (hA7 : ∀ p kk : Fin 512, A7 (ix2 p kk)
      = X (ix2 (⟨512 * c.val + p.val, row_lt c p⟩ : Fin 4096) (⟨512 * (peer c 7).val + kk.val, row_lt (peer c 7) kk⟩ : Fin 4096)))
    (hW00 : ∀ (kk : Fin 512) (q : Fin 4096), W00 (ix3 (0 : Fin 1) kk q)
      = Wm (ix2 (⟨512 * (peer c 0).val + kk.val, row_lt (peer c 0) kk⟩ : Fin 4096) (⟨4096 * (0 : Fin 2).val + q.val, col_lt 0 q⟩ : Fin 8192)))
    (hW10 : ∀ (kk : Fin 512) (q : Fin 4096), W10 (ix3 (0 : Fin 1) kk q)
      = Wm (ix2 (⟨512 * (peer c 1).val + kk.val, row_lt (peer c 1) kk⟩ : Fin 4096) (⟨4096 * (0 : Fin 2).val + q.val, col_lt 0 q⟩ : Fin 8192)))
    (hW20 : ∀ (kk : Fin 512) (q : Fin 4096), W20 (ix3 (0 : Fin 1) kk q)
      = Wm (ix2 (⟨512 * (peer c 2).val + kk.val, row_lt (peer c 2) kk⟩ : Fin 4096) (⟨4096 * (0 : Fin 2).val + q.val, col_lt 0 q⟩ : Fin 8192)))
    (hW30 : ∀ (kk : Fin 512) (q : Fin 4096), W30 (ix3 (0 : Fin 1) kk q)
      = Wm (ix2 (⟨512 * (peer c 3).val + kk.val, row_lt (peer c 3) kk⟩ : Fin 4096) (⟨4096 * (0 : Fin 2).val + q.val, col_lt 0 q⟩ : Fin 8192)))
    (hW40 : ∀ (kk : Fin 512) (q : Fin 4096), W40 (ix3 (0 : Fin 1) kk q)
      = Wm (ix2 (⟨512 * (peer c 4).val + kk.val, row_lt (peer c 4) kk⟩ : Fin 4096) (⟨4096 * (0 : Fin 2).val + q.val, col_lt 0 q⟩ : Fin 8192)))
    (hW50 : ∀ (kk : Fin 512) (q : Fin 4096), W50 (ix3 (0 : Fin 1) kk q)
      = Wm (ix2 (⟨512 * (peer c 5).val + kk.val, row_lt (peer c 5) kk⟩ : Fin 4096) (⟨4096 * (0 : Fin 2).val + q.val, col_lt 0 q⟩ : Fin 8192)))
    (hW60 : ∀ (kk : Fin 512) (q : Fin 4096), W60 (ix3 (0 : Fin 1) kk q)
      = Wm (ix2 (⟨512 * (peer c 6).val + kk.val, row_lt (peer c 6) kk⟩ : Fin 4096) (⟨4096 * (0 : Fin 2).val + q.val, col_lt 0 q⟩ : Fin 8192)))
    (hW70 : ∀ (kk : Fin 512) (q : Fin 4096), W70 (ix3 (0 : Fin 1) kk q)
      = Wm (ix2 (⟨512 * (peer c 7).val + kk.val, row_lt (peer c 7) kk⟩ : Fin 4096) (⟨4096 * (0 : Fin 2).val + q.val, col_lt 0 q⟩ : Fin 8192)))
    (p : Fin 512) (q : Fin 4096) :
    nest0 A0 A1 A2 A3 A4 A5 A6 A7 W00 W10 W20 W30 W40 W50 W60 W70 (ix2 p q)
      = Cert.Spec.gelu (∑ k : Fin 4096, X (ix2 (⟨512 * c.val + p.val, row_lt c p⟩ : Fin 4096) k)
          * Wm (ix2 k (⟨q.val, by have := q.isLt; omega⟩ : Fin 8192))) :=
  half0_spec (fun k : Fin 4096 => X (ix2 (⟨512 * c.val + p.val, row_lt c p⟩ : Fin 4096) k))
    (fun k : Fin 4096 => Wm (ix2 k (⟨q.val, by have := q.isLt; omega⟩ : Fin 8192)))
    (fun t : Fin 8 => (peer c t.val : Fin 8)) (peer_bij c) A0 A1 A2 A3 A4 A5 A6 A7 W00 W10 W20 W30 W40 W50 W60 W70 p q
    (fun kk => (hA0 p kk).trans (congrArg (fun j : Fin 4096 => X (ix2 (⟨512 * c.val + p.val, row_lt c p⟩ : Fin 4096) j)) (colIdx_eq (peer c 0) kk)))
    (fun kk => (hA1 p kk).trans (congrArg (fun j : Fin 4096 => X (ix2 (⟨512 * c.val + p.val, row_lt c p⟩ : Fin 4096) j)) (colIdx_eq (peer c 1) kk)))
    (fun kk => (hA2 p kk).trans (congrArg (fun j : Fin 4096 => X (ix2 (⟨512 * c.val + p.val, row_lt c p⟩ : Fin 4096) j)) (colIdx_eq (peer c 2) kk)))
    (fun kk => (hA3 p kk).trans (congrArg (fun j : Fin 4096 => X (ix2 (⟨512 * c.val + p.val, row_lt c p⟩ : Fin 4096) j)) (colIdx_eq (peer c 3) kk)))
    (fun kk => (hA4 p kk).trans (congrArg (fun j : Fin 4096 => X (ix2 (⟨512 * c.val + p.val, row_lt c p⟩ : Fin 4096) j)) (colIdx_eq (peer c 4) kk)))
    (fun kk => (hA5 p kk).trans (congrArg (fun j : Fin 4096 => X (ix2 (⟨512 * c.val + p.val, row_lt c p⟩ : Fin 4096) j)) (colIdx_eq (peer c 5) kk)))
    (fun kk => (hA6 p kk).trans (congrArg (fun j : Fin 4096 => X (ix2 (⟨512 * c.val + p.val, row_lt c p⟩ : Fin 4096) j)) (colIdx_eq (peer c 6) kk)))
    (fun kk => (hA7 p kk).trans (congrArg (fun j : Fin 4096 => X (ix2 (⟨512 * c.val + p.val, row_lt c p⟩ : Fin 4096) j)) (colIdx_eq (peer c 7) kk)))
    (fun kk => (hW00 kk q).trans (wm_bridge Wm (peer c 0) kk 0 q _ (by show 4096 * 0 + q.val = q.val; omega)))
    (fun kk => (hW10 kk q).trans (wm_bridge Wm (peer c 1) kk 0 q _ (by show 4096 * 0 + q.val = q.val; omega)))
    (fun kk => (hW20 kk q).trans (wm_bridge Wm (peer c 2) kk 0 q _ (by show 4096 * 0 + q.val = q.val; omega)))
    (fun kk => (hW30 kk q).trans (wm_bridge Wm (peer c 3) kk 0 q _ (by show 4096 * 0 + q.val = q.val; omega)))
    (fun kk => (hW40 kk q).trans (wm_bridge Wm (peer c 4) kk 0 q _ (by show 4096 * 0 + q.val = q.val; omega)))
    (fun kk => (hW50 kk q).trans (wm_bridge Wm (peer c 5) kk 0 q _ (by show 4096 * 0 + q.val = q.val; omega)))
    (fun kk => (hW60 kk q).trans (wm_bridge Wm (peer c 6) kk 0 q _ (by show 4096 * 0 + q.val = q.val; omega)))
    (fun kk => (hW70 kk q).trans (wm_bridge Wm (peer c 7) kk 0 q _ (by show 4096 * 0 + q.val = q.val; omega)))

theorem entry1 (A0 A1 A2 A3 A4 A5 A6 A7 : Vec Ideal S512x512 .f32) (W01 W11 W21 W31 W41 W51 W61 W71 : Vec Ideal S1x512x4096 .f32)
    (hA0 : ∀ p kk : Fin 512, A0 (ix2 p kk)
      = X (ix2 (⟨512 * c.val + p.val, row_lt c p⟩ : Fin 4096) (⟨512 * (peer c 0).val + kk.val, row_lt (peer c 0) kk⟩ : Fin 4096)))
    (hA1 : ∀ p kk : Fin 512, A1 (ix2 p kk)
      = X (ix2 (⟨512 * c.val + p.val, row_lt c p⟩ : Fin 4096) (⟨512 * (peer c 1).val + kk.val, row_lt (peer c 1) kk⟩ : Fin 4096)))
    (hA2 : ∀ p kk : Fin 512, A2 (ix2 p kk)
      = X (ix2 (⟨512 * c.val + p.val, row_lt c p⟩ : Fin 4096) (⟨512 * (peer c 2).val + kk.val, row_lt (peer c 2) kk⟩ : Fin 4096)))
    (hA3 : ∀ p kk : Fin 512, A3 (ix2 p kk)
      = X (ix2 (⟨512 * c.val + p.val, row_lt c p⟩ : Fin 4096) (⟨512 * (peer c 3).val + kk.val, row_lt (peer c 3) kk⟩ : Fin 4096)))
    (hA4 : ∀ p kk : Fin 512, A4 (ix2 p kk)
      = X (ix2 (⟨512 * c.val + p.val, row_lt c p⟩ : Fin 4096) (⟨512 * (peer c 4).val + kk.val, row_lt (peer c 4) kk⟩ : Fin 4096)))
    (hA5 : ∀ p kk : Fin 512, A5 (ix2 p kk)
      = X (ix2 (⟨512 * c.val + p.val, row_lt c p⟩ : Fin 4096) (⟨512 * (peer c 5).val + kk.val, row_lt (peer c 5) kk⟩ : Fin 4096)))
    (hA6 : ∀ p kk : Fin 512, A6 (ix2 p kk)
      = X (ix2 (⟨512 * c.val + p.val, row_lt c p⟩ : Fin 4096) (⟨512 * (peer c 6).val + kk.val, row_lt (peer c 6) kk⟩ : Fin 4096)))
    (hA7 : ∀ p kk : Fin 512, A7 (ix2 p kk)
      = X (ix2 (⟨512 * c.val + p.val, row_lt c p⟩ : Fin 4096) (⟨512 * (peer c 7).val + kk.val, row_lt (peer c 7) kk⟩ : Fin 4096)))
    (hW01 : ∀ (kk : Fin 512) (q : Fin 4096), W01 (ix3 (0 : Fin 1) kk q)
      = Wm (ix2 (⟨512 * (peer c 0).val + kk.val, row_lt (peer c 0) kk⟩ : Fin 4096) (⟨4096 * (1 : Fin 2).val + q.val, col_lt 1 q⟩ : Fin 8192)))
    (hW11 : ∀ (kk : Fin 512) (q : Fin 4096), W11 (ix3 (0 : Fin 1) kk q)
      = Wm (ix2 (⟨512 * (peer c 1).val + kk.val, row_lt (peer c 1) kk⟩ : Fin 4096) (⟨4096 * (1 : Fin 2).val + q.val, col_lt 1 q⟩ : Fin 8192)))
    (hW21 : ∀ (kk : Fin 512) (q : Fin 4096), W21 (ix3 (0 : Fin 1) kk q)
      = Wm (ix2 (⟨512 * (peer c 2).val + kk.val, row_lt (peer c 2) kk⟩ : Fin 4096) (⟨4096 * (1 : Fin 2).val + q.val, col_lt 1 q⟩ : Fin 8192)))
    (hW31 : ∀ (kk : Fin 512) (q : Fin 4096), W31 (ix3 (0 : Fin 1) kk q)
      = Wm (ix2 (⟨512 * (peer c 3).val + kk.val, row_lt (peer c 3) kk⟩ : Fin 4096) (⟨4096 * (1 : Fin 2).val + q.val, col_lt 1 q⟩ : Fin 8192)))
    (hW41 : ∀ (kk : Fin 512) (q : Fin 4096), W41 (ix3 (0 : Fin 1) kk q)
      = Wm (ix2 (⟨512 * (peer c 4).val + kk.val, row_lt (peer c 4) kk⟩ : Fin 4096) (⟨4096 * (1 : Fin 2).val + q.val, col_lt 1 q⟩ : Fin 8192)))
    (hW51 : ∀ (kk : Fin 512) (q : Fin 4096), W51 (ix3 (0 : Fin 1) kk q)
      = Wm (ix2 (⟨512 * (peer c 5).val + kk.val, row_lt (peer c 5) kk⟩ : Fin 4096) (⟨4096 * (1 : Fin 2).val + q.val, col_lt 1 q⟩ : Fin 8192)))
    (hW61 : ∀ (kk : Fin 512) (q : Fin 4096), W61 (ix3 (0 : Fin 1) kk q)
      = Wm (ix2 (⟨512 * (peer c 6).val + kk.val, row_lt (peer c 6) kk⟩ : Fin 4096) (⟨4096 * (1 : Fin 2).val + q.val, col_lt 1 q⟩ : Fin 8192)))
    (hW71 : ∀ (kk : Fin 512) (q : Fin 4096), W71 (ix3 (0 : Fin 1) kk q)
      = Wm (ix2 (⟨512 * (peer c 7).val + kk.val, row_lt (peer c 7) kk⟩ : Fin 4096) (⟨4096 * (1 : Fin 2).val + q.val, col_lt 1 q⟩ : Fin 8192)))
    (p : Fin 512) (q : Fin 4096) :
    nest1 A0 A1 A2 A3 A4 A5 A6 A7 W01 W11 W21 W31 W41 W51 W61 W71 (ix2 p q)
      = Cert.Spec.gelu (∑ k : Fin 4096, X (ix2 (⟨512 * c.val + p.val, row_lt c p⟩ : Fin 4096) k)
          * Wm (ix2 k (⟨4096 + q.val, by have := q.isLt; omega⟩ : Fin 8192))) :=
  half1_spec (fun k : Fin 4096 => X (ix2 (⟨512 * c.val + p.val, row_lt c p⟩ : Fin 4096) k))
    (fun k : Fin 4096 => Wm (ix2 k (⟨4096 + q.val, by have := q.isLt; omega⟩ : Fin 8192)))
    (fun t : Fin 8 => (peer c t.val : Fin 8)) (peer_bij c) A0 A1 A2 A3 A4 A5 A6 A7 W01 W11 W21 W31 W41 W51 W61 W71 p q
    (fun kk => (hA0 p kk).trans (congrArg (fun j : Fin 4096 => X (ix2 (⟨512 * c.val + p.val, row_lt c p⟩ : Fin 4096) j)) (colIdx_eq (peer c 0) kk)))
    (fun kk => (hA1 p kk).trans (congrArg (fun j : Fin 4096 => X (ix2 (⟨512 * c.val + p.val, row_lt c p⟩ : Fin 4096) j)) (colIdx_eq (peer c 1) kk)))
    (fun kk => (hA2 p kk).trans (congrArg (fun j : Fin 4096 => X (ix2 (⟨512 * c.val + p.val, row_lt c p⟩ : Fin 4096) j)) (colIdx_eq (peer c 2) kk)))
    (fun kk => (hA3 p kk).trans (congrArg (fun j : Fin 4096 => X (ix2 (⟨512 * c.val + p.val, row_lt c p⟩ : Fin 4096) j)) (colIdx_eq (peer c 3) kk)))
    (fun kk => (hA4 p kk).trans (congrArg (fun j : Fin 4096 => X (ix2 (⟨512 * c.val + p.val, row_lt c p⟩ : Fin 4096) j)) (colIdx_eq (peer c 4) kk)))
    (fun kk => (hA5 p kk).trans (congrArg (fun j : Fin 4096 => X (ix2 (⟨512 * c.val + p.val, row_lt c p⟩ : Fin 4096) j)) (colIdx_eq (peer c 5) kk)))
    (fun kk => (hA6 p kk).trans (congrArg (fun j : Fin 4096 => X (ix2 (⟨512 * c.val + p.val, row_lt c p⟩ : Fin 4096) j)) (colIdx_eq (peer c 6) kk)))
    (fun kk => (hA7 p kk).trans (congrArg (fun j : Fin 4096 => X (ix2 (⟨512 * c.val + p.val, row_lt c p⟩ : Fin 4096) j)) (colIdx_eq (peer c 7) kk)))
    (fun kk => (hW01 kk q).trans (wm_bridge Wm (peer c 0) kk 1 q _ (by show 4096 * 1 + q.val = 4096 + q.val; omega)))
    (fun kk => (hW11 kk q).trans (wm_bridge Wm (peer c 1) kk 1 q _ (by show 4096 * 1 + q.val = 4096 + q.val; omega)))
    (fun kk => (hW21 kk q).trans (wm_bridge Wm (peer c 2) kk 1 q _ (by show 4096 * 1 + q.val = 4096 + q.val; omega)))
    (fun kk => (hW31 kk q).trans (wm_bridge Wm (peer c 3) kk 1 q _ (by show 4096 * 1 + q.val = 4096 + q.val; omega)))
    (fun kk => (hW41 kk q).trans (wm_bridge Wm (peer c 4) kk 1 q _ (by show 4096 * 1 + q.val = 4096 + q.val; omega)))
    (fun kk => (hW51 kk q).trans (wm_bridge Wm (peer c 5) kk 1 q _ (by show 4096 * 1 + q.val = 4096 + q.val; omega)))
    (fun kk => (hW61 kk q).trans (wm_bridge Wm (peer c 6) kk 1 q _ (by show 4096 * 1 + q.val = 4096 + q.val; omega)))
    (fun kk => (hW71 kk q).trans (wm_bridge Wm (peer c 7) kk 1 q _ (by show 4096 * 1 + q.val = 4096 + q.val; omega)))

/-! ## The output block -/

/-- The output block after the two halves' stores is block c of the specified result. -/
theorem out_block_of (f : (cc0_stg1_0 : Ref sig .tc).ty.Contents (Elt Ideal))
    (A0 A1 A2 A3 A4 A5 A6 A7 : Vec Ideal S512x512 .f32) (W00 W10 W20 W30 W40 W50 W60 W70 : Vec Ideal S1x512x4096 .f32)
    (W01 W11 W21 W31 W41 W51 W61 W71 : Vec Ideal S1x512x4096 .f32)
    (hA0 : ∀ p kk : Fin 512, A0 (ix2 p kk)
      = X (ix2 (⟨512 * c.val + p.val, row_lt c p⟩ : Fin 4096) (⟨512 * (peer c 0).val + kk.val, row_lt (peer c 0) kk⟩ : Fin 4096)))
    (hA1 : ∀ p kk : Fin 512, A1 (ix2 p kk)
      = X (ix2 (⟨512 * c.val + p.val, row_lt c p⟩ : Fin 4096) (⟨512 * (peer c 1).val + kk.val, row_lt (peer c 1) kk⟩ : Fin 4096)))
    (hA2 : ∀ p kk : Fin 512, A2 (ix2 p kk)
      = X (ix2 (⟨512 * c.val + p.val, row_lt c p⟩ : Fin 4096) (⟨512 * (peer c 2).val + kk.val, row_lt (peer c 2) kk⟩ : Fin 4096)))
    (hA3 : ∀ p kk : Fin 512, A3 (ix2 p kk)
      = X (ix2 (⟨512 * c.val + p.val, row_lt c p⟩ : Fin 4096) (⟨512 * (peer c 3).val + kk.val, row_lt (peer c 3) kk⟩ : Fin 4096)))
    (hA4 : ∀ p kk : Fin 512, A4 (ix2 p kk)
      = X (ix2 (⟨512 * c.val + p.val, row_lt c p⟩ : Fin 4096) (⟨512 * (peer c 4).val + kk.val, row_lt (peer c 4) kk⟩ : Fin 4096)))
    (hA5 : ∀ p kk : Fin 512, A5 (ix2 p kk)
      = X (ix2 (⟨512 * c.val + p.val, row_lt c p⟩ : Fin 4096) (⟨512 * (peer c 5).val + kk.val, row_lt (peer c 5) kk⟩ : Fin 4096)))
    (hA6 : ∀ p kk : Fin 512, A6 (ix2 p kk)
      = X (ix2 (⟨512 * c.val + p.val, row_lt c p⟩ : Fin 4096) (⟨512 * (peer c 6).val + kk.val, row_lt (peer c 6) kk⟩ : Fin 4096)))
    (hA7 : ∀ p kk : Fin 512, A7 (ix2 p kk)
      = X (ix2 (⟨512 * c.val + p.val, row_lt c p⟩ : Fin 4096) (⟨512 * (peer c 7).val + kk.val, row_lt (peer c 7) kk⟩ : Fin 4096)))
    (hW00 : ∀ (kk : Fin 512) (q : Fin 4096), W00 (ix3 (0 : Fin 1) kk q)
      = Wm (ix2 (⟨512 * (peer c 0).val + kk.val, row_lt (peer c 0) kk⟩ : Fin 4096) (⟨4096 * (0 : Fin 2).val + q.val, col_lt 0 q⟩ : Fin 8192)))
    (hW10 : ∀ (kk : Fin 512) (q : Fin 4096), W10 (ix3 (0 : Fin 1) kk q)
      = Wm (ix2 (⟨512 * (peer c 1).val + kk.val, row_lt (peer c 1) kk⟩ : Fin 4096) (⟨4096 * (0 : Fin 2).val + q.val, col_lt 0 q⟩ : Fin 8192)))
    (hW20 : ∀ (kk : Fin 512) (q : Fin 4096), W20 (ix3 (0 : Fin 1) kk q)
      = Wm (ix2 (⟨512 * (peer c 2).val + kk.val, row_lt (peer c 2) kk⟩ : Fin 4096) (⟨4096 * (0 : Fin 2).val + q.val, col_lt 0 q⟩ : Fin 8192)))
    (hW30 : ∀ (kk : Fin 512) (q : Fin 4096), W30 (ix3 (0 : Fin 1) kk q)
      = Wm (ix2 (⟨512 * (peer c 3).val + kk.val, row_lt (peer c 3) kk⟩ : Fin 4096) (⟨4096 * (0 : Fin 2).val + q.val, col_lt 0 q⟩ : Fin 8192)))
    (hW40 : ∀ (kk : Fin 512) (q : Fin 4096), W40 (ix3 (0 : Fin 1) kk q)
      = Wm (ix2 (⟨512 * (peer c 4).val + kk.val, row_lt (peer c 4) kk⟩ : Fin 4096) (⟨4096 * (0 : Fin 2).val + q.val, col_lt 0 q⟩ : Fin 8192)))
    (hW50 : ∀ (kk : Fin 512) (q : Fin 4096), W50 (ix3 (0 : Fin 1) kk q)
      = Wm (ix2 (⟨512 * (peer c 5).val + kk.val, row_lt (peer c 5) kk⟩ : Fin 4096) (⟨4096 * (0 : Fin 2).val + q.val, col_lt 0 q⟩ : Fin 8192)))
    (hW60 : ∀ (kk : Fin 512) (q : Fin 4096), W60 (ix3 (0 : Fin 1) kk q)
      = Wm (ix2 (⟨512 * (peer c 6).val + kk.val, row_lt (peer c 6) kk⟩ : Fin 4096) (⟨4096 * (0 : Fin 2).val + q.val, col_lt 0 q⟩ : Fin 8192)))
    (hW70 : ∀ (kk : Fin 512) (q : Fin 4096), W70 (ix3 (0 : Fin 1) kk q)
      = Wm (ix2 (⟨512 * (peer c 7).val + kk.val, row_lt (peer c 7) kk⟩ : Fin 4096) (⟨4096 * (0 : Fin 2).val + q.val, col_lt 0 q⟩ : Fin 8192)))
    (hW01 : ∀ (kk : Fin 512) (q : Fin 4096), W01 (ix3 (0 : Fin 1) kk q)
      = Wm (ix2 (⟨512 * (peer c 0).val + kk.val, row_lt (peer c 0) kk⟩ : Fin 4096) (⟨4096 * (1 : Fin 2).val + q.val, col_lt 1 q⟩ : Fin 8192)))
    (hW11 : ∀ (kk : Fin 512) (q : Fin 4096), W11 (ix3 (0 : Fin 1) kk q)
      = Wm (ix2 (⟨512 * (peer c 1).val + kk.val, row_lt (peer c 1) kk⟩ : Fin 4096) (⟨4096 * (1 : Fin 2).val + q.val, col_lt 1 q⟩ : Fin 8192)))
    (hW21 : ∀ (kk : Fin 512) (q : Fin 4096), W21 (ix3 (0 : Fin 1) kk q)
      = Wm (ix2 (⟨512 * (peer c 2).val + kk.val, row_lt (peer c 2) kk⟩ : Fin 4096) (⟨4096 * (1 : Fin 2).val + q.val, col_lt 1 q⟩ : Fin 8192)))
    (hW31 : ∀ (kk : Fin 512) (q : Fin 4096), W31 (ix3 (0 : Fin 1) kk q)
      = Wm (ix2 (⟨512 * (peer c 3).val + kk.val, row_lt (peer c 3) kk⟩ : Fin 4096) (⟨4096 * (1 : Fin 2).val + q.val, col_lt 1 q⟩ : Fin 8192)))
    (hW41 : ∀ (kk : Fin 512) (q : Fin 4096), W41 (ix3 (0 : Fin 1) kk q)
      = Wm (ix2 (⟨512 * (peer c 4).val + kk.val, row_lt (peer c 4) kk⟩ : Fin 4096) (⟨4096 * (1 : Fin 2).val + q.val, col_lt 1 q⟩ : Fin 8192)))
    (hW51 : ∀ (kk : Fin 512) (q : Fin 4096), W51 (ix3 (0 : Fin 1) kk q)
      = Wm (ix2 (⟨512 * (peer c 5).val + kk.val, row_lt (peer c 5) kk⟩ : Fin 4096) (⟨4096 * (1 : Fin 2).val + q.val, col_lt 1 q⟩ : Fin 8192)))
    (hW61 : ∀ (kk : Fin 512) (q : Fin 4096), W61 (ix3 (0 : Fin 1) kk q)
      = Wm (ix2 (⟨512 * (peer c 6).val + kk.val, row_lt (peer c 6) kk⟩ : Fin 4096) (⟨4096 * (1 : Fin 2).val + q.val, col_lt 1 q⟩ : Fin 8192)))
    (hW71 : ∀ (kk : Fin 512) (q : Fin 4096), W71 (ix3 (0 : Fin 1) kk q)
      = Wm (ix2 (⟨512 * (peer c 7).val + kk.val, row_lt (peer c 7) kk⟩ : Fin 4096) (⟨4096 * (1 : Fin 2).val + q.val, col_lt 1 q⟩ : Fin 8192))) :
    oM.view.writes (Elt Ideal) f
        [⟨Rect.unit (s := S512x8192) ![0, 4096] S512x4096.size inb_S512x8192_S512x4096_0_4096, nest1 A0 A1 A2 A3 A4 A5 A6 A7 W01 W11 W21 W31 W41 W51 W61 W71⟩,
         ⟨Rect.unit (s := S512x8192) ![0, 0] S512x4096.size inb_S512x8192_S512x4096_0_0, nest0 A0 A1 A2 A3 A4 A5 A6 A7 W00 W10 W20 W30 W40 W50 W60 W70⟩]
      = Layout.block ⟨2, ![512, 8192]⟩ ⟨2, ![4096, 8192]⟩ 0 8 c (Cert.Spec.G X Wm) := by
  funext i
  obtain ⟨p, q8, rfl⟩ : ∃ (p : Fin 512) (q8 : Fin 8192), i = ix2 p q8 := ⟨i 0, i 1, eq_ix2 i⟩
  rw [Cert.RefBlock.block_G]
  by_cases hq : q8.val < 4096
  · obtain ⟨q, rfl⟩ : ∃ q : Fin 4096, q8 = (⟨q.val, lo_lt q⟩ : Fin 8192) := ⟨⟨q8.val, hq⟩, Fin.ext rfl⟩
    exact (out_first f (nest0 A0 A1 A2 A3 A4 A5 A6 A7 W00 W10 W20 W30 W40 W50 W60 W70) (nest1 A0 A1 A2 A3 A4 A5 A6 A7 W01 W11 W21 W31 W41 W51 W61 W71) p q).trans
      (entry0 X Wm c A0 A1 A2 A3 A4 A5 A6 A7 W00 W10 W20 W30 W40 W50 W60 W70 hA0 hA1 hA2 hA3 hA4 hA5 hA6 hA7 hW00 hW10 hW20 hW30 hW40 hW50 hW60 hW70 p q)
  · obtain ⟨q, rfl⟩ : ∃ q : Fin 4096, q8 = (⟨4096 + q.val, hi_lt q⟩ : Fin 8192) :=
      ⟨⟨q8.val - 4096, by have := q8.isLt; omega⟩, Fin.ext (by show q8.val = 4096 + (q8.val - 4096); omega)⟩
    exact (out_second f (nest0 A0 A1 A2 A3 A4 A5 A6 A7 W00 W10 W20 W30 W40 W50 W60 W70) (nest1 A0 A1 A2 A3 A4 A5 A6 A7 W01 W11 W21 W31 W41 W51 W61 W71) p q).trans
      (entry1 X Wm c A0 A1 A2 A3 A4 A5 A6 A7 W01 W11 W21 W31 W41 W51 W61 W71 hA0 hA1 hA2 hA3 hA4 hA5 hA6 hA7 hW01 hW11 hW21 hW31 hW41 hW51 hW61 hW71 p q)

end Core

/-- The output block when the newest four stores are the second half's activation over its sum, then the first half's
    activation over its sum, over any older stores. -/
theorem out_block_of_tail (X : Cert.Spec.S4096x4096.Idx → EReal) (Wm : Cert.Spec.S4096x8192.Idx → EReal) (c : Dev nD)
    (f : (cc0_stg1_0 : Ref sig .tc).ty.Contents (Elt Ideal))
    (b : S512x4096.Idx → Elt Ideal .f32) (rest : List (View.Piece (Elt Ideal) S512x8192 .f32))
    (A0 A1 A2 A3 A4 A5 A6 A7 : Vec Ideal S512x512 .f32) (W00 W10 W20 W30 W40 W50 W60 W70 : Vec Ideal S1x512x4096 .f32)
    (W01 W11 W21 W31 W41 W51 W61 W71 : Vec Ideal S1x512x4096 .f32)
    (hA0 : ∀ p kk : Fin 512, A0 (ix2 p kk)
      = X (ix2 (⟨512 * c.val + p.val, row_lt c p⟩ : Fin 4096) (⟨512 * (peer c 0).val + kk.val, row_lt (peer c 0) kk⟩ : Fin 4096)))
    (hA1 : ∀ p kk : Fin 512, A1 (ix2 p kk)
      = X (ix2 (⟨512 * c.val + p.val, row_lt c p⟩ : Fin 4096) (⟨512 * (peer c 1).val + kk.val, row_lt (peer c 1) kk⟩ : Fin 4096)))
    (hA2 : ∀ p kk : Fin 512, A2 (ix2 p kk)
      = X (ix2 (⟨512 * c.val + p.val, row_lt c p⟩ : Fin 4096) (⟨512 * (peer c 2).val + kk.val, row_lt (peer c 2) kk⟩ : Fin 4096)))
    (hA3 : ∀ p kk : Fin 512, A3 (ix2 p kk)
      = X (ix2 (⟨512 * c.val + p.val, row_lt c p⟩ : Fin 4096) (⟨512 * (peer c 3).val + kk.val, row_lt (peer c 3) kk⟩ : Fin 4096)))
    (hA4 : ∀ p kk : Fin 512, A4 (ix2 p kk)
      = X (ix2 (⟨512 * c.val + p.val, row_lt c p⟩ : Fin 4096) (⟨512 * (peer c 4).val + kk.val, row_lt (peer c 4) kk⟩ : Fin 4096)))
    (hA5 : ∀ p kk : Fin 512, A5 (ix2 p kk)
      = X (ix2 (⟨512 * c.val + p.val, row_lt c p⟩ : Fin 4096) (⟨512 * (peer c 5).val + kk.val, row_lt (peer c 5) kk⟩ : Fin 4096)))
    (hA6 : ∀ p kk : Fin 512, A6 (ix2 p kk)
      = X (ix2 (⟨512 * c.val + p.val, row_lt c p⟩ : Fin 4096) (⟨512 * (peer c 6).val + kk.val, row_lt (peer c 6) kk⟩ : Fin 4096)))
    (hA7 : ∀ p kk : Fin 512, A7 (ix2 p kk)
      = X (ix2 (⟨512 * c.val + p.val, row_lt c p⟩ : Fin 4096) (⟨512 * (peer c 7).val + kk.val, row_lt (peer c 7) kk⟩ : Fin 4096)))
    (hW00 : ∀ (kk : Fin 512) (q : Fin 4096), W00 (ix3 (0 : Fin 1) kk q)
      = Wm (ix2 (⟨512 * (peer c 0).val + kk.val, row_lt (peer c 0) kk⟩ : Fin 4096) (⟨4096 * (0 : Fin 2).val + q.val, col_lt 0 q⟩ : Fin 8192)))
    (hW10 : ∀ (kk : Fin 512) (q : Fin 4096), W10 (ix3 (0 : Fin 1) kk q)
      = Wm (ix2 (⟨512 * (peer c 1).val + kk.val, row_lt (peer c 1) kk⟩ : Fin 4096) (⟨4096 * (0 : Fin 2).val + q.val, col_lt 0 q⟩ : Fin 8192)))
    (hW20 : ∀ (kk : Fin 512) (q : Fin 4096), W20 (ix3 (0 : Fin 1) kk q)
      = Wm (ix2 (⟨512 * (peer c 2).val + kk.val, row_lt (peer c 2) kk⟩ : Fin 4096) (⟨4096 * (0 : Fin 2).val + q.val, col_lt 0 q⟩ : Fin 8192)))
    (hW30 : ∀ (kk : Fin 512) (q : Fin 4096), W30 (ix3 (0 : Fin 1) kk q)
      = Wm (ix2 (⟨512 * (peer c 3).val + kk.val, row_lt (peer c 3) kk⟩ : Fin 4096) (⟨4096 * (0 : Fin 2).val + q.val, col_lt 0 q⟩ : Fin 8192)))
    (hW40 : ∀ (kk : Fin 512) (q : Fin 4096), W40 (ix3 (0 : Fin 1) kk q)
      = Wm (ix2 (⟨512 * (peer c 4).val + kk.val, row_lt (peer c 4) kk⟩ : Fin 4096) (⟨4096 * (0 : Fin 2).val + q.val, col_lt 0 q⟩ : Fin 8192)))
    (hW50 : ∀ (kk : Fin 512) (q : Fin 4096), W50 (ix3 (0 : Fin 1) kk q)
      = Wm (ix2 (⟨512 * (peer c 5).val + kk.val, row_lt (peer c 5) kk⟩ : Fin 4096) (⟨4096 * (0 : Fin 2).val + q.val, col_lt 0 q⟩ : Fin 8192)))
    (hW60 : ∀ (kk : Fin 512) (q : Fin 4096), W60 (ix3 (0 : Fin 1) kk q)
      = Wm (ix2 (⟨512 * (peer c 6).val + kk.val, row_lt (peer c 6) kk⟩ : Fin 4096) (⟨4096 * (0 : Fin 2).val + q.val, col_lt 0 q⟩ : Fin 8192)))
    (hW70 : ∀ (kk : Fin 512) (q : Fin 4096), W70 (ix3 (0 : Fin 1) kk q)
      = Wm (ix2 (⟨512 * (peer c 7).val + kk.val, row_lt (peer c 7) kk⟩ : Fin 4096) (⟨4096 * (0 : Fin 2).val + q.val, col_lt 0 q⟩ : Fin 8192)))
    (hW01 : ∀ (kk : Fin 512) (q : Fin 4096), W01 (ix3 (0 : Fin 1) kk q)
      = Wm (ix2 (⟨512 * (peer c 0).val + kk.val, row_lt (peer c 0) kk⟩ : Fin 4096) (⟨4096 * (1 : Fin 2).val + q.val, col_lt 1 q⟩ : Fin 8192)))
    (hW11 : ∀ (kk : Fin 512) (q : Fin 4096), W11 (ix3 (0 : Fin 1) kk q)
      = Wm (ix2 (⟨512 * (peer c 1).val + kk.val, row_lt (peer c 1) kk⟩ : Fin 4096) (⟨4096 * (1 : Fin 2).val + q.val, col_lt 1 q⟩ : Fin 8192)))
    (hW21 : ∀ (kk : Fin 512) (q : Fin 4096), W21 (ix3 (0 : Fin 1) kk q)
      = Wm (ix2 (⟨512 * (peer c 2).val + kk.val, row_lt (peer c 2) kk⟩ : Fin 4096) (⟨4096 * (1 : Fin 2).val + q.val, col_lt 1 q⟩ : Fin 8192)))
    (hW31 : ∀ (kk : Fin 512) (q : Fin 4096), W31 (ix3 (0 : Fin 1) kk q)
      = Wm (ix2 (⟨512 * (peer c 3).val + kk.val, row_lt (peer c 3) kk⟩ : Fin 4096) (⟨4096 * (1 : Fin 2).val + q.val, col_lt 1 q⟩ : Fin 8192)))
    (hW41 : ∀ (kk : Fin 512) (q : Fin 4096), W41 (ix3 (0 : Fin 1) kk q)
      = Wm (ix2 (⟨512 * (peer c 4).val + kk.val, row_lt (peer c 4) kk⟩ : Fin 4096) (⟨4096 * (1 : Fin 2).val + q.val, col_lt 1 q⟩ : Fin 8192)))
    (hW51 : ∀ (kk : Fin 512) (q : Fin 4096), W51 (ix3 (0 : Fin 1) kk q)
      = Wm (ix2 (⟨512 * (peer c 5).val + kk.val, row_lt (peer c 5) kk⟩ : Fin 4096) (⟨4096 * (1 : Fin 2).val + q.val, col_lt 1 q⟩ : Fin 8192)))
    (hW61 : ∀ (kk : Fin 512) (q : Fin 4096), W61 (ix3 (0 : Fin 1) kk q)
      = Wm (ix2 (⟨512 * (peer c 6).val + kk.val, row_lt (peer c 6) kk⟩ : Fin 4096) (⟨4096 * (1 : Fin 2).val + q.val, col_lt 1 q⟩ : Fin 8192)))
    (hW71 : ∀ (kk : Fin 512) (q : Fin 4096), W71 (ix3 (0 : Fin 1) kk q)
      = Wm (ix2 (⟨512 * (peer c 7).val + kk.val, row_lt (peer c 7) kk⟩ : Fin 4096) (⟨4096 * (1 : Fin 2).val + q.val, col_lt 1 q⟩ : Fin 8192))) :
    oM.view.writes (Elt Ideal) f
        (⟨(Rect.unit (s := S512x8192) ![0, 4096] S512x4096.size inb_S512x8192_S512x4096_0_4096), nest1 A0 A1 A2 A3 A4 A5 A6 A7 W01 W11 W21 W31 W41 W51 W61 W71⟩ :: ⟨(Rect.unit (s := S512x8192) ![0, 4096] S512x4096.size inb_S512x8192_S512x4096_0_4096), b⟩
          :: ⟨(Rect.unit (s := S512x8192) ![0, 0] S512x4096.size inb_S512x8192_S512x4096_0_0), nest0 A0 A1 A2 A3 A4 A5 A6 A7 W00 W10 W20 W30 W40 W50 W60 W70⟩ :: rest)
      = Layout.block ⟨2, ![512, 8192]⟩ ⟨2, ![4096, 8192]⟩ 0 8 c (Cert.Spec.G X Wm) := by
  funext i
  obtain ⟨p, q8, rfl⟩ : ∃ (p : Fin 512) (q8 : Fin 8192), i = ix2 p q8 := ⟨i 0, i 1, eq_ix2 i⟩
  rw [Cert.RefBlock.block_G]
  by_cases hq : q8.val < 4096
  · obtain ⟨q, rfl⟩ : ∃ q : Fin 4096, q8 = (⟨q.val, lo_lt q⟩ : Fin 8192) := ⟨⟨q8.val, hq⟩, Fin.ext rfl⟩
    exact (out4_first f (nest1 A0 A1 A2 A3 A4 A5 A6 A7 W01 W11 W21 W31 W41 W51 W61 W71) b (nest0 A0 A1 A2 A3 A4 A5 A6 A7 W00 W10 W20 W30 W40 W50 W60 W70) rest p q).trans
      (entry0 X Wm c A0 A1 A2 A3 A4 A5 A6 A7 W00 W10 W20 W30 W40 W50 W60 W70 hA0 hA1 hA2 hA3 hA4 hA5 hA6 hA7 hW00 hW10 hW20 hW30 hW40 hW50 hW60 hW70 p q)
  · obtain ⟨q, rfl⟩ : ∃ q : Fin 4096, q8 = (⟨4096 + q.val, hi_lt q⟩ : Fin 8192) :=
      ⟨⟨q8.val - 4096, by have := q8.isLt; omega⟩, Fin.ext (by show q8.val = 4096 + (q8.val - 4096); omega)⟩
    exact (out4_second f (nest1 A0 A1 A2 A3 A4 A5 A6 A7 W01 W11 W21 W31 W41 W51 W61 W71) _ p q).trans
      (entry1 X Wm c A0 A1 A2 A3 A4 A5 A6 A7 W01 W11 W21 W31 W41 W51 W61 W71 hA0 hA1 hA2 hA3 hA4 hA5 hA6 hA7 hW01 hW11 hW21 hW31 hW41 hW51 hW61 hW71 p q)

/-! ## The leaves: what the operand blocks and the weight blocks hold -/

section Leaves
variable (m : (ℓ : Loc nD τ sig) → Buf (Elt Ideal) ℓ)
variable (X : Cert.Spec.S4096x4096.Idx → EReal) (Wm : Cert.Spec.S4096x8192.Idx → EReal)

/-- The staged block of x on device j is its argument buffer: the window is the whole array at block index 0. -/
theorem xstg_apply (j : Dev nD) (r : Fin 4096) (kk : Fin 512) :
    xstg m j (ix2 r kk) = m ((j.tc : Thread nD τ).loc main_arg0) (ix2 r kk) := by
  unfold xstg
  show m ((j.tc : Thread nD τ).loc main_arg0) ((win0_0.rect (0 : Fin 1)).emb (ix2 r kk)) = _
  refine congrArg _ (funext fun a => Fin.ext ?_)
  match a with
  | ⟨0, _⟩ => show 0 * 4096 + 1 * r.val = r.val; omega
  | ⟨1, _⟩ => show 0 * 512 + 1 * kk.val = kk.val; omega

/-- Device j's half-precision copy holds, at (r, kk), x at row r and column 512 · j + kk. -/
theorem xbC_apply (j : Dev nD)
    (hj : m ((j.tc : Thread nD τ).loc main_arg0) = Layout.block ⟨2, ![4096, 512]⟩ ⟨2, ![4096, 4096]⟩ 1 8 j X)
    (r : Fin 4096) (kk : Fin 512) :
    xbC m j (ix2 r kk) = X (ix2 r (⟨512 * j.val + kk.val, row_lt j kk⟩ : Fin 4096)) := by
  unfold xbC
  rw [pay1_apply, xstg_apply, hj, Cert.RefBlock.block_arg]

/-- Device c's own operand block: rows 512 · c + p of its copy, that is x at those rows and its own columns. -/
theorem own_rows (c : Dev nD)
    (hc : m ((c.tc : Thread nD τ).loc main_arg0) = Layout.block ⟨2, ![4096, 512]⟩ ⟨2, ![4096, 4096]⟩ 1 8 c X)
    (p kk : Fin 512) :
    xbC m c (ix2 (⟨512 * c.val + p.val, row_lt c p⟩ : Fin 4096) kk)
      = X (ix2 (⟨512 * c.val + p.val, row_lt c p⟩ : Fin 4096) (⟨512 * c.val + kk.val, row_lt c kk⟩ : Fin 4096)) :=
  xbC_apply m X c hc _ kk

/-- Partner t of device c, t not 0, sends c the rows it keeps for its own t-th partner, and that partner is c. -/
theorem back (c : Dev nD) (t : Fin 8) (ht : t.val ≠ 0) :
    peer (peer c t.val) (kOf (peer c t.val) c - 1 + 1) = c := by
  revert c t; decide

/-- What has landed in slot o of device c's receive buffer is the slot holding the rows sender o keeps for c. -/
theorem landed_eq_rep (c o : Dev nD) :
    landed m c o
      = (slotM o).view.rep ((rowsM o ⟨kOf o c - 1, by have := kOf_lt o c; omega⟩).view.read (Elt Ideal) (xbC m o)) :=
  View.write_univ_eq_writes_whole (slotM o).view (slotM o).view.junk [] _

/-- A load of slot (peer c t) of device c's receive buffer, once that partner's rows have landed: entry (p, q) is x
    at row 512 · c + p and column 512 · (peer c t) + q. -/
theorem landed_readAt (hagree : ∀ j : Dev nD,
      m ((j.tc : Thread nD τ).loc main_arg0) = Layout.block ⟨2, ![4096, 512]⟩ ⟨2, ![4096, 4096]⟩ 1 8 j X)
    (c : Dev nD) (t : Fin 8) (ht : t.val ≠ 0) (off : Fin 3 → Nat)
    (hin : ∀ a, off a + S1x512x512.size a ≤ S8x512x512.size a) (hoff : off = ![(peer c t.val).val, 0, 0]) (p q : Fin 512) :
    rM.view.readAt (Elt Ideal) (Rect.unit (s := S8x512x512) off S1x512x512.size hin).toLoadRect
        (landed m c (peer c t.val)) (ix3 (0 : Fin 1) p q)
      = X (ix2 (⟨512 * c.val + p.val, row_lt c p⟩ : Fin 4096)
          (⟨512 * (peer c t.val).val + q.val, row_lt (peer c t.val) q⟩ : Fin 4096)) := by
  rw [landed_eq_rep, slot_readAt_of_eq _ (peer c t.val) off hin hoff p q, rowsM_read,
    xbC_apply m X (peer c t.val) (hagree _)]
  refine congrArg (fun r : Fin 4096 => X (ix2 r (⟨512 * (peer c t.val).val + q.val, row_lt (peer c t.val) q⟩ : Fin 4096)))
    (Fin.ext ?_)
  show 512 * (peer (peer c t.val) (kOf (peer c t.val) c - 1 + 1)).val + p.val = 512 * c.val + p.val
  rw [back c t ht]

/-- Device c's copy of w is the whole w. -/
theorem warr_eq (c : Dev nD) (hc : m ((c.tc : Thread nD τ).loc main_arg1) = Wm) : warr m c = Wm := hc

end Leaves

/-! ## The leaves composed with the loads that read them -/

section Loads
variable (m : (ℓ : Loc nD τ sig) → Buf (Elt Ideal) ℓ)
variable (X : Cert.Spec.S4096x4096.Idx → EReal) (Wm : Cert.Spec.S4096x8192.Idx → EReal)

/-- The first operand block: the device's own 512 rows of its copy, widened. -/
theorem own_block (c : Dev nD)
    (hc : m ((c.tc : Thread nD τ).loc main_arg0) = Layout.block ⟨2, ![4096, 512]⟩ ⟨2, ![4096, 4096]⟩ 1 8 c X)
    (off : Fin 2 → Nat) (hin : ∀ a, off a + S512x512.size a ≤ S4096x512.size a) (hoff : off = ![512 * c.val, 0])
    (p kk : Fin 512) :
    k0_pay2 (F := Ideal) (bM.view.readAt (Elt Ideal) (Rect.unit (s := S4096x512) off S512x512.size hin).toLoadRect (xbC m c)) (ix2 p kk)
      = X (ix2 (⟨512 * c.val + p.val, row_lt c p⟩ : Fin 4096)
          (⟨512 * (peer c 0).val + kk.val, row_lt (peer c 0) kk⟩ : Fin 4096)) := by
  rw [pay2_apply, rows_readAt_of_eq (xbC m c) off hin c.val hoff p kk (row_lt c p), own_rows m X c hc p kk]
  refine congrArg (fun j : Fin 4096 => X (ix2 (⟨512 * c.val + p.val, row_lt c p⟩ : Fin 4096) j)) (Fin.ext ?_)
  show 512 * c.val + kk.val = 512 * (peer c 0).val + kk.val
  rw [peer_zero c]

/-- A weight block: the block of w at rows 512 · j and columns 4096 · h, copied whole into slot s of the double
    buffer and loaded back from that slot. -/
theorem wblock_load (c : Dev nD) (hc : m ((c.tc : Thread nD τ).loc main_arg1) = Wm)
    (g : (cc0_scratch3 : Ref sig .tc).ty.Contents (Elt Ideal)) (s : Fin 2)
    (off off' : Fin 3 → Nat) (hin : ∀ a, off a + S1x512x4096.size a ≤ S2x512x4096.size a)
    (hin' : ∀ a, off' a + S1x512x4096.size a ≤ S2x512x4096.size a)
    (hoff : off = ![s.val, 0, 0]) (hoff' : off' = ![s.val, 0, 0]) (hq : S1x512x4096.Squeezes S512x4096)
    (offw : Fin 2 → Nat) (hinw : ∀ a, offw a + S512x4096.size a ≤ S4096x8192.size a) (j : Dev nD) (h : Fin 2)
    (hoffw : offw = ![512 * j.val, 4096 * h.val]) (kk : Fin 512) (q : Fin 4096) :
    wM.view.readAt (Elt Ideal) (Rect.unit (s := S2x512x4096) off' S1x512x4096.size hin').toLoadRect
        (((wM.slice (Rect.unit (s := S2x512x4096) off S1x512x4096.size hin) (fun _ => rfl)).squeeze S512x4096 hq).view.write
          (Elt Ideal) g
          ((hM.slice (Rect.unit (s := S4096x8192) offw S512x4096.size hinw) (fun _ => rfl)).view.read (Elt Ideal) (warr m c))
          Finset.univ)
        (ix3 (0 : Fin 1) kk q)
      = Wm (ix2 (⟨512 * j.val + kk.val, row_lt j kk⟩ : Fin 4096) (⟨4096 * h.val + q.val, col_lt h q⟩ : Fin 8192)) := by
  rw [wslot_readAt _ s off' hin' hoff' kk q, wslot_write g _ s off hin hoff hq kk q,
    wblock_read_of_eq (warr m c) offw hinw j.val h.val hoffw kk q (row_lt j kk) (col_lt h q), warr_eq m Wm c hc]

end Loads

/-- info: 'Cert.KernelIdeal.KernelValue.out_block_of_tail' depends on axioms: [propext, Classical.choice, Quot.sound] -/
#guard_msgs in #print axioms out_block_of_tail
/-- info: 'Cert.KernelIdeal.KernelValue.out_block_of' depends on axioms: [propext, Classical.choice, Quot.sound] -/
#guard_msgs in #print axioms out_block_of
/-- info: 'Cert.KernelIdeal.KernelValue.landed_readAt' depends on axioms: [propext, Classical.choice, Quot.sound] -/
#guard_msgs in #print axioms landed_readAt
/-- info: 'Cert.KernelIdeal.KernelValue.own_block' depends on axioms: [propext, Classical.choice, Quot.sound] -/
#guard_msgs in #print axioms own_block
/-- info: 'Cert.KernelIdeal.KernelValue.wblock_load' depends on axioms: [propext, Classical.choice, Quot.sound] -/
#guard_msgs in #print axioms wblock_load

end Cert.KernelIdeal.KernelValue

end
-- ==== Proof.OutRead.lean ====
/- Lists of stores read at an index. The body's run names what it loads by the list of stores that stood in the
   buffer at that moment; read at one index such a load is the payload of the newest store that contains the index.
   For the output block a store into one half is not seen in the other; the operand buffer is always stored whole;
   a slot of the weights' double buffer is always filled whole by a copy. -/
import proofs.«900487_g7700000000000488_dist_a2a_gemm_m4096_k4096_n8192_f32_gelu_v7x_i8_1_alg».proof.Proof.KernelValue
import proofs.«900487_g7700000000000488_dist_a2a_gemm_m4096_k4096_n8192_f32_gelu_v7x_i8_1_alg».proof.Proof.CutsBody

noncomputable section

namespace Cert.KernelIdeal.OutRead

open Idealize.ShloMosaic Idealize.ShloMosaic.ValueIdx Cert.KernelIdeal Cert.KernelIdeal.Gen Cert.KernelIdeal.Devs
  Cert.KernelIdeal.Proto Cert.KernelIdeal.ViewAt Cert.KernelIdeal.KernelValue

variable {F : FTy → Type} [FloatOps F]

/-- A load named by the stores that stood in the buffer, at one index of its box. -/
theorem readCov_apply {sig' : RefSig} {κ : Kind} {sp : Space} {s : Shape} {e : EltTy} {Val : EltTy → Type}
    [∀ e, Nonempty (Val e)] (v : View sig' κ sp s e) (L : List (View.Piece Val s e)) (B : LoadRect s) (j : B.shape.Idx) :
    v.readCov L B j = v.read Val (v.writes Val v.junk L) (B.idx j) := rfl

/-- … it is the newest store's payload where that store's rectangle is the box; -/
theorem readCov_hit {sig' : RefSig} {κ : Kind} {sp : Space} {s : Shape} {e : EltTy} {Val : EltTy → Type}
    [∀ e, Nonempty (Val e)] (v : View sig' κ sp s e) (r : Rect s) (w : r.shape.Idx → Val e) (L : List (View.Piece Val s e))
    (x : r.shape.Idx) : v.readCov (⟨r, w⟩ :: L) r.toLoadRect x = w x :=
  View.read_writes_cons_emb v v.junk r w L x

/-- A store through a rectangle that misses an index is not seen at that index. -/
theorem writes_miss_cons {sig' : RefSig} {κ : Kind} {sp : Space} {s : Shape} {e : EltTy} {Val : EltTy → Type}
    (v : View sig' κ sp s e) (f : v.ty.Contents Val) (r1 : Rect s) (w1 : r1.shape.Idx → Val e)
    (L : List (View.Piece Val s e)) (y : s.Idx) (hmiss : ∀ x1 : r1.shape.Idx, r1.emb x1 ≠ y) :
    v.read Val (v.writes Val f (⟨r1, w1⟩ :: L)) y = v.read Val (v.writes Val f L) y := by
  rw [View.writes_cons, View.read_slice_write_of_not_mem r1 _ _ _ ?_]
  intro hm
  obtain ⟨x1, -, hx1⟩ := Finset.mem_map.mp hm
  exact hmiss x1 hx1

/-- … and it does not see a newer store whose rectangle misses the index. -/
theorem readCov_miss {sig' : RefSig} {κ : Kind} {sp : Space} {s : Shape} {e : EltTy} {Val : EltTy → Type}
    [∀ e, Nonempty (Val e)] (v : View sig' κ sp s e) (r1 : Rect s) (w1 : r1.shape.Idx → Val e) (L : List (View.Piece Val s e))
    (B : LoadRect s) (j : B.shape.Idx) (hmiss : ∀ x1 : r1.shape.Idx, r1.emb x1 ≠ B.idx j) :
    v.readCov (⟨r1, w1⟩ :: L) B j = v.readCov L B j :=
  writes_miss_cons v v.junk r1 w1 L (B.idx j) hmiss

/-! ## The output block -/

/-- No element of the first half is an element of the second. -/
theorem first_ne_second (p : Fin 512) (q : Fin 4096) (x0 : (Rect.unit (s := S512x8192) ![0, 0] S512x4096.size inb_S512x8192_S512x4096_0_0).shape.Idx) :
    (Rect.unit (s := S512x8192) ![0, 0] S512x4096.size inb_S512x8192_S512x4096_0_0).emb x0 ≠ (Rect.unit (s := S512x8192) ![0, 4096] S512x4096.size inb_S512x8192_S512x4096_0_4096).emb (ix2 p q) := by
  intro hx
  have h1' := congrArg (fun i : S512x8192.Idx => (i ⟨1, (by decide : 1 < S512x8192.rank)⟩).val) hx
  have e0 : ((Rect.unit (s := S512x8192) ![0, 0] S512x4096.size inb_S512x8192_S512x4096_0_0).emb x0 ⟨1, (by decide : 1 < S512x8192.rank)⟩).val
      = 0 + 1 * (x0 ⟨1, (by decide : 1 < S512x8192.rank)⟩).val := rfl
  have e1 : ((Rect.unit (s := S512x8192) ![0, 4096] S512x4096.size inb_S512x8192_S512x4096_0_4096).emb (ix2 p q) ⟨1, (by decide : 1 < S512x8192.rank)⟩).val = 4096 + 1 * q.val := rfl
  have hx0 : (x0 ⟨1, (by decide : 1 < S512x8192.rank)⟩).val < 4096 := by
    have h := (x0 ⟨1, (by decide : 1 < S512x8192.rank)⟩).isLt
    exact h
  simp only [e0, e1] at h1'
  omega

theorem cur0_hit (w : S512x4096.Idx → Elt F .f32) (L : List (View.Piece (Elt F) S512x8192 .f32)) (p : Fin 512) (q : Fin 4096) :
    oM.view.readCov (⟨(Rect.unit (s := S512x8192) ![0, 0] S512x4096.size inb_S512x8192_S512x4096_0_0), w⟩ :: L) (Rect.unit (s := S512x8192) ![0, 0] S512x4096.size inb_S512x8192_S512x4096_0_0).toLoadRect (ix2 p q) = w (ix2 p q) :=
  readCov_hit oM.view (Rect.unit (s := S512x8192) ![0, 0] S512x4096.size inb_S512x8192_S512x4096_0_0) w L (ix2 p q)

theorem cur0_miss (w : S512x4096.Idx → Elt F .f32) (L : List (View.Piece (Elt F) S512x8192 .f32)) (p : Fin 512) (q : Fin 4096) :
    oM.view.readCov (⟨(Rect.unit (s := S512x8192) ![0, 4096] S512x4096.size inb_S512x8192_S512x4096_0_4096), w⟩ :: L) (Rect.unit (s := S512x8192) ![0, 0] S512x4096.size inb_S512x8192_S512x4096_0_0).toLoadRect (ix2 p q)
      = oM.view.readCov L (Rect.unit (s := S512x8192) ![0, 0] S512x4096.size inb_S512x8192_S512x4096_0_0).toLoadRect (ix2 p q) :=
  readCov_miss oM.view (Rect.unit (s := S512x8192) ![0, 4096] S512x4096.size inb_S512x8192_S512x4096_0_4096) w L (Rect.unit (s := S512x8192) ![0, 0] S512x4096.size inb_S512x8192_S512x4096_0_0).toLoadRect (ix2 p q) (second_ne_first p q)

theorem cur1_hit (w : S512x4096.Idx → Elt F .f32) (L : List (View.Piece (Elt F) S512x8192 .f32)) (p : Fin 512) (q : Fin 4096) :
    oM.view.readCov (⟨(Rect.unit (s := S512x8192) ![0, 4096] S512x4096.size inb_S512x8192_S512x4096_0_4096), w⟩ :: L) (Rect.unit (s := S512x8192) ![0, 4096] S512x4096.size inb_S512x8192_S512x4096_0_4096).toLoadRect (ix2 p q) = w (ix2 p q) :=
  readCov_hit oM.view (Rect.unit (s := S512x8192) ![0, 4096] S512x4096.size inb_S512x8192_S512x4096_0_4096) w L (ix2 p q)

theorem cur1_miss (w : S512x4096.Idx → Elt F .f32) (L : List (View.Piece (Elt F) S512x8192 .f32)) (p : Fin 512) (q : Fin 4096) :
    oM.view.readCov (⟨(Rect.unit (s := S512x8192) ![0, 0] S512x4096.size inb_S512x8192_S512x4096_0_0), w⟩ :: L) (Rect.unit (s := S512x8192) ![0, 4096] S512x4096.size inb_S512x8192_S512x4096_0_4096).toLoadRect (ix2 p q)
      = oM.view.readCov L (Rect.unit (s := S512x8192) ![0, 4096] S512x4096.size inb_S512x8192_S512x4096_0_4096).toLoadRect (ix2 p q) :=
  readCov_miss oM.view (Rect.unit (s := S512x8192) ![0, 0] S512x4096.size inb_S512x8192_S512x4096_0_0) w L (Rect.unit (s := S512x8192) ![0, 4096] S512x4096.size inb_S512x8192_S512x4096_0_4096).toLoadRect (ix2 p q) (first_ne_second p q)

/-- The output block over contents nothing reads, at column q of the first half and at column 4096 + q. -/
theorem out_at_first (L : List (View.Piece (Elt F) S512x8192 .f32)) (p : Fin 512) (q : Fin 4096) :
    (oM.view.writes (Elt F) oM.view.junk L) (ix2 p (⟨q.val, lo_lt q⟩ : Fin 8192))
      = oM.view.readCov L (Rect.unit (s := S512x8192) ![0, 0] S512x4096.size inb_S512x8192_S512x4096_0_0).toLoadRect (ix2 p q) := by
  have h := readCov_apply (Val := Elt F) (View.whole (cc0_stg1_0 : Ref sig .tc)) L (Rect.unit (s := S512x8192) ![0, 0] S512x4096.size inb_S512x8192_S512x4096_0_0).toLoadRect (ix2 p q)
  have he : (Rect.unit (s := S512x8192) ![0, 0] S512x4096.size inb_S512x8192_S512x4096_0_0).toLoadRect.idx (ix2 p q) = (ix2 p (⟨q.val, lo_lt q⟩ : Fin 8192) : S512x8192.Idx) := first_emb p q
  rw [he] at h
  exact (h.trans (whole_read_apply (Val := Elt F) (cc0_stg1_0 : Ref sig .tc)
    ((View.whole (cc0_stg1_0 : Ref sig .tc)).writes (Elt F) (View.whole (cc0_stg1_0 : Ref sig .tc)).junk L)
    (ix2 p (⟨q.val, lo_lt q⟩ : Fin 8192)))).symm

theorem out_at_second (L : List (View.Piece (Elt F) S512x8192 .f32)) (p : Fin 512) (q : Fin 4096) :
    (oM.view.writes (Elt F) oM.view.junk L) (ix2 p (⟨4096 + q.val, hi_lt q⟩ : Fin 8192))
      = oM.view.readCov L (Rect.unit (s := S512x8192) ![0, 4096] S512x4096.size inb_S512x8192_S512x4096_0_4096).toLoadRect (ix2 p q) := by
  have h := readCov_apply (Val := Elt F) (View.whole (cc0_stg1_0 : Ref sig .tc)) L (Rect.unit (s := S512x8192) ![0, 4096] S512x4096.size inb_S512x8192_S512x4096_0_4096).toLoadRect (ix2 p q)
  have he : (Rect.unit (s := S512x8192) ![0, 4096] S512x4096.size inb_S512x8192_S512x4096_0_4096).toLoadRect.idx (ix2 p q) = (ix2 p (⟨4096 + q.val, hi_lt q⟩ : Fin 8192) : S512x8192.Idx) := second_emb p q
  rw [he] at h
  exact (h.trans (whole_read_apply (Val := Elt F) (cc0_stg1_0 : Ref sig .tc)
    ((View.whole (cc0_stg1_0 : Ref sig .tc)).writes (Elt F) (View.whole (cc0_stg1_0 : Ref sig .tc)).junk L)
    (ix2 p (⟨4096 + q.val, hi_lt q⟩ : Fin 8192)))).symm

/-! ## The operand buffer -/

theorem a_hit (P : S512x512.Idx → Elt F .f32) (L : List (View.Piece (Elt F) S512x512 .f32)) (p kk : Fin 512) :
    aM.view.readCov (⟨(Rect.unit (s := S512x512) ![0, 0] S512x512.size inb_S512x512_S512x512_0_0), P⟩ :: L) (Rect.unit (s := S512x512) ![0, 0] S512x512.size inb_S512x512_S512x512_0_0).toLoadRect (ix2 p kk) = P (ix2 p kk) :=
  readCov_hit aM.view (Rect.unit (s := S512x512) ![0, 0] S512x512.size inb_S512x512_S512x512_0_0) P L (ix2 p kk)

/-! ## The slots of the weights' double buffer -/

theorem w0_hit (d : S512x4096.Idx → Elt F .f32) (older : List (View.Piece (Elt F) S512x4096 .f32)) (kk : Fin 512) (q : Fin 4096) :
    wM.view.readAt (Elt F) (Rect.unit (s := S2x512x4096) ![0, 0, 0] S1x512x4096.size inb_S2x512x4096_S1x512x4096_0_0_0).toLoadRect
        ((Cuts.wslot 0).view.writes (Elt F) (Cuts.wslot 0).view.junk (⟨Rect.whole S512x4096, d⟩ :: older)) (ix3 (0 : Fin 1) kk q)
      = d (ix2 kk q) := by
  have h1 := whole_readAt_apply (Val := Elt F) (cc0_scratch3 : Ref sig .tc) (Rect.unit (s := S2x512x4096) ![0, 0, 0] S1x512x4096.size inb_S2x512x4096_S1x512x4096_0_0_0).toLoadRect
    ((Cuts.wslot 0).view.writes (Elt F) (Cuts.wslot 0).view.junk (⟨Rect.whole S512x4096, d⟩ :: older)) (ix3 (0 : Fin 1) kk q)
  refine h1.trans ?_
  have he : (Rect.unit (s := S2x512x4096) ![0, 0, 0] S1x512x4096.size inb_S2x512x4096_S1x512x4096_0_0_0).toLoadRect.idx (ix3 (0 : Fin 1) kk q)
      = ((Cuts.wslot 0).view.slice (Rect.whole S512x4096)).emb (ix2 kk q) := by
    show _ = (Cuts.wslot 0).view.emb ((Rect.whole S512x4096).emb (ix2 kk q))
    rw [Rect.emb_whole_apply, wslot_emb (0 : Fin 2) ![0, 0, 0] inb_S2x512x4096_S1x512x4096_0_0_0 rfl squeezes_S1x512x4096_S512x4096 kk q]
    refine funext fun a => Fin.ext ?_
    match a with
    | ⟨0, _⟩ => show 0 + 1 * 0 = 0; omega
    | ⟨1, _⟩ => show 0 + 1 * kk.val = kk.val; omega
    | ⟨2, _⟩ => show 0 + 1 * q.val = q.val; omega
  rw [he, View.writes_cons, View.write_emb_of_mem _ _ (Finset.mem_univ _)]
  rfl

theorem w1_hit (d : S512x4096.Idx → Elt F .f32) (older : List (View.Piece (Elt F) S512x4096 .f32)) (kk : Fin 512) (q : Fin 4096) :
    wM.view.readAt (Elt F) (Rect.unit (s := S2x512x4096) ![1, 0, 0] S1x512x4096.size inb_S2x512x4096_S1x512x4096_1_0_0).toLoadRect
        ((Cuts.wslot 1).view.writes (Elt F) (Cuts.wslot 1).view.junk (⟨Rect.whole S512x4096, d⟩ :: older)) (ix3 (0 : Fin 1) kk q)
      = d (ix2 kk q) := by
  have h1 := whole_readAt_apply (Val := Elt F) (cc0_scratch3 : Ref sig .tc) (Rect.unit (s := S2x512x4096) ![1, 0, 0] S1x512x4096.size inb_S2x512x4096_S1x512x4096_1_0_0).toLoadRect
    ((Cuts.wslot 1).view.writes (Elt F) (Cuts.wslot 1).view.junk (⟨Rect.whole S512x4096, d⟩ :: older)) (ix3 (0 : Fin 1) kk q)
  refine h1.trans ?_
  have he : (Rect.unit (s := S2x512x4096) ![1, 0, 0] S1x512x4096.size inb_S2x512x4096_S1x512x4096_1_0_0).toLoadRect.idx (ix3 (0 : Fin 1) kk q)
      = ((Cuts.wslot 1).view.slice (Rect.whole S512x4096)).emb (ix2 kk q) := by
    show _ = (Cuts.wslot 1).view.emb ((Rect.whole S512x4096).emb (ix2 kk q))
    rw [Rect.emb_whole_apply, wslot_emb (1 : Fin 2) ![1, 0, 0] inb_S2x512x4096_S1x512x4096_1_0_0 rfl squeezes_S1x512x4096_S512x4096 kk q]
    refine funext fun a => Fin.ext ?_
    match a with
    | ⟨0, _⟩ => show 1 + 1 * 0 = 1; omega
    | ⟨1, _⟩ => show 0 + 1 * kk.val = kk.val; omega
    | ⟨2, _⟩ => show 0 + 1 * q.val = q.val; omega
  rw [he, View.writes_cons, View.write_emb_of_mem _ _ (Finset.mem_univ _)]
  rfl

/-- A block of w copied as it stands: entry (kk, q) is w at (512 · j + kk, 4096 · h + q). -/
theorem dma_apply (m : (ℓ : Loc nD τ sig) → Buf (Elt F) ℓ) (c : Dev nD) (offw : Fin 2 → Nat)
    (hinw : ∀ a, offw a + S512x4096.size a ≤ S4096x8192.size a) (j h : Nat) (hoffw : offw = ![512 * j, 4096 * h])
    (kk : Fin 512) (q : Fin 4096) (hr : 512 * j + kk.val < 4096) (hc : 4096 * h + q.val < 8192) :
    (ReadAs.same.apply ((hM.slice (Rect.unit (s := S4096x8192) offw S512x4096.size hinw) (fun _ => rfl)).view.read (Elt F) (warr m c))
        : S512x4096.Idx → Elt F .f32) (ix2 kk q)
      = warr m c (ix2 (⟨512 * j + kk.val, hr⟩ : Fin 4096) (⟨4096 * h + q.val, hc⟩ : Fin 8192)) := by
  rw [ReadAs.apply_same]
  exact wblock_read_of_eq (warr m c) offw hinw j h hoffw kk q hr hc

end Cert.KernelIdeal.OutRead

end
-- ==== Proof.OutBlock.lean ====
/- The kernel's result on a device is block c of the specified result. The body's run lists eighteen stores into the
   output block; read at one index, the newest store that contains it is the activation of the last accumulated
   sum of its half, and each accumulated sum is the one before it plus that step's partial product, down to the
   first product. The eight operand blocks are the device's rows of x at its partners' columns, the weight blocks
   those partners' rows of w, so the sum is the whole contraction. -/
import proofs.«900487_g7700000000000488_dist_a2a_gemm_m4096_k4096_n8192_f32_gelu_v7x_i8_1_alg».proof.Proof.KernelValue
import proofs.«900487_g7700000000000488_dist_a2a_gemm_m4096_k4096_n8192_f32_gelu_v7x_i8_1_alg».proof.Proof.OutRead
import proofs.«900487_g7700000000000488_dist_a2a_gemm_m4096_k4096_n8192_f32_gelu_v7x_i8_1_alg».proof.Proof.BodyTailRun
import proofs.«900487_g7700000000000488_dist_a2a_gemm_m4096_k4096_n8192_f32_gelu_v7x_i8_1_alg».proof.Proof.OutAt
import proofs.«900487_g7700000000000488_dist_a2a_gemm_m4096_k4096_n8192_f32_gelu_v7x_i8_1_alg».proof.ReferenceIdeal

noncomputable section

namespace Cert.KernelIdeal.OutBlock

open Idealize.ShloMosaic Idealize.ShloMosaic.ValueIdx Cert.KernelIdeal Cert.KernelIdeal.Gen Cert.KernelIdeal.Devs
  Cert.KernelIdeal.Proto Cert.KernelIdeal.PayAt Cert.KernelIdeal.HalfSpec Cert.KernelIdeal.ViewAt
  Cert.KernelIdeal.KernelValue Cert.KernelIdeal.OutRead Cert.KernelIdeal.BodyProof

set_option maxHeartbeats 1600000 in
/-- The listed stores over contents nothing reads hold block c of the specified result. -/
theorem out_block_list (m : (ℓ : Loc nD τ sig) → Buf (Elt Ideal) ℓ)
    (X : Cert.Spec.S4096x4096.Idx → EReal) (Wm : Cert.Spec.S4096x8192.Idx → EReal)
    (hagree : ∀ c : Dev nD, m ((c.tc : Thread nD τ).loc main_arg0) = Layout.block ⟨2, ![4096, 512]⟩ ⟨2, ![4096, 4096]⟩ 1 8 c X
      ∧ m ((c.tc : Thread nD τ).loc main_arg1) = Wm)
    (c : Dev nD) :
    oM.view.writes (Elt Ideal) oM.view.junk (tail_sub (F := Ideal) m c).1
      = Layout.block ⟨2, ![512, 8192]⟩ ⟨2, ![4096, 8192]⟩ 0 8 c (Cert.Spec.G X Wm) := by
  have hA0 : ∀ p kk : Fin 512, (tail_sub.sl.v178 m c : Vec Ideal S512x512 .f32) (ix2 p kk)
      = X (ix2 (⟨512 * c.val + p.val, row_lt c p⟩ : Fin 4096) (⟨512 * (peer c 0).val + kk.val, row_lt (peer c 0) kk⟩ : Fin 4096)) :=
    fun p kk => (a_hit _ _ p kk).trans (own_block m X c (hagree c).1 _ _ (k0_off6_eq c) p kk)
  have hA1 : ∀ p kk : Fin 512, (tail_sub.sl.v m c : Vec Ideal S512x512 .f32) (ix2 p kk)
      = X (ix2 (⟨512 * c.val + p.val, row_lt c p⟩ : Fin 4096) (⟨512 * (peer c 1).val + kk.val, row_lt (peer c 1) kk⟩ : Fin 4096)) :=
    fun p kk => (a_hit _ _ p kk).trans ((pay5_apply _ p kk).trans
      (landed_readAt m X (fun j => (hagree j).1) c 1 (by decide) _ _ (off11_1_eq c) p kk))
  have hA2 : ∀ p kk : Fin 512, (tail_sub.sl.v322 m c : Vec Ideal S512x512 .f32) (ix2 p kk)
      = X (ix2 (⟨512 * c.val + p.val, row_lt c p⟩ : Fin 4096) (⟨512 * (peer c 2).val + kk.val, row_lt (peer c 2) kk⟩ : Fin 4096)) :=
    fun p kk => (a_hit _ _ p kk).trans ((pay8_apply _ p kk).trans
      (landed_readAt m X (fun j => (hagree j).1) c 2 (by decide) _ _ (off11_2_eq c) p kk))
  have hA3 : ∀ p kk : Fin 512, (tail_sub.sl.v377 m c : Vec Ideal S512x512 .f32) (ix2 p kk)
      = X (ix2 (⟨512 * c.val + p.val, row_lt c p⟩ : Fin 4096) (⟨512 * (peer c 3).val + kk.val, row_lt (peer c 3) kk⟩ : Fin 4096)) :=
    fun p kk => (a_hit _ _ p kk).trans ((pay11_apply _ p kk).trans
      (landed_readAt m X (fun j => (hagree j).1) c 3 (by decide) _ _ (off11_3_eq c) p kk))
  have hA4 : ∀ p kk : Fin 512, (tail_sub.sl.v432 m c : Vec Ideal S512x512 .f32) (ix2 p kk)
      = X (ix2 (⟨512 * c.val + p.val, row_lt c p⟩ : Fin 4096) (⟨512 * (peer c 4).val + kk.val, row_lt (peer c 4) kk⟩ : Fin 4096)) :=
    fun p kk => (a_hit _ _ p kk).trans ((pay14_apply _ p kk).trans
      (landed_readAt m X (fun j => (hagree j).1) c 4 (by decide) _ _ (off11_4_eq c) p kk))
  have hA5 : ∀ p kk : Fin 512, (tail_sub.sl.v487 m c : Vec Ideal S512x512 .f32) (ix2 p kk)
      = X (ix2 (⟨512 * c.val + p.val, row_lt c p⟩ : Fin 4096) (⟨512 * (peer c 5).val + kk.val, row_lt (peer c 5) kk⟩ : Fin 4096)) :=
    fun p kk => (a_hit _ _ p kk).trans ((pay18_pay17_apply _ p kk).trans
      (landed_readAt m X (fun j => (hagree j).1) c 5 (by decide) _ _ (off11_5_eq c) p kk))
  have hA6 : ∀ p kk : Fin 512, (tail_sub.sl.v542 m c : Vec Ideal S512x512 .f32) (ix2 p kk)
      = X (ix2 (⟨512 * c.val + p.val, row_lt c p⟩ : Fin 4096) (⟨512 * (peer c 6).val + kk.val, row_lt (peer c 6) kk⟩ : Fin 4096)) :=
    fun p kk => (a_hit _ _ p kk).trans ((pay23_pay22_apply _ p kk).trans
      (landed_readAt m X (fun j => (hagree j).1) c 6 (by decide) _ _ (off11_6_eq c) p kk))
  have hA7 : ∀ p kk : Fin 512, (tail_sub.sl.v597 m c : Vec Ideal S512x512 .f32) (ix2 p kk)
      = X (ix2 (⟨512 * c.val + p.val, row_lt c p⟩ : Fin 4096) (⟨512 * (peer c 7).val + kk.val, row_lt (peer c 7) kk⟩ : Fin 4096)) :=
    fun p kk => (a_hit _ _ p kk).trans ((pay28_pay27_apply _ p kk).trans
      (landed_readAt m X (fun j => (hagree j).1) c 7 (by decide) _ _ (off11_7_eq c) p kk))
  have hW00 : ∀ (kk : Fin 512) (q : Fin 4096), (tail_sub.sl.v179 m c : Vec Ideal S1x512x4096 .f32) (ix3 (0 : Fin 1) kk q) = Wm (ix2 (⟨512 * (peer c 0).val + kk.val, row_lt (peer c 0) kk⟩ : Fin 4096) (⟨4096 * (0 : Fin 2).val + q.val, col_lt 0 q⟩ : Fin 8192)) := by
    intro kk q
    rw [peer_zero c]
    exact (w0_hit _ _ kk q).trans ((dma_apply m c _ _ c.val 0 (k0_off1_eq c) kk q (row_lt c kk) (col_lt 0 q)).trans
      (congrFun (warr_eq m Wm c (hagree c).2) _))
  have hW01 : ∀ (kk : Fin 512) (q : Fin 4096), (tail_sub.sl.v196 m c : Vec Ideal S1x512x4096 .f32) (ix3 (0 : Fin 1) kk q) = Wm (ix2 (⟨512 * (peer c 0).val + kk.val, row_lt (peer c 0) kk⟩ : Fin 4096) (⟨4096 * (1 : Fin 2).val + q.val, col_lt 1 q⟩ : Fin 8192)) := by
    intro kk q
    rw [peer_zero c]
    exact (w1_hit _ _ kk q).trans ((dma_apply m c _ _ c.val 1 (k0_off5_eq c) kk q (row_lt c kk) (col_lt 1 q)).trans
      (congrFun (warr_eq m Wm c (hagree c).2) _))
  have hW10 : ∀ (kk : Fin 512) (q : Fin 4096), (tail_sub.sl.v258 m c : Vec Ideal S1x512x4096 .f32) (ix3 (0 : Fin 1) kk q) = Wm (ix2 (⟨512 * (peer c 1).val + kk.val, row_lt (peer c 1) kk⟩ : Fin 4096) (⟨4096 * (0 : Fin 2).val + q.val, col_lt 0 q⟩ : Fin 8192)) :=
    fun kk q => (w0_hit _ _ kk q).trans ((dma_apply m c _ _ (peer c 1).val 0 (off7_1_eq c) kk q (row_lt (peer c 1) kk) (col_lt 0 q)).trans
      (congrFun (warr_eq m Wm c (hagree c).2) _))
  have hW11 : ∀ (kk : Fin 512) (q : Fin 4096), (tail_sub.sl.v278 m c : Vec Ideal S1x512x4096 .f32) (ix3 (0 : Fin 1) kk q) = Wm (ix2 (⟨512 * (peer c 1).val + kk.val, row_lt (peer c 1) kk⟩ : Fin 4096) (⟨4096 * (1 : Fin 2).val + q.val, col_lt 1 q⟩ : Fin 8192)) :=
    fun kk q => (w1_hit _ _ kk q).trans ((dma_apply m c _ _ (peer c 1).val 1 (off8_1_eq c) kk q (row_lt (peer c 1) kk) (col_lt 1 q)).trans
      (congrFun (warr_eq m Wm c (hagree c).2) _))
  have hW20 : ∀ (kk : Fin 512) (q : Fin 4096), (tail_sub.sl.v323 m c : Vec Ideal S1x512x4096 .f32) (ix3 (0 : Fin 1) kk q) = Wm (ix2 (⟨512 * (peer c 2).val + kk.val, row_lt (peer c 2) kk⟩ : Fin 4096) (⟨4096 * (0 : Fin 2).val + q.val, col_lt 0 q⟩ : Fin 8192)) :=
    fun kk q => (w0_hit _ _ kk q).trans ((dma_apply m c _ _ (peer c 2).val 0 (off7_2_eq c) kk q (row_lt (peer c 2) kk) (col_lt 0 q)).trans
      (congrFun (warr_eq m Wm c (hagree c).2) _))
  have hW21 : ∀ (kk : Fin 512) (q : Fin 4096), (tail_sub.sl.v343 m c : Vec Ideal S1x512x4096 .f32) (ix3 (0 : Fin 1) kk q) = Wm (ix2 (⟨512 * (peer c 2).val + kk.val, row_lt (peer c 2) kk⟩ : Fin 4096) (⟨4096 * (1 : Fin 2).val + q.val, col_lt 1 q⟩ : Fin 8192)) :=
    fun kk q => (w1_hit _ _ kk q).trans ((dma_apply m c _ _ (peer c 2).val 1 (off8_2_eq c) kk q (row_lt (peer c 2) kk) (col_lt 1 q)).trans
      (congrFun (warr_eq m Wm c (hagree c).2) _))
  have hW30 : ∀ (kk : Fin 512) (q : Fin 4096), (tail_sub.sl.v378 m c : Vec Ideal S1x512x4096 .f32) (ix3 (0 : Fin 1) kk q) = Wm (ix2 (⟨512 * (peer c 3).val + kk.val, row_lt (peer c 3) kk⟩ : Fin 4096) (⟨4096 * (0 : Fin 2).val + q.val, col_lt 0 q⟩ : Fin 8192)) :=
    fun kk q => (w0_hit _ _ kk q).trans ((dma_apply m c _ _ (peer c 3).val 0 (off7_3_eq c) kk q (row_lt (peer c 3) kk) (col_lt 0 q)).trans
      (congrFun (warr_eq m Wm c (hagree c).2) _))
  have hW31 : ∀ (kk : Fin 512) (q : Fin 4096), (tail_sub.sl.v398 m c : Vec Ideal S1x512x4096 .f32) (ix3 (0 : Fin 1) kk q) = Wm (ix2 (⟨512 * (peer c 3).val + kk.val, row_lt (peer c 3) kk⟩ : Fin 4096) (⟨4096 * (1 : Fin 2).val + q.val, col_lt 1 q⟩ : Fin 8192)) :=
    fun kk q => (w1_hit _ _ kk q).trans ((dma_apply m c _ _ (peer c 3).val 1 (off8_3_eq c) kk q (row_lt (peer c 3) kk) (col_lt 1 q)).trans
      (congrFun (warr_eq m Wm c (hagree c).2) _))
  have hW40 : ∀ (kk : Fin 512) (q : Fin 4096), (tail_sub.sl.v433 m c : Vec Ideal S1x512x4096 .f32) (ix3 (0 : Fin 1) kk q) = Wm (ix2 (⟨512 * (peer c 4).val + kk.val, row_lt (peer c 4) kk⟩ : Fin 4096) (⟨4096 * (0 : Fin 2).val + q.val, col_lt 0 q⟩ : Fin 8192)) :=
    fun kk q => (w0_hit _ _ kk q).trans ((dma_apply m c _ _ (peer c 4).val 0 (off7_4_eq c) kk q (row_lt (peer c 4) kk) (col_lt 0 q)).trans
      (congrFun (warr_eq m Wm c (hagree c).2) _))
  have hW41 : ∀ (kk : Fin 512) (q : Fin 4096), (tail_sub.sl.v453 m c : Vec Ideal S1x512x4096 .f32) (ix3 (0 : Fin 1) kk q) = Wm (ix2 (⟨512 * (peer c 4).val + kk.val, row_lt (peer c 4) kk⟩ : Fin 4096) (⟨4096 * (1 : Fin 2).val + q.val, col_lt 1 q⟩ : Fin 8192)) :=
    fun kk q => (w1_hit _ _ kk q).trans ((dma_apply m c _ _ (peer c 4).val 1 (off8_4_eq c) kk q (row_lt (peer c 4) kk) (col_lt 1 q)).trans
      (congrFun (warr_eq m Wm c (hagree c).2) _))
  have hW50 : ∀ (kk : Fin 512) (q : Fin 4096), (tail_sub.sl.v488 m c : Vec Ideal S1x512x4096 .f32) (ix3 (0 : Fin 1) kk q) = Wm (ix2 (⟨512 * (peer c 5).val + kk.val, row_lt (peer c 5) kk⟩ : Fin 4096) (⟨4096 * (0 : Fin 2).val + q.val, col_lt 0 q⟩ : Fin 8192)) :=
    fun kk q => (w0_hit _ _ kk q).trans ((dma_apply m c _ _ (peer c 5).val 0 (off7_5_eq c) kk q (row_lt (peer c 5) kk) (col_lt 0 q)).trans
      (congrFun (warr_eq m Wm c (hagree c).2) _))
  have hW51 : ∀ (kk : Fin 512) (q : Fin 4096), (tail_sub.sl.v508 m c : Vec Ideal S1x512x4096 .f32) (ix3 (0 : Fin 1) kk q) = Wm (ix2 (⟨512 * (peer c 5).val + kk.val, row_lt (peer c 5) kk⟩ : Fin 4096) (⟨4096 * (1 : Fin 2).val + q.val, col_lt 1 q⟩ : Fin 8192)) :=
    fun kk q => (w1_hit _ _ kk q).trans ((dma_apply m c _ _ (peer c 5).val 1 (off8_5_eq c) kk q (row_lt (peer c 5) kk) (col_lt 1 q)).trans
      (congrFun (warr_eq m Wm c (hagree c).2) _))
  have hW60 : ∀ (kk : Fin 512) (q : Fin 4096), (tail_sub.sl.v543 m c : Vec Ideal S1x512x4096 .f32) (ix3 (0 : Fin 1) kk q) = Wm (ix2 (⟨512 * (peer c 6).val + kk.val, row_lt (peer c 6) kk⟩ : Fin 4096) (⟨4096 * (0 : Fin 2).val + q.val, col_lt 0 q⟩ : Fin 8192)) :=
    fun kk q => (w0_hit _ _ kk q).trans ((dma_apply m c _ _ (peer c 6).val 0 (off7_6_eq c) kk q (row_lt (peer c 6) kk) (col_lt 0 q)).trans
      (congrFun (warr_eq m Wm c (hagree c).2) _))
  have hW61 : ∀ (kk : Fin 512) (q : Fin 4096), (tail_sub.sl.v563 m c : Vec Ideal S1x512x4096 .f32) (ix3 (0 : Fin 1) kk q) = Wm (ix2 (⟨512 * (peer c 6).val + kk.val, row_lt (peer c 6) kk⟩ : Fin 4096) (⟨4096 * (1 : Fin 2).val + q.val, col_lt 1 q⟩ : Fin 8192)) :=
    fun kk q => (w1_hit _ _ kk q).trans ((dma_apply m c _ _ (peer c 6).val 1 (off8_6_eq c) kk q (row_lt (peer c 6) kk) (col_lt 1 q)).trans
      (congrFun (warr_eq m Wm c (hagree c).2) _))
  have hW70 : ∀ (kk : Fin 512) (q : Fin 4096), (tail_sub.sl.v598 m c : Vec Ideal S1x512x4096 .f32) (ix3 (0 : Fin 1) kk q) = Wm (ix2 (⟨512 * (peer c 7).val + kk.val, row_lt (peer c 7) kk⟩ : Fin 4096) (⟨4096 * (0 : Fin 2).val + q.val, col_lt 0 q⟩ : Fin 8192)) :=
    fun kk q => (w0_hit _ _ kk q).trans ((dma_apply m c _ _ (peer c 7).val 0 (off7_7_eq c) kk q (row_lt (peer c 7) kk) (col_lt 0 q)).trans
      (congrFun (warr_eq m Wm c (hagree c).2) _))
  have hW71 : ∀ (kk : Fin 512) (q : Fin 4096), (tail_sub.sl.v628 m c : Vec Ideal S1x512x4096 .f32) (ix3 (0 : Fin 1) kk q) = Wm (ix2 (⟨512 * (peer c 7).val + kk.val, row_lt (peer c 7) kk⟩ : Fin 4096) (⟨4096 * (1 : Fin 2).val + q.val, col_lt 1 q⟩ : Fin 8192)) :=
    fun kk q => (w1_hit _ _ kk q).trans ((dma_apply m c _ _ (peer c 7).val 1 (off8_7_eq c) kk q (row_lt (peer c 7) kk) (col_lt 1 q)).trans
      (congrFun (warr_eq m Wm c (hagree c).2) _))
  have H0 : ∀ (p : Fin 512) (q : Fin 4096),
      oM.view.readCov (tail_sub (F := Ideal) m c).1 (Rect.unit (s := S512x8192) ![0, 0] S512x4096.size inb_S512x8192_S512x4096_0_0).toLoadRect (ix2 p q)
        = Cert.Spec.gelu (((((((part (tail_sub.sl.v178 m c : Vec Ideal S512x512 .f32) (tail_sub.sl.v179 m c : Vec Ideal S1x512x4096 .f32) p q + part (tail_sub.sl.v m c : Vec Ideal S512x512 .f32) (tail_sub.sl.v258 m c : Vec Ideal S1x512x4096 .f32) p q) + part (tail_sub.sl.v322 m c : Vec Ideal S512x512 .f32) (tail_sub.sl.v323 m c : Vec Ideal S1x512x4096 .f32) p q) + part (tail_sub.sl.v377 m c : Vec Ideal S512x512 .f32) (tail_sub.sl.v378 m c : Vec Ideal S1x512x4096 .f32) p q) + part (tail_sub.sl.v432 m c : Vec Ideal S512x512 .f32) (tail_sub.sl.v433 m c : Vec Ideal S1x512x4096 .f32) p q) + part (tail_sub.sl.v487 m c : Vec Ideal S512x512 .f32) (tail_sub.sl.v488 m c : Vec Ideal S1x512x4096 .f32) p q) + part (tail_sub.sl.v542 m c : Vec Ideal S512x512 .f32) (tail_sub.sl.v543 m c : Vec Ideal S1x512x4096 .f32) p q) + part (tail_sub.sl.v597 m c : Vec Ideal S512x512 .f32) (tail_sub.sl.v598 m c : Vec Ideal S1x512x4096 .f32) p q) := by
    intro p q
    refine (cur0_miss _ _ p q).trans ((cur0_miss _ _ p q).trans ((cur0_hit _ _ p q).trans ((pay30_apply _ p q).trans ?_)))
    refine congrArg Cert.Spec.gelu ?_
    refine (cur0_hit _ _ p q).trans ((pay29_apply _ _ _ p q).trans ?_)
    refine congrArg (· + part (tail_sub.sl.v597 m c : Vec Ideal S512x512 .f32) (tail_sub.sl.v598 m c : Vec Ideal S1x512x4096 .f32) p q) ?_
    refine (cur0_miss _ _ p q).trans ((cur0_hit _ _ p q).trans ((pay24_apply _ _ _ p q).trans ?_))
    refine congrArg (· + part (tail_sub.sl.v542 m c : Vec Ideal S512x512 .f32) (tail_sub.sl.v543 m c : Vec Ideal S1x512x4096 .f32) p q) ?_
    refine (cur0_miss _ _ p q).trans ((cur0_hit _ _ p q).trans ((pay19_apply _ _ _ p q).trans ?_))
    refine congrArg (· + part (tail_sub.sl.v487 m c : Vec Ideal S512x512 .f32) (tail_sub.sl.v488 m c : Vec Ideal S1x512x4096 .f32) p q) ?_
    refine (cur0_miss _ _ p q).trans ((cur0_hit _ _ p q).trans ((pay15_apply _ _ _ p q).trans ?_))
    refine congrArg (· + part (tail_sub.sl.v432 m c : Vec Ideal S512x512 .f32) (tail_sub.sl.v433 m c : Vec Ideal S1x512x4096 .f32) p q) ?_
    refine (cur0_miss _ _ p q).trans ((cur0_hit _ _ p q).trans ((pay12_apply _ _ _ p q).trans ?_))
    refine congrArg (· + part (tail_sub.sl.v377 m c : Vec Ideal S512x512 .f32) (tail_sub.sl.v378 m c : Vec Ideal S1x512x4096 .f32) p q) ?_
    refine (cur0_miss _ _ p q).trans ((cur0_hit _ _ p q).trans ((pay9_apply _ _ _ p q).trans ?_))
    refine congrArg (· + part (tail_sub.sl.v322 m c : Vec Ideal S512x512 .f32) (tail_sub.sl.v323 m c : Vec Ideal S1x512x4096 .f32) p q) ?_
    refine (cur0_miss _ _ p q).trans ((cur0_hit _ _ p q).trans ((pay6_apply _ _ _ p q).trans ?_))
    refine congrArg (· + part (tail_sub.sl.v m c : Vec Ideal S512x512 .f32) (tail_sub.sl.v258 m c : Vec Ideal S1x512x4096 .f32) p q) ?_
    exact (cur0_miss _ _ p q).trans ((cur0_hit _ _ p q).trans (pay3_apply _ _ p q))
  have H1 : ∀ (p : Fin 512) (q : Fin 4096),
      oM.view.readCov (tail_sub (F := Ideal) m c).1 (Rect.unit (s := S512x8192) ![0, 4096] S512x4096.size inb_S512x8192_S512x4096_0_4096).toLoadRect (ix2 p q)
        = Cert.Spec.gelu (((((((part (tail_sub.sl.v178 m c : Vec Ideal S512x512 .f32) (tail_sub.sl.v196 m c : Vec Ideal S1x512x4096 .f32) p q + part (tail_sub.sl.v m c : Vec Ideal S512x512 .f32) (tail_sub.sl.v278 m c : Vec Ideal S1x512x4096 .f32) p q) + part (tail_sub.sl.v322 m c : Vec Ideal S512x512 .f32) (tail_sub.sl.v343 m c : Vec Ideal S1x512x4096 .f32) p q) + part (tail_sub.sl.v377 m c : Vec Ideal S512x512 .f32) (tail_sub.sl.v398 m c : Vec Ideal S1x512x4096 .f32) p q) + part (tail_sub.sl.v432 m c : Vec Ideal S512x512 .f32) (tail_sub.sl.v453 m c : Vec Ideal S1x512x4096 .f32) p q) + part (tail_sub.sl.v487 m c : Vec Ideal S512x512 .f32) (tail_sub.sl.v508 m c : Vec Ideal S1x512x4096 .f32) p q) + part (tail_sub.sl.v542 m c : Vec Ideal S512x512 .f32) (tail_sub.sl.v563 m c : Vec Ideal S1x512x4096 .f32) p q) + part (tail_sub.sl.v597 m c : Vec Ideal S512x512 .f32) (tail_sub.sl.v628 m c : Vec Ideal S1x512x4096 .f32) p q) := by
    intro p q
    refine (cur1_hit _ _ p q).trans ((pay32_apply _ p q).trans ?_)
    refine congrArg Cert.Spec.gelu ?_
    refine (cur1_hit _ _ p q).trans ((pay31_apply _ _ _ p q).trans ?_)
    refine congrArg (· + part (tail_sub.sl.v597 m c : Vec Ideal S512x512 .f32) (tail_sub.sl.v628 m c : Vec Ideal S1x512x4096 .f32) p q) ?_
    refine (cur1_miss _ _ p q).trans ((cur1_miss _ _ p q).trans ((cur1_hit _ _ p q).trans ((pay26_pay25_apply _ _ _ p q).trans ?_)))
    refine congrArg (· + part (tail_sub.sl.v542 m c : Vec Ideal S512x512 .f32) (tail_sub.sl.v563 m c : Vec Ideal S1x512x4096 .f32) p q) ?_
    refine (cur1_miss _ _ p q).trans ((cur1_hit _ _ p q).trans ((pay21_pay20_apply _ _ _ p q).trans ?_))
    refine congrArg (· + part (tail_sub.sl.v487 m c : Vec Ideal S512x512 .f32) (tail_sub.sl.v508 m c : Vec Ideal S1x512x4096 .f32) p q) ?_
    refine (cur1_miss _ _ p q).trans ((cur1_hit _ _ p q).trans ((pay16_apply _ _ _ p q).trans ?_))
    refine congrArg (· + part (tail_sub.sl.v432 m c : Vec Ideal S512x512 .f32) (tail_sub.sl.v453 m c : Vec Ideal S1x512x4096 .f32) p q) ?_
    refine (cur1_miss _ _ p q).trans ((cur1_hit _ _ p q).trans ((pay13_apply _ _ _ p q).trans ?_))
    refine congrArg (· + part (tail_sub.sl.v377 m c : Vec Ideal S512x512 .f32) (tail_sub.sl.v398 m c : Vec Ideal S1x512x4096 .f32) p q) ?_
    refine (cur1_miss _ _ p q).trans ((cur1_hit _ _ p q).trans ((pay10_apply _ _ _ p q).trans ?_))
    refine congrArg (· + part (tail_sub.sl.v322 m c : Vec Ideal S512x512 .f32) (tail_sub.sl.v343 m c : Vec Ideal S1x512x4096 .f32) p q) ?_
    refine (cur1_miss _ _ p q).trans ((cur1_hit _ _ p q).trans ((pay7_apply _ _ _ p q).trans ?_))
    refine congrArg (· + part (tail_sub.sl.v m c : Vec Ideal S512x512 .f32) (tail_sub.sl.v278 m c : Vec Ideal S1x512x4096 .f32) p q) ?_
    exact (cur1_miss _ _ p q).trans ((cur1_hit _ _ p q).trans (pay4_apply _ _ p q))
  funext i
  obtain ⟨p, q8, rfl⟩ : ∃ (p : Fin 512) (q8 : Fin 8192), i = ix2 p q8 := ⟨i 0, i 1, eq_ix2 i⟩
  rw [Cert.RefBlock.block_G]
  by_cases hq : q8.val < 4096
  · obtain ⟨q, rfl⟩ : ∃ q : Fin 4096, q8 = (⟨q.val, lo_lt q⟩ : Fin 8192) := ⟨⟨q8.val, hq⟩, Fin.ext rfl⟩
    exact (out_at_first (tail_sub (F := Ideal) m c).1 p q).trans ((H0 p q).trans
      ((half0_apply (tail_sub.sl.v178 m c : Vec Ideal S512x512 .f32) (tail_sub.sl.v m c : Vec Ideal S512x512 .f32) (tail_sub.sl.v322 m c : Vec Ideal S512x512 .f32) (tail_sub.sl.v377 m c : Vec Ideal S512x512 .f32) (tail_sub.sl.v432 m c : Vec Ideal S512x512 .f32) (tail_sub.sl.v487 m c : Vec Ideal S512x512 .f32) (tail_sub.sl.v542 m c : Vec Ideal S512x512 .f32) (tail_sub.sl.v597 m c : Vec Ideal S512x512 .f32) (tail_sub.sl.v179 m c : Vec Ideal S1x512x4096 .f32) (tail_sub.sl.v258 m c : Vec Ideal S1x512x4096 .f32) (tail_sub.sl.v323 m c : Vec Ideal S1x512x4096 .f32) (tail_sub.sl.v378 m c : Vec Ideal S1x512x4096 .f32) (tail_sub.sl.v433 m c : Vec Ideal S1x512x4096 .f32) (tail_sub.sl.v488 m c : Vec Ideal S1x512x4096 .f32) (tail_sub.sl.v543 m c : Vec Ideal S1x512x4096 .f32) (tail_sub.sl.v598 m c : Vec Ideal S1x512x4096 .f32) p q).symm.trans
        (entry0 X Wm c (tail_sub.sl.v178 m c : Vec Ideal S512x512 .f32) (tail_sub.sl.v m c : Vec Ideal S512x512 .f32) (tail_sub.sl.v322 m c : Vec Ideal S512x512 .f32) (tail_sub.sl.v377 m c : Vec Ideal S512x512 .f32) (tail_sub.sl.v432 m c : Vec Ideal S512x512 .f32) (tail_sub.sl.v487 m c : Vec Ideal S512x512 .f32) (tail_sub.sl.v542 m c : Vec Ideal S512x512 .f32) (tail_sub.sl.v597 m c : Vec Ideal S512x512 .f32) (tail_sub.sl.v179 m c : Vec Ideal S1x512x4096 .f32) (tail_sub.sl.v258 m c : Vec Ideal S1x512x4096 .f32) (tail_sub.sl.v323 m c : Vec Ideal S1x512x4096 .f32) (tail_sub.sl.v378 m c : Vec Ideal S1x512x4096 .f32) (tail_sub.sl.v433 m c : Vec Ideal S1x512x4096 .f32) (tail_sub.sl.v488 m c : Vec Ideal S1x512x4096 .f32) (tail_sub.sl.v543 m c : Vec Ideal S1x512x4096 .f32) (tail_sub.sl.v598 m c : Vec Ideal S1x512x4096 .f32) hA0 hA1 hA2 hA3 hA4 hA5 hA6 hA7 hW00 hW10 hW20 hW30 hW40 hW50 hW60 hW70 p q)))
  · obtain ⟨q, rfl⟩ : ∃ q : Fin 4096, q8 = (⟨4096 + q.val, hi_lt q⟩ : Fin 8192) :=
      ⟨⟨q8.val - 4096, by have := q8.isLt; omega⟩, Fin.ext (by show q8.val = 4096 + (q8.val - 4096); omega)⟩
    exact (out_at_second (tail_sub (F := Ideal) m c).1 p q).trans ((H1 p q).trans
      ((half1_apply (tail_sub.sl.v178 m c : Vec Ideal S512x512 .f32) (tail_sub.sl.v m c : Vec Ideal S512x512 .f32) (tail_sub.sl.v322 m c : Vec Ideal S512x512 .f32) (tail_sub.sl.v377 m c : Vec Ideal S512x512 .f32) (tail_sub.sl.v432 m c : Vec Ideal S512x512 .f32) (tail_sub.sl.v487 m c : Vec Ideal S512x512 .f32) (tail_sub.sl.v542 m c : Vec Ideal S512x512 .f32) (tail_sub.sl.v597 m c : Vec Ideal S512x512 .f32) (tail_sub.sl.v196 m c : Vec Ideal S1x512x4096 .f32) (tail_sub.sl.v278 m c : Vec Ideal S1x512x4096 .f32) (tail_sub.sl.v343 m c : Vec Ideal S1x512x4096 .f32) (tail_sub.sl.v398 m c : Vec Ideal S1x512x4096 .f32) (tail_sub.sl.v453 m c : Vec Ideal S1x512x4096 .f32) (tail_sub.sl.v508 m c : Vec Ideal S1x512x4096 .f32) (tail_sub.sl.v563 m c : Vec Ideal S1x512x4096 .f32) (tail_sub.sl.v628 m c : Vec Ideal S1x512x4096 .f32) p q).symm.trans
        (entry1 X Wm c (tail_sub.sl.v178 m c : Vec Ideal S512x512 .f32) (tail_sub.sl.v m c : Vec Ideal S512x512 .f32) (tail_sub.sl.v322 m c : Vec Ideal S512x512 .f32) (tail_sub.sl.v377 m c : Vec Ideal S512x512 .f32) (tail_sub.sl.v432 m c : Vec Ideal S512x512 .f32) (tail_sub.sl.v487 m c : Vec Ideal S512x512 .f32) (tail_sub.sl.v542 m c : Vec Ideal S512x512 .f32) (tail_sub.sl.v597 m c : Vec Ideal S512x512 .f32) (tail_sub.sl.v196 m c : Vec Ideal S1x512x4096 .f32) (tail_sub.sl.v278 m c : Vec Ideal S1x512x4096 .f32) (tail_sub.sl.v343 m c : Vec Ideal S1x512x4096 .f32) (tail_sub.sl.v398 m c : Vec Ideal S1x512x4096 .f32) (tail_sub.sl.v453 m c : Vec Ideal S1x512x4096 .f32) (tail_sub.sl.v508 m c : Vec Ideal S1x512x4096 .f32) (tail_sub.sl.v563 m c : Vec Ideal S1x512x4096 .f32) (tail_sub.sl.v628 m c : Vec Ideal S1x512x4096 .f32) hA0 hA1 hA2 hA3 hA4 hA5 hA6 hA7 hW01 hW11 hW21 hW31 hW41 hW51 hW61 hW71 p q)))

/-- info: 'Cert.KernelIdeal.OutBlock.out_block_list' depends on axioms: [propext, Classical.choice, Quot.sound] -/
#guard_msgs in #print axioms out_block_list

end Cert.KernelIdeal.OutBlock

namespace Cert.KernelIdeal.KernelValue

open Idealize.ShloMosaic Cert.KernelIdeal

/-- The kernel's result on device c is block c of the specified result of the whole arrays. -/
theorem out_block (m : (ℓ : Loc nD τ sig) → Buf (Elt Ideal) ℓ)
    (X : Buf (Elt Ideal) (((0 : Dev Cert.ReferenceIdeal.nD).tc : Thread Cert.ReferenceIdeal.nD Cert.ReferenceIdeal.τ).loc Cert.ReferenceIdeal.main_arg0))
    (Wm : Buf (Elt Ideal) (((0 : Dev Cert.ReferenceIdeal.nD).tc : Thread Cert.ReferenceIdeal.nD Cert.ReferenceIdeal.τ).loc Cert.ReferenceIdeal.main_arg1))
    (hagree : ∀ c : Dev nD,
      m ((c.tc : Thread nD τ).loc main_arg0) = Layout.block ⟨2, ![4096, 512]⟩ ⟨2, ![4096, 4096]⟩ 1 8 c X
        ∧ m ((c.tc : Thread nD τ).loc main_arg1) = Wm)
    (c : Dev nD) :
    Proto.outAt m c = Layout.block ⟨2, ![512, 8192]⟩ ⟨2, ![4096, 8192]⟩ 0 8 c (Cert.Spec.G X Wm) :=
  Cert.KernelIdeal.OutBlock.out_block_list m X Wm hagree c

end Cert.KernelIdeal.KernelValue

end
-- ==== Proof.RefValue.lean ====
/-
  The reference's value. The reference multiplies the whole x by the whole w on one device and applies the
  tanh approximation of GELU to every entry of the product. Read at an index (i, n), its product is the sum
  over k < 4096 of x(i, k) · w(k, n), and the activation's operations are pointwise, so its result is the
  specified function `Cert.Spec.G` of the two arrays; the only difference in spelling is the grouping of the
  cube inside the activation, which associativity of the product removes.
-/
import proofs.«900487_g7700000000000488_dist_a2a_gemm_m4096_k4096_n8192_f32_gelu_v7x_i8_1_alg».proof.Proof.Gen.ReferenceIdeal.Run
import proofs.«900487_g7700000000000488_dist_a2a_gemm_m4096_k4096_n8192_f32_gelu_v7x_i8_1_alg».proof.Proof.Gen.ReferenceIdeal.Read
import proofs.«900487_g7700000000000488_dist_a2a_gemm_m4096_k4096_n8192_f32_gelu_v7x_i8_1_alg».proof.Proof.Spec

noncomputable section

open scoped BigOperators

namespace Cert.RefValue

open Cert.ReferenceIdeal Cert.ReferenceIdeal.Gen Idealize.ShloMosaic Idealize.ShloMosaic.TcCoe Idealize.SL.Sem

/-! ## The product at an index -/

/-- The left operand's index of the product at (i, n) and contraction index k is (i, k). -/
theorem lidx_eq (i : S4096x8192.Idx) (k : Fin 4096) : Read.lidx_main_v0 i k = ValueIdx.ix2 (i 0) k :=
  funext fun a => by match a with | ⟨0, _⟩ => rfl | ⟨1, _⟩ => rfl

/-- The right operand's index there is (k, n). -/
theorem ridx_eq (i : S4096x8192.Idx) (k : Fin 4096) : Read.ridx_main_v0 i k = ValueIdx.ix2 k (i 1) :=
  funext fun a => by match a with | ⟨0, _⟩ => rfl | ⟨1, _⟩ => rfl

/-- The product of the two arrays at (i, n) is the sum over k of x(i, k) · w(k, n). -/
theorem product_apply (X : (⟨S4096x4096, .f32⟩ : BufTy).Contents (Elt Ideal)) (Wm : (⟨S4096x8192, .f32⟩ : BufTy).Contents (Elt Ideal))
    (i : S4096x8192.Idx) :
    Read.val_main_v0 (F := Ideal) X Wm i
      = ∑ k : Fin 4096, (X (ValueIdx.ix2 (i 0) k) : EReal) * (Wm (ValueIdx.ix2 k (i 1)) : EReal) := by
  rw [Read.val_main_v0_apply]
  exact Finset.sum_congr rfl fun k _ => by rw [lidx_eq, ridx_eq]; rfl

/-! ## The reference's result is the specified function -/

/-- The last stage of the reference, as a function of the two whole arrays, is `Cert.Spec.G`. -/
theorem ref_eq (X : (⟨S4096x4096, .f32⟩ : BufTy).Contents (Elt Ideal)) (Wm : (⟨S4096x8192, .f32⟩ : BufTy).Contents (Elt Ideal)) :
    Read.val_main_v13 (F := Ideal) X Wm = Cert.Spec.G X Wm := by
  funext i
  rw [Read.val_main_v13_apply, Read.val_main_v2_apply, Read.val_main_v12_apply, Read.val_main_v1_apply,
    Read.val_main_cst_apply, Read.val_main_v11_apply, Read.val_main_cst_2_apply, Read.val_main_v10_apply,
    Read.val_main_v9_apply, Read.val_main_v8_apply, Read.val_main_cst_1_apply, Read.val_main_v7_apply,
    Read.val_main_v6_apply, Read.val_main_v5_apply, Read.val_main_cst_0_apply, Read.val_main_v4_apply,
    Read.val_main_v3_apply, product_apply]
  exact Cert.Spec.gelu_ref_eq _

/-- The term the reference's run states for its result is `Cert.Spec.G` of the two arrays. -/
theorem run_term_eq (X : FVec Ideal S4096x4096 .f32) (Wm : FVec Ideal S4096x8192 .f32) :
    (mulf (mulf (broadcastInDim S4096x8192 ![] bcast_S_S4096x8192 (constant S_ .f32 0x3F000000#32)) (Host.dotGeneral dot_S4096x4096_S4096x8192_S4096x8192_1_0_0_1_n_n none X Wm)) (addf (broadcastInDim S4096x8192 ![] bcast_S_S4096x8192 (constant S_ .f32 0x3F800000#32)) (Host.tanh (mulf (broadcastInDim S4096x8192 ![] bcast_S_S4096x8192 (constant S_ .f32 0x3F4C422A#32)) (addf (Host.dotGeneral dot_S4096x4096_S4096x8192_S4096x8192_1_0_0_1_n_n none X Wm) (mulf (broadcastInDim S4096x8192 ![] bcast_S_S4096x8192 (constant S_ .f32 0x3D372713#32)) (mulf (mulf (Host.dotGeneral dot_S4096x4096_S4096x8192_S4096x8192_1_0_0_1_n_n none X Wm) (Host.dotGeneral dot_S4096x4096_S4096x8192_S4096x8192_1_0_0_1_n_n none X Wm)) (Host.dotGeneral dot_S4096x4096_S4096x8192_S4096x8192_1_0_0_1_n_n none X Wm))))))) : FVec Ideal S4096x8192 .f32)
      = Cert.Spec.G X Wm :=
  (Read.val_main_v13_eq (F := Ideal) X Wm).trans (ref_eq X Wm)

/-! ## The reference's run, with its result named -/

/-- From any memory, the reference runs, its result ends at `Cert.Spec.G` of its two argument arrays, and the
    arguments end unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13)
          = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (run_term_eq _ _), (h c).2⟩)
    (Cert.ReferenceIdeal.Value.run (F := Ideal) m ρ)

/-- info: 'Cert.RefValue.ref_eq' depends on axioms: [propext, Classical.choice, Quot.sound] -/
#guard_msgs in #print axioms ref_eq

end Cert.RefValue

end
-- ==== Proof.lean ====
/- The five conjuncts assembled.

   The kernel's three frames come from one run of the region on the mesh: every weakly fair interleaving of the eight
   devices' bodies terminates with each device's result array at the body's named contents, its block of x and its copy
   of w unchanged (the word-level program by the same text read at the word instance). The reference's frame is its
   run with the value dropped. The idealized kernel and the idealized reference agree because device c's named contents
   are rows 512 c … of gelu (x · w): the eight partial products over the partners' column blocks of x, in any order of
   the partners, sum to the whole contraction, and the activation is applied entry by entry. -/
import proofs.«900487_g7700000000000488_dist_a2a_gemm_m4096_k4096_n8192_f32_gelu_v7x_i8_1_alg».proof.Defs
import proofs.«900487_g7700000000000488_dist_a2a_gemm_m4096_k4096_n8192_f32_gelu_v7x_i8_1_alg».proof.Proof.Gen.Kernel
import proofs.«900487_g7700000000000488_dist_a2a_gemm_m4096_k4096_n8192_f32_gelu_v7x_i8_1_alg».proof.Proof.Gen.Kernel.Skeleton
import proofs.«900487_g7700000000000488_dist_a2a_gemm_m4096_k4096_n8192_f32_gelu_v7x_i8_1_alg».proof.Proof.Gen.Kernel.Launch
import proofs.«900487_g7700000000000488_dist_a2a_gemm_m4096_k4096_n8192_f32_gelu_v7x_i8_1_alg».proof.Proof.Gen.Kernel.Points
import proofs.«900487_g7700000000000488_dist_a2a_gemm_m4096_k4096_n8192_f32_gelu_v7x_i8_1_alg».proof.Proof.Gen.Kernel.Frame
import proofs.«900487_g7700000000000488_dist_a2a_gemm_m4096_k4096_n8192_f32_gelu_v7x_i8_1_alg».proof.Proof.Gen.KernelIdeal
import proofs.«900487_g7700000000000488_dist_a2a_gemm_m4096_k4096_n8192_f32_gelu_v7x_i8_1_alg».proof.Proof.Gen.KernelIdeal.Skeleton
import proofs.«900487_g7700000000000488_dist_a2a_gemm_m4096_k4096_n8192_f32_gelu_v7x_i8_1_alg».proof.Proof.Gen.KernelIdeal.Launch
import proofs.«900487_g7700000000000488_dist_a2a_gemm_m4096_k4096_n8192_f32_gelu_v7x_i8_1_alg».proof.Proof.Gen.KernelIdeal.Points
import proofs.«900487_g7700000000000488_dist_a2a_gemm_m4096_k4096_n8192_f32_gelu_v7x_i8_1_alg».proof.Proof.Gen.KernelIdeal.Frame
import proofs.«900487_g7700000000000488_dist_a2a_gemm_m4096_k4096_n8192_f32_gelu_v7x_i8_1_alg».proof.Proof.Gen.ReferenceIdeal
import proofs.«900487_g7700000000000488_dist_a2a_gemm_m4096_k4096_n8192_f32_gelu_v7x_i8_1_alg».proof.Proof.Gen.Pre_finite_inputs_Kernel
import proofs.«900487_g7700000000000488_dist_a2a_gemm_m4096_k4096_n8192_f32_gelu_v7x_i8_1_alg».proof.Proof.Gen.Pre_finite_inputs_ReferenceIdeal
import proofs.«900487_g7700000000000488_dist_a2a_gemm_m4096_k4096_n8192_f32_gelu_v7x_i8_1_alg».proof.Proof.Launch
import proofs.«900487_g7700000000000488_dist_a2a_gemm_m4096_k4096_n8192_f32_gelu_v7x_i8_1_alg».proof.Proof.Body
import proofs.«900487_g7700000000000488_dist_a2a_gemm_m4096_k4096_n8192_f32_gelu_v7x_i8_1_alg».proof.Proof.Bits.Launch
import proofs.«900487_g7700000000000488_dist_a2a_gemm_m4096_k4096_n8192_f32_gelu_v7x_i8_1_alg».proof.Proof.Bits.Body
import proofs.«900487_g7700000000000488_dist_a2a_gemm_m4096_k4096_n8192_f32_gelu_v7x_i8_1_alg».proof.Proof.OutBlock
import proofs.«900487_g7700000000000488_dist_a2a_gemm_m4096_k4096_n8192_f32_gelu_v7x_i8_1_alg».proof.Proof.RefValue
import Idealize.ShloMosaic.Adequacy
import Idealize.ShloMosaic.Init

noncomputable section

namespace Cert.Proof

open Idealize.ShloMosaic Idealize.SL.Sem Idealize.ShloMosaic.TcCoe

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  -- the word-level kernel runs and leaves its arguments
  fun m ρ _ => (θ_run _ _ _).mono
    (fun r h c => ⟨((h c).1 0).trans (Cert.Kernel.LaunchProof.finalA_x m ρ c), (h c).2⟩)
    (Cert.Kernel.LaunchProof.run_main m ρ (Cert.Kernel.BodyProof.body_obligation m)),
  -- the idealized kernel likewise
  fun m ρ _ => (θ_run _ _ _).mono
    (fun r h c => ⟨((h c).1 0).trans (Cert.KernelIdeal.LaunchProof.finalA_x m ρ c), (h c).2⟩)
    (Cert.KernelIdeal.LaunchProof.run_main m ρ (Cert.KernelIdeal.BodyProof.body_obligation m)),
  -- the reference: its run with the value dropped
  fun m ρ _ => (θ_run _ _ _).mono (fun _ h c => (h c).2) (Cert.RefValue.run_G m ρ),
  trivial,
  -- both idealized programs run; device c's result is block c of the reference's
  fun m ρ m' ρ' _ hagree =>
    ⟨Cert.Spec.G (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)),
      (θ_run _ _ _).mono
        (fun r h c => ⟨(((h c).1 1).trans (Cert.KernelIdeal.LaunchProof.finalA_out m ρ c)).trans (Cert.KernelIdeal.KernelValue.out_block m _ _ hagree c),
          ((h c).1 0).trans (Cert.KernelIdeal.LaunchProof.finalA_x m ρ c), (h c).2⟩)
        (Cert.KernelIdeal.LaunchProof.run_main m ρ (Cert.KernelIdeal.BodyProof.body_obligation m)),
      (θ_run _ _ _).mono (fun r h => h 0) (Cert.RefValue.run_G m' ρ')⟩⟩

end Cert.Proof

end
